-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v306)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v306) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v465) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128 : Shape := ⟨1, ![128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S2x128x256 : S_.BroadcastsInDim S2x128x256 (![] : Fin 0 → Fin S2x128x256.rank)
  reducesTo_S2x128x256_S_d0_1_2 : S2x128x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S50000 : S_.BroadcastsInDim S50000 (![] : Fin 0 → Fin S50000.rank)
  reducesTo_S50000_S_d0 : S50000.ReducesTo [0] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S50000 32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S50000 32 := broadcastInDim S50000 ![] bcast_S_S50000 main_c_30
  let main_v80 : IVec S50000 1 := cmpi .sge main_arg2 main_v79
  let main_c_31 : IVec S_ 32 := constantI S_ 32 512#32
  let main_v81 : IVec S50000 32 := broadcastInDim S50000 ![] bcast_S_S50000 main_c_31
  let main_v82 : IVec S50000 1 := cmpi .slt main_arg2 main_v81
  let main_v83 : IVec S50000 1 := andi main_v80 main_v82
  let main_c_32 : IVec S_ 1 := constantI S_ 1 1#1
  let main_v84 : IVec S_ 1 := (fun x v => Host.reduce IntOp.andi x v reducesTo_S50000_S_d0 h_S_) main_v83 main_c_32
  fn_part5 (F := F) main_v78 main_v84

def fn_part3 {F : FTy → Type} [FloatOps F] (main_arg2 : IVec S50000 32) (main_arg13 : FVec F S2x128 .f32) (main_arg14 : FVec F S2x128 .f32) (main_arg15 : FVec F S2x128 .f32) (main_arg16 : FVec F S128x128 .f32) (main_arg17 : FVec F S128 .f32) (main_v48 : IVec S_ 1) (main_v49 : FVec F S2x256x128 .f32) (main_v50 : FVec F S2x256x128 .f32) : IVec S_ 1 :=
  let main_v51 : IVec S2x256x128 1 := cmpf .olt main_v49 main_v50
  let main_c_19 : IVec S_ 1 := constantI S_ 1 1#1
  let main_v52 : IVec S_ 1 := (fun x v => Host.reduce IntOp.andi x v reducesTo_S2x256x128_S_d0_1_2 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128 .f32 := Host.absf main_arg15
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg2 main_arg16 main_arg17 main_v63 main_v67

def fn_part2 {F : FTy → Type} [FloatOps F] (main_arg2 : IVec S50000 32) (main_arg9 : FVec F S2x256 .f32) (main_arg10 : FVec F S2x256 .f32) (main_arg11 : FVec F S2x256 .f32) (main_arg12 : FVec F S2x256x128 .f32) (main_arg13 : FVec F S2x128 .f32) (main_arg14 : FVec F S2x128 .f32) (main_arg15 : FVec F S2x128 .f32) (main_arg16 : FVec F S128x128 .f32) (main_arg17 : FVec F S128 .f32) (main_v33 : IVec S_ 1) : IVec S_ 1 :=
  let main_v34 : FVec F S2x256 .f32 := Host.absf main_arg9
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256 .f32 := Host.absf main_arg10
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256 .f32 := Host.absf main_arg11
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2x256x128 .f32 := Host.absf main_arg12
  let main_cst_18 : FVec F S_ .f32 := constant S_ .f32 0x7F800000#32
  let main_v50 : FVec F S2x256x128 .f32 := broadcastInDim S2x256x128 ![] bcast_S_S2x256x128 main_cst_18
  fn_part3 (F := F) main_arg2 main_arg13 main_arg14 main_arg15 main_arg16 main_arg17 main_v48 main_v49 main_v50

def fn_part1 {F : FTy → Type} [FloatOps F] (main_arg2 : IVec S50000 32) (main_arg6 : FVec F S3x128 .f32) (main_arg7 : FVec F S128 .f32) (main_arg8 : FVec F S2x128x256 .f32) (main_arg9 : FVec F S2x256 .f32) (main_arg10 : FVec F S2x256 .f32) (main_arg11 : FVec F S2x256 .f32) (main_arg12 : FVec F S2x256x128 .f32) (main_arg13 : FVec F S2x128 .f32) (main_arg14 : FVec F S2x128 .f32) (main_arg15 : FVec F S2x128 .f32) (main_arg16 : FVec F S128x128 .f32) (main_arg17 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x256 .f32 := Host.absf main_arg8
  let main_cst_10 : FVec F S_ .f32 := constant S_ .f32 0x7F800000#32
  let main_v30 : FVec F S2x128x256 .f32 := broadcastInDim S2x128x256 ![] bcast_S_S2x128x256 main_cst_10
  let main_v31 : IVec S2x128x256 1 := cmpf .olt main_v29 main_v30
  let main_c_11 : IVec S_ 1 := constantI S_ 1 1#1
  let main_v32 : IVec S_ 1 := (fun x v => Host.reduce IntOp.andi x v reducesTo_S2x128x256_S_d0_1_2 h_S_) main_v31 main_c_11
  let main_v33 : IVec S_ 1 := andi main_v28 main_v32
  fn_part2 (F := F) main_arg2 main_arg9 main_arg10 main_arg11 main_arg12 main_arg13 main_arg14 main_arg15 main_arg16 main_arg17 main_v33

def fn {F : FTy → Type} [FloatOps F] (main_arg0 : FVec F S50000x128 .f32) (main_arg1 : IVec S2x600000 32) (main_arg2 : IVec S50000 32) (main_arg3 : FVec F S3x128x128 .f32) (main_arg4 : FVec F S3x128 .f32) (main_arg5 : FVec F S3x128 .f32) (main_arg6 : FVec F S3x128 .f32) (main_arg7 : FVec F S128 .f32) (main_arg8 : FVec F S2x128x256 .f32) (main_arg9 : FVec F S2x256 .f32) (main_arg10 : FVec F S2x256 .f32) (main_arg11 : FVec F S2x256 .f32) (main_arg12 : FVec F S2x256x128 .f32) (main_arg13 : FVec F S2x128 .f32) (main_arg14 : FVec F S2x128 .f32) (main_arg15 : FVec F S2x128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg2 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128 : Shape := ⟨1, ![128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S128x128 : Shape := ⟨2, ![128, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S512 : Shape := ⟨1, ![512]⟩
abbrev S1x512 : Shape := ⟨2, ![1, 512]⟩
abbrev S50000x512 : Shape := ⟨2, ![50000, 512]⟩
abbrev S512x128 : Shape := ⟨2, ![512, 128]⟩
abbrev S650000x128 : Shape := ⟨2, ![650000, 128]⟩
abbrev S1x128x128 : Shape := ⟨3, ![1, 128, 128]⟩
abbrev S1x128 : Shape := ⟨2, ![1, 128]⟩
abbrev S2000x128 : Shape := ⟨2, ![2000, 128]⟩
abbrev S2000x512 : Shape := ⟨2, ![2000, 512]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S512x256 : Shape := ⟨2, ![512, 256]⟩
abbrev S512x1 : Shape := ⟨2, ![512, 1]⟩

abbrev nBuf : Space → Nat
  | .hbm => 373
  | .vmem => 100
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S128, .f32⟩
  | 8 => ⟨S2x128x256, .f32⟩
  | 9 => ⟨S2x256, .f32⟩
  | 10 => ⟨S2x256, .f32⟩
  | 11 => ⟨S2x256, .f32⟩
  | 12 => ⟨S2x256x128, .f32⟩
  | 13 => ⟨S2x128, .f32⟩
  | 14 => ⟨S2x128, .f32⟩
  | 15 => ⟨S2x128, .f32⟩
  | 16 => ⟨S128x128, .f32⟩
  | 17 => ⟨S128, .f32⟩
  | 18 => ⟨S50000, .i32⟩
  | 19 => ⟨S1x600000, .i32⟩
  | 20 => ⟨S600000, .i32⟩
  | 21 => ⟨S650000, .i32⟩
  | 22 => ⟨S1x600000, .i32⟩
  | 23 => ⟨S600000, .i32⟩
  | 24 => ⟨S650000, .i32⟩
  | 25 => ⟨S_, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x1, .i32⟩
  | 55 => ⟨S512, .i32⟩
  | 56 => ⟨S1x512, .i32⟩
  | 57 => ⟨S50000x512, .i32⟩
  | 58 => ⟨S50000x512, .i32⟩
  | 59 => ⟨S50000x512, .i1⟩
  | 60 => ⟨S50000x512, .bf16⟩
  | 61 => ⟨S512x128, .f32⟩
  | 62 => ⟨S650000x1, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x128, .f32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S50000x128, .bf16⟩
  | 79 => ⟨S1x128x128, .f32⟩
  | 80 => ⟨S128x128, .f32⟩
  | 81 => ⟨S128x128, .bf16⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S128, .f32⟩
  | 113 => ⟨S1x128, .f32⟩
  | 114 => ⟨S50000x128, .f32⟩
  | 115 => ⟨S512x128, .f32⟩
  | 116 => ⟨S512x128, .f32⟩
  | 117 => ⟨S1x128x256, .f32⟩
  | 118 => ⟨S128x256, .f32⟩
  | 119 => ⟨S1x256, .f32⟩
  | 120 => ⟨S256, .f32⟩
  | 121 => ⟨S1x256, .f32⟩
  | 122 => ⟨S1x256, .f32⟩
  | 123 => ⟨S256, .f32⟩
  | 124 => ⟨S1x256, .f32⟩
  | 125 => ⟨S1x256, .f32⟩
  | 126 => ⟨S256, .f32⟩
  | 127 => ⟨S1x256, .f32⟩
  | _ => ⟨S50000x128, .f32⟩

abbrev hbmTy0_1 (i : Nat) : BufTy := match i % 128 with
  | 0 => ⟨S1x256x128, .f32⟩
  | 1 => ⟨S256x128, .f32⟩
  | 2 => ⟨S1x128, .f32⟩
  | 3 => ⟨S128, .f32⟩
  | 4 => ⟨S1x128, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S512x128, .f32⟩
  | 12 => ⟨S512x128, .f32⟩
  | 13 => ⟨S650000x1, .f32⟩
  | 14 => ⟨S_, .i32⟩
  | 15 => ⟨S650000, .i32⟩
  | 16 => ⟨S650000, .i1⟩
  | 17 => ⟨S_, .i32⟩
  | 18 => ⟨S650000, .i32⟩
  | 19 => ⟨S650000, .i32⟩
  | 20 => ⟨S650000, .i32⟩
  | 21 => ⟨S650000x1, .i32⟩
  | 22 => ⟨S650000x128, .f32⟩
  | 23 => ⟨S650000x128, .f32⟩
  | 24 => ⟨S650000x128, .f32⟩
  | 25 => ⟨S_, .f32⟩
  | 26 => ⟨S50000x128, .f32⟩
  | 27 => ⟨S650000x1, .i32⟩
  | 28 => ⟨S50000x128, .f32⟩
  | 29 => ⟨S50000x128, .bf16⟩
  | 30 => ⟨S1x128x128, .f32⟩
  | 31 => ⟨S128x128, .f32⟩
  | 32 => ⟨S128x128, .bf16⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S1x128, .f32⟩
  | 63 => ⟨S128, .f32⟩
  | 64 => ⟨S1x128, .f32⟩
  | 65 => ⟨S50000x128, .f32⟩
  | 66 => ⟨S512x128, .f32⟩
  | 67 => ⟨S512x128, .f32⟩
  | 68 => ⟨S1x128x256, .f32⟩
  | 69 => ⟨S128x256, .f32⟩
  | 70 => ⟨S1x256, .f32⟩
  | 71 => ⟨S256, .f32⟩
  | 72 => ⟨S1x256, .f32⟩
  | 73 => ⟨S1x256, .f32⟩
  | 74 => ⟨S256, .f32⟩
  | 75 => ⟨S1x256, .f32⟩
  | 76 => ⟨S1x256, .f32⟩
  | 77 => ⟨S256, .f32⟩
  | 78 => ⟨S1x256, .f32⟩
  | 79 => ⟨S1x256x128, .f32⟩
  | 80 => ⟨S256x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S128, .f32⟩
  | 89 => ⟨S1x128, .f32⟩
  | 90 => ⟨S512x128, .f32⟩
  | 91 => ⟨S512x128, .f32⟩
  | 92 => ⟨S650000x1, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000x128, .f32⟩
  | 102 => ⟨S650000x128, .f32⟩
  | 103 => ⟨S650000x128, .f32⟩
  | 104 => ⟨S_, .f32⟩
  | 105 => ⟨S50000x128, .f32⟩
  | 106 => ⟨S650000x1, .i32⟩
  | 107 => ⟨S50000x128, .f32⟩
  | 108 => ⟨S50000x128, .bf16⟩
  | 109 => ⟨S1x128x128, .f32⟩
  | 110 => ⟨S128x128, .f32⟩
  | 111 => ⟨S128x128, .bf16⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128, .f32⟩
  | 14 => ⟨S128, .f32⟩
  | 15 => ⟨S1x128, .f32⟩
  | 16 => ⟨S50000x128, .f32⟩
  | 17 => ⟨S650000x1, .f32⟩
  | 18 => ⟨S_, .i32⟩
  | 19 => ⟨S650000, .i32⟩
  | 20 => ⟨S650000, .i1⟩
  | 21 => ⟨S_, .i32⟩
  | 22 => ⟨S650000, .i32⟩
  | 23 => ⟨S650000, .i32⟩
  | 24 => ⟨S650000, .i32⟩
  | 25 => ⟨S650000x1, .i32⟩
  | 26 => ⟨S650000x128, .f32⟩
  | 27 => ⟨S650000x128, .f32⟩
  | 28 => ⟨S650000x128, .f32⟩
  | 29 => ⟨S_, .f32⟩
  | 30 => ⟨S50000x128, .f32⟩
  | 31 => ⟨S650000x1, .i32⟩
  | 32 => ⟨S50000x128, .f32⟩
  | 33 => ⟨S50000x128, .f32⟩
  | 34 => ⟨S650000x1, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000x128, .f32⟩
  | 44 => ⟨S650000x128, .f32⟩
  | 45 => ⟨S650000x128, .f32⟩
  | 46 => ⟨S_, .f32⟩
  | 47 => ⟨S50000x128, .f32⟩
  | 48 => ⟨S650000x1, .i32⟩
  | 49 => ⟨S50000x128, .f32⟩
  | 50 => ⟨S50000x128, .f32⟩
  | 51 => ⟨S650000x1, .f32⟩
  | 52 => ⟨S_, .i32⟩
  | 53 => ⟨S650000, .i32⟩
  | 54 => ⟨S650000, .i1⟩
  | 55 => ⟨S_, .i32⟩
  | 56 => ⟨S650000, .i32⟩
  | 57 => ⟨S650000, .i32⟩
  | 58 => ⟨S650000, .i32⟩
  | 59 => ⟨S650000x1, .i32⟩
  | 60 => ⟨S650000x128, .f32⟩
  | 61 => ⟨S650000x128, .f32⟩
  | 62 => ⟨S650000x128, .f32⟩
  | 63 => ⟨S_, .f32⟩
  | 64 => ⟨S50000x128, .f32⟩
  | 65 => ⟨S650000x1, .i32⟩
  | 66 => ⟨S50000x128, .f32⟩
  | 67 => ⟨S50000x128, .f32⟩
  | 68 => ⟨S650000x1, .f32⟩
  | 69 => ⟨S_, .i32⟩
  | 70 => ⟨S650000, .i32⟩
  | 71 => ⟨S650000, .i1⟩
  | 72 => ⟨S_, .i32⟩
  | 73 => ⟨S650000, .i32⟩
  | 74 => ⟨S650000, .i32⟩
  | 75 => ⟨S650000, .i32⟩
  | 76 => ⟨S650000x1, .i32⟩
  | 77 => ⟨S650000x128, .f32⟩
  | 78 => ⟨S650000x128, .f32⟩
  | 79 => ⟨S650000x128, .f32⟩
  | 80 => ⟨S_, .f32⟩
  | 81 => ⟨S50000x128, .f32⟩
  | 82 => ⟨S650000x1, .i32⟩
  | 83 => ⟨S50000x128, .f32⟩
  | 84 => ⟨S50000x128, .f32⟩
  | 85 => ⟨S650000x1, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x128, .f32⟩
  | 96 => ⟨S650000x128, .f32⟩
  | 97 => ⟨S_, .f32⟩
  | 98 => ⟨S50000x128, .f32⟩
  | 99 => ⟨S650000x1, .i32⟩
  | 100 => ⟨S50000x128, .f32⟩
  | 101 => ⟨S50000x128, .f32⟩
  | 102 => ⟨S512x128, .f32⟩
  | 103 => ⟨S_, .f32⟩
  | 104 => ⟨S50000, .f32⟩
  | 105 => ⟨S_, .f32⟩
  | 106 => ⟨S512, .f32⟩
  | 107 => ⟨S50000x1, .i32⟩
  | 108 => ⟨S512, .f32⟩
  | 109 => ⟨S_, .f32⟩
  | 110 => ⟨S512, .f32⟩
  | 111 => ⟨S512, .f32⟩
  | 112 => ⟨S512x1, .f32⟩
  | 113 => ⟨S512x128, .f32⟩
  | 114 => ⟨S512x128, .f32⟩
  | 115 => ⟨S1x128, .f32⟩
  | 116 => ⟨S512x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2000x512, .bf16⟩
  | .local _ .vmem, ⟨9, _⟩ => ⟨S2000x512, .bf16⟩
  | .local _ .vmem, ⟨10, _⟩ => ⟨S512x128, .f32⟩
  | .local _ .vmem, ⟨11, _⟩ => ⟨S2000x128, .f32⟩
  | .local _ .vmem, ⟨12, _⟩ => ⟨S2000x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S128x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S512x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S2000x512, .bf16⟩
  | .local _ .vmem, ⟨34, _⟩ => ⟨S2000x512, .bf16⟩
  | .local _ .vmem, ⟨35, _⟩ => ⟨S512x128, .f32⟩
  | .local _ .vmem, ⟨36, _⟩ => ⟨S2000x128, .f32⟩
  | .local _ .vmem, ⟨37, _⟩ => ⟨S2000x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S128x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S256x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S512x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S2000x512, .bf16⟩
  | .local _ .vmem, ⟨93, _⟩ => ⟨S2000x512, .bf16⟩
  | .local _ .vmem, ⟨94, _⟩ => ⟨S512x128, .f32⟩
  | .local _ .vmem, ⟨95, _⟩ => ⟨S512x128, .f32⟩
  | .local _ .vmem, ⟨96, _⟩ => ⟨S512x128, .f32⟩
  | .local _ .vmem, ⟨97, _⟩ => ⟨S128x128, .f32⟩
  | .local _ .vmem, ⟨98, _⟩ => ⟨S1x128, .f32⟩
  | .local _ .vmem, ⟨99, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82_0 : Ref sig .tc := ⟨.hbm, 114, rfl⟩
abbrev main_v82_1 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_12 : Ref sig .tc := ⟨.hbm, 142, rfl⟩
abbrev main_v109 : Ref sig .tc := ⟨.hbm, 143, rfl⟩
abbrev main_v110 : Ref sig .tc := ⟨.hbm, 144, rfl⟩
abbrev main_c_13 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_14 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_15 : Ref sig .tc := ⟨.hbm, 167, rfl⟩
abbrev main_v131 : Ref sig .tc := ⟨.hbm, 168, rfl⟩
abbrev main_v132 : Ref sig .tc := ⟨.hbm, 169, rfl⟩
abbrev main_cst_16 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_17 : Ref sig .tc := ⟨.hbm, 176, rfl⟩
abbrev main_v138 : Ref sig .tc := ⟨.hbm, 177, rfl⟩
abbrev main_v139 : Ref sig .tc := ⟨.hbm, 178, rfl⟩
abbrev main_cst_18 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153_0 : Ref sig .tc := ⟨.hbm, 193, rfl⟩
abbrev main_v153_1 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c_19 : Ref sig .tc := ⟨.hbm, 221, rfl⟩
abbrev main_v180 : Ref sig .tc := ⟨.hbm, 222, rfl⟩
abbrev main_v181 : Ref sig .tc := ⟨.hbm, 223, rfl⟩
abbrev main_c_20 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_21 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_cst_22 : Ref sig .tc := ⟨.hbm, 246, rfl⟩
abbrev main_v202 : Ref sig .tc := ⟨.hbm, 247, rfl⟩
abbrev main_v203 : Ref sig .tc := ⟨.hbm, 248, rfl⟩
abbrev main_cst_23 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_24 : Ref sig .tc := ⟨.hbm, 255, rfl⟩
abbrev main_v209 : Ref sig .tc := ⟨.hbm, 256, rfl⟩
abbrev main_v210 : Ref sig .tc := ⟨.hbm, 257, rfl⟩
abbrev main_cst_25 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_c_26 : Ref sig .tc := ⟨.hbm, 274, rfl⟩
abbrev main_v226 : Ref sig .tc := ⟨.hbm, 275, rfl⟩
abbrev main_v227 : Ref sig .tc := ⟨.hbm, 276, rfl⟩
abbrev main_c_27 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_cst_28 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_c_29 : Ref sig .tc := ⟨.hbm, 291, rfl⟩
abbrev main_v240 : Ref sig .tc := ⟨.hbm, 292, rfl⟩
abbrev main_v241 : Ref sig .tc := ⟨.hbm, 293, rfl⟩
abbrev main_c_30 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_cst_31 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_c_32 : Ref sig .tc := ⟨.hbm, 308, rfl⟩
abbrev main_v254 : Ref sig .tc := ⟨.hbm, 309, rfl⟩
abbrev main_v255 : Ref sig .tc := ⟨.hbm, 310, rfl⟩
abbrev main_c_33 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_cst_34 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_c_35 : Ref sig .tc := ⟨.hbm, 325, rfl⟩
abbrev main_v268 : Ref sig .tc := ⟨.hbm, 326, rfl⟩
abbrev main_v269 : Ref sig .tc := ⟨.hbm, 327, rfl⟩
abbrev main_c_36 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_cst_37 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_c_38 : Ref sig .tc := ⟨.hbm, 342, rfl⟩
abbrev main_v282 : Ref sig .tc := ⟨.hbm, 343, rfl⟩
abbrev main_v283 : Ref sig .tc := ⟨.hbm, 344, rfl⟩
abbrev main_c_39 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_cst_40 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_cst_41 : Ref sig .tc := ⟨.hbm, 359, rfl⟩
abbrev main_v296 : Ref sig .tc := ⟨.hbm, 360, rfl⟩
abbrev main_cst_42 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_cst_43 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc2_scratch0 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg2_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg2_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_scratch0 : Ref sig .tc := ⟨.vmem, 95, rfl⟩
abbrev cc11_stg0_0 : Ref sig .tc := ⟨.vmem, 96, rfl⟩
abbrev cc11_stg1_0 : Ref sig .tc := ⟨.vmem, 97, rfl⟩
abbrev cc11_stg2_0 : Ref sig .tc := ⟨.vmem, 98, rfl⟩
abbrev cc11_stg3_0 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem9_0 : DmaSem sig := 35
abbrev cc2_sem9_1 : DmaSem sig := 36
abbrev cc2_sem10_0 : DmaSem sig := 37
abbrev cc3_sem0_0 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81
abbrev cc9_sem0_0 : DmaSem sig := 82
abbrev cc9_sem0_1 : DmaSem sig := 83
abbrev cc9_sem1_0 : DmaSem sig := 84
abbrev cc9_sem1_1 : DmaSem sig := 85
abbrev cc9_sem2_0 : DmaSem sig := 86
abbrev cc9_sem2_1 : DmaSem sig := 87
abbrev cc10_sem0_0 : DmaSem sig := 88
abbrev cc10_sem0_1 : DmaSem sig := 89
abbrev cc10_sem1_0 : DmaSem sig := 90
abbrev cc10_sem1_1 : DmaSem sig := 91
abbrev cc10_sem2_0 : DmaSem sig := 92
abbrev cc11_sem0_0 : DmaSem sig := 93
abbrev cc11_sem1_0 : DmaSem sig := 94
abbrev cc11_sem2_0 : DmaSem sig := 95
abbrev cc11_sem3_0 : DmaSem sig := 96

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v50 : BitVec 1 := Scalar.cmpi .eq arg0 c24_i32
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v50 : BitVec 1 := Scalar.cmpi .eq arg0 c24_i32
  let v51 : BitVec 32 := Scalar.extui v50
  let c0_i32_28 : BitVec 32 := 0#32
  let v52 : BitVec 1 := Scalar.cmpi .ne v51 c0_i32_28
  v52

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S512x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S512x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def k10_cond2 (i : grid10.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_8 : BitVec 32 := 0#32
  let v16 : BitVec 1 := Scalar.cmpi .ne v15 c0_i32_8
  v16

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S512x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S512x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S512x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S512_S1x512_1 : S512.BroadcastsInDim S1x512 (![1] : Fin 1 → Fin S1x512.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S128_S512x128_1 : S128.BroadcastsInDim S512x128 (![1] : Fin 1 → Fin S512x128.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bitsLt_bf16_f32 : FTy.bits .bf16 < FTy.bits .f32
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  slices_S2x128x256_S1x128x256_1_0_0 : S2x128x256.Slices ![1, 0, 0] S1x128x256
  shapeCasts_S1x128x256_S128x256 : S1x128x256.ShapeCasts S128x256
  slices_S2x256_S1x256_1_0 : S2x256.Slices ![1, 0] S1x256
  shapeCasts_S1x256_S256 : S1x256.ShapeCasts S256
  bcast_S256_S1x256_1 : S256.BroadcastsInDim S1x256 (![1] : Fin 1 → Fin S1x256.rank)
  slices_S2x256x128_S1x256x128_1_0_0 : S2x256x128.Slices ![1, 0, 0] S1x256x128
  shapeCasts_S1x256x128_S256x128 : S1x256x128.ShapeCasts S256x128
  slices_S2x128_S1x128_1_0 : S2x128.Slices ![1, 0] S1x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S256 : S512x256.Reduces [0] S256
  shapeCasts_S256_S1x256 : S256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S512x128 : S1x128.Broadcasts S512x128
  reduces_S512x128_S128 : S512x128.Reduces [0] S128
  shapeCasts_S128_S1x128 : S128.ShapeCasts S1x128
  slices_S3x128x128_S1x128x128_1_0_0 : S3x128x128.Slices ![1, 0, 0] S1x128x128
  slices_S3x128_S1x128_1_0 : S3x128.Slices ![1, 0] S1x128
  slices_S2x128x256_S1x128x256_0_0_0 : S2x128x256.Slices ![0, 0, 0] S1x128x256
  slices_S2x256_S1x256_0_0 : S2x256.Slices ![0, 0] S1x256
  slices_S2x256x128_S1x256x128_0_0_0 : S2x256x128.Slices ![0, 0, 0] S1x256x128
  slices_S2x128_S1x128_0_0 : S2x128.Slices ![0, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S2000x128_S128x128_S2000x128_1_0_0_1_n_n_wf : DotDims.WF S2000x128 S128x128 S2000x128 [1] [0] [0] [1] [] []
  dot_S2000x512_S512x128_S2000x128_1_0_0_1_n_n_wf : DotDims.WF S2000x512 S512x128 S2000x128 [1] [0] [0] [1] [] []
  dot_S2000x512_S2000x128_S512x128_0_0_1_1_n_n_wf : DotDims.WF S2000x512 S2000x128 S512x128 [0] [0] [1] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x512.size a ≤ S50000x512.size a
  hwx0_7 : ∀ i : grid0.Coords, EltTy.bits .bf16 = 32 ∨ (Rect.block (s := S50000x512) S2000x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .f32 = 32 ∨ (Rect.block (s := S512x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S512x128.size a
  hwx0_10 : ∀ i : grid0.Coords, EltTy.bits .f32 = 32 ∨ (Rect.block (s := S512x128) S512x128.size (cc0_transform_10 i) (hinb0_10 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S512x128.size a
  hwx1_9 : ∀ i : grid1.Coords, EltTy.bits .f32 = 32 ∨ (Rect.block (s := S512x128) S512x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x512.size a ≤ S50000x512.size a
  hwx2_7 : ∀ i : grid2.Coords, EltTy.bits .bf16 = 32 ∨ (Rect.block (s := S50000x512) S2000x512.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x128.size a ≤ S512x128.size a
  hwx2_8 : ∀ i : grid2.Coords, EltTy.bits .f32 = 32 ∨ (Rect.block (s := S512x128) S512x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x128.size a ≤ S512x128.size a
  hwx2_10 : ∀ i : grid2.Coords, EltTy.bits .f32 = 32 ∨ (Rect.block (s := S512x128) S512x128.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x128.size a ≤ S512x128.size a
  hwx3_9 : ∀ i : grid3.Coords, EltTy.bits .f32 = 32 ∨ (Rect.block (s := S512x128) S512x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x512.size a ≤ S50000x512.size a
  hwx10_1 : ∀ i : grid10.Coords, EltTy.bits .bf16 = 32 ∨ (Rect.block (s := S50000x512) S2000x512.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S512x128.size a ≤ S512x128.size a
  hwx10_2 : ∀ i : grid10.Coords, EltTy.bits .f32 = 32 ∨ (Rect.block (s := S512x128) S512x128.size (cc10_transform_2 i) (hinb10_2 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S512x128.size a ≤ S512x128.size a
  hwx11_0 : ∀ i : grid11.Coords, EltTy.bits .f32 = 32 ∨ (Rect.block (s := S512x128) S512x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S512x128.size a ≤ S512x128.size a
  hwx11_3 : ∀ i : grid11.Coords, EltTy.bits .f32 = 32 ∨ (Rect.block (s := S512x128) S512x128.size (cc11_transform_3 i) (hinb11_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v49) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v75) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v78) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v81) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S2000x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v36) S512x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v82_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v82_1) S512x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v83) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v85) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v88) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v91) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v96) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v99) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v102) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v105) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v106) S512x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v120) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v143) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v146) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v134) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v141) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v149) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v152) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S2000x512.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v107) S512x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v153_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v153_1) S512x128.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | ⟨_ + 11, h⟩ => absurd h (Nat.not_lt.2 (Nat.le_add_left _ _))

abbrev win3_0 : Pipeline.Window sig grid3 :=
  Pipeline.Window.ofSpec (Memref.whole main_v154) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v156) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v159) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v162) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v165) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v167) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v170) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v173) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v176) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v177) S512x128.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v191) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v214) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v217) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v205) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v212) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v220) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v223) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v224) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v237) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v224) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v238) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v251) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v224) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v252) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v265) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v224) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v266) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v279) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v224) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v280) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v293) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v224) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v294) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v294) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v35) S2000x512.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v295) S512x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v304) S512x128.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg16) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v305) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v306) S512x128.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128 : Shape := ⟨1, ![128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S128x128 : Shape := ⟨2, ![128, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S512x128 : Shape := ⟨2, ![512, 128]⟩
abbrev S650000x128 : Shape := ⟨2, ![650000, 128]⟩
abbrev S1x128x128 : Shape := ⟨3, ![1, 128, 128]⟩
abbrev S1x128 : Shape := ⟨2, ![1, 128]⟩
abbrev S50000x1 : Shape := ⟨2, ![50000, 1]⟩
abbrev S1x128x256 : Shape := ⟨3, ![1, 128, 256]⟩
abbrev S128x256 : Shape := ⟨2, ![128, 256]⟩
abbrev S512x256 : Shape := ⟨2, ![512, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S512 : Shape := ⟨1, ![512]⟩
abbrev S512x1 : Shape := ⟨2, ![512, 1]⟩

abbrev nBuf : Space → Nat
  | .hbm => 582
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S128, .f32⟩
  | 8 => ⟨S2x128x256, .f32⟩
  | 9 => ⟨S2x256, .f32⟩
  | 10 => ⟨S2x256, .f32⟩
  | 11 => ⟨S2x256, .f32⟩
  | 12 => ⟨S2x256x128, .f32⟩
  | 13 => ⟨S2x128, .f32⟩
  | 14 => ⟨S2x128, .f32⟩
  | 15 => ⟨S2x128, .f32⟩
  | 16 => ⟨S128x128, .f32⟩
  | 17 => ⟨S128, .f32⟩
  | 18 => ⟨S50000, .i32⟩
  | 19 => ⟨S1x600000, .i32⟩
  | 20 => ⟨S600000, .i32⟩
  | 21 => ⟨S650000, .i32⟩
  | 22 => ⟨S1x600000, .i32⟩
  | 23 => ⟨S600000, .i32⟩
  | 24 => ⟨S650000, .i32⟩
  | 25 => ⟨S_, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S512x128, .f32⟩
  | 55 => ⟨S650000x1, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .i32⟩
  | 117 => ⟨S50000, .i32⟩
  | 118 => ⟨S50000, .i1⟩
  | 119 => ⟨S_, .i32⟩
  | 120 => ⟨S50000, .i32⟩
  | 121 => ⟨S50000, .i32⟩
  | 122 => ⟨S50000, .i32⟩
  | 123 => ⟨S50000x1, .i32⟩
  | 124 => ⟨S50000x128, .f32⟩
  | 125 => ⟨S50000x128, .f32⟩
  | 126 => ⟨S_, .f32⟩
  | 127 => ⟨S512x128, .f32⟩
  | _ => ⟨S50000x128, .f32⟩

abbrev hbmTy0_1 (i : Nat) : BufTy := match i % 128 with
  | 0 => ⟨S50000x1, .i32⟩
  | 1 => ⟨S512x128, .f32⟩
  | 2 => ⟨S512x128, .f32⟩
  | 3 => ⟨S1x128x256, .f32⟩
  | 4 => ⟨S128x256, .f32⟩
  | 5 => ⟨S512x256, .f32⟩
  | 6 => ⟨S1x256, .f32⟩
  | 7 => ⟨S256, .f32⟩
  | 8 => ⟨S1x256, .f32⟩
  | 9 => ⟨S512x256, .f32⟩
  | 10 => ⟨S512x256, .f32⟩
  | 11 => ⟨S1x256, .f32⟩
  | 12 => ⟨S256, .f32⟩
  | 13 => ⟨S1x256, .f32⟩
  | 14 => ⟨S256, .f32⟩
  | 15 => ⟨S_, .f32⟩
  | 16 => ⟨S256, .f32⟩
  | 17 => ⟨S_, .f32⟩
  | 18 => ⟨S256, .f32⟩
  | 19 => ⟨S256, .f32⟩
  | 20 => ⟨S1x256, .f32⟩
  | 21 => ⟨S512x256, .f32⟩
  | 22 => ⟨S512x256, .f32⟩
  | 23 => ⟨S512x256, .f32⟩
  | 24 => ⟨S_, .f32⟩
  | 25 => ⟨S256, .f32⟩
  | 26 => ⟨S_, .f32⟩
  | 27 => ⟨S256, .f32⟩
  | 28 => ⟨S256, .f32⟩
  | 29 => ⟨S1x256, .f32⟩
  | 30 => ⟨S512x256, .f32⟩
  | 31 => ⟨S512x256, .f32⟩
  | 32 => ⟨S1x256, .f32⟩
  | 33 => ⟨S512x256, .f32⟩
  | 34 => ⟨S512x256, .f32⟩
  | 35 => ⟨S_, .f32⟩
  | 36 => ⟨S256, .f32⟩
  | 37 => ⟨S256, .f32⟩
  | 38 => ⟨S256, .f32⟩
  | 39 => ⟨S1x256, .f32⟩
  | 40 => ⟨S512x256, .f32⟩
  | 41 => ⟨S512x256, .f32⟩
  | 42 => ⟨S1x256, .f32⟩
  | 43 => ⟨S512x256, .f32⟩
  | 44 => ⟨S512x256, .f32⟩
  | 45 => ⟨S_, .f32⟩
  | 46 => ⟨S512x256, .f32⟩
  | 47 => ⟨S512x256, .f32⟩
  | 48 => ⟨S1x256x128, .f32⟩
  | 49 => ⟨S256x128, .f32⟩
  | 50 => ⟨S512x128, .f32⟩
  | 51 => ⟨S1x128, .f32⟩
  | 52 => ⟨S128, .f32⟩
  | 53 => ⟨S1x128, .f32⟩
  | 54 => ⟨S512x128, .f32⟩
  | 55 => ⟨S512x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S512x128, .f32⟩
  | 67 => ⟨S512x128, .f32⟩
  | 68 => ⟨S512x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S512x128, .f32⟩
  | 76 => ⟨S512x128, .f32⟩
  | 77 => ⟨S1x128, .f32⟩
  | 78 => ⟨S512x128, .f32⟩
  | 79 => ⟨S512x128, .f32⟩
  | 80 => ⟨S_, .f32⟩
  | 81 => ⟨S128, .f32⟩
  | 82 => ⟨S128, .f32⟩
  | 83 => ⟨S128, .f32⟩
  | 84 => ⟨S1x128, .f32⟩
  | 85 => ⟨S512x128, .f32⟩
  | 86 => ⟨S512x128, .f32⟩
  | 87 => ⟨S1x128, .f32⟩
  | 88 => ⟨S512x128, .f32⟩
  | 89 => ⟨S512x128, .f32⟩
  | 90 => ⟨S_, .f32⟩
  | 91 => ⟨S512x128, .f32⟩
  | 92 => ⟨S512x128, .f32⟩
  | 93 => ⟨S512x128, .f32⟩
  | 94 => ⟨S650000x1, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000x128, .f32⟩
  | 104 => ⟨S650000x128, .f32⟩
  | 105 => ⟨S650000x128, .f32⟩
  | 106 => ⟨S_, .f32⟩
  | 107 => ⟨S50000x128, .f32⟩
  | 108 => ⟨S650000x1, .i32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S128, .f32⟩
  | 122 => ⟨S_, .f32⟩
  | 123 => ⟨S128, .f32⟩
  | 124 => ⟨S_, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x128, .f32⟩
  | 36 => ⟨S50000x128, .f32⟩
  | 37 => ⟨S_, .f32⟩
  | 38 => ⟨S512x128, .f32⟩
  | 39 => ⟨S50000x1, .i32⟩
  | 40 => ⟨S512x128, .f32⟩
  | 41 => ⟨S512x128, .f32⟩
  | 42 => ⟨S1x128x256, .f32⟩
  | 43 => ⟨S128x256, .f32⟩
  | 44 => ⟨S512x256, .f32⟩
  | 45 => ⟨S1x256, .f32⟩
  | 46 => ⟨S256, .f32⟩
  | 47 => ⟨S1x256, .f32⟩
  | 48 => ⟨S512x256, .f32⟩
  | 49 => ⟨S512x256, .f32⟩
  | 50 => ⟨S1x256, .f32⟩
  | 51 => ⟨S256, .f32⟩
  | 52 => ⟨S1x256, .f32⟩
  | 53 => ⟨S256, .f32⟩
  | 54 => ⟨S_, .f32⟩
  | 55 => ⟨S256, .f32⟩
  | 56 => ⟨S_, .f32⟩
  | 57 => ⟨S256, .f32⟩
  | 58 => ⟨S256, .f32⟩
  | 59 => ⟨S1x256, .f32⟩
  | 60 => ⟨S512x256, .f32⟩
  | 61 => ⟨S512x256, .f32⟩
  | 62 => ⟨S512x256, .f32⟩
  | 63 => ⟨S_, .f32⟩
  | 64 => ⟨S256, .f32⟩
  | 65 => ⟨S_, .f32⟩
  | 66 => ⟨S256, .f32⟩
  | 67 => ⟨S256, .f32⟩
  | 68 => ⟨S1x256, .f32⟩
  | 69 => ⟨S512x256, .f32⟩
  | 70 => ⟨S512x256, .f32⟩
  | 71 => ⟨S1x256, .f32⟩
  | 72 => ⟨S512x256, .f32⟩
  | 73 => ⟨S512x256, .f32⟩
  | 74 => ⟨S_, .f32⟩
  | 75 => ⟨S256, .f32⟩
  | 76 => ⟨S256, .f32⟩
  | 77 => ⟨S256, .f32⟩
  | 78 => ⟨S1x256, .f32⟩
  | 79 => ⟨S512x256, .f32⟩
  | 80 => ⟨S512x256, .f32⟩
  | 81 => ⟨S1x256, .f32⟩
  | 82 => ⟨S512x256, .f32⟩
  | 83 => ⟨S512x256, .f32⟩
  | 84 => ⟨S_, .f32⟩
  | 85 => ⟨S512x256, .f32⟩
  | 86 => ⟨S512x256, .f32⟩
  | 87 => ⟨S1x256x128, .f32⟩
  | 88 => ⟨S256x128, .f32⟩
  | 89 => ⟨S512x128, .f32⟩
  | 90 => ⟨S1x128, .f32⟩
  | 91 => ⟨S128, .f32⟩
  | 92 => ⟨S1x128, .f32⟩
  | 93 => ⟨S512x128, .f32⟩
  | 94 => ⟨S512x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S512x128, .f32⟩
  | 106 => ⟨S512x128, .f32⟩
  | 107 => ⟨S512x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S512x128, .f32⟩
  | 115 => ⟨S512x128, .f32⟩
  | 116 => ⟨S1x128, .f32⟩
  | 117 => ⟨S512x128, .f32⟩
  | 118 => ⟨S512x128, .f32⟩
  | 119 => ⟨S_, .f32⟩
  | 120 => ⟨S128, .f32⟩
  | 121 => ⟨S128, .f32⟩
  | 122 => ⟨S128, .f32⟩
  | 123 => ⟨S1x128, .f32⟩
  | 124 => ⟨S512x128, .f32⟩
  | 125 => ⟨S512x128, .f32⟩
  | 126 => ⟨S1x128, .f32⟩
  | 127 => ⟨S512x128, .f32⟩
  | _ => ⟨S50000x128, .f32⟩

abbrev hbmTy0_3 (i : Nat) : BufTy := match i % 128 with
  | 0 => ⟨S512x128, .f32⟩
  | 1 => ⟨S_, .f32⟩
  | 2 => ⟨S512x128, .f32⟩
  | 3 => ⟨S512x128, .f32⟩
  | 4 => ⟨S512x128, .f32⟩
  | 5 => ⟨S650000x1, .f32⟩
  | 6 => ⟨S_, .i32⟩
  | 7 => ⟨S650000, .i32⟩
  | 8 => ⟨S650000, .i1⟩
  | 9 => ⟨S_, .i32⟩
  | 10 => ⟨S650000, .i32⟩
  | 11 => ⟨S650000, .i32⟩
  | 12 => ⟨S650000, .i32⟩
  | 13 => ⟨S650000x1, .i32⟩
  | 14 => ⟨S650000x128, .f32⟩
  | 15 => ⟨S650000x128, .f32⟩
  | 16 => ⟨S650000x128, .f32⟩
  | 17 => ⟨S_, .f32⟩
  | 18 => ⟨S50000x128, .f32⟩
  | 19 => ⟨S650000x1, .i32⟩
  | 20 => ⟨S50000x128, .f32⟩
  | 21 => ⟨S1x128x128, .f32⟩
  | 22 => ⟨S128x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S128, .f32⟩
  | 31 => ⟨S1x128, .f32⟩
  | 32 => ⟨S128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S650000x1, .f32⟩
  | 64 => ⟨S_, .i32⟩
  | 65 => ⟨S650000, .i32⟩
  | 66 => ⟨S650000, .i1⟩
  | 67 => ⟨S_, .i32⟩
  | 68 => ⟨S650000, .i32⟩
  | 69 => ⟨S650000, .i32⟩
  | 70 => ⟨S650000, .i32⟩
  | 71 => ⟨S650000x1, .i32⟩
  | 72 => ⟨S650000x128, .f32⟩
  | 73 => ⟨S650000x128, .f32⟩
  | 74 => ⟨S650000x128, .f32⟩
  | 75 => ⟨S_, .f32⟩
  | 76 => ⟨S50000x128, .f32⟩
  | 77 => ⟨S650000x1, .i32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S650000x1, .f32⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000x128, .f32⟩
  | 96 => ⟨S650000x128, .f32⟩
  | 97 => ⟨S650000x128, .f32⟩
  | 98 => ⟨S_, .f32⟩
  | 99 => ⟨S50000x128, .f32⟩
  | 100 => ⟨S650000x1, .i32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S650000x1, .f32⟩
  | 110 => ⟨S_, .i32⟩
  | 111 => ⟨S650000, .i32⟩
  | 112 => ⟨S650000, .i1⟩
  | 113 => ⟨S_, .i32⟩
  | 114 => ⟨S650000, .i32⟩
  | 115 => ⟨S650000, .i32⟩
  | 116 => ⟨S650000, .i32⟩
  | 117 => ⟨S650000x1, .i32⟩
  | 118 => ⟨S650000x128, .f32⟩
  | 119 => ⟨S650000x128, .f32⟩
  | 120 => ⟨S650000x128, .f32⟩
  | 121 => ⟨S_, .f32⟩
  | 122 => ⟨S50000x128, .f32⟩
  | 123 => ⟨S650000x1, .i32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_4 (i : Nat) : BufTy := match i % 128 with
  | 0 => ⟨S_, .f32⟩
  | 1 => ⟨S50000x128, .f32⟩
  | 2 => ⟨S50000x128, .f32⟩
  | 3 => ⟨S50000x128, .f32⟩
  | 4 => ⟨S650000x1, .f32⟩
  | 5 => ⟨S_, .i32⟩
  | 6 => ⟨S650000, .i32⟩
  | 7 => ⟨S650000, .i1⟩
  | 8 => ⟨S_, .i32⟩
  | 9 => ⟨S650000, .i32⟩
  | 10 => ⟨S650000, .i32⟩
  | 11 => ⟨S650000, .i32⟩
  | 12 => ⟨S650000x1, .i32⟩
  | 13 => ⟨S650000x128, .f32⟩
  | 14 => ⟨S650000x128, .f32⟩
  | 15 => ⟨S650000x128, .f32⟩
  | 16 => ⟨S_, .f32⟩
  | 17 => ⟨S50000x128, .f32⟩
  | 18 => ⟨S650000x1, .i32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S650000x1, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000x128, .f32⟩
  | 37 => ⟨S650000x128, .f32⟩
  | 38 => ⟨S650000x128, .f32⟩
  | 39 => ⟨S_, .f32⟩
  | 40 => ⟨S50000x128, .f32⟩
  | 41 => ⟨S650000x1, .i32⟩
  | 42 => ⟨S50000x128, .f32⟩
  | 43 => ⟨S_, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S_, .f32⟩
  | 51 => ⟨S50000, .f32⟩
  | 52 => ⟨S_, .f32⟩
  | 53 => ⟨S512, .f32⟩
  | 54 => ⟨S50000x1, .i32⟩
  | 55 => ⟨S512, .f32⟩
  | 56 => ⟨S_, .f32⟩
  | 57 => ⟨S512x128, .f32⟩
  | 58 => ⟨S50000x1, .i32⟩
  | 59 => ⟨S512x128, .f32⟩
  | 60 => ⟨S_, .f32⟩
  | 61 => ⟨S512, .f32⟩
  | 62 => ⟨S512, .f32⟩
  | 63 => ⟨S512x1, .f32⟩
  | 64 => ⟨S512x128, .f32⟩
  | 65 => ⟨S512x128, .f32⟩
  | 66 => ⟨S512x128, .f32⟩
  | 67 => ⟨S1x128, .f32⟩
  | 68 => ⟨S512x128, .f32⟩
  | 69 => ⟨S512x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call0_cst : Ref sig .tc := ⟨.hbm, 113, rfl⟩
abbrev main_call0_v0 : Ref sig .tc := ⟨.hbm, 114, rfl⟩
abbrev main_v80 : Ref sig .tc := ⟨.hbm, 115, rfl⟩
abbrev main_c_13 : Ref sig .tc := ⟨.hbm, 116, rfl⟩
abbrev main_v81 : Ref sig .tc := ⟨.hbm, 117, rfl⟩
abbrev main_v82 : Ref sig .tc := ⟨.hbm, 118, rfl⟩
abbrev main_c_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_15 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_16 : Ref sig .tc := ⟨.hbm, 143, rfl⟩
abbrev main_v105 : Ref sig .tc := ⟨.hbm, 144, rfl⟩
abbrev main_cst_17 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_18 : Ref sig .tc := ⟨.hbm, 152, rfl⟩
abbrev main_v112 : Ref sig .tc := ⟨.hbm, 153, rfl⟩
abbrev main_cst_19 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_20 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_call1_cst : Ref sig .tc := ⟨.hbm, 173, rfl⟩
abbrev main_call1_v0 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_21 : Ref sig .tc := ⟨.hbm, 188, rfl⟩
abbrev main_v143 : Ref sig .tc := ⟨.hbm, 189, rfl⟩
abbrev main_cst_22 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_23 : Ref sig .tc := ⟨.hbm, 197, rfl⟩
abbrev main_v150 : Ref sig .tc := ⟨.hbm, 198, rfl⟩
abbrev main_cst_24 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_25 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_call2_cst : Ref sig .tc := ⟨.hbm, 218, rfl⟩
abbrev main_call2_v0 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_c_26 : Ref sig .tc := ⟨.hbm, 223, rfl⟩
abbrev main_v171 : Ref sig .tc := ⟨.hbm, 224, rfl⟩
abbrev main_v172 : Ref sig .tc := ⟨.hbm, 225, rfl⟩
abbrev main_c_27 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_cst_28 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_29 : Ref sig .tc := ⟨.hbm, 250, rfl⟩
abbrev main_v195 : Ref sig .tc := ⟨.hbm, 251, rfl⟩
abbrev main_cst_30 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_31 : Ref sig .tc := ⟨.hbm, 259, rfl⟩
abbrev main_v202 : Ref sig .tc := ⟨.hbm, 260, rfl⟩
abbrev main_cst_32 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_33 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_call3_cst : Ref sig .tc := ⟨.hbm, 280, rfl⟩
abbrev main_call3_v0 : Ref sig .tc := ⟨.hbm, 281, rfl⟩
abbrev main_v220 : Ref sig .tc := ⟨.hbm, 282, rfl⟩
abbrev main_c_34 : Ref sig .tc := ⟨.hbm, 283, rfl⟩
abbrev main_v221 : Ref sig .tc := ⟨.hbm, 284, rfl⟩
abbrev main_v222 : Ref sig .tc := ⟨.hbm, 285, rfl⟩
abbrev main_c_35 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_cst_36 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_cst_37 : Ref sig .tc := ⟨.hbm, 310, rfl⟩
abbrev main_v245 : Ref sig .tc := ⟨.hbm, 311, rfl⟩
abbrev main_cst_38 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_cst_39 : Ref sig .tc := ⟨.hbm, 319, rfl⟩
abbrev main_v252 : Ref sig .tc := ⟨.hbm, 320, rfl⟩
abbrev main_cst_40 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_cst_41 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_call4_cst : Ref sig .tc := ⟨.hbm, 340, rfl⟩
abbrev main_call4_v0 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_cst_42 : Ref sig .tc := ⟨.hbm, 355, rfl⟩
abbrev main_v283 : Ref sig .tc := ⟨.hbm, 356, rfl⟩
abbrev main_cst_43 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_cst_44 : Ref sig .tc := ⟨.hbm, 364, rfl⟩
abbrev main_v290 : Ref sig .tc := ⟨.hbm, 365, rfl⟩
abbrev main_cst_45 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_cst_46 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_call5_cst : Ref sig .tc := ⟨.hbm, 385, rfl⟩
abbrev main_call5_v0 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_c_47 : Ref sig .tc := ⟨.hbm, 390, rfl⟩
abbrev main_v311 : Ref sig .tc := ⟨.hbm, 391, rfl⟩
abbrev main_v312 : Ref sig .tc := ⟨.hbm, 392, rfl⟩
abbrev main_c_48 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_cst_49 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_v325 : Ref sig .tc := ⟨.hbm, 407, rfl⟩
abbrev main_v326 : Ref sig .tc := ⟨.hbm, 408, rfl⟩
abbrev main_v327 : Ref sig .tc := ⟨.hbm, 409, rfl⟩
abbrev main_v328 : Ref sig .tc := ⟨.hbm, 410, rfl⟩
abbrev main_v329 : Ref sig .tc := ⟨.hbm, 411, rfl⟩
abbrev main_v330 : Ref sig .tc := ⟨.hbm, 412, rfl⟩
abbrev main_v331 : Ref sig .tc := ⟨.hbm, 413, rfl⟩
abbrev main_v332 : Ref sig .tc := ⟨.hbm, 414, rfl⟩
abbrev main_v333 : Ref sig .tc := ⟨.hbm, 415, rfl⟩
abbrev main_v334 : Ref sig .tc := ⟨.hbm, 416, rfl⟩
abbrev main_cst_50 : Ref sig .tc := ⟨.hbm, 417, rfl⟩
abbrev main_v335 : Ref sig .tc := ⟨.hbm, 418, rfl⟩
abbrev main_cst_51 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_cst_52 : Ref sig .tc := ⟨.hbm, 426, rfl⟩
abbrev main_v342 : Ref sig .tc := ⟨.hbm, 427, rfl⟩
abbrev main_cst_53 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_cst_54 : Ref sig .tc := ⟨.hbm, 437, rfl⟩
abbrev main_v351 : Ref sig .tc := ⟨.hbm, 438, rfl⟩
abbrev main_v352 : Ref sig .tc := ⟨.hbm, 439, rfl⟩
abbrev main_v353 : Ref sig .tc := ⟨.hbm, 440, rfl⟩
abbrev main_v354 : Ref sig .tc := ⟨.hbm, 441, rfl⟩
abbrev main_v355 : Ref sig .tc := ⟨.hbm, 442, rfl⟩
abbrev main_v356 : Ref sig .tc := ⟨.hbm, 443, rfl⟩
abbrev main_v357 : Ref sig .tc := ⟨.hbm, 444, rfl⟩
abbrev main_v358 : Ref sig .tc := ⟨.hbm, 445, rfl⟩
abbrev main_v359 : Ref sig .tc := ⟨.hbm, 446, rfl⟩
abbrev main_v360 : Ref sig .tc := ⟨.hbm, 447, rfl⟩
abbrev main_c_55 : Ref sig .tc := ⟨.hbm, 448, rfl⟩
abbrev main_v361 : Ref sig .tc := ⟨.hbm, 449, rfl⟩
abbrev main_v362 : Ref sig .tc := ⟨.hbm, 450, rfl⟩
abbrev main_c_56 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_v369 : Ref sig .tc := ⟨.hbm, 458, rfl⟩
abbrev main_cst_57 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_cst_58 : Ref sig .tc := ⟨.hbm, 463, rfl⟩
abbrev main_v373 : Ref sig .tc := ⟨.hbm, 464, rfl⟩
abbrev main_v374 : Ref sig .tc := ⟨.hbm, 465, rfl⟩
abbrev main_cst_59 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_v378 : Ref sig .tc := ⟨.hbm, 470, rfl⟩
abbrev main_c_60 : Ref sig .tc := ⟨.hbm, 471, rfl⟩
abbrev main_v379 : Ref sig .tc := ⟨.hbm, 472, rfl⟩
abbrev main_v380 : Ref sig .tc := ⟨.hbm, 473, rfl⟩
abbrev main_c_61 : Ref sig .tc := ⟨.hbm, 474, rfl⟩
abbrev main_v381 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_v386 : Ref sig .tc := ⟨.hbm, 480, rfl⟩
abbrev main_v387 : Ref sig .tc := ⟨.hbm, 481, rfl⟩
abbrev main_cst_62 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_cst_63 : Ref sig .tc := ⟨.hbm, 486, rfl⟩
abbrev main_v391 : Ref sig .tc := ⟨.hbm, 487, rfl⟩
abbrev main_v392 : Ref sig .tc := ⟨.hbm, 488, rfl⟩
abbrev main_cst_64 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_c_65 : Ref sig .tc := ⟨.hbm, 494, rfl⟩
abbrev main_v397 : Ref sig .tc := ⟨.hbm, 495, rfl⟩
abbrev main_v398 : Ref sig .tc := ⟨.hbm, 496, rfl⟩
abbrev main_c_66 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_cst_67 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_cst_68 : Ref sig .tc := ⟨.hbm, 509, rfl⟩
abbrev main_v409 : Ref sig .tc := ⟨.hbm, 510, rfl⟩
abbrev main_v410 : Ref sig .tc := ⟨.hbm, 511, rfl⟩
abbrev main_cst_69 : Ref sig .tc := ⟨.hbm, 512, rfl⟩
abbrev main_v411 : Ref sig .tc := ⟨.hbm, 513, rfl⟩
abbrev main_v412 : Ref sig .tc := ⟨.hbm, 514, rfl⟩
abbrev main_v413 : Ref sig .tc := ⟨.hbm, 515, rfl⟩
abbrev main_v414 : Ref sig .tc := ⟨.hbm, 516, rfl⟩
abbrev main_c_70 : Ref sig .tc := ⟨.hbm, 517, rfl⟩
abbrev main_v415 : Ref sig .tc := ⟨.hbm, 518, rfl⟩
abbrev main_v416 : Ref sig .tc := ⟨.hbm, 519, rfl⟩
abbrev main_c_71 : Ref sig .tc := ⟨.hbm, 520, rfl⟩
abbrev main_v417 : Ref sig .tc := ⟨.hbm, 521, rfl⟩
abbrev main_v418 : Ref sig .tc := ⟨.hbm, 522, rfl⟩
abbrev main_v419 : Ref sig .tc := ⟨.hbm, 523, rfl⟩
abbrev main_v420 : Ref sig .tc := ⟨.hbm, 524, rfl⟩
abbrev main_v421 : Ref sig .tc := ⟨.hbm, 525, rfl⟩
abbrev main_v422 : Ref sig .tc := ⟨.hbm, 526, rfl⟩
abbrev main_v423 : Ref sig .tc := ⟨.hbm, 527, rfl⟩
abbrev main_cst_72 : Ref sig .tc := ⟨.hbm, 528, rfl⟩
abbrev main_v424 : Ref sig .tc := ⟨.hbm, 529, rfl⟩
abbrev main_v425 : Ref sig .tc := ⟨.hbm, 530, rfl⟩
abbrev main_v426 : Ref sig .tc := ⟨.hbm, 531, rfl⟩
abbrev main_cst_73 : Ref sig .tc := ⟨.hbm, 532, rfl⟩
abbrev main_v427 : Ref sig .tc := ⟨.hbm, 533, rfl⟩
abbrev main_v428 : Ref sig .tc := ⟨.hbm, 534, rfl⟩
abbrev main_cst_74 : Ref sig .tc := ⟨.hbm, 535, rfl⟩
abbrev main_v429 : Ref sig .tc := ⟨.hbm, 536, rfl⟩
abbrev main_v430 : Ref sig .tc := ⟨.hbm, 537, rfl⟩
abbrev main_v431 : Ref sig .tc := ⟨.hbm, 538, rfl⟩
abbrev main_v432 : Ref sig .tc := ⟨.hbm, 539, rfl⟩
abbrev main_c_75 : Ref sig .tc := ⟨.hbm, 540, rfl⟩
abbrev main_v433 : Ref sig .tc := ⟨.hbm, 541, rfl⟩
abbrev main_v434 : Ref sig .tc := ⟨.hbm, 542, rfl⟩
abbrev main_c_76 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_v439 : Ref sig .tc := ⟨.hbm, 548, rfl⟩
abbrev main_v440 : Ref sig .tc := ⟨.hbm, 549, rfl⟩
abbrev main_v441 : Ref sig .tc := ⟨.hbm, 550, rfl⟩
abbrev main_cst_77 : Ref sig .tc := ⟨.hbm, 551, rfl⟩
abbrev main_v442 : Ref sig .tc := ⟨.hbm, 552, rfl⟩
abbrev main_v443 : Ref sig .tc := ⟨.hbm, 553, rfl⟩
abbrev main_v444 : Ref sig .tc := ⟨.hbm, 554, rfl⟩
abbrev main_cst_78 : Ref sig .tc := ⟨.hbm, 555, rfl⟩
abbrev main_v445 : Ref sig .tc := ⟨.hbm, 556, rfl⟩
abbrev main_v446 : Ref sig .tc := ⟨.hbm, 557, rfl⟩
abbrev main_cst_79 : Ref sig .tc := ⟨.hbm, 558, rfl⟩
abbrev main_v447 : Ref sig .tc := ⟨.hbm, 559, rfl⟩
abbrev main_v448 : Ref sig .tc := ⟨.hbm, 560, rfl⟩
abbrev main_v449 : Ref sig .tc := ⟨.hbm, 561, rfl⟩
abbrev main_cst_80 : Ref sig .tc := ⟨.hbm, 562, rfl⟩
abbrev main_v450 : Ref sig .tc := ⟨.hbm, 563, rfl⟩
abbrev main_cst_81 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_cst_82 : Ref sig .tc := ⟨.hbm, 568, rfl⟩
abbrev main_v454 : Ref sig .tc := ⟨.hbm, 569, rfl⟩
abbrev main_v455 : Ref sig .tc := ⟨.hbm, 570, rfl⟩
abbrev main_v456 : Ref sig .tc := ⟨.hbm, 571, rfl⟩
abbrev main_cst_83 : Ref sig .tc := ⟨.hbm, 572, rfl⟩
abbrev main_v457 : Ref sig .tc := ⟨.hbm, 573, rfl⟩
abbrev main_v458 : Ref sig .tc := ⟨.hbm, 574, rfl⟩
abbrev main_v459 : Ref sig .tc := ⟨.hbm, 575, rfl⟩
abbrev main_v460 : Ref sig .tc := ⟨.hbm, 576, rfl⟩
abbrev main_v461 : Ref sig .tc := ⟨.hbm, 577, rfl⟩
abbrev main_v462 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S128_S512x128_1 : S128.BroadcastsInDim S512x128 (![1] : Fin 1 → Fin S512x128.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S50000_S50000x1_0 : S50000.BroadcastsInDim S50000x1 (![0] : Fin 1 → Fin S50000x1.rank)
  bcast_S_S512x128 : S_.BroadcastsInDim S512x128 (![] : Fin 0 → Fin S512x128.rank)
  slices_S2x128x256_S1x128x256_1_0_0 : S2x128x256.Slices ![1, 0, 0] S1x128x256
  shapeCasts_S1x128x256_S128x256 : S1x128x256.ShapeCasts S128x256
  slices_S2x256_S1x256_1_0 : S2x256.Slices ![1, 0] S1x256
  shapeCasts_S1x256_S256 : S1x256.ShapeCasts S256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  reducesTo_S512x256_S256_d0 : S512x256.ReducesTo [0] S256
  bcast_S_S256 : S_.BroadcastsInDim S256 (![] : Fin 0 → Fin S256.rank)
  bcast_S_S512x256 : S_.BroadcastsInDim S512x256 (![] : Fin 0 → Fin S512x256.rank)
  slices_S2x256x128_S1x256x128_1_0_0 : S2x256x128.Slices ![1, 0, 0] S1x256x128
  shapeCasts_S1x256x128_S256x128 : S1x256x128.ShapeCasts S256x128
  slices_S2x128_S1x128_1_0 : S2x128.Slices ![1, 0] S1x128
  bcast_S1x128_S512x128_0_1 : S1x128.BroadcastsInDim S512x128 (![0, 1] : Fin 2 → Fin S512x128.rank)
  reducesTo_S512x128_S128_d0 : S512x128.ReducesTo [0] S128
  slices_S3x128x128_S1x128x128_1_0_0 : S3x128x128.Slices ![1, 0, 0] S1x128x128
  slices_S3x128_S1x128_1_0 : S3x128.Slices ![1, 0] S1x128
  slices_S2x128x256_S1x128x256_0_0_0 : S2x128x256.Slices ![0, 0, 0] S1x128x256
  slices_S2x256_S1x256_0_0 : S2x256.Slices ![0, 0] S1x256
  slices_S2x256x128_S1x256x128_0_0_0 : S2x256x128.Slices ![0, 0, 0] S1x256x128
  slices_S2x128_S1x128_0_0 : S2x128.Slices ![0, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  gather_S512x128_S50000x1_S50000x128_1_0_n_n_0_1_1128_wf : GatherDims.WF S512x128 S50000x1 S50000x128 [1] [0] [] [0] [] 1 ![1, 128]
  scatter_S512x128_S50000x1_S50000x128_1_0_0_1_wf : ScatterDims.WF S512x128 S50000x1 S50000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.PreRange.lean ====
/-
  THE SEGMENT INDICES ARE IN RANGE. The precondition on the arguments ends in `all ((batch ≥ 0) & (batch < 512))`: a
  reduction by `and`, over all 50000 rows, of the conjunction of two signed comparisons of the row's index word with the
  constants 0 and 512. Where the precondition is all ones, that reduction is 1, so each row's conjunction is 1, so each
  of the two comparisons is 1: every index word, read signed, lies in `[0, 512)`.
-/
import proofs.«402460_j82824149336546_1_alg».proof.Pre_finite_inputs
import Idealize.ShloMosaic.Lib.StableHlo.Predicate
import Idealize.ShloMosaic.Lib.ReduceAll
import Idealize.ShloMosaic.Lib.ValueIdx

set_option maxRecDepth 16384

noncomputable section

namespace Cert.PreRange

open Idealize.ShloMosaic Idealize.ShloMosaic.ValueIdx Idealize.ShloMosaic.StableHlo.Predicate
open Cert.Pre_finite_inputs

/-- The scalar shape has one index. -/
instance : Subsingleton S_.Idx := ⟨fun a b => funext fun d => d.elim0⟩

/-- A signed "at least 0" and a signed "below 512" that both came out 1 bound the word's signed value. -/
theorem range_of_cmpi (b : BitVec 32) (h0 : IntOp.cmpi .sge b 0#32 = 1#1) (h1 : IntOp.cmpi .slt b 512#32 = 1#1) :
    0 ≤ b.toInt ∧ b.toInt < 512 := by
  have h0' : (0#32 : BitVec 32).sle b = true := (ofBool_eq_one_iff _).1 h0
  have h1' : b.slt 512#32 = true := (ofBool_eq_one_iff _).1 h1
  simp only [BitVec.sle, decide_eq_true_eq] at h0'
  simp only [BitVec.slt, decide_eq_true_eq] at h1'
  have e0 : (0#32 : BitVec 32).toInt = 0 := by decide
  have e512 : (512#32 : BitVec 32).toInt = 512 := by decide
  rw [e0] at h0'
  rw [e512] at h1'
  exact ⟨h0', h1'⟩

/-- (5) EVERY SEGMENT INDEX IS IN `[0, 512)`: where the precondition on the arguments is all ones, each of the 50000
    index words of the third argument, read signed, is at least 0 and below 512. -/
theorem batch_range [Facts] {F : FTy → Type} [FloatOps F]
    (a0 : FVec F S50000x128 .f32) (a1 : IVec S2x600000 32) (a2 : IVec S50000 32) (a3 : FVec F S3x128x128 .f32)
    (a4 : FVec F S3x128 .f32) (a5 : FVec F S3x128 .f32) (a6 : FVec F S3x128 .f32) (a7 : FVec F S128 .f32)
    (a8 : FVec F S2x128x256 .f32) (a9 : FVec F S2x256 .f32) (a10 : FVec F S2x256 .f32) (a11 : FVec F S2x256 .f32)
    (a12 : FVec F S2x256x128 .f32) (a13 : FVec F S2x128 .f32) (a14 : FVec F S2x128 .f32) (a15 : FVec F S2x128 .f32)
    (a16 : FVec F S128x128 .f32) (a17 : FVec F S128 .f32)
    (h : fn (F := F) a0 a1 a2 a3 a4 a5 a6 a7 a8 a9 a10 a11 a12 a13 a14 a15 a16 a17 = fun _ => 1#1) (n : Fin 50000) :
    0 ≤ (a2 (ix1 n)).toInt ∧ (a2 (ix1 n)).toInt < 512 := by
  have h0 := congrFun h ix0
  dsimp only [fn, fn_part1, fn_part2, fn_part3, fn_part4, fn_part5] at h0
  have h1 := (IntOp.andi_eq_one.1 h0).2
  have h2 := Host.reduce_andi_all _ _ _ _ _ h1 (ix1 n)
  obtain ⟨h3, h4⟩ := IntOp.andi_eq_one.1 h2
  exact range_of_cmpi _ h3 h4

end Cert.PreRange

end
-- ==== Proof.K.Reg0Runs.lean ====
/- Region 0 of @main (the first graph-convolution layer's kernel, 25 grid points), at the contents V the region is
   entered with: what the three runs of its body share — the windows' blocks, the two branch conditions in closed
   form over the grid, where the second output window is idle, the staging and scratch memrefs, and the region
   invariant with the kernel's own scratch split off the scoped rest. -/
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the scratch is zeroed under it), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the second output is stored under it), from the grid coordinates. -/
abbrev cond0_1 (i : grid0.Coords) : Prop := k0_cond2 i = 1#1
/-- It holds at the last point only — decided over the grid. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- Window 8 is never idle. -/
theorem liveAt0_8 : ∀ t : Fin cfg0.N, cfg0.idle 8 (grid0.coords t) = false := by decide +kernel
/-- Window 9 is never idle. -/
theorem liveAt0_9 : ∀ t : Fin cfg0.N, cfg0.idle 9 (grid0.coords t) = false := by decide +kernel
/-- At the first point output window 10 is idle: nothing is stored into it, -/
theorem idleAt0_10_A : ∀ t : Fin cfg0.N, cond0_0 (grid0.coords t) → ¬cond0_1 (grid0.coords t) → cfg0.idle 10 (grid0.coords t) = true := by decide +kernel
/-- and its block is not written back there. -/
theorem noFlush0_10_A : ∀ t : Fin cfg0.N, cond0_0 (grid0.coords t) → ¬cond0_1 (grid0.coords t) → (cfg0.win 10).flush t = false := by decide +kernel
/-- At a middle point output window 10 is idle, -/
theorem idleAt0_10_B : ∀ t : Fin cfg0.N, ¬cond0_0 (grid0.coords t) → ¬cond0_1 (grid0.coords t) → cfg0.idle 10 (grid0.coords t) = true := by decide +kernel
/-- and its block is not written back there. -/
theorem noFlush0_10_B : ∀ t : Fin cfg0.N, ¬cond0_0 (grid0.coords t) → ¬cond0_1 (grid0.coords t) → (cfg0.win 10).flush t = false := by decide +kernel
/-- At the last point output window 10 is live: the body stores into it. -/
theorem liveAt0_10_C : ∀ t : Fin cfg0.N, ¬cond0_0 (grid0.coords t) → cond0_1 (grid0.coords t) → cfg0.idle 10 (grid0.coords t) = false := by decide +kernel

/-! ## The staging and scratch memrefs -/

/-- One staging buffer of each output window, through which its contents are stated. -/
abbrev VO0_9 : View sig .tc .vmem S2000x128 .f32 := (Memref.whole cc0_stg9_0 : Memref sig .tc .vmem S2000x128 .f32).view
abbrev VO0_10 : View sig .tc .vmem S512x128 .f32 := (Memref.whole cc0_stg10_0 : Memref sig .tc .vmem S512x128 .f32).view
/-- Each window's current staging memref at point `t`, spelled as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2000x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
/-- The scratch operand: a whole scoped buffer of the kernel's own, passed beside the windows. -/
abbrev scM0_0 : Memref sig .tc .vmem S512x128 .f32 := Memref.whole cc0_scratch0
/-- The scratch the kernel carries between points, as a view: what it holds is stated through it. -/
abbrev VS0_0 : View sig .tc .vmem S512x128 .f32 := scM0_0.view

/-- Every other scoped buffer of the core, unopened. -/
abbrev restBut0 (c : Dev nD) : sProp 𝕄 :=
  Pipeline.scopedRestBut (Ix := Unit) (Name := ℕ) (U := UR sig nD τ) (Lvl := ℕ) (Val := Elt F) spec0 c [cc0_scratch0]

/-- The region invariant with the scratch operand as a memref owned at some contents, the other scoped buffers
    unopened beside it, and the generator register at some state. -/
theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

end Cert.Kernel.Hand

end
-- ==== Proof.K.Reg0RunA.lean ====
/- Region 0 of @main: the whole-body run of its kernel at the grid's first point (the scratch is zeroed, the second output left alone). -/
import proofs.«402460_j82824149336546_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's first point (the scratch is zeroed, the second output left alone), with the proof that on whole staging
    memrefs — each input's at its contents, the second output's at contents handed back untouched, the scratch at anything, the
    first output's at anything — the body runs to the continuation holding the inputs' as they were and each stored
    buffer with its pieces written. -/
noncomputable def kernelRun0_A (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc0__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc0__gcn_apply_kernel_eq_skeleton]; unfold cc0__gcn_apply_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.K.Reg0RunB.lean ====
/- Region 0 of @main: the whole-body run of its kernel at a middle point (the scratch is carried, the second output left alone). -/
import proofs.«402460_j82824149336546_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at a middle point (the scratch is carried, the second output left alone), with the proof that on whole staging
    memrefs — each input's at its contents, the second output's at contents handed back untouched, the scratch at what the point before left, the
    first output's at anything — the body runs to the continuation holding the inputs' as they were and each stored
    buffer with its pieces written. -/
noncomputable def kernelRun0_B (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc0__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc0__gcn_apply_kernel_eq_skeleton]; unfold cc0__gcn_apply_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.K.Reg0RunC.lean ====
/- Region 0 of @main: the whole-body run of its kernel at the grid's last point (the scratch is carried and copied to the second output). -/
import proofs.«402460_j82824149336546_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's last point (the scratch is carried and copied to the second output), with the proof that on whole staging
    memrefs — each input's at its contents, the scratch at what the point before left, the
    outputs' at anything — the body runs to the continuation holding the inputs' as they were and each stored
    buffer with its pieces written. -/
noncomputable def kernelRun0_C (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0__gcn_apply_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gcn_apply_kernel_eq_skeleton]; unfold cc0__gcn_apply_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.Kernel.Hand

end
-- ==== Proof.K.Reg0.lean ====
/- Region 0 of @main (the first graph-convolution layer's kernel), at the contents V the region is entered with:
   what each case of the body leaves in the two output windows and in the scratch, what they hold point by point,
   the proof data, the body obligation at every point, and the invariant's two ends. -/
import proofs.«402460_j82824149336546_1_alg».proof.Proof.K.Reg0RunA
import proofs.«402460_j82824149336546_1_alg».proof.Proof.K.Reg0RunB
import proofs.«402460_j82824149336546_1_alg».proof.Proof.K.Reg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output window 9 tile its block, so they cover it. -/
theorem cover0_A_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1 S2000x128.size (by sl_kernel_rfl) y

/-- What case A leaves in output window 9's staging buffer: its pieces read back over junk. -/
def out0_A_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S2000x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A stores nothing into output window 10 (idle there, not written back): a value nothing reads. -/
def out0_A_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case A's pieces for the scratch cover it. -/
theorem scover0_A_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S512x128.size (by sl_kernel_rfl) y

/-- What case A leaves in the scratch: its pieces read back over junk. -/
def sout0_A_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1)

/-- Case B's pieces for output window 9 tile its block, so they cover it. -/
theorem cover0_B_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case B leaves in output window 9's staging buffer: its pieces read back over junk. -/
def out0_B_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B stores nothing into output window 10 (idle there, not written back): a value nothing reads. -/
def out0_B_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case B's pieces for the scratch cover it. -/
theorem scover0_B_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case B leaves in the scratch: its pieces read back over junk. -/
def sout0_B_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-- Case C's pieces for output window 9 tile its block, so they cover it. -/
theorem cover0_C_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case C leaves in output window 9's staging buffer: its pieces read back over junk. -/
def out0_C_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for output window 10 tile its block, so they cover it. -/
theorem cover0_C_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S512x128.size (by sl_kernel_rfl) y

/-- What case C leaves in output window 10's staging buffer: its pieces read back over junk. -/
def out0_C_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's pieces for the scratch cover it. -/
theorem scover0_C_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case C leaves in the scratch: its pieces read back over junk. -/
def sout0_C_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-! ## What the outputs and the scratch hold after each point -/

/-- The first point is case A's, -/
theorem hA0_0 (t : Fin cfg0.N) (h : t.val = 0) : cond0_0 (grid0.coords t) := (hcond0_0 t).mpr h
theorem hA0_1 (t : Fin cfg0.N) (h : t.val = 0) : ¬cond0_1 (grid0.coords t) := fun hc => by have := (hcond0_1 t).mp hc; omega
/-- a point after it does not take the first conditional, -/
theorem hB0_0 (t : Fin cfg0.N) (h : t.val ≠ 0) : ¬cond0_0 (grid0.coords t) := fun hc => h ((hcond0_0 t).mp hc)
/-- and takes the second exactly when it is the last. -/
theorem hB0_1 (t : Fin cfg0.N) (h : t.val ≠ 24) : ¬cond0_1 (grid0.coords t) := fun hc => h ((hcond0_1 t).mp hc)
theorem hC0_1 (t : Fin cfg0.N) (h : t.val = 24) : cond0_1 (grid0.coords t) := (hcond0_1 t).mpr h

/-- What output window 9's staging buffer, output window 10's and the scratch hold after the body at position `n`:
    the case the closed forms select there, run at the point's memrefs and input blocks, the scratch at what the
    point before left in it. -/
def outsAt0 (c : Dev nD) : (n : ℕ) → n < cfg0.N → Vec F S2000x128 .f32 × Vec F S512x128 .f32 × Vec F S512x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hA0_0 ⟨0, hn⟩ rfl) (hA0_1 ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩),
      out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hA0_0 ⟨0, hn⟩ rfl) (hA0_1 ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hA0_0 ⟨0, hn⟩ rfl) (hA0_1 ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h1 : n + 1 = 24 then
      (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hC0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hC0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hC0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2)
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hB0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hB0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hB0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2)

/-- `outsAt0` at the first point: case A's contents. -/
theorem outsAt0_A (c : Dev nD) (t : Fin cfg0.N) (h0 : t.val = 0) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => exact rfl
  | succ n => exact absurd h0 (Nat.succ_ne_zero n)

/-- `outsAt0` at a middle point: case B's contents, over the scratch the point before left. -/
theorem outsAt0_B (c : Dev nD) (t : Fin cfg0.N) (h0 : t.val ≠ 0) (h1 : t.val ≠ 24) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt0` at the last point: case C's contents, over the scratch the point before left. -/
theorem outsAt0_C (c : Dev nD) (t : Fin cfg0.N) (h0 : t.val ≠ 0) (h1 : t.val = 24) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-- The region invariant before position `n`: before the first point what the launch hands the region; afterwards
    the scratch at what the point before left in it, the other scoped buffers unopened, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restBut0 (F := F) c) ∗ (∃ r, prngReg c r)) := by
  cases n with
  | zero => exact absurd rfl hz
  | succ n => rfl

/-! ## The pipeline's proof data -/

/-- The proof data of the region's pipeline on core `c`: the arrays as the region finds them; after the body at
    point `t` each input's buffer at its block and the outputs' at `outsAt0`'s components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem share0 (c : Dev nD) (w : Fin cfg0.W) : (dat0 V c).q w = fullShare := rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' memrefs hold their blocks; the closed forms say which case the point is in, so
    that case's run applies; the invariant hands the body the scratch at what the point before left (at anything at
    the first point) and takes it back at this point's contents; the other scoped buffers, the generator register
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  by_cases h0 : t.val = 0
  ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 10 t (idleAt0_10_A t (hA0_0 t h0) (hA0_1 t h0)) (noFlush0_10_A t (hA0_0 t h0) (hA0_1 t h0))]
      rw [outsAt0_A V c t h0]
      unfold out0_A_9 sout0_A_0; (try dsimp only)
      rw [PhiS0_castSucc V c t, PhiS0_zero V c _ _ h0, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _)
      iexists _; iexact H10

  · by_cases h1 : t.val = 24
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t], after0_4]
        rw [show (dat0 V c).leavesExact 5 t = owns (c : Thread nD τ) (ms0_5 t) fullShare ((dat0 V c).after 5 t) from by
          unfold Dat.leavesExact; rw [liveAt0_5 t], after0_5]
        rw [show (dat0 V c).leavesExact 6 t = owns (c : Thread nD τ) (ms0_6 t) fullShare ((dat0 V c).after 6 t) from by
          unfold Dat.leavesExact; rw [liveAt0_6 t], after0_6]
        rw [show (dat0 V c).leavesExact 7 t = owns (c : Thread nD τ) (ms0_7 t) fullShare ((dat0 V c).after 7 t) from by
          unfold Dat.leavesExact; rw [liveAt0_7 t], after0_7]
        rw [show (dat0 V c).leavesExact 8 t = owns (c : Thread nD τ) (ms0_8 t) fullShare ((dat0 V c).after 8 t) from by
          unfold Dat.leavesExact; rw [liveAt0_8 t], after0_8]
        rw [show (dat0 V c).leavesExact 9 t = owns (c : Thread nD τ) (ms0_9 t) fullShare ((dat0 V c).after 9 t) from by
          unfold Dat.leavesExact; rw [liveAt0_9 t], after0_9]
        rw [show (dat0 V c).leavesExact 10 t = owns (c : Thread nD τ) (ms0_10 t) fullShare ((dat0 V c).after 10 t) from by
          unfold Dat.leavesExact; rw [liveAt0_10_C t (hB0_0 t h0) (hC0_1 t h1)], after0_10]
        rw [outsAt0_C V c t h0 h1]
        unfold out0_C_9 out0_C_10 sout0_C_0; (try dsimp only)
        rw [PhiS0_castSucc V c t, PhiS0_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        iintro ⟨H0, H1, H2, H3, H4, H5, H6, H7, H8, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _)

    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t], after0_4]
        rw [show (dat0 V c).leavesExact 5 t = owns (c : Thread nD τ) (ms0_5 t) fullShare ((dat0 V c).after 5 t) from by
          unfold Dat.leavesExact; rw [liveAt0_5 t], after0_5]
        rw [show (dat0 V c).leavesExact 6 t = owns (c : Thread nD τ) (ms0_6 t) fullShare ((dat0 V c).after 6 t) from by
          unfold Dat.leavesExact; rw [liveAt0_6 t], after0_6]
        rw [show (dat0 V c).leavesExact 7 t = owns (c : Thread nD τ) (ms0_7 t) fullShare ((dat0 V c).after 7 t) from by
          unfold Dat.leavesExact; rw [liveAt0_7 t], after0_7]
        rw [show (dat0 V c).leavesExact 8 t = owns (c : Thread nD τ) (ms0_8 t) fullShare ((dat0 V c).after 8 t) from by
          unfold Dat.leavesExact; rw [liveAt0_8 t], after0_8]
        rw [show (dat0 V c).leavesExact 9 t = owns (c : Thread nD τ) (ms0_9 t) fullShare ((dat0 V c).after 9 t) from by
          unfold Dat.leavesExact; rw [liveAt0_9 t], after0_9]
        rw [Dat.leavesExact_idle (dat0 V c) 10 t (idleAt0_10_B t (hB0_0 t h0) (hB0_1 t h1)) (noFlush0_10_B t (hB0_0 t h0) (hB0_1 t h1))]
        rw [outsAt0_B V c t h0 h1]
        unfold out0_B_9 sout0_B_0; (try dsimp only)
        rw [PhiS0_castSucc V c t, PhiS0_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        iintro ⟨H0, H1, H2, H3, H4, H5, H6, H7, H8, ⟨%e9, H9⟩, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _)
        iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Cert.Kernel.Hand

end
-- ==== Proof.K.Reg1.lean ====
/- Region 1 of @main: the virtual-node MLP kernel (two dense layers, each followed by a batch normalisation over
   the 512 rows and a relu), run at ONE grid point over ten whole-array windows (nine inputs, one output). The
   region's half of the frame at a PARAMETER `V`, the TensorCore's buffer contents when the region is entered. -/
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is
    `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is
    `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is
    `V`'s and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, for any proof data whose array is
    `V`'s and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, for any proof data whose array is
    `V`'s and whose body leaves the block in place: the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, for any proof data whose array is
    `V`'s and whose body leaves the block in place: the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, for any proof data whose array is
    `V`'s and whose body leaves the block in place: the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, for any proof data whose array is
    `V`'s and whose body leaves the block in place: the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole of their buffer -/

abbrev r1_0 : Rect S512x128 := Rect.unit (s := S512x128) ![0, 0] S512x128.size inb_S512x128_S512x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_3 : Rect S256x128 := Rect.unit (s := S256x128) ![0, 0] S256x128.size inb_S256x128_S256x128_0_0
abbrev r1_4 : Rect S1x128 := Rect.unit (s := S1x128) ![0, 0] S1x128.size inb_S1x128_S1x128_0_0

/-! ## What the body leaves in the output window's buffer -/

/-- Window 9's staging buffer after the body, from the input windows' blocks: its one store, of the second layer's
    value at the first layer's value. -/
def out1_9 (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) : Vec F S512x128 .f32 :=
  View.canon [⟨r1_0, k1_pay1 (k1_pay2 (View.ld x0 r1_0) (View.ld x1 r1_1) (View.ld x2 r1_2) (View.ld x3 r1_2) (View.ld x4 r1_2)) (View.ld x5 r1_3) (View.ld x6 r1_4) (View.ld x7 r1_4) (View.ld x8 r1_4)⟩]

/-- The store is of the whole buffer, so it covers it. -/
theorem cover1_9 (p0 : Vec F S512x128 .f32) (y : S512x128.Idx) :
    ∃ pc ∈ ([⟨r1_0, p0⟩] : List (View.Piece (Elt F) S512x128 .f32)), y ∈ pc.1.set :=
  View.cover_of_tiled [⟨r1_0, p0⟩] S512x128.size (by rfl) y

/-! ## The body's triple -/

set_option maxHeartbeats 4000000 in
/-- The kernel body on whole staging memrefs, the inputs' at read contents `xW` and the output's at anything, runs to
    the continuation holding the inputs' as they were and the output's at `out1_9` of the inputs'. -/
theorem sound_kernel1 (c : Dev nD) (E : Set ℕ) (i : grid1.Coords) (arg1 : Memref sig .tc .vmem S512x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x128 .f32) (harg10 : arg10.IsWhole)
    (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__vn_mlp_kernel i arg1 harg1 arg2 harg2 arg3 harg3 arg4 harg4 arg5 harg5 arg6 harg6 arg7 harg7 arg8 harg8 arg9 harg9 arg10 harg10) K := by
  simp only [cc1__vn_mlp_kernel_eq_skeleton]; unfold cc1__vn_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at
    point `t` each input's buffer at its block and the output's at `out1_9` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's ends: the invariant is the class's at every point, nothing is owed, the shares are full -/

theorem hin1 (c : Dev nD) : Pipeline.ΦA spec1 c ⊢ (dat1 V c).Φ 0 := .rfl
theorem hout1 (c : Dev nD) : (dat1 V c).Φ (Fin.last cfg1.N) ⊢ Pipeline.ΦA spec1 c := .rfl
theorem owed1 (c : Dev nD) (t : Fin (cfg1.N + 1)) : (dat1 V c).owed t = 0 := rfl
theorem share1 (c : Dev nD) (w : Fin cfg1.W) : (dat1 V c).q w = fullShare := rfl

end Cert.Kernel.Hand
-- ==== Proof.K.Reg2Runs.lean ====
/- Region 2 of @main (the first graph-convolution layer's kernel, 25 grid points), at the contents V the region is
   entered with: what the three runs of its body share — the windows' blocks, the two branch conditions in closed
   form over the grid, where the second output window is idle, the staging and scratch memrefs, and the region
   invariant with the kernel's own scratch split off the scoped rest. -/
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the scratch is zeroed under it), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (the second output is stored under it), from the grid coordinates. -/
abbrev cond2_1 (i : grid2.Coords) : Prop := k2_cond2 i = 1#1
/-- It holds at the last point only — decided over the grid. -/
theorem hcond2_1 : ∀ t : Fin cfg2.N, cond2_1 (grid2.coords t) ↔ t.val = 24 :=
  (by decide +kernel : ∀ t : Fin grid2.N, cond2_1 (grid2.coords t) ↔ t.val = 24)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Window 6 is never idle. -/
theorem liveAt2_6 : ∀ t : Fin cfg2.N, cfg2.idle 6 (grid2.coords t) = false := by decide +kernel
/-- Window 7 is never idle. -/
theorem liveAt2_7 : ∀ t : Fin cfg2.N, cfg2.idle 7 (grid2.coords t) = false := by decide +kernel
/-- Window 8 is never idle. -/
theorem liveAt2_8 : ∀ t : Fin cfg2.N, cfg2.idle 8 (grid2.coords t) = false := by decide +kernel
/-- Window 9 is never idle. -/
theorem liveAt2_9 : ∀ t : Fin cfg2.N, cfg2.idle 9 (grid2.coords t) = false := by decide +kernel
/-- At the first point output window 10 is idle: nothing is stored into it, -/
theorem idleAt2_10_A : ∀ t : Fin cfg2.N, cond2_0 (grid2.coords t) → ¬cond2_1 (grid2.coords t) → cfg2.idle 10 (grid2.coords t) = true := by decide +kernel
/-- and its block is not written back there. -/
theorem noFlush2_10_A : ∀ t : Fin cfg2.N, cond2_0 (grid2.coords t) → ¬cond2_1 (grid2.coords t) → (cfg2.win 10).flush t = false := by decide +kernel
/-- At a middle point output window 10 is idle, -/
theorem idleAt2_10_B : ∀ t : Fin cfg2.N, ¬cond2_0 (grid2.coords t) → ¬cond2_1 (grid2.coords t) → cfg2.idle 10 (grid2.coords t) = true := by decide +kernel
/-- and its block is not written back there. -/
theorem noFlush2_10_B : ∀ t : Fin cfg2.N, ¬cond2_0 (grid2.coords t) → ¬cond2_1 (grid2.coords t) → (cfg2.win 10).flush t = false := by decide +kernel
/-- At the last point output window 10 is live: the body stores into it. -/
theorem liveAt2_10_C : ∀ t : Fin cfg2.N, ¬cond2_0 (grid2.coords t) → cond2_1 (grid2.coords t) → cfg2.idle 10 (grid2.coords t) = false := by decide +kernel

/-! ## The staging and scratch memrefs -/

/-- One staging buffer of each output window, through which its contents are stated. -/
abbrev VO2_9 : View sig .tc .vmem S2000x128 .f32 := (Memref.whole cc2_stg9_0 : Memref sig .tc .vmem S2000x128 .f32).view
abbrev VO2_10 : View sig .tc .vmem S512x128 .f32 := (Memref.whole cc2_stg10_0 : Memref sig .tc .vmem S512x128 .f32).view
/-- Each window's current staging memref at point `t`, spelled as the pipeline passes it, and its wholeness. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2000x512 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S2000x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S512x128 .f32 := win2_10.stage (cfg2.slots t 10)
abbrev hs2_10 (t : Fin cfg2.N) : (ms2_10 t).IsWhole := hstage2_10 ((cfg2.slots t 10).cast nbuf2_10)
/-- The scratch operand: a whole scoped buffer of the kernel's own, passed beside the windows. -/
abbrev scM2_0 : Memref sig .tc .vmem S512x128 .f32 := Memref.whole cc2_scratch0
/-- The scratch the kernel carries between points, as a view: what it holds is stated through it. -/
abbrev VS2_0 : View sig .tc .vmem S512x128 .f32 := scM2_0.view

/-- Every other scoped buffer of the core, unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant with the scratch operand as a memref owned at some contents, the other scoped buffers
    unopened beside it, and the generator register at some state. -/
theorem PhiA2_eq (c : Dev nD) :
    (Pipeline.ΦA spec2 c : sProp 𝕄)
      = iprop(iprop((∃ d, owns (c : Thread nD τ) scM2_0 fullShare d) ∗ restBut2 (F := F) c) ∗ (∃ r, prngReg c r)) := by
  unfold Pipeline.ΦA; rw [scopedRest2_split]; simp only [scM2_0, owns_whole]; try rfl

end Cert.Kernel.Hand

end
-- ==== Proof.K.Reg2RunA.lean ====
/- Region 2 of @main: the whole-body run of its kernel at the grid's first point (the scratch is zeroed, the second output left alone). -/
import proofs.«402460_j82824149336546_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's first point (the scratch is zeroed, the second output left alone), with the proof that on whole staging
    memrefs — each input's at its contents, the second output's at contents handed back untouched, the scratch at anything, the
    first output's at anything — the body runs to the continuation holding the inputs' as they were and each stored
    buffer with its pieces written. -/
noncomputable def kernelRun2_A (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc2__gcn_apply_kernel_eq_skeleton]; unfold cc2__gcn_apply_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.K.Reg2RunB.lean ====
/- Region 2 of @main: the whole-body run of its kernel at a middle point (the scratch is carried, the second output left alone). -/
import proofs.«402460_j82824149336546_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at a middle point (the scratch is carried, the second output left alone), with the proof that on whole staging
    memrefs — each input's at its contents, the second output's at contents handed back untouched, the scratch at what the point before left, the
    first output's at anything — the body runs to the continuation holding the inputs' as they were and each stored
    buffer with its pieces written. -/
noncomputable def kernelRun2_B (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc2__gcn_apply_kernel_eq_skeleton]; unfold cc2__gcn_apply_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.K.Reg2RunC.lean ====
/- Region 2 of @main: the whole-body run of its kernel at the grid's last point (the scratch is carried and copied to the second output). -/
import proofs.«402460_j82824149336546_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's last point (the scratch is carried and copied to the second output), with the proof that on whole staging
    memrefs — each input's at its contents, the scratch at what the point before left, the
    outputs' at anything — the body runs to the continuation holding the inputs' as they were and each stored
    buffer with its pieces written. -/
noncomputable def kernelRun2_C (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_apply_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__gcn_apply_kernel_eq_skeleton]; unfold cc2__gcn_apply_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.Kernel.Hand

end
-- ==== Proof.K.Reg2.lean ====
/- Region 2 of @main (the first graph-convolution layer's kernel), at the contents V the region is entered with:
   what each case of the body leaves in the two output windows and in the scratch, what they hold point by point,
   the proof data, the body obligation at every point, and the invariant's two ends. -/
import proofs.«402460_j82824149336546_1_alg».proof.Proof.K.Reg2RunA
import proofs.«402460_j82824149336546_1_alg».proof.Proof.K.Reg2RunB
import proofs.«402460_j82824149336546_1_alg».proof.Proof.K.Reg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output window 9 tile its block, so they cover it. -/
theorem cover2_A_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S2000x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1 S2000x128.size (by sl_kernel_rfl) y

/-- What case A leaves in output window 9's staging buffer: its pieces read back over junk. -/
def out2_A_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S2000x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A stores nothing into output window 10 (idle there, not written back): a value nothing reads. -/
def out2_A_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VO2_10.read (Elt F) (VO2_10.writes (Elt F) VO2_10.junk (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case A's pieces for the scratch cover it. -/
theorem scover2_A_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S512x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S512x128.size (by sl_kernel_rfl) y

/-- What case A leaves in the scratch: its pieces read back over junk. -/
def sout2_A_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1)

/-- Case B's pieces for output window 9 tile its block, so they cover it. -/
theorem cover2_B_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case B leaves in output window 9's staging buffer: its pieces read back over junk. -/
def out2_B_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B stores nothing into output window 10 (idle there, not written back): a value nothing reads. -/
def out2_B_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO2_10.read (Elt F) (VO2_10.writes (Elt F) VO2_10.junk (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case B's pieces for the scratch cover it. -/
theorem scover2_B_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case B leaves in the scratch: its pieces read back over junk. -/
def sout2_B_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-- Case C's pieces for output window 9 tile its block, so they cover it. -/
theorem cover2_C_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case C leaves in output window 9's staging buffer: its pieces read back over junk. -/
def out2_C_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO2_9.read (Elt F) (VO2_9.writes (Elt F) VO2_9.junk (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for output window 10 tile its block, so they cover it. -/
theorem cover2_C_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S512x128.size (by sl_kernel_rfl) y

/-- What case C leaves in output window 10's staging buffer: its pieces read back over junk. -/
def out2_C_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO2_10.read (Elt F) (VO2_10.writes (Elt F) VO2_10.junk (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's pieces for the scratch cover it. -/
theorem scover2_C_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case C leaves in the scratch: its pieces read back over junk. -/
def sout2_C_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-! ## What the outputs and the scratch hold after each point -/

/-- The first point is case A's, -/
theorem hA2_0 (t : Fin cfg2.N) (h : t.val = 0) : cond2_0 (grid2.coords t) := (hcond2_0 t).mpr h
theorem hA2_1 (t : Fin cfg2.N) (h : t.val = 0) : ¬cond2_1 (grid2.coords t) := fun hc => by have := (hcond2_1 t).mp hc; omega
/-- a point after it does not take the first conditional, -/
theorem hB2_0 (t : Fin cfg2.N) (h : t.val ≠ 0) : ¬cond2_0 (grid2.coords t) := fun hc => h ((hcond2_0 t).mp hc)
/-- and takes the second exactly when it is the last. -/
theorem hB2_1 (t : Fin cfg2.N) (h : t.val ≠ 24) : ¬cond2_1 (grid2.coords t) := fun hc => h ((hcond2_1 t).mp hc)
theorem hC2_1 (t : Fin cfg2.N) (h : t.val = 24) : cond2_1 (grid2.coords t) := (hcond2_1 t).mpr h

/-- What output window 9's staging buffer, output window 10's and the scratch hold after the body at position `n`:
    the case the closed forms select there, run at the point's memrefs and input blocks, the scratch at what the
    point before left in it. -/
def outsAt2 (c : Dev nD) : (n : ℕ) → n < cfg2.N → Vec F S2000x128 .f32 × Vec F S512x128 .f32 × Vec F S512x128 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) (hA2_0 ⟨0, hn⟩ rfl) (hA2_1 ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩),
      out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) (hA2_0 ⟨0, hn⟩ rfl) (hA2_1 ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) (hA2_0 ⟨0, hn⟩ rfl) (hA2_1 ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h1 : n + 1 = 24 then
      (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hC2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      out2_C_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hC2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hC2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2)
    else
      (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hB2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hB2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hB2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2)

/-- `outsAt2` at the first point: case A's contents. -/
theorem outsAt2_A (c : Dev nD) (t : Fin cfg2.N) (h0 : t.val = 0) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t),
      out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact absurd h0 (Nat.succ_ne_zero n)

/-- `outsAt2` at a middle point: case B's contents, over the scratch the point before left. -/
theorem outsAt2_B (c : Dev nD) (t : Fin cfg2.N) (h0 : t.val ≠ 0) (h1 : t.val ≠ 24) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt2` at the last point: case C's contents, over the scratch the point before left. -/
theorem outsAt2_C (c : Dev nD) (t : Fin cfg2.N) (h0 : t.val ≠ 0) (h1 : t.val = 24) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      out2_C_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2) := by
  obtain ⟨n, hn⟩ := t
  cases n with
  | zero => exact absurd rfl h0
  | succ n => exact (dif_pos h1).trans rfl

/-- The region invariant before position `n`: before the first point what the launch hands the region; afterwards
    the scratch at what the point before left in it, the other scoped buffers unopened, the generator register at
    some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ restBut2 (F := F) c) ∗ (∃ r, prngReg c r)) := by
  cases n with
  | zero => exact absurd rfl hz
  | succ n => rfl

/-! ## The pipeline's proof data -/

/-- The proof data of the region's pipeline on core `c`: the arrays as the region finds them; after the body at
    point `t` each input's buffer at its block and the outputs' at `outsAt2`'s components; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := rfl
theorem share2 (c : Dev nD) (w : Fin cfg2.W) : (dat2 V c).q w = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 8000000 in
/-- The body at any point: the inputs' memrefs hold their blocks; the closed forms say which case the point is in, so
    that case's run applies; the invariant hands the body the scratch at what the point before left (at anything at
    the first point) and takes it back at this point's contents; the other scoped buffers, the generator register
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  by_cases h0 : t.val = 0
  ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [show (dat2 V c).leavesExact 9 t = owns (c : Thread nD τ) (ms2_9 t) fullShare ((dat2 V c).after 9 t) from by
        unfold Dat.leavesExact; rw [liveAt2_9 t], after2_9]
      rw [Dat.leavesExact_idle (dat2 V c) 10 t (idleAt2_10_A t (hA2_0 t h0) (hA2_1 t h0)) (noFlush2_10_A t (hA2_0 t h0) (hA2_1 t h0))]
      rw [outsAt2_A V c t h0]
      unfold out2_A_9 sout2_A_0; (try dsimp only)
      rw [PhiS2_castSucc V c t, PhiS2_zero V c _ _ h0, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_A c (grid2.coords t) _ _ _ _ _ _ _ _ _ _ _ _ _ _ _ _ _ _ _ _ _ _ _ _ (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover2_A_9 c _ _ _ _ _ _ _ _ _ _ _ _ _ _ _ _ _ _ _ _ _ _ _ _ _ _ _ _ _ _ _ _ _ _ _ _)
      iexists _; iexact H10

  · by_cases h1 : t.val = 24
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [show (dat2 V c).leavesExact 9 t = owns (c : Thread nD τ) (ms2_9 t) fullShare ((dat2 V c).after 9 t) from by
          unfold Dat.leavesExact; rw [liveAt2_9 t], after2_9]
        rw [show (dat2 V c).leavesExact 10 t = owns (c : Thread nD τ) (ms2_10 t) fullShare ((dat2 V c).after 10 t) from by
          unfold Dat.leavesExact; rw [liveAt2_10_C t (hB2_0 t h0) (hC2_1 t h1)], after2_10]
        rw [outsAt2_C V c t h0 h1]
        unfold out2_C_9 out2_C_10 sout2_C_0; (try dsimp only)
        rw [PhiS2_castSucc V c t, PhiS2_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_C c (grid2.coords t) _ _ _ _ _ _ _ _ _ _ _ _ _ _ _ _ _ _ _ _ _ _ _ _ (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        iintro ⟨H0, H1, H2, H3, H4, H5, H6, H7, H8, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover2_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover2_C_10 c _ _ _ _ _ _ _ _ _ _ _ _ _ _ _ _ _ _ _ _ _ _ _ _ _ _ _ _ _ _ _ _ _ _ _ _ _)

    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [show (dat2 V c).leavesExact 9 t = owns (c : Thread nD τ) (ms2_9 t) fullShare ((dat2 V c).after 9 t) from by
          unfold Dat.leavesExact; rw [liveAt2_9 t], after2_9]
        rw [Dat.leavesExact_idle (dat2 V c) 10 t (idleAt2_10_B t (hB2_0 t h0) (hB2_1 t h1)) (noFlush2_10_B t (hB2_0 t h0) (hB2_1 t h1))]
        rw [outsAt2_B V c t h0 h1]
        unfold out2_B_9 sout2_B_0; (try dsimp only)
        rw [PhiS2_castSucc V c t, PhiS2_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_B c (grid2.coords t) _ _ _ _ _ _ _ _ _ _ _ _ _ _ _ _ _ _ _ _ _ _ _ _ (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        iintro ⟨H0, H1, H2, H3, H4, H5, H6, H7, H8, ⟨%e9, H9⟩, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover2_B_9 c _ _ _ _ _ _ _ _ _ _ _ _ _ _ _ _ _ _ _ _ _ _ _ _ _ _ _ _ _ _ _ _ _ _ _ _ _)
        iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.Kernel.Hand

end
-- ==== Proof.K.Reg3.lean ====
/- Region 3 of @main: the virtual-node MLP kernel (two dense layers, each followed by a batch normalisation over
   the 512 rows and a relu), run at ONE grid point over ten whole-array windows (nine inputs, one output). The
   region's half of the frame at a PARAMETER `V`, the TensorCore's buffer contents when the region is entered. -/
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, for any proof data whose array is
    `V`'s and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, for any proof data whose array is
    `V`'s and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, for any proof data whose array is
    `V`'s and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, for any proof data whose array is
    `V`'s and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, for any proof data whose array is
    `V`'s and whose body leaves the block in place: the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, for any proof data whose array is
    `V`'s and whose body leaves the block in place: the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, for any proof data whose array is
    `V`'s and whose body leaves the block in place: the window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, for any proof data whose array is
    `V`'s and whose body leaves the block in place: the window is uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store go through the whole of their buffer -/

abbrev r3_0 : Rect S512x128 := Rect.unit (s := S512x128) ![0, 0] S512x128.size inb_S512x128_S512x128_0_0
abbrev r3_1 : Rect S128x256 := Rect.unit (s := S128x256) ![0, 0] S128x256.size inb_S128x256_S128x256_0_0
abbrev r3_2 : Rect S1x256 := Rect.unit (s := S1x256) ![0, 0] S1x256.size inb_S1x256_S1x256_0_0
abbrev r3_3 : Rect S256x128 := Rect.unit (s := S256x128) ![0, 0] S256x128.size inb_S256x128_S256x128_0_0
abbrev r3_4 : Rect S1x128 := Rect.unit (s := S1x128) ![0, 0] S1x128.size inb_S1x128_S1x128_0_0

/-! ## What the body leaves in the output window's buffer -/

/-- Window 9's staging buffer after the body, from the input windows' blocks: its one store, of the second layer's
    value at the first layer's value. -/
def out3_9 (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) : Vec F S512x128 .f32 :=
  View.canon [⟨r3_0, k3_pay1 (k3_pay2 (View.ld x0 r3_0) (View.ld x1 r3_1) (View.ld x2 r3_2) (View.ld x3 r3_2) (View.ld x4 r3_2)) (View.ld x5 r3_3) (View.ld x6 r3_4) (View.ld x7 r3_4) (View.ld x8 r3_4)⟩]

/-- The store is of the whole buffer, so it covers it. -/
theorem cover3_9 (p0 : Vec F S512x128 .f32) (y : S512x128.Idx) :
    ∃ pc ∈ ([⟨r3_0, p0⟩] : List (View.Piece (Elt F) S512x128 .f32)), y ∈ pc.1.set :=
  View.cover_of_tiled [⟨r3_0, p0⟩] S512x128.size (by rfl) y

/-! ## The body's triple -/

set_option maxHeartbeats 4000000 in
/-- The kernel body on whole staging memrefs, the inputs' at read contents `xW` and the output's at anything, runs to
    the continuation holding the inputs' as they were and the output's at `out3_9` of the inputs'. -/
theorem sound_kernel3 (c : Dev nD) (E : Set ℕ) (i : grid3.Coords) (arg1 : Memref sig .tc .vmem S512x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x128 .f32) (harg10 : arg10.IsWhole)
    (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__vn_mlp_kernel i arg1 harg1 arg2 harg2 arg3 harg3 arg4 harg4 arg5 harg5 arg6 harg6 arg7 harg7 arg8 harg8 arg9 harg9 arg10 harg10) K := by
  simp only [cc3__vn_mlp_kernel_eq_skeleton]; unfold cc3__vn_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The proof data of pipeline 3 on core `c`: the arrays as the region finds them (`V`); after the body at
    point `t` each input's buffer at its block and the output's at `out3_9` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 1000000 in
/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The region's ends: the invariant is the class's at every point, nothing is owed, the shares are full -/

theorem hin3 (c : Dev nD) : Pipeline.ΦA spec3 c ⊢ (dat3 V c).Φ 0 := .rfl
theorem hout3 (c : Dev nD) : (dat3 V c).Φ (Fin.last cfg3.N) ⊢ Pipeline.ΦA spec3 c := .rfl
theorem owed3 (c : Dev nD) (t : Fin (cfg3.N + 1)) : (dat3 V c).owed t = 0 := rfl
theorem share3 (c : Dev nD) (w : Fin cfg3.W) : (dat3 V c).q w = fullShare := rfl

end Cert.Kernel.Hand
-- ==== Proof.K.Reg4.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the batch-normalised linear layer, block by block, at the entry contents `V`

Window 0 is a row block of the features; windows 1 to 6 are the weight matrix, the bias, the running mean, the running
variance, the scale and the shift, each one whole block whose index never moves; window 7 is the row block of the
result. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is not
    fetched its block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not: where it is not
    fetched its block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not: where it is not
    fetched its block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not: where it is not
    fetched its block index has not moved, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not: where it is not
    fetched its block index has not moved, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not: where it is not
    fetched its block index has not moved, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not: where it is not
    fetched its block index has not moved, and the body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 7's staging buffer after the body, from the input windows' blocks: its one store, of the whole block. The
    payload takes the variance and the scale before the mean, as the body reads them. -/
def out4_7 (x0 : Vec F S2000x128 .f32) (x1 : Vec F S128x128 .f32) (x2 x3 x4 x5 x6 : Vec F S1x128 .f32) : Vec F S2000x128 .f32 :=
  View.canon [⟨r4_0, k4_pay1 (View.ld x0 r4_0) (View.ld x1 r4_1) (View.ld x2 r4_2) (View.ld x4 r4_2) (View.ld x5 r4_2) (View.ld x3 r4_2) (View.ld x6 r4_2)⟩]

/-- The one store is of the whole buffer, so it covers it. -/
theorem cover4_7 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- The kernel body on whole staging memrefs, the inputs' at read contents and the output's at anything, runs to the
    continuation holding the inputs' as they were and the output's at `out4_7` of the inputs'. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S2000x128 .f32) (harg8 : arg8.IsWhole)
    (x0 : Vec F S2000x128 .f32) (x1 : Vec F S128x128 .f32) (x2 x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6)) -∗ K ⟨⟩))
      ⊢ wp frame (wpE (defs₀ (F := F)) Variants.none c none) E
          (cc4__gcn_apply_final_kernel i arg1 harg1 arg2 harg2 arg3 harg3 arg4 harg4 arg5 harg5 arg6 harg6 arg7 harg7 arg8 harg8) K := by
  simp only [cc4__gcn_apply_final_kernel_eq_skeleton]; unfold cc4__gcn_apply_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends, the debt and the shares -/

theorem hin4 (c : Dev nD) : Pipeline.ΦA spec4 c ⊢ (dat4 V c).Φ 0 := .rfl
theorem hout4 (c : Dev nD) : (dat4 V c).Φ (Fin.last cfg4.N) ⊢ Pipeline.ΦA spec4 c := .rfl
theorem owed4 (c : Dev nD) (t : Fin (cfg4.N + 1)) : (dat4 V c).owed t = 0 := rfl
theorem share4 (c : Dev nD) (w : Fin cfg4.W) : (dat4 V c).q w = fullShare := rfl

end Cert.Kernel.Hand
-- ==== Proof.K.Reg5.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the pointwise combination `out = a·x0 + b·x1` over [2000,128] blocks, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [2000,128] buffer as one rectangle: every load and the store of the body are of it. -/
abbrev r5_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out5_2 (x0 : Vec F S2000x128 .f32) (x1 : Vec F S2000x128 .f32) : Vec F S2000x128 .f32 :=
  View.canon [⟨r5_0, k5_pay1 (View.ld x0 r5_0) (View.ld x1 r5_0)⟩]

/-- The one store is of the whole buffer, so it covers it. -/
theorem cover5_2 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The body on whole staging memrefs, the inputs' at read contents `x0`, `x1` and the output's at anything, runs
    to the continuation holding the inputs' as they were and the output's at `out5_2 x0 x1`. -/
theorem sound_kernel5 (c : Dev nD) (E : Set ℕ) (i : grid5.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__combine_kernel i arg1 harg1 arg2 harg2 arg3 harg3) K := by
  simp only [cc5__combine_kernel_eq_skeleton]; unfold cc5__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region on core `c`: the arrays as the region finds them (`V`); after the body at point
    `t` each input's buffer at its block and the output's at `out5_2` of the two input blocks; the invariant is
    the untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The invariant is the same at every point, and at the two ends it is the class's. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl
theorem owed5 (c : Dev nD) (t : Fin (cfg5.N + 1)) : (dat5 V c).owed t = 0 := rfl
theorem share5 (c : Dev nD) (w : Fin cfg5.W) : (dat5 V c).q w = fullShare := rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the pointwise combination `out = a·x0 + b·x1` over [2000,128] blocks, at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole [2000,128] buffer as one rectangle: every load and the store of the body are of it. -/
abbrev r6_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out6_2 (x0 : Vec F S2000x128 .f32) (x1 : Vec F S2000x128 .f32) : Vec F S2000x128 .f32 :=
  View.canon [⟨r6_0, k6_pay1 (View.ld x0 r6_0) (View.ld x1 r6_0)⟩]

/-- The one store is of the whole buffer, so it covers it. -/
theorem cover6_2 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The body's triple -/

set_option maxHeartbeats 1000000 in
/-- The body on whole staging memrefs, the inputs' at read contents `x0`, `x1` and the output's at anything, runs
    to the continuation holding the inputs' as they were and the output's at `out6_2 x0 x1`. -/
theorem sound_kernel6 (c : Dev nD) (E : Set ℕ) (i : grid6.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__combine_kernel i arg1 harg1 arg2 harg2 arg3 harg3) K := by
  simp only [cc6__combine_kernel_eq_skeleton]; unfold cc6__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region on core `c`: the arrays as the region finds them (`V`); after the body at point
    `t` each input's buffer at its block and the output's at `out6_2` of the two input blocks; the invariant is
    the untouched rest; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- The invariant is the same at every point, and at the two ends it is the class's. -/
theorem hin6 (c : Dev nD) : Pipeline.ΦA spec6 c ⊢ (dat6 V c).Φ 0 := .rfl
theorem hout6 (c : Dev nD) : (dat6 V c).Φ (Fin.last cfg6.N) ⊢ Pipeline.ΦA spec6 c := .rfl
theorem owed6 (c : Dev nD) (t : Fin (cfg6.N + 1)) : (dat6 V c).owed t = 0 := rfl
theorem share6 (c : Dev nD) (w : Fin cfg6.W) : (dat6 V c).q w = fullShare := rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the pointwise combination `out = a·x0 + b·x1` over [2000,128] blocks, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole [2000,128] buffer as one rectangle: every load and the store of the body are of it. -/
abbrev r7_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out7_2 (x0 : Vec F S2000x128 .f32) (x1 : Vec F S2000x128 .f32) : Vec F S2000x128 .f32 :=
  View.canon [⟨r7_0, k7_pay1 (View.ld x0 r7_0) (View.ld x1 r7_0)⟩]

/-- The one store is of the whole buffer, so it covers it. -/
theorem cover7_2 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

/-! ## The body's triple -/

set_option maxHeartbeats 1000000 in
/-- The body on whole staging memrefs, the inputs' at read contents `x0`, `x1` and the output's at anything, runs
    to the continuation holding the inputs' as they were and the output's at `out7_2 x0 x1`. -/
theorem sound_kernel7 (c : Dev nD) (E : Set ℕ) (i : grid7.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7_2 x0 x1)) -∗ K ⟨⟩))
      ⊢ wp frame (wpE (defs₀ (F := F)) Variants.none c none) E (cc7__combine_kernel i arg1 harg1 arg2 harg2 arg3 harg3) K := by
  simp only [cc7__combine_kernel_eq_skeleton]; unfold cc7__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of the region on core `c`: the arrays as the region finds them (`V`); after the body at point
    `t` each input's buffer at its block and the output's at `out7_2` of the two input blocks; the invariant is
    the untouched rest; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant is the same at every point, and at the two ends it is the class's. -/
theorem hin7 (c : Dev nD) : Pipeline.ΦA spec7 c ⊢ (dat7 V c).Φ 0 := .rfl
theorem hout7 (c : Dev nD) : (dat7 V c).Φ (Fin.last cfg7.N) ⊢ Pipeline.ΦA spec7 c := .rfl
theorem owed7 (c : Dev nD) (t : Fin (cfg7.N + 1)) : (dat7 V c).owed t = 0 := rfl
theorem share7 (c : Dev nD) (w : Fin cfg7.W) : (dat7 V c).q w = fullShare := rfl

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so `sound_kernel7` applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the pointwise combination `out = a·x0 + b·x1` over [2000,128] blocks, at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, for any proof data whose array is
    `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [2000,128] buffer as one rectangle: every load and the store of the body are of it. -/
abbrev r8_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out8_2 (x0 : Vec F S2000x128 .f32) (x1 : Vec F S2000x128 .f32) : Vec F S2000x128 .f32 :=
  View.canon [⟨r8_0, k8_pay1 (View.ld x0 r8_0) (View.ld x1 r8_0)⟩]

/-- The one store is of the whole buffer, so it covers it. -/
theorem cover8_2 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The body's triple -/

set_option maxHeartbeats 1000000 in
/-- The body on whole staging memrefs, the inputs' at read contents `x0`, `x1` and the output's at anything, runs
    to the continuation holding the inputs' as they were and the output's at `out8_2 x0 x1`. -/
theorem sound_kernel8 (c : Dev nD) (E : Set ℕ) (i : grid8.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__combine_kernel i arg1 harg1 arg2 harg2 arg3 harg3) K := by
  simp only [cc8__combine_kernel_eq_skeleton]; unfold cc8__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region on core `c`: the arrays as the region finds them (`V`); after the body at point
    `t` each input's buffer at its block and the output's at `out8_2` of the two input blocks; the invariant is
    the untouched rest; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- The invariant is the same at every point, and at the two ends it is the class's. -/
theorem hin8 (c : Dev nD) : Pipeline.ΦA spec8 c ⊢ (dat8 V c).Φ 0 := .rfl
theorem hout8 (c : Dev nD) : (dat8 V c).Φ (Fin.last cfg8.N) ⊢ Pipeline.ΦA spec8 c := .rfl
theorem owed8 (c : Dev nD) (t : Fin (cfg8.N + 1)) : (dat8 V c).owed t = 0 := rfl
theorem share8 (c : Dev nD) (w : Fin cfg8.W) : (dat8 V c).q w = fullShare := rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: the pointwise combination `out = a·x0 + b·x1` over [2000,128] blocks, at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, for any proof data whose array is
    `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, likewise. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole [2000,128] buffer as one rectangle: every load and the store of the body are of it. -/
abbrev r9_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out9_2 (x0 : Vec F S2000x128 .f32) (x1 : Vec F S2000x128 .f32) : Vec F S2000x128 .f32 :=
  View.canon [⟨r9_0, k9_pay1 (View.ld x0 r9_0) (View.ld x1 r9_0)⟩]

/-- The one store is of the whole buffer, so it covers it. -/
theorem cover9_2 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The body's triple -/

set_option maxHeartbeats 1000000 in
/-- The body on whole staging memrefs, the inputs' at read contents `x0`, `x1` and the output's at anything, runs
    to the continuation holding the inputs' as they were and the output's at `out9_2 x0 x1`. -/
theorem sound_kernel9 (c : Dev nD) (E : Set ℕ) (i : grid9.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__combine_kernel i arg1 harg1 arg2 harg2 arg3 harg3) K := by
  simp only [cc9__combine_kernel_eq_skeleton]; unfold cc9__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of the region on core `c`: the arrays as the region finds them (`V`); after the body at point
    `t` each input's buffer at its block and the output's at `out9_2` of the two input blocks; the invariant is
    the untouched rest; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- The invariant is the same at every point, and at the two ends it is the class's. -/
theorem hin9 (c : Dev nD) : Pipeline.ΦA spec9 c ⊢ (dat9 V c).Φ 0 := .rfl
theorem hout9 (c : Dev nD) : (dat9 V c).Φ (Fin.last cfg9.N) ⊢ Pipeline.ΦA spec9 c := .rfl
theorem owed9 (c : Dev nD) (t : Fin (cfg9.N + 1)) : (dat9 V c).owed t = 0 := rfl
theorem share9 (c : Dev nD) (w : Fin cfg9.W) : (dat9 V c).q w = fullShare := rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10Runs.lean ====
/- Region 10 (the pooled sum): the branch conditions of the body in closed form over the grid, where its output
   window is idle, the staging and scratch memrefs, the invariant with the scratch named, and the body's triple in
   each of its three control cases (first point: reset and add; middle points: add; last point: add and store). -/
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## The body's branch conditions -/

/-- The condition of the body's first conditional (the reset), from the grid coordinates. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val = 0 :=
  (by decide +kernel : ∀ t : Fin grid10.N, cond10_0 (grid10.coords t) ↔ t.val = 0)

/-- The condition of the body's second conditional (the store of the output). -/
abbrev cond10_1 (i : grid10.Coords) : Prop := k10_cond2 i = 1#1
/-- It holds at the last point only. -/
theorem hcond10_1 : ∀ t : Fin cfg10.N, cond10_1 (grid10.coords t) ↔ t.val = 24 :=
  (by decide +kernel : ∀ t : Fin grid10.N, cond10_1 (grid10.coords t) ↔ t.val = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
/-- At the first point the output window is idle and not written back. -/
theorem idleAt10_2_A : ∀ t : Fin cfg10.N, cond10_0 (grid10.coords t) → ¬cond10_1 (grid10.coords t) → cfg10.idle 2 (grid10.coords t) = true := by decide +kernel
theorem noFlush10_2_A : ∀ t : Fin cfg10.N, cond10_0 (grid10.coords t) → ¬cond10_1 (grid10.coords t) → (cfg10.win 2).flush t = false := by decide +kernel
/-- At the middle points the output window is idle and not written back. -/
theorem idleAt10_2_B : ∀ t : Fin cfg10.N, ¬cond10_0 (grid10.coords t) → ¬cond10_1 (grid10.coords t) → cfg10.idle 2 (grid10.coords t) = true := by decide +kernel
theorem noFlush10_2_B : ∀ t : Fin cfg10.N, ¬cond10_0 (grid10.coords t) → ¬cond10_1 (grid10.coords t) → (cfg10.win 2).flush t = false := by decide +kernel
/-- At the last point the output window is live. -/
theorem liveAt10_2_C : ∀ t : Fin cfg10.N, ¬cond10_0 (grid10.coords t) → cond10_1 (grid10.coords t) → cfg10.idle 2 (grid10.coords t) = false := by decide +kernel

/-! ## The memrefs the body is called with -/

/-- One staging buffer of the output window, through which its contents are stated. -/
abbrev VO10_2 : View sig .tc .vmem S512x128 .f32 := (Memref.whole cc10_stg2_0 : Memref sig .tc .vmem S512x128 .f32).view
abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2000x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S512x128 .f32 := win10_2.stage (cfg10.slots t 2)
abbrev hs10_2 (t : Fin cfg10.N) : (ms10_2 t).IsWhole := hstage10_2 ((cfg10.slots t 2).cast nbuf10_2)
/-- The scratch accumulator: a whole scoped buffer of the kernel's own. -/
abbrev scM10_0 : Memref sig .tc .vmem S512x128 .f32 := Memref.whole cc10_scratch0
abbrev VS10_0 : View sig .tc .vmem S512x128 .f32 := scM10_0.view

/-- The region's invariant with the scratch accumulator as a memref owned at some contents, the other scoped
    buffers left unopened. -/
theorem PhiA10_eq (c : Dev nD) :
    (Pipeline.ΦA spec10 c : sProp 𝕄)
      = iprop(iprop(iprop((∃ d, owns (c : Thread nD τ) scM10_0 fullShare d)) ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

/-! ## The body's triple, case by case -/

set_option maxHeartbeats 1000000 in
/-- FIRST POINT (reset taken, store of the output not taken): the inputs' memrefs at their blocks, the output's at
    contents handed back untouched, the scratch at anything; the scratch ends with the pieces written. -/
noncomputable def kernelRun10_A (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i)
    (x0 : Vec F S2000x128 .f32) (x1 : Vec F S2000x512 .bf16) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__pool_sum_kernel i arg1 harg1 arg2 harg2 arg3 harg3 arg4 harg4) K } := by
  refine ⟨[], ?_, fun xi2 E K => ?run⟩
  case run =>
    simp only [cc10__pool_sum_kernel_eq_skeleton]; unfold cc10__pool_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- MIDDLE POINTS (neither conditional taken): as the first point, the scratch at what the point before left. -/
noncomputable def kernelRun10_B (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i)
    (x0 : Vec F S2000x128 .f32) (x1 : Vec F S2000x512 .bf16) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__pool_sum_kernel i arg1 harg1 arg2 harg2 arg3 harg3 arg4 harg4) K } := by
  refine ⟨[], ?_, fun xi2 E K => ?run⟩
  case run =>
    simp only [cc10__pool_sum_kernel_eq_skeleton]; unfold cc10__pool_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- LAST POINT (reset not taken, store of the output taken): the output's memref at anything, left with its pieces written. -/
noncomputable def kernelRun10_C (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i)
    (x0 : Vec F S2000x128 .f32) (x1 : Vec F S2000x512 .bf16) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc10__pool_sum_kernel i arg1 harg1 arg2 harg2 arg3 harg3 arg4 harg4) K } := by
  refine ⟨?_, ?_, fun E K => ?run⟩
  case run =>
    simp only [cc10__pool_sum_kernel_eq_skeleton]; unfold cc10__pool_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Reg10.lean ====
/- Region 10 (the pooled sum) at the entry contents V: what the output's staging buffer and the scratch accumulator
   hold after each point, the invariant carrying the accumulator between points, the proof data, the body obligation
   and the invariant's two ends. -/
import proofs.«402460_j82824149336546_1_alg».proof.Proof.K.Reg10Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, for any proof data whose array is V's
    and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What each case leaves -/

/-- This case stores nothing into the output (idle there, not written back): a placeholder nothing consults. -/
def out10_A_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) : Vec F S512x128 .f32 :=
  VO10_2.read (Elt F) (VO10_2.writes (Elt F) VO10_2.junk (kernelRun10_A c i arg1 harg1 arg2 harg2 arg3 harg3 arg4 harg4 hc0 hc1 x0 x1).1)

/-- The pieces this case writes into the scratch accumulator cover it. -/
theorem scover10_A_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) (y : S512x128.Idx) :
    ∃ pc ∈ (kernelRun10_A c i arg1 harg1 arg2 harg2 arg3 harg3 arg4 harg4 hc0 hc1 x0 x1).2.1, y ∈ pc.1.set :=
  View.cover_of_tiledL (kernelRun10_A c i arg1 harg1 arg2 harg2 arg3 harg3 arg4 harg4 hc0 hc1 x0 x1).2.1 S512x128.size (by sl_kernel_rfl) y

/-- What this case leaves in the scratch accumulator: its pieces read back. -/
def sout10_A_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) : Vec F S512x128 .f32 :=
  VS10_0.read (Elt F) (VS10_0.writes (Elt F) VS10_0.junk (kernelRun10_A c i arg1 harg1 arg2 harg2 arg3 harg3 arg4 harg4 hc0 hc1 x0 x1).2.1)

/-- This case stores nothing into the output (idle there, not written back): a placeholder nothing consults. -/
def out10_B_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) : Vec F S512x128 .f32 :=
  VO10_2.read (Elt F) (VO10_2.writes (Elt F) VO10_2.junk (kernelRun10_B c i arg1 harg1 arg2 harg2 arg3 harg3 arg4 harg4 hc0 hc1 x0 x1 xs0).1)

/-- The pieces this case writes into the scratch accumulator cover it. -/
theorem scover10_B_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) (y : S512x128.Idx) :
    ∃ pc ∈ (kernelRun10_B c i arg1 harg1 arg2 harg2 arg3 harg3 arg4 harg4 hc0 hc1 x0 x1 xs0).2.1, y ∈ pc.1.set :=
  View.cover_of_tiledL (kernelRun10_B c i arg1 harg1 arg2 harg2 arg3 harg3 arg4 harg4 hc0 hc1 x0 x1 xs0).2.1 S512x128.size (by sl_kernel_rfl) y

/-- What this case leaves in the scratch accumulator: its pieces read back. -/
def sout10_B_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) : Vec F S512x128 .f32 :=
  VS10_0.read (Elt F) (VS10_0.writes (Elt F) VS10_0.junk (kernelRun10_B c i arg1 harg1 arg2 harg2 arg3 harg3 arg4 harg4 hc0 hc1 x0 x1 xs0).2.1)

/-- The last point's one store into the output tiles its block, so its pieces cover it. -/
theorem cover10_C_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) (y : S512x128.Idx) :
    ∃ pc ∈ (kernelRun10_C c i arg1 harg1 arg2 harg2 arg3 harg3 arg4 harg4 hc0 hc1 x0 x1 xs0).1, y ∈ pc.1.set :=
  View.cover_of_tiledL (kernelRun10_C c i arg1 harg1 arg2 harg2 arg3 harg3 arg4 harg4 hc0 hc1 x0 x1 xs0).1 S512x128.size (by sl_kernel_rfl) y

/-- What the last point leaves in the output's staging buffer: its pieces read back. -/
def out10_C_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) : Vec F S512x128 .f32 :=
  VO10_2.read (Elt F) (VO10_2.writes (Elt F) VO10_2.junk (kernelRun10_C c i arg1 harg1 arg2 harg2 arg3 harg3 arg4 harg4 hc0 hc1 x0 x1 xs0).1)

/-- The pieces this case writes into the scratch accumulator cover it. -/
theorem scover10_C_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) (y : S512x128.Idx) :
    ∃ pc ∈ (kernelRun10_C c i arg1 harg1 arg2 harg2 arg3 harg3 arg4 harg4 hc0 hc1 x0 x1 xs0).2.1, y ∈ pc.1.set :=
  View.cover_of_tiledL (kernelRun10_C c i arg1 harg1 arg2 harg2 arg3 harg3 arg4 harg4 hc0 hc1 x0 x1 xs0).2.1 S512x128.size (by sl_kernel_rfl) y

/-- What this case leaves in the scratch accumulator: its pieces read back. -/
def sout10_C_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) : Vec F S512x128 .f32 :=
  VS10_0.read (Elt F) (VS10_0.writes (Elt F) VS10_0.junk (kernelRun10_C c i arg1 harg1 arg2 harg2 arg3 harg3 arg4 harg4 hc0 hc1 x0 x1 xs0).2.1)

/-! ## What the output's buffer and the accumulator hold after each point -/

/-- THE ACCUMULATION: after the body at position n, the pair (output's staging buffer, scratch accumulator): the
    first point's case at 0, then the middle case over what the point before left in the accumulator, the last
    case at position 24. -/
def outsAt10 (c : Dev nD) : (n : ℕ) → n < cfg10.N → Vec F S512x128 .f32 × Vec F S512x128 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr rfl) (fun h => (by decide : ¬(0 : ℕ) = 24) ((hcond10_1 ⟨0, hn⟩).mp h)) (iblk10 V c 0 ⟨0, hn⟩) (iblk10 V c 1 ⟨0, hn⟩), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr rfl) (fun h => (by decide : ¬(0 : ℕ) = 24) ((hcond10_1 ⟨0, hn⟩).mp h)) (iblk10 V c 0 ⟨0, hn⟩) (iblk10 V c 1 ⟨0, hn⟩))
  | n + 1, hn =>
    if h1 : n + 1 = 24 then
      (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
    else
      (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

theorem outsAt10_A (c : Dev nD) (t : Fin cfg10.N) (h0 : t.val = 0) (h1 : ¬t.val = 24) :
    outsAt10 V c t.val t.isLt = (out10_A_2 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t), sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact absurd h0 (Nat.succ_ne_zero n)

theorem outsAt10_B (c : Dev nD) (t : Fin cfg10.N) (h0 : ¬t.val = 0) (h1 : ¬t.val = 24) :
    outsAt10 V c t.val t.isLt = (out10_B_2 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact absurd rfl h0
  | succ n => exact (dif_neg h1).trans rfl

theorem outsAt10_C (c : Dev nD) (t : Fin cfg10.N) (h0 : ¬t.val = 0) (h1 : t.val = 24) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2, sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the accumulator carried between points -/

/-- Before position n: at the region's entry the class's invariant (the accumulator at anything); afterwards the
    accumulator at what the point before left, the other scoped buffers unopened, the generator register at some state. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

/-- The arrays as the region finds them; after the body each input's buffer at its block, the output's at the
    accumulation's first component; the invariant PhiS10; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem owed10 (c : Dev nD) (t : Fin (cfg10.N + 1)) : (dat10 V c).owed t = 0 := rfl
theorem share10 (c : Dev nD) (w : Fin cfg10.W) : (dat10 V c).q w = fullShare := rfl

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in;
    the invariant hands the body the accumulator at what the point before left (at anything at the first point) and
    takes it back at this point's contents; the output's buffer is handed back untouched where the window is idle. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  by_cases h0 : t.val = 0
  · have h1 : ¬t.val = 24 := by omega
    rw [show (dat10 V c).leavesExact 0 t = owns (c : Thread nD τ) (ms10_0 t) fullShare ((dat10 V c).after 0 t) from by
      unfold Dat.leavesExact; rw [liveAt10_0 t], after10_0]
    rw [show (dat10 V c).leavesExact 1 t = owns (c : Thread nD τ) (ms10_1 t) fullShare ((dat10 V c).after 1 t) from by
      unfold Dat.leavesExact; rw [liveAt10_1 t], after10_1]
    rw [Dat.leavesExact_idle (dat10 V c) 2 t (idleAt10_2_A t ((hcond10_0 t).mpr h0) (fun h => h1 ((hcond10_1 t).mp h))) (noFlush10_2_A t ((hcond10_0 t).mpr h0) (fun h => h1 ((hcond10_1 t).mp h)))]
    rw [outsAt10_A V c t h0 h1]
    unfold sout10_A_0; (try dsimp only)
    rw [PhiS10_castSucc V c t, PhiS10_zero V c _ _ h0, PhiA10_eq]
    iintro ⟨⟨⟨HS0, HR⟩, Hg⟩, Ho, ⟨%d0, H0⟩, ⟨%d1, H1⟩, ⟨%d2, H2⟩⟩
    iapply ((kernelRun10_A c (grid10.coords t) _ _ _ _ _ _ _ _ ((hcond10_0 t).mpr h0) (fun h => h1 ((hcond10_1 t).mp h)) (iblk10 V c 0 t) (iblk10 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_A_0 c _ _ _ _ _ _ _ _ _ _ _ _ _)
        iexact HR
      iexact Hg
    isplitl [Ho]; · iexact Ho
    isplitl [H0]; · iexact H0
    isplitl [H1]; · iexact H1
    iexists _; iexact H2
  · by_cases h1 : t.val = 24
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2_C t (fun h => h0 ((hcond10_0 t).mp h)) ((hcond10_1 t).mpr h1)], after10_2]
      rw [outsAt10_C V c t h0 h1]
      unfold out10_C_2 sout10_C_0; (try dsimp only)
      rw [PhiS10_castSucc V c t, PhiS10_pos V c _ _ h0]
      iintro ⟨⟨⟨HS0, HR⟩, Hg⟩, Ho, ⟨%d0, H0⟩, ⟨%d1, H1⟩, ⟨%d2, H2⟩⟩
      iapply ((kernelRun10_C c (grid10.coords t) _ _ _ _ _ _ _ _ (fun h => h0 ((hcond10_0 t).mp h)) ((hcond10_1 t).mpr h1) (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c _ _ _ _ _ _ _ _ _ _ _ _ _ _)
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [Dat.leavesExact_idle (dat10 V c) 2 t (idleAt10_2_B t (fun h => h0 ((hcond10_0 t).mp h)) (fun h => h1 ((hcond10_1 t).mp h))) (noFlush10_2_B t (fun h => h0 ((hcond10_0 t).mp h)) (fun h => h1 ((hcond10_1 t).mp h)))]
      rw [outsAt10_B V c t h0 h1]
      unfold sout10_B_0; (try dsimp only)
      rw [PhiS10_castSucc V c t, PhiS10_pos V c _ _ h0]
      iintro ⟨⟨⟨HS0, HR⟩, Hg⟩, Ho, ⟨%d0, H0⟩, ⟨%d1, H1⟩, ⟨%d2, H2⟩⟩
      iapply ((kernelRun10_B c (grid10.coords t) _ _ _ _ _ _ _ _ (fun h => h0 ((hcond10_0 t).mp h)) (fun h => h1 ((hcond10_1 t).mp h)) (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point the invariant gives the class's back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

theorem hout10 (c : Dev nD) : (dat10 V c).Φ (Fin.last cfg10.N) ⊢ Pipeline.ΦA spec10 c :=
  Phi_out10 V c _ (by rw [Fin.val_last]; have : cfg10.N = 25 := N_10; omega)

end Cert.Kernel.Hand

end
-- ==== Proof.K.Reg11.lean ====
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 11 of @main: the linear output head, at the entry contents `V`

The last kernel region has one grid point and four windows, each stored whole: the pooled features (window 0,
512 × 128), the head's weight matrix (window 1, 128 × 128), its bias row (window 2, 1 × 128), all read, and the
result (window 3, 512 × 128), written.  The body leaves in the result's staging buffer the pooled features times
the weights plus the bias row broadcast down the rows; the three inputs stay as they were.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, for any proof data whose array is
    `V`'s and whose body leaves the block in place: the window is fetched at every point, uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer read or written whole -/

abbrev r11_0 : Rect S512x128 := Rect.unit (s := S512x128) ![0, 0] S512x128.size inb_S512x128_S512x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0

/-! ## What the body leaves in the output window's buffer -/

/-- Window 3's staging buffer after the body, from the input windows' blocks: its one store, of the whole buffer,
    whose payload is the product of the pooled features and the weights plus the bias row. -/
def out11_3 (x0 : Vec F S512x128 .f32) (x1 : Vec F S128x128 .f32) (x2 : Vec F S1x128 .f32) : Vec F S512x128 .f32 :=
  View.canon [⟨r11_0, k11_pay1 (View.ld x0 r11_0) (View.ld x1 r11_1) (View.ld x2 r11_2)⟩]

/-- The one store is of the whole buffer, so it covers it. -/
theorem cover11_3 (p0 : Vec F S512x128 .f32) (y : S512x128.Idx) :
    ∃ pc ∈ ([⟨r11_0, p0⟩] : List (View.Piece (Elt F) S512x128 .f32)), y ∈ pc.1.set :=
  View.cover_of_tiled [⟨r11_0, p0⟩] S512x128.size (by rfl) y

/-! ## The body's triple -/

set_option maxHeartbeats 1000000 in
/-- The kernel body on whole staging memrefs, the inputs' at read contents and the output's at anything, runs to
    the continuation holding the inputs' as they were and the output's at `out11_3` of the inputs'.  The body also
    reads the output's buffer before it writes it; what it reads there is not used. -/
theorem sound_kernel11 (c : Dev nD) (E : Set ℕ) (i : grid11.Coords)
    (arg1 : Memref sig .tc .vmem S512x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S512x128 .f32) (harg4 : arg4.IsWhole)
    (x0 : Vec F S512x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__output_head_kernel i arg1 harg1 arg2 harg2 arg3 harg3 arg4 harg4) K := by
  simp only [cc11__output_head_kernel_eq_skeleton]; unfold cc11__output_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them (`V`); after the body each
    input's buffer at its block and the output's at `out11_3` of the input blocks; the invariant the scoped rest and
    the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so the body's triple applies; the invariant and the
    core's debt pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the region's two ends, the debt and the shares -/

theorem hin11 (c : Dev nD) : Pipeline.ΦA spec11 c ⊢ (dat11 V c).Φ 0 := .rfl
theorem hout11 (c : Dev nD) : (dat11 V c).Φ (Fin.last cfg11.N) ⊢ Pipeline.ΦA spec11 c := .rfl
theorem owed11 (c : Dev nD) (t : Fin (cfg11.N + 1)) : (dat11 V c).owed t = 0 := rfl
theorem share11 (c : Dev nD) (w : Fin cfg11.W) : (dat11 V c).q w = fullShare := rfl

end Cert.Kernel.Hand
-- ==== Proof.K.Run.lean ====
import proofs.«402460_j82824149336546_1_alg».proof.Proof.K.Reg0
import proofs.«402460_j82824149336546_1_alg».proof.Proof.K.Reg1
import proofs.«402460_j82824149336546_1_alg».proof.Proof.K.Reg2
import proofs.«402460_j82824149336546_1_alg».proof.Proof.K.Reg3
import proofs.«402460_j82824149336546_1_alg».proof.Proof.K.Reg4
import proofs.«402460_j82824149336546_1_alg».proof.Proof.K.Reg5
import proofs.«402460_j82824149336546_1_alg».proof.Proof.K.Reg6
import proofs.«402460_j82824149336546_1_alg».proof.Proof.K.Reg7
import proofs.«402460_j82824149336546_1_alg».proof.Proof.K.Reg8
import proofs.«402460_j82824149336546_1_alg».proof.Proof.K.Reg9
import proofs.«402460_j82824149336546_1_alg».proof.Proof.K.Reg10
import proofs.«402460_j82824149336546_1_alg».proof.Proof.K.Reg11
import proofs.«402460_j82824149336546_1_alg».proof.Proof.Gen.Kernel.Launch
import proofs.«402460_j82824149336546_1_alg».proof.Proof.Gen.Kernel.Skeleton
import proofs.«402460_j82824149336546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Every pair may be recorded at every point of every region (the proof data state no bound of their own) -/
theorem recorded0 (V : (c : Dev nD) → (b : Ref sig .tc) → Buf (Elt F) ((c : Thread nD τ).loc b)) (c : Dev nD) (t : Fin (cfg0.N + 1)) :
    (dat0 V c).recorded t = Set.univ := rfl
theorem recorded1 (V : (c : Dev nD) → (b : Ref sig .tc) → Buf (Elt F) ((c : Thread nD τ).loc b)) (c : Dev nD) (t : Fin (cfg1.N + 1)) :
    (dat1 V c).recorded t = Set.univ := rfl
theorem recorded2 (V : (c : Dev nD) → (b : Ref sig .tc) → Buf (Elt F) ((c : Thread nD τ).loc b)) (c : Dev nD) (t : Fin (cfg2.N + 1)) :
    (dat2 V c).recorded t = Set.univ := rfl
theorem recorded3 (V : (c : Dev nD) → (b : Ref sig .tc) → Buf (Elt F) ((c : Thread nD τ).loc b)) (c : Dev nD) (t : Fin (cfg3.N + 1)) :
    (dat3 V c).recorded t = Set.univ := rfl
theorem recorded4 (V : (c : Dev nD) → (b : Ref sig .tc) → Buf (Elt F) ((c : Thread nD τ).loc b)) (c : Dev nD) (t : Fin (cfg4.N + 1)) :
    (dat4 V c).recorded t = Set.univ := rfl
theorem recorded5 (V : (c : Dev nD) → (b : Ref sig .tc) → Buf (Elt F) ((c : Thread nD τ).loc b)) (c : Dev nD) (t : Fin (cfg5.N + 1)) :
    (dat5 V c).recorded t = Set.univ := rfl
theorem recorded6 (V : (c : Dev nD) → (b : Ref sig .tc) → Buf (Elt F) ((c : Thread nD τ).loc b)) (c : Dev nD) (t : Fin (cfg6.N + 1)) :
    (dat6 V c).recorded t = Set.univ := rfl
theorem recorded7 (V : (c : Dev nD) → (b : Ref sig .tc) → Buf (Elt F) ((c : Thread nD τ).loc b)) (c : Dev nD) (t : Fin (cfg7.N + 1)) :
    (dat7 V c).recorded t = Set.univ := rfl
theorem recorded8 (V : (c : Dev nD) → (b : Ref sig .tc) → Buf (Elt F) ((c : Thread nD τ).loc b)) (c : Dev nD) (t : Fin (cfg8.N + 1)) :
    (dat8 V c).recorded t = Set.univ := rfl
theorem recorded9 (V : (c : Dev nD) → (b : Ref sig .tc) → Buf (Elt F) ((c : Thread nD τ).loc b)) (c : Dev nD) (t : Fin (cfg9.N + 1)) :
    (dat9 V c).recorded t = Set.univ := rfl
theorem recorded10 (V : (c : Dev nD) → (b : Ref sig .tc) → Buf (Elt F) ((c : Thread nD τ).loc b)) (c : Dev nD) (t : Fin (cfg10.N + 1)) :
    (dat10 V c).recorded t = Set.univ := rfl
theorem recorded11 (V : (c : Dev nD) → (b : Ref sig .tc) → Buf (Elt F) ((c : Thread nD τ).loc b)) (c : Dev nD) (t : Fin (cfg11.N + 1)) :
    (dat11 V c).recorded t = Set.univ := rfl

/-! # The run: the main function's segments from the launch to the return

## The buffer contents at each segment boundary: a fold through the main function -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b

/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b

/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b

/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7`. -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b

/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch `hostOps8`. -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b

/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch `hostOps9`. -/
abbrev W19 : Dev nD → Valuation τ sig (Elt F) := fun c => StableHlo.after hostOps9 (W18 m ρ c)
/-- The same read at the TensorCore's references. -/
abbrev V19 : (c : Dev nD) → (b : Ref sig .tc) → Buf (Elt F) ((c : Thread nD τ).loc b) := fun c b => W19 m ρ c b

/-- At region 9's exit: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- At region 10's exit: its arrays at what the pipeline leaves, every other buffer as entered. -/
def W21 (c : Dev nD) : Valuation τ sig (Elt F) :=
  Pipeline.withArrays spec10 c (W20 m ρ c) fun w => (dat10 (V20 m ρ) c).arrAt w cfg10.N
theorem W21_arr (c : Dev nD) (w : Fin cfg10.W) :
    W21 m ρ c (Proc.devRef .tc (Pipeline.arrRef spec10 w)) = (dat10 (V20 m ρ) c).arrAt w cfg10.N := by
  unfold W21; exact Pipeline.withArrays_arr spec10 launch10.win.arr_inj c _ _ w
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
/-- The same read at the TensorCore's references (region 10's exit contents). -/
abbrev V21 : (c : Dev nD) → (b : Ref sig .tc) → Buf (Elt F) ((c : Thread nD τ).loc b) := fun c b => W21 m ρ c b
/-- At region 10's exit each of its arrays holds what the pipeline leaves and every other buffer what it held at entry. -/
theorem hF10 (c : Dev nD) (w : Fin cfg10.W) : (dat10 (V20 m ρ) c).arrAt w cfg10.N = V21 m ρ c (Pipeline.arrRef spec10 w) :=
  (W21_arr m ρ c w).symm
theorem hrest10 (c : Dev nD) : ∀ b, b ∉ Finset.univ.image (Pipeline.arrRef spec10) → V21 m ρ c b = V20 m ρ c b :=
  fun b hb => W21_of_ne m ρ c b fun w e => hb (Finset.mem_image.mpr ⟨w, Finset.mem_univ _, e⟩)

/-- After the host stretch `hostOps11`. -/
abbrev W22 : Dev nD → Valuation τ sig (Elt F) := fun c => StableHlo.after hostOps11 (W21 m ρ c)
/-- The same read at the TensorCore's references. -/
abbrev V22 : (c : Dev nD) → (b : Ref sig .tc) → Buf (Elt F) ((c : Thread nD τ).loc b) := fun c b => W22 m ρ c b

/-- At region 11's exit: its arrays at what the pipeline leaves, every other buffer as entered. -/
def W23 (c : Dev nD) : Valuation τ sig (Elt F) :=
  Pipeline.withArrays spec11 c (W22 m ρ c) fun w => (dat11 (V22 m ρ) c).arrAt w cfg11.N
theorem W23_arr (c : Dev nD) (w : Fin cfg11.W) :
    W23 m ρ c (Proc.devRef .tc (Pipeline.arrRef spec11 w)) = (dat11 (V22 m ρ) c).arrAt w cfg11.N := by
  unfold W23; exact Pipeline.withArrays_arr spec11 launch11.win.arr_inj c _ _ w
theorem W23_of_ne (c : Dev nD) (b : Ref sig .tc) (hb : ∀ w, Pipeline.arrRef spec11 w ≠ b) :
    W23 m ρ c (Proc.devRef .tc b) = W22 m ρ c (Proc.devRef .tc b) := by
  unfold W23; exact Pipeline.withArrays_of_ne spec11 c _ _ b hb
/-- The same read at the TensorCore's references (region 11's exit contents). -/
abbrev V23 : (c : Dev nD) → (b : Ref sig .tc) → Buf (Elt F) ((c : Thread nD τ).loc b) := fun c b => W23 m ρ c b
/-- At region 11's exit each of its arrays holds what the pipeline leaves and every other buffer what it held at entry. -/
theorem hF11 (c : Dev nD) (w : Fin cfg11.W) : (dat11 (V22 m ρ) c).arrAt w cfg11.N = V23 m ρ c (Pipeline.arrRef spec11 w) :=
  (W23_arr m ρ c w).symm
theorem hrest11 (c : Dev nD) : ∀ b, b ∉ Finset.univ.image (Pipeline.arrRef spec11) → V23 m ρ c b = V22 m ρ c b :=
  fun b hb => W23_of_ne m ρ c b fun w e => hb (Finset.mem_image.mpr ⟨w, Finset.mem_univ _, e⟩)

/-! ## The proof data family and the thread state -/

/-- The prefetched tables' admissible contents: no pipeline has a table. -/
abbrev adm : (p : Fin 12) → (pcfgs (F := F) p).Adm := fun p => (cfgs p).toPCfg_adm
/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V20 m ρ) c
  | ⟨11, _⟩ => fun c => dat11 (V22 m ρ) c
  | ⟨_ + 12, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W23 m ρ c) ∗ ∃ r, prngReg c r)

/-! ## What the host stretches write -/

set_option maxHeartbeats 4000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_v30, main_v31, main_v32, main_v33, main_v34, main_v35, main_v36, main_v37, main_c_5, main_v38, main_v39, main_c_6, main_v40, main_v41, main_v42, main_v43, main_v44, main_v45, main_v46, main_cst_7, main_v47, main_v48, main_v49, main_v50, main_v51, main_v52, main_v53, main_v54, main_v55, main_v56, main_v57, main_v58, main_v59, main_cst_8, main_v60, main_v61, main_cst_9, main_v62, main_v63, main_v64, main_v65, main_v66, main_cst_10, main_v67, main_v68, main_cst_11, main_v69, main_v70, main_v71, main_v72, main_v73, main_v74, main_v75, main_v76, main_v77, main_v78, main_v79, main_v80, main_v81]
set_option maxHeartbeats 4000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v83, main_v84, main_v85, main_v86, main_v87, main_v88, main_v89, main_v90, main_v91, main_v92, main_v93, main_v94, main_v95, main_v96, main_v97, main_v98, main_v99, main_v100, main_v101, main_v102, main_v103, main_v104, main_v105]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v107, main_v108, main_c_12, main_v109, main_v110, main_c_13, main_v111, main_v112, main_v113, main_v114, main_v115, main_v116, main_v117, main_cst_14, main_v118, main_v119, main_v120, main_v121, main_v122, main_v123, main_v124, main_v125, main_v126, main_v127, main_v128, main_v129, main_v130, main_cst_15, main_v131, main_v132, main_cst_16, main_v133, main_v134, main_v135, main_v136, main_v137, main_cst_17, main_v138, main_v139, main_cst_18, main_v140, main_v141, main_v142, main_v143, main_v144, main_v145, main_v146, main_v147, main_v148, main_v149, main_v150, main_v151, main_v152]
set_option maxHeartbeats 4000000 in
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v154, main_v155, main_v156, main_v157, main_v158, main_v159, main_v160, main_v161, main_v162, main_v163, main_v164, main_v165, main_v166, main_v167, main_v168, main_v169, main_v170, main_v171, main_v172, main_v173, main_v174, main_v175, main_v176]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v178, main_v179, main_c_19, main_v180, main_v181, main_c_20, main_v182, main_v183, main_v184, main_v185, main_v186, main_v187, main_v188, main_cst_21, main_v189, main_v190, main_v191, main_v192, main_v193, main_v194, main_v195, main_v196, main_v197, main_v198, main_v199, main_v200, main_v201, main_cst_22, main_v202, main_v203, main_cst_23, main_v204, main_v205, main_v206, main_v207, main_v208, main_cst_24, main_v209, main_v210, main_cst_25, main_v211, main_v212, main_v213, main_v214, main_v215, main_v216, main_v217, main_v218, main_v219, main_v220, main_v221, main_v222, main_v223]
set_option maxHeartbeats 4000000 in
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v225, main_c_26, main_v226, main_v227, main_c_27, main_v228, main_v229, main_v230, main_v231, main_v232, main_v233, main_v234, main_cst_28, main_v235, main_v236, main_v237]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps6` allocates a buffer. -/
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v239, main_c_29, main_v240, main_v241, main_c_30, main_v242, main_v243, main_v244, main_v245, main_v246, main_v247, main_v248, main_cst_31, main_v249, main_v250, main_v251]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v253, main_c_32, main_v254, main_v255, main_c_33, main_v256, main_v257, main_v258, main_v259, main_v260, main_v261, main_v262, main_cst_34, main_v263, main_v264, main_v265]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps8` allocates a buffer. -/
theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_v267, main_c_35, main_v268, main_v269, main_c_36, main_v270, main_v271, main_v272, main_v273, main_v274, main_v275, main_v276, main_cst_37, main_v277, main_v278, main_v279]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps9` allocates a buffer. -/
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v281, main_c_38, main_v282, main_v283, main_c_39, main_v284, main_v285, main_v286, main_v287, main_v288, main_v289, main_v290, main_cst_40, main_v291, main_v292, main_v293]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps11` allocates a buffer. -/
theorem hostOps11_fresh : (hostOps11 : List (HloOp τ sig (Elt F))).Forall fun op => op.fresh = ∅ := by
  simp only [List.Forall]; repeat' constructor
/-- The references `hostOps11`'s operations write. -/
abbrev hostOps11_W : List (Ref sig .tc) := [main_cst_41, main_v296, main_cst_42, main_v297, main_v298, main_v299, main_cst_43, main_v300, main_v301, main_v302, main_v303, main_v304, main_v305]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## The regions as segments -/

set_option backward.isDefEq.respectTransparency.types false in
/-- Region 0 over the thread state: entered from every unscoped buffer at `W1`, left at `W2`. Its arrays split out
    of the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed0 (V1 m ρ) c 0]
      icases HO with ⟨%W, HO⟩; iexists W; isplitr
      · ipureintro; exact fun _ _ => Or.inl ((show (pdats m ρ 0 c).recorded 0 = Set.univ from recorded0 (V1 m ρ) c 0) ▸ Set.mem_univ _)
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V1 m ρ) c (Fin.last _)]
    icases HO with ⟨%W, -, HO⟩; iexists W; iexact HO

set_option backward.isDefEq.respectTransparency.types false in
/-- Region 1 over the thread state: entered from every unscoped buffer at `W3`, left at `W4`. Its arrays split out
    of the unscoped buffers and put back at the exit contents; the generator register into the region's invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V3 m ρ) c 0]
      icases HO with ⟨%W, HO⟩; iexists W; isplitr
      · ipureintro; exact fun _ _ => Or.inl ((show (pdats m ρ 1 c).recorded 0 = Set.univ from recorded1 (V3 m ρ) c 0) ▸ Set.mem_univ _)
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed1 (V3 m ρ) c (Fin.last _)]
    icases HO with ⟨%W, -, HO⟩; iexists W; iexact HO

set_option backward.isDefEq.respectTransparency.types false in
/-- Region 2 over the thread state: entered from every unscoped buffer at `W5`, left at `W6`. Its arrays split out
    of the unscoped buffers and put back at the exit contents; the generator register into the region's invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => share2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from owed2 (V5 m ρ) c 0]
      icases HO with ⟨%W, HO⟩; iexists W; isplitr
      · ipureintro; exact fun _ _ => Or.inl ((show (pdats m ρ 2 c).recorded 0 = Set.univ from recorded2 (V5 m ρ) c 0) ▸ Set.mem_univ _)
      iexact HO
    isplitl [Hp]; · iexact Hp
    iexact Hrest
  hin c := by
    refine BIBase.Entails.trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => share2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 2 c).owed (Fin.last _) = 0 from owed2 (V5 m ρ) c (Fin.last _)]
    icases HO with ⟨%W, -, HO⟩; iexists W; iexact HO

set_option backward.isDefEq.respectTransparency.types false in
/-- Region 3 over the thread state: entered from every unscoped buffer at `W7`, left at `W8`. Its arrays split out
    of the unscoped buffers and put back at the exit contents; the generator register into the region's invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun c t => owed3 (V7 m ρ) c t
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => share3 (V7 m ρ) c w) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from owed3 (V7 m ρ) c 0]
      icases HO with ⟨%W, HO⟩; iexists W; isplitr
      · ipureintro; exact fun _ _ => Or.inl ((show (pdats m ρ 3 c).recorded 0 = Set.univ from recorded3 (V7 m ρ) c 0) ▸ Set.mem_univ _)
      iexact HO
    isplitl [Hp]; · iexact Hp
    iexact Hrest
  hin c := by
    refine BIBase.Entails.trans ?_ (show Pipeline.ΦA spec3 c ⊢ (pdats m ρ 3 c).Φ 0 from hin3 (V7 m ρ) c)
    unfold Pipeline.ΦA
    iintro ⟨Hp, -, Hr⟩
    isplitl [Hr]; · iexact Hr
    iexact Hp
  hout c := by
    rw [Pipeline.ownSems0_none]
    refine BIBase.Entails.trans (show (pdats m ρ 3 c).Φ (Fin.last _) ⊢ Pipeline.ΦA spec3 c from hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => share3 (V7 m ρ) c w)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 3 c).owed (Fin.last _) = 0 from owed3 (V7 m ρ) c (Fin.last _)]
    icases HO with ⟨%W, -, HO⟩; iexists W; iexact HO

set_option backward.isDefEq.respectTransparency.types false in
/-- Region 4 over the thread state: entered from every unscoped buffer at `W9`, left at `W10`. Its arrays split out
    of the unscoped buffers and put back at the exit contents; the generator register into the region's invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun c t => owed4 (V9 m ρ) c t
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun w => share4 (V9 m ρ) c w) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 4 c).owed 0 = 0 from owed4 (V9 m ρ) c 0]
      icases HO with ⟨%W, HO⟩; iexists W; isplitr
      · ipureintro; exact fun _ _ => Or.inl ((show (pdats m ρ 4 c).recorded 0 = Set.univ from recorded4 (V9 m ρ) c 0) ▸ Set.mem_univ _)
      iexact HO
    isplitl [Hp]; · iexact Hp
    iexact Hrest
  hin c := by
    refine BIBase.Entails.trans ?_ (show Pipeline.ΦA spec4 c ⊢ (pdats m ρ 4 c).Φ 0 from hin4 (V9 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ Pipeline.ΦA spec4 c from hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun w => share4 (V9 m ρ) c w)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 4 c).owed (Fin.last _) = 0 from owed4 (V9 m ρ) c (Fin.last _)]
    icases HO with ⟨%W, -, HO⟩; iexists W; iexact HO

set_option backward.isDefEq.respectTransparency.types false in
/-- Region 5 over the thread state: entered from every unscoped buffer at `W11`, left at `W12`. Its arrays split out
    of the unscoped buffers and put back at the exit contents; the generator register into the region's invariant and
    out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun c t => owed5 (V11 m ρ) c t
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun w => share5 (V11 m ρ) c w) (V11 m ρ c) fun w => A_eq5 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 5 c).owed 0 = 0 from owed5 (V11 m ρ) c 0]
      icases HO with ⟨%W, HO⟩; iexists W; isplitr
      · ipureintro; exact fun _ _ => Or.inl ((show (pdats m ρ 5 c).recorded 0 = Set.univ from recorded5 (V11 m ρ) c 0) ▸ Set.mem_univ _)
      iexact HO
    isplitl [Hp]; · iexact Hp
    iexact Hrest
  hin c := by
    refine BIBase.Entails.trans ?_ (show Pipeline.ΦA spec5 c ⊢ (pdats m ρ 5 c).Φ 0 from hin5 (V11 m ρ) c)
    unfold Pipeline.ΦA
    iintro ⟨Hp, -, Hr⟩
    isplitl [Hr]; · iexact Hr
    iexact Hp
  hout c := by
    rw [Pipeline.ownSems0_none]
    refine BIBase.Entails.trans (show (pdats m ρ 5 c).Φ (Fin.last _) ⊢ Pipeline.ΦA spec5 c from hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => share5 (V11 m ρ) c w)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 5 c).owed (Fin.last _) = 0 from owed5 (V11 m ρ) c (Fin.last _)]
    icases HO with ⟨%W, -, HO⟩; iexists W; iexact HO

set_option backward.isDefEq.respectTransparency.types false in
/-- Region 6 over the thread state: entered from every unscoped buffer at `W13`, left at `W14`. Its arrays split out
    of the unscoped buffers and put back at the exit contents; the generator register into the region's invariant and
    out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun c t => owed6 (V13 m ρ) c t
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun w => share6 (V13 m ρ) c w) (V13 m ρ c) fun w => A_eq6 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 6 c).owed 0 = 0 from owed6 (V13 m ρ) c 0]
      icases HO with ⟨%W, HO⟩; iexists W; isplitr
      · ipureintro; exact fun _ _ => Or.inl ((show (pdats m ρ 6 c).recorded 0 = Set.univ from recorded6 (V13 m ρ) c 0) ▸ Set.mem_univ _)
      iexact HO
    isplitl [Hp]; · iexact Hp
    iexact Hrest
  hin c := by
    refine BIBase.Entails.trans ?_ (show Pipeline.ΦA spec6 c ⊢ (pdats m ρ 6 c).Φ 0 from hin6 (V13 m ρ) c)
    unfold Pipeline.ΦA
    iintro ⟨Hp, -, Hr⟩
    isplitl [Hr]; · iexact Hr
    iexact Hp
  hout c := by
    rw [Pipeline.ownSems0_none]
    refine BIBase.Entails.trans (show (pdats m ρ 6 c).Φ (Fin.last _) ⊢ Pipeline.ΦA spec6 c from hout6 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun w => share6 (V13 m ρ) c w)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 6 c).owed (Fin.last _) = 0 from owed6 (V13 m ρ) c (Fin.last _)]
    icases HO with ⟨%W, -, HO⟩; iexists W; iexact HO

set_option backward.isDefEq.respectTransparency.types false in
/-- Region 7 over the thread state: entered from every unscoped buffer at `W15`, left at `W16`. Its arrays split out
    of the unscoped buffers and put back at the exit contents; the generator register into the region's invariant and
    out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun c t => owed7 (V15 m ρ) c t
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun w => share7 (V15 m ρ) c w) (V15 m ρ c) fun w => A_eq7 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 7 c).owed 0 = 0 from owed7 (V15 m ρ) c 0]
      icases HO with ⟨%W, HO⟩; iexists W; isplitr
      · ipureintro; exact fun _ _ => Or.inl ((show (pdats m ρ 7 c).recorded 0 = Set.univ from recorded7 (V15 m ρ) c 0) ▸ Set.mem_univ _)
      iexact HO
    isplitl [Hp]; · iexact Hp
    iexact Hrest
  hin c := by
    refine BIBase.Entails.trans ?_ (show Pipeline.ΦA spec7 c ⊢ (pdats m ρ 7 c).Φ 0 from hin7 (V15 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ Pipeline.ΦA spec7 c from hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun w => share7 (V15 m ρ) c w)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 7 c).owed (Fin.last _) = 0 from owed7 (V15 m ρ) c (Fin.last _)]
    icases HO with ⟨%W, -, HO⟩; iexists W; iexact HO

set_option backward.isDefEq.respectTransparency.types false in
/-- Region 8 over the thread state: entered from every unscoped buffer at `W17`, left at `W18`. Its arrays split out
    of the unscoped buffers and put back at the exit contents; the generator register into the region's invariant and
    out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun c t => owed8 (V17 m ρ) c t
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun w => share8 (V17 m ρ) c w) (V17 m ρ c) fun w => A_eq8 (V17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 8 c).owed 0 = 0 from owed8 (V17 m ρ) c 0]
      icases HO with ⟨%W, HO⟩; iexists W; isplitr
      · ipureintro; exact fun _ _ => Or.inl ((show (pdats m ρ 8 c).recorded 0 = Set.univ from recorded8 (V17 m ρ) c 0) ▸ Set.mem_univ _)
      iexact HO
    isplitl [Hp]; · iexact Hp
    iexact Hrest
  hin c := by
    refine BIBase.Entails.trans ?_ (show Pipeline.ΦA spec8 c ⊢ (pdats m ρ 8 c).Φ 0 from hin8 (V17 m ρ) c)
    unfold Pipeline.ΦA
    iintro ⟨Hp, -, Hr⟩
    isplitl [Hr]; · iexact Hr
    iexact Hp
  hout c := by
    rw [Pipeline.ownSems0_none]
    refine BIBase.Entails.trans (show (pdats m ρ 8 c).Φ (Fin.last _) ⊢ Pipeline.ΦA spec8 c from hout8 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun w => share8 (V17 m ρ) c w)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 8 c).owed (Fin.last _) = 0 from owed8 (V17 m ρ) c (Fin.last _)]
    icases HO with ⟨%W, -, HO⟩; iexists W; iexact HO

set_option backward.isDefEq.respectTransparency.types false in
/-- Region 9 over the thread state: entered from every unscoped buffer at `W19`, left at `W20`. Its arrays split out
    of the unscoped buffers and put back at the exit contents; the generator register into the region's invariant and
    out; nothing owed; no semaphore of the kernel's own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun c t => owed9 (V19 m ρ) c t
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun w => share9 (V19 m ρ) c w) (V19 m ρ c) fun w => A_eq9 (V19 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 9 c).owed 0 = 0 from owed9 (V19 m ρ) c 0]
      icases HO with ⟨%W, HO⟩; iexists W; isplitr
      · ipureintro; exact fun _ _ => Or.inl ((show (pdats m ρ 9 c).recorded 0 = Set.univ from recorded9 (V19 m ρ) c 0) ▸ Set.mem_univ _)
      iexact HO
    isplitl [Hp]; · iexact Hp
    iexact Hrest
  hin c := by
    refine BIBase.Entails.trans ?_ (show Pipeline.ΦA spec9 c ⊢ (pdats m ρ 9 c).Φ 0 from hin9 (V19 m ρ) c)
    unfold Pipeline.ΦA
    iintro ⟨Hp, -, Hr⟩
    isplitl [Hr]; · iexact Hr
    iexact Hp
  hout c := by
    rw [Pipeline.ownSems0_none]
    refine BIBase.Entails.trans (show (pdats m ρ 9 c).Φ (Fin.last _) ⊢ Pipeline.ΦA spec9 c from hout9 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun w => share9 (V19 m ρ) c w)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 9 c).owed (Fin.last _) = 0 from owed9 (V19 m ρ) c (Fin.last _)]
    icases HO with ⟨%W, -, HO⟩; iexists W; iexact HO

set_option backward.isDefEq.respectTransparency.types false in
/-- Region 10 over the thread state: entered from every unscoped buffer at `W20`, left at `W21`. Its arrays split out
    of the unscoped buffers and put back at the exit contents; the generator register into the region's invariant and
    out; nothing owed; no semaphore of the kernel's own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V20 m ρ) c).loose
  hwaits := Pipeline.hwaits_of_owed_zero _ _ _ _ L lv 10 fun c t => owed10 (V20 m ρ) c t
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec10 c (V20 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun w => share10 (V20 m ρ) c w) (V20 m ρ c) fun w => A_eq10 (V20 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 10 c).owed 0 = 0 from owed10 (V20 m ρ) c 0]
      icases HO with ⟨%W, HO⟩; iexists W; isplitr
      · ipureintro; exact fun _ _ => Or.inl ((show (pdats m ρ 10 c).recorded 0 = Set.univ from recorded10 (V20 m ρ) c 0) ▸ Set.mem_univ _)
      iexact HO
    isplitl [Hp]; · iexact Hp
    iexact Hrest
  hin c := by
    refine BIBase.Entails.trans ?_ (show Pipeline.ΦA spec10 c ⊢ (pdats m ρ 10 c).Φ 0 from hin10 (V20 m ρ) c)
    unfold Pipeline.ΦA
    iintro ⟨Hp, -, Hr⟩
    isplitl [Hr]; · iexact Hr
    iexact Hp
  hout c := by
    rw [Pipeline.ownSems0_none]
    refine BIBase.Entails.trans (show (pdats m ρ 10 c).Φ (Fin.last _) ⊢ Pipeline.ΦA spec10 c from hout10 (V20 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun w => share10 (V20 m ρ) c w)
      (V20 m ρ c) (V21 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 10 c).owed (Fin.last _) = 0 from owed10 (V20 m ρ) c (Fin.last _)]
    icases HO with ⟨%W, -, HO⟩; iexists W; iexact HO

set_option backward.isDefEq.respectTransparency.types false in
/-- Region 11 over the thread state: entered from every unscoped buffer at `W22`, left at `W23`. Its arrays split out
    of the unscoped buffers and put back at the exit contents; the generator register into the region's invariant and
    out; nothing owed; no semaphore of the kernel's own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V22 m ρ) c).loose
  hwaits := Pipeline.hwaits_of_owed_zero _ _ _ _ L lv 11 fun c t => owed11 (V22 m ρ) c t
  pre c := iprop(StableHlo.held (c : Thread nD τ) (Pipeline.ucRefs τ sig) (W22 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (V22 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun w => share11 (V22 m ρ) c w) (V22 m ρ c) fun w => A_eq11 (V22 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 11 c).owed 0 = 0 from owed11 (V22 m ρ) c 0]
      icases HO with ⟨%W, HO⟩; iexists W; isplitr
      · ipureintro; exact fun _ _ => Or.inl ((show (pdats m ρ 11 c).recorded 0 = Set.univ from recorded11 (V22 m ρ) c 0) ▸ Set.mem_univ _)
      iexact HO
    isplitl [Hp]; · iexact Hp
    iexact Hrest
  hin c := by
    refine BIBase.Entails.trans ?_ (show Pipeline.ΦA spec11 c ⊢ (pdats m ρ 11 c).Φ 0 from hin11 (V22 m ρ) c)
    unfold Pipeline.ΦA
    iintro ⟨Hp, -, Hr⟩
    isplitl [Hr]; · iexact Hr
    iexact Hp
  hout c := by
    rw [Pipeline.ownSems0_none]
    refine BIBase.Entails.trans (show (pdats m ρ 11 c).Φ (Fin.last _) ⊢ Pipeline.ΦA spec11 c from hout11 (V22 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun w => share11 (V22 m ρ) c w)
      (V22 m ρ c) (V23 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 11 c).owed (Fin.last _) = 0 from owed11 (V22 m ρ) c (Fin.last _)]
    icases HO with ⟨%W, -, HO⟩; iexists W; iexact HO

/-! ## The main function as segments, and the launch -/

/-- The main function's 23 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .region (reg10 m ρ),
    .host (hseg hostOps11 hostOps11_sub hostOps11_fresh (W21 m ρ)),
    .region (reg11 m ρ) ]
/-- The main function is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the main function on
    the TensorCores terminates, nothing faulting, and every final state has each unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

/-! ## What each item leaves unchanged: a reference the item does not write keeps its contents -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h

theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h

theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h

theorem W22_of (c : Dev nD) (r : Ref sig .tc) (h : r ∉ hostOps11_W) :
    W22 m ρ c (Proc.devRef .tc r) = W21 m ρ c (Proc.devRef .tc r) :=
  StableHlo.after_of_writes_sub hostOps11 _ hostOps11_writes h

/-! ## The arguments end as launched: no host operation and no region writes one (region 11 reads `main_arg16` through an input window) -/

/-- `main_arg0` reaches the end as launched. -/
theorem W23_main_arg0 (c : Dev nD) : W23 m ρ c (Proc.devRef .tc main_arg0) = m ((c : Thread nD τ).loc main_arg0) :=
  (W23_of_ne m ρ c main_arg0 (by decide)).trans <|
  (W22_of m ρ c main_arg0 (by decide)).trans <|
  (W21_of_ne m ρ c main_arg0 (by decide)).trans <|
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl

/-- `main_arg1` reaches the end as launched. -/
theorem W23_main_arg1 (c : Dev nD) : W23 m ρ c (Proc.devRef .tc main_arg1) = m ((c : Thread nD τ).loc main_arg1) :=
  (W23_of_ne m ρ c main_arg1 (by decide)).trans <|
  (W22_of m ρ c main_arg1 (by decide)).trans <|
  (W21_of_ne m ρ c main_arg1 (by decide)).trans <|
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl

/-- `main_arg2` reaches the end as launched. -/
theorem W23_main_arg2 (c : Dev nD) : W23 m ρ c (Proc.devRef .tc main_arg2) = m ((c : Thread nD τ).loc main_arg2) :=
  (W23_of_ne m ρ c main_arg2 (by decide)).trans <|
  (W22_of m ρ c main_arg2 (by decide)).trans <|
  (W21_of_ne m ρ c main_arg2 (by decide)).trans <|
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl

/-- `main_arg3` reaches the end as launched. -/
theorem W23_main_arg3 (c : Dev nD) : W23 m ρ c (Proc.devRef .tc main_arg3) = m ((c : Thread nD τ).loc main_arg3) :=
  (W23_of_ne m ρ c main_arg3 (by decide)).trans <|
  (W22_of m ρ c main_arg3 (by decide)).trans <|
  (W21_of_ne m ρ c main_arg3 (by decide)).trans <|
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl

/-- `main_arg4` reaches the end as launched. -/
theorem W23_main_arg4 (c : Dev nD) : W23 m ρ c (Proc.devRef .tc main_arg4) = m ((c : Thread nD τ).loc main_arg4) :=
  (W23_of_ne m ρ c main_arg4 (by decide)).trans <|
  (W22_of m ρ c main_arg4 (by decide)).trans <|
  (W21_of_ne m ρ c main_arg4 (by decide)).trans <|
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans rfl

/-- `main_arg5` reaches the end as launched. -/
theorem W23_main_arg5 (c : Dev nD) : W23 m ρ c (Proc.devRef .tc main_arg5) = m ((c : Thread nD τ).loc main_arg5) :=
  (W23_of_ne m ρ c main_arg5 (by decide)).trans <|
  (W22_of m ρ c main_arg5 (by decide)).trans <|
  (W21_of_ne m ρ c main_arg5 (by decide)).trans <|
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl

/-- `main_arg6` reaches the end as launched. -/
theorem W23_main_arg6 (c : Dev nD) : W23 m ρ c (Proc.devRef .tc main_arg6) = m ((c : Thread nD τ).loc main_arg6) :=
  (W23_of_ne m ρ c main_arg6 (by decide)).trans <|
  (W22_of m ρ c main_arg6 (by decide)).trans <|
  (W21_of_ne m ρ c main_arg6 (by decide)).trans <|
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans rfl

/-- `main_arg7` reaches the end as launched. -/
theorem W23_main_arg7 (c : Dev nD) : W23 m ρ c (Proc.devRef .tc main_arg7) = m ((c : Thread nD τ).loc main_arg7) :=
  (W23_of_ne m ρ c main_arg7 (by decide)).trans <|
  (W22_of m ρ c main_arg7 (by decide)).trans <|
  (W21_of_ne m ρ c main_arg7 (by decide)).trans <|
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl

/-- `main_arg8` reaches the end as launched. -/
theorem W23_main_arg8 (c : Dev nD) : W23 m ρ c (Proc.devRef .tc main_arg8) = m ((c : Thread nD τ).loc main_arg8) :=
  (W23_of_ne m ρ c main_arg8 (by decide)).trans <|
  (W22_of m ρ c main_arg8 (by decide)).trans <|
  (W21_of_ne m ρ c main_arg8 (by decide)).trans <|
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl

/-- `main_arg9` reaches the end as launched. -/
theorem W23_main_arg9 (c : Dev nD) : W23 m ρ c (Proc.devRef .tc main_arg9) = m ((c : Thread nD τ).loc main_arg9) :=
  (W23_of_ne m ρ c main_arg9 (by decide)).trans <|
  (W22_of m ρ c main_arg9 (by decide)).trans <|
  (W21_of_ne m ρ c main_arg9 (by decide)).trans <|
  (W20_of_ne m ρ c main_arg9 (by decide)).trans <|
  (W19_of m ρ c main_arg9 (by decide)).trans <|
  (W18_of_ne m ρ c main_arg9 (by decide)).trans <|
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl

/-- `main_arg10` reaches the end as launched. -/
theorem W23_main_arg10 (c : Dev nD) : W23 m ρ c (Proc.devRef .tc main_arg10) = m ((c : Thread nD τ).loc main_arg10) :=
  (W23_of_ne m ρ c main_arg10 (by decide)).trans <|
  (W22_of m ρ c main_arg10 (by decide)).trans <|
  (W21_of_ne m ρ c main_arg10 (by decide)).trans <|
  (W20_of_ne m ρ c main_arg10 (by decide)).trans <|
  (W19_of m ρ c main_arg10 (by decide)).trans <|
  (W18_of_ne m ρ c main_arg10 (by decide)).trans <|
  (W17_of m ρ c main_arg10 (by decide)).trans <|
  (W16_of_ne m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl

/-- `main_arg11` reaches the end as launched. -/
theorem W23_main_arg11 (c : Dev nD) : W23 m ρ c (Proc.devRef .tc main_arg11) = m ((c : Thread nD τ).loc main_arg11) :=
  (W23_of_ne m ρ c main_arg11 (by decide)).trans <|
  (W22_of m ρ c main_arg11 (by decide)).trans <|
  (W21_of_ne m ρ c main_arg11 (by decide)).trans <|
  (W20_of_ne m ρ c main_arg11 (by decide)).trans <|
  (W19_of m ρ c main_arg11 (by decide)).trans <|
  (W18_of_ne m ρ c main_arg11 (by decide)).trans <|
  (W17_of m ρ c main_arg11 (by decide)).trans <|
  (W16_of_ne m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl

/-- `main_arg12` reaches the end as launched. -/
theorem W23_main_arg12 (c : Dev nD) : W23 m ρ c (Proc.devRef .tc main_arg12) = m ((c : Thread nD τ).loc main_arg12) :=
  (W23_of_ne m ρ c main_arg12 (by decide)).trans <|
  (W22_of m ρ c main_arg12 (by decide)).trans <|
  (W21_of_ne m ρ c main_arg12 (by decide)).trans <|
  (W20_of_ne m ρ c main_arg12 (by decide)).trans <|
  (W19_of m ρ c main_arg12 (by decide)).trans <|
  (W18_of_ne m ρ c main_arg12 (by decide)).trans <|
  (W17_of m ρ c main_arg12 (by decide)).trans <|
  (W16_of_ne m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl

/-- `main_arg13` reaches the end as launched. -/
theorem W23_main_arg13 (c : Dev nD) : W23 m ρ c (Proc.devRef .tc main_arg13) = m ((c : Thread nD τ).loc main_arg13) :=
  (W23_of_ne m ρ c main_arg13 (by decide)).trans <|
  (W22_of m ρ c main_arg13 (by decide)).trans <|
  (W21_of_ne m ρ c main_arg13 (by decide)).trans <|
  (W20_of_ne m ρ c main_arg13 (by decide)).trans <|
  (W19_of m ρ c main_arg13 (by decide)).trans <|
  (W18_of_ne m ρ c main_arg13 (by decide)).trans <|
  (W17_of m ρ c main_arg13 (by decide)).trans <|
  (W16_of_ne m ρ c main_arg13 (by decide)).trans <|
  (W15_of m ρ c main_arg13 (by decide)).trans <|
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl

/-- `main_arg14` reaches the end as launched. -/
theorem W23_main_arg14 (c : Dev nD) : W23 m ρ c (Proc.devRef .tc main_arg14) = m ((c : Thread nD τ).loc main_arg14) :=
  (W23_of_ne m ρ c main_arg14 (by decide)).trans <|
  (W22_of m ρ c main_arg14 (by decide)).trans <|
  (W21_of_ne m ρ c main_arg14 (by decide)).trans <|
  (W20_of_ne m ρ c main_arg14 (by decide)).trans <|
  (W19_of m ρ c main_arg14 (by decide)).trans <|
  (W18_of_ne m ρ c main_arg14 (by decide)).trans <|
  (W17_of m ρ c main_arg14 (by decide)).trans <|
  (W16_of_ne m ρ c main_arg14 (by decide)).trans <|
  (W15_of m ρ c main_arg14 (by decide)).trans <|
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  (W4_of_ne m ρ c main_arg14 (by decide)).trans <|
  (W3_of m ρ c main_arg14 (by decide)).trans <|
  (W2_of_ne m ρ c main_arg14 (by decide)).trans <|
  (W1_of m ρ c main_arg14 (by decide)).trans rfl

/-- `main_arg15` reaches the end as launched. -/
theorem W23_main_arg15 (c : Dev nD) : W23 m ρ c (Proc.devRef .tc main_arg15) = m ((c : Thread nD τ).loc main_arg15) :=
  (W23_of_ne m ρ c main_arg15 (by decide)).trans <|
  (W22_of m ρ c main_arg15 (by decide)).trans <|
  (W21_of_ne m ρ c main_arg15 (by decide)).trans <|
  (W20_of_ne m ρ c main_arg15 (by decide)).trans <|
  (W19_of m ρ c main_arg15 (by decide)).trans <|
  (W18_of_ne m ρ c main_arg15 (by decide)).trans <|
  (W17_of m ρ c main_arg15 (by decide)).trans <|
  (W16_of_ne m ρ c main_arg15 (by decide)).trans <|
  (W15_of m ρ c main_arg15 (by decide)).trans <|
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans rfl

/-- `main_arg16` reaches the end as launched. -/
theorem W23_main_arg16 (c : Dev nD) : W23 m ρ c (Proc.devRef .tc main_arg16) = m ((c : Thread nD τ).loc main_arg16) :=
  ((W23_arr m ρ c 1).trans (((dat11 (V22 m ρ) c).arrAt_in 1 rfl _).trans (A_eq11 (V22 m ρ) c 1))).trans <|
  (W22_of m ρ c main_arg16 (by decide)).trans <|
  (W21_of_ne m ρ c main_arg16 (by decide)).trans <|
  (W20_of_ne m ρ c main_arg16 (by decide)).trans <|
  (W19_of m ρ c main_arg16 (by decide)).trans <|
  (W18_of_ne m ρ c main_arg16 (by decide)).trans <|
  (W17_of m ρ c main_arg16 (by decide)).trans <|
  (W16_of_ne m ρ c main_arg16 (by decide)).trans <|
  (W15_of m ρ c main_arg16 (by decide)).trans <|
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans rfl

/-- `main_arg17` reaches the end as launched. -/
theorem W23_main_arg17 (c : Dev nD) : W23 m ρ c (Proc.devRef .tc main_arg17) = m ((c : Thread nD τ).loc main_arg17) :=
  (W23_of_ne m ρ c main_arg17 (by decide)).trans <|
  (W22_of m ρ c main_arg17 (by decide)).trans <|
  (W21_of_ne m ρ c main_arg17 (by decide)).trans <|
  (W20_of_ne m ρ c main_arg17 (by decide)).trans <|
  (W19_of m ρ c main_arg17 (by decide)).trans <|
  (W18_of_ne m ρ c main_arg17 (by decide)).trans <|
  (W17_of m ρ c main_arg17 (by decide)).trans <|
  (W16_of_ne m ρ c main_arg17 (by decide)).trans <|
  (W15_of m ρ c main_arg17 (by decide)).trans <|
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of_ne m ρ c main_arg17 (by decide)).trans <|
  (W3_of m ρ c main_arg17 (by decide)).trans <|
  (W2_of_ne m ρ c main_arg17 (by decide)).trans <|
  (W1_of m ρ c main_arg17 (by decide)).trans rfl

/-- The result is what region 11 leaves in its output window. -/
theorem W23_result (c : Dev nD) : W23 m ρ c (Proc.devRef .tc main_v306) = (dat11 (V22 m ρ) c).arrAt 3 cfg11.N :=
  W23_arr m ρ c 3

/-- The frame: the run ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs (onTc (τ := τ) (main (F := F))) ⟨m, fun _ => 0, ρ⟩).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c)⟩) (run_all m ρ)

end Cert.Kernel.Hand

end
-- ==== Proof.KI.Reg0Runs.lean ====
/- Region 0 of @main (the first graph-convolution layer's kernel, 25 grid points), at the contents V the region is
   entered with: what the three runs of its body share — the windows' blocks, the two branch conditions in closed
   form over the grid, where the second output window is idle, the staging and scratch memrefs, and the region
   invariant with the kernel's own scratch split off the scoped rest. -/
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the scratch is zeroed under it), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the second output is stored under it), from the grid coordinates. -/
abbrev cond0_1 (i : grid0.Coords) : Prop := k0_cond2 i = 1#1
/-- It holds at the last point only — decided over the grid. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- Window 8 is never idle. -/
theorem liveAt0_8 : ∀ t : Fin cfg0.N, cfg0.idle 8 (grid0.coords t) = false := by decide +kernel
/-- Window 9 is never idle. -/
theorem liveAt0_9 : ∀ t : Fin cfg0.N, cfg0.idle 9 (grid0.coords t) = false := by decide +kernel
/-- At the first point output window 10 is idle: nothing is stored into it, -/
theorem idleAt0_10_A : ∀ t : Fin cfg0.N, cond0_0 (grid0.coords t) → ¬cond0_1 (grid0.coords t) → cfg0.idle 10 (grid0.coords t) = true := by decide +kernel
/-- and its block is not written back there. -/
theorem noFlush0_10_A : ∀ t : Fin cfg0.N, cond0_0 (grid0.coords t) → ¬cond0_1 (grid0.coords t) → (cfg0.win 10).flush t = false := by decide +kernel
/-- At a middle point output window 10 is idle, -/
theorem idleAt0_10_B : ∀ t : Fin cfg0.N, ¬cond0_0 (grid0.coords t) → ¬cond0_1 (grid0.coords t) → cfg0.idle 10 (grid0.coords t) = true := by decide +kernel
/-- and its block is not written back there. -/
theorem noFlush0_10_B : ∀ t : Fin cfg0.N, ¬cond0_0 (grid0.coords t) → ¬cond0_1 (grid0.coords t) → (cfg0.win 10).flush t = false := by decide +kernel
/-- At the last point output window 10 is live: the body stores into it. -/
theorem liveAt0_10_C : ∀ t : Fin cfg0.N, ¬cond0_0 (grid0.coords t) → cond0_1 (grid0.coords t) → cfg0.idle 10 (grid0.coords t) = false := by decide +kernel

/-! ## The staging and scratch memrefs -/

/-- One staging buffer of each output window, through which its contents are stated. -/
abbrev VO0_9 : View sig .tc .vmem S2000x128 .f32 := (Memref.whole cc0_stg9_0 : Memref sig .tc .vmem S2000x128 .f32).view
abbrev VO0_10 : View sig .tc .vmem S512x128 .f32 := (Memref.whole cc0_stg10_0 : Memref sig .tc .vmem S512x128 .f32).view
/-- Each window's current staging memref at point `t`, spelled as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2000x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
/-- The scratch operand: a whole scoped buffer of the kernel's own, passed beside the windows. -/
abbrev scM0_0 : Memref sig .tc .vmem S512x128 .f32 := Memref.whole cc0_scratch0
/-- The scratch the kernel carries between points, as a view: what it holds is stated through it. -/
abbrev VS0_0 : View sig .tc .vmem S512x128 .f32 := scM0_0.view

/-- Every other scoped buffer of the core, unopened. -/
abbrev restBut0 (c : Dev nD) : sProp 𝕄 :=
  Pipeline.scopedRestBut (Ix := Unit) (Name := ℕ) (U := UR sig nD τ) (Lvl := ℕ) (Val := Elt F) spec0 c [cc0_scratch0]

/-- The region invariant with the scratch operand as a memref owned at some contents, the other scoped buffers
    unopened beside it, and the generator register at some state. -/
theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

end Cert.KernelIdeal.Hand

end
-- ==== Proof.KI.Reg0RunA.lean ====
/- Region 0 of @main: the whole-body run of its kernel at the grid's first point (the scratch is zeroed, the second output left alone). -/
import proofs.«402460_j82824149336546_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's first point (the scratch is zeroed, the second output left alone), with the proof that on whole staging
    memrefs — each input's at its contents, the second output's at contents handed back untouched, the scratch at anything, the
    first output's at anything — the body runs to the continuation holding the inputs' as they were and each stored
    buffer with its pieces written. -/
noncomputable def kernelRun0_A (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc0__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc0__gcn_apply_kernel_eq_skeleton]; unfold cc0__gcn_apply_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.KI.Reg0RunB.lean ====
/- Region 0 of @main: the whole-body run of its kernel at a middle point (the scratch is carried, the second output left alone). -/
import proofs.«402460_j82824149336546_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at a middle point (the scratch is carried, the second output left alone), with the proof that on whole staging
    memrefs — each input's at its contents, the second output's at contents handed back untouched, the scratch at what the point before left, the
    first output's at anything — the body runs to the continuation holding the inputs' as they were and each stored
    buffer with its pieces written. -/
noncomputable def kernelRun0_B (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc0__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc0__gcn_apply_kernel_eq_skeleton]; unfold cc0__gcn_apply_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.KI.Reg0RunC.lean ====
/- Region 0 of @main: the whole-body run of its kernel at the grid's last point (the scratch is carried and copied to the second output). -/
import proofs.«402460_j82824149336546_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's last point (the scratch is carried and copied to the second output), with the proof that on whole staging
    memrefs — each input's at its contents, the scratch at what the point before left, the
    outputs' at anything — the body runs to the continuation holding the inputs' as they were and each stored
    buffer with its pieces written. -/
noncomputable def kernelRun0_C (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0__gcn_apply_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gcn_apply_kernel_eq_skeleton]; unfold cc0__gcn_apply_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Hand

end
-- ==== Proof.KI.Reg0.lean ====
/- Region 0 of @main (the first graph-convolution layer's kernel), at the contents V the region is entered with:
   what each case of the body leaves in the two output windows and in the scratch, what they hold point by point,
   the proof data, the body obligation at every point, and the invariant's two ends. -/
import proofs.«402460_j82824149336546_1_alg».proof.Proof.KI.Reg0RunA
import proofs.«402460_j82824149336546_1_alg».proof.Proof.KI.Reg0RunB
import proofs.«402460_j82824149336546_1_alg».proof.Proof.KI.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output window 9 tile its block, so they cover it. -/
theorem cover0_A_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1 S2000x128.size (by sl_kernel_rfl) y

/-- What case A leaves in output window 9's staging buffer: its pieces read back over junk. -/
def out0_A_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S2000x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A stores nothing into output window 10 (idle there, not written back): a value nothing reads. -/
def out0_A_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case A's pieces for the scratch cover it. -/
theorem scover0_A_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S512x128.size (by sl_kernel_rfl) y

/-- What case A leaves in the scratch: its pieces read back over junk. -/
def sout0_A_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1)

/-- Case B's pieces for output window 9 tile its block, so they cover it. -/
theorem cover0_B_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case B leaves in output window 9's staging buffer: its pieces read back over junk. -/
def out0_B_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B stores nothing into output window 10 (idle there, not written back): a value nothing reads. -/
def out0_B_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case B's pieces for the scratch cover it. -/
theorem scover0_B_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case B leaves in the scratch: its pieces read back over junk. -/
def sout0_B_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-- Case C's pieces for output window 9 tile its block, so they cover it. -/
theorem cover0_C_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case C leaves in output window 9's staging buffer: its pieces read back over junk. -/
def out0_C_9 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for output window 10 tile its block, so they cover it. -/
theorem cover0_C_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S512x128.size (by sl_kernel_rfl) y

/-- What case C leaves in output window 10's staging buffer: its pieces read back over junk. -/
def out0_C_10 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's pieces for the scratch cover it. -/
theorem scover0_C_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case C leaves in the scratch: its pieces read back over junk. -/
def sout0_C_0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-! ## What the outputs and the scratch hold after each point -/

/-- The first point is case A's, -/
theorem hA0_0 (t : Fin cfg0.N) (h : t.val = 0) : cond0_0 (grid0.coords t) := (hcond0_0 t).mpr h
theorem hA0_1 (t : Fin cfg0.N) (h : t.val = 0) : ¬cond0_1 (grid0.coords t) := fun hc => by have := (hcond0_1 t).mp hc; omega
/-- a point after it does not take the first conditional, -/
theorem hB0_0 (t : Fin cfg0.N) (h : t.val ≠ 0) : ¬cond0_0 (grid0.coords t) := fun hc => h ((hcond0_0 t).mp hc)
/-- and takes the second exactly when it is the last. -/
theorem hB0_1 (t : Fin cfg0.N) (h : t.val ≠ 24) : ¬cond0_1 (grid0.coords t) := fun hc => h ((hcond0_1 t).mp hc)
theorem hC0_1 (t : Fin cfg0.N) (h : t.val = 24) : cond0_1 (grid0.coords t) := (hcond0_1 t).mpr h

/-- What output window 9's staging buffer, output window 10's and the scratch hold after the body at position `n`:
    the case the closed forms select there, run at the point's memrefs and input blocks, the scratch at what the
    point before left in it. -/
def outsAt0 (c : Dev nD) : (n : ℕ) → n < cfg0.N → Vec F S2000x128 .f32 × Vec F S512x128 .f32 × Vec F S512x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hA0_0 ⟨0, hn⟩ rfl) (hA0_1 ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩),
      out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hA0_0 ⟨0, hn⟩ rfl) (hA0_1 ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hA0_0 ⟨0, hn⟩ rfl) (hA0_1 ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h1 : n + 1 = 24 then
      (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hC0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hC0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hC0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2)
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hB0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hB0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB0_0 ⟨n + 1, hn⟩ (Nat.succ_ne_zero n)) (hB0_1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2)

/-- `outsAt0` at the first point: case A's contents. -/
theorem outsAt0_A (c : Dev nD) (t : Fin cfg0.N) (h0 : t.val = 0) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => exact rfl
  | succ n => exact absurd h0 (Nat.succ_ne_zero n)

/-- `outsAt0` at a middle point: case B's contents, over the scratch the point before left. -/
theorem outsAt0_B (c : Dev nD) (t : Fin cfg0.N) (h0 : t.val ≠ 0) (h1 : t.val ≠ 24) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt0` at the last point: case C's contents, over the scratch the point before left. -/
theorem outsAt0_C (c : Dev nD) (t : Fin cfg0.N) (h0 : t.val ≠ 0) (h1 : t.val = 24) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-- The region invariant before position `n`: before the first point what the launch hands the region; afterwards
    the scratch at what the point before left in it, the other scoped buffers unopened, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restBut0 (F := F) c) ∗ (∃ r, prngReg c r)) := by
  cases n with
  | zero => exact absurd rfl hz
  | succ n => rfl

/-! ## The pipeline's proof data -/

/-- The proof data of the region's pipeline on core `c`: the arrays as the region finds them; after the body at
    point `t` each input's buffer at its block and the outputs' at `outsAt0`'s components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem share0 (c : Dev nD) (w : Fin cfg0.W) : (dat0 V c).q w = fullShare := rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' memrefs hold their blocks; the closed forms say which case the point is in, so
    that case's run applies; the invariant hands the body the scratch at what the point before left (at anything at
    the first point) and takes it back at this point's contents; the other scoped buffers, the generator register
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  by_cases h0 : t.val = 0
  ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 10 t (idleAt0_10_A t (hA0_0 t h0) (hA0_1 t h0)) (noFlush0_10_A t (hA0_0 t h0) (hA0_1 t h0))]
      rw [outsAt0_A V c t h0]
      unfold out0_A_9 sout0_A_0; (try dsimp only)
      rw [PhiS0_castSucc V c t, PhiS0_zero V c _ _ h0, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _)
      iexists _; iexact H10

  · by_cases h1 : t.val = 24
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t], after0_4]
        rw [show (dat0 V c).leavesExact 5 t = owns (c : Thread nD τ) (ms0_5 t) fullShare ((dat0 V c).after 5 t) from by
          unfold Dat.leavesExact; rw [liveAt0_5 t], after0_5]
        rw [show (dat0 V c).leavesExact 6 t = owns (c : Thread nD τ) (ms0_6 t) fullShare ((dat0 V c).after 6 t) from by
          unfold Dat.leavesExact; rw [liveAt0_6 t], after0_6]
        rw [show (dat0 V c).leavesExact 7 t = owns (c : Thread nD τ) (ms0_7 t) fullShare ((dat0 V c).after 7 t) from by
          unfold Dat.leavesExact; rw [liveAt0_7 t], after0_7]
        rw [show (dat0 V c).leavesExact 8 t = owns (c : Thread nD τ) (ms0_8 t) fullShare ((dat0 V c).after 8 t) from by
          unfold Dat.leavesExact; rw [liveAt0_8 t], after0_8]
        rw [show (dat0 V c).leavesExact 9 t = owns (c : Thread nD τ) (ms0_9 t) fullShare ((dat0 V c).after 9 t) from by
          unfold Dat.leavesExact; rw [liveAt0_9 t], after0_9]
        rw [show (dat0 V c).leavesExact 10 t = owns (c : Thread nD τ) (ms0_10 t) fullShare ((dat0 V c).after 10 t) from by
          unfold Dat.leavesExact; rw [liveAt0_10_C t (hB0_0 t h0) (hC0_1 t h1)], after0_10]
        rw [outsAt0_C V c t h0 h1]
        unfold out0_C_9 out0_C_10 sout0_C_0; (try dsimp only)
        rw [PhiS0_castSucc V c t, PhiS0_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        iintro ⟨H0, H1, H2, H3, H4, H5, H6, H7, H8, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _)

    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t], after0_4]
        rw [show (dat0 V c).leavesExact 5 t = owns (c : Thread nD τ) (ms0_5 t) fullShare ((dat0 V c).after 5 t) from by
          unfold Dat.leavesExact; rw [liveAt0_5 t], after0_5]
        rw [show (dat0 V c).leavesExact 6 t = owns (c : Thread nD τ) (ms0_6 t) fullShare ((dat0 V c).after 6 t) from by
          unfold Dat.leavesExact; rw [liveAt0_6 t], after0_6]
        rw [show (dat0 V c).leavesExact 7 t = owns (c : Thread nD τ) (ms0_7 t) fullShare ((dat0 V c).after 7 t) from by
          unfold Dat.leavesExact; rw [liveAt0_7 t], after0_7]
        rw [show (dat0 V c).leavesExact 8 t = owns (c : Thread nD τ) (ms0_8 t) fullShare ((dat0 V c).after 8 t) from by
          unfold Dat.leavesExact; rw [liveAt0_8 t], after0_8]
        rw [show (dat0 V c).leavesExact 9 t = owns (c : Thread nD τ) (ms0_9 t) fullShare ((dat0 V c).after 9 t) from by
          unfold Dat.leavesExact; rw [liveAt0_9 t], after0_9]
        rw [Dat.leavesExact_idle (dat0 V c) 10 t (idleAt0_10_B t (hB0_0 t h0) (hB0_1 t h1)) (noFlush0_10_B t (hB0_0 t h0) (hB0_1 t h1))]
        rw [outsAt0_B V c t h0 h1]
        unfold out0_B_9 sout0_B_0; (try dsimp only)
        rw [PhiS0_castSucc V c t, PhiS0_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        iintro ⟨H0, H1, H2, H3, H4, H5, H6, H7, H8, ⟨%e9, H9⟩, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _)
        iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Cert.KernelIdeal.Hand

end
-- ==== Proof.KI.Reg1.lean ====
/- Region 1 of @main: the virtual-node MLP kernel (two dense layers, each followed by a batch normalisation over
   the 512 rows and a relu), run at ONE grid point over ten whole-array windows (nine inputs, one output). The
   region's half of the frame at a PARAMETER `V`, the TensorCore's buffer contents when the region is entered. -/
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is
    `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is
    `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is
    `V`'s and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, for any proof data whose array is
    `V`'s and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, for any proof data whose array is
    `V`'s and whose body leaves the block in place: the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, for any proof data whose array is
    `V`'s and whose body leaves the block in place: the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, for any proof data whose array is
    `V`'s and whose body leaves the block in place: the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, for any proof data whose array is
    `V`'s and whose body leaves the block in place: the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole of their buffer -/

abbrev r1_0 : Rect S512x128 := Rect.unit (s := S512x128) ![0, 0] S512x128.size inb_S512x128_S512x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_3 : Rect S256x128 := Rect.unit (s := S256x128) ![0, 0] S256x128.size inb_S256x128_S256x128_0_0
abbrev r1_4 : Rect S1x128 := Rect.unit (s := S1x128) ![0, 0] S1x128.size inb_S1x128_S1x128_0_0

/-! ## What the body leaves in the output window's buffer -/

/-- Window 9's staging buffer after the body, from the input windows' blocks: its one store, of the second layer's
    value at the first layer's value. -/
def out1_9 (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) : Vec F S512x128 .f32 :=
  View.canon [⟨r1_0, k1_pay1 (k1_pay2 (View.ld x0 r1_0) (View.ld x1 r1_1) (View.ld x2 r1_2) (View.ld x3 r1_2) (View.ld x4 r1_2)) (View.ld x5 r1_3) (View.ld x6 r1_4) (View.ld x7 r1_4) (View.ld x8 r1_4)⟩]

/-- The store is of the whole buffer, so it covers it. -/
theorem cover1_9 (p0 : Vec F S512x128 .f32) (y : S512x128.Idx) :
    ∃ pc ∈ ([⟨r1_0, p0⟩] : List (View.Piece (Elt F) S512x128 .f32)), y ∈ pc.1.set :=
  View.cover_of_tiled [⟨r1_0, p0⟩] S512x128.size (by rfl) y

/-! ## The body's triple -/

set_option maxHeartbeats 4000000 in
/-- The kernel body on whole staging memrefs, the inputs' at read contents `xW` and the output's at anything, runs to
    the continuation holding the inputs' as they were and the output's at `out1_9` of the inputs'. -/
theorem sound_kernel1 (c : Dev nD) (E : Set ℕ) (i : grid1.Coords) (arg1 : Memref sig .tc .vmem S512x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x128 .f32) (harg10 : arg10.IsWhole)
    (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__vn_mlp_kernel i arg1 harg1 arg2 harg2 arg3 harg3 arg4 harg4 arg5 harg5 arg6 harg6 arg7 harg7 arg8 harg8 arg9 harg9 arg10 harg10) K := by
  simp only [cc1__vn_mlp_kernel_eq_skeleton]; unfold cc1__vn_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at
    point `t` each input's buffer at its block and the output's at `out1_9` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's ends: the invariant is the class's at every point, nothing is owed, the shares are full -/

theorem hin1 (c : Dev nD) : Pipeline.ΦA spec1 c ⊢ (dat1 V c).Φ 0 := .rfl
theorem hout1 (c : Dev nD) : (dat1 V c).Φ (Fin.last cfg1.N) ⊢ Pipeline.ΦA spec1 c := .rfl
theorem owed1 (c : Dev nD) (t : Fin (cfg1.N + 1)) : (dat1 V c).owed t = 0 := rfl
theorem share1 (c : Dev nD) (w : Fin cfg1.W) : (dat1 V c).q w = fullShare := rfl

end Cert.KernelIdeal.Hand
-- ==== Proof.KI.Reg2Runs.lean ====
/- Region 2 of @main (the first graph-convolution layer's kernel, 25 grid points), at the contents V the region is
   entered with: what the three runs of its body share — the windows' blocks, the two branch conditions in closed
   form over the grid, where the second output window is idle, the staging and scratch memrefs, and the region
   invariant with the kernel's own scratch split off the scoped rest. -/
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the scratch is zeroed under it), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (the second output is stored under it), from the grid coordinates. -/
abbrev cond2_1 (i : grid2.Coords) : Prop := k2_cond2 i = 1#1
/-- It holds at the last point only — decided over the grid. -/
theorem hcond2_1 : ∀ t : Fin cfg2.N, cond2_1 (grid2.coords t) ↔ t.val = 24 :=
  (by decide +kernel : ∀ t : Fin grid2.N, cond2_1 (grid2.coords t) ↔ t.val = 24)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Window 6 is never idle. -/
theorem liveAt2_6 : ∀ t : Fin cfg2.N, cfg2.idle 6 (grid2.coords t) = false := by decide +kernel
/-- Window 7 is never idle. -/
theorem liveAt2_7 : ∀ t : Fin cfg2.N, cfg2.idle 7 (grid2.coords t) = false := by decide +kernel
/-- Window 8 is never idle. -/
theorem liveAt2_8 : ∀ t : Fin cfg2.N, cfg2.idle 8 (grid2.coords t) = false := by decide +kernel
/-- Window 9 is never idle. -/
theorem liveAt2_9 : ∀ t : Fin cfg2.N, cfg2.idle 9 (grid2.coords t) = false := by decide +kernel
/-- At the first point output window 10 is idle: nothing is stored into it, -/
theorem idleAt2_10_A : ∀ t : Fin cfg2.N, cond2_0 (grid2.coords t) → ¬cond2_1 (grid2.coords t) → cfg2.idle 10 (grid2.coords t) = true := by decide +kernel
/-- and its block is not written back there. -/
theorem noFlush2_10_A : ∀ t : Fin cfg2.N, cond2_0 (grid2.coords t) → ¬cond2_1 (grid2.coords t) → (cfg2.win 10).flush t = false := by decide +kernel
/-- At a middle point output window 10 is idle, -/
theorem idleAt2_10_B : ∀ t : Fin cfg2.N, ¬cond2_0 (grid2.coords t) → ¬cond2_1 (grid2.coords t) → cfg2.idle 10 (grid2.coords t) = true := by decide +kernel
/-- and its block is not written back there. -/
theorem noFlush2_10_B : ∀ t : Fin cfg2.N, ¬cond2_0 (grid2.coords t) → ¬cond2_1 (grid2.coords t) → (cfg2.win 10).flush t = false := by decide +kernel
/-- At the last point output window 10 is live: the body stores into it. -/
theorem liveAt2_10_C : ∀ t : Fin cfg2.N, ¬cond2_0 (grid2.coords t) → cond2_1 (grid2.coords t) → cfg2.idle 10 (grid2.coords t) = false := by decide +kernel

/-! ## The staging and scratch memrefs -/

/-- One staging buffer of each output window, through which its contents are stated. -/
abbrev VO2_9 : View sig .tc .vmem S2000x128 .f32 := (Memref.whole cc2_stg9_0 : Memref sig .tc .vmem S2000x128 .f32).view
abbrev VO2_10 : View sig .tc .vmem S512x128 .f32 := (Memref.whole cc2_stg10_0 : Memref sig .tc .vmem S512x128 .f32).view
/-- Each window's current staging memref at point `t`, spelled as the pipeline passes it, and its wholeness. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2000x512 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S2000x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S512x128 .f32 := win2_10.stage (cfg2.slots t 10)
abbrev hs2_10 (t : Fin cfg2.N) : (ms2_10 t).IsWhole := hstage2_10 ((cfg2.slots t 10).cast nbuf2_10)
/-- The scratch operand: a whole scoped buffer of the kernel's own, passed beside the windows. -/
abbrev scM2_0 : Memref sig .tc .vmem S512x128 .f32 := Memref.whole cc2_scratch0
/-- The scratch the kernel carries between points, as a view: what it holds is stated through it. -/
abbrev VS2_0 : View sig .tc .vmem S512x128 .f32 := scM2_0.view

/-- Every other scoped buffer of the core, unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant with the scratch operand as a memref owned at some contents, the other scoped buffers
    unopened beside it, and the generator register at some state. -/
theorem PhiA2_eq (c : Dev nD) :
    (Pipeline.ΦA spec2 c : sProp 𝕄)
      = iprop(iprop((∃ d, owns (c : Thread nD τ) scM2_0 fullShare d) ∗ restBut2 (F := F) c) ∗ (∃ r, prngReg c r)) := by
  unfold Pipeline.ΦA; rw [scopedRest2_split]; simp only [scM2_0, owns_whole]; try rfl

end Cert.KernelIdeal.Hand

end
-- ==== Proof.KI.Reg2RunA.lean ====
/- Region 2 of @main: the whole-body run of its kernel at the grid's first point (the scratch is zeroed, the second output left alone). -/
import proofs.«402460_j82824149336546_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's first point (the scratch is zeroed, the second output left alone), with the proof that on whole staging
    memrefs — each input's at its contents, the second output's at contents handed back untouched, the scratch at anything, the
    first output's at anything — the body runs to the continuation holding the inputs' as they were and each stored
    buffer with its pieces written. -/
noncomputable def kernelRun2_A (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc2__gcn_apply_kernel_eq_skeleton]; unfold cc2__gcn_apply_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.KI.Reg2RunB.lean ====
/- Region 2 of @main: the whole-body run of its kernel at a middle point (the scratch is carried, the second output left alone). -/
import proofs.«402460_j82824149336546_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at a middle point (the scratch is carried, the second output left alone), with the proof that on whole staging
    memrefs — each input's at its contents, the second output's at contents handed back untouched, the scratch at what the point before left, the
    first output's at anything — the body runs to the continuation holding the inputs' as they were and each stored
    buffer with its pieces written. -/
noncomputable def kernelRun2_B (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_apply_kernel i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc2__gcn_apply_kernel_eq_skeleton]; unfold cc2__gcn_apply_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.KI.Reg2RunC.lean ====
/- Region 2 of @main: the whole-body run of its kernel at the grid's last point (the scratch is carried and copied to the second output). -/
import proofs.«402460_j82824149336546_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the first output's staging memref, in the second output's and in the
    scratch (last first) at the grid's last point (the scratch is carried and copied to the second output), with the proof that on whole staging
    memrefs — each input's at its contents, the scratch at what the point before left, the
    outputs' at anything — the body runs to the continuation holding the inputs' as they were and each stored
    buffer with its pieces written. -/
noncomputable def kernelRun2_C (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    Σ' (L9 : List (View.Piece (Elt F) S2000x128 .f32)) (L10 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_apply_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__gcn_apply_kernel_eq_skeleton]; unfold cc2__gcn_apply_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Hand

end
-- ==== Proof.KI.Reg2.lean ====
/- Region 2 of @main (the first graph-convolution layer's kernel), at the contents V the region is entered with:
   what each case of the body leaves in the two output windows and in the scratch, what they hold point by point,
   the proof data, the body obligation at every point, and the invariant's two ends. -/
import proofs.«402460_j82824149336546_1_alg».proof.Proof.KI.Reg2RunA
import proofs.«402460_j82824149336546_1_alg».proof.Proof.KI.Reg2RunB
import proofs.«402460_j82824149336546_1_alg».proof.Proof.KI.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output window 9 tile its block, so they cover it. -/
theorem cover2_A_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S2000x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1 S2000x128.size (by sl_kernel_rfl) y

/-- What case A leaves in output window 9's staging buffer: its pieces read back over junk. -/
def out2_A_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S2000x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A stores nothing into output window 10 (idle there, not written back): a value nothing reads. -/
def out2_A_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VO2_10.read (Elt F) (VO2_10.writes (Elt F) VO2_10.junk (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case A's pieces for the scratch cover it. -/
theorem scover2_A_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (y : S512x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S512x128.size (by sl_kernel_rfl) y

/-- What case A leaves in the scratch: its pieces read back over junk. -/
def sout2_A_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) : Vec F S512x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1)

/-- Case B's pieces for output window 9 tile its block, so they cover it. -/
theorem cover2_B_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case B leaves in output window 9's staging buffer: its pieces read back over junk. -/
def out2_B_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B stores nothing into output window 10 (idle there, not written back): a value nothing reads. -/
def out2_B_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO2_10.read (Elt F) (VO2_10.writes (Elt F) VO2_10.junk (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case B's pieces for the scratch cover it. -/
theorem scover2_B_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case B leaves in the scratch: its pieces read back over junk. -/
def sout2_B_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-- Case C's pieces for output window 9 tile its block, so they cover it. -/
theorem cover2_C_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S2000x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S2000x128.size (by sl_kernel_rfl) y

/-- What case C leaves in output window 9's staging buffer: its pieces read back over junk. -/
def out2_C_9 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S2000x128 .f32 :=
  VO2_9.read (Elt F) (VO2_9.writes (Elt F) VO2_9.junk (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for output window 10 tile its block, so they cover it. -/
theorem cover2_C_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S512x128.size (by sl_kernel_rfl) y

/-- What case C leaves in output window 10's staging buffer: its pieces read back over junk. -/
def out2_C_10 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VO2_10.read (Elt F) (VO2_10.writes (Elt F) VO2_10.junk (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's pieces for the scratch cover it. -/
theorem scover2_C_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) (y : S512x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1 S512x128.size (by sl_kernel_rfl) y

/-- What case C leaves in the scratch: its pieces read back over junk. -/
def sout2_C_0 (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) : Vec F S512x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.2.1)

/-! ## What the outputs and the scratch hold after each point -/

/-- The first point is case A's, -/
theorem hA2_0 (t : Fin cfg2.N) (h : t.val = 0) : cond2_0 (grid2.coords t) := (hcond2_0 t).mpr h
theorem hA2_1 (t : Fin cfg2.N) (h : t.val = 0) : ¬cond2_1 (grid2.coords t) := fun hc => by have := (hcond2_1 t).mp hc; omega
/-- a point after it does not take the first conditional, -/
theorem hB2_0 (t : Fin cfg2.N) (h : t.val ≠ 0) : ¬cond2_0 (grid2.coords t) := fun hc => h ((hcond2_0 t).mp hc)
/-- and takes the second exactly when it is the last. -/
theorem hB2_1 (t : Fin cfg2.N) (h : t.val ≠ 24) : ¬cond2_1 (grid2.coords t) := fun hc => h ((hcond2_1 t).mp hc)
theorem hC2_1 (t : Fin cfg2.N) (h : t.val = 24) : cond2_1 (grid2.coords t) := (hcond2_1 t).mpr h

/-- What output window 9's staging buffer, output window 10's and the scratch hold after the body at position `n`:
    the case the closed forms select there, run at the point's memrefs and input blocks, the scratch at what the
    point before left in it. -/
def outsAt2 (c : Dev nD) : (n : ℕ) → n < cfg2.N → Vec F S2000x128 .f32 × Vec F S512x128 .f32 × Vec F S512x128 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) (hA2_0 ⟨0, hn⟩ rfl) (hA2_1 ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩),
      out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) (hA2_0 ⟨0, hn⟩ rfl) (hA2_1 ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) (hA2_0 ⟨0, hn⟩ rfl) (hA2_1 ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h1 : n + 1 = 24 then
      (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hC2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      out2_C_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hC2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hC2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2)
    else
      (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hB2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hB2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) (hB2_0 ⟨n + 1, hn⟩ (Nat.succ_ne_zero n)) (hB2_1 ⟨n + 1, hn⟩ h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2)

/-- `outsAt2` at the first point: case A's contents. -/
theorem outsAt2_A (c : Dev nD) (t : Fin cfg2.N) (h0 : t.val = 0) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t),
      out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact absurd h0 (Nat.succ_ne_zero n)

/-- `outsAt2` at a middle point: case B's contents, over the scratch the point before left. -/
theorem outsAt2_B (c : Dev nD) (t : Fin cfg2.N) (h0 : t.val ≠ 0) (h1 : t.val ≠ 24) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt2` at the last point: case C's contents, over the scratch the point before left. -/
theorem outsAt2_C (c : Dev nD) (t : Fin cfg2.N) (h0 : t.val ≠ 0) (h1 : t.val = 24) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      out2_C_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2) := by
  obtain ⟨n, hn⟩ := t
  cases n with
  | zero => exact absurd rfl h0
  | succ n => exact (dif_pos h1).trans rfl

/-- The region invariant before position `n`: before the first point what the launch hands the region; afterwards
    the scratch at what the point before left in it, the other scoped buffers unopened, the generator register at
    some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ restBut2 (F := F) c) ∗ (∃ r, prngReg c r)) := by
  cases n with
  | zero => exact absurd rfl hz
  | succ n => rfl

/-! ## The pipeline's proof data -/

/-- The proof data of the region's pipeline on core `c`: the arrays as the region finds them; after the body at
    point `t` each input's buffer at its block and the outputs' at `outsAt2`'s components; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := rfl
theorem share2 (c : Dev nD) (w : Fin cfg2.W) : (dat2 V c).q w = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 8000000 in
/-- The body at any point: the inputs' memrefs hold their blocks; the closed forms say which case the point is in, so
    that case's run applies; the invariant hands the body the scratch at what the point before left (at anything at
    the first point) and takes it back at this point's contents; the other scoped buffers, the generator register
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  by_cases h0 : t.val = 0
  ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [show (dat2 V c).leavesExact 9 t = owns (c : Thread nD τ) (ms2_9 t) fullShare ((dat2 V c).after 9 t) from by
        unfold Dat.leavesExact; rw [liveAt2_9 t], after2_9]
      rw [Dat.leavesExact_idle (dat2 V c) 10 t (idleAt2_10_A t (hA2_0 t h0) (hA2_1 t h0)) (noFlush2_10_A t (hA2_0 t h0) (hA2_1 t h0))]
      rw [outsAt2_A V c t h0]
      unfold out2_A_9 sout2_A_0; (try dsimp only)
      rw [PhiS2_castSucc V c t, PhiS2_zero V c _ _ h0, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_A c (grid2.coords t) _ _ _ _ _ _ _ _ _ _ _ _ _ _ _ _ _ _ _ _ _ _ _ _ (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover2_A_9 c _ _ _ _ _ _ _ _ _ _ _ _ _ _ _ _ _ _ _ _ _ _ _ _ _ _ _ _ _ _ _ _ _ _ _ _)
      iexists _; iexact H10

  · by_cases h1 : t.val = 24
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [show (dat2 V c).leavesExact 9 t = owns (c : Thread nD τ) (ms2_9 t) fullShare ((dat2 V c).after 9 t) from by
          unfold Dat.leavesExact; rw [liveAt2_9 t], after2_9]
        rw [show (dat2 V c).leavesExact 10 t = owns (c : Thread nD τ) (ms2_10 t) fullShare ((dat2 V c).after 10 t) from by
          unfold Dat.leavesExact; rw [liveAt2_10_C t (hB2_0 t h0) (hC2_1 t h1)], after2_10]
        rw [outsAt2_C V c t h0 h1]
        unfold out2_C_9 out2_C_10 sout2_C_0; (try dsimp only)
        rw [PhiS2_castSucc V c t, PhiS2_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_C c (grid2.coords t) _ _ _ _ _ _ _ _ _ _ _ _ _ _ _ _ _ _ _ _ _ _ _ _ (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        iintro ⟨H0, H1, H2, H3, H4, H5, H6, H7, H8, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover2_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover2_C_10 c _ _ _ _ _ _ _ _ _ _ _ _ _ _ _ _ _ _ _ _ _ _ _ _ _ _ _ _ _ _ _ _ _ _ _ _ _)

    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [show (dat2 V c).leavesExact 9 t = owns (c : Thread nD τ) (ms2_9 t) fullShare ((dat2 V c).after 9 t) from by
          unfold Dat.leavesExact; rw [liveAt2_9 t], after2_9]
        rw [Dat.leavesExact_idle (dat2 V c) 10 t (idleAt2_10_B t (hB2_0 t h0) (hB2_1 t h1)) (noFlush2_10_B t (hB2_0 t h0) (hB2_1 t h1))]
        rw [outsAt2_B V c t h0 h1]
        unfold out2_B_9 sout2_B_0; (try dsimp only)
        rw [PhiS2_castSucc V c t, PhiS2_pos V c _ _ h0]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_B c (grid2.coords t) _ _ _ _ _ _ _ _ _ _ _ _ _ _ _ _ _ _ _ _ _ _ _ _ (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        iintro ⟨H0, H1, H2, H3, H4, H5, H6, H7, H8, ⟨%e9, H9⟩, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover2_B_9 c _ _ _ _ _ _ _ _ _ _ _ _ _ _ _ _ _ _ _ _ _ _ _ _ _ _ _ _ _ _ _ _ _ _ _ _ _)
        iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Hand

end
-- ==== Proof.KI.Reg3.lean ====
/- Region 3 of @main: the virtual-node MLP kernel (two dense layers, each followed by a batch normalisation over
   the 512 rows and a relu), run at ONE grid point over ten whole-array windows (nine inputs, one output). The
   region's half of the frame at a PARAMETER `V`, the TensorCore's buffer contents when the region is entered. -/
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, for any proof data whose array is
    `V`'s and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, for any proof data whose array is
    `V`'s and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, for any proof data whose array is
    `V`'s and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, for any proof data whose array is
    `V`'s and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, for any proof data whose array is
    `V`'s and whose body leaves the block in place: the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, for any proof data whose array is
    `V`'s and whose body leaves the block in place: the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, for any proof data whose array is
    `V`'s and whose body leaves the block in place: the window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, for any proof data whose array is
    `V`'s and whose body leaves the block in place: the window is uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store go through the whole of their buffer -/

abbrev r3_0 : Rect S512x128 := Rect.unit (s := S512x128) ![0, 0] S512x128.size inb_S512x128_S512x128_0_0
abbrev r3_1 : Rect S128x256 := Rect.unit (s := S128x256) ![0, 0] S128x256.size inb_S128x256_S128x256_0_0
abbrev r3_2 : Rect S1x256 := Rect.unit (s := S1x256) ![0, 0] S1x256.size inb_S1x256_S1x256_0_0
abbrev r3_3 : Rect S256x128 := Rect.unit (s := S256x128) ![0, 0] S256x128.size inb_S256x128_S256x128_0_0
abbrev r3_4 : Rect S1x128 := Rect.unit (s := S1x128) ![0, 0] S1x128.size inb_S1x128_S1x128_0_0

/-! ## What the body leaves in the output window's buffer -/

/-- Window 9's staging buffer after the body, from the input windows' blocks: its one store, of the second layer's
    value at the first layer's value. -/
def out3_9 (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) : Vec F S512x128 .f32 :=
  View.canon [⟨r3_0, k3_pay1 (k3_pay2 (View.ld x0 r3_0) (View.ld x1 r3_1) (View.ld x2 r3_2) (View.ld x3 r3_2) (View.ld x4 r3_2)) (View.ld x5 r3_3) (View.ld x6 r3_4) (View.ld x7 r3_4) (View.ld x8 r3_4)⟩]

/-- The store is of the whole buffer, so it covers it. -/
theorem cover3_9 (p0 : Vec F S512x128 .f32) (y : S512x128.Idx) :
    ∃ pc ∈ ([⟨r3_0, p0⟩] : List (View.Piece (Elt F) S512x128 .f32)), y ∈ pc.1.set :=
  View.cover_of_tiled [⟨r3_0, p0⟩] S512x128.size (by rfl) y

/-! ## The body's triple -/

set_option maxHeartbeats 4000000 in
/-- The kernel body on whole staging memrefs, the inputs' at read contents `xW` and the output's at anything, runs to
    the continuation holding the inputs' as they were and the output's at `out3_9` of the inputs'. -/
theorem sound_kernel3 (c : Dev nD) (E : Set ℕ) (i : grid3.Coords) (arg1 : Memref sig .tc .vmem S512x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x128 .f32) (harg10 : arg10.IsWhole)
    (x0 : Vec F S512x128 .f32) (x1 : Vec F S128x256 .f32) (x2 : Vec F S1x256 .f32) (x3 : Vec F S1x256 .f32) (x4 : Vec F S1x256 .f32) (x5 : Vec F S256x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__vn_mlp_kernel i arg1 harg1 arg2 harg2 arg3 harg3 arg4 harg4 arg5 harg5 arg6 harg6 arg7 harg7 arg8 harg8 arg9 harg9 arg10 harg10) K := by
  simp only [cc3__vn_mlp_kernel_eq_skeleton]; unfold cc3__vn_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The proof data of pipeline 3 on core `c`: the arrays as the region finds them (`V`); after the body at
    point `t` each input's buffer at its block and the output's at `out3_9` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 1000000 in
/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The region's ends: the invariant is the class's at every point, nothing is owed, the shares are full -/

theorem hin3 (c : Dev nD) : Pipeline.ΦA spec3 c ⊢ (dat3 V c).Φ 0 := .rfl
theorem hout3 (c : Dev nD) : (dat3 V c).Φ (Fin.last cfg3.N) ⊢ Pipeline.ΦA spec3 c := .rfl
theorem owed3 (c : Dev nD) (t : Fin (cfg3.N + 1)) : (dat3 V c).owed t = 0 := rfl
theorem share3 (c : Dev nD) (w : Fin cfg3.W) : (dat3 V c).q w = fullShare := rfl

end Cert.KernelIdeal.Hand
-- ==== Proof.KI.Reg4.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the batch-normalised linear layer, block by block, at the entry contents `V`

Window 0 is a row block of the features; windows 1 to 6 are the weight matrix, the bias, the running mean, the running
variance, the scale and the shift, each one whole block whose index never moves; window 7 is the row block of the
result. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is not
    fetched its block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not: where it is not
    fetched its block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not: where it is not
    fetched its block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not: where it is not
    fetched its block index has not moved, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not: where it is not
    fetched its block index has not moved, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not: where it is not
    fetched its block index has not moved, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not: where it is not
    fetched its block index has not moved, and the body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 7's staging buffer after the body, from the input windows' blocks: its one store, of the whole block. The
    payload takes the variance and the scale before the mean, as the body reads them. -/
def out4_7 (x0 : Vec F S2000x128 .f32) (x1 : Vec F S128x128 .f32) (x2 x3 x4 x5 x6 : Vec F S1x128 .f32) : Vec F S2000x128 .f32 :=
  View.canon [⟨r4_0, k4_pay1 (View.ld x0 r4_0) (View.ld x1 r4_1) (View.ld x2 r4_2) (View.ld x4 r4_2) (View.ld x5 r4_2) (View.ld x3 r4_2) (View.ld x6 r4_2)⟩]

/-- The one store is of the whole buffer, so it covers it. -/
theorem cover4_7 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- The kernel body on whole staging memrefs, the inputs' at read contents and the output's at anything, runs to the
    continuation holding the inputs' as they were and the output's at `out4_7` of the inputs'. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S2000x128 .f32) (harg8 : arg8.IsWhole)
    (x0 : Vec F S2000x128 .f32) (x1 : Vec F S128x128 .f32) (x2 x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6)) -∗ K ⟨⟩))
      ⊢ wp frame (wpE (defs₀ (F := F)) Variants.none c none) E
          (cc4__gcn_apply_final_kernel i arg1 harg1 arg2 harg2 arg3 harg3 arg4 harg4 arg5 harg5 arg6 harg6 arg7 harg7 arg8 harg8) K := by
  simp only [cc4__gcn_apply_final_kernel_eq_skeleton]; unfold cc4__gcn_apply_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends, the debt and the shares -/

theorem hin4 (c : Dev nD) : Pipeline.ΦA spec4 c ⊢ (dat4 V c).Φ 0 := .rfl
theorem hout4 (c : Dev nD) : (dat4 V c).Φ (Fin.last cfg4.N) ⊢ Pipeline.ΦA spec4 c := .rfl
theorem owed4 (c : Dev nD) (t : Fin (cfg4.N + 1)) : (dat4 V c).owed t = 0 := rfl
theorem share4 (c : Dev nD) (w : Fin cfg4.W) : (dat4 V c).q w = fullShare := rfl

end Cert.KernelIdeal.Hand
-- ==== Proof.KI.Reg5.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the pointwise combination `out = a·x0 + b·x1` over [2000,128] blocks, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [2000,128] buffer as one rectangle: every load and the store of the body are of it. -/
abbrev r5_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out5_2 (x0 : Vec F S2000x128 .f32) (x1 : Vec F S2000x128 .f32) : Vec F S2000x128 .f32 :=
  View.canon [⟨r5_0, k5_pay1 (View.ld x0 r5_0) (View.ld x1 r5_0)⟩]

/-- The one store is of the whole buffer, so it covers it. -/
theorem cover5_2 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The body on whole staging memrefs, the inputs' at read contents `x0`, `x1` and the output's at anything, runs
    to the continuation holding the inputs' as they were and the output's at `out5_2 x0 x1`. -/
theorem sound_kernel5 (c : Dev nD) (E : Set ℕ) (i : grid5.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__combine_kernel i arg1 harg1 arg2 harg2 arg3 harg3) K := by
  simp only [cc5__combine_kernel_eq_skeleton]; unfold cc5__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region on core `c`: the arrays as the region finds them (`V`); after the body at point
    `t` each input's buffer at its block and the output's at `out5_2` of the two input blocks; the invariant is
    the untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The invariant is the same at every point, and at the two ends it is the class's. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl
theorem owed5 (c : Dev nD) (t : Fin (cfg5.N + 1)) : (dat5 V c).owed t = 0 := rfl
theorem share5 (c : Dev nD) (w : Fin cfg5.W) : (dat5 V c).q w = fullShare := rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the pointwise combination `out = a·x0 + b·x1` over [2000,128] blocks, at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole [2000,128] buffer as one rectangle: every load and the store of the body are of it. -/
abbrev r6_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out6_2 (x0 : Vec F S2000x128 .f32) (x1 : Vec F S2000x128 .f32) : Vec F S2000x128 .f32 :=
  View.canon [⟨r6_0, k6_pay1 (View.ld x0 r6_0) (View.ld x1 r6_0)⟩]

/-- The one store is of the whole buffer, so it covers it. -/
theorem cover6_2 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The body's triple -/

set_option maxHeartbeats 1000000 in
/-- The body on whole staging memrefs, the inputs' at read contents `x0`, `x1` and the output's at anything, runs
    to the continuation holding the inputs' as they were and the output's at `out6_2 x0 x1`. -/
theorem sound_kernel6 (c : Dev nD) (E : Set ℕ) (i : grid6.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__combine_kernel i arg1 harg1 arg2 harg2 arg3 harg3) K := by
  simp only [cc6__combine_kernel_eq_skeleton]; unfold cc6__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region on core `c`: the arrays as the region finds them (`V`); after the body at point
    `t` each input's buffer at its block and the output's at `out6_2` of the two input blocks; the invariant is
    the untouched rest; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- The invariant is the same at every point, and at the two ends it is the class's. -/
theorem hin6 (c : Dev nD) : Pipeline.ΦA spec6 c ⊢ (dat6 V c).Φ 0 := .rfl
theorem hout6 (c : Dev nD) : (dat6 V c).Φ (Fin.last cfg6.N) ⊢ Pipeline.ΦA spec6 c := .rfl
theorem owed6 (c : Dev nD) (t : Fin (cfg6.N + 1)) : (dat6 V c).owed t = 0 := rfl
theorem share6 (c : Dev nD) (w : Fin cfg6.W) : (dat6 V c).q w = fullShare := rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the pointwise combination `out = a·x0 + b·x1` over [2000,128] blocks, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole [2000,128] buffer as one rectangle: every load and the store of the body are of it. -/
abbrev r7_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out7_2 (x0 : Vec F S2000x128 .f32) (x1 : Vec F S2000x128 .f32) : Vec F S2000x128 .f32 :=
  View.canon [⟨r7_0, k7_pay1 (View.ld x0 r7_0) (View.ld x1 r7_0)⟩]

/-- The one store is of the whole buffer, so it covers it. -/
theorem cover7_2 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

/-! ## The body's triple -/

set_option maxHeartbeats 1000000 in
/-- The body on whole staging memrefs, the inputs' at read contents `x0`, `x1` and the output's at anything, runs
    to the continuation holding the inputs' as they were and the output's at `out7_2 x0 x1`. -/
theorem sound_kernel7 (c : Dev nD) (E : Set ℕ) (i : grid7.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7_2 x0 x1)) -∗ K ⟨⟩))
      ⊢ wp frame (wpE (defs₀ (F := F)) Variants.none c none) E (cc7__combine_kernel i arg1 harg1 arg2 harg2 arg3 harg3) K := by
  simp only [cc7__combine_kernel_eq_skeleton]; unfold cc7__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of the region on core `c`: the arrays as the region finds them (`V`); after the body at point
    `t` each input's buffer at its block and the output's at `out7_2` of the two input blocks; the invariant is
    the untouched rest; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant is the same at every point, and at the two ends it is the class's. -/
theorem hin7 (c : Dev nD) : Pipeline.ΦA spec7 c ⊢ (dat7 V c).Φ 0 := .rfl
theorem hout7 (c : Dev nD) : (dat7 V c).Φ (Fin.last cfg7.N) ⊢ Pipeline.ΦA spec7 c := .rfl
theorem owed7 (c : Dev nD) (t : Fin (cfg7.N + 1)) : (dat7 V c).owed t = 0 := rfl
theorem share7 (c : Dev nD) (w : Fin cfg7.W) : (dat7 V c).q w = fullShare := rfl

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so `sound_kernel7` applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the pointwise combination `out = a·x0 + b·x1` over [2000,128] blocks, at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, for any proof data whose array is
    `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [2000,128] buffer as one rectangle: every load and the store of the body are of it. -/
abbrev r8_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out8_2 (x0 : Vec F S2000x128 .f32) (x1 : Vec F S2000x128 .f32) : Vec F S2000x128 .f32 :=
  View.canon [⟨r8_0, k8_pay1 (View.ld x0 r8_0) (View.ld x1 r8_0)⟩]

/-- The one store is of the whole buffer, so it covers it. -/
theorem cover8_2 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The body's triple -/

set_option maxHeartbeats 1000000 in
/-- The body on whole staging memrefs, the inputs' at read contents `x0`, `x1` and the output's at anything, runs
    to the continuation holding the inputs' as they were and the output's at `out8_2 x0 x1`. -/
theorem sound_kernel8 (c : Dev nD) (E : Set ℕ) (i : grid8.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__combine_kernel i arg1 harg1 arg2 harg2 arg3 harg3) K := by
  simp only [cc8__combine_kernel_eq_skeleton]; unfold cc8__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region on core `c`: the arrays as the region finds them (`V`); after the body at point
    `t` each input's buffer at its block and the output's at `out8_2` of the two input blocks; the invariant is
    the untouched rest; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- The invariant is the same at every point, and at the two ends it is the class's. -/
theorem hin8 (c : Dev nD) : Pipeline.ΦA spec8 c ⊢ (dat8 V c).Φ 0 := .rfl
theorem hout8 (c : Dev nD) : (dat8 V c).Φ (Fin.last cfg8.N) ⊢ Pipeline.ΦA spec8 c := .rfl
theorem owed8 (c : Dev nD) (t : Fin (cfg8.N + 1)) : (dat8 V c).owed t = 0 := rfl
theorem share8 (c : Dev nD) (w : Fin cfg8.W) : (dat8 V c).q w = fullShare := rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: the pointwise combination `out = a·x0 + b·x1` over [2000,128] blocks, at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, for any proof data whose array is
    `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, likewise. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole [2000,128] buffer as one rectangle: every load and the store of the body are of it. -/
abbrev r9_0 : Rect S2000x128 := Rect.unit (s := S2000x128) ![0, 0] S2000x128.size inb_S2000x128_S2000x128_0_0

/-! ## What the body leaves in the output window's buffer -/

/-- Window 2's staging buffer after the body, from the two input blocks: its one store, of the pointwise
    combination of the two blocks read whole. -/
def out9_2 (x0 : Vec F S2000x128 .f32) (x1 : Vec F S2000x128 .f32) : Vec F S2000x128 .f32 :=
  View.canon [⟨r9_0, k9_pay1 (View.ld x0 r9_0) (View.ld x1 r9_0)⟩]

/-- The one store is of the whole buffer, so it covers it. -/
theorem cover9_2 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The body's triple -/

set_option maxHeartbeats 1000000 in
/-- The body on whole staging memrefs, the inputs' at read contents `x0`, `x1` and the output's at anything, runs
    to the continuation holding the inputs' as they were and the output's at `out9_2 x0 x1`. -/
theorem sound_kernel9 (c : Dev nD) (E : Set ℕ) (i : grid9.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (x0 : Vec F S2000x128 .f32) (x1 : Vec F S2000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__combine_kernel i arg1 harg1 arg2 harg2 arg3 harg3) K := by
  simp only [cc9__combine_kernel_eq_skeleton]; unfold cc9__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of the region on core `c`: the arrays as the region finds them (`V`); after the body at point
    `t` each input's buffer at its block and the output's at `out9_2` of the two input blocks; the invariant is
    the untouched rest; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- The invariant is the same at every point, and at the two ends it is the class's. -/
theorem hin9 (c : Dev nD) : Pipeline.ΦA spec9 c ⊢ (dat9 V c).Φ 0 := .rfl
theorem hout9 (c : Dev nD) : (dat9 V c).Φ (Fin.last cfg9.N) ⊢ Pipeline.ΦA spec9 c := .rfl
theorem owed9 (c : Dev nD) (t : Fin (cfg9.N + 1)) : (dat9 V c).owed t = 0 := rfl
theorem share9 (c : Dev nD) (w : Fin cfg9.W) : (dat9 V c).q w = fullShare := rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10Runs.lean ====
/- Region 10 (the pooled sum): the branch conditions of the body in closed form over the grid, where its output
   window is idle, the staging and scratch memrefs, the invariant with the scratch named, and the body's triple in
   each of its three control cases (first point: reset and add; middle points: add; last point: add and store). -/
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## The body's branch conditions -/

/-- The condition of the body's first conditional (the reset), from the grid coordinates. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val = 0 :=
  (by decide +kernel : ∀ t : Fin grid10.N, cond10_0 (grid10.coords t) ↔ t.val = 0)

/-- The condition of the body's second conditional (the store of the output). -/
abbrev cond10_1 (i : grid10.Coords) : Prop := k10_cond2 i = 1#1
/-- It holds at the last point only. -/
theorem hcond10_1 : ∀ t : Fin cfg10.N, cond10_1 (grid10.coords t) ↔ t.val = 24 :=
  (by decide +kernel : ∀ t : Fin grid10.N, cond10_1 (grid10.coords t) ↔ t.val = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
/-- At the first point the output window is idle and not written back. -/
theorem idleAt10_2_A : ∀ t : Fin cfg10.N, cond10_0 (grid10.coords t) → ¬cond10_1 (grid10.coords t) → cfg10.idle 2 (grid10.coords t) = true := by decide +kernel
theorem noFlush10_2_A : ∀ t : Fin cfg10.N, cond10_0 (grid10.coords t) → ¬cond10_1 (grid10.coords t) → (cfg10.win 2).flush t = false := by decide +kernel
/-- At the middle points the output window is idle and not written back. -/
theorem idleAt10_2_B : ∀ t : Fin cfg10.N, ¬cond10_0 (grid10.coords t) → ¬cond10_1 (grid10.coords t) → cfg10.idle 2 (grid10.coords t) = true := by decide +kernel
theorem noFlush10_2_B : ∀ t : Fin cfg10.N, ¬cond10_0 (grid10.coords t) → ¬cond10_1 (grid10.coords t) → (cfg10.win 2).flush t = false := by decide +kernel
/-- At the last point the output window is live. -/
theorem liveAt10_2_C : ∀ t : Fin cfg10.N, ¬cond10_0 (grid10.coords t) → cond10_1 (grid10.coords t) → cfg10.idle 2 (grid10.coords t) = false := by decide +kernel

/-! ## The memrefs the body is called with -/

/-- One staging buffer of the output window, through which its contents are stated. -/
abbrev VO10_2 : View sig .tc .vmem S512x128 .f32 := (Memref.whole cc10_stg2_0 : Memref sig .tc .vmem S512x128 .f32).view
abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2000x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S512x128 .f32 := win10_2.stage (cfg10.slots t 2)
abbrev hs10_2 (t : Fin cfg10.N) : (ms10_2 t).IsWhole := hstage10_2 ((cfg10.slots t 2).cast nbuf10_2)
/-- The scratch accumulator: a whole scoped buffer of the kernel's own. -/
abbrev scM10_0 : Memref sig .tc .vmem S512x128 .f32 := Memref.whole cc10_scratch0
abbrev VS10_0 : View sig .tc .vmem S512x128 .f32 := scM10_0.view

/-- The region's invariant with the scratch accumulator as a memref owned at some contents, the other scoped
    buffers left unopened. -/
theorem PhiA10_eq (c : Dev nD) :
    (Pipeline.ΦA spec10 c : sProp 𝕄)
      = iprop(iprop(iprop((∃ d, owns (c : Thread nD τ) scM10_0 fullShare d)) ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

/-! ## The body's triple, case by case -/

set_option maxHeartbeats 1000000 in
/-- FIRST POINT (reset taken, store of the output not taken): the inputs' memrefs at their blocks, the output's at
    contents handed back untouched, the scratch at anything; the scratch ends with the pieces written. -/
noncomputable def kernelRun10_A (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i)
    (x0 : Vec F S2000x128 .f32) (x1 : Vec F S2000x512 .bf16) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__pool_sum_kernel i arg1 harg1 arg2 harg2 arg3 harg3 arg4 harg4) K } := by
  refine ⟨[], ?_, fun xi2 E K => ?run⟩
  case run =>
    simp only [cc10__pool_sum_kernel_eq_skeleton]; unfold cc10__pool_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- MIDDLE POINTS (neither conditional taken): as the first point, the scratch at what the point before left. -/
noncomputable def kernelRun10_B (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i)
    (x0 : Vec F S2000x128 .f32) (x1 : Vec F S2000x512 .bf16) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__pool_sum_kernel i arg1 harg1 arg2 harg2 arg3 harg3 arg4 harg4) K } := by
  refine ⟨[], ?_, fun xi2 E K => ?run⟩
  case run =>
    simp only [cc10__pool_sum_kernel_eq_skeleton]; unfold cc10__pool_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- LAST POINT (reset not taken, store of the output taken): the output's memref at anything, left with its pieces written. -/
noncomputable def kernelRun10_C (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i)
    (x0 : Vec F S2000x128 .f32) (x1 : Vec F S2000x512 .bf16) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc10__pool_sum_kernel i arg1 harg1 arg2 harg2 arg3 harg3 arg4 harg4) K } := by
  refine ⟨?_, ?_, fun E K => ?run⟩
  case run =>
    simp only [cc10__pool_sum_kernel_eq_skeleton]; unfold cc10__pool_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Reg10.lean ====
/- Region 10 (the pooled sum) at the entry contents V: what the output's staging buffer and the scratch accumulator
   hold after each point, the invariant carrying the accumulator between points, the proof data, the body obligation
   and the invariant's two ends. -/
import proofs.«402460_j82824149336546_1_alg».proof.Proof.KI.Reg10Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, for any proof data whose array is V's
    and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What each case leaves -/

/-- This case stores nothing into the output (idle there, not written back): a placeholder nothing consults. -/
def out10_A_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) : Vec F S512x128 .f32 :=
  VO10_2.read (Elt F) (VO10_2.writes (Elt F) VO10_2.junk (kernelRun10_A c i arg1 harg1 arg2 harg2 arg3 harg3 arg4 harg4 hc0 hc1 x0 x1).1)

/-- The pieces this case writes into the scratch accumulator cover it. -/
theorem scover10_A_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) (y : S512x128.Idx) :
    ∃ pc ∈ (kernelRun10_A c i arg1 harg1 arg2 harg2 arg3 harg3 arg4 harg4 hc0 hc1 x0 x1).2.1, y ∈ pc.1.set :=
  View.cover_of_tiledL (kernelRun10_A c i arg1 harg1 arg2 harg2 arg3 harg3 arg4 harg4 hc0 hc1 x0 x1).2.1 S512x128.size (by sl_kernel_rfl) y

/-- What this case leaves in the scratch accumulator: its pieces read back. -/
def sout10_A_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) : Vec F S512x128 .f32 :=
  VS10_0.read (Elt F) (VS10_0.writes (Elt F) VS10_0.junk (kernelRun10_A c i arg1 harg1 arg2 harg2 arg3 harg3 arg4 harg4 hc0 hc1 x0 x1).2.1)

/-- This case stores nothing into the output (idle there, not written back): a placeholder nothing consults. -/
def out10_B_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) : Vec F S512x128 .f32 :=
  VO10_2.read (Elt F) (VO10_2.writes (Elt F) VO10_2.junk (kernelRun10_B c i arg1 harg1 arg2 harg2 arg3 harg3 arg4 harg4 hc0 hc1 x0 x1 xs0).1)

/-- The pieces this case writes into the scratch accumulator cover it. -/
theorem scover10_B_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) (y : S512x128.Idx) :
    ∃ pc ∈ (kernelRun10_B c i arg1 harg1 arg2 harg2 arg3 harg3 arg4 harg4 hc0 hc1 x0 x1 xs0).2.1, y ∈ pc.1.set :=
  View.cover_of_tiledL (kernelRun10_B c i arg1 harg1 arg2 harg2 arg3 harg3 arg4 harg4 hc0 hc1 x0 x1 xs0).2.1 S512x128.size (by sl_kernel_rfl) y

/-- What this case leaves in the scratch accumulator: its pieces read back. -/
def sout10_B_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) : Vec F S512x128 .f32 :=
  VS10_0.read (Elt F) (VS10_0.writes (Elt F) VS10_0.junk (kernelRun10_B c i arg1 harg1 arg2 harg2 arg3 harg3 arg4 harg4 hc0 hc1 x0 x1 xs0).2.1)

/-- The last point's one store into the output tiles its block, so its pieces cover it. -/
theorem cover10_C_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) (y : S512x128.Idx) :
    ∃ pc ∈ (kernelRun10_C c i arg1 harg1 arg2 harg2 arg3 harg3 arg4 harg4 hc0 hc1 x0 x1 xs0).1, y ∈ pc.1.set :=
  View.cover_of_tiledL (kernelRun10_C c i arg1 harg1 arg2 harg2 arg3 harg3 arg4 harg4 hc0 hc1 x0 x1 xs0).1 S512x128.size (by sl_kernel_rfl) y

/-- What the last point leaves in the output's staging buffer: its pieces read back. -/
def out10_C_2 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) : Vec F S512x128 .f32 :=
  VO10_2.read (Elt F) (VO10_2.writes (Elt F) VO10_2.junk (kernelRun10_C c i arg1 harg1 arg2 harg2 arg3 harg3 arg4 harg4 hc0 hc1 x0 x1 xs0).1)

/-- The pieces this case writes into the scratch accumulator cover it. -/
theorem scover10_C_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) (y : S512x128.Idx) :
    ∃ pc ∈ (kernelRun10_C c i arg1 harg1 arg2 harg2 arg3 harg3 arg4 harg4 hc0 hc1 x0 x1 xs0).2.1, y ∈ pc.1.set :=
  View.cover_of_tiledL (kernelRun10_C c i arg1 harg1 arg2 harg2 arg3 harg3 arg4 harg4 hc0 hc1 x0 x1 xs0).2.1 S512x128.size (by sl_kernel_rfl) y

/-- What this case leaves in the scratch accumulator: its pieces read back. -/
def sout10_C_0 (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) : Vec F S512x128 .f32 :=
  VS10_0.read (Elt F) (VS10_0.writes (Elt F) VS10_0.junk (kernelRun10_C c i arg1 harg1 arg2 harg2 arg3 harg3 arg4 harg4 hc0 hc1 x0 x1 xs0).2.1)

/-! ## What the output's buffer and the accumulator hold after each point -/

/-- THE ACCUMULATION: after the body at position n, the pair (output's staging buffer, scratch accumulator): the
    first point's case at 0, then the middle case over what the point before left in the accumulator, the last
    case at position 24. -/
def outsAt10 (c : Dev nD) : (n : ℕ) → n < cfg10.N → Vec F S512x128 .f32 × Vec F S512x128 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr rfl) (fun h => (by decide : ¬(0 : ℕ) = 24) ((hcond10_1 ⟨0, hn⟩).mp h)) (iblk10 V c 0 ⟨0, hn⟩) (iblk10 V c 1 ⟨0, hn⟩), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr rfl) (fun h => (by decide : ¬(0 : ℕ) = 24) ((hcond10_1 ⟨0, hn⟩).mp h)) (iblk10 V c 0 ⟨0, hn⟩) (iblk10 V c 1 ⟨0, hn⟩))
  | n + 1, hn =>
    if h1 : n + 1 = 24 then
      (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
    else
      (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => (Nat.succ_ne_zero n) ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

theorem outsAt10_A (c : Dev nD) (t : Fin cfg10.N) (h0 : t.val = 0) (h1 : ¬t.val = 24) :
    outsAt10 V c t.val t.isLt = (out10_A_2 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t), sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact absurd h0 (Nat.succ_ne_zero n)

theorem outsAt10_B (c : Dev nD) (t : Fin cfg10.N) (h0 : ¬t.val = 0) (h1 : ¬t.val = 24) :
    outsAt10 V c t.val t.isLt = (out10_B_2 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact absurd rfl h0
  | succ n => exact (dif_neg h1).trans rfl

theorem outsAt10_C (c : Dev nD) (t : Fin cfg10.N) (h0 : ¬t.val = 0) (h1 : t.val = 24) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2, sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the accumulator carried between points -/

/-- Before position n: at the region's entry the class's invariant (the accumulator at anything); afterwards the
    accumulator at what the point before left, the other scoped buffers unopened, the generator register at some state. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

/-- The arrays as the region finds them; after the body each input's buffer at its block, the output's at the
    accumulation's first component; the invariant PhiS10; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem owed10 (c : Dev nD) (t : Fin (cfg10.N + 1)) : (dat10 V c).owed t = 0 := rfl
theorem share10 (c : Dev nD) (w : Fin cfg10.W) : (dat10 V c).q w = fullShare := rfl

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in;
    the invariant hands the body the accumulator at what the point before left (at anything at the first point) and
    takes it back at this point's contents; the output's buffer is handed back untouched where the window is idle. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  by_cases h0 : t.val = 0
  · have h1 : ¬t.val = 24 := by omega
    rw [show (dat10 V c).leavesExact 0 t = owns (c : Thread nD τ) (ms10_0 t) fullShare ((dat10 V c).after 0 t) from by
      unfold Dat.leavesExact; rw [liveAt10_0 t], after10_0]
    rw [show (dat10 V c).leavesExact 1 t = owns (c : Thread nD τ) (ms10_1 t) fullShare ((dat10 V c).after 1 t) from by
      unfold Dat.leavesExact; rw [liveAt10_1 t], after10_1]
    rw [Dat.leavesExact_idle (dat10 V c) 2 t (idleAt10_2_A t ((hcond10_0 t).mpr h0) (fun h => h1 ((hcond10_1 t).mp h))) (noFlush10_2_A t ((hcond10_0 t).mpr h0) (fun h => h1 ((hcond10_1 t).mp h)))]
    rw [outsAt10_A V c t h0 h1]
    unfold sout10_A_0; (try dsimp only)
    rw [PhiS10_castSucc V c t, PhiS10_zero V c _ _ h0, PhiA10_eq]
    iintro ⟨⟨⟨HS0, HR⟩, Hg⟩, Ho, ⟨%d0, H0⟩, ⟨%d1, H1⟩, ⟨%d2, H2⟩⟩
    iapply ((kernelRun10_A c (grid10.coords t) _ _ _ _ _ _ _ _ ((hcond10_0 t).mpr h0) (fun h => h1 ((hcond10_1 t).mp h)) (iblk10 V c 0 t) (iblk10 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_A_0 c _ _ _ _ _ _ _ _ _ _ _ _ _)
        iexact HR
      iexact Hg
    isplitl [Ho]; · iexact Ho
    isplitl [H0]; · iexact H0
    isplitl [H1]; · iexact H1
    iexists _; iexact H2
  · by_cases h1 : t.val = 24
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2_C t (fun h => h0 ((hcond10_0 t).mp h)) ((hcond10_1 t).mpr h1)], after10_2]
      rw [outsAt10_C V c t h0 h1]
      unfold out10_C_2 sout10_C_0; (try dsimp only)
      rw [PhiS10_castSucc V c t, PhiS10_pos V c _ _ h0]
      iintro ⟨⟨⟨HS0, HR⟩, Hg⟩, Ho, ⟨%d0, H0⟩, ⟨%d1, H1⟩, ⟨%d2, H2⟩⟩
      iapply ((kernelRun10_C c (grid10.coords t) _ _ _ _ _ _ _ _ (fun h => h0 ((hcond10_0 t).mp h)) ((hcond10_1 t).mpr h1) (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c _ _ _ _ _ _ _ _ _ _ _ _ _ _)
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [Dat.leavesExact_idle (dat10 V c) 2 t (idleAt10_2_B t (fun h => h0 ((hcond10_0 t).mp h)) (fun h => h1 ((hcond10_1 t).mp h))) (noFlush10_2_B t (fun h => h0 ((hcond10_0 t).mp h)) (fun h => h1 ((hcond10_1 t).mp h)))]
      rw [outsAt10_B V c t h0 h1]
      unfold sout10_B_0; (try dsimp only)
      rw [PhiS10_castSucc V c t, PhiS10_pos V c _ _ h0]
      iintro ⟨⟨⟨HS0, HR⟩, Hg⟩, Ho, ⟨%d0, H0⟩, ⟨%d1, H1⟩, ⟨%d2, H2⟩⟩
      iapply ((kernelRun10_B c (grid10.coords t) _ _ _ _ _ _ _ _ (fun h => h0 ((hcond10_0 t).mp h)) (fun h => h1 ((hcond10_1 t).mp h)) (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point the invariant gives the class's back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

theorem hout10 (c : Dev nD) : (dat10 V c).Φ (Fin.last cfg10.N) ⊢ Pipeline.ΦA spec10 c :=
  Phi_out10 V c _ (by rw [Fin.val_last]; have : cfg10.N = 25 := N_10; omega)

end Cert.KernelIdeal.Hand

end
-- ==== Proof.KI.Reg11.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 11 of @main: the linear output head, at the entry contents `V`

The last kernel region has one grid point and four windows, each stored whole: the pooled features (window 0,
512 × 128), the head's weight matrix (window 1, 128 × 128), its bias row (window 2, 1 × 128), all read, and the
result (window 3, 512 × 128), written.  The body leaves in the result's staging buffer the pooled features times
the weights plus the bias row broadcast down the rows; the three inputs stay as they were.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, for any proof data whose array is
    `V`'s and whose body leaves the block in place: the window is fetched at every point, uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer read or written whole -/

abbrev r11_0 : Rect S512x128 := Rect.unit (s := S512x128) ![0, 0] S512x128.size inb_S512x128_S512x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0

/-! ## What the body leaves in the output window's buffer -/

/-- Window 3's staging buffer after the body, from the input windows' blocks: its one store, of the whole buffer,
    whose payload is the product of the pooled features and the weights plus the bias row. -/
def out11_3 (x0 : Vec F S512x128 .f32) (x1 : Vec F S128x128 .f32) (x2 : Vec F S1x128 .f32) : Vec F S512x128 .f32 :=
  View.canon [⟨r11_0, k11_pay1 (View.ld x0 r11_0) (View.ld x1 r11_1) (View.ld x2 r11_2)⟩]

/-- The one store is of the whole buffer, so it covers it. -/
theorem cover11_3 (p0 : Vec F S512x128 .f32) (y : S512x128.Idx) :
    ∃ pc ∈ ([⟨r11_0, p0⟩] : List (View.Piece (Elt F) S512x128 .f32)), y ∈ pc.1.set :=
  View.cover_of_tiled [⟨r11_0, p0⟩] S512x128.size (by rfl) y

/-! ## The body's triple -/

set_option maxHeartbeats 1000000 in
/-- The kernel body on whole staging memrefs, the inputs' at read contents and the output's at anything, runs to
    the continuation holding the inputs' as they were and the output's at `out11_3` of the inputs'.  The body also
    reads the output's buffer before it writes it; what it reads there is not used. -/
theorem sound_kernel11 (c : Dev nD) (E : Set ℕ) (i : grid11.Coords)
    (arg1 : Memref sig .tc .vmem S512x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S512x128 .f32) (harg4 : arg4.IsWhole)
    (x0 : Vec F S512x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__output_head_kernel i arg1 harg1 arg2 harg2 arg3 harg3 arg4 harg4) K := by
  simp only [cc11__output_head_kernel_eq_skeleton]; unfold cc11__output_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them (`V`); after the body each
    input's buffer at its block and the output's at `out11_3` of the input blocks; the invariant the scoped rest and
    the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so the body's triple applies; the invariant and the
    core's debt pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the region's two ends, the debt and the shares -/

theorem hin11 (c : Dev nD) : Pipeline.ΦA spec11 c ⊢ (dat11 V c).Φ 0 := .rfl
theorem hout11 (c : Dev nD) : (dat11 V c).Φ (Fin.last cfg11.N) ⊢ Pipeline.ΦA spec11 c := .rfl
theorem owed11 (c : Dev nD) (t : Fin (cfg11.N + 1)) : (dat11 V c).owed t = 0 := rfl
theorem share11 (c : Dev nD) (w : Fin cfg11.W) : (dat11 V c).q w = fullShare := rfl

end Cert.KernelIdeal.Hand
-- ==== Proof.KI.Run.lean ====
import proofs.«402460_j82824149336546_1_alg».proof.Proof.KI.Reg0
import proofs.«402460_j82824149336546_1_alg».proof.Proof.KI.Reg1
import proofs.«402460_j82824149336546_1_alg».proof.Proof.KI.Reg2
import proofs.«402460_j82824149336546_1_alg».proof.Proof.KI.Reg3
import proofs.«402460_j82824149336546_1_alg».proof.Proof.KI.Reg4
import proofs.«402460_j82824149336546_1_alg».proof.Proof.KI.Reg5
import proofs.«402460_j82824149336546_1_alg».proof.Proof.KI.Reg6
import proofs.«402460_j82824149336546_1_alg».proof.Proof.KI.Reg7
import proofs.«402460_j82824149336546_1_alg».proof.Proof.KI.Reg8
import proofs.«402460_j82824149336546_1_alg».proof.Proof.KI.Reg9
import proofs.«402460_j82824149336546_1_alg».proof.Proof.KI.Reg10
import proofs.«402460_j82824149336546_1_alg».proof.Proof.KI.Reg11
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Every pair may be recorded at every point of every region (the proof data state no bound of their own) -/
theorem recorded0 (V : (c : Dev nD) → (b : Ref sig .tc) → Buf (Elt F) ((c : Thread nD τ).loc b)) (c : Dev nD) (t : Fin (cfg0.N + 1)) :
    (dat0 V c).recorded t = Set.univ := rfl
theorem recorded1 (V : (c : Dev nD) → (b : Ref sig .tc) → Buf (Elt F) ((c : Thread nD τ).loc b)) (c : Dev nD) (t : Fin (cfg1.N + 1)) :
    (dat1 V c).recorded t = Set.univ := rfl
theorem recorded2 (V : (c : Dev nD) → (b : Ref sig .tc) → Buf (Elt F) ((c : Thread nD τ).loc b)) (c : Dev nD) (t : Fin (cfg2.N + 1)) :
    (dat2 V c).recorded t = Set.univ := rfl
theorem recorded3 (V : (c : Dev nD) → (b : Ref sig .tc) → Buf (Elt F) ((c : Thread nD τ).loc b)) (c : Dev nD) (t : Fin (cfg3.N + 1)) :
    (dat3 V c).recorded t = Set.univ := rfl
theorem recorded4 (V : (c : Dev nD) → (b : Ref sig .tc) → Buf (Elt F) ((c : Thread nD τ).loc b)) (c : Dev nD) (t : Fin (cfg4.N + 1)) :
    (dat4 V c).recorded t = Set.univ := rfl
theorem recorded5 (V : (c : Dev nD) → (b : Ref sig .tc) → Buf (Elt F) ((c : Thread nD τ).loc b)) (c : Dev nD) (t : Fin (cfg5.N + 1)) :
    (dat5 V c).recorded t = Set.univ := rfl
theorem recorded6 (V : (c : Dev nD) → (b : Ref sig .tc) → Buf (Elt F) ((c : Thread nD τ).loc b)) (c : Dev nD) (t : Fin (cfg6.N + 1)) :
    (dat6 V c).recorded t = Set.univ := rfl
theorem recorded7 (V : (c : Dev nD) → (b : Ref sig .tc) → Buf (Elt F) ((c : Thread nD τ).loc b)) (c : Dev nD) (t : Fin (cfg7.N + 1)) :
    (dat7 V c).recorded t = Set.univ := rfl
theorem recorded8 (V : (c : Dev nD) → (b : Ref sig .tc) → Buf (Elt F) ((c : Thread nD τ).loc b)) (c : Dev nD) (t : Fin (cfg8.N + 1)) :
    (dat8 V c).recorded t = Set.univ := rfl
theorem recorded9 (V : (c : Dev nD) → (b : Ref sig .tc) → Buf (Elt F) ((c : Thread nD τ).loc b)) (c : Dev nD) (t : Fin (cfg9.N + 1)) :
    (dat9 V c).recorded t = Set.univ := rfl
theorem recorded10 (V : (c : Dev nD) → (b : Ref sig .tc) → Buf (Elt F) ((c : Thread nD τ).loc b)) (c : Dev nD) (t : Fin (cfg10.N + 1)) :
    (dat10 V c).recorded t = Set.univ := rfl
theorem recorded11 (V : (c : Dev nD) → (b : Ref sig .tc) → Buf (Elt F) ((c : Thread nD τ).loc b)) (c : Dev nD) (t : Fin (cfg11.N + 1)) :
    (dat11 V c).recorded t = Set.univ := rfl

/-! # The run: the main function's segments from the launch to the return

## The buffer contents at each segment boundary: a fold through the main function -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b

/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b

/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b

/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7`. -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b

/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch `hostOps8`. -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b

/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch `hostOps9`. -/
abbrev W19 : Dev nD → Valuation τ sig (Elt F) := fun c => StableHlo.after hostOps9 (W18 m ρ c)
/-- The same read at the TensorCore's references. -/
abbrev V19 : (c : Dev nD) → (b : Ref sig .tc) → Buf (Elt F) ((c : Thread nD τ).loc b) := fun c b => W19 m ρ c b

/-- At region 9's exit: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- At region 10's exit: its arrays at what the pipeline leaves, every other buffer as entered. -/
def W21 (c : Dev nD) : Valuation τ sig (Elt F) :=
  Pipeline.withArrays spec10 c (W20 m ρ c) fun w => (dat10 (V20 m ρ) c).arrAt w cfg10.N
theorem W21_arr (c : Dev nD) (w : Fin cfg10.W) :
    W21 m ρ c (Proc.devRef .tc (Pipeline.arrRef spec10 w)) = (dat10 (V20 m ρ) c).arrAt w cfg10.N := by
  unfold W21; exact Pipeline.withArrays_arr spec10 launch10.win.arr_inj c _ _ w
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
/-- The same read at the TensorCore's references (region 10's exit contents). -/
abbrev V21 : (c : Dev nD) → (b : Ref sig .tc) → Buf (Elt F) ((c : Thread nD τ).loc b) := fun c b => W21 m ρ c b
/-- At region 10's exit each of its arrays holds what the pipeline leaves and every other buffer what it held at entry. -/
theorem hF10 (c : Dev nD) (w : Fin cfg10.W) : (dat10 (V20 m ρ) c).arrAt w cfg10.N = V21 m ρ c (Pipeline.arrRef spec10 w) :=
  (W21_arr m ρ c w).symm
theorem hrest10 (c : Dev nD) : ∀ b, b ∉ Finset.univ.image (Pipeline.arrRef spec10) → V21 m ρ c b = V20 m ρ c b :=
  fun b hb => W21_of_ne m ρ c b fun w e => hb (Finset.mem_image.mpr ⟨w, Finset.mem_univ _, e⟩)

/-- After the host stretch `hostOps11`. -/
abbrev W22 : Dev nD → Valuation τ sig (Elt F) := fun c => StableHlo.after hostOps11 (W21 m ρ c)
/-- The same read at the TensorCore's references. -/
abbrev V22 : (c : Dev nD) → (b : Ref sig .tc) → Buf (Elt F) ((c : Thread nD τ).loc b) := fun c b => W22 m ρ c b

/-- At region 11's exit: its arrays at what the pipeline leaves, every other buffer as entered. -/
def W23 (c : Dev nD) : Valuation τ sig (Elt F) :=
  Pipeline.withArrays spec11 c (W22 m ρ c) fun w => (dat11 (V22 m ρ) c).arrAt w cfg11.N
theorem W23_arr (c : Dev nD) (w : Fin cfg11.W) :
    W23 m ρ c (Proc.devRef .tc (Pipeline.arrRef spec11 w)) = (dat11 (V22 m ρ) c).arrAt w cfg11.N := by
  unfold W23; exact Pipeline.withArrays_arr spec11 launch11.win.arr_inj c _ _ w
theorem W23_of_ne (c : Dev nD) (b : Ref sig .tc) (hb : ∀ w, Pipeline.arrRef spec11 w ≠ b) :
    W23 m ρ c (Proc.devRef .tc b) = W22 m ρ c (Proc.devRef .tc b) := by
  unfold W23; exact Pipeline.withArrays_of_ne spec11 c _ _ b hb
/-- The same read at the TensorCore's references (region 11's exit contents). -/
abbrev V23 : (c : Dev nD) → (b : Ref sig .tc) → Buf (Elt F) ((c : Thread nD τ).loc b) := fun c b => W23 m ρ c b
/-- At region 11's exit each of its arrays holds what the pipeline leaves and every other buffer what it held at entry. -/
theorem hF11 (c : Dev nD) (w : Fin cfg11.W) : (dat11 (V22 m ρ) c).arrAt w cfg11.N = V23 m ρ c (Pipeline.arrRef spec11 w) :=
  (W23_arr m ρ c w).symm
theorem hrest11 (c : Dev nD) : ∀ b, b ∉ Finset.univ.image (Pipeline.arrRef spec11) → V23 m ρ c b = V22 m ρ c b :=
  fun b hb => W23_of_ne m ρ c b fun w e => hb (Finset.mem_image.mpr ⟨w, Finset.mem_univ _, e⟩)

/-! ## The proof data family and the thread state -/

/-- The prefetched tables' admissible contents: no pipeline has a table. -/
abbrev adm : (p : Fin 12) → (pcfgs (F := F) p).Adm := fun p => (cfgs p).toPCfg_adm
/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V20 m ρ) c
  | ⟨11, _⟩ => fun c => dat11 (V22 m ρ) c
  | ⟨_ + 12, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W23 m ρ c) ∗ ∃ r, prngReg c r)

/-! ## What the host stretches write -/

set_option maxHeartbeats 4000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_v30, main_v31, main_v32, main_v33, main_v34, main_v35, main_v36, main_v37, main_c_5, main_v38, main_v39, main_c_6, main_v40, main_v41, main_v42, main_v43, main_v44, main_v45, main_v46, main_cst_7, main_v47, main_v48, main_v49, main_v50, main_v51, main_v52, main_v53, main_v54, main_v55, main_v56, main_v57, main_v58, main_v59, main_cst_8, main_v60, main_v61, main_cst_9, main_v62, main_v63, main_v64, main_v65, main_v66, main_cst_10, main_v67, main_v68, main_cst_11, main_v69, main_v70, main_v71, main_v72, main_v73, main_v74, main_v75, main_v76, main_v77, main_v78, main_v79, main_v80, main_v81]
set_option maxHeartbeats 4000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v83, main_v84, main_v85, main_v86, main_v87, main_v88, main_v89, main_v90, main_v91, main_v92, main_v93, main_v94, main_v95, main_v96, main_v97, main_v98, main_v99, main_v100, main_v101, main_v102, main_v103, main_v104, main_v105]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v107, main_v108, main_c_12, main_v109, main_v110, main_c_13, main_v111, main_v112, main_v113, main_v114, main_v115, main_v116, main_v117, main_cst_14, main_v118, main_v119, main_v120, main_v121, main_v122, main_v123, main_v124, main_v125, main_v126, main_v127, main_v128, main_v129, main_v130, main_cst_15, main_v131, main_v132, main_cst_16, main_v133, main_v134, main_v135, main_v136, main_v137, main_cst_17, main_v138, main_v139, main_cst_18, main_v140, main_v141, main_v142, main_v143, main_v144, main_v145, main_v146, main_v147, main_v148, main_v149, main_v150, main_v151, main_v152]
set_option maxHeartbeats 4000000 in
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v154, main_v155, main_v156, main_v157, main_v158, main_v159, main_v160, main_v161, main_v162, main_v163, main_v164, main_v165, main_v166, main_v167, main_v168, main_v169, main_v170, main_v171, main_v172, main_v173, main_v174, main_v175, main_v176]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v178, main_v179, main_c_19, main_v180, main_v181, main_c_20, main_v182, main_v183, main_v184, main_v185, main_v186, main_v187, main_v188, main_cst_21, main_v189, main_v190, main_v191, main_v192, main_v193, main_v194, main_v195, main_v196, main_v197, main_v198, main_v199, main_v200, main_v201, main_cst_22, main_v202, main_v203, main_cst_23, main_v204, main_v205, main_v206, main_v207, main_v208, main_cst_24, main_v209, main_v210, main_cst_25, main_v211, main_v212, main_v213, main_v214, main_v215, main_v216, main_v217, main_v218, main_v219, main_v220, main_v221, main_v222, main_v223]
set_option maxHeartbeats 4000000 in
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v225, main_c_26, main_v226, main_v227, main_c_27, main_v228, main_v229, main_v230, main_v231, main_v232, main_v233, main_v234, main_cst_28, main_v235, main_v236, main_v237]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps6` allocates a buffer. -/
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v239, main_c_29, main_v240, main_v241, main_c_30, main_v242, main_v243, main_v244, main_v245, main_v246, main_v247, main_v248, main_cst_31, main_v249, main_v250, main_v251]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v253, main_c_32, main_v254, main_v255, main_c_33, main_v256, main_v257, main_v258, main_v259, main_v260, main_v261, main_v262, main_cst_34, main_v263, main_v264, main_v265]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps8` allocates a buffer. -/
theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_v267, main_c_35, main_v268, main_v269, main_c_36, main_v270, main_v271, main_v272, main_v273, main_v274, main_v275, main_v276, main_cst_37, main_v277, main_v278, main_v279]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps9` allocates a buffer. -/
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v281, main_c_38, main_v282, main_v283, main_c_39, main_v284, main_v285, main_v286, main_v287, main_v288, main_v289, main_v290, main_cst_40, main_v291, main_v292, main_v293]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps11` allocates a buffer. -/
theorem hostOps11_fresh : (hostOps11 : List (HloOp τ sig (Elt F))).Forall fun op => op.fresh = ∅ := by
  simp only [List.Forall]; repeat' constructor
/-- The references `hostOps11`'s operations write. -/
abbrev hostOps11_W : List (Ref sig .tc) := [main_cst_41, main_v296, main_cst_42, main_v297, main_v298, main_v299, main_cst_43, main_v300, main_v301, main_v302, main_v303, main_v304, main_v305]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## The regions as segments -/

set_option backward.isDefEq.respectTransparency.types false in
/-- Region 0 over the thread state: entered from every unscoped buffer at `W1`, left at `W2`. Its arrays split out
    of the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed0 (V1 m ρ) c 0]
      icases HO with ⟨%W, HO⟩; iexists W; isplitr
      · ipureintro; exact fun _ _ => Or.inl ((show (pdats m ρ 0 c).recorded 0 = Set.univ from recorded0 (V1 m ρ) c 0) ▸ Set.mem_univ _)
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V1 m ρ) c (Fin.last _)]
    icases HO with ⟨%W, -, HO⟩; iexists W; iexact HO

set_option backward.isDefEq.respectTransparency.types false in
/-- Region 1 over the thread state: entered from every unscoped buffer at `W3`, left at `W4`. Its arrays split out
    of the unscoped buffers and put back at the exit contents; the generator register into the region's invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V3 m ρ) c 0]
      icases HO with ⟨%W, HO⟩; iexists W; isplitr
      · ipureintro; exact fun _ _ => Or.inl ((show (pdats m ρ 1 c).recorded 0 = Set.univ from recorded1 (V3 m ρ) c 0) ▸ Set.mem_univ _)
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed1 (V3 m ρ) c (Fin.last _)]
    icases HO with ⟨%W, -, HO⟩; iexists W; iexact HO

set_option backward.isDefEq.respectTransparency.types false in
/-- Region 2 over the thread state: entered from every unscoped buffer at `W5`, left at `W6`. Its arrays split out
    of the unscoped buffers and put back at the exit contents; the generator register into the region's invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => share2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from owed2 (V5 m ρ) c 0]
      icases HO with ⟨%W, HO⟩; iexists W; isplitr
      · ipureintro; exact fun _ _ => Or.inl ((show (pdats m ρ 2 c).recorded 0 = Set.univ from recorded2 (V5 m ρ) c 0) ▸ Set.mem_univ _)
      iexact HO
    isplitl [Hp]; · iexact Hp
    iexact Hrest
  hin c := by
    refine BIBase.Entails.trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => share2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 2 c).owed (Fin.last _) = 0 from owed2 (V5 m ρ) c (Fin.last _)]
    icases HO with ⟨%W, -, HO⟩; iexists W; iexact HO

set_option backward.isDefEq.respectTransparency.types false in
/-- Region 3 over the thread state: entered from every unscoped buffer at `W7`, left at `W8`. Its arrays split out
    of the unscoped buffers and put back at the exit contents; the generator register into the region's invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun c t => owed3 (V7 m ρ) c t
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => share3 (V7 m ρ) c w) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from owed3 (V7 m ρ) c 0]
      icases HO with ⟨%W, HO⟩; iexists W; isplitr
      · ipureintro; exact fun _ _ => Or.inl ((show (pdats m ρ 3 c).recorded 0 = Set.univ from recorded3 (V7 m ρ) c 0) ▸ Set.mem_univ _)
      iexact HO
    isplitl [Hp]; · iexact Hp
    iexact Hrest
  hin c := by
    refine BIBase.Entails.trans ?_ (show Pipeline.ΦA spec3 c ⊢ (pdats m ρ 3 c).Φ 0 from hin3 (V7 m ρ) c)
    unfold Pipeline.ΦA
    iintro ⟨Hp, -, Hr⟩
    isplitl [Hr]; · iexact Hr
    iexact Hp
  hout c := by
    rw [Pipeline.ownSems0_none]
    refine BIBase.Entails.trans (show (pdats m ρ 3 c).Φ (Fin.last _) ⊢ Pipeline.ΦA spec3 c from hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => share3 (V7 m ρ) c w)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 3 c).owed (Fin.last _) = 0 from owed3 (V7 m ρ) c (Fin.last _)]
    icases HO with ⟨%W, -, HO⟩; iexists W; iexact HO

set_option backward.isDefEq.respectTransparency.types false in
/-- Region 4 over the thread state: entered from every unscoped buffer at `W9`, left at `W10`. Its arrays split out
    of the unscoped buffers and put back at the exit contents; the generator register into the region's invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun c t => owed4 (V9 m ρ) c t
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun w => share4 (V9 m ρ) c w) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 4 c).owed 0 = 0 from owed4 (V9 m ρ) c 0]
      icases HO with ⟨%W, HO⟩; iexists W; isplitr
      · ipureintro; exact fun _ _ => Or.inl ((show (pdats m ρ 4 c).recorded 0 = Set.univ from recorded4 (V9 m ρ) c 0) ▸ Set.mem_univ _)
      iexact HO
    isplitl [Hp]; · iexact Hp
    iexact Hrest
  hin c := by
    refine BIBase.Entails.trans ?_ (show Pipeline.ΦA spec4 c ⊢ (pdats m ρ 4 c).Φ 0 from hin4 (V9 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ Pipeline.ΦA spec4 c from hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun w => share4 (V9 m ρ) c w)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 4 c).owed (Fin.last _) = 0 from owed4 (V9 m ρ) c (Fin.last _)]
    icases HO with ⟨%W, -, HO⟩; iexists W; iexact HO

set_option backward.isDefEq.respectTransparency.types false in
/-- Region 5 over the thread state: entered from every unscoped buffer at `W11`, left at `W12`. Its arrays split out
    of the unscoped buffers and put back at the exit contents; the generator register into the region's invariant and
    out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun c t => owed5 (V11 m ρ) c t
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun w => share5 (V11 m ρ) c w) (V11 m ρ c) fun w => A_eq5 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 5 c).owed 0 = 0 from owed5 (V11 m ρ) c 0]
      icases HO with ⟨%W, HO⟩; iexists W; isplitr
      · ipureintro; exact fun _ _ => Or.inl ((show (pdats m ρ 5 c).recorded 0 = Set.univ from recorded5 (V11 m ρ) c 0) ▸ Set.mem_univ _)
      iexact HO
    isplitl [Hp]; · iexact Hp
    iexact Hrest
  hin c := by
    refine BIBase.Entails.trans ?_ (show Pipeline.ΦA spec5 c ⊢ (pdats m ρ 5 c).Φ 0 from hin5 (V11 m ρ) c)
    unfold Pipeline.ΦA
    iintro ⟨Hp, -, Hr⟩
    isplitl [Hr]; · iexact Hr
    iexact Hp
  hout c := by
    rw [Pipeline.ownSems0_none]
    refine BIBase.Entails.trans (show (pdats m ρ 5 c).Φ (Fin.last _) ⊢ Pipeline.ΦA spec5 c from hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => share5 (V11 m ρ) c w)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 5 c).owed (Fin.last _) = 0 from owed5 (V11 m ρ) c (Fin.last _)]
    icases HO with ⟨%W, -, HO⟩; iexists W; iexact HO

set_option backward.isDefEq.respectTransparency.types false in
/-- Region 6 over the thread state: entered from every unscoped buffer at `W13`, left at `W14`. Its arrays split out
    of the unscoped buffers and put back at the exit contents; the generator register into the region's invariant and
    out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun c t => owed6 (V13 m ρ) c t
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun w => share6 (V13 m ρ) c w) (V13 m ρ c) fun w => A_eq6 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 6 c).owed 0 = 0 from owed6 (V13 m ρ) c 0]
      icases HO with ⟨%W, HO⟩; iexists W; isplitr
      · ipureintro; exact fun _ _ => Or.inl ((show (pdats m ρ 6 c).recorded 0 = Set.univ from recorded6 (V13 m ρ) c 0) ▸ Set.mem_univ _)
      iexact HO
    isplitl [Hp]; · iexact Hp
    iexact Hrest
  hin c := by
    refine BIBase.Entails.trans ?_ (show Pipeline.ΦA spec6 c ⊢ (pdats m ρ 6 c).Φ 0 from hin6 (V13 m ρ) c)
    unfold Pipeline.ΦA
    iintro ⟨Hp, -, Hr⟩
    isplitl [Hr]; · iexact Hr
    iexact Hp
  hout c := by
    rw [Pipeline.ownSems0_none]
    refine BIBase.Entails.trans (show (pdats m ρ 6 c).Φ (Fin.last _) ⊢ Pipeline.ΦA spec6 c from hout6 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun w => share6 (V13 m ρ) c w)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 6 c).owed (Fin.last _) = 0 from owed6 (V13 m ρ) c (Fin.last _)]
    icases HO with ⟨%W, -, HO⟩; iexists W; iexact HO

set_option backward.isDefEq.respectTransparency.types false in
/-- Region 7 over the thread state: entered from every unscoped buffer at `W15`, left at `W16`. Its arrays split out
    of the unscoped buffers and put back at the exit contents; the generator register into the region's invariant and
    out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun c t => owed7 (V15 m ρ) c t
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun w => share7 (V15 m ρ) c w) (V15 m ρ c) fun w => A_eq7 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 7 c).owed 0 = 0 from owed7 (V15 m ρ) c 0]
      icases HO with ⟨%W, HO⟩; iexists W; isplitr
      · ipureintro; exact fun _ _ => Or.inl ((show (pdats m ρ 7 c).recorded 0 = Set.univ from recorded7 (V15 m ρ) c 0) ▸ Set.mem_univ _)
      iexact HO
    isplitl [Hp]; · iexact Hp
    iexact Hrest
  hin c := by
    refine BIBase.Entails.trans ?_ (show Pipeline.ΦA spec7 c ⊢ (pdats m ρ 7 c).Φ 0 from hin7 (V15 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ Pipeline.ΦA spec7 c from hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun w => share7 (V15 m ρ) c w)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 7 c).owed (Fin.last _) = 0 from owed7 (V15 m ρ) c (Fin.last _)]
    icases HO with ⟨%W, -, HO⟩; iexists W; iexact HO

set_option backward.isDefEq.respectTransparency.types false in
/-- Region 8 over the thread state: entered from every unscoped buffer at `W17`, left at `W18`. Its arrays split out
    of the unscoped buffers and put back at the exit contents; the generator register into the region's invariant and
    out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun c t => owed8 (V17 m ρ) c t
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun w => share8 (V17 m ρ) c w) (V17 m ρ c) fun w => A_eq8 (V17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 8 c).owed 0 = 0 from owed8 (V17 m ρ) c 0]
      icases HO with ⟨%W, HO⟩; iexists W; isplitr
      · ipureintro; exact fun _ _ => Or.inl ((show (pdats m ρ 8 c).recorded 0 = Set.univ from recorded8 (V17 m ρ) c 0) ▸ Set.mem_univ _)
      iexact HO
    isplitl [Hp]; · iexact Hp
    iexact Hrest
  hin c := by
    refine BIBase.Entails.trans ?_ (show Pipeline.ΦA spec8 c ⊢ (pdats m ρ 8 c).Φ 0 from hin8 (V17 m ρ) c)
    unfold Pipeline.ΦA
    iintro ⟨Hp, -, Hr⟩
    isplitl [Hr]; · iexact Hr
    iexact Hp
  hout c := by
    rw [Pipeline.ownSems0_none]
    refine BIBase.Entails.trans (show (pdats m ρ 8 c).Φ (Fin.last _) ⊢ Pipeline.ΦA spec8 c from hout8 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun w => share8 (V17 m ρ) c w)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 8 c).owed (Fin.last _) = 0 from owed8 (V17 m ρ) c (Fin.last _)]
    icases HO with ⟨%W, -, HO⟩; iexists W; iexact HO

set_option backward.isDefEq.respectTransparency.types false in
/-- Region 9 over the thread state: entered from every unscoped buffer at `W19`, left at `W20`. Its arrays split out
    of the unscoped buffers and put back at the exit contents; the generator register into the region's invariant and
    out; nothing owed; no semaphore of the kernel's own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun c t => owed9 (V19 m ρ) c t
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun w => share9 (V19 m ρ) c w) (V19 m ρ c) fun w => A_eq9 (V19 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 9 c).owed 0 = 0 from owed9 (V19 m ρ) c 0]
      icases HO with ⟨%W, HO⟩; iexists W; isplitr
      · ipureintro; exact fun _ _ => Or.inl ((show (pdats m ρ 9 c).recorded 0 = Set.univ from recorded9 (V19 m ρ) c 0) ▸ Set.mem_univ _)
      iexact HO
    isplitl [Hp]; · iexact Hp
    iexact Hrest
  hin c := by
    refine BIBase.Entails.trans ?_ (show Pipeline.ΦA spec9 c ⊢ (pdats m ρ 9 c).Φ 0 from hin9 (V19 m ρ) c)
    unfold Pipeline.ΦA
    iintro ⟨Hp, -, Hr⟩
    isplitl [Hr]; · iexact Hr
    iexact Hp
  hout c := by
    rw [Pipeline.ownSems0_none]
    refine BIBase.Entails.trans (show (pdats m ρ 9 c).Φ (Fin.last _) ⊢ Pipeline.ΦA spec9 c from hout9 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun w => share9 (V19 m ρ) c w)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 9 c).owed (Fin.last _) = 0 from owed9 (V19 m ρ) c (Fin.last _)]
    icases HO with ⟨%W, -, HO⟩; iexists W; iexact HO

set_option backward.isDefEq.respectTransparency.types false in
/-- Region 10 over the thread state: entered from every unscoped buffer at `W20`, left at `W21`. Its arrays split out
    of the unscoped buffers and put back at the exit contents; the generator register into the region's invariant and
    out; nothing owed; no semaphore of the kernel's own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V20 m ρ) c).loose
  hwaits := Pipeline.hwaits_of_owed_zero _ _ _ _ L lv 10 fun c t => owed10 (V20 m ρ) c t
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec10 c (V20 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun w => share10 (V20 m ρ) c w) (V20 m ρ c) fun w => A_eq10 (V20 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 10 c).owed 0 = 0 from owed10 (V20 m ρ) c 0]
      icases HO with ⟨%W, HO⟩; iexists W; isplitr
      · ipureintro; exact fun _ _ => Or.inl ((show (pdats m ρ 10 c).recorded 0 = Set.univ from recorded10 (V20 m ρ) c 0) ▸ Set.mem_univ _)
      iexact HO
    isplitl [Hp]; · iexact Hp
    iexact Hrest
  hin c := by
    refine BIBase.Entails.trans ?_ (show Pipeline.ΦA spec10 c ⊢ (pdats m ρ 10 c).Φ 0 from hin10 (V20 m ρ) c)
    unfold Pipeline.ΦA
    iintro ⟨Hp, -, Hr⟩
    isplitl [Hr]; · iexact Hr
    iexact Hp
  hout c := by
    rw [Pipeline.ownSems0_none]
    refine BIBase.Entails.trans (show (pdats m ρ 10 c).Φ (Fin.last _) ⊢ Pipeline.ΦA spec10 c from hout10 (V20 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun w => share10 (V20 m ρ) c w)
      (V20 m ρ c) (V21 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 10 c).owed (Fin.last _) = 0 from owed10 (V20 m ρ) c (Fin.last _)]
    icases HO with ⟨%W, -, HO⟩; iexists W; iexact HO

set_option backward.isDefEq.respectTransparency.types false in
/-- Region 11 over the thread state: entered from every unscoped buffer at `W22`, left at `W23`. Its arrays split out
    of the unscoped buffers and put back at the exit contents; the generator register into the region's invariant and
    out; nothing owed; no semaphore of the kernel's own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V22 m ρ) c).loose
  hwaits := Pipeline.hwaits_of_owed_zero _ _ _ _ L lv 11 fun c t => owed11 (V22 m ρ) c t
  pre c := iprop(StableHlo.held (c : Thread nD τ) (Pipeline.ucRefs τ sig) (W22 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (V22 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun w => share11 (V22 m ρ) c w) (V22 m ρ c) fun w => A_eq11 (V22 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 11 c).owed 0 = 0 from owed11 (V22 m ρ) c 0]
      icases HO with ⟨%W, HO⟩; iexists W; isplitr
      · ipureintro; exact fun _ _ => Or.inl ((show (pdats m ρ 11 c).recorded 0 = Set.univ from recorded11 (V22 m ρ) c 0) ▸ Set.mem_univ _)
      iexact HO
    isplitl [Hp]; · iexact Hp
    iexact Hrest
  hin c := by
    refine BIBase.Entails.trans ?_ (show Pipeline.ΦA spec11 c ⊢ (pdats m ρ 11 c).Φ 0 from hin11 (V22 m ρ) c)
    unfold Pipeline.ΦA
    iintro ⟨Hp, -, Hr⟩
    isplitl [Hr]; · iexact Hr
    iexact Hp
  hout c := by
    rw [Pipeline.ownSems0_none]
    refine BIBase.Entails.trans (show (pdats m ρ 11 c).Φ (Fin.last _) ⊢ Pipeline.ΦA spec11 c from hout11 (V22 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun w => share11 (V22 m ρ) c w)
      (V22 m ρ c) (V23 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 11 c).owed (Fin.last _) = 0 from owed11 (V22 m ρ) c (Fin.last _)]
    icases HO with ⟨%W, -, HO⟩; iexists W; iexact HO

/-! ## The main function as segments, and the launch -/

/-- The main function's 23 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .region (reg10 m ρ),
    .host (hseg hostOps11 hostOps11_sub hostOps11_fresh (W21 m ρ)),
    .region (reg11 m ρ) ]
/-- The main function is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the main function on
    the TensorCores terminates, nothing faulting, and every final state has each unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

/-! ## What each item leaves unchanged: a reference the item does not write keeps its contents -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h

theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h

theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h

theorem W22_of (c : Dev nD) (r : Ref sig .tc) (h : r ∉ hostOps11_W) :
    W22 m ρ c (Proc.devRef .tc r) = W21 m ρ c (Proc.devRef .tc r) :=
  StableHlo.after_of_writes_sub hostOps11 _ hostOps11_writes h

/-! ## The arguments end as launched: no host operation and no region writes one (region 11 reads `main_arg16` through an input window) -/

/-- `main_arg0` reaches the end as launched. -/
theorem W23_main_arg0 (c : Dev nD) : W23 m ρ c (Proc.devRef .tc main_arg0) = m ((c : Thread nD τ).loc main_arg0) :=
  (W23_of_ne m ρ c main_arg0 (by decide)).trans <|
  (W22_of m ρ c main_arg0 (by decide)).trans <|
  (W21_of_ne m ρ c main_arg0 (by decide)).trans <|
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl

/-- `main_arg1` reaches the end as launched. -/
theorem W23_main_arg1 (c : Dev nD) : W23 m ρ c (Proc.devRef .tc main_arg1) = m ((c : Thread nD τ).loc main_arg1) :=
  (W23_of_ne m ρ c main_arg1 (by decide)).trans <|
  (W22_of m ρ c main_arg1 (by decide)).trans <|
  (W21_of_ne m ρ c main_arg1 (by decide)).trans <|
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl

/-- `main_arg2` reaches the end as launched. -/
theorem W23_main_arg2 (c : Dev nD) : W23 m ρ c (Proc.devRef .tc main_arg2) = m ((c : Thread nD τ).loc main_arg2) :=
  (W23_of_ne m ρ c main_arg2 (by decide)).trans <|
  (W22_of m ρ c main_arg2 (by decide)).trans <|
  (W21_of_ne m ρ c main_arg2 (by decide)).trans <|
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl

/-- `main_arg3` reaches the end as launched. -/
theorem W23_main_arg3 (c : Dev nD) : W23 m ρ c (Proc.devRef .tc main_arg3) = m ((c : Thread nD τ).loc main_arg3) :=
  (W23_of_ne m ρ c main_arg3 (by decide)).trans <|
  (W22_of m ρ c main_arg3 (by decide)).trans <|
  (W21_of_ne m ρ c main_arg3 (by decide)).trans <|
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl

/-- `main_arg4` reaches the end as launched. -/
theorem W23_main_arg4 (c : Dev nD) : W23 m ρ c (Proc.devRef .tc main_arg4) = m ((c : Thread nD τ).loc main_arg4) :=
  (W23_of_ne m ρ c main_arg4 (by decide)).trans <|
  (W22_of m ρ c main_arg4 (by decide)).trans <|
  (W21_of_ne m ρ c main_arg4 (by decide)).trans <|
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans rfl

/-- `main_arg5` reaches the end as launched. -/
theorem W23_main_arg5 (c : Dev nD) : W23 m ρ c (Proc.devRef .tc main_arg5) = m ((c : Thread nD τ).loc main_arg5) :=
  (W23_of_ne m ρ c main_arg5 (by decide)).trans <|
  (W22_of m ρ c main_arg5 (by decide)).trans <|
  (W21_of_ne m ρ c main_arg5 (by decide)).trans <|
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl

/-- `main_arg6` reaches the end as launched. -/
theorem W23_main_arg6 (c : Dev nD) : W23 m ρ c (Proc.devRef .tc main_arg6) = m ((c : Thread nD τ).loc main_arg6) :=
  (W23_of_ne m ρ c main_arg6 (by decide)).trans <|
  (W22_of m ρ c main_arg6 (by decide)).trans <|
  (W21_of_ne m ρ c main_arg6 (by decide)).trans <|
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans rfl

/-- `main_arg7` reaches the end as launched. -/
theorem W23_main_arg7 (c : Dev nD) : W23 m ρ c (Proc.devRef .tc main_arg7) = m ((c : Thread nD τ).loc main_arg7) :=
  (W23_of_ne m ρ c main_arg7 (by decide)).trans <|
  (W22_of m ρ c main_arg7 (by decide)).trans <|
  (W21_of_ne m ρ c main_arg7 (by decide)).trans <|
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl

/-- `main_arg8` reaches the end as launched. -/
theorem W23_main_arg8 (c : Dev nD) : W23 m ρ c (Proc.devRef .tc main_arg8) = m ((c : Thread nD τ).loc main_arg8) :=
  (W23_of_ne m ρ c main_arg8 (by decide)).trans <|
  (W22_of m ρ c main_arg8 (by decide)).trans <|
  (W21_of_ne m ρ c main_arg8 (by decide)).trans <|
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl

/-- `main_arg9` reaches the end as launched. -/
theorem W23_main_arg9 (c : Dev nD) : W23 m ρ c (Proc.devRef .tc main_arg9) = m ((c : Thread nD τ).loc main_arg9) :=
  (W23_of_ne m ρ c main_arg9 (by decide)).trans <|
  (W22_of m ρ c main_arg9 (by decide)).trans <|
  (W21_of_ne m ρ c main_arg9 (by decide)).trans <|
  (W20_of_ne m ρ c main_arg9 (by decide)).trans <|
  (W19_of m ρ c main_arg9 (by decide)).trans <|
  (W18_of_ne m ρ c main_arg9 (by decide)).trans <|
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl

/-- `main_arg10` reaches the end as launched. -/
theorem W23_main_arg10 (c : Dev nD) : W23 m ρ c (Proc.devRef .tc main_arg10) = m ((c : Thread nD τ).loc main_arg10) :=
  (W23_of_ne m ρ c main_arg10 (by decide)).trans <|
  (W22_of m ρ c main_arg10 (by decide)).trans <|
  (W21_of_ne m ρ c main_arg10 (by decide)).trans <|
  (W20_of_ne m ρ c main_arg10 (by decide)).trans <|
  (W19_of m ρ c main_arg10 (by decide)).trans <|
  (W18_of_ne m ρ c main_arg10 (by decide)).trans <|
  (W17_of m ρ c main_arg10 (by decide)).trans <|
  (W16_of_ne m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl

/-- `main_arg11` reaches the end as launched. -/
theorem W23_main_arg11 (c : Dev nD) : W23 m ρ c (Proc.devRef .tc main_arg11) = m ((c : Thread nD τ).loc main_arg11) :=
  (W23_of_ne m ρ c main_arg11 (by decide)).trans <|
  (W22_of m ρ c main_arg11 (by decide)).trans <|
  (W21_of_ne m ρ c main_arg11 (by decide)).trans <|
  (W20_of_ne m ρ c main_arg11 (by decide)).trans <|
  (W19_of m ρ c main_arg11 (by decide)).trans <|
  (W18_of_ne m ρ c main_arg11 (by decide)).trans <|
  (W17_of m ρ c main_arg11 (by decide)).trans <|
  (W16_of_ne m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl

/-- `main_arg12` reaches the end as launched. -/
theorem W23_main_arg12 (c : Dev nD) : W23 m ρ c (Proc.devRef .tc main_arg12) = m ((c : Thread nD τ).loc main_arg12) :=
  (W23_of_ne m ρ c main_arg12 (by decide)).trans <|
  (W22_of m ρ c main_arg12 (by decide)).trans <|
  (W21_of_ne m ρ c main_arg12 (by decide)).trans <|
  (W20_of_ne m ρ c main_arg12 (by decide)).trans <|
  (W19_of m ρ c main_arg12 (by decide)).trans <|
  (W18_of_ne m ρ c main_arg12 (by decide)).trans <|
  (W17_of m ρ c main_arg12 (by decide)).trans <|
  (W16_of_ne m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl

/-- `main_arg13` reaches the end as launched. -/
theorem W23_main_arg13 (c : Dev nD) : W23 m ρ c (Proc.devRef .tc main_arg13) = m ((c : Thread nD τ).loc main_arg13) :=
  (W23_of_ne m ρ c main_arg13 (by decide)).trans <|
  (W22_of m ρ c main_arg13 (by decide)).trans <|
  (W21_of_ne m ρ c main_arg13 (by decide)).trans <|
  (W20_of_ne m ρ c main_arg13 (by decide)).trans <|
  (W19_of m ρ c main_arg13 (by decide)).trans <|
  (W18_of_ne m ρ c main_arg13 (by decide)).trans <|
  (W17_of m ρ c main_arg13 (by decide)).trans <|
  (W16_of_ne m ρ c main_arg13 (by decide)).trans <|
  (W15_of m ρ c main_arg13 (by decide)).trans <|
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl

/-- `main_arg14` reaches the end as launched. -/
theorem W23_main_arg14 (c : Dev nD) : W23 m ρ c (Proc.devRef .tc main_arg14) = m ((c : Thread nD τ).loc main_arg14) :=
  (W23_of_ne m ρ c main_arg14 (by decide)).trans <|
  (W22_of m ρ c main_arg14 (by decide)).trans <|
  (W21_of_ne m ρ c main_arg14 (by decide)).trans <|
  (W20_of_ne m ρ c main_arg14 (by decide)).trans <|
  (W19_of m ρ c main_arg14 (by decide)).trans <|
  (W18_of_ne m ρ c main_arg14 (by decide)).trans <|
  (W17_of m ρ c main_arg14 (by decide)).trans <|
  (W16_of_ne m ρ c main_arg14 (by decide)).trans <|
  (W15_of m ρ c main_arg14 (by decide)).trans <|
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  (W4_of_ne m ρ c main_arg14 (by decide)).trans <|
  (W3_of m ρ c main_arg14 (by decide)).trans <|
  (W2_of_ne m ρ c main_arg14 (by decide)).trans <|
  (W1_of m ρ c main_arg14 (by decide)).trans rfl

/-- `main_arg15` reaches the end as launched. -/
theorem W23_main_arg15 (c : Dev nD) : W23 m ρ c (Proc.devRef .tc main_arg15) = m ((c : Thread nD τ).loc main_arg15) :=
  (W23_of_ne m ρ c main_arg15 (by decide)).trans <|
  (W22_of m ρ c main_arg15 (by decide)).trans <|
  (W21_of_ne m ρ c main_arg15 (by decide)).trans <|
  (W20_of_ne m ρ c main_arg15 (by decide)).trans <|
  (W19_of m ρ c main_arg15 (by decide)).trans <|
  (W18_of_ne m ρ c main_arg15 (by decide)).trans <|
  (W17_of m ρ c main_arg15 (by decide)).trans <|
  (W16_of_ne m ρ c main_arg15 (by decide)).trans <|
  (W15_of m ρ c main_arg15 (by decide)).trans <|
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans rfl

/-- `main_arg16` reaches the end as launched. -/
theorem W23_main_arg16 (c : Dev nD) : W23 m ρ c (Proc.devRef .tc main_arg16) = m ((c : Thread nD τ).loc main_arg16) :=
  ((W23_arr m ρ c 1).trans (((dat11 (V22 m ρ) c).arrAt_in 1 rfl _).trans (A_eq11 (V22 m ρ) c 1))).trans <|
  (W22_of m ρ c main_arg16 (by decide)).trans <|
  (W21_of_ne m ρ c main_arg16 (by decide)).trans <|
  (W20_of_ne m ρ c main_arg16 (by decide)).trans <|
  (W19_of m ρ c main_arg16 (by decide)).trans <|
  (W18_of_ne m ρ c main_arg16 (by decide)).trans <|
  (W17_of m ρ c main_arg16 (by decide)).trans <|
  (W16_of_ne m ρ c main_arg16 (by decide)).trans <|
  (W15_of m ρ c main_arg16 (by decide)).trans <|
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans rfl

/-- `main_arg17` reaches the end as launched. -/
theorem W23_main_arg17 (c : Dev nD) : W23 m ρ c (Proc.devRef .tc main_arg17) = m ((c : Thread nD τ).loc main_arg17) :=
  (W23_of_ne m ρ c main_arg17 (by decide)).trans <|
  (W22_of m ρ c main_arg17 (by decide)).trans <|
  (W21_of_ne m ρ c main_arg17 (by decide)).trans <|
  (W20_of_ne m ρ c main_arg17 (by decide)).trans <|
  (W19_of m ρ c main_arg17 (by decide)).trans <|
  (W18_of_ne m ρ c main_arg17 (by decide)).trans <|
  (W17_of m ρ c main_arg17 (by decide)).trans <|
  (W16_of_ne m ρ c main_arg17 (by decide)).trans <|
  (W15_of m ρ c main_arg17 (by decide)).trans <|
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of_ne m ρ c main_arg17 (by decide)).trans <|
  (W3_of m ρ c main_arg17 (by decide)).trans <|
  (W2_of_ne m ρ c main_arg17 (by decide)).trans <|
  (W1_of m ρ c main_arg17 (by decide)).trans rfl

/-- The result is what region 11 leaves in its output window. -/
theorem W23_result (c : Dev nD) : W23 m ρ c (Proc.devRef .tc main_v306) = (dat11 (V22 m ρ) c).arrAt 3 cfg11.N :=
  W23_arr m ρ c 3

/-- The frame: the run ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs (onTc (τ := τ) (main (F := F))) ⟨m, fun _ => 0, ρ⟩).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c)⟩) (run_all m ρ)

end Cert.KernelIdeal.Hand

end
-- ==== Proof.KI.Reg2Pay.lean ====
import proofs.«402460_j82824149336546_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! # One graph-convolution step with a virtual node, entry by entry, at the ideal values

A tile of 2000 node rows `x` is multiplied by the weight matrix, shifted by the bias, normalised by the
running mean and variance, scaled, shifted and clamped at zero; every node then receives the row of the
virtual node of its graph (the one-hot matrix `oh` times the virtual-node table `vn`); and the rows of the
tile are summed per graph onto a running table (`oh` transposed times the new rows). The three matrix
products are read here as explicit finite sums, the broadcast rows at their one row. -/

/-- The variance guard of the normalisation: the word the kernel adds to the variance. -/
abbrev eps2 : EReal := Ideal.ofBits .f32 0x3727C5AC#32

/-- One entry normalised, scaled, shifted and clamped at zero. -/
def normRelu2 (x mean var gamma beta : EReal) : EReal :=
  max (gamma * (x - mean) * Ideal.rsqrt (var + eps2) + beta) 0

/-! ## The three matrix products: which operand entries meet at a contraction position -/

theorem mmXW2_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmXW2_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mmXW2_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mmXW2_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile times the weights: entry (p, q) is the sum over the 128 input features. -/
theorem mmXW2_apply (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ j : Fin 128, x (ix2 p j) * w (ix2 j q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mmXW2_lhs_0 _ _
    | ⟨1, _⟩ => exact (mmXW2_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mmXW2_rhs_0 _ _).trans hk
    | ⟨1, _⟩ => exact mmXW2_rhs_1 _ _)
  rw [el, er]

/-! ## The broadcast rows and the pointwise pieces -/

/-- A [1,128] row broadcast down the 2000 rows of a tile reads its one row. -/
theorem bcastRow2_apply (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-- The reciprocal square root of a vector, at an index. -/
theorem rsqrt2_apply {s : Shape} {φ : FTy} (a : FVec Ideal s φ) (i : s.Idx) : rsqrt a i = Ideal.rsqrt (a i) := rfl

/-- The first payload: a tile of the normalised, clamped linear layer. -/
theorem kpay2_4_apply (x : Vec Ideal S2000x128 .f32) (w : Vec Ideal S128x128 .f32) (b var gamma mean beta : Vec Ideal S1x128 .f32)
    (p : Fin 2000) (q : Fin 128) :
    k2_pay4 x w b var gamma mean beta (ix2 p q)
      = normRelu2 ((∑ j : Fin 128, x (ix2 p j) * w (ix2 j q)) + b (ix2 0 q)) (mean (ix2 0 q)) (var (ix2 0 q)) (gamma (ix2 0 q)) (beta (ix2 0 q)) := by
  unfold k2_pay4 normRelu2
  simp only [shapeCast_self, maximumf_apply, addf_apply, mulf_apply, subf_apply, broadcast_apply, bcastRow2_apply, rsqrt2_apply,
    mmXW2_apply, truncf_apply, Ideal.ofBits_def, Ideal.ofBits_zero_f32]

/-! ## The one-hot products -/

theorem mmOV2_lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem mmOV2_lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem mmOV2_rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem mmOV2_rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The one-hot tile times the virtual-node table: entry (p, q) is the sum over the 512 graphs. -/
theorem mmOV2_apply (o : FVec Ideal S2000x512 .bf16) (v : FVec Ideal S512x128 .bf16) (p : Fin 2000) (q : Fin 128) :
    matmul dot_S2000x512_S512x128_S2000x128_1_0_0_1_n_n none o v (constant S2000x128 .f32 0x00000000#32) (ix2 p q)
      = ∑ g : Fin 512, o (ix2 p g) * v (ix2 g q) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact mmOV2_lhs_0 _ _
    | ⟨1, _⟩ => exact (mmOV2_lhs_1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (mmOV2_rhs_0 _ _).trans hk
    | ⟨1, _⟩ => exact mmOV2_rhs_1 _ _)
  rw [el, er]

theorem mmOtH2_lhs_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem mmOtH2_lhs_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem mmOtH2_rhs_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem mmOtH2_rhs_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The one-hot tile transposed times the tile's new rows: entry (g, q) is the sum over the tile's 2000 rows. -/
theorem mmOtH2_apply (o : FVec Ideal S2000x512 .bf16) (h : FVec Ideal S2000x128 .bf16) (g : Fin 512) (q : Fin 128) :
    matmul dot_S2000x512_S2000x128_S512x128_0_0_1_1_n_n none o h (constant S512x128 .f32 0x00000000#32) (ix2 g q)
      = ∑ r : Fin 2000, o (ix2 r g) * h (ix2 r q) := by
  simp only [matmul]
  rw [Ideal.matmul_constant_zero_apply, ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g q) ((contrEquiv1 dot_S2000x512_S2000x128_S512x128_0_0_1_1_n_n 2000 rfl rfl).symm k) = ix2 k g := funext fun a => Fin.ext (by
    match a with
    | ⟨0, _⟩ => exact (mmOtH2_lhs_0 _ _).trans hk
    | ⟨1, _⟩ => exact mmOtH2_lhs_1 _ _)
  have er : dot_S2000x512_S2000x128_S512x128_0_0_1_1_n_n.rhsIdx (ix2 g q) ((contrEquiv1 dot_S2000x512_S2000x128_S512x128_0_0_1_1_n_n 2000 rfl rfl).symm k) = ix2 k q := funext fun a => Fin.ext (by
    match a with
    | ⟨0, _⟩ => exact (mmOtH2_rhs_0 _ _).trans hk
    | ⟨1, _⟩ => exact mmOtH2_rhs_1 _ _)
  rw [el, er]

/-- The second payload: the tile's new rows — the clamped layer plus each node's virtual-node row. -/
theorem kpay2_1_apply (a : FVec Ideal S2000x128 .f32) (o : FVec Ideal S2000x512 .bf16) (vn : Vec Ideal S512x128 .f32) (p : Fin 2000) (q : Fin 128) :
    k2_pay1 a o vn (ix2 p q) = a (ix2 p q) + ∑ g : Fin 512, o (ix2 p g) * vn (ix2 g q) := by
  unfold k2_pay1
  simp only [shapeCast_self, addf_apply, mmOV2_apply, truncf_apply]

/-- The third payload: the running per-graph table plus the tile's rows summed per graph. -/
theorem kpay2_2_apply (a : FVec Ideal S2000x128 .f32) (o : FVec Ideal S2000x512 .bf16) (vn : Vec Ideal S512x128 .f32) (acc : Vec Ideal S512x128 .f32)
    (g : Fin 512) (q : Fin 128) :
    k2_pay2 a o vn acc (ix2 g q) = acc (ix2 g q) + ∑ r : Fin 2000, o (ix2 r g) * k2_pay1 a o vn (ix2 r q) := by
  unfold k2_pay2
  simp only [shapeCast_self, addf_apply, mmOtH2_apply, truncf_apply]

/-- The table a run starts from: zero everywhere. -/
theorem kpay2_3_apply (i : S512x128.Idx) : k2_pay3 (F := Ideal) i = 0 := by
  unfold k2_pay3
  simp only [shapeCast_self, broadcast_apply, Ideal.ofBits_def, Ideal.ofBits_zero_f32]

/-- The one-hot tile is passed on as loaded. -/
theorem kpay2_5_eq (o : Vec Ideal S2000x512 .bf16) : k2_pay5 o = o := by
  unfold k2_pay5
  simp only [shapeCast_self]

/-! ## The step over all 50000 nodes -/

/-- The new feature `k` of node `n`: the normalised, clamped linear layer of the node's old features plus the
    virtual-node row of the node's graph. -/
def hnew2 (hp : Vec Ideal S50000x128 .f32) (W : Vec Ideal S128x128 .f32) (b mean var gamma beta : Vec Ideal S1x128 .f32)
    (oh : Vec Ideal S50000x512 .bf16) (vn : Vec Ideal S512x128 .f32) (n : Fin 50000) (k : Fin 128) : EReal :=
  normRelu2 ((∑ j : Fin 128, hp (ix2 n j) * W (ix2 j k)) + b (ix2 0 k)) (mean (ix2 0 k)) (var (ix2 0 k)) (gamma (ix2 0 k)) (beta (ix2 0 k))
    + ∑ g : Fin 512, oh (ix2 n g) * vn (ix2 g k)

/-- The new node features as one array. -/
def G2_9 (hp : Vec Ideal S50000x128 .f32) (W : Vec Ideal S128x128 .f32) (b mean var gamma beta : Vec Ideal S1x128 .f32)
    (oh : Vec Ideal S50000x512 .bf16) (vn : Vec Ideal S512x128 .f32) : S50000x128.Idx → EReal :=
  fun i => hnew2 hp W b mean var gamma beta oh vn (i 0) (i 1)

/-- The new node features summed per graph: entry (g, k) adds feature `k` of every node of graph `g`. -/
def G2_10 (hp : Vec Ideal S50000x128 .f32) (W : Vec Ideal S128x128 .f32) (b mean var gamma beta : Vec Ideal S1x128 .f32)
    (oh : Vec Ideal S50000x512 .bf16) (vn : Vec Ideal S512x128 .f32) : S512x128.Idx → EReal :=
  fun i => ∑ n : Fin 50000, oh (ix2 n (i 0)) * hnew2 hp W b mean var gamma beta oh vn n (i 1)

/-- Row `r` of tile `i` among the 50000 node rows. -/
def tileRow2 (i : Fin 25) (r : Fin 2000) : Fin 50000 :=
  ⟨2000 * i.val + r.val, by have := i.isLt; have := r.isLt; omega⟩

/-- Summing tile by tile, and inside a tile row by row, is summing over all the rows. -/
theorem sum_tiles2 {M : Type*} [AddCommMonoid M] (f : Fin 50000 → M) :
    ∑ i : Fin 25, ∑ r : Fin 2000, f (tileRow2 i r) = ∑ n : Fin 50000, f n := by
  have e := Equiv.sum_comp (finProdFinEquiv (m := 25) (n := 2000)) (fun y : Fin (25 * 2000) => f y)
  rw [Fintype.sum_prod_type] at e
  refine Eq.trans (Finset.sum_congr rfl fun i _ => Finset.sum_congr rfl fun r _ => ?_) e
  refine congrArg f (Fin.ext ?_)
  show 2000 * i.val + r.val = r.val + 2000 * i.val
  omega

end Cert.KernelIdeal.Hand

end
-- ==== Proof.KI.Reg2Value.lean ====
import proofs.«402460_j82824149336546_1_alg».proof.Proof.KI.Reg2
import proofs.«402460_j82824149336546_1_alg».proof.Proof.KI.Reg2Pay
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

/-! # Region 2's two results as functions of its nine input arrays, at the ideal values

The 25 grid points each take one tile of 2000 node rows. Every point stores the tile's new rows into the first
result, so the 25 tiles make up the whole [50000,128] array. A running [512,128] table, zeroed at the first point,
gathers the tile's rows summed per graph at every point and is copied into the second result at the last point:
the second result is the sum over all 50000 nodes. -/

theorem hz2 : (![0, 0] : Fin 2 → Nat) = fun _ => 0 := funext fun a => by fin_cases a <;> rfl

/-! ## What each case of the body leaves, as the payloads of the buffers' contents -/

section Pieces
variable {F : FTy → Type} [FloatOps F]

/-- At the first point the first output's buffer is left holding the tile's new rows. -/
theorem out2_A_9_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    out2_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k2_pay1 (k2_pay4 x0 x1 x2 x4 x5 x3 x6) (k2_pay5 x7) x8 := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun2_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

/-- At a middle point likewise. -/
theorem out2_B_9_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    out2_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k2_pay1 (k2_pay4 x0 x1 x2 x4 x5 x3 x6) (k2_pay5 x7) x8 := by
  unfold out2_B_9
  rw [View.read_writes_eq_canon _ _ _ (cover2_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

/-- At the last point likewise. -/
theorem out2_C_9_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    out2_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k2_pay1 (k2_pay4 x0 x1 x2 x4 x5 x3 x6) (k2_pay5 x7) x8 := by
  unfold out2_C_9
  rw [View.read_writes_eq_canon _ _ _ (cover2_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun2_C
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

/-- At the first point the running table is zeroed, then the tile's per-graph sums are added onto it. -/
theorem sout2_A_0_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    sout2_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k2_pay2 (k2_pay4 x0 x1 x2 x4 x5 x3 x6) (k2_pay5 x7) x8 k2_pay3 := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun2_A
  dsimp only
  try sl_unfold_words
  rw [View.canon_cons_unit_zero (S := S512x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

/-- At a middle point the tile's per-graph sums are added onto what the running table held. -/
theorem sout2_B_0_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : ¬cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    sout2_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k2_pay2 (k2_pay4 x0 x1 x2 x4 x5 x3 x6) (k2_pay5 x7) x8 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

/-- At the last point likewise, -/
theorem sout2_C_0_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    sout2_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k2_pay2 (k2_pay4 x0 x1 x2 x4 x5 x3 x6) (k2_pay5 x7) x8 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun2_C
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

/-- and the second output's buffer is left holding the running table just updated. -/
theorem out2_C_10_eq (c : Dev nD) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond2_0 i) (hc1 : cond2_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    out2_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k2_pay2 (k2_pay4 x0 x1 x2 x4 x5 x3 x6) (k2_pay5 x7) x8 xs0 := by
  unfold out2_C_10
  rw [View.read_writes_eq_canon _ _ _ (cover2_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun2_C
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S128x128) hz2, View.ld_unit_zero (S := S1x128) hz2, View.ld_unit_zero (S := S2000x512) hz2, View.ld_unit_zero (S := S512x128) hz2, View.readCov_unit_zero (S := S512x128) _ hz2]

end Pieces

/-! ## What the buffers hold after each point, in the payloads of the point's blocks -/

section Components
variable {F : FTy → Type} [FloatOps F]
variable (V : (c : Dev nD) → (b : Ref sig .tc) → Buf (Elt F) ((c : Thread nD τ).loc b))

/-- The clamped, normalised linear layer of the tile point `t` stages. -/
def act2 (c : Dev nD) (t : Fin cfg2.N) : FVec F S2000x128 .f32 :=
  k2_pay4 (iblk2 V c 0 t) (iblk2 V c 1 t) (iblk2 V c 2 t) (iblk2 V c 4 t) (iblk2 V c 5 t) (iblk2 V c 3 t) (iblk2 V c 6 t)

/-- The new rows of that tile. -/
def rows2 (c : Dev nD) (t : Fin cfg2.N) : FVec F S2000x128 .f32 :=
  k2_pay1 (act2 V c t) (k2_pay5 (iblk2 V c 7 t)) (iblk2 V c 8 t)

/-- The running per-graph table after the tile's rows are added onto `acc`. -/
def upd2 (c : Dev nD) (t : Fin cfg2.N) (acc : Vec F S512x128 .f32) : FVec F S512x128 .f32 :=
  k2_pay2 (act2 V c t) (k2_pay5 (iblk2 V c 7 t)) (iblk2 V c 8 t) acc

/-- After every point the first output's buffer holds the tile's new rows. -/
theorem outs2_rows (c : Dev nD) (t : Fin cfg2.N) : (outsAt2 V c t.val t.isLt).1 = rows2 V c t := by
  unfold rows2 act2
  by_cases h0 : t.val = 0
  · rw [outsAt2_A V c t h0]
    dsimp only
    exact out2_A_9_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t)
  · by_cases h1 : t.val = 24
    · rw [outsAt2_C V c t h0 h1]
      dsimp only
      exact out2_C_9_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2
    · rw [outsAt2_B V c t h0 h1]
      dsimp only
      exact out2_B_9_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2

/-- After the first point the running table is the first tile's sums over the zero table. -/
theorem outs2_table_first (c : Dev nD) (t : Fin cfg2.N) (h0 : t.val = 0) :
    (outsAt2 V c t.val t.isLt).2.2 = upd2 V c t k2_pay3 := by
  unfold upd2 act2
  rw [outsAt2_A V c t h0]
  dsimp only
  exact sout2_A_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hA2_0 t h0) (hA2_1 t h0) (iblk2 V c 0 t) (iblk2 V c 1 t) (iblk2 V c 2 t) (iblk2 V c 3 t) (iblk2 V c 4 t) (iblk2 V c 5 t) (iblk2 V c 6 t) (iblk2 V c 7 t) (iblk2 V c 8 t)

/-- After a later point it is that point's tile's sums over what the point before left. -/
theorem outs2_table_next (c : Dev nD) (t : Fin cfg2.N) (h0 : t.val ≠ 0) :
    (outsAt2 V c t.val t.isLt).2.2 = upd2 V c t (outsAt2 V c (t.val - 1) (Nat.lt_of_le_of_lt (Nat.sub_le _ _) t.isLt)).2.2 := by
  unfold upd2 act2
  by_cases h1 : t.val = 24
  · rw [outsAt2_C V c t h0 h1]
    dsimp only
    exact sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2
  · rw [outsAt2_B V c t h0 h1]
    dsimp only
    exact sout2_B_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hB2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2

/-- After the last point the second output's buffer holds the running table. -/
theorem outs2_second_last (c : Dev nD) (t : Fin cfg2.N) (h1 : t.val = 24) :
    (outsAt2 V c t.val t.isLt).2.1 = (outsAt2 V c t.val t.isLt).2.2 := by
  have h0 : t.val ≠ 0 := by omega
  rw [outsAt2_C V c t h0 h1]
  dsimp only
  exact (out2_C_10_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2).trans
    (sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (hB2_0 t h0) (hC2_1 t h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2).symm

end Components

/-! ## Where each window's block sits in its array -/

/-- The tile a grid point stages, among the 25. -/
def tile2 (t : Fin cfg2.N) : Fin 25 := ⟨t.val, lt_of_lt_of_eq t.isLt N_2⟩

/-- The block indices of the eleven windows, decided over the grid: the node rows, the one-hot rows and the first
    result move with the point; the weights, the five one-row parameters, the virtual-node table and the second
    result stay at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0
    ∧ win2_10.index t (0 : Fin 2) = 0 ∧ win2_10.index t (1 : Fin 2) = 0 :=
  (by decide +kernel : ∀ t : Fin grid2.N, _)

/-- The node-feature block of point `t` is tile `t`'s rows, at its own columns. -/
theorem emb2_0 (t : Fin cfg2.N) (p : Fin 2000) (j : Fin 128) :
    ((cfg2.win 0).blk t).view.emb (ix2 p j) = ix2 (tileRow2 (tile2 t) p) j := by
  obtain ⟨e0, e1, -⟩ := idx_facts2 t
  funext a; apply Fin.ext
  match a with
  | ⟨0, _⟩ => show win2_0.index t (0 : Fin 2) * 2000 + 1 * p.val = 2000 * t.val + p.val; omega
  | ⟨1, _⟩ => show win2_0.index t (1 : Fin 2) * 128 + 1 * j.val = j.val; omega

/-- The weights' one block is the whole array. -/
theorem emb2_1 (t : Fin cfg2.N) (a b : Fin 128) : ((cfg2.win 1).blk t).view.emb (ix2 a b) = ix2 a b := by
  obtain ⟨-, -, e0, e1, -⟩ := idx_facts2 t
  funext x; apply Fin.ext
  match x with
  | ⟨0, _⟩ => show win2_1.index t (0 : Fin 2) * 128 + 1 * a.val = a.val; omega
  | ⟨1, _⟩ => show win2_1.index t (1 : Fin 2) * 128 + 1 * b.val = b.val; omega

/-- Window 2's one block is its whole one-row array. -/
theorem emb2_2 (t : Fin cfg2.N) (b : Fin 128) : ((cfg2.win 2).blk t).view.emb (ix2 (0 : Fin 1) b) = ix2 (0 : Fin 1) b := by
  obtain ⟨-, -, -, -, e0, e1, -⟩ := idx_facts2 t
  funext x; apply Fin.ext
  match x with
  | ⟨0, _⟩ => show win2_2.index t (0 : Fin 2) * 1 + 1 * (0 : Fin 1).val = (0 : Fin 1).val; simp only [Fin.val_zero]; omega
  | ⟨1, _⟩ => show win2_2.index t (1 : Fin 2) * 128 + 1 * b.val = b.val; omega

/-- Window 3's one block is its whole one-row array. -/
theorem emb2_3 (t : Fin cfg2.N) (b : Fin 128) : ((cfg2.win 3).blk t).view.emb (ix2 (0 : Fin 1) b) = ix2 (0 : Fin 1) b := by
  obtain ⟨-, -, -, -, -, -, e0, e1, -⟩ := idx_facts2 t
  funext x; apply Fin.ext
  match x with
  | ⟨0, _⟩ => show win2_3.index t (0 : Fin 2) * 1 + 1 * (0 : Fin 1).val = (0 : Fin 1).val; simp only [Fin.val_zero]; omega
  | ⟨1, _⟩ => show win2_3.index t (1 : Fin 2) * 128 + 1 * b.val = b.val; omega

/-- Window 4's one block is its whole one-row array. -/
theorem emb2_4 (t : Fin cfg2.N) (b : Fin 128) : ((cfg2.win 4).blk t).view.emb (ix2 (0 : Fin 1) b) = ix2 (0 : Fin 1) b := by
  obtain ⟨-, -, -, -, -, -, -, -, e0, e1, -⟩ := idx_facts2 t
  funext x; apply Fin.ext
  match x with
  | ⟨0, _⟩ => show win2_4.index t (0 : Fin 2) * 1 + 1 * (0 : Fin 1).val = (0 : Fin 1).val; simp only [Fin.val_zero]; omega
  | ⟨1, _⟩ => show win2_4.index t (1 : Fin 2) * 128 + 1 * b.val = b.val; omega

/-- Window 5's one block is its whole one-row array. -/
theorem emb2_5 (t : Fin cfg2.N) (b : Fin 128) : ((cfg2.win 5).blk t).view.emb (ix2 (0 : Fin 1) b) = ix2 (0 : Fin 1) b := by
  obtain ⟨-, -, -, -, -, -, -, -, -, -, e0, e1, -⟩ := idx_facts2 t
  funext x; apply Fin.ext
  match x with
  | ⟨0, _⟩ => show win2_5.index t (0 : Fin 2) * 1 + 1 * (0 : Fin 1).val = (0 : Fin 1).val; simp only [Fin.val_zero]; omega
  | ⟨1, _⟩ => show win2_5.index t (1 : Fin 2) * 128 + 1 * b.val = b.val; omega

/-- Window 6's one block is its whole one-row array. -/
theorem emb2_6 (t : Fin cfg2.N) (b : Fin 128) : ((cfg2.win 6).blk t).view.emb (ix2 (0 : Fin 1) b) = ix2 (0 : Fin 1) b := by
  obtain ⟨-, -, -, -, -, -, -, -, -, -, -, -, e0, e1, -⟩ := idx_facts2 t
  funext x; apply Fin.ext
  match x with
  | ⟨0, _⟩ => show win2_6.index t (0 : Fin 2) * 1 + 1 * (0 : Fin 1).val = (0 : Fin 1).val; simp only [Fin.val_zero]; omega
  | ⟨1, _⟩ => show win2_6.index t (1 : Fin 2) * 128 + 1 * b.val = b.val; omega

/-- The one-hot block of point `t` is tile `t`'s rows, at its own columns. -/
theorem emb2_7 (t : Fin cfg2.N) (p : Fin 2000) (g : Fin 512) :
    ((cfg2.win 7).blk t).view.emb (ix2 p g) = ix2 (tileRow2 (tile2 t) p) g := by
  obtain ⟨-, -, -, -, -, -, -, -, -, -, -, -, -, -, e0, e1, -⟩ := idx_facts2 t
  funext a; apply Fin.ext
  match a with
  | ⟨0, _⟩ => show win2_7.index t (0 : Fin 2) * 2000 + 1 * p.val = 2000 * t.val + p.val; omega
  | ⟨1, _⟩ => show win2_7.index t (1 : Fin 2) * 512 + 1 * g.val = g.val; omega

/-- The virtual-node table's one block is the whole array. -/
theorem emb2_8 (t : Fin cfg2.N) (g : Fin 512) (k : Fin 128) : ((cfg2.win 8).blk t).view.emb (ix2 g k) = ix2 g k := by
  obtain ⟨-, -, -, -, -, -, -, -, -, -, -, -, -, -, -, -, e0, e1, -⟩ := idx_facts2 t
  funext x; apply Fin.ext
  match x with
  | ⟨0, _⟩ => show win2_8.index t (0 : Fin 2) * 512 + 1 * g.val = g.val; omega
  | ⟨1, _⟩ => show win2_8.index t (1 : Fin 2) * 128 + 1 * k.val = k.val; omega

/-- The first result's block of point `t` is tile `t`'s rows. -/
theorem emb2_9 (t : Fin cfg2.N) (p : Fin 2000) (q : Fin 128) :
    ((cfg2.win 9).blk t).view.emb (ix2 p q) = ix2 (tileRow2 (tile2 t) p) q := by
  obtain ⟨-, -, -, -, -, -, -, -, -, -, -, -, -, -, -, -, -, -, e0, e1, -⟩ := idx_facts2 t
  funext a; apply Fin.ext
  match a with
  | ⟨0, _⟩ => show win2_9.index t (0 : Fin 2) * 2000 + 1 * p.val = 2000 * t.val + p.val; omega
  | ⟨1, _⟩ => show win2_9.index t (1 : Fin 2) * 128 + 1 * q.val = q.val; omega

/-- The second result's one block is the whole array. -/
theorem emb2_10 (t : Fin cfg2.N) (g : Fin 512) (q : Fin 128) : ((cfg2.win 10).blk t).view.emb (ix2 g q) = ix2 g q := by
  obtain ⟨-, -, -, -, -, -, -, -, -, -, -, -, -, -, -, -, -, -, -, -, e0, e1⟩ := idx_facts2 t
  funext x; apply Fin.ext
  match x with
  | ⟨0, _⟩ => show win2_10.index t (0 : Fin 2) * 512 + 1 * g.val = g.val; omega
  | ⟨1, _⟩ => show win2_10.index t (1 : Fin 2) * 128 + 1 * q.val = q.val; omega

/-! ## The results' blocks in their arrays -/

/-- An index of the first result is in point `t`'s block iff each coordinate is in the block's range on its axis. -/
theorem mem_blk2_9 (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v153_0).slice (win2_9.rect t)).set ↔ _
  rw [View.set_slice_whole, Rect.mem_set_unit]
  exact Iff.rfl

/-- Every row of the first result is in the block of the point that stages its tile. -/
theorem covered2_9 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  let t : Fin cfg2.N := ⟨(i 0).val / 2000, by omega⟩
  obtain ⟨-, -, -, -, -, -, -, -, -, -, -, -, -, -, -, -, -, -, e0, e1, -⟩ := idx_facts2 t
  have ht : t.val = (i 0).val / 2000 := rfl
  refine ⟨t, flush2_9 t, ?_⟩
  rw [mem_blk2_9]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

/-- An index of the second result is in point `t`'s block iff each coordinate is in the block's range on its axis. -/
theorem mem_blk2_10 (t : Fin cfg2.N) (i : S512x128.Idx) :
    i ∈ ((cfg2.win 10).blk t).view.set ↔ ∀ a : Fin 2, win2_10.index t a * S512x128.size a ≤ (i a).val ∧ (i a).val < win2_10.index t a * S512x128.size a + S512x128.size a := by
  show i ∈ ((View.whole main_v153_1).slice (win2_10.rect t)).set ↔ _
  rw [View.set_slice_whole, Rect.mem_set_unit]
  exact Iff.rfl

/-- The last point's block of the second result is the whole array. -/
theorem covered2_10 (i : S512x128.Idx) : ∃ t : Fin cfg2.N, (cfg2.win 10).flush t = true ∧ i ∈ ((cfg2.win 10).blk t).view.set := by
  have hi0 : (i 0).val < 512 := (i 0).isLt
  have hi1 : (i 1).val < 128 := (i 1).isLt
  have hN : cfg2.N = 25 := N_2
  let t : Fin cfg2.N := ⟨24, by omega⟩
  obtain ⟨-, -, -, -, -, -, -, -, -, -, -, -, -, -, -, -, -, -, -, -, e0, e1⟩ := idx_facts2 t
  refine ⟨t, (flush2_10 t).mpr rfl, ?_⟩
  rw [mem_blk2_10]
  intro a
  match a with
  | ⟨0, _⟩ => show win2_10.index t (0 : Fin 2) * 512 ≤ (i 0).val ∧ (i 0).val < win2_10.index t (0 : Fin 2) * 512 + 512; omega
  | ⟨1, _⟩ => show win2_10.index t (1 : Fin 2) * 128 ≤ (i 1).val ∧ (i 1).val < win2_10.index t (1 : Fin 2) * 128 + 128; omega

/-! ## The payloads of blocks that are restrictions of the arrays -/

/-- The new rows of a tile whose blocks are the arrays' restrictions: row `p` is node `n`'s new features. -/
theorem rows_of_blocks2 (x0 : Vec Ideal S2000x128 .f32) (x1 : Vec Ideal S128x128 .f32) (x2 : Vec Ideal S1x128 .f32) (x3 : Vec Ideal S1x128 .f32) (x4 : Vec Ideal S1x128 .f32) (x5 : Vec Ideal S1x128 .f32) (x6 : Vec Ideal S1x128 .f32) (x7 : Vec Ideal S2000x512 .bf16) (x8 : Vec Ideal S512x128 .f32)
    (A0 : Vec Ideal S50000x128 .f32) (A1 : Vec Ideal S128x128 .f32) (A2 : Vec Ideal S1x128 .f32) (A3 : Vec Ideal S1x128 .f32) (A4 : Vec Ideal S1x128 .f32) (A5 : Vec Ideal S1x128 .f32) (A6 : Vec Ideal S1x128 .f32) (A7 : Vec Ideal S50000x512 .bf16) (A8 : Vec Ideal S512x128 .f32) (n : Fin 50000) (p : Fin 2000) (q : Fin 128)
    (h0 : ∀ j : Fin 128, x0 (ix2 p j) = A0 (ix2 n j)) (h1 : ∀ a b : Fin 128, x1 (ix2 a b) = A1 (ix2 a b))
    (h2 : ∀ b : Fin 128, x2 (ix2 (0 : Fin 1) b) = A2 (ix2 (0 : Fin 1) b)) (h3 : ∀ b : Fin 128, x3 (ix2 (0 : Fin 1) b) = A3 (ix2 (0 : Fin 1) b)) (h4 : ∀ b : Fin 128, x4 (ix2 (0 : Fin 1) b) = A4 (ix2 (0 : Fin 1) b)) (h5 : ∀ b : Fin 128, x5 (ix2 (0 : Fin 1) b) = A5 (ix2 (0 : Fin 1) b)) (h6 : ∀ b : Fin 128, x6 (ix2 (0 : Fin 1) b) = A6 (ix2 (0 : Fin 1) b))
    (h7 : ∀ g : Fin 512, x7 (ix2 p g) = A7 (ix2 n g)) (h8 : ∀ (g : Fin 512) (k : Fin 128), x8 (ix2 g k) = A8 (ix2 g k)) :
    k2_pay1 (k2_pay4 x0 x1 x2 x4 x5 x3 x6) (k2_pay5 x7) x8 (ix2 p q) = hnew2 A0 A1 A2 A3 A4 A5 A6 A7 A8 n q := by
  unfold hnew2
  rw [kpay2_1_apply, kpay2_4_apply, kpay2_5_eq]
  simp only [h0, h1, h2, h3, h4, h5, h6, h7, h8]

/-- The running table after a tile whose blocks are the arrays' restrictions: each entry gains the tile's rows of
    that graph. -/
theorem table_of_blocks2 (x0 : Vec Ideal S2000x128 .f32) (x1 : Vec Ideal S128x128 .f32) (x2 : Vec Ideal S1x128 .f32) (x3 : Vec Ideal S1x128 .f32) (x4 : Vec Ideal S1x128 .f32) (x5 : Vec Ideal S1x128 .f32) (x6 : Vec Ideal S1x128 .f32) (x7 : Vec Ideal S2000x512 .bf16) (x8 : Vec Ideal S512x128 .f32) (acc : Vec Ideal S512x128 .f32)
    (A0 : Vec Ideal S50000x128 .f32) (A1 : Vec Ideal S128x128 .f32) (A2 : Vec Ideal S1x128 .f32) (A3 : Vec Ideal S1x128 .f32) (A4 : Vec Ideal S1x128 .f32) (A5 : Vec Ideal S1x128 .f32) (A6 : Vec Ideal S1x128 .f32) (A7 : Vec Ideal S50000x512 .bf16) (A8 : Vec Ideal S512x128 .f32) (i : Fin 25) (g : Fin 512) (q : Fin 128)
    (h0 : ∀ (p : Fin 2000) (j : Fin 128), x0 (ix2 p j) = A0 (ix2 (tileRow2 i p) j)) (h1 : ∀ a b : Fin 128, x1 (ix2 a b) = A1 (ix2 a b))
    (h2 : ∀ b : Fin 128, x2 (ix2 (0 : Fin 1) b) = A2 (ix2 (0 : Fin 1) b)) (h3 : ∀ b : Fin 128, x3 (ix2 (0 : Fin 1) b) = A3 (ix2 (0 : Fin 1) b)) (h4 : ∀ b : Fin 128, x4 (ix2 (0 : Fin 1) b) = A4 (ix2 (0 : Fin 1) b)) (h5 : ∀ b : Fin 128, x5 (ix2 (0 : Fin 1) b) = A5 (ix2 (0 : Fin 1) b)) (h6 : ∀ b : Fin 128, x6 (ix2 (0 : Fin 1) b) = A6 (ix2 (0 : Fin 1) b))
    (h7 : ∀ (p : Fin 2000) (g : Fin 512), x7 (ix2 p g) = A7 (ix2 (tileRow2 i p) g)) (h8 : ∀ (g : Fin 512) (k : Fin 128), x8 (ix2 g k) = A8 (ix2 g k)) :
    k2_pay2 (k2_pay4 x0 x1 x2 x4 x5 x3 x6) (k2_pay5 x7) x8 acc (ix2 g q)
      = acc (ix2 g q) + ∑ r : Fin 2000, A7 (ix2 (tileRow2 i r) g) * hnew2 A0 A1 A2 A3 A4 A5 A6 A7 A8 (tileRow2 i r) q := by
  rw [kpay2_2_apply]
  refine congrArg (acc (ix2 g q) + ·) (Finset.sum_congr rfl fun r _ => ?_)
  rw [rows_of_blocks2 x0 x1 x2 x3 x4 x5 x6 x7 x8 A0 A1 A2 A3 A4 A5 A6 A7 A8 (tileRow2 i r) r q (fun j => h0 r j) h1 h2 h3 h4 h5 h6 (fun g => h7 r g) h8,
    kpay2_5_eq, h7]

/-! ## The blocks the points stage are the arrays' restrictions -/

section AtIdeal
variable (V : (c : Dev nD) → (b : Ref sig .tc) → Buf (Elt Ideal) ((c : Thread nD τ).loc b))

/-- The one-hot array as the region finds it, at its literal type. -/
abbrev ohArr2 (c : Dev nD) : Vec Ideal S50000x512 .bf16 := V c main_v35

theorem blk2_0 (c : Dev nD) (t : Fin cfg2.N) (p : Fin 2000) (j : Fin 128) :
    (iblk2 V c 0 t : Vec Ideal S2000x128 .f32) (ix2 p j) = (V c main_v120 : Vec Ideal S50000x128 .f32) (ix2 (tileRow2 (tile2 t) p) j) :=
  congrArg (V c main_v120 : S50000x128.Idx → EReal) (emb2_0 t p j)
theorem blk2_1 (c : Dev nD) (t : Fin cfg2.N) (a b : Fin 128) :
    (iblk2 V c 1 t : Vec Ideal S128x128 .f32) (ix2 a b) = (V c main_v143 : Vec Ideal S128x128 .f32) (ix2 a b) :=
  congrArg (V c main_v143 : S128x128.Idx → EReal) (emb2_1 t a b)
theorem blk2_2 (c : Dev nD) (t : Fin cfg2.N) (b : Fin 128) :
    (iblk2 V c 2 t : Vec Ideal S1x128 .f32) (ix2 (0 : Fin 1) b) = (V c main_v146 : Vec Ideal S1x128 .f32) (ix2 (0 : Fin 1) b) :=
  congrArg (V c main_v146 : S1x128.Idx → EReal) (emb2_2 t b)
theorem blk2_3 (c : Dev nD) (t : Fin cfg2.N) (b : Fin 128) :
    (iblk2 V c 3 t : Vec Ideal S1x128 .f32) (ix2 (0 : Fin 1) b) = (V c main_v134 : Vec Ideal S1x128 .f32) (ix2 (0 : Fin 1) b) :=
  congrArg (V c main_v134 : S1x128.Idx → EReal) (emb2_3 t b)
theorem blk2_4 (c : Dev nD) (t : Fin cfg2.N) (b : Fin 128) :
    (iblk2 V c 4 t : Vec Ideal S1x128 .f32) (ix2 (0 : Fin 1) b) = (V c main_v141 : Vec Ideal S1x128 .f32) (ix2 (0 : Fin 1) b) :=
  congrArg (V c main_v141 : S1x128.Idx → EReal) (emb2_4 t b)
theorem blk2_5 (c : Dev nD) (t : Fin cfg2.N) (b : Fin 128) :
    (iblk2 V c 5 t : Vec Ideal S1x128 .f32) (ix2 (0 : Fin 1) b) = (V c main_v149 : Vec Ideal S1x128 .f32) (ix2 (0 : Fin 1) b) :=
  congrArg (V c main_v149 : S1x128.Idx → EReal) (emb2_5 t b)
theorem blk2_6 (c : Dev nD) (t : Fin cfg2.N) (b : Fin 128) :
    (iblk2 V c 6 t : Vec Ideal S1x128 .f32) (ix2 (0 : Fin 1) b) = (V c main_v152 : Vec Ideal S1x128 .f32) (ix2 (0 : Fin 1) b) :=
  congrArg (V c main_v152 : S1x128.Idx → EReal) (emb2_6 t b)
theorem blk2_7 (c : Dev nD) (t : Fin cfg2.N) (p : Fin 2000) (g : Fin 512) :
    (iblk2 V c 7 t : Vec Ideal S2000x512 .bf16) (ix2 p g) = (V c main_v35 : Vec Ideal S50000x512 .bf16) (ix2 (tileRow2 (tile2 t) p) g) :=
  congrArg (V c main_v35 : S50000x512.Idx → EReal) (emb2_7 t p g)
theorem blk2_8 (c : Dev nD) (t : Fin cfg2.N) (g : Fin 512) (k : Fin 128) :
    (iblk2 V c 8 t : Vec Ideal S512x128 .f32) (ix2 g k) = (V c main_v107 : Vec Ideal S512x128 .f32) (ix2 g k) :=
  congrArg (V c main_v107 : S512x128.Idx → EReal) (emb2_8 t g k)

/-! ## The first result: the 25 tiles of new rows -/

/-- Row `p` of the new rows of point `t`'s tile is the new features of node `2000 t + p`. -/
theorem rows2_apply (c : Dev nD) (t : Fin cfg2.N) (p : Fin 2000) (q : Fin 128) :
    rows2 V c t (ix2 p q) = hnew2 (V c main_v120) (V c main_v143) (V c main_v146) (V c main_v134) (V c main_v141) (V c main_v149) (V c main_v152) (V c main_v35) (V c main_v107) (tileRow2 (tile2 t) p) q := by
  unfold rows2 act2
  exact rows_of_blocks2 (iblk2 V c 0 t) (iblk2 V c 1 t) (iblk2 V c 2 t) (iblk2 V c 3 t) (iblk2 V c 4 t) (iblk2 V c 5 t) (iblk2 V c 6 t) (iblk2 V c 7 t) (iblk2 V c 8 t) (V c main_v120) (V c main_v143) (V c main_v146) (V c main_v134) (V c main_v141) (V c main_v149) (V c main_v152) (V c main_v35) (V c main_v107) (tileRow2 (tile2 t) p) p q (fun j => blk2_0 V c t p j) (blk2_1 V c t) (blk2_2 V c t) (blk2_3 V c t) (blk2_4 V c t) (blk2_5 V c t) (blk2_6 V c t) (fun g => blk2_7 V c t p g) (blk2_8 V c t)

/-- What point `t` writes back to the first result is block `t` of the closed form. -/
theorem flushed2_9_eq (c : Dev nD) (t : Fin cfg2.N) :
    (dat2 (F := Ideal) V c).flushed 9 t = ((cfg2.win 9).blk t).view.read (Elt Ideal) (G2_9 (V c main_v120) (V c main_v143) (V c main_v146) (V c main_v134) (V c main_v141) (V c main_v149) (V c main_v152) (V c main_v35) (V c main_v107)) := by
  show (cfg2.win 9).cut (grid2.coords t) ((dat2 (F := Ideal) V c).after 9 t) = _
  rw [after2_9, outs2_rows]
  funext j
  obtain ⟨p, q, rfl⟩ : ∃ (p : Fin 2000) (q : Fin 128), j = ix2 p q := ⟨j 0, j 1, eq_ix2 j⟩
  show rows2 V c t (ix2 p q) = G2_9 (V c main_v120) (V c main_v143) (V c main_v146) (V c main_v134) (V c main_v141) (V c main_v149) (V c main_v152) (V c main_v35) (V c main_v107) (((cfg2.win 9).blk t).view.emb (ix2 p q))
  rw [emb2_9, rows2_apply]
  rfl

/-- The first result after the region: every node's new features. -/
theorem final2_9 (c : Dev nD) : (dat2 (F := Ideal) V c).arrAt 9 cfg2.N = G2_9 (V c main_v120) (V c main_v143) (V c main_v146) (V c main_v134) (V c main_v141) (V c main_v149) (V c main_v152) (V c main_v35) (V c main_v107) :=
  (dat2 (F := Ideal) V c).arrAt_eq_of_cover 9 _ (fun t _ => flushed2_9_eq V c t) covered2_9

/-! ## The second result: the running table after the last point -/

/-- What tile `i` adds to entry (g, q) of the running table: the new feature `q` of the tile's nodes of graph `g`. -/
def tileSum2 (c : Dev nD) (g : Fin 512) (q : Fin 128) (i : Fin 25) : EReal :=
  ∑ r : Fin 2000, ohArr2 V c (ix2 (tileRow2 i r) g) * hnew2 (V c main_v120) (V c main_v143) (V c main_v146) (V c main_v134) (V c main_v141) (V c main_v149) (V c main_v152) (V c main_v35) (V c main_v107) (tileRow2 i r) q

/-- The same at a position that may lie past the grid, where it adds nothing. -/
def tileSumN2 (c : Dev nD) (g : Fin 512) (q : Fin 128) (i : ℕ) : EReal :=
  if h : i < 25 then tileSum2 V c g q ⟨i, h⟩ else 0

/-- The running table after point `t` gains tile `t`'s sums over `acc`. -/
theorem upd2_apply (c : Dev nD) (t : Fin cfg2.N) (acc : Vec Ideal S512x128 .f32) (g : Fin 512) (q : Fin 128) :
    upd2 V c t acc (ix2 g q) = acc (ix2 g q) + tileSum2 V c g q (tile2 t) := by
  unfold upd2 act2 tileSum2
  exact table_of_blocks2 (iblk2 V c 0 t) (iblk2 V c 1 t) (iblk2 V c 2 t) (iblk2 V c 3 t) (iblk2 V c 4 t) (iblk2 V c 5 t) (iblk2 V c 6 t) (iblk2 V c 7 t) (iblk2 V c 8 t) acc (V c main_v120) (V c main_v143) (V c main_v146) (V c main_v134) (V c main_v141) (V c main_v149) (V c main_v152) (V c main_v35) (V c main_v107) (tile2 t) g q (blk2_0 V c t) (blk2_1 V c t) (blk2_2 V c t) (blk2_3 V c t) (blk2_4 V c t) (blk2_5 V c t) (blk2_6 V c t) (blk2_7 V c t) (blk2_8 V c t)

/-- After point `n` the running table holds the sums of tiles 0 … n, added in the grid's order. -/
theorem table2_apply (c : Dev nD) (g : Fin 512) (q : Fin 128) (n : ℕ) : ∀ hn : n < cfg2.N,
    (outsAt2 V c n hn).2.2 (ix2 g q) = ∑ i ∈ Finset.range (n + 1), tileSumN2 V c g q i := by
  have hN : cfg2.N = 25 := N_2
  induction n with
  | zero =>
    intro hn
    refine (congrFun (outs2_table_first V c ⟨0, hn⟩ rfl) (ix2 g q)).trans ?_
    rw [upd2_apply, kpay2_3_apply, zero_add, Finset.sum_range_succ, Finset.sum_range_zero, zero_add]
    unfold tileSumN2
    have e : (if h : 0 < 25 then tileSum2 V c g q ⟨0, h⟩ else 0) = tileSum2 V c g q ⟨0, by omega⟩ := dif_pos (by omega)
    exact e.symm
  | succ n ih =>
    intro hn
    refine (congrFun (outs2_table_next V c ⟨n + 1, hn⟩ (Nat.succ_ne_zero n)) (ix2 g q)).trans ?_
    rw [upd2_apply, Finset.sum_range_succ]
    refine congrArg₂ (· + ·) (ih (Nat.lt_of_succ_lt hn)) ?_
    unfold tileSumN2
    have e : (if h : n + 1 < 25 then tileSum2 V c g q ⟨n + 1, h⟩ else 0) = tileSum2 V c g q ⟨n + 1, by omega⟩ := dif_pos (by omega)
    exact e.symm

/-- The sums of all 25 tiles are the sum over all 50000 nodes. -/
theorem all_tiles2 (c : Dev nD) (g : Fin 512) (q : Fin 128) :
    ∑ i ∈ Finset.range 25, tileSumN2 V c g q i
      = ∑ n : Fin 50000, ohArr2 V c (ix2 n g) * hnew2 (V c main_v120) (V c main_v143) (V c main_v146) (V c main_v134) (V c main_v141) (V c main_v149) (V c main_v152) (V c main_v35) (V c main_v107) n q := by
  refine Eq.trans ?_ (sum_tiles2 (fun n => ohArr2 V c (ix2 n g) * hnew2 (V c main_v120) (V c main_v143) (V c main_v146) (V c main_v134) (V c main_v141) (V c main_v149) (V c main_v152) (V c main_v35) (V c main_v107) n q))
  rw [← Fin.sum_univ_eq_sum_range (tileSumN2 V c g q) 25]
  refine Finset.sum_congr rfl fun i _ => ?_
  unfold tileSumN2
  exact dif_pos i.isLt

/-- What the last point writes back to the second result is the closed form's one block. -/
theorem flushed2_10_eq (c : Dev nD) (t : Fin cfg2.N) (hf : (cfg2.win 10).flush t = true) :
    (dat2 (F := Ideal) V c).flushed 10 t = ((cfg2.win 10).blk t).view.read (Elt Ideal) (G2_10 (V c main_v120) (V c main_v143) (V c main_v146) (V c main_v134) (V c main_v141) (V c main_v149) (V c main_v152) (V c main_v35) (V c main_v107)) := by
  have hN : cfg2.N = 25 := N_2
  have h24 : t.val = 24 := by have := (flush2_10 t).mp hf; have := t.isLt; omega
  show (cfg2.win 10).cut (grid2.coords t) ((dat2 (F := Ideal) V c).after 10 t) = _
  rw [after2_10, outs2_second_last V c t h24]
  funext j
  obtain ⟨g, q, rfl⟩ : ∃ (g : Fin 512) (q : Fin 128), j = ix2 g q := ⟨j 0, j 1, eq_ix2 j⟩
  generalize hG : G2_10 (V c main_v120) (V c main_v143) (V c main_v146) (V c main_v134) (V c main_v141) (V c main_v149) (V c main_v152) (V c main_v35) (V c main_v107) = G
  show (outsAt2 V c t.val t.isLt).2.2 (ix2 g q) = G (((cfg2.win 10).blk t).view.emb (ix2 g q))
  have e25 : t.val + 1 = 25 := by omega
  rw [emb2_10, table2_apply V c g q t.val t.isLt, e25, all_tiles2, ← hG]
  unfold G2_10
  exact Finset.sum_congr rfl fun n _ => rfl

/-- The second result after the region: every node's new features summed per graph. -/
theorem final2_10 (c : Dev nD) : (dat2 (F := Ideal) V c).arrAt 10 cfg2.N = G2_10 (V c main_v120) (V c main_v143) (V c main_v146) (V c main_v134) (V c main_v141) (V c main_v149) (V c main_v152) (V c main_v35) (V c main_v107) :=
  (dat2 (F := Ideal) V c).arrAt_eq_of_cover 10 _ (fun t hf => flushed2_10_eq V c t hf) covered2_10

end AtIdeal

end Cert.KernelIdeal.Hand

end
-- ==== Proof.Val.KStages.lean ====
/-
  The pure functions the host side of the kernel's program computes between its regions, one definition per group
  of consecutive operations. Each body is the composition, in program order, of exactly the operation functions
  the program's host stretches carry, so that the contents of a buffer after a stretch are one of these functions
  of the contents before it, by unfolding. First over any float instance (`StageF`), then read at the ideal
  instance, a float an extended real (`Stage`).
-/
import proofs.«402460_j82824149336546_1_alg».proof.KernelIdeal
import Idealize.ShloMosaic.PureOps.Ideal

set_option maxRecDepth 16384

noncomputable section

namespace Cert.KernelIdeal.StageF

open Idealize.ShloMosaic
open Cert.KernelIdeal Cert.KernelIdeal.Facts₀ Cert.KernelIdeal.Facts

variable [Cert.KernelIdeal.Facts]
variable {F : FTy → Type} [FloatOps F]

/-- The source node of every edge, followed by every node (the self loops). -/
def src (ei : IVec S2x600000 32) : IVec S650000 32 :=
  (((fun a b => concatenate S650000 0 [⟨S600000, a⟩, ⟨S50000, b⟩] concatenates_S600000_S50000_S650000_d0) : IVec S600000 32 → IVec S50000 32 → IVec S650000 32) (fun i => shapeCast S600000 (((extractStridedSlice S1x600000 ![0, 0] · slices_S2x600000_S1x600000_0_0) : IVec S2x600000 32 → IVec S1x600000 32) ei) shapeCasts_S1x600000_S600000 i) (iotaInDim S50000 32 0))

/-- The target node of every edge, followed by every node (the self loops). -/
def dst (ei : IVec S2x600000 32) : IVec S650000 32 :=
  (((fun a b => concatenate S650000 0 [⟨S600000, a⟩, ⟨S50000, b⟩] concatenates_S600000_S50000_S650000_d0) : IVec S600000 32 → IVec S50000 32 → IVec S650000 32) (fun i => shapeCast S600000 (((extractStridedSlice S1x600000 ![1, 0] · slices_S2x600000_S1x600000_1_0) : IVec S2x600000 32 → IVec S1x600000 32) ei) shapeCasts_S1x600000_S600000 i) (iotaInDim S50000 32 0))

/-- A negative index is shifted up by the number of nodes. -/
def wrapIdx (i : IVec S650000 32) : IVec S650000 32 :=
  ((select : IVec S650000 1 → IVec S650000 32 → IVec S650000 32 → IVec S650000 32) ((cmpi .slt : IVec S650000 32 → IVec S650000 32 → IVec S650000 1) i ((broadcastInDim S650000 ![] bcast_S_S650000 : IVec S_ 32 → IVec S650000 32) (constantI S_ 32 0#32))) ((addi : IVec S650000 32 → IVec S650000 32 → IVec S650000 32) i ((broadcastInDim S650000 ![] bcast_S_S650000 : IVec S_ 32 → IVec S650000 32) (constantI S_ 32 50000#32))) i)

/-- Per node, the inverse square root of max(number of edges that end there, 1). -/
def dinv (d : IVec S650000 32) : FVec F S50000 .f32 :=
  ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S650000x1_S650000_n_0_0_1 x i u) : (⟨S50000, .f32⟩ : BufTy).Contents (Elt F) → IVec S650000x1 32 → (⟨S650000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant (F := F) S_ .f32 0x00000000#32)) ((broadcastInDim S650000x1 ![0] bcast_S650000_S650000x1_0 : IVec S650000 32 → IVec S650000x1 32) d) ((broadcastInDim S650000 ![] bcast_S_S650000 : (⟨S_, .f32⟩ : BufTy).Contents (Elt F) → (⟨S650000, .f32⟩ : BufTy).Contents (Elt F)) (constant (F := F) S_ .f32 0x3F800000#32))) ((broadcastInDim S50000 ![] bcast_S_S50000 : (⟨S_, .f32⟩ : BufTy).Contents (Elt F) → (⟨S50000, .f32⟩ : BufTy).Contents (Elt F)) (constant (F := F) S_ .f32 0x3F800000#32))))

/-- The weight of every edge: the product of its two ends' inverse square roots. -/
def nrmOf (s : IVec S650000 32) (d : IVec S650000 32) : FVec F S650000 .f32 :=
  ((mulf : (⟨S650000, .f32⟩ : BufTy).Contents (Elt F) → (⟨S650000, .f32⟩ : BufTy).Contents (Elt F) → (⟨S650000, .f32⟩ : BufTy).Contents (Elt F)) (((fun x i => Host.gather gather_S50000_S650000x1_S650000_n_0_n_n_0_1_1 x i) : (⟨S50000, .f32⟩ : BufTy).Contents (Elt F) → IVec S650000x1 32 → (⟨S650000, .f32⟩ : BufTy).Contents (Elt F)) (dinv d) ((broadcastInDim S650000x1 ![0] bcast_S650000_S650000x1_0 : IVec S650000 32 → IVec S650000x1 32) (wrapIdx s))) (((fun x i => Host.gather gather_S50000_S650000x1_S650000_n_0_n_n_0_1_1 x i) : (⟨S50000, .f32⟩ : BufTy).Contents (Elt F) → IVec S650000x1 32 → (⟨S650000, .f32⟩ : BufTy).Contents (Elt F)) (dinv d) ((broadcastInDim S650000x1 ![0] bcast_S650000_S650000x1_0 : IVec S650000 32 → IVec S650000x1 32) (wrapIdx d))))

/-- The edge weights of the graph `ei`. -/
def nrm (ei : IVec S2x600000 32) : FVec F S650000 .f32 :=
  nrmOf (src ei) (dst ei)

/-- Node against graph: one where the node's graph is the column, zero elsewhere. -/
def onehot (batch : IVec S50000 32) : FVec F S50000x512 .bf16 :=
  ((uitofp .bf16 : IVec S50000x512 1 → (⟨S50000x512, .bf16⟩ : BufTy).Contents (Elt F)) ((cmpi .eq : IVec S50000x512 32 → IVec S50000x512 32 → IVec S50000x512 1) ((broadcastInDim S50000x512 ![0, 1] bcast_S50000x1_S50000x512_0_1 : IVec S50000x1 32 → IVec S50000x512 32) ((broadcastInDim S50000x1 ![0] bcast_S50000_S50000x1_0 : IVec S50000 32 → IVec S50000x1 32) batch)) ((broadcastInDim S50000x512 ![0, 1] bcast_S1x512_S50000x512_0_1 : IVec S1x512 32 → IVec S50000x512 32) ((broadcastInDim S1x512 ![1] bcast_S512_S1x512_1 : IVec S512 32 → IVec S1x512 32) (iotaInDim S512 32 0)))))

/-- The virtual node's embedding, one row per graph. -/
def vn0 (vnEmb : FVec F S128 .f32) : FVec F S512x128 .f32 :=
  ((broadcastInDim S512x128 ![1] bcast_S128_S512x128_1 : (⟨S128, .f32⟩ : BufTy).Contents (Elt F) → (⟨S512x128, .f32⟩ : BufTy).Contents (Elt F)) vnEmb)

/-- One propagation: every edge carries its weight times its source's row to its target, summed per target. -/
def propOf (s : IVec S650000 32) (d : IVec S650000 32) (w : FVec F S650000 .f32) (h : FVec F S50000x128 .f32) : FVec F S50000x128 .f32 :=
  (((fun x i u => Host.scatterAdd scatter_S50000x128_S650000x1_S650000x128_1_0_0_1 x i u) : (⟨S50000x128, .f32⟩ : BufTy).Contents (Elt F) → IVec S650000x1 32 → (⟨S650000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x00000000#32)) ((broadcastInDim S650000x1 ![0] bcast_S650000_S650000x1_0 : IVec S650000 32 → IVec S650000x1 32) d) ((mulf : (⟨S650000x128, .f32⟩ : BufTy).Contents (Elt F) → (⟨S650000x128, .f32⟩ : BufTy).Contents (Elt F) → (⟨S650000x128, .f32⟩ : BufTy).Contents (Elt F)) ((broadcastInDim S650000x128 ![0, 1] bcast_S650000x1_S650000x128_0_1 : (⟨S650000x1, .f32⟩ : BufTy).Contents (Elt F) → (⟨S650000x128, .f32⟩ : BufTy).Contents (Elt F)) ((broadcastInDim S650000x1 ![0] bcast_S650000_S650000x1_0 : (⟨S650000, .f32⟩ : BufTy).Contents (Elt F) → (⟨S650000x1, .f32⟩ : BufTy).Contents (Elt F)) w)) (((fun x i => Host.gather gather_S50000x128_S650000x1_S650000x128_1_0_n_n_0_1_1128 x i) : (⟨S50000x128, .f32⟩ : BufTy).Contents (Elt F) → IVec S650000x1 32 → (⟨S650000x128, .f32⟩ : BufTy).Contents (Elt F)) h ((broadcastInDim S650000x1 ![0] bcast_S650000_S650000x1_0 : IVec S650000 32 → IVec S650000x1 32) (wrapIdx s)))))

/-- One propagation over the graph `ei` with its own weights. -/
def prop (ei : IVec S2x600000 32) (h : FVec F S50000x128 .f32) : FVec F S50000x128 .f32 :=
  propOf (src ei) (dst ei) (nrm ei) h

/-- Layer 0's linear map: the propagated rows (rounded to bf16) against slice 0 of the weights (rounded to bf16), plus row 0 of the bias. -/
def lin0 (hp : FVec F S50000x128 .f32) (W3 : FVec F S3x128x128 .f32) (b2 : FVec F S3x128 .f32) : FVec F S50000x128 .f32 :=
  ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .bf16⟩ : BufTy).Contents (Elt F) → (⟨S128x128, .bf16⟩ : BufTy).Contents (Elt F) → (⟨S50000x128, .f32⟩ : BufTy).Contents (Elt F)) (((truncf .bf16 · bitsLt_bf16_f32) : (⟨S50000x128, .f32⟩ : BufTy).Contents (Elt F) → (⟨S50000x128, .bf16⟩ : BufTy).Contents (Elt F)) hp) (((truncf .bf16 · bitsLt_bf16_f32) : (⟨S128x128, .f32⟩ : BufTy).Contents (Elt F) → (⟨S128x128, .bf16⟩ : BufTy).Contents (Elt F)) (fun i => shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) W3) shapeCasts_S1x128x128_S128x128 i))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![0, 0] · slices_S3x128_S1x128_0_0) : (⟨S3x128, .f32⟩ : BufTy).Contents (Elt F) → (⟨S1x128, .f32⟩ : BufTy).Contents (Elt F)) b2) shapeCasts_S1x128_S128 i))))

/-- Layer 1's linear map (slice 1, row 1). -/
def lin1 (hp : FVec F S50000x128 .f32) (W3 : FVec F S3x128x128 .f32) (b2 : FVec F S3x128 .f32) : FVec F S50000x128 .f32 :=
  ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .bf16⟩ : BufTy).Contents (Elt F) → (⟨S128x128, .bf16⟩ : BufTy).Contents (Elt F) → (⟨S50000x128, .f32⟩ : BufTy).Contents (Elt F)) (((truncf .bf16 · bitsLt_bf16_f32) : (⟨S50000x128, .f32⟩ : BufTy).Contents (Elt F) → (⟨S50000x128, .bf16⟩ : BufTy).Contents (Elt F)) hp) (((truncf .bf16 · bitsLt_bf16_f32) : (⟨S128x128, .f32⟩ : BufTy).Contents (Elt F) → (⟨S128x128, .bf16⟩ : BufTy).Contents (Elt F)) (fun i => shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) W3) shapeCasts_S1x128x128_S128x128 i))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![1, 0] · slices_S3x128_S1x128_1_0) : (⟨S3x128, .f32⟩ : BufTy).Contents (Elt F) → (⟨S1x128, .f32⟩ : BufTy).Contents (Elt F)) b2) shapeCasts_S1x128_S128 i))))

/-- Layer 2's linear map (slice 2, row 2). -/
def lin2 (hp : FVec F S50000x128 .f32) (W3 : FVec F S3x128x128 .f32) (b2 : FVec F S3x128 .f32) : FVec F S50000x128 .f32 :=
  ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .bf16⟩ : BufTy).Contents (Elt F) → (⟨S128x128, .bf16⟩ : BufTy).Contents (Elt F) → (⟨S50000x128, .f32⟩ : BufTy).Contents (Elt F)) (((truncf .bf16 · bitsLt_bf16_f32) : (⟨S50000x128, .f32⟩ : BufTy).Contents (Elt F) → (⟨S50000x128, .bf16⟩ : BufTy).Contents (Elt F)) hp) (((truncf .bf16 · bitsLt_bf16_f32) : (⟨S128x128, .f32⟩ : BufTy).Contents (Elt F) → (⟨S128x128, .bf16⟩ : BufTy).Contents (Elt F)) (fun i => shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) W3) shapeCasts_S1x128x128_S128x128 i))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![2, 0] · slices_S3x128_S1x128_2_0) : (⟨S3x128, .f32⟩ : BufTy).Contents (Elt F) → (⟨S1x128, .f32⟩ : BufTy).Contents (Elt F)) b2) shapeCasts_S1x128_S128 i))))

/-- The column means over the 50000 nodes, as one row. -/
def mean (lin : FVec F S50000x128 .f32) : FVec F S1x128 .f32 :=
  ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) lin (constant (F := F) S_ .f32 0x00000000#32))) ((broadcastInDim S1x128 ![] bcast_S_S1x128 : (⟨S_, .f32⟩ : BufTy).Contents (Elt F) → (⟨S1x128, .f32⟩ : BufTy).Contents (Elt F)) (constant (F := F) S_ .f32 0x47435000#32)))

/-- The column variances about `mu` over the 50000 nodes, as one row. -/
def var (lin : FVec F S50000x128 .f32) (mu : FVec F S1x128 .f32) : FVec F S1x128 .f32 :=
  ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) lin ((broadcastInDim S50000x128 ![0, 1] bcast_S1x128_S50000x128_0_1 : (⟨S1x128, .f32⟩ : BufTy).Contents (Elt F) → (⟨S50000x128, .f32⟩ : BufTy).Contents (Elt F)) mu)) ((subf : (⟨S50000x128, .f32⟩ : BufTy).Contents (Elt F) → (⟨S50000x128, .f32⟩ : BufTy).Contents (Elt F) → (⟨S50000x128, .f32⟩ : BufTy).Contents (Elt F)) lin ((broadcastInDim S50000x128 ![0, 1] bcast_S1x128_S50000x128_0_1 : (⟨S1x128, .f32⟩ : BufTy).Contents (Elt F) → (⟨S50000x128, .f32⟩ : BufTy).Contents (Elt F)) mu))) (constant (F := F) S_ .f32 0x00000000#32))) ((broadcastInDim S1x128 ![] bcast_S_S1x128 : (⟨S_, .f32⟩ : BufTy).Contents (Elt F) → (⟨S1x128, .f32⟩ : BufTy).Contents (Elt F)) (constant (F := F) S_ .f32 0x47435000#32)))

/-- Slice 0 of the three weight matrices. -/
def sliceW0 (W3 : FVec F S3x128x128 .f32) : FVec F S128x128 .f32 :=
  (fun i => shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) W3) shapeCasts_S1x128x128_S128x128 i)

/-- Slice 1 of the three weight matrices. -/
def sliceW1 (W3 : FVec F S3x128x128 .f32) : FVec F S128x128 .f32 :=
  (fun i => shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) W3) shapeCasts_S1x128x128_S128x128 i)

/-- Slice 2 of the three weight matrices. -/
def sliceW2 (W3 : FVec F S3x128x128 .f32) : FVec F S128x128 .f32 :=
  (fun i => shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) W3) shapeCasts_S1x128x128_S128x128 i)

/-- Row 0 of a three-row parameter, as a one-row matrix. -/
def row0 (v : FVec F S3x128 .f32) : FVec F S1x128 .f32 :=
  ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![0, 0] · slices_S3x128_S1x128_0_0) : (⟨S3x128, .f32⟩ : BufTy).Contents (Elt F) → (⟨S1x128, .f32⟩ : BufTy).Contents (Elt F)) v) shapeCasts_S1x128_S128 i))

/-- Row 1 of a three-row parameter, as a one-row matrix. -/
def row1 (v : FVec F S3x128 .f32) : FVec F S1x128 .f32 :=
  ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![1, 0] · slices_S3x128_S1x128_1_0) : (⟨S3x128, .f32⟩ : BufTy).Contents (Elt F) → (⟨S1x128, .f32⟩ : BufTy).Contents (Elt F)) v) shapeCasts_S1x128_S128 i))

/-- Row 2 of a three-row parameter, as a one-row matrix. -/
def row2 (v : FVec F S3x128 .f32) : FVec F S1x128 .f32 :=
  ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![2, 0] · slices_S3x128_S1x128_2_0) : (⟨S3x128, .f32⟩ : BufTy).Contents (Elt F) → (⟨S1x128, .f32⟩ : BufTy).Contents (Elt F)) v) shapeCasts_S1x128_S128 i))

/-- The pooled partial sums plus the virtual node. -/
def vtOf (p : FVec F S512x128 .f32) (vn : FVec F S512x128 .f32) : FVec F S512x128 .f32 :=
  ((addf : (⟨S512x128, .f32⟩ : BufTy).Contents (Elt F) → (⟨S512x128, .f32⟩ : BufTy).Contents (Elt F) → (⟨S512x128, .f32⟩ : BufTy).Contents (Elt F)) p vn)

/-- Slice 1 of the first MLP weights. -/
def mlpA1 (A : FVec F S2x128x256 .f32) : FVec F S128x256 .f32 :=
  (fun i => shapeCast S128x256 (((extractStridedSlice S1x128x256 ![1, 0, 0] · slices_S2x128x256_S1x128x256_1_0_0) : (⟨S2x128x256, .f32⟩ : BufTy).Contents (Elt F) → (⟨S1x128x256, .f32⟩ : BufTy).Contents (Elt F)) A) shapeCasts_S1x128x256_S128x256 i)

/-- Row 1 of a two-row parameter of width 256, as a one-row matrix. -/
def mlpRowA1 (v : FVec F S2x256 .f32) : FVec F S1x256 .f32 :=
  ((broadcastInDim S1x256 ![1] bcast_S256_S1x256_1 : (⟨S256, .f32⟩ : BufTy).Contents (Elt F) → (⟨S1x256, .f32⟩ : BufTy).Contents (Elt F)) (fun i => shapeCast S256 (((extractStridedSlice S1x256 ![1, 0] · slices_S2x256_S1x256_1_0) : (⟨S2x256, .f32⟩ : BufTy).Contents (Elt F) → (⟨S1x256, .f32⟩ : BufTy).Contents (Elt F)) v) shapeCasts_S1x256_S256 i))

/-- Slice 1 of the second MLP weights. -/
def mlpB1 (B : FVec F S2x256x128 .f32) : FVec F S256x128 .f32 :=
  (fun i => shapeCast S256x128 (((extractStridedSlice S1x256x128 ![1, 0, 0] · slices_S2x256x128_S1x256x128_1_0_0) : (⟨S2x256x128, .f32⟩ : BufTy).Contents (Elt F) → (⟨S1x256x128, .f32⟩ : BufTy).Contents (Elt F)) B) shapeCasts_S1x256x128_S256x128 i)

/-- Row 1 of a two-row parameter of width 128, as a one-row matrix. -/
def mlpRowB1 (v : FVec F S2x128 .f32) : FVec F S1x128 .f32 :=
  ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![1, 0] · slices_S2x128_S1x128_1_0) : (⟨S2x128, .f32⟩ : BufTy).Contents (Elt F) → (⟨S1x128, .f32⟩ : BufTy).Contents (Elt F)) v) shapeCasts_S1x128_S128 i))

/-- Slice 0 of the first MLP weights. -/
def mlpA0 (A : FVec F S2x128x256 .f32) : FVec F S128x256 .f32 :=
  (fun i => shapeCast S128x256 (((extractStridedSlice S1x128x256 ![0, 0, 0] · slices_S2x128x256_S1x128x256_0_0_0) : (⟨S2x128x256, .f32⟩ : BufTy).Contents (Elt F) → (⟨S1x128x256, .f32⟩ : BufTy).Contents (Elt F)) A) shapeCasts_S1x128x256_S128x256 i)

/-- Row 0 of a two-row parameter of width 256, as a one-row matrix. -/
def mlpRowA0 (v : FVec F S2x256 .f32) : FVec F S1x256 .f32 :=
  ((broadcastInDim S1x256 ![1] bcast_S256_S1x256_1 : (⟨S256, .f32⟩ : BufTy).Contents (Elt F) → (⟨S1x256, .f32⟩ : BufTy).Contents (Elt F)) (fun i => shapeCast S256 (((extractStridedSlice S1x256 ![0, 0] · slices_S2x256_S1x256_0_0) : (⟨S2x256, .f32⟩ : BufTy).Contents (Elt F) → (⟨S1x256, .f32⟩ : BufTy).Contents (Elt F)) v) shapeCasts_S1x256_S256 i))

/-- Slice 0 of the second MLP weights. -/
def mlpB0 (B : FVec F S2x256x128 .f32) : FVec F S256x128 .f32 :=
  (fun i => shapeCast S256x128 (((extractStridedSlice S1x256x128 ![0, 0, 0] · slices_S2x256x128_S1x256x128_0_0_0) : (⟨S2x256x128, .f32⟩ : BufTy).Contents (Elt F) → (⟨S1x256x128, .f32⟩ : BufTy).Contents (Elt F)) B) shapeCasts_S1x256x128_S256x128 i)

/-- Row 0 of a two-row parameter of width 128, as a one-row matrix. -/
def mlpRowB0 (v : FVec F S2x128 .f32) : FVec F S1x128 .f32 :=
  ((broadcastInDim S1x128 ![1] bcast_S128_S1x128_1 : (⟨S128, .f32⟩ : BufTy).Contents (Elt F) → (⟨S1x128, .f32⟩ : BufTy).Contents (Elt F)) (fun i => shapeCast S128 (((extractStridedSlice S1x128 ![0, 0] · slices_S2x128_S1x128_0_0) : (⟨S2x128, .f32⟩ : BufTy).Contents (Elt F) → (⟨S1x128, .f32⟩ : BufTy).Contents (Elt F)) v) shapeCasts_S1x128_S128 i))

/-- The virtual node plus its update. -/
def vnNext (vn : FVec F S512x128 .f32) (t : FVec F S512x128 .f32) : FVec F S512x128 .f32 :=
  ((addf : (⟨S512x128, .f32⟩ : BufTy).Contents (Elt F) → (⟨S512x128, .f32⟩ : BufTy).Contents (Elt F) → (⟨S512x128, .f32⟩ : BufTy).Contents (Elt F)) vn t)

/-- Per graph, max(number of its nodes, 1). -/
def cnt (batch : IVec S50000 32) : FVec F S512 .f32 :=
  ((maximumf : (⟨S512, .f32⟩ : BufTy).Contents (Elt F) → (⟨S512, .f32⟩ : BufTy).Contents (Elt F) → (⟨S512, .f32⟩ : BufTy).Contents (Elt F)) (((fun x i u => Host.scatterAdd scatter_S512_S50000x1_S50000_n_0_0_1 x i u) : (⟨S512, .f32⟩ : BufTy).Contents (Elt F) → IVec S50000x1 32 → (⟨S50000, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant (F := F) S_ .f32 0x00000000#32)) ((broadcastInDim S50000x1 ![0] bcast_S50000_S50000x1_0 : IVec S50000 32 → IVec S50000x1 32) batch) ((broadcastInDim S50000 ![] bcast_S_S50000 : (⟨S_, .f32⟩ : BufTy).Contents (Elt F) → (⟨S50000, .f32⟩ : BufTy).Contents (Elt F)) (constant (F := F) S_ .f32 0x3F800000#32))) ((broadcastInDim S512 ![] bcast_S_S512 : (⟨S_, .f32⟩ : BufTy).Contents (Elt F) → (⟨S512, .f32⟩ : BufTy).Contents (Elt F)) (constant (F := F) S_ .f32 0x3F800000#32)))

/-- The counts, repeated along the 128 columns. -/
def cntB (batch : IVec S50000 32) : FVec F S512x128 .f32 :=
  ((broadcastInDim S512x128 ![0, 1] bcast_S512x1_S512x128_0_1 : (⟨S512x1, .f32⟩ : BufTy).Contents (Elt F) → (⟨S512x128, .f32⟩ : BufTy).Contents (Elt F)) ((broadcastInDim S512x1 ![0] bcast_S512_S512x1_0 : (⟨S512, .f32⟩ : BufTy).Contents (Elt F) → (⟨S512x1, .f32⟩ : BufTy).Contents (Elt F)) (cnt batch)))

/-- The per-graph sums divided by the counts. -/
def pooled (ps : FVec F S512x128 .f32) (batch : IVec S50000 32) : FVec F S512x128 .f32 :=
  ((Host.divf : (⟨S512x128, .f32⟩ : BufTy).Contents (Elt F) → (⟨S512x128, .f32⟩ : BufTy).Contents (Elt F) → (⟨S512x128, .f32⟩ : BufTy).Contents (Elt F)) ps (cntB batch))

/-- The output bias as a one-row matrix. -/
def boutRow (b : FVec F S128 .f32) : FVec F S1x128 .f32 :=
  ((broadcastInDim S1x128 ![1] bcast_S128_S1x128_1 : (⟨S128, .f32⟩ : BufTy).Contents (Elt F) → (⟨S1x128, .f32⟩ : BufTy).Contents (Elt F)) b)

end Cert.KernelIdeal.StageF

namespace Cert.KernelIdeal.Stage

open Idealize.ShloMosaic
open Cert.KernelIdeal

variable [Cert.KernelIdeal.Facts]

/-- The source node of every edge, followed by every node (the self loops). At the ideal instance. -/
abbrev src (ei : IVec S2x600000 32) : IVec S650000 32 := StageF.src ei

/-- The target node of every edge, followed by every node (the self loops). At the ideal instance. -/
abbrev dst (ei : IVec S2x600000 32) : IVec S650000 32 := StageF.dst ei

/-- A negative index is shifted up by the number of nodes. At the ideal instance. -/
abbrev wrapIdx (i : IVec S650000 32) : IVec S650000 32 := StageF.wrapIdx i

/-- Per node, the inverse square root of max(number of edges that end there, 1). At the ideal instance. -/
abbrev dinv (d : IVec S650000 32) : FVec Ideal S50000 .f32 := StageF.dinv (F := Ideal) d

/-- The weight of every edge: the product of its two ends' inverse square roots. At the ideal instance. -/
abbrev nrmOf (s : IVec S650000 32) (d : IVec S650000 32) : FVec Ideal S650000 .f32 := StageF.nrmOf (F := Ideal) s d

/-- The edge weights of the graph `ei`. At the ideal instance. -/
abbrev nrm (ei : IVec S2x600000 32) : FVec Ideal S650000 .f32 := StageF.nrm (F := Ideal) ei

/-- Node against graph: one where the node's graph is the column, zero elsewhere. At the ideal instance. -/
abbrev onehot (batch : IVec S50000 32) : FVec Ideal S50000x512 .bf16 := StageF.onehot (F := Ideal) batch

/-- The virtual node's embedding, one row per graph. At the ideal instance. -/
abbrev vn0 (vnEmb : FVec Ideal S128 .f32) : FVec Ideal S512x128 .f32 := StageF.vn0 (F := Ideal) vnEmb

/-- One propagation: every edge carries its weight times its source's row to its target, summed per target. At the ideal instance. -/
abbrev propOf (s : IVec S650000 32) (d : IVec S650000 32) (w : FVec Ideal S650000 .f32) (h : FVec Ideal S50000x128 .f32) : FVec Ideal S50000x128 .f32 := StageF.propOf (F := Ideal) s d w h

/-- One propagation over the graph `ei` with its own weights. At the ideal instance. -/
abbrev prop (ei : IVec S2x600000 32) (h : FVec Ideal S50000x128 .f32) : FVec Ideal S50000x128 .f32 := StageF.prop (F := Ideal) ei h

/-- Layer 0's linear map: the propagated rows (rounded to bf16) against slice 0 of the weights (rounded to bf16), plus row 0 of the bias. At the ideal instance. -/
abbrev lin0 (hp : FVec Ideal S50000x128 .f32) (W3 : FVec Ideal S3x128x128 .f32) (b2 : FVec Ideal S3x128 .f32) : FVec Ideal S50000x128 .f32 := StageF.lin0 (F := Ideal) hp W3 b2

/-- Layer 1's linear map (slice 1, row 1). At the ideal instance. -/
abbrev lin1 (hp : FVec Ideal S50000x128 .f32) (W3 : FVec Ideal S3x128x128 .f32) (b2 : FVec Ideal S3x128 .f32) : FVec Ideal S50000x128 .f32 := StageF.lin1 (F := Ideal) hp W3 b2

/-- Layer 2's linear map (slice 2, row 2). At the ideal instance. -/
abbrev lin2 (hp : FVec Ideal S50000x128 .f32) (W3 : FVec Ideal S3x128x128 .f32) (b2 : FVec Ideal S3x128 .f32) : FVec Ideal S50000x128 .f32 := StageF.lin2 (F := Ideal) hp W3 b2

/-- The column means over the 50000 nodes, as one row. At the ideal instance. -/
abbrev mean (lin : FVec Ideal S50000x128 .f32) : FVec Ideal S1x128 .f32 := StageF.mean (F := Ideal) lin

/-- The column variances about `mu` over the 50000 nodes, as one row. At the ideal instance. -/
abbrev var (lin : FVec Ideal S50000x128 .f32) (mu : FVec Ideal S1x128 .f32) : FVec Ideal S1x128 .f32 := StageF.var (F := Ideal) lin mu

/-- Slice 0 of the three weight matrices. At the ideal instance. -/
abbrev sliceW0 (W3 : FVec Ideal S3x128x128 .f32) : FVec Ideal S128x128 .f32 := StageF.sliceW0 (F := Ideal) W3

/-- Slice 1 of the three weight matrices. At the ideal instance. -/
abbrev sliceW1 (W3 : FVec Ideal S3x128x128 .f32) : FVec Ideal S128x128 .f32 := StageF.sliceW1 (F := Ideal) W3

/-- Slice 2 of the three weight matrices. At the ideal instance. -/
abbrev sliceW2 (W3 : FVec Ideal S3x128x128 .f32) : FVec Ideal S128x128 .f32 := StageF.sliceW2 (F := Ideal) W3

/-- Row 0 of a three-row parameter, as a one-row matrix. At the ideal instance. -/
abbrev row0 (v : FVec Ideal S3x128 .f32) : FVec Ideal S1x128 .f32 := StageF.row0 (F := Ideal) v

/-- Row 1 of a three-row parameter, as a one-row matrix. At the ideal instance. -/
abbrev row1 (v : FVec Ideal S3x128 .f32) : FVec Ideal S1x128 .f32 := StageF.row1 (F := Ideal) v

/-- Row 2 of a three-row parameter, as a one-row matrix. At the ideal instance. -/
abbrev row2 (v : FVec Ideal S3x128 .f32) : FVec Ideal S1x128 .f32 := StageF.row2 (F := Ideal) v

/-- The pooled partial sums plus the virtual node. At the ideal instance. -/
abbrev vtOf (p : FVec Ideal S512x128 .f32) (vn : FVec Ideal S512x128 .f32) : FVec Ideal S512x128 .f32 := StageF.vtOf (F := Ideal) p vn

/-- Slice 1 of the first MLP weights. At the ideal instance. -/
abbrev mlpA1 (A : FVec Ideal S2x128x256 .f32) : FVec Ideal S128x256 .f32 := StageF.mlpA1 (F := Ideal) A

/-- Row 1 of a two-row parameter of width 256, as a one-row matrix. At the ideal instance. -/
abbrev mlpRowA1 (v : FVec Ideal S2x256 .f32) : FVec Ideal S1x256 .f32 := StageF.mlpRowA1 (F := Ideal) v

/-- Slice 1 of the second MLP weights. At the ideal instance. -/
abbrev mlpB1 (B : FVec Ideal S2x256x128 .f32) : FVec Ideal S256x128 .f32 := StageF.mlpB1 (F := Ideal) B

/-- Row 1 of a two-row parameter of width 128, as a one-row matrix. At the ideal instance. -/
abbrev mlpRowB1 (v : FVec Ideal S2x128 .f32) : FVec Ideal S1x128 .f32 := StageF.mlpRowB1 (F := Ideal) v

/-- Slice 0 of the first MLP weights. At the ideal instance. -/
abbrev mlpA0 (A : FVec Ideal S2x128x256 .f32) : FVec Ideal S128x256 .f32 := StageF.mlpA0 (F := Ideal) A

/-- Row 0 of a two-row parameter of width 256, as a one-row matrix. At the ideal instance. -/
abbrev mlpRowA0 (v : FVec Ideal S2x256 .f32) : FVec Ideal S1x256 .f32 := StageF.mlpRowA0 (F := Ideal) v

/-- Slice 0 of the second MLP weights. At the ideal instance. -/
abbrev mlpB0 (B : FVec Ideal S2x256x128 .f32) : FVec Ideal S256x128 .f32 := StageF.mlpB0 (F := Ideal) B

/-- Row 0 of a two-row parameter of width 128, as a one-row matrix. At the ideal instance. -/
abbrev mlpRowB0 (v : FVec Ideal S2x128 .f32) : FVec Ideal S1x128 .f32 := StageF.mlpRowB0 (F := Ideal) v

/-- The virtual node plus its update. At the ideal instance. -/
abbrev vnNext (vn : FVec Ideal S512x128 .f32) (t : FVec Ideal S512x128 .f32) : FVec Ideal S512x128 .f32 := StageF.vnNext (F := Ideal) vn t

/-- Per graph, max(number of its nodes, 1). At the ideal instance. -/
abbrev cnt (batch : IVec S50000 32) : FVec Ideal S512 .f32 := StageF.cnt (F := Ideal) batch

/-- The counts, repeated along the 128 columns. At the ideal instance. -/
abbrev cntB (batch : IVec S50000 32) : FVec Ideal S512x128 .f32 := StageF.cntB (F := Ideal) batch

/-- The per-graph sums divided by the counts. At the ideal instance. -/
abbrev pooled (ps : FVec Ideal S512x128 .f32) (batch : IVec S50000 32) : FVec Ideal S512x128 .f32 := StageF.pooled (F := Ideal) ps batch

/-- The output bias as a one-row matrix. At the ideal instance. -/
abbrev boutRow (b : FVec Ideal S128 .f32) : FVec Ideal S1x128 .f32 := StageF.boutRow (F := Ideal) b

end Cert.KernelIdeal.Stage
-- ==== Proof.Val.KHostA.lean ====
/-
  The host stretches before the program's first two regions, read as the stage functions: for any contents of the
  buffers a stretch starts from, what it leaves in each buffer a later item reads. The first stretch is cut into
  eight consecutive pieces, each read on its own and the pieces then composed.
-/
import proofs.«402460_j82824149336546_1_alg».proof.Proof.Gen.KernelIdeal.Launch
import proofs.«402460_j82824149336546_1_alg».proof.Proof.Val.KStages
import Idealize.ShloMosaic.Lib.StableHlo.Run
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.StableHlo

variable [Cert.KernelIdeal.Facts]
variable {F : FTy → Type} [FloatOps F]

/-- One operation writes only its result, and the result is in the list. -/
local macro "writes_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

/-! ## The first stretch, in eight pieces -/

/-- Piece A: operations 0 … 6 of the first stretch. -/
abbrev h0A : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]
/-- The references piece A writes. -/
abbrev h0A_W : List (Ref sig .tc) := [main_v0, main_v1, main_v2, main_v3, main_v4, main_v5, main_v6]
theorem h0A_writes : (h0A : List (HloOp τ sig (Elt F))).Forall fun op => op.writes ⊆ (h0A_W.map (Proc.devRef (τ := τ) .tc)).toFinset := by
  simp only [List.Forall]; exact ⟨by writes_one, by writes_one, by writes_one, by writes_one, by writes_one, by writes_one, by writes_one⟩
/-- A buffer piece A does not write keeps its contents. -/
theorem passA (V : Valuation τ sig (Elt F)) (r : Ref sig .tc) (hr : r ∉ h0A_W) :
    StableHlo.after (h0A (F := F)) V (Proc.devRef .tc r) = V (Proc.devRef .tc r) :=
  StableHlo.after_of_writes_sub _ V h0A_writes hr

/-- Piece B: operations 7 … 35 of the first stretch. -/
abbrev h0B : List (HloOp τ sig (Elt F)) :=
  [ StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.nullary main_c (constantI S_ 32 0#32),
    StableHlo.unary main_c main_v14 (broadcastInDim S650000 ![] bcast_S_S650000 : (⟨S_, .i32⟩ : BufTy).Contents (Elt F) → (⟨S650000, .i32⟩ : BufTy).Contents (Elt F)),
    StableHlo.binary main_v3 main_v14 main_v15 (cmpi .slt : (⟨S650000, .i32⟩ : BufTy).Contents (Elt F) → (⟨S650000, .i32⟩ : BufTy).Contents (Elt F) → (⟨S650000, .i1⟩ : BufTy).Contents (Elt F)),
    StableHlo.nullary main_c_2 (constantI S_ 32 50000#32),
    StableHlo.unary main_c_2 main_v16 (broadcastInDim S650000 ![] bcast_S_S650000 : (⟨S_, .i32⟩ : BufTy).Contents (Elt F) → (⟨S650000, .i32⟩ : BufTy).Contents (Elt F)),
    StableHlo.binary main_v3 main_v16 main_v17 (addi : (⟨S650000, .i32⟩ : BufTy).Contents (Elt F) → (⟨S650000, .i32⟩ : BufTy).Contents (Elt F) → (⟨S650000, .i32⟩ : BufTy).Contents (Elt F)),
    StableHlo.ternary main_v15 main_v17 main_v3 main_v18 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v18 main_v19 (broadcastInDim S650000x1 ![0] bcast_S650000_S650000x1_0 : (⟨S650000, .i32⟩ : BufTy).Contents (Elt F) → (⟨S650000x1, .i32⟩ : BufTy).Contents (Elt F)),
    StableHlo.binary main_v13 main_v19 main_v20 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_3 (constantI S_ 32 0#32),
    StableHlo.unary main_c_3 main_v21 (broadcastInDim S650000 ![] bcast_S_S650000 : (⟨S_, .i32⟩ : BufTy).Contents (Elt F) → (⟨S650000, .i32⟩ : BufTy).Contents (Elt F)),
    StableHlo.binary main_v6 main_v21 main_v22 (cmpi .slt : (⟨S650000, .i32⟩ : BufTy).Contents (Elt F) → (⟨S650000, .i32⟩ : BufTy).Contents (Elt F) → (⟨S650000, .i1⟩ : BufTy).Contents (Elt F)),
    StableHlo.nullary main_c_4 (constantI S_ 32 50000#32),
    StableHlo.unary main_c_4 main_v23 (broadcastInDim S650000 ![] bcast_S_S650000 : (⟨S_, .i32⟩ : BufTy).Contents (Elt F) → (⟨S650000, .i32⟩ : BufTy).Contents (Elt F)),
    StableHlo.binary main_v6 main_v23 main_v24 (addi : (⟨S650000, .i32⟩ : BufTy).Contents (Elt F) → (⟨S650000, .i32⟩ : BufTy).Contents (Elt F) → (⟨S650000, .i32⟩ : BufTy).Contents (Elt F)),
    StableHlo.ternary main_v22 main_v24 main_v6 main_v25 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v25 main_v26 (broadcastInDim S650000x1 ![0] bcast_S650000_S650000x1_0 : (⟨S650000, .i32⟩ : BufTy).Contents (Elt F) → (⟨S650000x1, .i32⟩ : BufTy).Contents (Elt F)),
    StableHlo.binary main_v13 main_v26 main_v27 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v20 main_v27 main_v28 (mulf : (⟨S650000, .f32⟩ : BufTy).Contents (Elt F) → (⟨S650000, .f32⟩ : BufTy).Contents (Elt F) → (⟨S650000, .f32⟩ : BufTy).Contents (Elt F)) ]
/-- The references piece B writes. -/
abbrev h0B_W : List (Ref sig .tc) := [main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
set_option maxHeartbeats 4000000 in
theorem h0B_writes : (h0B : List (HloOp τ sig (Elt F))).Forall fun op => op.writes ⊆ (h0B_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece B does not write keeps its contents. -/
theorem passB (V : Valuation τ sig (Elt F)) (r : Ref sig .tc) (hr : r ∉ h0B_W) :
    StableHlo.after (h0B (F := F)) V (Proc.devRef .tc r) = V (Proc.devRef .tc r) :=
  StableHlo.after_of_writes_sub _ V h0B_writes hr

/-- Piece C: operations 36 … 43 of the first stretch. -/
abbrev h0C : List (HloOp τ sig (Elt F)) :=
  [ StableHlo.unary main_arg2 main_v29 (broadcastInDim S50000x1 ![0] bcast_S50000_S50000x1_0 : (⟨S50000, .i32⟩ : BufTy).Contents (Elt F) → (⟨S50000x1, .i32⟩ : BufTy).Contents (Elt F)),
    StableHlo.nullary main_v30 (iotaInDim S512 32 0),
    StableHlo.unary main_v30 main_v31 (broadcastInDim S1x512 ![1] bcast_S512_S1x512_1 : (⟨S512, .i32⟩ : BufTy).Contents (Elt F) → (⟨S1x512, .i32⟩ : BufTy).Contents (Elt F)),
    StableHlo.unary main_v29 main_v32 (broadcastInDim S50000x512 ![0, 1] bcast_S50000x1_S50000x512_0_1 : (⟨S50000x1, .i32⟩ : BufTy).Contents (Elt F) → (⟨S50000x512, .i32⟩ : BufTy).Contents (Elt F)),
    StableHlo.unary main_v31 main_v33 (broadcastInDim S50000x512 ![0, 1] bcast_S1x512_S50000x512_0_1 : (⟨S1x512, .i32⟩ : BufTy).Contents (Elt F) → (⟨S50000x512, .i32⟩ : BufTy).Contents (Elt F)),
    StableHlo.binary main_v32 main_v33 main_v34 (cmpi .eq : (⟨S50000x512, .i32⟩ : BufTy).Contents (Elt F) → (⟨S50000x512, .i32⟩ : BufTy).Contents (Elt F) → (⟨S50000x512, .i1⟩ : BufTy).Contents (Elt F)),
    StableHlo.unary main_v34 main_v35 (uitofp .bf16 : (⟨S50000x512, .i1⟩ : BufTy).Contents (Elt F) → (⟨S50000x512, .bf16⟩ : BufTy).Contents (Elt F)),
    StableHlo.unary main_arg7 main_v36 (broadcastInDim S512x128 ![1] bcast_S128_S512x128_1 : (⟨S128, .f32⟩ : BufTy).Contents (Elt F) → (⟨S512x128, .f32⟩ : BufTy).Contents (Elt F)) ]
/-- The references piece C writes. -/
abbrev h0C_W : List (Ref sig .tc) := [main_v29, main_v30, main_v31, main_v32, main_v33, main_v34, main_v35, main_v36]
theorem h0C_writes : (h0C : List (HloOp τ sig (Elt F))).Forall fun op => op.writes ⊆ (h0C_W.map (Proc.devRef (τ := τ) .tc)).toFinset := by
  simp only [List.Forall]; exact ⟨by writes_one, by writes_one, by writes_one, by writes_one, by writes_one, by writes_one, by writes_one, by writes_one⟩
/-- A buffer piece C does not write keeps its contents. -/
theorem passC (V : Valuation τ sig (Elt F)) (r : Ref sig .tc) (hr : r ∉ h0C_W) :
    StableHlo.after (h0C (F := F)) V (Proc.devRef .tc r) = V (Proc.devRef .tc r) :=
  StableHlo.after_of_writes_sub _ V h0C_writes hr

/-- Piece D: operations 44 … 59 of the first stretch. -/
abbrev h0D : List (HloOp τ sig (Elt F)) :=
  [ StableHlo.unary main_v28 main_v37 (broadcastInDim S650000x1 ![0] bcast_S650000_S650000x1_0 : (⟨S650000, .f32⟩ : BufTy).Contents (Elt F) → (⟨S650000x1, .f32⟩ : BufTy).Contents (Elt F)),
    StableHlo.nullary main_c_5 (constantI S_ 32 0#32),
    StableHlo.unary main_c_5 main_v38 (broadcastInDim S650000 ![] bcast_S_S650000 : (⟨S_, .i32⟩ : BufTy).Contents (Elt F) → (⟨S650000, .i32⟩ : BufTy).Contents (Elt F)),
    StableHlo.binary main_v3 main_v38 main_v39 (cmpi .slt : (⟨S650000, .i32⟩ : BufTy).Contents (Elt F) → (⟨S650000, .i32⟩ : BufTy).Contents (Elt F) → (⟨S650000, .i1⟩ : BufTy).Contents (Elt F)),
    StableHlo.nullary main_c_6 (constantI S_ 32 50000#32),
    StableHlo.unary main_c_6 main_v40 (broadcastInDim S650000 ![] bcast_S_S650000 : (⟨S_, .i32⟩ : BufTy).Contents (Elt F) → (⟨S650000, .i32⟩ : BufTy).Contents (Elt F)),
    StableHlo.binary main_v3 main_v40 main_v41 (addi : (⟨S650000, .i32⟩ : BufTy).Contents (Elt F) → (⟨S650000, .i32⟩ : BufTy).Contents (Elt F) → (⟨S650000, .i32⟩ : BufTy).Contents (Elt F)),
    StableHlo.ternary main_v39 main_v41 main_v3 main_v42 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v42 main_v43 (broadcastInDim S650000x1 ![0] bcast_S650000_S650000x1_0 : (⟨S650000, .i32⟩ : BufTy).Contents (Elt F) → (⟨S650000x1, .i32⟩ : BufTy).Contents (Elt F)),
    StableHlo.binary main_arg0 main_v43 main_v44 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v37 main_v45 (broadcastInDim S650000x128 ![0, 1] bcast_S650000x1_S650000x128_0_1 : (⟨S650000x1, .f32⟩ : BufTy).Contents (Elt F) → (⟨S650000x128, .f32⟩ : BufTy).Contents (Elt F)),
    StableHlo.binary main_v45 main_v44 main_v46 (mulf : (⟨S650000x128, .f32⟩ : BufTy).Contents (Elt F) → (⟨S650000x128, .f32⟩ : BufTy).Contents (Elt F) → (⟨S650000x128, .f32⟩ : BufTy).Contents (Elt F)),
    StableHlo.nullary main_cst_7 (constant S_ .f32 0x00000000#32),
    StableHlo.unary main_cst_7 main_v47 (broadcastInDim S50000x128 ![] bcast_S_S50000x128 : (⟨S_, .f32⟩ : BufTy).Contents (Elt F) → (⟨S50000x128, .f32⟩ : BufTy).Contents (Elt F)),
    StableHlo.unary main_v6 main_v48 (broadcastInDim S650000x1 ![0] bcast_S650000_S650000x1_0 : (⟨S650000, .i32⟩ : BufTy).Contents (Elt F) → (⟨S650000x1, .i32⟩ : BufTy).Contents (Elt F)),
    StableHlo.ternary main_v47 main_v48 main_v46 main_v49 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
/-- The references piece D writes. -/
abbrev h0D_W : List (Ref sig .tc) := [main_v37, main_c_5, main_v38, main_v39, main_c_6, main_v40, main_v41, main_v42, main_v43, main_v44, main_v45, main_v46, main_cst_7, main_v47, main_v48, main_v49]
set_option maxHeartbeats 4000000 in
theorem h0D_writes : (h0D : List (HloOp τ sig (Elt F))).Forall fun op => op.writes ⊆ (h0D_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one⟩
/-- A buffer piece D does not write keeps its contents. -/
theorem passD (V : Valuation τ sig (Elt F)) (r : Ref sig .tc) (hr : r ∉ h0D_W) :
    StableHlo.after (h0D (F := F)) V (Proc.devRef .tc r) = V (Proc.devRef .tc r) :=
  StableHlo.after_of_writes_sub _ V h0D_writes hr

/-- Piece E1: operations 60 … 69 of the first stretch. -/
abbrev h0E1 : List (HloOp τ sig (Elt F)) :=
  [ StableHlo.unary main_v49 main_v50 ((truncf .bf16 · bitsLt_bf16_f32) : (⟨S50000x128, .f32⟩ : BufTy).Contents (Elt F) → (⟨S50000x128, .bf16⟩ : BufTy).Contents (Elt F)),
    StableHlo.unary main_arg3 main_v51 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v51 main_v52 rfl shapeCasts_S1x128x128_S128x128,
    StableHlo.unary main_v52 main_v53 ((truncf .bf16 · bitsLt_bf16_f32) : (⟨S128x128, .f32⟩ : BufTy).Contents (Elt F) → (⟨S128x128, .bf16⟩ : BufTy).Contents (Elt F)),
    StableHlo.binary main_v50 main_v53 main_v54 ((fun l r => Host.dotGeneral dot_S50000x128_S128x128_S50000x128_1_0_0_1_n_n none l r) : (⟨S50000x128, .bf16⟩ : BufTy).Contents (Elt F) → (⟨S128x128, .bf16⟩ : BufTy).Contents (Elt F) → (⟨S50000x128, .f32⟩ : BufTy).Contents (Elt F)),
    StableHlo.unary main_arg4 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v58 main_v59 (addf : (⟨S50000x128, .f32⟩ : BufTy).Contents (Elt F) → (⟨S50000x128, .f32⟩ : BufTy).Contents (Elt F) → (⟨S50000x128, .f32⟩ : BufTy).Contents (Elt F)) ]
/-- The references piece E1 writes. -/
abbrev h0E1_W : List (Ref sig .tc) := [main_v50, main_v51, main_v52, main_v53, main_v54, main_v55, main_v56, main_v57, main_v58, main_v59]
set_option maxHeartbeats 4000000 in
theorem h0E1_writes : (h0E1 : List (HloOp τ sig (Elt F))).Forall fun op => op.writes ⊆ (h0E1_W.map (Proc.devRef (τ := τ) .tc)).toFinset := by
  simp only [List.Forall]; exact ⟨by writes_one, by writes_one, by writes_one, by writes_one, by writes_one, by writes_one, by writes_one, by writes_one, by writes_one, by writes_one⟩
/-- A buffer piece E1 does not write keeps its contents. -/
theorem passE1 (V : Valuation τ sig (Elt F)) (r : Ref sig .tc) (hr : r ∉ h0E1_W) :
    StableHlo.after (h0E1 (F := F)) V (Proc.devRef .tc r) = V (Proc.devRef .tc r) :=
  StableHlo.after_of_writes_sub _ V h0E1_writes hr

/-- Piece E2: operations 70 … 75 of the first stretch. -/
abbrev h0E2 : List (HloOp τ sig (Elt F)) :=
  [ StableHlo.nullary main_cst_8 (constant S_ .f32 0x00000000#32),
    StableHlo.binary main_v59 main_cst_8 main_v60 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.nullary main_cst_9 (constant S_ .f32 0x47435000#32),
    StableHlo.unary main_cst_9 main_v62 (broadcastInDim S1x128 ![] bcast_S_S1x128 : (⟨S_, .f32⟩ : BufTy).Contents (Elt F) → (⟨S1x128, .f32⟩ : BufTy).Contents (Elt F)),
    StableHlo.binary main_v61 main_v62 main_v63 (Host.divf : (⟨S1x128, .f32⟩ : BufTy).Contents (Elt F) → (⟨S1x128, .f32⟩ : BufTy).Contents (Elt F) → (⟨S1x128, .f32⟩ : BufTy).Contents (Elt F)) ]
/-- The references piece E2 writes. -/
abbrev h0E2_W : List (Ref sig .tc) := [main_cst_8, main_v60, main_v61, main_cst_9, main_v62, main_v63]
theorem h0E2_writes : (h0E2 : List (HloOp τ sig (Elt F))).Forall fun op => op.writes ⊆ (h0E2_W.map (Proc.devRef (τ := τ) .tc)).toFinset := by
  simp only [List.Forall]; exact ⟨by writes_one, by writes_one, by writes_one, by writes_one, by writes_one, by writes_one⟩
/-- A buffer piece E2 does not write keeps its contents. -/
theorem passE2 (V : Valuation τ sig (Elt F)) (r : Ref sig .tc) (hr : r ∉ h0E2_W) :
    StableHlo.after (h0E2 (F := F)) V (Proc.devRef .tc r) = V (Proc.devRef .tc r) :=
  StableHlo.after_of_writes_sub _ V h0E2_writes hr

/-- Piece E3: operations 76 … 84 of the first stretch. -/
abbrev h0E3 : List (HloOp τ sig (Elt F)) :=
  [ StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v64 main_v65 (subf : (⟨S50000x128, .f32⟩ : BufTy).Contents (Elt F) → (⟨S50000x128, .f32⟩ : BufTy).Contents (Elt F) → (⟨S50000x128, .f32⟩ : BufTy).Contents (Elt F)),
    StableHlo.binary main_v65 main_v65 main_v66 (mulf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v66 main_cst_10 main_v67 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.nullary main_cst_11 (constant S_ .f32 0x47435000#32),
    StableHlo.unary main_cst_11 main_v69 (broadcastInDim S1x128 ![] bcast_S_S1x128 : (⟨S_, .f32⟩ : BufTy).Contents (Elt F) → (⟨S1x128, .f32⟩ : BufTy).Contents (Elt F)),
    StableHlo.binary main_v68 main_v69 main_v70 (Host.divf : (⟨S1x128, .f32⟩ : BufTy).Contents (Elt F) → (⟨S1x128, .f32⟩ : BufTy).Contents (Elt F) → (⟨S1x128, .f32⟩ : BufTy).Contents (Elt F)) ]
/-- The references piece E3 writes. -/
abbrev h0E3_W : List (Ref sig .tc) := [main_v64, main_v65, main_v66, main_cst_10, main_v67, main_v68, main_cst_11, main_v69, main_v70]
set_option maxHeartbeats 4000000 in
theorem h0E3_writes : (h0E3 : List (HloOp τ sig (Elt F))).Forall fun op => op.writes ⊆ (h0E3_W.map (Proc.devRef (τ := τ) .tc)).toFinset := by
  simp only [List.Forall]; exact ⟨by writes_one, by writes_one, by writes_one, by writes_one, by writes_one, by writes_one, by writes_one, by writes_one, by writes_one⟩
/-- A buffer piece E3 does not write keeps its contents. -/
theorem passE3 (V : Valuation τ sig (Elt F)) (r : Ref sig .tc) (hr : r ∉ h0E3_W) :
    StableHlo.after (h0E3 (F := F)) V (Proc.devRef .tc r) = V (Proc.devRef .tc r) :=
  StableHlo.after_of_writes_sub _ V h0E3_writes hr

/-- Piece E4: operations 85 … 95 of the first stretch. -/
abbrev h0E4 : List (HloOp τ sig (Elt F)) :=
  [ StableHlo.unary main_arg3 main_v71 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v71 main_v72 rfl shapeCasts_S1x128x128_S128x128,
    StableHlo.unary main_arg4 main_v73 ((extractStridedSlice S1x128 ![0, 0] · slices_S3x128_S1x128_0_0) : (⟨S3x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_arg5 main_v76 ((extractStridedSlice S1x128 ![0, 0] · slices_S3x128_S1x128_0_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_arg6 main_v79 ((extractStridedSlice S1x128 ![0, 0] · slices_S3x128_S1x128_0_0) : (⟨S3x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)) ]
/-- The references piece E4 writes. -/
abbrev h0E4_W : List (Ref sig .tc) := [main_v71, main_v72, main_v73, main_v74, main_v75, main_v76, main_v77, main_v78, main_v79, main_v80, main_v81]
theorem h0E4_writes : (h0E4 : List (HloOp τ sig (Elt F))).Forall fun op => op.writes ⊆ (h0E4_W.map (Proc.devRef (τ := τ) .tc)).toFinset := by
  simp only [List.Forall]; exact ⟨by writes_one, by writes_one, by writes_one, by writes_one, by writes_one, by writes_one, by writes_one, by writes_one, by writes_one, by writes_one, by writes_one⟩
/-- A buffer piece E4 does not write keeps its contents. -/
theorem passE4 (V : Valuation τ sig (Elt F)) (r : Ref sig .tc) (hr : r ∉ h0E4_W) :
    StableHlo.after (h0E4 (F := F)) V (Proc.devRef .tc r) = V (Proc.devRef .tc r) :=
  StableHlo.after_of_writes_sub _ V h0E4_writes hr

/-- The first stretch is its pieces in order. -/
theorem hostOps0_split : (hostOps0 : List (HloOp τ sig (Elt F))) = h0A ++ h0B ++ h0C ++ h0D ++ h0E1 ++ h0E2 ++ h0E3 ++ h0E4 := rfl

/-! ## Each piece read as a stage function -/

theorem h0A_v3 (V : Valuation τ sig (Elt F)) :
    StableHlo.after (h0A (F := F)) V (Proc.devRef .tc main_v3)
      = StageF.src (V (Proc.devRef .tc main_arg1)) := by
  after_results_simp; rfl

theorem h0A_v6 (V : Valuation τ sig (Elt F)) :
    StableHlo.after (h0A (F := F)) V (Proc.devRef .tc main_v6)
      = StageF.dst (V (Proc.devRef .tc main_arg1)) := by
  after_results_simp; rfl

set_option maxHeartbeats 4000000 in
theorem h0B_v28 (V : Valuation τ sig (Elt F)) :
    StableHlo.after (h0B (F := F)) V (Proc.devRef .tc main_v28)
      = StageF.nrmOf (V (Proc.devRef .tc main_v3)) (V (Proc.devRef .tc main_v6)) := by
  after_results_simp; rfl

theorem h0C_v35 (V : Valuation τ sig (Elt F)) :
    StableHlo.after (h0C (F := F)) V (Proc.devRef .tc main_v35)
      = StageF.onehot (V (Proc.devRef .tc main_arg2)) := by
  after_results_simp; rfl

theorem h0C_v36 (V : Valuation τ sig (Elt F)) :
    StableHlo.after (h0C (F := F)) V (Proc.devRef .tc main_v36)
      = StageF.vn0 (V (Proc.devRef .tc main_arg7)) := by
  after_results_simp; rfl

set_option maxHeartbeats 4000000 in
theorem h0D_v49 (V : Valuation τ sig (Elt F)) :
    StableHlo.after (h0D (F := F)) V (Proc.devRef .tc main_v49)
      = StageF.propOf (V (Proc.devRef .tc main_v3)) (V (Proc.devRef .tc main_v6)) (V (Proc.devRef .tc main_v28)) (V (Proc.devRef .tc main_arg0)) := by
  after_results_simp; rfl

set_option maxHeartbeats 4000000 in
theorem h0E1_v59 (V : Valuation τ sig (Elt F)) :
    StableHlo.after (h0E1 (F := F)) V (Proc.devRef .tc main_v59)
      = StageF.lin0 (V (Proc.devRef .tc main_v49)) (V (Proc.devRef .tc main_arg3)) (V (Proc.devRef .tc main_arg4)) := by
  after_results_simp; rfl

theorem h0E2_v63 (V : Valuation τ sig (Elt F)) :
    StableHlo.after (h0E2 (F := F)) V (Proc.devRef .tc main_v63)
      = StageF.mean (V (Proc.devRef .tc main_v59)) := by
  after_results_simp; rfl

set_option maxHeartbeats 4000000 in
theorem h0E3_v70 (V : Valuation τ sig (Elt F)) :
    StableHlo.after (h0E3 (F := F)) V (Proc.devRef .tc main_v70)
      = StageF.var (V (Proc.devRef .tc main_v59)) (V (Proc.devRef .tc main_v63)) := by
  after_results_simp; rfl

theorem h0E4_v72 (V : Valuation τ sig (Elt F)) :
    StableHlo.after (h0E4 (F := F)) V (Proc.devRef .tc main_v72)
      = StageF.sliceW0 (V (Proc.devRef .tc main_arg3)) := by
  after_results_simp; rfl

theorem h0E4_v75 (V : Valuation τ sig (Elt F)) :
    StableHlo.after (h0E4 (F := F)) V (Proc.devRef .tc main_v75)
      = StageF.row0 (V (Proc.devRef .tc main_arg4)) := by
  after_results_simp; rfl

theorem h0E4_v78 (V : Valuation τ sig (Elt F)) :
    StableHlo.after (h0E4 (F := F)) V (Proc.devRef .tc main_v78)
      = StageF.row0 (V (Proc.devRef .tc main_arg5)) := by
  after_results_simp; rfl

theorem h0E4_v81 (V : Valuation τ sig (Elt F)) :
    StableHlo.after (h0E4 (F := F)) V (Proc.devRef .tc main_v81)
      = StageF.row0 (V (Proc.devRef .tc main_arg6)) := by
  after_results_simp; rfl

/-! ## The first stretch, composed -/

theorem host0_v3 (V : Valuation τ sig (Elt F)) :
    StableHlo.after (hostOps0 (F := F)) V (Proc.devRef .tc main_v3)
      = StageF.src (V (Proc.devRef .tc main_arg1)) := by
  rw [hostOps0_split]; simp only [StableHlo.after_append]
  rw [passE4 _ main_v3 (by decide),
    passE3 _ main_v3 (by decide),
    passE2 _ main_v3 (by decide),
    passE1 _ main_v3 (by decide),
    passD _ main_v3 (by decide),
    passC _ main_v3 (by decide),
    passB _ main_v3 (by decide),
    h0A_v3]
  all_goals rfl

theorem host0_v6 (V : Valuation τ sig (Elt F)) :
    StableHlo.after (hostOps0 (F := F)) V (Proc.devRef .tc main_v6)
      = StageF.dst (V (Proc.devRef .tc main_arg1)) := by
  rw [hostOps0_split]; simp only [StableHlo.after_append]
  rw [passE4 _ main_v6 (by decide),
    passE3 _ main_v6 (by decide),
    passE2 _ main_v6 (by decide),
    passE1 _ main_v6 (by decide),
    passD _ main_v6 (by decide),
    passC _ main_v6 (by decide),
    passB _ main_v6 (by decide),
    h0A_v6]
  all_goals rfl

theorem host0_v28 (V : Valuation τ sig (Elt F)) :
    StableHlo.after (hostOps0 (F := F)) V (Proc.devRef .tc main_v28)
      = StageF.nrm (F := F) (V (Proc.devRef .tc main_arg1)) := by
  rw [hostOps0_split]; simp only [StableHlo.after_append]
  rw [passE4 _ main_v28 (by decide),
    passE3 _ main_v28 (by decide),
    passE2 _ main_v28 (by decide),
    passE1 _ main_v28 (by decide),
    passD _ main_v28 (by decide),
    passC _ main_v28 (by decide),
    h0B_v28,
    h0A_v3,
    h0A_v6]
  all_goals rfl

theorem host0_v35 (V : Valuation τ sig (Elt F)) :
    StableHlo.after (hostOps0 (F := F)) V (Proc.devRef .tc main_v35)
      = StageF.onehot (V (Proc.devRef .tc main_arg2)) := by
  rw [hostOps0_split]; simp only [StableHlo.after_append]
  rw [passE4 _ main_v35 (by decide),
    passE3 _ main_v35 (by decide),
    passE2 _ main_v35 (by decide),
    passE1 _ main_v35 (by decide),
    passD _ main_v35 (by decide),
    h0C_v35,
    passB _ main_arg2 (by decide),
    passA _ main_arg2 (by decide)]
  all_goals rfl

theorem host0_v36 (V : Valuation τ sig (Elt F)) :
    StableHlo.after (hostOps0 (F := F)) V (Proc.devRef .tc main_v36)
      = StageF.vn0 (V (Proc.devRef .tc main_arg7)) := by
  rw [hostOps0_split]; simp only [StableHlo.after_append]
  rw [passE4 _ main_v36 (by decide),
    passE3 _ main_v36 (by decide),
    passE2 _ main_v36 (by decide),
    passE1 _ main_v36 (by decide),
    passD _ main_v36 (by decide),
    h0C_v36,
    passB _ main_arg7 (by decide),
    passA _ main_arg7 (by decide)]
  all_goals rfl

theorem host0_v49 (V : Valuation τ sig (Elt F)) :
    StableHlo.after (hostOps0 (F := F)) V (Proc.devRef .tc main_v49)
      = StageF.prop (V (Proc.devRef .tc main_arg1)) (V (Proc.devRef .tc main_arg0)) := by
  rw [hostOps0_split]; simp only [StableHlo.after_append]
  rw [passE4 _ main_v49 (by decide),
    passE3 _ main_v49 (by decide),
    passE2 _ main_v49 (by decide),
    passE1 _ main_v49 (by decide),
    h0D_v49,
    passC _ main_v3 (by decide),
    passC _ main_v6 (by decide),
    passC _ main_v28 (by decide),
    passC _ main_arg0 (by decide),
    passB _ main_v3 (by decide),
    passB _ main_v6 (by decide),
    h0B_v28,
    passB _ main_arg0 (by decide),
    h0A_v3,
    h0A_v6,
    passA _ main_arg0 (by decide)]
  all_goals rfl

theorem host0_v63 (V : Valuation τ sig (Elt F)) :
    StableHlo.after (hostOps0 (F := F)) V (Proc.devRef .tc main_v63)
      = StageF.mean (StageF.lin0 (StageF.prop (V (Proc.devRef .tc main_arg1)) (V (Proc.devRef .tc main_arg0))) (V (Proc.devRef .tc main_arg3)) (V (Proc.devRef .tc main_arg4))) := by
  rw [hostOps0_split]; simp only [StableHlo.after_append]
  rw [passE4 _ main_v63 (by decide),
    passE3 _ main_v63 (by decide),
    h0E2_v63,
    h0E1_v59,
    h0D_v49,
    passD _ main_arg3 (by decide),
    passD _ main_arg4 (by decide),
    passC _ main_v3 (by decide),
    passC _ main_v6 (by decide),
    passC _ main_v28 (by decide),
    passC _ main_arg0 (by decide),
    passC _ main_arg3 (by decide),
    passC _ main_arg4 (by decide),
    passB _ main_v3 (by decide),
    passB _ main_v6 (by decide),
    h0B_v28,
    passB _ main_arg0 (by decide),
    passB _ main_arg3 (by decide),
    passB _ main_arg4 (by decide),
    h0A_v3,
    h0A_v6,
    passA _ main_arg0 (by decide),
    passA _ main_arg3 (by decide),
    passA _ main_arg4 (by decide)]
  all_goals rfl

theorem host0_v70 (V : Valuation τ sig (Elt F)) :
    StableHlo.after (hostOps0 (F := F)) V (Proc.devRef .tc main_v70)
      = StageF.var (StageF.lin0 (StageF.prop (V (Proc.devRef .tc main_arg1)) (V (Proc.devRef .tc main_arg0))) (V (Proc.devRef .tc main_arg3)) (V (Proc.devRef .tc main_arg4)))
          (StageF.mean (StageF.lin0 (StageF.prop (V (Proc.devRef .tc main_arg1)) (V (Proc.devRef .tc main_arg0))) (V (Proc.devRef .tc main_arg3)) (V (Proc.devRef .tc main_arg4)))) := by
  rw [hostOps0_split]; simp only [StableHlo.after_append]
  rw [passE4 _ main_v70 (by decide),
    h0E3_v70,
    passE2 _ main_v59 (by decide),
    h0E2_v63,
    h0E1_v59,
    h0D_v49,
    passD _ main_arg3 (by decide),
    passD _ main_arg4 (by decide),
    passC _ main_v3 (by decide),
    passC _ main_v6 (by decide),
    passC _ main_v28 (by decide),
    passC _ main_arg0 (by decide),
    passC _ main_arg3 (by decide),
    passC _ main_arg4 (by decide),
    passB _ main_v3 (by decide),
    passB _ main_v6 (by decide),
    h0B_v28,
    passB _ main_arg0 (by decide),
    passB _ main_arg3 (by decide),
    passB _ main_arg4 (by decide),
    h0A_v3,
    h0A_v6,
    passA _ main_arg0 (by decide),
    passA _ main_arg3 (by decide),
    passA _ main_arg4 (by decide)]
  all_goals rfl

theorem host0_v72 (V : Valuation τ sig (Elt F)) :
    StableHlo.after (hostOps0 (F := F)) V (Proc.devRef .tc main_v72)
      = StageF.sliceW0 (V (Proc.devRef .tc main_arg3)) := by
  rw [hostOps0_split]; simp only [StableHlo.after_append]
  rw [h0E4_v72,
    passE3 _ main_arg3 (by decide),
    passE2 _ main_arg3 (by decide),
    passE1 _ main_arg3 (by decide),
    passD _ main_arg3 (by decide),
    passC _ main_arg3 (by decide),
    passB _ main_arg3 (by decide),
    passA _ main_arg3 (by decide)]
  all_goals rfl

theorem host0_v75 (V : Valuation τ sig (Elt F)) :
    StableHlo.after (hostOps0 (F := F)) V (Proc.devRef .tc main_v75)
      = StageF.row0 (V (Proc.devRef .tc main_arg4)) := by
  rw [hostOps0_split]; simp only [StableHlo.after_append]
  rw [h0E4_v75,
    passE3 _ main_arg4 (by decide),
    passE2 _ main_arg4 (by decide),
    passE1 _ main_arg4 (by decide),
    passD _ main_arg4 (by decide),
    passC _ main_arg4 (by decide),
    passB _ main_arg4 (by decide),
    passA _ main_arg4 (by decide)]
  all_goals rfl

theorem host0_v78 (V : Valuation τ sig (Elt F)) :
    StableHlo.after (hostOps0 (F := F)) V (Proc.devRef .tc main_v78)
      = StageF.row0 (V (Proc.devRef .tc main_arg5)) := by
  rw [hostOps0_split]; simp only [StableHlo.after_append]
  rw [h0E4_v78,
    passE3 _ main_arg5 (by decide),
    passE2 _ main_arg5 (by decide),
    passE1 _ main_arg5 (by decide),
    passD _ main_arg5 (by decide),
    passC _ main_arg5 (by decide),
    passB _ main_arg5 (by decide),
    passA _ main_arg5 (by decide)]
  all_goals rfl

theorem host0_v81 (V : Valuation τ sig (Elt F)) :
    StableHlo.after (hostOps0 (F := F)) V (Proc.devRef .tc main_v81)
      = StageF.row0 (V (Proc.devRef .tc main_arg6)) := by
  rw [hostOps0_split]; simp only [StableHlo.after_append]
  rw [h0E4_v81,
    passE3 _ main_arg6 (by decide),
    passE2 _ main_arg6 (by decide),
    passE1 _ main_arg6 (by decide),
    passD _ main_arg6 (by decide),
    passC _ main_arg6 (by decide),
    passB _ main_arg6 (by decide),
    passA _ main_arg6 (by decide)]
  all_goals rfl

/-! ## The second stretch -/

theorem host1_v83 (V : Valuation τ sig (Elt F)) :
    StableHlo.after (hostOps1 (F := F)) V (Proc.devRef .tc main_v83)
      = StageF.vtOf (V (Proc.devRef .tc main_v82_1)) (V (Proc.devRef .tc main_v36)) := by
  after_results_simp; rfl

theorem host1_v85 (V : Valuation τ sig (Elt F)) :
    StableHlo.after (hostOps1 (F := F)) V (Proc.devRef .tc main_v85)
      = StageF.mlpA1 (V (Proc.devRef .tc main_arg8)) := by
  after_results_simp; rfl

theorem host1_v88 (V : Valuation τ sig (Elt F)) :
    StableHlo.after (hostOps1 (F := F)) V (Proc.devRef .tc main_v88)
      = StageF.mlpRowA1 (V (Proc.devRef .tc main_arg9)) := by
  after_results_simp; rfl

theorem host1_v91 (V : Valuation τ sig (Elt F)) :
    StableHlo.after (hostOps1 (F := F)) V (Proc.devRef .tc main_v91)
      = StageF.mlpRowA1 (V (Proc.devRef .tc main_arg10)) := by
  after_results_simp; rfl

theorem host1_v94 (V : Valuation τ sig (Elt F)) :
    StableHlo.after (hostOps1 (F := F)) V (Proc.devRef .tc main_v94)
      = StageF.mlpRowA1 (V (Proc.devRef .tc main_arg11)) := by
  after_results_simp; rfl

theorem host1_v96 (V : Valuation τ sig (Elt F)) :
    StableHlo.after (hostOps1 (F := F)) V (Proc.devRef .tc main_v96)
      = StageF.mlpB1 (V (Proc.devRef .tc main_arg12)) := by
  after_results_simp; rfl

theorem host1_v99 (V : Valuation τ sig (Elt F)) :
    StableHlo.after (hostOps1 (F := F)) V (Proc.devRef .tc main_v99)
      = StageF.mlpRowB1 (V (Proc.devRef .tc main_arg13)) := by
  after_results_simp; rfl

theorem host1_v102 (V : Valuation τ sig (Elt F)) :
    StableHlo.after (hostOps1 (F := F)) V (Proc.devRef .tc main_v102)
      = StageF.mlpRowB1 (V (Proc.devRef .tc main_arg14)) := by
  after_results_simp; rfl

theorem host1_v105 (V : Valuation τ sig (Elt F)) :
    StableHlo.after (hostOps1 (F := F)) V (Proc.devRef .tc main_v105)
      = StageF.mlpRowB1 (V (Proc.devRef .tc main_arg15)) := by
  after_results_simp; rfl

end Cert.KernelIdeal.Hand
-- ==== Proof.KI.Reg0Pay.lean ====
import proofs.«402460_j82824149336546_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! # One graph-convolution step with a virtual node, entry by entry, at the ideal values

A tile of 2000 node rows `x` is multiplied by the weight matrix, shifted by the bias, normalised by the
running mean and variance, scaled, shifted and clamped at zero; every node then receives the row of the
virtual node of its graph (the one-hot matrix `oh` times the virtual-node table `vn`); and the rows of the
tile are summed per graph onto a running table (`oh` transposed times the new rows). The three matrix
products are read here as explicit finite sums, the broadcast rows at their one row. -/

/-- The variance guard of the normalisation: the word the kernel adds to the variance. -/
abbrev eps0 : EReal := Ideal.ofBits .f32 0x3727C5AC#32

/-- One entry normalised, scaled, shifted and clamped at zero. -/
def normRelu0 (x mean var gamma beta : EReal) : EReal :=
  max (gamma * (x - mean) * Ideal.rsqrt (var + eps0) + beta) 0

/-! ## The three matrix products: which operand entries meet at a contraction position -/

theorem mmXW0_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmXW0_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mmXW0_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mmXW0_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile times the weights: entry (p, q) is the sum over the 128 input features. -/
theorem mmXW0_apply (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ j : Fin 128, x (ix2 p j) * w (ix2 j q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mmXW0_lhs_0 _ _
    | ⟨1, _⟩ => exact (mmXW0_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mmXW0_rhs_0 _ _).trans hk
    | ⟨1, _⟩ => exact mmXW0_rhs_1 _ _)
  rw [el, er]

/-! ## The broadcast rows and the pointwise pieces -/

/-- A [1,128] row broadcast down the 2000 rows of a tile reads its one row. -/
theorem bcastRow0_apply (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-- The reciprocal square root of a vector, at an index. -/
theorem rsqrt0_apply {s : Shape} {φ : FTy} (a : FVec Ideal s φ) (i : s.Idx) : rsqrt a i = Ideal.rsqrt (a i) := rfl

/-- The first payload: a tile of the normalised, clamped linear layer. -/
theorem kpay0_4_apply (x : Vec Ideal S2000x128 .f32) (w : Vec Ideal S128x128 .f32) (b var gamma mean beta : Vec Ideal S1x128 .f32)
    (p : Fin 2000) (q : Fin 128) :
    k0_pay4 x w b var gamma mean beta (ix2 p q)
      = normRelu0 ((∑ j : Fin 128, x (ix2 p j) * w (ix2 j q)) + b (ix2 0 q)) (mean (ix2 0 q)) (var (ix2 0 q)) (gamma (ix2 0 q)) (beta (ix2 0 q)) := by
  unfold k0_pay4 normRelu0
  simp only [shapeCast_self, maximumf_apply, addf_apply, mulf_apply, subf_apply, broadcast_apply, bcastRow0_apply, rsqrt0_apply,
    mmXW0_apply, truncf_apply, Ideal.ofBits_def, Ideal.ofBits_zero_f32]

/-! ## The one-hot products -/

theorem mmOV0_lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem mmOV0_lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem mmOV0_rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem mmOV0_rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The one-hot tile times the virtual-node table: entry (p, q) is the sum over the 512 graphs. -/
theorem mmOV0_apply (o : FVec Ideal S2000x512 .bf16) (v : FVec Ideal S512x128 .bf16) (p : Fin 2000) (q : Fin 128) :
    matmul dot_S2000x512_S512x128_S2000x128_1_0_0_1_n_n none o v (constant S2000x128 .f32 0x00000000#32) (ix2 p q)
      = ∑ g : Fin 512, o (ix2 p g) * v (ix2 g q) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact mmOV0_lhs_0 _ _
    | ⟨1, _⟩ => exact (mmOV0_lhs_1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (mmOV0_rhs_0 _ _).trans hk
    | ⟨1, _⟩ => exact mmOV0_rhs_1 _ _)
  rw [el, er]

theorem mmOtH0_lhs_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem mmOtH0_lhs_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem mmOtH0_rhs_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem mmOtH0_rhs_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The one-hot tile transposed times the tile's new rows: entry (g, q) is the sum over the tile's 2000 rows. -/
theorem mmOtH0_apply (o : FVec Ideal S2000x512 .bf16) (h : FVec Ideal S2000x128 .bf16) (g : Fin 512) (q : Fin 128) :
    matmul dot_S2000x512_S2000x128_S512x128_0_0_1_1_n_n none o h (constant S512x128 .f32 0x00000000#32) (ix2 g q)
      = ∑ r : Fin 2000, o (ix2 r g) * h (ix2 r q) := by
  simp only [matmul]
  rw [Ideal.matmul_constant_zero_apply, ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g q) ((contrEquiv1 dot_S2000x512_S2000x128_S512x128_0_0_1_1_n_n 2000 rfl rfl).symm k) = ix2 k g := funext fun a => Fin.ext (by
    match a with
    | ⟨0, _⟩ => exact (mmOtH0_lhs_0 _ _).trans hk
    | ⟨1, _⟩ => exact mmOtH0_lhs_1 _ _)
  have er : dot_S2000x512_S2000x128_S512x128_0_0_1_1_n_n.rhsIdx (ix2 g q) ((contrEquiv1 dot_S2000x512_S2000x128_S512x128_0_0_1_1_n_n 2000 rfl rfl).symm k) = ix2 k q := funext fun a => Fin.ext (by
    match a with
    | ⟨0, _⟩ => exact (mmOtH0_rhs_0 _ _).trans hk
    | ⟨1, _⟩ => exact mmOtH0_rhs_1 _ _)
  rw [el, er]

/-- The second payload: the tile's new rows — the clamped layer plus each node's virtual-node row. -/
theorem kpay0_1_apply (a : FVec Ideal S2000x128 .f32) (o : FVec Ideal S2000x512 .bf16) (vn : Vec Ideal S512x128 .f32) (p : Fin 2000) (q : Fin 128) :
    k0_pay1 a o vn (ix2 p q) = a (ix2 p q) + ∑ g : Fin 512, o (ix2 p g) * vn (ix2 g q) := by
  unfold k0_pay1
  simp only [shapeCast_self, addf_apply, mmOV0_apply, truncf_apply]

/-- The third payload: the running per-graph table plus the tile's rows summed per graph. -/
theorem kpay0_2_apply (a : FVec Ideal S2000x128 .f32) (o : FVec Ideal S2000x512 .bf16) (vn : Vec Ideal S512x128 .f32) (acc : Vec Ideal S512x128 .f32)
    (g : Fin 512) (q : Fin 128) :
    k0_pay2 a o vn acc (ix2 g q) = acc (ix2 g q) + ∑ r : Fin 2000, o (ix2 r g) * k0_pay1 a o vn (ix2 r q) := by
  unfold k0_pay2
  simp only [shapeCast_self, addf_apply, mmOtH0_apply, truncf_apply]

/-- The table a run starts from: zero everywhere. -/
theorem kpay0_3_apply (i : S512x128.Idx) : k0_pay3 (F := Ideal) i = 0 := by
  unfold k0_pay3
  simp only [shapeCast_self, broadcast_apply, Ideal.ofBits_def, Ideal.ofBits_zero_f32]

/-- The one-hot tile is passed on as loaded. -/
theorem kpay0_5_eq (o : Vec Ideal S2000x512 .bf16) : k0_pay5 o = o := by
  unfold k0_pay5
  simp only [shapeCast_self]

/-! ## The step over all 50000 nodes -/

/-- The new feature `k` of node `n`: the normalised, clamped linear layer of the node's old features plus the
    virtual-node row of the node's graph. -/
def hnew0 (hp : Vec Ideal S50000x128 .f32) (W : Vec Ideal S128x128 .f32) (b mean var gamma beta : Vec Ideal S1x128 .f32)
    (oh : Vec Ideal S50000x512 .bf16) (vn : Vec Ideal S512x128 .f32) (n : Fin 50000) (k : Fin 128) : EReal :=
  normRelu0 ((∑ j : Fin 128, hp (ix2 n j) * W (ix2 j k)) + b (ix2 0 k)) (mean (ix2 0 k)) (var (ix2 0 k)) (gamma (ix2 0 k)) (beta (ix2 0 k))
    + ∑ g : Fin 512, oh (ix2 n g) * vn (ix2 g k)

/-- The new node features as one array. -/
def G0_9 (hp : Vec Ideal S50000x128 .f32) (W : Vec Ideal S128x128 .f32) (b mean var gamma beta : Vec Ideal S1x128 .f32)
    (oh : Vec Ideal S50000x512 .bf16) (vn : Vec Ideal S512x128 .f32) : S50000x128.Idx → EReal :=
  fun i => hnew0 hp W b mean var gamma beta oh vn (i 0) (i 1)

/-- The new node features summed per graph: entry (g, k) adds feature `k` of every node of graph `g`. -/
def G0_10 (hp : Vec Ideal S50000x128 .f32) (W : Vec Ideal S128x128 .f32) (b mean var gamma beta : Vec Ideal S1x128 .f32)
    (oh : Vec Ideal S50000x512 .bf16) (vn : Vec Ideal S512x128 .f32) : S512x128.Idx → EReal :=
  fun i => ∑ n : Fin 50000, oh (ix2 n (i 0)) * hnew0 hp W b mean var gamma beta oh vn n (i 1)

/-- Row `r` of tile `i` among the 50000 node rows. -/
def tileRow0 (i : Fin 25) (r : Fin 2000) : Fin 50000 :=
  ⟨2000 * i.val + r.val, by have := i.isLt; have := r.isLt; omega⟩

/-- Summing tile by tile, and inside a tile row by row, is summing over all the rows. -/
theorem sum_tiles0 {M : Type*} [AddCommMonoid M] (f : Fin 50000 → M) :
    ∑ i : Fin 25, ∑ r : Fin 2000, f (tileRow0 i r) = ∑ n : Fin 50000, f n := by
  have e := Equiv.sum_comp (finProdFinEquiv (m := 25) (n := 2000)) (fun y : Fin (25 * 2000) => f y)
  rw [Fintype.sum_prod_type] at e
  refine Eq.trans (Finset.sum_congr rfl fun i _ => Finset.sum_congr rfl fun r _ => ?_) e
  refine congrArg f (Fin.ext ?_)
  show 2000 * i.val + r.val = r.val + 2000 * i.val
  omega

end Cert.KernelIdeal.Hand

end
-- ==== Proof.KI.Reg0Value.lean ====
import proofs.«402460_j82824149336546_1_alg».proof.Proof.KI.Reg0
import proofs.«402460_j82824149336546_1_alg».proof.Proof.KI.Reg0Pay
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

/-! # Region 0's two results as functions of its nine input arrays, at the ideal values

The 25 grid points each take one tile of 2000 node rows. Every point stores the tile's new rows into the first
result, so the 25 tiles make up the whole [50000,128] array. A running [512,128] table, zeroed at the first point,
gathers the tile's rows summed per graph at every point and is copied into the second result at the last point:
the second result is the sum over all 50000 nodes. -/

theorem hz0 : (![0, 0] : Fin 2 → Nat) = fun _ => 0 := funext fun a => by fin_cases a <;> rfl

/-! ## What each case of the body leaves, as the payloads of the buffers' contents -/

section Pieces
variable {F : FTy → Type} [FloatOps F]

/-- At the first point the first output's buffer is left holding the tile's new rows. -/
theorem out0_A_9_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay1 (k0_pay4 x0 x1 x2 x4 x5 x3 x6) (k0_pay5 x7) x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  try sl_unfold_words
  rw [View.canon_unit_zero hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

/-- At a middle point likewise. -/
theorem out0_B_9_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay1 (k0_pay4 x0 x1 x2 x4 x5 x3 x6) (k0_pay5 x7) x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

/-- At the last point likewise. -/
theorem out0_C_9_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay1 (k0_pay4 x0 x1 x2 x4 x5 x3 x6) (k0_pay5 x7) x8 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  try sl_unfold_words
  rw [View.canon_unit_zero hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

/-- At the first point the running table is zeroed, then the tile's per-graph sums are added onto it. -/
theorem sout0_A_0_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay2 (k0_pay4 x0 x1 x2 x4 x5 x3 x6) (k0_pay5 x7) x8 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  try sl_unfold_words
  rw [View.canon_cons_unit_zero (S := S512x128) hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

/-- At a middle point the tile's per-graph sums are added onto what the running table held. -/
theorem sout0_B_0_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (k0_pay4 x0 x1 x2 x4 x5 x3 x6) (k0_pay5 x7) x8 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

/-- At the last point likewise, -/
theorem sout0_C_0_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (k0_pay4 x0 x1 x2 x4 x5 x3 x6) (k0_pay5 x7) x8 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  try sl_unfold_words
  rw [View.canon_unit_zero hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

/-- and the second output's buffer is left holding the running table just updated. -/
theorem out0_C_10_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2000x512 .bf16) (harg8 : arg8.IsWhole) (arg9 : Memref sig .tc .vmem S512x128 .f32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S2000x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S2000x512 .bf16) (x8 : Vec F S512x128 .f32) (xs0 : Vec F S512x128 .f32) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (k0_pay4 x0 x1 x2 x4 x5 x3 x6) (k0_pay5 x7) x8 xs0 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  try sl_unfold_words
  rw [View.canon_unit_zero hz0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz0, View.ld_unit_zero (S := S128x128) hz0, View.ld_unit_zero (S := S1x128) hz0, View.ld_unit_zero (S := S2000x512) hz0, View.ld_unit_zero (S := S512x128) hz0, View.readCov_unit_zero (S := S512x128) _ hz0]

end Pieces

/-! ## What the buffers hold after each point, in the payloads of the point's blocks -/

section Components
variable {F : FTy → Type} [FloatOps F]
variable (V : (c : Dev nD) → (b : Ref sig .tc) → Buf (Elt F) ((c : Thread nD τ).loc b))

/-- The clamped, normalised linear layer of the tile point `t` stages. -/
def act0 (c : Dev nD) (t : Fin cfg0.N) : FVec F S2000x128 .f32 :=
  k0_pay4 (iblk0 V c 0 t) (iblk0 V c 1 t) (iblk0 V c 2 t) (iblk0 V c 4 t) (iblk0 V c 5 t) (iblk0 V c 3 t) (iblk0 V c 6 t)

/-- The new rows of that tile. -/
def rows0 (c : Dev nD) (t : Fin cfg0.N) : FVec F S2000x128 .f32 :=
  k0_pay1 (act0 V c t) (k0_pay5 (iblk0 V c 7 t)) (iblk0 V c 8 t)

/-- The running per-graph table after the tile's rows are added onto `acc`. -/
def upd0 (c : Dev nD) (t : Fin cfg0.N) (acc : Vec F S512x128 .f32) : FVec F S512x128 .f32 :=
  k0_pay2 (act0 V c t) (k0_pay5 (iblk0 V c 7 t)) (iblk0 V c 8 t) acc

/-- After every point the first output's buffer holds the tile's new rows. -/
theorem outs0_rows (c : Dev nD) (t : Fin cfg0.N) : (outsAt0 V c t.val t.isLt).1 = rows0 V c t := by
  unfold rows0 act0
  by_cases h0 : t.val = 0
  · rw [outsAt0_A V c t h0]
    dsimp only
    exact out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t)
  · by_cases h1 : t.val = 24
    · rw [outsAt0_C V c t h0 h1]
      dsimp only
      exact out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2
    · rw [outsAt0_B V c t h0 h1]
      dsimp only
      exact out0_B_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2

/-- After the first point the running table is the first tile's sums over the zero table. -/
theorem outs0_table_first (c : Dev nD) (t : Fin cfg0.N) (h0 : t.val = 0) :
    (outsAt0 V c t.val t.isLt).2.2 = upd0 V c t k0_pay3 := by
  unfold upd0 act0
  rw [outsAt0_A V c t h0]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hA0_0 t h0) (hA0_1 t h0) (iblk0 V c 0 t) (iblk0 V c 1 t) (iblk0 V c 2 t) (iblk0 V c 3 t) (iblk0 V c 4 t) (iblk0 V c 5 t) (iblk0 V c 6 t) (iblk0 V c 7 t) (iblk0 V c 8 t)

/-- After a later point it is that point's tile's sums over what the point before left. -/
theorem outs0_table_next (c : Dev nD) (t : Fin cfg0.N) (h0 : t.val ≠ 0) :
    (outsAt0 V c t.val t.isLt).2.2 = upd0 V c t (outsAt0 V c (t.val - 1) (Nat.lt_of_le_of_lt (Nat.sub_le _ _) t.isLt)).2.2 := by
  unfold upd0 act0
  by_cases h1 : t.val = 24
  · rw [outsAt0_C V c t h0 h1]
    dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2
  · rw [outsAt0_B V c t h0 h1]
    dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hB0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2

/-- After the last point the second output's buffer holds the running table. -/
theorem outs0_second_last (c : Dev nD) (t : Fin cfg0.N) (h1 : t.val = 24) :
    (outsAt0 V c t.val t.isLt).2.1 = (outsAt0 V c t.val t.isLt).2.2 := by
  have h0 : t.val ≠ 0 := by omega
  rw [outsAt0_C V c t h0 h1]
  dsimp only
  exact (out0_C_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2).trans
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (hB0_0 t h0) (hC0_1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2).symm

end Components

/-! ## Where each window's block sits in its array -/

/-- The tile a grid point stages, among the 25. -/
def tile0 (t : Fin cfg0.N) : Fin 25 := ⟨t.val, lt_of_lt_of_eq t.isLt N_0⟩

/-- The block indices of the eleven windows, decided over the grid: the node rows, the one-hot rows and the first
    result move with the point; the weights, the five one-row parameters, the virtual-node table and the second
    result stay at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = 0 ∧ win0_10.index t (1 : Fin 2) = 0 :=
  (by decide +kernel : ∀ t : Fin grid0.N, _)

/-- The node-feature block of point `t` is tile `t`'s rows, at its own columns. -/
theorem emb0_0 (t : Fin cfg0.N) (p : Fin 2000) (j : Fin 128) :
    ((cfg0.win 0).blk t).view.emb (ix2 p j) = ix2 (tileRow0 (tile0 t) p) j := by
  obtain ⟨e0, e1, -⟩ := idx_facts0 t
  funext a; apply Fin.ext
  match a with
  | ⟨0, _⟩ => show win0_0.index t (0 : Fin 2) * 2000 + 1 * p.val = 2000 * t.val + p.val; omega
  | ⟨1, _⟩ => show win0_0.index t (1 : Fin 2) * 128 + 1 * j.val = j.val; omega

/-- The weights' one block is the whole array. -/
theorem emb0_1 (t : Fin cfg0.N) (a b : Fin 128) : ((cfg0.win 1).blk t).view.emb (ix2 a b) = ix2 a b := by
  obtain ⟨-, -, e0, e1, -⟩ := idx_facts0 t
  funext x; apply Fin.ext
  match x with
  | ⟨0, _⟩ => show win0_1.index t (0 : Fin 2) * 128 + 1 * a.val = a.val; omega
  | ⟨1, _⟩ => show win0_1.index t (1 : Fin 2) * 128 + 1 * b.val = b.val; omega

/-- Window 2's one block is its whole one-row array. -/
theorem emb0_2 (t : Fin cfg0.N) (b : Fin 128) : ((cfg0.win 2).blk t).view.emb (ix2 (0 : Fin 1) b) = ix2 (0 : Fin 1) b := by
  obtain ⟨-, -, -, -, e0, e1, -⟩ := idx_facts0 t
  funext x; apply Fin.ext
  match x with
  | ⟨0, _⟩ => show win0_2.index t (0 : Fin 2) * 1 + 1 * (0 : Fin 1).val = (0 : Fin 1).val; simp only [Fin.val_zero]; omega
  | ⟨1, _⟩ => show win0_2.index t (1 : Fin 2) * 128 + 1 * b.val = b.val; omega

/-- Window 3's one block is its whole one-row array. -/
theorem emb0_3 (t : Fin cfg0.N) (b : Fin 128) : ((cfg0.win 3).blk t).view.emb (ix2 (0 : Fin 1) b) = ix2 (0 : Fin 1) b := by
  obtain ⟨-, -, -, -, -, -, e0, e1, -⟩ := idx_facts0 t
  funext x; apply Fin.ext
  match x with
  | ⟨0, _⟩ => show win0_3.index t (0 : Fin 2) * 1 + 1 * (0 : Fin 1).val = (0 : Fin 1).val; simp only [Fin.val_zero]; omega
  | ⟨1, _⟩ => show win0_3.index t (1 : Fin 2) * 128 + 1 * b.val = b.val; omega

/-- Window 4's one block is its whole one-row array. -/
theorem emb0_4 (t : Fin cfg0.N) (b : Fin 128) : ((cfg0.win 4).blk t).view.emb (ix2 (0 : Fin 1) b) = ix2 (0 : Fin 1) b := by
  obtain ⟨-, -, -, -, -, -, -, -, e0, e1, -⟩ := idx_facts0 t
  funext x; apply Fin.ext
  match x with
  | ⟨0, _⟩ => show win0_4.index t (0 : Fin 2) * 1 + 1 * (0 : Fin 1).val = (0 : Fin 1).val; simp only [Fin.val_zero]; omega
  | ⟨1, _⟩ => show win0_4.index t (1 : Fin 2) * 128 + 1 * b.val = b.val; omega

/-- Window 5's one block is its whole one-row array. -/
theorem emb0_5 (t : Fin cfg0.N) (b : Fin 128) : ((cfg0.win 5).blk t).view.emb (ix2 (0 : Fin 1) b) = ix2 (0 : Fin 1) b := by
  obtain ⟨-, -, -, -, -, -, -, -, -, -, e0, e1, -⟩ := idx_facts0 t
  funext x; apply Fin.ext
  match x with
  | ⟨0, _⟩ => show win0_5.index t (0 : Fin 2) * 1 + 1 * (0 : Fin 1).val = (0 : Fin 1).val; simp only [Fin.val_zero]; omega
  | ⟨1, _⟩ => show win0_5.index t (1 : Fin 2) * 128 + 1 * b.val = b.val; omega

/-- Window 6's one block is its whole one-row array. -/
theorem emb0_6 (t : Fin cfg0.N) (b : Fin 128) : ((cfg0.win 6).blk t).view.emb (ix2 (0 : Fin 1) b) = ix2 (0 : Fin 1) b := by
  obtain ⟨-, -, -, -, -, -, -, -, -, -, -, -, e0, e1, -⟩ := idx_facts0 t
  funext x; apply Fin.ext
  match x with
  | ⟨0, _⟩ => show win0_6.index t (0 : Fin 2) * 1 + 1 * (0 : Fin 1).val = (0 : Fin 1).val; simp only [Fin.val_zero]; omega
  | ⟨1, _⟩ => show win0_6.index t (1 : Fin 2) * 128 + 1 * b.val = b.val; omega

/-- The one-hot block of point `t` is tile `t`'s rows, at its own columns. -/
theorem emb0_7 (t : Fin cfg0.N) (p : Fin 2000) (g : Fin 512) :
    ((cfg0.win 7).blk t).view.emb (ix2 p g) = ix2 (tileRow0 (tile0 t) p) g := by
  obtain ⟨-, -, -, -, -, -, -, -, -, -, -, -, -, -, e0, e1, -⟩ := idx_facts0 t
  funext a; apply Fin.ext
  match a with
  | ⟨0, _⟩ => show win0_7.index t (0 : Fin 2) * 2000 + 1 * p.val = 2000 * t.val + p.val; omega
  | ⟨1, _⟩ => show win0_7.index t (1 : Fin 2) * 512 + 1 * g.val = g.val; omega

/-- The virtual-node table's one block is the whole array. -/
theorem emb0_8 (t : Fin cfg0.N) (g : Fin 512) (k : Fin 128) : ((cfg0.win 8).blk t).view.emb (ix2 g k) = ix2 g k := by
  obtain ⟨-, -, -, -, -, -, -, -, -, -, -, -, -, -, -, -, e0, e1, -⟩ := idx_facts0 t
  funext x; apply Fin.ext
  match x with
  | ⟨0, _⟩ => show win0_8.index t (0 : Fin 2) * 512 + 1 * g.val = g.val; omega
  | ⟨1, _⟩ => show win0_8.index t (1 : Fin 2) * 128 + 1 * k.val = k.val; omega

/-- The first result's block of point `t` is tile `t`'s rows. -/
theorem emb0_9 (t : Fin cfg0.N) (p : Fin 2000) (q : Fin 128) :
    ((cfg0.win 9).blk t).view.emb (ix2 p q) = ix2 (tileRow0 (tile0 t) p) q := by
  obtain ⟨-, -, -, -, -, -, -, -, -, -, -, -, -, -, -, -, -, -, e0, e1, -⟩ := idx_facts0 t
  funext a; apply Fin.ext
  match a with
  | ⟨0, _⟩ => show win0_9.index t (0 : Fin 2) * 2000 + 1 * p.val = 2000 * t.val + p.val; omega
  | ⟨1, _⟩ => show win0_9.index t (1 : Fin 2) * 128 + 1 * q.val = q.val; omega

/-- The second result's one block is the whole array. -/
theorem emb0_10 (t : Fin cfg0.N) (g : Fin 512) (q : Fin 128) : ((cfg0.win 10).blk t).view.emb (ix2 g q) = ix2 g q := by
  obtain ⟨-, -, -, -, -, -, -, -, -, -, -, -, -, -, -, -, -, -, -, -, e0, e1⟩ := idx_facts0 t
  funext x; apply Fin.ext
  match x with
  | ⟨0, _⟩ => show win0_10.index t (0 : Fin 2) * 512 + 1 * g.val = g.val; omega
  | ⟨1, _⟩ => show win0_10.index t (1 : Fin 2) * 128 + 1 * q.val = q.val; omega

/-! ## The results' blocks in their arrays -/

/-- An index of the first result is in point `t`'s block iff each coordinate is in the block's range on its axis. -/
theorem mem_blk0_9 (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v82_0).slice (win0_9.rect t)).set ↔ _
  rw [View.set_slice_whole, Rect.mem_set_unit]
  exact Iff.rfl

/-- Every row of the first result is in the block of the point that stages its tile. -/
theorem covered0_9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 25 := N_0
  let t : Fin cfg0.N := ⟨(i 0).val / 2000, by omega⟩
  obtain ⟨-, -, -, -, -, -, -, -, -, -, -, -, -, -, -, -, -, -, e0, e1, -⟩ := idx_facts0 t
  have ht : t.val = (i 0).val / 2000 := rfl
  refine ⟨t, flush0_9 t, ?_⟩
  rw [mem_blk0_9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- An index of the second result is in point `t`'s block iff each coordinate is in the block's range on its axis. -/
theorem mem_blk0_10 (t : Fin cfg0.N) (i : S512x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v82_1).slice (win0_10.rect t)).set ↔ _
  rw [View.set_slice_whole, Rect.mem_set_unit]
  exact Iff.rfl

/-- The last point's block of the second result is the whole array. -/
theorem covered0_10 (i : S512x128.Idx) : ∃ t : Fin cfg0.N, (cfg0.win 10).flush t = true ∧ i ∈ ((cfg0.win 10).blk t).view.set := by
  have hi0 : (i 0).val < 512 := (i 0).isLt
  have hi1 : (i 1).val < 128 := (i 1).isLt
  have hN : cfg0.N = 25 := N_0
  let t : Fin cfg0.N := ⟨24, by omega⟩
  obtain ⟨-, -, -, -, -, -, -, -, -, -, -, -, -, -, -, -, -, -, -, -, e0, e1⟩ := idx_facts0 t
  refine ⟨t, (flush0_10 t).mpr rfl, ?_⟩
  rw [mem_blk0_10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 128 ≤ (i 1).val ∧ (i 1).val < win0_10.index t (1 : Fin 2) * 128 + 128; omega

/-! ## The payloads of blocks that are restrictions of the arrays -/

/-- The new rows of a tile whose blocks are the arrays' restrictions: row `p` is node `n`'s new features. -/
theorem rows_of_blocks0 (x0 : Vec Ideal S2000x128 .f32) (x1 : Vec Ideal S128x128 .f32) (x2 : Vec Ideal S1x128 .f32) (x3 : Vec Ideal S1x128 .f32) (x4 : Vec Ideal S1x128 .f32) (x5 : Vec Ideal S1x128 .f32) (x6 : Vec Ideal S1x128 .f32) (x7 : Vec Ideal S2000x512 .bf16) (x8 : Vec Ideal S512x128 .f32)
    (A0 : Vec Ideal S50000x128 .f32) (A1 : Vec Ideal S128x128 .f32) (A2 : Vec Ideal S1x128 .f32) (A3 : Vec Ideal S1x128 .f32) (A4 : Vec Ideal S1x128 .f32) (A5 : Vec Ideal S1x128 .f32) (A6 : Vec Ideal S1x128 .f32) (A7 : Vec Ideal S50000x512 .bf16) (A8 : Vec Ideal S512x128 .f32) (n : Fin 50000) (p : Fin 2000) (q : Fin 128)
    (h0 : ∀ j : Fin 128, x0 (ix2 p j) = A0 (ix2 n j)) (h1 : ∀ a b : Fin 128, x1 (ix2 a b) = A1 (ix2 a b))
    (h2 : ∀ b : Fin 128, x2 (ix2 (0 : Fin 1) b) = A2 (ix2 (0 : Fin 1) b)) (h3 : ∀ b : Fin 128, x3 (ix2 (0 : Fin 1) b) = A3 (ix2 (0 : Fin 1) b)) (h4 : ∀ b : Fin 128, x4 (ix2 (0 : Fin 1) b) = A4 (ix2 (0 : Fin 1) b)) (h5 : ∀ b : Fin 128, x5 (ix2 (0 : Fin 1) b) = A5 (ix2 (0 : Fin 1) b)) (h6 : ∀ b : Fin 128, x6 (ix2 (0 : Fin 1) b) = A6 (ix2 (0 : Fin 1) b))
    (h7 : ∀ g : Fin 512, x7 (ix2 p g) = A7 (ix2 n g)) (h8 : ∀ (g : Fin 512) (k : Fin 128), x8 (ix2 g k) = A8 (ix2 g k)) :
    k0_pay1 (k0_pay4 x0 x1 x2 x4 x5 x3 x6) (k0_pay5 x7) x8 (ix2 p q) = hnew0 A0 A1 A2 A3 A4 A5 A6 A7 A8 n q := by
  unfold hnew0
  rw [kpay0_1_apply, kpay0_4_apply, kpay0_5_eq]
  simp only [h0, h1, h2, h3, h4, h5, h6, h7, h8]

/-- The running table after a tile whose blocks are the arrays' restrictions: each entry gains the tile's rows of
    that graph. -/
theorem table_of_blocks0 (x0 : Vec Ideal S2000x128 .f32) (x1 : Vec Ideal S128x128 .f32) (x2 : Vec Ideal S1x128 .f32) (x3 : Vec Ideal S1x128 .f32) (x4 : Vec Ideal S1x128 .f32) (x5 : Vec Ideal S1x128 .f32) (x6 : Vec Ideal S1x128 .f32) (x7 : Vec Ideal S2000x512 .bf16) (x8 : Vec Ideal S512x128 .f32) (acc : Vec Ideal S512x128 .f32)
    (A0 : Vec Ideal S50000x128 .f32) (A1 : Vec Ideal S128x128 .f32) (A2 : Vec Ideal S1x128 .f32) (A3 : Vec Ideal S1x128 .f32) (A4 : Vec Ideal S1x128 .f32) (A5 : Vec Ideal S1x128 .f32) (A6 : Vec Ideal S1x128 .f32) (A7 : Vec Ideal S50000x512 .bf16) (A8 : Vec Ideal S512x128 .f32) (i : Fin 25) (g : Fin 512) (q : Fin 128)
    (h0 : ∀ (p : Fin 2000) (j : Fin 128), x0 (ix2 p j) = A0 (ix2 (tileRow0 i p) j)) (h1 : ∀ a b : Fin 128, x1 (ix2 a b) = A1 (ix2 a b))
    (h2 : ∀ b : Fin 128, x2 (ix2 (0 : Fin 1) b) = A2 (ix2 (0 : Fin 1) b)) (h3 : ∀ b : Fin 128, x3 (ix2 (0 : Fin 1) b) = A3 (ix2 (0 : Fin 1) b)) (h4 : ∀ b : Fin 128, x4 (ix2 (0 : Fin 1) b) = A4 (ix2 (0 : Fin 1) b)) (h5 : ∀ b : Fin 128, x5 (ix2 (0 : Fin 1) b) = A5 (ix2 (0 : Fin 1) b)) (h6 : ∀ b : Fin 128, x6 (ix2 (0 : Fin 1) b) = A6 (ix2 (0 : Fin 1) b))
    (h7 : ∀ (p : Fin 2000) (g : Fin 512), x7 (ix2 p g) = A7 (ix2 (tileRow0 i p) g)) (h8 : ∀ (g : Fin 512) (k : Fin 128), x8 (ix2 g k) = A8 (ix2 g k)) :
    k0_pay2 (k0_pay4 x0 x1 x2 x4 x5 x3 x6) (k0_pay5 x7) x8 acc (ix2 g q)
      = acc (ix2 g q) + ∑ r : Fin 2000, A7 (ix2 (tileRow0 i r) g) * hnew0 A0 A1 A2 A3 A4 A5 A6 A7 A8 (tileRow0 i r) q := by
  rw [kpay0_2_apply]
  refine congrArg (acc (ix2 g q) + ·) (Finset.sum_congr rfl fun r _ => ?_)
  rw [rows_of_blocks0 x0 x1 x2 x3 x4 x5 x6 x7 x8 A0 A1 A2 A3 A4 A5 A6 A7 A8 (tileRow0 i r) r q (fun j => h0 r j) h1 h2 h3 h4 h5 h6 (fun g => h7 r g) h8,
    kpay0_5_eq, h7]

/-! ## The blocks the points stage are the arrays' restrictions -/

section AtIdeal
variable (V : (c : Dev nD) → (b : Ref sig .tc) → Buf (Elt Ideal) ((c : Thread nD τ).loc b))

/-- The one-hot array as the region finds it, at its literal type. -/
abbrev ohArr0 (c : Dev nD) : Vec Ideal S50000x512 .bf16 := V c main_v35

theorem blk0_0 (c : Dev nD) (t : Fin cfg0.N) (p : Fin 2000) (j : Fin 128) :
    (iblk0 V c 0 t : Vec Ideal S2000x128 .f32) (ix2 p j) = (V c main_v49 : Vec Ideal S50000x128 .f32) (ix2 (tileRow0 (tile0 t) p) j) :=
  congrArg (V c main_v49 : S50000x128.Idx → EReal) (emb0_0 t p j)
theorem blk0_1 (c : Dev nD) (t : Fin cfg0.N) (a b : Fin 128) :
    (iblk0 V c 1 t : Vec Ideal S128x128 .f32) (ix2 a b) = (V c main_v72 : Vec Ideal S128x128 .f32) (ix2 a b) :=
  congrArg (V c main_v72 : S128x128.Idx → EReal) (emb0_1 t a b)
theorem blk0_2 (c : Dev nD) (t : Fin cfg0.N) (b : Fin 128) :
    (iblk0 V c 2 t : Vec Ideal S1x128 .f32) (ix2 (0 : Fin 1) b) = (V c main_v75 : Vec Ideal S1x128 .f32) (ix2 (0 : Fin 1) b) :=
  congrArg (V c main_v75 : S1x128.Idx → EReal) (emb0_2 t b)
theorem blk0_3 (c : Dev nD) (t : Fin cfg0.N) (b : Fin 128) :
    (iblk0 V c 3 t : Vec Ideal S1x128 .f32) (ix2 (0 : Fin 1) b) = (V c main_v63 : Vec Ideal S1x128 .f32) (ix2 (0 : Fin 1) b) :=
  congrArg (V c main_v63 : S1x128.Idx → EReal) (emb0_3 t b)
theorem blk0_4 (c : Dev nD) (t : Fin cfg0.N) (b : Fin 128) :
    (iblk0 V c 4 t : Vec Ideal S1x128 .f32) (ix2 (0 : Fin 1) b) = (V c main_v70 : Vec Ideal S1x128 .f32) (ix2 (0 : Fin 1) b) :=
  congrArg (V c main_v70 : S1x128.Idx → EReal) (emb0_4 t b)
theorem blk0_5 (c : Dev nD) (t : Fin cfg0.N) (b : Fin 128) :
    (iblk0 V c 5 t : Vec Ideal S1x128 .f32) (ix2 (0 : Fin 1) b) = (V c main_v78 : Vec Ideal S1x128 .f32) (ix2 (0 : Fin 1) b) :=
  congrArg (V c main_v78 : S1x128.Idx → EReal) (emb0_5 t b)
theorem blk0_6 (c : Dev nD) (t : Fin cfg0.N) (b : Fin 128) :
    (iblk0 V c 6 t : Vec Ideal S1x128 .f32) (ix2 (0 : Fin 1) b) = (V c main_v81 : Vec Ideal S1x128 .f32) (ix2 (0 : Fin 1) b) :=
  congrArg (V c main_v81 : S1x128.Idx → EReal) (emb0_6 t b)
theorem blk0_7 (c : Dev nD) (t : Fin cfg0.N) (p : Fin 2000) (g : Fin 512) :
    (iblk0 V c 7 t : Vec Ideal S2000x512 .bf16) (ix2 p g) = (V c main_v35 : Vec Ideal S50000x512 .bf16) (ix2 (tileRow0 (tile0 t) p) g) :=
  congrArg (V c main_v35 : S50000x512.Idx → EReal) (emb0_7 t p g)
theorem blk0_8 (c : Dev nD) (t : Fin cfg0.N) (g : Fin 512) (k : Fin 128) :
    (iblk0 V c 8 t : Vec Ideal S512x128 .f32) (ix2 g k) = (V c main_v36 : Vec Ideal S512x128 .f32) (ix2 g k) :=
  congrArg (V c main_v36 : S512x128.Idx → EReal) (emb0_8 t g k)

/-! ## The first result: the 25 tiles of new rows -/

/-- Row `p` of the new rows of point `t`'s tile is the new features of node `2000 t + p`. -/
theorem rows0_apply (c : Dev nD) (t : Fin cfg0.N) (p : Fin 2000) (q : Fin 128) :
    rows0 V c t (ix2 p q) = hnew0 (V c main_v49) (V c main_v72) (V c main_v75) (V c main_v63) (V c main_v70) (V c main_v78) (V c main_v81) (V c main_v35) (V c main_v36) (tileRow0 (tile0 t) p) q := by
  unfold rows0 act0
  exact rows_of_blocks0 (iblk0 V c 0 t) (iblk0 V c 1 t) (iblk0 V c 2 t) (iblk0 V c 3 t) (iblk0 V c 4 t) (iblk0 V c 5 t) (iblk0 V c 6 t) (iblk0 V c 7 t) (iblk0 V c 8 t) (V c main_v49) (V c main_v72) (V c main_v75) (V c main_v63) (V c main_v70) (V c main_v78) (V c main_v81) (V c main_v35) (V c main_v36) (tileRow0 (tile0 t) p) p q (fun j => blk0_0 V c t p j) (blk0_1 V c t) (blk0_2 V c t) (blk0_3 V c t) (blk0_4 V c t) (blk0_5 V c t) (blk0_6 V c t) (fun g => blk0_7 V c t p g) (blk0_8 V c t)

/-- What point `t` writes back to the first result is block `t` of the closed form. -/
theorem flushed0_9_eq (c : Dev nD) (t : Fin cfg0.N) :
    (dat0 (F := Ideal) V c).flushed 9 t = ((cfg0.win 9).blk t).view.read (Elt Ideal) (G0_9 (V c main_v49) (V c main_v72) (V c main_v75) (V c main_v63) (V c main_v70) (V c main_v78) (V c main_v81) (V c main_v35) (V c main_v36)) := by
  show (cfg0.win 9).cut (grid0.coords t) ((dat0 (F := Ideal) V c).after 9 t) = _
  rw [after0_9, outs0_rows]
  funext j
  obtain ⟨p, q, rfl⟩ : ∃ (p : Fin 2000) (q : Fin 128), j = ix2 p q := ⟨j 0, j 1, eq_ix2 j⟩
  show rows0 V c t (ix2 p q) = G0_9 (V c main_v49) (V c main_v72) (V c main_v75) (V c main_v63) (V c main_v70) (V c main_v78) (V c main_v81) (V c main_v35) (V c main_v36) (((cfg0.win 9).blk t).view.emb (ix2 p q))
  rw [emb0_9, rows0_apply]
  rfl

/-- The first result after the region: every node's new features. -/
theorem final0_9 (c : Dev nD) : (dat0 (F := Ideal) V c).arrAt 9 cfg0.N = G0_9 (V c main_v49) (V c main_v72) (V c main_v75) (V c main_v63) (V c main_v70) (V c main_v78) (V c main_v81) (V c main_v35) (V c main_v36) :=
  (dat0 (F := Ideal) V c).arrAt_eq_of_cover 9 _ (fun t _ => flushed0_9_eq V c t) covered0_9

/-! ## The second result: the running table after the last point -/

/-- What tile `i` adds to entry (g, q) of the running table: the new feature `q` of the tile's nodes of graph `g`. -/
def tileSum0 (c : Dev nD) (g : Fin 512) (q : Fin 128) (i : Fin 25) : EReal :=
  ∑ r : Fin 2000, ohArr0 V c (ix2 (tileRow0 i r) g) * hnew0 (V c main_v49) (V c main_v72) (V c main_v75) (V c main_v63) (V c main_v70) (V c main_v78) (V c main_v81) (V c main_v35) (V c main_v36) (tileRow0 i r) q

/-- The same at a position that may lie past the grid, where it adds nothing. -/
def tileSumN0 (c : Dev nD) (g : Fin 512) (q : Fin 128) (i : ℕ) : EReal :=
  if h : i < 25 then tileSum0 V c g q ⟨i, h⟩ else 0

/-- The running table after point `t` gains tile `t`'s sums over `acc`. -/
theorem upd0_apply (c : Dev nD) (t : Fin cfg0.N) (acc : Vec Ideal S512x128 .f32) (g : Fin 512) (q : Fin 128) :
    upd0 V c t acc (ix2 g q) = acc (ix2 g q) + tileSum0 V c g q (tile0 t) := by
  unfold upd0 act0 tileSum0
  exact table_of_blocks0 (iblk0 V c 0 t) (iblk0 V c 1 t) (iblk0 V c 2 t) (iblk0 V c 3 t) (iblk0 V c 4 t) (iblk0 V c 5 t) (iblk0 V c 6 t) (iblk0 V c 7 t) (iblk0 V c 8 t) acc (V c main_v49) (V c main_v72) (V c main_v75) (V c main_v63) (V c main_v70) (V c main_v78) (V c main_v81) (V c main_v35) (V c main_v36) (tile0 t) g q (blk0_0 V c t) (blk0_1 V c t) (blk0_2 V c t) (blk0_3 V c t) (blk0_4 V c t) (blk0_5 V c t) (blk0_6 V c t) (blk0_7 V c t) (blk0_8 V c t)

/-- After point `n` the running table holds the sums of tiles 0 … n, added in the grid's order. -/
theorem table0_apply (c : Dev nD) (g : Fin 512) (q : Fin 128) (n : ℕ) : ∀ hn : n < cfg0.N,
    (outsAt0 V c n hn).2.2 (ix2 g q) = ∑ i ∈ Finset.range (n + 1), tileSumN0 V c g q i := by
  have hN : cfg0.N = 25 := N_0
  induction n with
  | zero =>
    intro hn
    refine (congrFun (outs0_table_first V c ⟨0, hn⟩ rfl) (ix2 g q)).trans ?_
    rw [upd0_apply, kpay0_3_apply, zero_add, Finset.sum_range_succ, Finset.sum_range_zero, zero_add]
    unfold tileSumN0
    have e : (if h : 0 < 25 then tileSum0 V c g q ⟨0, h⟩ else 0) = tileSum0 V c g q ⟨0, by omega⟩ := dif_pos (by omega)
    exact e.symm
  | succ n ih =>
    intro hn
    refine (congrFun (outs0_table_next V c ⟨n + 1, hn⟩ (Nat.succ_ne_zero n)) (ix2 g q)).trans ?_
    rw [upd0_apply, Finset.sum_range_succ]
    refine congrArg₂ (· + ·) (ih (Nat.lt_of_succ_lt hn)) ?_
    unfold tileSumN0
    have e : (if h : n + 1 < 25 then tileSum0 V c g q ⟨n + 1, h⟩ else 0) = tileSum0 V c g q ⟨n + 1, by omega⟩ := dif_pos (by omega)
    exact e.symm

/-- The sums of all 25 tiles are the sum over all 50000 nodes. -/
theorem all_tiles0 (c : Dev nD) (g : Fin 512) (q : Fin 128) :
    ∑ i ∈ Finset.range 25, tileSumN0 V c g q i
      = ∑ n : Fin 50000, ohArr0 V c (ix2 n g) * hnew0 (V c main_v49) (V c main_v72) (V c main_v75) (V c main_v63) (V c main_v70) (V c main_v78) (V c main_v81) (V c main_v35) (V c main_v36) n q := by
  refine Eq.trans ?_ (sum_tiles0 (fun n => ohArr0 V c (ix2 n g) * hnew0 (V c main_v49) (V c main_v72) (V c main_v75) (V c main_v63) (V c main_v70) (V c main_v78) (V c main_v81) (V c main_v35) (V c main_v36) n q))
  rw [← Fin.sum_univ_eq_sum_range (tileSumN0 V c g q) 25]
  refine Finset.sum_congr rfl fun i _ => ?_
  unfold tileSumN0
  exact dif_pos i.isLt

/-- What the last point writes back to the second result is the closed form's one block. -/
theorem flushed0_10_eq (c : Dev nD) (t : Fin cfg0.N) (hf : (cfg0.win 10).flush t = true) :
    (dat0 (F := Ideal) V c).flushed 10 t = ((cfg0.win 10).blk t).view.read (Elt Ideal) (G0_10 (V c main_v49) (V c main_v72) (V c main_v75) (V c main_v63) (V c main_v70) (V c main_v78) (V c main_v81) (V c main_v35) (V c main_v36)) := by
  have hN : cfg0.N = 25 := N_0
  have h24 : t.val = 24 := by have := (flush0_10 t).mp hf; have := t.isLt; omega
  show (cfg0.win 10).cut (grid0.coords t) ((dat0 (F := Ideal) V c).after 10 t) = _
  rw [after0_10, outs0_second_last V c t h24]
  funext j
  obtain ⟨g, q, rfl⟩ : ∃ (g : Fin 512) (q : Fin 128), j = ix2 g q := ⟨j 0, j 1, eq_ix2 j⟩
  generalize hG : G0_10 (V c main_v49) (V c main_v72) (V c main_v75) (V c main_v63) (V c main_v70) (V c main_v78) (V c main_v81) (V c main_v35) (V c main_v36) = G
  show (outsAt0 V c t.val t.isLt).2.2 (ix2 g q) = G (((cfg0.win 10).blk t).view.emb (ix2 g q))
  have e25 : t.val + 1 = 25 := by omega
  rw [emb0_10, table0_apply V c g q t.val t.isLt, e25, all_tiles0, ← hG]
  unfold G0_10
  exact Finset.sum_congr rfl fun n _ => rfl

/-- The second result after the region: every node's new features summed per graph. -/
theorem final0_10 (c : Dev nD) : (dat0 (F := Ideal) V c).arrAt 10 cfg0.N = G0_10 (V c main_v49) (V c main_v72) (V c main_v75) (V c main_v63) (V c main_v70) (V c main_v78) (V c main_v81) (V c main_v35) (V c main_v36) :=
  (dat0 (F := Ideal) V c).arrAt_eq_of_cover 10 _ (fun t hf => flushed0_10_eq V c t hf) covered0_10

end AtIdeal

end Cert.KernelIdeal.Hand

end
-- ==== Proof.Val.KFoldA0.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import proofs.«402460_j82824149336546_1_alg».proof.Proof.Val.KStages
import proofs.«402460_j82824149336546_1_alg».proof.Proof.Val.KHostA
import proofs.«402460_j82824149336546_1_alg».proof.Proof.KI.Reg0Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The kernel's value from the launch to the first layer's exit

The program starts with a host stretch that lays the graph out (the two ends of every edge with the self loops, the
weight of every edge, the node-against-graph indicator, the virtual node's rows), propagates the input rows along the
edges, takes the first layer's linear map of the propagated rows with its column means and variances, and cuts the
first row of each of the layer's parameters out of the arguments; the first layer's region follows.

Each item is read as a function of the buffers it finds: the stretch's result buffers are the stage functions of the
arguments, the region's two output arrays are their closed forms of its nine input arrays, an input array is left as
found, and a buffer an item does not write is as it was.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The buffers later items read that the region does not hold

The eighteen arguments, and the two ends and the weight of every edge. -/

/-- The eighteen arguments. -/
def argsA0 : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The arguments and the three edge buffers. -/
def keptA0 : List (Ref sig .tc) := [main_v3, main_v6, main_v28, main_arg0, main_arg1, main_arg2, main_arg3, main_arg4, main_arg5, main_arg6, main_arg7, main_arg8, main_arg9, main_arg10, main_arg11, main_arg12, main_arg13, main_arg14, main_arg15, main_arg16, main_arg17]

/-! ## The host stretch, over any contents `W` -/

section Host
variable (W : Valuation τ sig (Elt Ideal))

/-- The stretch writes none of the arguments. -/
theorem after0_keep (r : Ref sig .tc) (hr : r ∈ argsA0) :
    StableHlo.after hostOps0 W (Proc.devRef .tc r) = W (Proc.devRef .tc r) := by
  simp only [argsA0, List.mem_cons, List.mem_nil_iff, or_false] at hr
  rw [hostOps0_split]; simp only [StableHlo.after_append]
  rcases hr with rfl | rfl | rfl | rfl | rfl | rfl | rfl | rfl | rfl | rfl | rfl | rfl | rfl | rfl | rfl | rfl | rfl | rfl
  · rw [passE4 _ main_arg0 (by decide), passE3 _ main_arg0 (by decide), passE2 _ main_arg0 (by decide), passE1 _ main_arg0 (by decide), passD _ main_arg0 (by decide), passC _ main_arg0 (by decide), passB _ main_arg0 (by decide), passA _ main_arg0 (by decide)]
  · rw [passE4 _ main_arg1 (by decide), passE3 _ main_arg1 (by decide), passE2 _ main_arg1 (by decide), passE1 _ main_arg1 (by decide), passD _ main_arg1 (by decide), passC _ main_arg1 (by decide), passB _ main_arg1 (by decide), passA _ main_arg1 (by decide)]
  · rw [passE4 _ main_arg2 (by decide), passE3 _ main_arg2 (by decide), passE2 _ main_arg2 (by decide), passE1 _ main_arg2 (by decide), passD _ main_arg2 (by decide), passC _ main_arg2 (by decide), passB _ main_arg2 (by decide), passA _ main_arg2 (by decide)]
  · rw [passE4 _ main_arg3 (by decide), passE3 _ main_arg3 (by decide), passE2 _ main_arg3 (by decide), passE1 _ main_arg3 (by decide), passD _ main_arg3 (by decide), passC _ main_arg3 (by decide), passB _ main_arg3 (by decide), passA _ main_arg3 (by decide)]
  · rw [passE4 _ main_arg4 (by decide), passE3 _ main_arg4 (by decide), passE2 _ main_arg4 (by decide), passE1 _ main_arg4 (by decide), passD _ main_arg4 (by decide), passC _ main_arg4 (by decide), passB _ main_arg4 (by decide), passA _ main_arg4 (by decide)]
  · rw [passE4 _ main_arg5 (by decide), passE3 _ main_arg5 (by decide), passE2 _ main_arg5 (by decide), passE1 _ main_arg5 (by decide), passD _ main_arg5 (by decide), passC _ main_arg5 (by decide), passB _ main_arg5 (by decide), passA _ main_arg5 (by decide)]
  · rw [passE4 _ main_arg6 (by decide), passE3 _ main_arg6 (by decide), passE2 _ main_arg6 (by decide), passE1 _ main_arg6 (by decide), passD _ main_arg6 (by decide), passC _ main_arg6 (by decide), passB _ main_arg6 (by decide), passA _ main_arg6 (by decide)]
  · rw [passE4 _ main_arg7 (by decide), passE3 _ main_arg7 (by decide), passE2 _ main_arg7 (by decide), passE1 _ main_arg7 (by decide), passD _ main_arg7 (by decide), passC _ main_arg7 (by decide), passB _ main_arg7 (by decide), passA _ main_arg7 (by decide)]
  · rw [passE4 _ main_arg8 (by decide), passE3 _ main_arg8 (by decide), passE2 _ main_arg8 (by decide), passE1 _ main_arg8 (by decide), passD _ main_arg8 (by decide), passC _ main_arg8 (by decide), passB _ main_arg8 (by decide), passA _ main_arg8 (by decide)]
  · rw [passE4 _ main_arg9 (by decide), passE3 _ main_arg9 (by decide), passE2 _ main_arg9 (by decide), passE1 _ main_arg9 (by decide), passD _ main_arg9 (by decide), passC _ main_arg9 (by decide), passB _ main_arg9 (by decide), passA _ main_arg9 (by decide)]
  · rw [passE4 _ main_arg10 (by decide), passE3 _ main_arg10 (by decide), passE2 _ main_arg10 (by decide), passE1 _ main_arg10 (by decide), passD _ main_arg10 (by decide), passC _ main_arg10 (by decide), passB _ main_arg10 (by decide), passA _ main_arg10 (by decide)]
  · rw [passE4 _ main_arg11 (by decide), passE3 _ main_arg11 (by decide), passE2 _ main_arg11 (by decide), passE1 _ main_arg11 (by decide), passD _ main_arg11 (by decide), passC _ main_arg11 (by decide), passB _ main_arg11 (by decide), passA _ main_arg11 (by decide)]
  · rw [passE4 _ main_arg12 (by decide), passE3 _ main_arg12 (by decide), passE2 _ main_arg12 (by decide), passE1 _ main_arg12 (by decide), passD _ main_arg12 (by decide), passC _ main_arg12 (by decide), passB _ main_arg12 (by decide), passA _ main_arg12 (by decide)]
  · rw [passE4 _ main_arg13 (by decide), passE3 _ main_arg13 (by decide), passE2 _ main_arg13 (by decide), passE1 _ main_arg13 (by decide), passD _ main_arg13 (by decide), passC _ main_arg13 (by decide), passB _ main_arg13 (by decide), passA _ main_arg13 (by decide)]
  · rw [passE4 _ main_arg14 (by decide), passE3 _ main_arg14 (by decide), passE2 _ main_arg14 (by decide), passE1 _ main_arg14 (by decide), passD _ main_arg14 (by decide), passC _ main_arg14 (by decide), passB _ main_arg14 (by decide), passA _ main_arg14 (by decide)]
  · rw [passE4 _ main_arg15 (by decide), passE3 _ main_arg15 (by decide), passE2 _ main_arg15 (by decide), passE1 _ main_arg15 (by decide), passD _ main_arg15 (by decide), passC _ main_arg15 (by decide), passB _ main_arg15 (by decide), passA _ main_arg15 (by decide)]
  · rw [passE4 _ main_arg16 (by decide), passE3 _ main_arg16 (by decide), passE2 _ main_arg16 (by decide), passE1 _ main_arg16 (by decide), passD _ main_arg16 (by decide), passC _ main_arg16 (by decide), passB _ main_arg16 (by decide), passA _ main_arg16 (by decide)]
  · rw [passE4 _ main_arg17 (by decide), passE3 _ main_arg17 (by decide), passE2 _ main_arg17 (by decide), passE1 _ main_arg17 (by decide), passD _ main_arg17 (by decide), passC _ main_arg17 (by decide), passB _ main_arg17 (by decide), passA _ main_arg17 (by decide)]

end Host

/-! ## The region, over any entry contents `Y` -/

section Region
variable (Y : Dev nD → Valuation τ sig (Elt Ideal))

/-- Contents read at the TensorCore's references. -/
abbrev atTcA0 : (c : Dev nD) → (b : Ref sig .tc) → Buf (Elt Ideal) ((c : Thread nD τ).loc b) := fun c b => Y c b

/-- Region 0's exit contents from entry contents `Y`: its arrays at what the pipeline leaves, every other buffer as entered. -/
def exit0 (c : Dev nD) : Valuation τ sig (Elt Ideal) :=
  Pipeline.withArrays spec0 c (Y c) fun w => (dat0 (atTcA0 Y) c).arrAt w cfg0.N

/-- The new node rows. -/
theorem exit0_rows (c : Dev nD) : exit0 Y c (Proc.devRef .tc main_v82_0)
    = G0_9 (Y c (Proc.devRef .tc main_v49)) (Y c (Proc.devRef .tc main_v72)) (Y c (Proc.devRef .tc main_v75)) (Y c (Proc.devRef .tc main_v63)) (Y c (Proc.devRef .tc main_v70)) (Y c (Proc.devRef .tc main_v78)) (Y c (Proc.devRef .tc main_v81)) (Y c (Proc.devRef .tc main_v35)) (Y c (Proc.devRef .tc main_v36)) :=
  (Pipeline.withArrays_arr spec0 launch0.win.arr_inj c _ _ 9).trans (final0_9 (atTcA0 Y) c)

/-- The new node rows summed per graph. -/
theorem exit0_sums (c : Dev nD) : exit0 Y c (Proc.devRef .tc main_v82_1)
    = G0_10 (Y c (Proc.devRef .tc main_v49)) (Y c (Proc.devRef .tc main_v72)) (Y c (Proc.devRef .tc main_v75)) (Y c (Proc.devRef .tc main_v63)) (Y c (Proc.devRef .tc main_v70)) (Y c (Proc.devRef .tc main_v78)) (Y c (Proc.devRef .tc main_v81)) (Y c (Proc.devRef .tc main_v35)) (Y c (Proc.devRef .tc main_v36)) :=
  (Pipeline.withArrays_arr spec0 launch0.win.arr_inj c _ _ 10).trans (final0_10 (atTcA0 Y) c)

/-- The indicator array is an input: left as found. -/
theorem exit0_v35 (c : Dev nD) : exit0 Y c (Proc.devRef .tc main_v35) = Y c (Proc.devRef .tc main_v35) :=
  (Pipeline.withArrays_arr spec0 launch0.win.arr_inj c _ _ 7).trans
    (((dat0 (atTcA0 Y) c).arrAt_in 7 rfl _).trans (A_eq0 (atTcA0 Y) c 7))

/-- The virtual node's array is an input: left as found. -/
theorem exit0_v36 (c : Dev nD) : exit0 Y c (Proc.devRef .tc main_v36) = Y c (Proc.devRef .tc main_v36) :=
  (Pipeline.withArrays_arr spec0 launch0.win.arr_inj c _ _ 8).trans
    (((dat0 (atTcA0 Y) c).arrAt_in 8 rfl _).trans (A_eq0 (atTcA0 Y) c 8))

/-- None of the kept buffers is one of the region's arrays. -/
theorem exit0_keep (c : Dev nD) (r : Ref sig .tc) (hr : r ∈ keptA0) :
    exit0 Y c (Proc.devRef .tc r) = Y c (Proc.devRef .tc r) := by
  simp only [keptA0, List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact Pipeline.withArrays_of_ne spec0 c _ _ _ (by decide)

end Region

/-! ## The two items in a row, from the launch contents `X` -/

section Chain
variable (X : Dev nD → Valuation τ sig (Elt Ideal)) (c : Dev nD)

/-- After the stretch, and at the region's exit. -/
def A1 (c : Dev nD) : Valuation τ sig (Elt Ideal) := StableHlo.after hostOps0 (X c)
def A2 : Dev nD → Valuation τ sig (Elt Ideal) := exit0 (A1 X)

theorem argsA0_sub_keptA0 (r : Ref sig .tc) (hr : r ∈ argsA0) : r ∈ keptA0 := by
  simp only [argsA0, List.mem_cons, List.mem_nil_iff, or_false] at hr
  rcases hr with rfl | rfl | rfl | rfl | rfl | rfl | rfl | rfl | rfl | rfl | rfl | rfl | rfl | rfl | rfl | rfl | rfl | rfl <;> simp [keptA0]

/-- The arguments are as launched after the stretch and at the region's exit. -/
theorem keepA1 (r : Ref sig .tc) (hr : r ∈ argsA0) : A1 X c (Proc.devRef .tc r) = X c (Proc.devRef .tc r) := after0_keep (X c) r hr
theorem keepA2 (r : Ref sig .tc) (hr : r ∈ argsA0) : A2 X c (Proc.devRef .tc r) = X c (Proc.devRef .tc r) :=
  (exit0_keep (A1 X) c r (argsA0_sub_keptA0 r hr)).trans (keepA1 X c r hr)

/-- The two ends and the weight of every edge, at the region's exit. -/
theorem valA2_src : A2 X c (Proc.devRef .tc main_v3) = Stage.src (X c (Proc.devRef .tc main_arg1)) :=
  (exit0_keep (A1 X) c main_v3 (by simp [keptA0])).trans (host0_v3 (F := Ideal) (X c))
theorem valA2_dst : A2 X c (Proc.devRef .tc main_v6) = Stage.dst (X c (Proc.devRef .tc main_arg1)) :=
  (exit0_keep (A1 X) c main_v6 (by simp [keptA0])).trans (host0_v6 (F := Ideal) (X c))
theorem valA2_nrm : A2 X c (Proc.devRef .tc main_v28) = Stage.nrm (X c (Proc.devRef .tc main_arg1)) :=
  (exit0_keep (A1 X) c main_v28 (by simp [keptA0])).trans (host0_v28 (F := Ideal) (X c))

/-- The indicator and the virtual node's rows, at the region's exit. -/
theorem valA2_onehot : A2 X c (Proc.devRef .tc main_v35) = Stage.onehot (X c (Proc.devRef .tc main_arg2)) :=
  (exit0_v35 (A1 X) c).trans (host0_v35 (F := Ideal) (X c))
theorem valA2_vn : A2 X c (Proc.devRef .tc main_v36) = Stage.vn0 (X c (Proc.devRef .tc main_arg7)) :=
  (exit0_v36 (A1 X) c).trans (host0_v36 (F := Ideal) (X c))

/-- THE FIRST LAYER'S NODE ROWS at the region's exit, from the launch contents. -/
theorem valA2_rows : A2 X c (Proc.devRef .tc main_v82_0)
    = G0_9 (Stage.prop (X c (Proc.devRef .tc main_arg1)) (X c (Proc.devRef .tc main_arg0))) (Stage.sliceW0 (X c (Proc.devRef .tc main_arg3))) (Stage.row0 (X c (Proc.devRef .tc main_arg4)))
      (Stage.mean (Stage.lin0 (Stage.prop (X c (Proc.devRef .tc main_arg1)) (X c (Proc.devRef .tc main_arg0))) (X c (Proc.devRef .tc main_arg3)) (X c (Proc.devRef .tc main_arg4))))
      (Stage.var (Stage.lin0 (Stage.prop (X c (Proc.devRef .tc main_arg1)) (X c (Proc.devRef .tc main_arg0))) (X c (Proc.devRef .tc main_arg3)) (X c (Proc.devRef .tc main_arg4))) (Stage.mean (Stage.lin0 (Stage.prop (X c (Proc.devRef .tc main_arg1)) (X c (Proc.devRef .tc main_arg0))) (X c (Proc.devRef .tc main_arg3)) (X c (Proc.devRef .tc main_arg4)))))
      (Stage.row0 (X c (Proc.devRef .tc main_arg5))) (Stage.row0 (X c (Proc.devRef .tc main_arg6))) (Stage.onehot (X c (Proc.devRef .tc main_arg2))) (Stage.vn0 (X c (Proc.devRef .tc main_arg7))) := by
  refine (exit0_rows (A1 X) c).trans ?_
  rw [show A1 X c (Proc.devRef .tc main_v49) = _ from host0_v49 (F := Ideal) (X c),
    show A1 X c (Proc.devRef .tc main_v72) = _ from host0_v72 (F := Ideal) (X c),
    show A1 X c (Proc.devRef .tc main_v75) = _ from host0_v75 (F := Ideal) (X c),
    show A1 X c (Proc.devRef .tc main_v63) = _ from host0_v63 (F := Ideal) (X c),
    show A1 X c (Proc.devRef .tc main_v70) = _ from host0_v70 (F := Ideal) (X c),
    show A1 X c (Proc.devRef .tc main_v78) = _ from host0_v78 (F := Ideal) (X c),
    show A1 X c (Proc.devRef .tc main_v81) = _ from host0_v81 (F := Ideal) (X c),
    show A1 X c (Proc.devRef .tc main_v35) = _ from host0_v35 (F := Ideal) (X c),
    show A1 X c (Proc.devRef .tc main_v36) = _ from host0_v36 (F := Ideal) (X c)]

/-- Their per-graph sums. -/
theorem valA2_sums : A2 X c (Proc.devRef .tc main_v82_1)
    = G0_10 (Stage.prop (X c (Proc.devRef .tc main_arg1)) (X c (Proc.devRef .tc main_arg0))) (Stage.sliceW0 (X c (Proc.devRef .tc main_arg3))) (Stage.row0 (X c (Proc.devRef .tc main_arg4)))
      (Stage.mean (Stage.lin0 (Stage.prop (X c (Proc.devRef .tc main_arg1)) (X c (Proc.devRef .tc main_arg0))) (X c (Proc.devRef .tc main_arg3)) (X c (Proc.devRef .tc main_arg4))))
      (Stage.var (Stage.lin0 (Stage.prop (X c (Proc.devRef .tc main_arg1)) (X c (Proc.devRef .tc main_arg0))) (X c (Proc.devRef .tc main_arg3)) (X c (Proc.devRef .tc main_arg4))) (Stage.mean (Stage.lin0 (Stage.prop (X c (Proc.devRef .tc main_arg1)) (X c (Proc.devRef .tc main_arg0))) (X c (Proc.devRef .tc main_arg3)) (X c (Proc.devRef .tc main_arg4)))))
      (Stage.row0 (X c (Proc.devRef .tc main_arg5))) (Stage.row0 (X c (Proc.devRef .tc main_arg6))) (Stage.onehot (X c (Proc.devRef .tc main_arg2))) (Stage.vn0 (X c (Proc.devRef .tc main_arg7))) := by
  refine (exit0_sums (A1 X) c).trans ?_
  rw [show A1 X c (Proc.devRef .tc main_v49) = _ from host0_v49 (F := Ideal) (X c),
    show A1 X c (Proc.devRef .tc main_v72) = _ from host0_v72 (F := Ideal) (X c),
    show A1 X c (Proc.devRef .tc main_v75) = _ from host0_v75 (F := Ideal) (X c),
    show A1 X c (Proc.devRef .tc main_v63) = _ from host0_v63 (F := Ideal) (X c),
    show A1 X c (Proc.devRef .tc main_v70) = _ from host0_v70 (F := Ideal) (X c),
    show A1 X c (Proc.devRef .tc main_v78) = _ from host0_v78 (F := Ideal) (X c),
    show A1 X c (Proc.devRef .tc main_v81) = _ from host0_v81 (F := Ideal) (X c),
    show A1 X c (Proc.devRef .tc main_v35) = _ from host0_v35 (F := Ideal) (X c),
    show A1 X c (Proc.devRef .tc main_v36) = _ from host0_v36 (F := Ideal) (X c)]

end Chain

end Cert.KernelIdeal.Hand

end
-- ==== Proof.KI.MlpValue.lean ====
/- The virtual-node MLP layer at the ideal reals, read index by index: a matrix product plus a bias row, normalised by
   its column mean and variance over the rows (the sums divided by the constant 512, the constant epsilon added under
   the reciprocal square root), scaled and shifted by two more rows and clamped at zero. Shared by the two regions
   that run it. With it, the readings at an index of the vector operations the layer is made of: a row laid along
   every row, a vector cast to one row, a sum over the rows, a rows-by-columns product. -/
import proofs.«402460_j82824149336546_1_alg».proof.Proof.Gen.KernelIdeal.Skeleton
import Idealize.ShloMosaic.Lib.Pipeline.Value
import Idealize.ShloMosaic.Lib.ValueIdxCoords
import Idealize.ShloMosaic.Lib.KernelVsHost
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ## The layer -/

/-- The payloads' two constants: the row count 512 and the normalisation's epsilon. -/
def mlpN : EReal := Ideal.ofBits .f32 0x44000000#32
def mlpEps : EReal := Ideal.ofBits .f32 0x3727C5AC#32
/-- A dense layer at row `r`, column `n`: the row of `x` against the column of `W`, plus the bias. -/
def mlpH {R K N : Nat} (x : Fin R → Fin K → EReal) (W : (⟨2, ![K, N]⟩ : Shape).Idx → EReal) (b : (⟨2, ![1, N]⟩ : Shape).Idx → EReal) (r : Fin R) (n : Fin N) : EReal :=
  (∑ k : Fin K, x r k * W (ix2 k n)) + b (ix2 (0 : Fin 1) n)
/-- Its column mean over the rows, -/
def mlpMean {R K N : Nat} (x : Fin R → Fin K → EReal) (W : (⟨2, ![K, N]⟩ : Shape).Idx → EReal) (b : (⟨2, ![1, N]⟩ : Shape).Idx → EReal) (n : Fin N) : EReal :=
  Ideal.div (∑ r : Fin R, mlpH x W b r n) mlpN
/-- its column variance, -/
def mlpVar {R K N : Nat} (x : Fin R → Fin K → EReal) (W : (⟨2, ![K, N]⟩ : Shape).Idx → EReal) (b : (⟨2, ![1, N]⟩ : Shape).Idx → EReal) (n : Fin N) : EReal :=
  Ideal.div (∑ r : Fin R, (mlpH x W b r n - mlpMean x W b n) * (mlpH x W b r n - mlpMean x W b n)) mlpN
/-- and the layer normalised, scaled, shifted and clamped at zero. -/
def mlpAct {R K N : Nat} (x : Fin R → Fin K → EReal) (W : (⟨2, ![K, N]⟩ : Shape).Idx → EReal) (b g bt : (⟨2, ![1, N]⟩ : Shape).Idx → EReal) (r : Fin R) (n : Fin N) : EReal :=
  max (g (ix2 (0 : Fin 1) n) * (mlpH x W b r n - mlpMean x W b n) * Ideal.rsqrt (mlpVar x W b n + mlpEps) + bt (ix2 (0 : Fin 1) n)) 0

/-! ## Reading a row broadcast, a row cast, a column sum and a plain product at an index -/

section Helpers
variable {α : Type}

/-- A one-row matrix laid along every row, read at `i`, is the row at `i`'s column. -/
theorem mlpBcastRow_apply {m n : Nat} (x : (⟨2, ![1, n]⟩ : Shape).Idx → α) (hb : (⟨2, ![1, n]⟩ : Shape).Broadcasts ⟨2, ![m, n]⟩)
    (i : (⟨2, ![m, n]⟩ : Shape).Idx) : broadcastTo ⟨2, ![m, n]⟩ x hb i = x (ix2 (0 : Fin 1) (i 1 : Fin n)) :=
  broadcastTo_apply x hb i (ix2 (0 : Fin 1) (i 1 : Fin n)) (by
    intro a
    match a with
    | ⟨0, _⟩ => rfl
    | ⟨1, _⟩ =>
      show (i 1).val = if n = 1 then 0 else (i 1).val
      split
      · have e : (i 1).val < n := (i 1).isLt; omega
      · rfl)

/-- A vector cast to one row, read at `j`, is the vector at `j`'s column. -/
theorem mlpCastRow_apply {n : Nat} (x : (⟨1, ![n]⟩ : Shape).Idx → α) (h1 : (⟨1, ![n]⟩ : Shape).ShapeCasts ⟨2, ![1, n]⟩)
    (j : (⟨2, ![1, n]⟩ : Shape).Idx) : shapeCast ⟨2, ![1, n]⟩ x h1 j = x (ix1 (j 1 : Fin n)) :=
  shapeCast_apply x h1 j (ix1 (j 1 : Fin n)) (by
    rw [Shape.rowMajor_val_two, Shape.rowMajor_val_one]
    have h0 : (j 0).val < 1 := (j 0).isLt
    show (j 1).val = (j 0).val * n + (j 1).val
    have : (j 0).val = 0 := by omega
    rw [this]; omega)

/-- The sum over the rows, read at column `j`, is the sum of the column's entries. -/
theorem mlpColSum_apply {m n : Nat} (src : FVec Ideal ⟨2, ![m, n]⟩ .f32) (h : (⟨2, ![m, n]⟩ : Shape).Reduces [0] ⟨1, ![n]⟩)
    (hφ : FKind.Formats .f32) (hacc : (0x00000000#32 : BitVec 32) = FKind.add.neutral .f32 hφ) (j : (⟨1, ![n]⟩ : Shape).Idx) :
    multiReduction .add [0] ⟨1, ![n]⟩ src 0x00000000#32 h hφ hacc j = ∑ r : Fin m, src (ix2 r (j 0 : Fin n)) := by
  rw [Ideal.multiReduction_add_single]
  show ∑ k : Fin m, src (h.lift j k) = _
  refine Finset.sum_congr rfl fun k _ => congrArg src ?_
  funext c; apply Fin.ext
  fin_cases c <;> rfl

/-- A rows-by-columns product into the zero splat, read at `j`: the row of the left against the column of the right. -/
theorem mlpPlainMatmul_apply {M K N : Nat} {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply]
  rw [← Equiv.sum_comp (contrEquiv1 (DotDims.plain M K N) K rfl rfl).symm]
  refine Finset.sum_congr rfl fun k _ => ?_
  have hk := contrEquiv1_symm_val (DotDims.plain M K N) K rfl rfl k
  congr 1
  · refine congrArg lhs (Shape.idx_ext₂ rfl ?_)
    exact hk
  · refine congrArg rhs (Shape.idx_ext₂ ?_ rfl)
    exact hk

/-- The zero word is the value zero. -/
theorem mlpOfBits_zero : (FloatOps.ofBits .f32 0#32 : Ideal .f32) = 0 := Ideal.ofBits_zero_f32

/-- The reciprocal square root is taken entry by entry. -/
theorem mlpRsqrt_apply {s : Shape} {φ : FTy} (a : FVec Ideal s φ) (i : s.Idx) : rsqrt a i = Ideal.rsqrt (a i) := rfl

end Helpers

/-! ## The layer's two products and two column sums, at their printed shapes -/

theorem mlpDot1_eq : dot_S512x128_S128x256_S512x256_1_0_0_1_n_n = DotDims.plain 512 128 256 := rfl
theorem mlpDot2_eq : dot_S512x256_S256x128_S512x128_1_0_0_1_n_n = DotDims.plain 512 256 128 := rfl

theorem mlpColSum256 (src : FVec Ideal S512x256 .f32) :
    multiReduction .add [0] S256 src 0x00000000#32 reduces_S512x256_S256 (.inl rfl) rfl = fun j => ∑ r : Fin 512, src (ix2 r (j 0)) :=
  funext fun j => mlpColSum_apply (m := 512) (n := 256) src reduces_S512x256_S256 (.inl rfl) rfl j
theorem mlpColSum128 (src : FVec Ideal S512x128 .f32) :
    multiReduction .add [0] S128 src 0x00000000#32 reduces_S512x128_S128 (.inl rfl) rfl = fun j => ∑ r : Fin 512, src (ix2 r (j 0)) :=
  funext fun j => mlpColSum_apply (m := 512) (n := 128) src reduces_S512x128_S128 (.inl rfl) rfl j

end Cert.KernelIdeal.Hand
-- ==== Proof.KI.Reg1Value.lean ====
/- Region 1 of @main, its VALUE at the ideal reals: the output array after the region as one function of the nine
   input arrays, index by index — the second layer of the virtual-node MLP at the first layer's value. The two
   payloads are read at an index; the one grid point's block of every window is its whole array; the one write-back
   covers the output array. -/
import proofs.«402460_j82824149336546_1_alg».proof.Proof.KI.Reg1
import proofs.«402460_j82824149336546_1_alg».proof.Proof.KI.MlpValue

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx

/-- The region's output array: the second layer at the first layer's value. -/
def G1_9 (vt : S512x128.Idx → EReal) (W1 : S128x256.Idx → EReal) (b1 g1 bt1 : S1x256.Idx → EReal) (W2 : S256x128.Idx → EReal) (b2 g2 bt2 : S1x128.Idx → EReal) : S512x128.Idx → EReal :=
  fun i => mlpAct (mlpAct (fun r k => vt (ix2 r k)) W1 b1 g1 bt1) W2 b2 g2 bt2 (i 0) (i 1)

/-! ## The payloads, index by index -/

set_option maxHeartbeats 2000000 in
/-- The first layer's payload. -/
theorem pay1_2_apply (x0 : Vec Ideal S512x128 .f32) (x1 : Vec Ideal S128x256 .f32) (x2 x3 x4 : Vec Ideal S1x256 .f32) (i : S512x256.Idx) :
    k1_pay2 x0 x1 x2 x3 x4 i = mlpAct (fun r k => x0 (ix2 r k)) x1 x2 x3 x4 (i 0) (i 1) := by
  unfold k1_pay2
  simp only [matmul, mlpDot1_eq, shapeCast_self]
  rw [mlpColSum256]
  rw [mlpColSum256]
  simp only [truncf_apply, maximumf_apply, addf_apply, mulf_apply, subf_apply, divf_apply, mlpRsqrt_apply, broadcast_apply,
    mlpBcastRow_apply, mlpCastRow_apply, mlpPlainMatmul_apply, mlpOfBits_zero]
  rfl

set_option maxHeartbeats 2000000 in
/-- The second layer's payload, at whatever the first left. -/
theorem pay1_1_apply (a : FVec Ideal S512x256 .bf16) (x5 : Vec Ideal S256x128 .f32) (x6 x7 x8 : Vec Ideal S1x128 .f32) (i : S512x128.Idx) :
    k1_pay1 a x5 x6 x7 x8 i = mlpAct (fun r k => a (ix2 r k)) x5 x6 x7 x8 (i 0) (i 1) := by
  unfold k1_pay1
  simp only [matmul, mlpDot2_eq, shapeCast_self]
  rw [mlpColSum128]
  rw [mlpColSum128]
  simp only [truncf_apply, maximumf_apply, addf_apply, mulf_apply, subf_apply, divf_apply, mlpRsqrt_apply, broadcast_apply,
    mlpBcastRow_apply, mlpCastRow_apply, mlpPlainMatmul_apply, mlpOfBits_zero]
  rfl

/-- The two composed: what the body stores, as `G1_9` of what it loaded. -/
theorem pay1_eq (x0 : Vec Ideal S512x128 .f32) (x1 : Vec Ideal S128x256 .f32) (x2 x3 x4 : Vec Ideal S1x256 .f32)
    (x5 : Vec Ideal S256x128 .f32) (x6 x7 x8 : Vec Ideal S1x128 .f32) :
    k1_pay1 (k1_pay2 x0 x1 x2 x3 x4) x5 x6 x7 x8 = G1_9 x0 x1 x2 x3 x4 x5 x6 x7 x8 := by
  funext i
  rw [pay1_1_apply]
  unfold G1_9
  exact congrArg (fun A : Fin 512 → Fin 256 → EReal => mlpAct A x5 x6 x7 x8 (i 0) (i 1))
    (funext fun r => funext fun k => pay1_2_apply x0 x1 x2 x3 x4 (ix2 r k))

/-! ## From the one point's blocks to the arrays -/

variable (V : (c : Dev nD) → (b : Ref sig .tc) → Buf (Elt Ideal) ((c : Thread nD τ).loc b))

theorem hz1 : (![0, 0] : Fin 2 → Nat) = fun _ => 0 := funext fun a => by fin_cases a <;> rfl

/-- Every window's block index is zero on both axes at every point, and the output's block is the whole array. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_9.xsize (grid1.coords t) (0 : Fin 2) = 512 ∧ win1_9.xsize (grid1.coords t) (1 : Fin 2) = 128 :=
  (by decide +kernel : ∀ t : Fin grid1.N, _)

/-- Input window 0's block at a point is its whole array. -/
theorem iblk1_0_eq (c : Dev nD) (t : Fin cfg1.N) : (iblk1 V c 0 t : Vec Ideal S512x128 .f32) = (V c main_v83 : S512x128.Idx → Elt Ideal .f32) := by
  have hz' : (fun a => win1_0.index t a * main_v83.ty.shape.size a) = fun _ => 0 := funext fun a => by
    have h := idx_facts1 t
    match a with
    | ⟨0, _⟩ => show win1_0.index t (0 : Fin 2) * _ = 0; rw [h.1]; exact Nat.zero_mul _
    | ⟨1, _⟩ => show win1_0.index t (1 : Fin 2) * _ = 0; rw [h.2.1]; exact Nat.zero_mul _
  unfold iblk1
  exact Memref.read_access_unit_zero (Elt Ideal) main_v83 hz' (fun a => by rw [congrFun hz' a]; simp) (V c main_v83)

/-- Input window 1's block at a point is its whole array. -/
theorem iblk1_1_eq (c : Dev nD) (t : Fin cfg1.N) : (iblk1 V c 1 t : Vec Ideal S128x256 .f32) = (V c main_v85 : S128x256.Idx → Elt Ideal .f32) := by
  have hz' : (fun a => win1_1.index t a * main_v85.ty.shape.size a) = fun _ => 0 := funext fun a => by
    have h := idx_facts1 t
    match a with
    | ⟨0, _⟩ => show win1_1.index t (0 : Fin 2) * _ = 0; rw [h.2.2.1]; exact Nat.zero_mul _
    | ⟨1, _⟩ => show win1_1.index t (1 : Fin 2) * _ = 0; rw [h.2.2.2.1]; exact Nat.zero_mul _
  unfold iblk1
  exact Memref.read_access_unit_zero (Elt Ideal) main_v85 hz' (fun a => by rw [congrFun hz' a]; simp) (V c main_v85)

/-- Input window 2's block at a point is its whole array. -/
theorem iblk1_2_eq (c : Dev nD) (t : Fin cfg1.N) : (iblk1 V c 2 t : Vec Ideal S1x256 .f32) = (V c main_v88 : S1x256.Idx → Elt Ideal .f32) := by
  have hz' : (fun a => win1_2.index t a * main_v88.ty.shape.size a) = fun _ => 0 := funext fun a => by
    have h := idx_facts1 t
    match a with
    | ⟨0, _⟩ => show win1_2.index t (0 : Fin 2) * _ = 0; rw [h.2.2.2.2.1]; exact Nat.zero_mul _
    | ⟨1, _⟩ => show win1_2.index t (1 : Fin 2) * _ = 0; rw [h.2.2.2.2.2.1]; exact Nat.zero_mul _
  unfold iblk1
  exact Memref.read_access_unit_zero (Elt Ideal) main_v88 hz' (fun a => by rw [congrFun hz' a]; simp) (V c main_v88)

/-- Input window 3's block at a point is its whole array. -/
theorem iblk1_3_eq (c : Dev nD) (t : Fin cfg1.N) : (iblk1 V c 3 t : Vec Ideal S1x256 .f32) = (V c main_v91 : S1x256.Idx → Elt Ideal .f32) := by
  have hz' : (fun a => win1_3.index t a * main_v91.ty.shape.size a) = fun _ => 0 := funext fun a => by
    have h := idx_facts1 t
    match a with
    | ⟨0, _⟩ => show win1_3.index t (0 : Fin 2) * _ = 0; rw [h.2.2.2.2.2.2.1]; exact Nat.zero_mul _
    | ⟨1, _⟩ => show win1_3.index t (1 : Fin 2) * _ = 0; rw [h.2.2.2.2.2.2.2.1]; exact Nat.zero_mul _
  unfold iblk1
  exact Memref.read_access_unit_zero (Elt Ideal) main_v91 hz' (fun a => by rw [congrFun hz' a]; simp) (V c main_v91)

/-- Input window 4's block at a point is its whole array. -/
theorem iblk1_4_eq (c : Dev nD) (t : Fin cfg1.N) : (iblk1 V c 4 t : Vec Ideal S1x256 .f32) = (V c main_v94 : S1x256.Idx → Elt Ideal .f32) := by
  have hz' : (fun a => win1_4.index t a * main_v94.ty.shape.size a) = fun _ => 0 := funext fun a => by
    have h := idx_facts1 t
    match a with
    | ⟨0, _⟩ => show win1_4.index t (0 : Fin 2) * _ = 0; rw [h.2.2.2.2.2.2.2.2.1]; exact Nat.zero_mul _
    | ⟨1, _⟩ => show win1_4.index t (1 : Fin 2) * _ = 0; rw [h.2.2.2.2.2.2.2.2.2.1]; exact Nat.zero_mul _
  unfold iblk1
  exact Memref.read_access_unit_zero (Elt Ideal) main_v94 hz' (fun a => by rw [congrFun hz' a]; simp) (V c main_v94)

/-- Input window 5's block at a point is its whole array. -/
theorem iblk1_5_eq (c : Dev nD) (t : Fin cfg1.N) : (iblk1 V c 5 t : Vec Ideal S256x128 .f32) = (V c main_v96 : S256x128.Idx → Elt Ideal .f32) := by
  have hz' : (fun a => win1_5.index t a * main_v96.ty.shape.size a) = fun _ => 0 := funext fun a => by
    have h := idx_facts1 t
    match a with
    | ⟨0, _⟩ => show win1_5.index t (0 : Fin 2) * _ = 0; rw [h.2.2.2.2.2.2.2.2.2.2.1]; exact Nat.zero_mul _
    | ⟨1, _⟩ => show win1_5.index t (1 : Fin 2) * _ = 0; rw [h.2.2.2.2.2.2.2.2.2.2.2.1]; exact Nat.zero_mul _
  unfold iblk1
  exact Memref.read_access_unit_zero (Elt Ideal) main_v96 hz' (fun a => by rw [congrFun hz' a]; simp) (V c main_v96)

/-- Input window 6's block at a point is its whole array. -/
theorem iblk1_6_eq (c : Dev nD) (t : Fin cfg1.N) : (iblk1 V c 6 t : Vec Ideal S1x128 .f32) = (V c main_v99 : S1x128.Idx → Elt Ideal .f32) := by
  have hz' : (fun a => win1_6.index t a * main_v99.ty.shape.size a) = fun _ => 0 := funext fun a => by
    have h := idx_facts1 t
    match a with
    | ⟨0, _⟩ => show win1_6.index t (0 : Fin 2) * _ = 0; rw [h.2.2.2.2.2.2.2.2.2.2.2.2.1]; exact Nat.zero_mul _
    | ⟨1, _⟩ => show win1_6.index t (1 : Fin 2) * _ = 0; rw [h.2.2.2.2.2.2.2.2.2.2.2.2.2.1]; exact Nat.zero_mul _
  unfold iblk1
  exact Memref.read_access_unit_zero (Elt Ideal) main_v99 hz' (fun a => by rw [congrFun hz' a]; simp) (V c main_v99)

/-- Input window 7's block at a point is its whole array. -/
theorem iblk1_7_eq (c : Dev nD) (t : Fin cfg1.N) : (iblk1 V c 7 t : Vec Ideal S1x128 .f32) = (V c main_v102 : S1x128.Idx → Elt Ideal .f32) := by
  have hz' : (fun a => win1_7.index t a * main_v102.ty.shape.size a) = fun _ => 0 := funext fun a => by
    have h := idx_facts1 t
    match a with
    | ⟨0, _⟩ => show win1_7.index t (0 : Fin 2) * _ = 0; rw [h.2.2.2.2.2.2.2.2.2.2.2.2.2.2.1]; exact Nat.zero_mul _
    | ⟨1, _⟩ => show win1_7.index t (1 : Fin 2) * _ = 0; rw [h.2.2.2.2.2.2.2.2.2.2.2.2.2.2.2.1]; exact Nat.zero_mul _
  unfold iblk1
  exact Memref.read_access_unit_zero (Elt Ideal) main_v102 hz' (fun a => by rw [congrFun hz' a]; simp) (V c main_v102)

/-- Input window 8's block at a point is its whole array. -/
theorem iblk1_8_eq (c : Dev nD) (t : Fin cfg1.N) : (iblk1 V c 8 t : Vec Ideal S1x128 .f32) = (V c main_v105 : S1x128.Idx → Elt Ideal .f32) := by
  have hz' : (fun a => win1_8.index t a * main_v105.ty.shape.size a) = fun _ => 0 := funext fun a => by
    have h := idx_facts1 t
    match a with
    | ⟨0, _⟩ => show win1_8.index t (0 : Fin 2) * _ = 0; rw [h.2.2.2.2.2.2.2.2.2.2.2.2.2.2.2.2.1]; exact Nat.zero_mul _
    | ⟨1, _⟩ => show win1_8.index t (1 : Fin 2) * _ = 0; rw [h.2.2.2.2.2.2.2.2.2.2.2.2.2.2.2.2.2.1]; exact Nat.zero_mul _
  unfold iblk1
  exact Memref.read_access_unit_zero (Elt Ideal) main_v105 hz' (fun a => by rw [congrFun hz' a]; simp) (V c main_v105)

/-- WHAT THE ONE POINT WRITES BACK is the block of `G1_9` of the input arrays as the region finds them. -/
theorem flushed1_9_eq (c : Dev nD) (t : Fin cfg1.N) (hf : (cfg1.win 9).flush t = true) :
    (dat1 V c).flushed 9 t = ((cfg1.win 9).blk t).view.read (Elt Ideal) (G1_9 (V c main_v83) (V c main_v85) (V c main_v88) (V c main_v91) (V c main_v94) (V c main_v96) (V c main_v99) (V c main_v102) (V c main_v105)) := by
  obtain rfl : t = t1_0 := fin_N1 t
  show (cfg1.win 9).cut (grid1.coords t1_0) ((dat1 V c).after 9 t1_0) = _
  rw [after1_9]
  unfold out1_9
  rw [View.canon_unit_zero hz1]
  simp only [View.ld_unit_zero (S := S512x128) hz1, View.ld_unit_zero (S := S128x256) hz1, View.ld_unit_zero (S := S1x256) hz1,
    View.ld_unit_zero (S := S256x128) hz1, View.ld_unit_zero (S := S1x128) hz1]
  rw [iblk1_0_eq, iblk1_1_eq, iblk1_2_eq, iblk1_3_eq, iblk1_4_eq, iblk1_5_eq, iblk1_6_eq, iblk1_7_eq, iblk1_8_eq, pay1_eq]
  have hz' : (fun a => win1_9.index t1_0 a * main_v106.ty.shape.size a) = fun _ => 0 := funext fun a => by
    have h := idx_facts1 t1_0
    match a with
    | ⟨0, _⟩ => show win1_9.index t1_0 (0 : Fin 2) * _ = 0; rw [h.2.2.2.2.2.2.2.2.2.2.2.2.2.2.2.2.2.2.1]; exact Nat.zero_mul _
    | ⟨1, _⟩ => show win1_9.index t1_0 (1 : Fin 2) * _ = 0; rw [h.2.2.2.2.2.2.2.2.2.2.2.2.2.2.2.2.2.2.2.1]; exact Nat.zero_mul _
  exact (Memref.read_access_unit_zero (Elt Ideal) main_v106 hz' (fun a => by rw [congrFun hz' a]; simp) (G1_9 (V c main_v83) (V c main_v85) (V c main_v88) (V c main_v91) (V c main_v94) (V c main_v96) (V c main_v99) (V c main_v102) (V c main_v105))).symm

/-- THE ARRAY after the region: `G1_9` of the input arrays (the one point's block is the whole output array). -/
theorem final1_9 (c : Dev nD) : (dat1 V c).arrAt 9 cfg1.N = G1_9 (V c main_v83) (V c main_v85) (V c main_v88) (V c main_v91) (V c main_v94) (V c main_v96) (V c main_v99) (V c main_v102) (V c main_v105) :=
  (dat1 V c).arrAt_eq_of_cover 9 (G1_9 (V c main_v83) (V c main_v85) (V c main_v88) (V c main_v91) (V c main_v94) (V c main_v96) (V c main_v99) (V c main_v102) (V c main_v105)) (flushed1_9_eq V c) fun i =>
    ⟨t1_0, flush1_9 t1_0, by
      show i ∈ ((View.whole main_v106).slice (win1_9.rect t1_0)).set
      rw [View.set_slice_whole, Rect.mem_set_unit]
      have h := idx_facts1 t1_0
      intro a
      match a with
      | ⟨0, _⟩ =>
        show win1_9.index t1_0 (0 : Fin 2) * win1_9.size 0 ≤ (i 0 : Nat) ∧ (i 0 : Nat) < win1_9.index t1_0 (0 : Fin 2) * win1_9.size 0 + win1_9.xsize (grid1.coords t1_0) (0 : Fin 2)
        rw [h.2.2.2.2.2.2.2.2.2.2.2.2.2.2.2.2.2.2.1, h.2.2.2.2.2.2.2.2.2.2.2.2.2.2.2.2.2.2.2.2.1]
        have hi : (i 0 : Nat) < 512 := (i 0).isLt
        omega
      | ⟨1, _⟩ =>
        show win1_9.index t1_0 (1 : Fin 2) * win1_9.size 1 ≤ (i 1 : Nat) ∧ (i 1 : Nat) < win1_9.index t1_0 (1 : Fin 2) * win1_9.size 1 + win1_9.xsize (grid1.coords t1_0) (1 : Fin 2)
        rw [h.2.2.2.2.2.2.2.2.2.2.2.2.2.2.2.2.2.2.2.1, h.2.2.2.2.2.2.2.2.2.2.2.2.2.2.2.2.2.2.2.2.2]
        have hi : (i 1 : Nat) < 128 := (i 1).isLt
        omega⟩

end Cert.KernelIdeal.Hand
-- ==== Proof.Val.KFoldA1.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import proofs.«402460_j82824149336546_1_alg».proof.Proof.Val.KStages
import proofs.«402460_j82824149336546_1_alg».proof.Proof.KI.Reg1Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The kernel's value from the first layer's exit to the first update of the virtual node

After the first graph-convolution layer a host stretch adds the virtual node to the per-graph sums the layer left
and cuts the second row of each of the update's parameters out of the arguments; a one-point kernel region then runs
the update (two linear maps, each followed by its normalisation and activation) on that sum.

Each item is read as a function of the buffers it finds: the stretch's result buffers are the stage functions of the
buffers it reads, the region's output array is its closed form of its nine input arrays, and a buffer an item does not
write is as it was.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The buffers later items read

The first layer's node states, the virtual node's embedding, the two ends and the weight of every edge, the
node-against-graph indicator, and the arguments: neither the stretch nor the region writes any of them. -/

/-- Those buffers. -/
def keptA1 : List (Ref sig .tc) :=
  [main_v82_0, main_v36, main_v3, main_v6, main_v28, main_v35, main_arg0, main_arg1, main_arg2, main_arg3, main_arg4, main_arg5, main_arg6, main_arg7, main_arg8, main_arg9, main_arg10, main_arg11, main_arg12, main_arg13, main_arg14, main_arg15, main_arg16, main_arg17]

/-! ## The host stretch, over any contents `W` -/

section Host
variable (W : Valuation τ sig (Elt Ideal))

set_option maxHeartbeats 1000000 in
/-- The per-graph sums plus the virtual node. -/
theorem after1_v83 : StableHlo.after hostOps1 W (Proc.devRef .tc main_v83)
    = Stage.vtOf (W (Proc.devRef .tc main_v82_1)) (W (Proc.devRef .tc main_v36)) := by
  after_results_simp; rfl

set_option maxHeartbeats 1000000 in
/-- The first linear map's weights, second slice. -/
theorem after1_v85 : StableHlo.after hostOps1 W (Proc.devRef .tc main_v85)
    = Stage.mlpA1 (W (Proc.devRef .tc main_arg8)) := by
  after_results_simp; rfl

set_option maxHeartbeats 1000000 in
/-- Its bias, second row. -/
theorem after1_v88 : StableHlo.after hostOps1 W (Proc.devRef .tc main_v88)
    = Stage.mlpRowA1 (W (Proc.devRef .tc main_arg9)) := by
  after_results_simp; rfl

set_option maxHeartbeats 1000000 in
/-- Its normalisation's scale, second row. -/
theorem after1_v91 : StableHlo.after hostOps1 W (Proc.devRef .tc main_v91)
    = Stage.mlpRowA1 (W (Proc.devRef .tc main_arg10)) := by
  after_results_simp; rfl

set_option maxHeartbeats 1000000 in
/-- Its normalisation's shift, second row. -/
theorem after1_v94 : StableHlo.after hostOps1 W (Proc.devRef .tc main_v94)
    = Stage.mlpRowA1 (W (Proc.devRef .tc main_arg11)) := by
  after_results_simp; rfl

set_option maxHeartbeats 1000000 in
/-- The second linear map's weights, second slice. -/
theorem after1_v96 : StableHlo.after hostOps1 W (Proc.devRef .tc main_v96)
    = Stage.mlpB1 (W (Proc.devRef .tc main_arg12)) := by
  after_results_simp; rfl

set_option maxHeartbeats 1000000 in
/-- Its bias, second row. -/
theorem after1_v99 : StableHlo.after hostOps1 W (Proc.devRef .tc main_v99)
    = Stage.mlpRowB1 (W (Proc.devRef .tc main_arg13)) := by
  after_results_simp; rfl

set_option maxHeartbeats 1000000 in
/-- Its normalisation's scale, second row. -/
theorem after1_v102 : StableHlo.after hostOps1 W (Proc.devRef .tc main_v102)
    = Stage.mlpRowB1 (W (Proc.devRef .tc main_arg14)) := by
  after_results_simp; rfl

set_option maxHeartbeats 1000000 in
/-- Its normalisation's shift, second row. -/
theorem after1_v105 : StableHlo.after hostOps1 W (Proc.devRef .tc main_v105)
    = Stage.mlpRowB1 (W (Proc.devRef .tc main_arg15)) := by
  after_results_simp; rfl

set_option maxHeartbeats 4000000 in
/-- The stretch writes none of the kept buffers. -/
theorem after1_keep (r : Ref sig .tc) (hr : r ∈ keptA1) :
    StableHlo.after hostOps1 W (Proc.devRef .tc r) = W (Proc.devRef .tc r) := by
  simp only [keptA1, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl <;> after_results_simp

end Host

/-! ## The region, over any entry contents `Y` -/

section Region
variable (Y : Dev nD → Valuation τ sig (Elt Ideal))

/-- Contents read at the TensorCore's references. -/
abbrev atTcA1 : (c : Dev nD) → (b : Ref sig .tc) → Buf (Elt Ideal) ((c : Thread nD τ).loc b) := fun c b => Y c b

/-- Region 1's exit contents from entry contents `Y`: its arrays at what the pipeline leaves, every other buffer as entered. -/
def exit1 (c : Dev nD) : Valuation τ sig (Elt Ideal) :=
  Pipeline.withArrays spec1 c (Y c) fun w => (dat1 (atTcA1 Y) c).arrAt w cfg1.N

theorem exit1_out (c : Dev nD) : exit1 Y c (Proc.devRef .tc main_v106)
    = G1_9 (Y c (Proc.devRef .tc main_v83)) (Y c (Proc.devRef .tc main_v85)) (Y c (Proc.devRef .tc main_v88)) (Y c (Proc.devRef .tc main_v91))
        (Y c (Proc.devRef .tc main_v94)) (Y c (Proc.devRef .tc main_v96)) (Y c (Proc.devRef .tc main_v99)) (Y c (Proc.devRef .tc main_v102))
        (Y c (Proc.devRef .tc main_v105)) :=
  (Pipeline.withArrays_arr spec1 launch1.win.arr_inj c _ _ 9).trans (final1_9 (atTcA1 Y) c)

/-- None of the kept buffers is one of the region's arrays. -/
theorem exit1_keep (c : Dev nD) (r : Ref sig .tc) (hr : r ∈ keptA1) :
    exit1 Y c (Proc.devRef .tc r) = Y c (Proc.devRef .tc r) := by
  simp only [keptA1, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl
  all_goals exact Pipeline.withArrays_of_ne spec1 c _ _ _ (by decide)

end Region

/-! ## The two items in a row, from the contents `X` at the first layer's exit -/

section Chain
variable (X : Dev nD → Valuation τ sig (Elt Ideal)) (c : Dev nD)

/-- After the stretch, and at the region's exit. -/
def A3 (c : Dev nD) : Valuation τ sig (Elt Ideal) := StableHlo.after hostOps1 (X c)
def A4 : Dev nD → Valuation τ sig (Elt Ideal) := exit1 (A3 X)

theorem keepA3 (r : Ref sig .tc) (hr : r ∈ keptA1) : A3 X c (Proc.devRef .tc r) = X c (Proc.devRef .tc r) := after1_keep (X c) r hr
theorem keepA4 (r : Ref sig .tc) (hr : r ∈ keptA1) : A4 X c (Proc.devRef .tc r) = X c (Proc.devRef .tc r) :=
  (exit1_keep (A3 X) c r hr).trans (keepA3 X c r hr)

/-- The update's closed form, of the per-graph sums, the virtual node and the eight parameters it reads. -/
def headOf1 (ps vn : S512x128.Idx → Elt Ideal .f32) (a8 : S2x128x256.Idx → Elt Ideal .f32) (a9 a10 a11 : S2x256.Idx → Elt Ideal .f32)
    (a12 : S2x256x128.Idx → Elt Ideal .f32) (a13 a14 a15 : S2x128.Idx → Elt Ideal .f32) : S512x128.Idx → Elt Ideal .f32 :=
  G1_9 (Stage.vtOf ps vn) (Stage.mlpA1 a8) (Stage.mlpRowA1 a9) (Stage.mlpRowA1 a10) (Stage.mlpRowA1 a11)
    (Stage.mlpB1 a12) (Stage.mlpRowB1 a13) (Stage.mlpRowB1 a14) (Stage.mlpRowB1 a15)

/-- THE UPDATE'S RESULT at the region's exit, from the contents at the first layer's exit. -/
theorem valA4 : A4 X c (Proc.devRef .tc main_v106)
    = headOf1 (X c (Proc.devRef .tc main_v82_1)) (X c (Proc.devRef .tc main_v36)) (X c (Proc.devRef .tc main_arg8)) (X c (Proc.devRef .tc main_arg9))
        (X c (Proc.devRef .tc main_arg10)) (X c (Proc.devRef .tc main_arg11)) (X c (Proc.devRef .tc main_arg12)) (X c (Proc.devRef .tc main_arg13))
        (X c (Proc.devRef .tc main_arg14)) (X c (Proc.devRef .tc main_arg15)) := by
  refine (exit1_out (A3 X) c).trans ?_
  rw [show A3 X c (Proc.devRef .tc main_v83) = _ from after1_v83 (X c), show A3 X c (Proc.devRef .tc main_v85) = _ from after1_v85 (X c),
    show A3 X c (Proc.devRef .tc main_v88) = _ from after1_v88 (X c), show A3 X c (Proc.devRef .tc main_v91) = _ from after1_v91 (X c),
    show A3 X c (Proc.devRef .tc main_v94) = _ from after1_v94 (X c), show A3 X c (Proc.devRef .tc main_v96) = _ from after1_v96 (X c),
    show A3 X c (Proc.devRef .tc main_v99) = _ from after1_v99 (X c), show A3 X c (Proc.devRef .tc main_v102) = _ from after1_v102 (X c),
    show A3 X c (Proc.devRef .tc main_v105) = _ from after1_v105 (X c)]
  rfl

/-- The same with the ten buffers' contents named by hypotheses, for whatever computes them before. -/
theorem head1_value_of (ps vn : S512x128.Idx → Elt Ideal .f32) (a8 : S2x128x256.Idx → Elt Ideal .f32)
    (a9 a10 a11 : S2x256.Idx → Elt Ideal .f32) (a12 : S2x256x128.Idx → Elt Ideal .f32) (a13 a14 a15 : S2x128.Idx → Elt Ideal .f32)
    (hps : X c (Proc.devRef .tc main_v82_1) = ps) (hvn : X c (Proc.devRef .tc main_v36) = vn) (h8 : X c (Proc.devRef .tc main_arg8) = a8)
    (h9 : X c (Proc.devRef .tc main_arg9) = a9) (h10 : X c (Proc.devRef .tc main_arg10) = a10) (h11 : X c (Proc.devRef .tc main_arg11) = a11)
    (h12 : X c (Proc.devRef .tc main_arg12) = a12) (h13 : X c (Proc.devRef .tc main_arg13) = a13) (h14 : X c (Proc.devRef .tc main_arg14) = a14)
    (h15 : X c (Proc.devRef .tc main_arg15) = a15) :
    A4 X c (Proc.devRef .tc main_v106) = headOf1 ps vn a8 a9 a10 a11 a12 a13 a14 a15 := by
  subst hps hvn h8 h9 h10 h11 h12 h13 h14 h15
  exact valA4 X c

end Chain

end Cert.KernelIdeal.Hand

end
-- ==== Proof.Val.KFoldA2Host.lean ====
import proofs.«402460_j82824149336546_1_alg».proof.Proof.Gen.KernelIdeal.Launch
import proofs.«402460_j82824149336546_1_alg».proof.Proof.Val.KStages
import Idealize.ShloMosaic.PureOps.Ideal
import Idealize.ShloMosaic.Lib.StableHlo.Run
import Idealize.ShloMosaic.Lib.Pipeline.FrameSuffix
import Idealize.ShloMosaic.Lib.Tactic

/-!
# The host stretches of the middle of the kernel's program, as functions of the buffers they read

Between the first update of the virtual node and the third graph-convolution layer's region the program runs three
host stretches: before the second layer (the virtual node plus its update; every edge carries its weight times its
source's row of the first layer's output to its target; the second layer's linear map of the propagated rows, its
column means and variances, and the layer's parameter rows), before the second update of the virtual node (the
update's parameters laid out), and before the third layer (like the first). Each result buffer a region reads is
the stage function of the buffers the stretch reads, and a buffer a stretch does not write is as it was.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

/-! ## The buffers read after they are made, that no item of the middle writes

The two ends and the weight of every edge, the node-against-graph indicator, and the arguments the middle and the
tail read. -/

/-- Those nineteen buffers. -/
def midKeep : List (Ref sig .tc) := [main_v3, main_v6, main_v28, main_v35, main_arg2, main_arg3, main_arg4, main_arg5, main_arg6, main_arg8, main_arg9, main_arg10, main_arg11, main_arg12, main_arg13, main_arg14, main_arg15, main_arg16, main_arg17]

/-! ## The host stretches, over any contents `W` -/

section Host
variable (W : Valuation τ sig (Elt Ideal))

/-! ### Before the second layer -/

/-- The virtual node after its first update. -/
theorem after2_v107 : StableHlo.after hostOps2 W (Proc.devRef .tc main_v107)
    = Stage.vnNext (W (Proc.devRef .tc main_v36)) (W (Proc.devRef .tc main_v106)) := by
  after_results_simp; rfl

/-- The propagation of layer 0's output. -/
theorem after2_v120 : StableHlo.after hostOps2 W (Proc.devRef .tc main_v120)
    = Stage.propOf (W (Proc.devRef .tc main_v3)) (W (Proc.devRef .tc main_v6)) (W (Proc.devRef .tc main_v28)) (W (Proc.devRef .tc main_v82_0)) := by
  after_results_simp; rfl

/-- Layer 1's weight matrix. -/
theorem after2_v143 : StableHlo.after hostOps2 W (Proc.devRef .tc main_v143)
    = Stage.sliceW1 (W (Proc.devRef .tc main_arg3)) := by
  after_results_simp; rfl

/-- Layer 1's bias row. -/
theorem after2_v146 : StableHlo.after hostOps2 W (Proc.devRef .tc main_v146)
    = Stage.row1 (W (Proc.devRef .tc main_arg4)) := by
  after_results_simp; rfl

/-- The column means of layer 1's linear map of the propagated rows. -/
theorem after2_v134 : StableHlo.after hostOps2 W (Proc.devRef .tc main_v134)
    = Stage.mean (Stage.lin1 (Stage.propOf (W (Proc.devRef .tc main_v3)) (W (Proc.devRef .tc main_v6)) (W (Proc.devRef .tc main_v28)) (W (Proc.devRef .tc main_v82_0))) (W (Proc.devRef .tc main_arg3)) (W (Proc.devRef .tc main_arg4))) := by
  after_results_simp; rfl

/-- Their column variances. -/
theorem after2_v141 : StableHlo.after hostOps2 W (Proc.devRef .tc main_v141)
    = Stage.var (Stage.lin1 (Stage.propOf (W (Proc.devRef .tc main_v3)) (W (Proc.devRef .tc main_v6)) (W (Proc.devRef .tc main_v28)) (W (Proc.devRef .tc main_v82_0))) (W (Proc.devRef .tc main_arg3)) (W (Proc.devRef .tc main_arg4))) (Stage.mean (Stage.lin1 (Stage.propOf (W (Proc.devRef .tc main_v3)) (W (Proc.devRef .tc main_v6)) (W (Proc.devRef .tc main_v28)) (W (Proc.devRef .tc main_v82_0))) (W (Proc.devRef .tc main_arg3)) (W (Proc.devRef .tc main_arg4)))) := by
  after_results_simp; rfl

/-- Layer 1's scale row. -/
theorem after2_v149 : StableHlo.after hostOps2 W (Proc.devRef .tc main_v149)
    = Stage.row1 (W (Proc.devRef .tc main_arg5)) := by
  after_results_simp; rfl

/-- Layer 1's shift row. -/
theorem after2_v152 : StableHlo.after hostOps2 W (Proc.devRef .tc main_v152)
    = Stage.row1 (W (Proc.devRef .tc main_arg6)) := by
  after_results_simp; rfl

/-- The buffers the stretch writes, in order. -/
def midWrites2 : List (Ref sig .tc) := [main_v107, main_v108, main_c_12, main_v109, main_v110, main_c_13, main_v111, main_v112, main_v113, main_v114, main_v115, main_v116, main_v117, main_cst_14, main_v118, main_v119, main_v120, main_v121, main_v122, main_v123, main_v124, main_v125, main_v126, main_v127, main_v128, main_v129, main_v130, main_cst_15, main_v131, main_v132, main_cst_16, main_v133, main_v134, main_v135, main_v136, main_v137, main_cst_17, main_v138, main_v139, main_cst_18, main_v140, main_v141, main_v142, main_v143, main_v144, main_v145, main_v146, main_v147, main_v148, main_v149, main_v150, main_v151, main_v152]

/-- Each operation of the stretch writes only its result buffer, which is in that list. -/
theorem midWrites2_sub : (hostOps2 : List (HloOp τ sig (Elt Ideal))).Forall fun op => op.writes ⊆ (midWrites2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A buffer not in the list is as it was. -/
theorem after2_of (r : Ref sig .tc) (h : r ∉ midWrites2) :
    StableHlo.after hostOps2 W (Proc.devRef .tc r) = W (Proc.devRef .tc r) :=
  StableHlo.after_of_writes_sub hostOps2 _ midWrites2_sub h

/-- The stretch writes none of the kept buffers. -/
theorem after2_keep (r : Ref sig .tc) (hr : r ∈ midKeep) :
    StableHlo.after hostOps2 W (Proc.devRef .tc r) = W (Proc.devRef .tc r) :=
  after2_of W r ((by decide : ∀ r ∈ midKeep, r ∉ midWrites2) r hr)

/-! ### Before the second update of the virtual node -/

/-- The per-graph sums of layer 1's output plus the virtual node. -/
theorem after3_v154 : StableHlo.after hostOps3 W (Proc.devRef .tc main_v154)
    = Stage.vtOf (W (Proc.devRef .tc main_v153_1)) (W (Proc.devRef .tc main_v107)) := by
  after_results_simp; rfl

/-- The update's first weight matrix. -/
theorem after3_v156 : StableHlo.after hostOps3 W (Proc.devRef .tc main_v156)
    = Stage.mlpA0 (W (Proc.devRef .tc main_arg8)) := by
  after_results_simp; rfl

/-- Its first bias row. -/
theorem after3_v159 : StableHlo.after hostOps3 W (Proc.devRef .tc main_v159)
    = Stage.mlpRowA0 (W (Proc.devRef .tc main_arg9)) := by
  after_results_simp; rfl

/-- Its first scale row. -/
theorem after3_v162 : StableHlo.after hostOps3 W (Proc.devRef .tc main_v162)
    = Stage.mlpRowA0 (W (Proc.devRef .tc main_arg10)) := by
  after_results_simp; rfl

/-- Its first shift row. -/
theorem after3_v165 : StableHlo.after hostOps3 W (Proc.devRef .tc main_v165)
    = Stage.mlpRowA0 (W (Proc.devRef .tc main_arg11)) := by
  after_results_simp; rfl

/-- Its second weight matrix. -/
theorem after3_v167 : StableHlo.after hostOps3 W (Proc.devRef .tc main_v167)
    = Stage.mlpB0 (W (Proc.devRef .tc main_arg12)) := by
  after_results_simp; rfl

/-- Its second bias row. -/
theorem after3_v170 : StableHlo.after hostOps3 W (Proc.devRef .tc main_v170)
    = Stage.mlpRowB0 (W (Proc.devRef .tc main_arg13)) := by
  after_results_simp; rfl

/-- Its second scale row. -/
theorem after3_v173 : StableHlo.after hostOps3 W (Proc.devRef .tc main_v173)
    = Stage.mlpRowB0 (W (Proc.devRef .tc main_arg14)) := by
  after_results_simp; rfl

/-- Its second shift row. -/
theorem after3_v176 : StableHlo.after hostOps3 W (Proc.devRef .tc main_v176)
    = Stage.mlpRowB0 (W (Proc.devRef .tc main_arg15)) := by
  after_results_simp; rfl

/-- The buffers the stretch writes, in order. -/
def midWrites3 : List (Ref sig .tc) := [main_v154, main_v155, main_v156, main_v157, main_v158, main_v159, main_v160, main_v161, main_v162, main_v163, main_v164, main_v165, main_v166, main_v167, main_v168, main_v169, main_v170, main_v171, main_v172, main_v173, main_v174, main_v175, main_v176]

/-- Each operation of the stretch writes only its result buffer, which is in that list. -/
theorem midWrites3_sub : (hostOps3 : List (HloOp τ sig (Elt Ideal))).Forall fun op => op.writes ⊆ (midWrites3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩ <;> exact List.mem_map_of_mem (by decide)

/-- A buffer not in the list is as it was. -/
theorem after3_of (r : Ref sig .tc) (h : r ∉ midWrites3) :
    StableHlo.after hostOps3 W (Proc.devRef .tc r) = W (Proc.devRef .tc r) :=
  StableHlo.after_of_writes_sub hostOps3 _ midWrites3_sub h

/-- The stretch writes none of the kept buffers. -/
theorem after3_keep (r : Ref sig .tc) (hr : r ∈ midKeep) :
    StableHlo.after hostOps3 W (Proc.devRef .tc r) = W (Proc.devRef .tc r) :=
  after3_of W r ((by decide : ∀ r ∈ midKeep, r ∉ midWrites3) r hr)

/-- It does not write the second layer's output either. -/
theorem after3_v153_0 : StableHlo.after hostOps3 W (Proc.devRef .tc main_v153_0) = W (Proc.devRef .tc main_v153_0) :=
  after3_of W main_v153_0 (by decide)

/-! ### Before the third layer -/

/-- The virtual node after its second update (no later item reads it). -/
theorem after4_v178 : StableHlo.after hostOps4 W (Proc.devRef .tc main_v178)
    = Stage.vnNext (W (Proc.devRef .tc main_v107)) (W (Proc.devRef .tc main_v177)) := by
  after_results_simp; rfl

/-- The propagation of layer 1's output. -/
theorem after4_v191 : StableHlo.after hostOps4 W (Proc.devRef .tc main_v191)
    = Stage.propOf (W (Proc.devRef .tc main_v3)) (W (Proc.devRef .tc main_v6)) (W (Proc.devRef .tc main_v28)) (W (Proc.devRef .tc main_v153_0)) := by
  after_results_simp; rfl

/-- Layer 2's weight matrix. -/
theorem after4_v214 : StableHlo.after hostOps4 W (Proc.devRef .tc main_v214)
    = Stage.sliceW2 (W (Proc.devRef .tc main_arg3)) := by
  after_results_simp; rfl

/-- Layer 2's bias row. -/
theorem after4_v217 : StableHlo.after hostOps4 W (Proc.devRef .tc main_v217)
    = Stage.row2 (W (Proc.devRef .tc main_arg4)) := by
  after_results_simp; rfl

/-- The column means of layer 2's linear map of the propagated rows. -/
theorem after4_v205 : StableHlo.after hostOps4 W (Proc.devRef .tc main_v205)
    = Stage.mean (Stage.lin2 (Stage.propOf (W (Proc.devRef .tc main_v3)) (W (Proc.devRef .tc main_v6)) (W (Proc.devRef .tc main_v28)) (W (Proc.devRef .tc main_v153_0))) (W (Proc.devRef .tc main_arg3)) (W (Proc.devRef .tc main_arg4))) := by
  after_results_simp; rfl

/-- Their column variances. -/
theorem after4_v212 : StableHlo.after hostOps4 W (Proc.devRef .tc main_v212)
    = Stage.var (Stage.lin2 (Stage.propOf (W (Proc.devRef .tc main_v3)) (W (Proc.devRef .tc main_v6)) (W (Proc.devRef .tc main_v28)) (W (Proc.devRef .tc main_v153_0))) (W (Proc.devRef .tc main_arg3)) (W (Proc.devRef .tc main_arg4))) (Stage.mean (Stage.lin2 (Stage.propOf (W (Proc.devRef .tc main_v3)) (W (Proc.devRef .tc main_v6)) (W (Proc.devRef .tc main_v28)) (W (Proc.devRef .tc main_v153_0))) (W (Proc.devRef .tc main_arg3)) (W (Proc.devRef .tc main_arg4)))) := by
  after_results_simp; rfl

/-- Layer 2's scale row. -/
theorem after4_v220 : StableHlo.after hostOps4 W (Proc.devRef .tc main_v220)
    = Stage.row2 (W (Proc.devRef .tc main_arg5)) := by
  after_results_simp; rfl

/-- Layer 2's shift row. -/
theorem after4_v223 : StableHlo.after hostOps4 W (Proc.devRef .tc main_v223)
    = Stage.row2 (W (Proc.devRef .tc main_arg6)) := by
  after_results_simp; rfl

/-- The buffers the stretch writes, in order. -/
def midWrites4 : List (Ref sig .tc) := [main_v178, main_v179, main_c_19, main_v180, main_v181, main_c_20, main_v182, main_v183, main_v184, main_v185, main_v186, main_v187, main_v188, main_cst_21, main_v189, main_v190, main_v191, main_v192, main_v193, main_v194, main_v195, main_v196, main_v197, main_v198, main_v199, main_v200, main_v201, main_cst_22, main_v202, main_v203, main_cst_23, main_v204, main_v205, main_v206, main_v207, main_v208, main_cst_24, main_v209, main_v210, main_cst_25, main_v211, main_v212, main_v213, main_v214, main_v215, main_v216, main_v217, main_v218, main_v219, main_v220, main_v221, main_v222, main_v223]

/-- Each operation of the stretch writes only its result buffer, which is in that list. -/
theorem midWrites4_sub : (hostOps4 : List (HloOp τ sig (Elt Ideal))).Forall fun op => op.writes ⊆ (midWrites4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A buffer not in the list is as it was. -/
theorem after4_of (r : Ref sig .tc) (h : r ∉ midWrites4) :
    StableHlo.after hostOps4 W (Proc.devRef .tc r) = W (Proc.devRef .tc r) :=
  StableHlo.after_of_writes_sub hostOps4 _ midWrites4_sub h

/-- The stretch writes none of the kept buffers. -/
theorem after4_keep (r : Ref sig .tc) (hr : r ∈ midKeep) :
    StableHlo.after hostOps4 W (Proc.devRef .tc r) = W (Proc.devRef .tc r) :=
  after4_of W r ((by decide : ∀ r ∈ midKeep, r ∉ midWrites4) r hr)

end Host

end Cert.KernelIdeal.Hand

end
-- ==== Proof.Val.KFoldA2.lean ====
import proofs.«402460_j82824149336546_1_alg».proof.Proof.Gen.KernelIdeal.Launch
import proofs.«402460_j82824149336546_1_alg».proof.Proof.Val.KStages
import proofs.«402460_j82824149336546_1_alg».proof.Proof.Val.KFoldA2Host
import Idealize.ShloMosaic.PureOps.Ideal
import Idealize.ShloMosaic.Lib.StableHlo.Run
import Idealize.ShloMosaic.Lib.Pipeline.FrameSuffix
import Idealize.ShloMosaic.Lib.Tactic

/-!
# The middle of the kernel's value: from the first virtual-node update to the third layer's exit

After the first graph-convolution layer and the first update of the virtual node, the program runs a host stretch
(the virtual node plus its update; every edge carries its weight times its source's row of the layer's output to
its target; the second layer's linear map of the propagated rows, its column means and variances, and the layer's
parameter rows), the second layer's region, a host stretch that lays out the second update's parameters, the
update's region, a host stretch like the first for the third layer, and the third layer's region.

Each item is read here as a function of the buffers it finds: a host stretch's result buffer is the stage function
of the buffers it reads, a region's output array is a function of its input arrays, and a buffer an item does not
write is as it was. What a region's pipeline leaves in its arrays is a parameter here (`A`), with the closed forms
of the two layers' output arrays (`g2`, `g4`) as hypotheses; the third layer's output does not depend on the second
update of the virtual node.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

/-! ## The regions, over any entry contents `Y` and any array contents `A` at exit -/

section Regions
variable (Y : Dev nD → Valuation τ sig (Elt Ideal))

/-- The second layer's region: its arrays at `A`, every other buffer as entered. -/
def exit2 (A : (c : Dev nD) → (w : Fin cfg2.W) → Buf (Elt Ideal) ((spec2 w).arr.view.loc (c.tc : Thread nD τ))) (c : Dev nD) : Valuation τ sig (Elt Ideal) :=
  Pipeline.withArrays spec2 c (Y c) (A c)

/-- Its node output array is array 9. -/
theorem exit2_out (A : (c : Dev nD) → (w : Fin cfg2.W) → Buf (Elt Ideal) ((spec2 w).arr.view.loc (c.tc : Thread nD τ))) (c : Dev nD) :
    exit2 Y A c (Proc.devRef .tc main_v153_0) = A c 9 :=
  Pipeline.withArrays_arr spec2 launch2.win.arr_inj c _ _ 9

/-- A kept buffer is as entered: none is an array of the region but the indicator, an input array (array 7), which
    the pipeline leaves as it finds it (`hA7`). -/
theorem exit2_keep (A : (c : Dev nD) → (w : Fin cfg2.W) → Buf (Elt Ideal) ((spec2 w).arr.view.loc (c.tc : Thread nD τ))) (hA7 : ∀ c, A c 7 = Y c (Proc.devRef .tc main_v35))
    (c : Dev nD) (r : Ref sig .tc) (hr : r ∈ midKeep) :
    exit2 Y A c (Proc.devRef .tc r) = Y c (Proc.devRef .tc r) := by
  simp only [midKeep, List.mem_cons, List.mem_nil_iff, or_false] at hr
  rcases hr with rfl | rfl | rfl | rfl | rfl | rfl | rfl | rfl | rfl | rfl | rfl | rfl | rfl | rfl | rfl | rfl | rfl | rfl | rfl
  all_goals first
    | exact Pipeline.withArrays_of_ne spec2 c _ _ _ (by decide)
    | exact (Pipeline.withArrays_arr spec2 launch2.win.arr_inj c _ _ 7).trans (hA7 c)

/-- The second update's region: its arrays at `A`, every other buffer as entered. -/
def exit3 (A : (c : Dev nD) → (w : Fin cfg3.W) → Buf (Elt Ideal) ((spec3 w).arr.view.loc (c.tc : Thread nD τ))) (c : Dev nD) : Valuation τ sig (Elt Ideal) :=
  Pipeline.withArrays spec3 c (Y c) (A c)

/-- Its output array is array 9. -/
theorem exit3_out (A : (c : Dev nD) → (w : Fin cfg3.W) → Buf (Elt Ideal) ((spec3 w).arr.view.loc (c.tc : Thread nD τ))) (c : Dev nD) :
    exit3 Y A c (Proc.devRef .tc main_v177) = A c 9 :=
  Pipeline.withArrays_arr spec3 launch3.win.arr_inj c _ _ 9

/-- No kept buffer is an array of the region, -/
theorem exit3_keep (A : (c : Dev nD) → (w : Fin cfg3.W) → Buf (Elt Ideal) ((spec3 w).arr.view.loc (c.tc : Thread nD τ))) (c : Dev nD) (r : Ref sig .tc) (hr : r ∈ midKeep) :
    exit3 Y A c (Proc.devRef .tc r) = Y c (Proc.devRef .tc r) := by
  simp only [midKeep, List.mem_cons, List.mem_nil_iff, or_false] at hr
  rcases hr with rfl | rfl | rfl | rfl | rfl | rfl | rfl | rfl | rfl | rfl | rfl | rfl | rfl | rfl | rfl | rfl | rfl | rfl | rfl
  all_goals exact Pipeline.withArrays_of_ne spec3 c _ _ _ (by decide)

/-- nor is the second layer's output. -/
theorem exit3_v153_0 (A : (c : Dev nD) → (w : Fin cfg3.W) → Buf (Elt Ideal) ((spec3 w).arr.view.loc (c.tc : Thread nD τ))) (c : Dev nD) :
    exit3 Y A c (Proc.devRef .tc main_v153_0) = Y c (Proc.devRef .tc main_v153_0) :=
  Pipeline.withArrays_of_ne spec3 c _ _ _ (by decide)

/-- The third layer's region: its arrays at `A`, every other buffer as entered. -/
def exit4 (A : (c : Dev nD) → (w : Fin cfg4.W) → Buf (Elt Ideal) ((spec4 w).arr.view.loc (c.tc : Thread nD τ))) (c : Dev nD) : Valuation τ sig (Elt Ideal) :=
  Pipeline.withArrays spec4 c (Y c) (A c)

/-- Its output array is array 7. -/
theorem exit4_out (A : (c : Dev nD) → (w : Fin cfg4.W) → Buf (Elt Ideal) ((spec4 w).arr.view.loc (c.tc : Thread nD τ))) (c : Dev nD) :
    exit4 Y A c (Proc.devRef .tc main_v224) = A c 7 :=
  Pipeline.withArrays_arr spec4 launch4.win.arr_inj c _ _ 7

/-- No kept buffer is an array of the region. -/
theorem exit4_keep (A : (c : Dev nD) → (w : Fin cfg4.W) → Buf (Elt Ideal) ((spec4 w).arr.view.loc (c.tc : Thread nD τ))) (c : Dev nD) (r : Ref sig .tc) (hr : r ∈ midKeep) :
    exit4 Y A c (Proc.devRef .tc r) = Y c (Proc.devRef .tc r) := by
  simp only [midKeep, List.mem_cons, List.mem_nil_iff, or_false] at hr
  rcases hr with rfl | rfl | rfl | rfl | rfl | rfl | rfl | rfl | rfl | rfl | rfl | rfl | rfl | rfl | rfl | rfl | rfl | rfl | rfl
  all_goals exact Pipeline.withArrays_of_ne spec4 c _ _ _ (by decide)

end Regions

/-! ## The chain, from the contents `X` at the first update's exit -/

section Chain
variable (X : Dev nD → Valuation τ sig (Elt Ideal))
variable (A2 : (c : Dev nD) → (w : Fin cfg2.W) → Buf (Elt Ideal) ((spec2 w).arr.view.loc (c.tc : Thread nD τ)))
variable (A3 : (c : Dev nD) → (w : Fin cfg3.W) → Buf (Elt Ideal) ((spec3 w).arr.view.loc (c.tc : Thread nD τ)))
variable (A4 : (c : Dev nD) → (w : Fin cfg4.W) → Buf (Elt Ideal) ((spec4 w).arr.view.loc (c.tc : Thread nD τ)))

/-- The contents after each item in turn. -/
def T5 (c : Dev nD) : Valuation τ sig (Elt Ideal) := StableHlo.after hostOps2 (X c)
def T6 : Dev nD → Valuation τ sig (Elt Ideal) := exit2 (T5 X) A2
def T7 (c : Dev nD) : Valuation τ sig (Elt Ideal) := StableHlo.after hostOps3 (T6 X A2 c)
def T8 : Dev nD → Valuation τ sig (Elt Ideal) := exit3 (T7 X A2) A3
def T9 (c : Dev nD) : Valuation τ sig (Elt Ideal) := StableHlo.after hostOps4 (T8 X A2 A3 c)
def T10 : Dev nD → Valuation τ sig (Elt Ideal) := exit4 (T9 X A2 A3) A4

/- The closed forms of the two layers' node output arrays, as functions of their regions' input arrays in window order
   (propagated rows, weight matrix, bias, mean, variance, scale, shift; for the second layer also the indicator and
   the virtual node). -/
variable (g2 : FVec Ideal S50000x128 .f32 → FVec Ideal S128x128 .f32 → FVec Ideal S1x128 .f32 → FVec Ideal S1x128 .f32 → FVec Ideal S1x128 .f32 → FVec Ideal S1x128 .f32 → FVec Ideal S1x128 .f32 → FVec Ideal S50000x512 .bf16 → FVec Ideal S512x128 .f32 → FVec Ideal S50000x128 .f32)
variable (g4 : FVec Ideal S50000x128 .f32 → FVec Ideal S128x128 .f32 → FVec Ideal S1x128 .f32 → FVec Ideal S1x128 .f32 → FVec Ideal S1x128 .f32 → FVec Ideal S1x128 .f32 → FVec Ideal S1x128 .f32 → FVec Ideal S50000x128 .f32)

/-- What the pipelines leave, as hypotheses: the second layer's output array at its closed form of the arrays the
    region finds, its indicator array as found; the third layer's output array at its closed form. -/
structure MidFacts : Prop where
  out2 : ∀ c, A2 c 9 = g2 (T5 X c (Proc.devRef .tc main_v120)) (T5 X c (Proc.devRef .tc main_v143)) (T5 X c (Proc.devRef .tc main_v146)) (T5 X c (Proc.devRef .tc main_v134)) (T5 X c (Proc.devRef .tc main_v141))
    (T5 X c (Proc.devRef .tc main_v149)) (T5 X c (Proc.devRef .tc main_v152)) (T5 X c (Proc.devRef .tc main_v35)) (T5 X c (Proc.devRef .tc main_v107))
  ind2 : ∀ c, A2 c 7 = T5 X c (Proc.devRef .tc main_v35)
  out4 : ∀ c, A4 c 7 = g4 (T9 X A2 A3 c (Proc.devRef .tc main_v191)) (T9 X A2 A3 c (Proc.devRef .tc main_v214)) (T9 X A2 A3 c (Proc.devRef .tc main_v217)) (T9 X A2 A3 c (Proc.devRef .tc main_v205)) (T9 X A2 A3 c (Proc.devRef .tc main_v212))
    (T9 X A2 A3 c (Proc.devRef .tc main_v220)) (T9 X A2 A3 c (Proc.devRef .tc main_v223))

/-! ### The kept buffers stay at `X` -/

section Keep
variable (H : MidFacts X A2 A3 A4 g2 g4) (c : Dev nD) (r : Ref sig .tc) (hr : r ∈ midKeep)
include H hr

theorem midKept5 : T5 X c (Proc.devRef .tc r) = X c (Proc.devRef .tc r) := after2_keep (X c) r hr
theorem midKept6 : T6 X A2 c (Proc.devRef .tc r) = X c (Proc.devRef .tc r) :=
  (exit2_keep (T5 X) A2 H.ind2 c r hr).trans (midKept5 X A2 A3 A4 g2 g4 H c r hr)
theorem midKept7 : T7 X A2 c (Proc.devRef .tc r) = X c (Proc.devRef .tc r) :=
  (after3_keep (T6 X A2 c) r hr).trans (midKept6 X A2 A3 A4 g2 g4 H c r hr)
theorem midKept8 : T8 X A2 A3 c (Proc.devRef .tc r) = X c (Proc.devRef .tc r) :=
  (exit3_keep (T7 X A2) A3 c r hr).trans (midKept7 X A2 A3 A4 g2 g4 H c r hr)
theorem midKept9 : T9 X A2 A3 c (Proc.devRef .tc r) = X c (Proc.devRef .tc r) :=
  (after4_keep (T8 X A2 A3 c) r hr).trans (midKept8 X A2 A3 A4 g2 g4 H c r hr)
theorem midKept10 : T10 X A2 A3 A4 c (Proc.devRef .tc r) = X c (Proc.devRef .tc r) :=
  (exit4_keep (T9 X A2 A3) A4 c r hr).trans (midKept9 X A2 A3 A4 g2 g4 H c r hr)

end Keep

/-! ### The two layers, from `X` -/

/-- The second layer's input: the propagation of the first layer's output. -/
def gcn1In (c : Dev nD) : FVec Ideal S50000x128 .f32 :=
  Stage.propOf (X c (Proc.devRef .tc main_v3)) (X c (Proc.devRef .tc main_v6)) (X c (Proc.devRef .tc main_v28)) (X c (Proc.devRef .tc main_v82_0))
/-- Its linear map. -/
def gcn1Lin (c : Dev nD) : FVec Ideal S50000x128 .f32 :=
  Stage.lin1 (gcn1In X c) (X c (Proc.devRef .tc main_arg3)) (X c (Proc.devRef .tc main_arg4))
/-- The second layer's output. -/
def gcn1Out (c : Dev nD) : FVec Ideal S50000x128 .f32 :=
  g2 (gcn1In X c) (Stage.sliceW1 (X c (Proc.devRef .tc main_arg3))) (Stage.row1 (X c (Proc.devRef .tc main_arg4))) (Stage.mean (gcn1Lin X c))
    (Stage.var (gcn1Lin X c) (Stage.mean (gcn1Lin X c))) (Stage.row1 (X c (Proc.devRef .tc main_arg5))) (Stage.row1 (X c (Proc.devRef .tc main_arg6)))
    (X c (Proc.devRef .tc main_v35)) (Stage.vnNext (X c (Proc.devRef .tc main_v36)) (X c (Proc.devRef .tc main_v106)))
/-- The third layer's input: the propagation of the second layer's output. -/
def gcn2In (c : Dev nD) : FVec Ideal S50000x128 .f32 :=
  Stage.propOf (X c (Proc.devRef .tc main_v3)) (X c (Proc.devRef .tc main_v6)) (X c (Proc.devRef .tc main_v28)) (gcn1Out X g2 c)
/-- Its linear map. -/
def gcn2Lin (c : Dev nD) : FVec Ideal S50000x128 .f32 :=
  Stage.lin2 (gcn2In X g2 c) (X c (Proc.devRef .tc main_arg3)) (X c (Proc.devRef .tc main_arg4))
/-- The third layer's output. -/
def gcn2Out (c : Dev nD) : FVec Ideal S50000x128 .f32 :=
  g4 (gcn2In X g2 c) (Stage.sliceW2 (X c (Proc.devRef .tc main_arg3))) (Stage.row2 (X c (Proc.devRef .tc main_arg4))) (Stage.mean (gcn2Lin X g2 c))
    (Stage.var (gcn2Lin X g2 c) (Stage.mean (gcn2Lin X g2 c))) (Stage.row2 (X c (Proc.devRef .tc main_arg5))) (Stage.row2 (X c (Proc.devRef .tc main_arg6)))

section Values
variable (H : MidFacts X A2 A3 A4 g2 g4) (c : Dev nD)
include H

/-- The second layer's output array at the region's exit. -/
theorem midVal6 : T6 X A2 c (Proc.devRef .tc main_v153_0) = gcn1Out X g2 c := by
  refine (exit2_out (T5 X) A2 c).trans ((H.out2 c).trans ?_)
  rw [midKept5 X A2 A3 A4 g2 g4 H c main_v35 (by simp [midKeep])]
  unfold T5
  rw [after2_v120, after2_v143, after2_v146, after2_v134, after2_v141, after2_v149, after2_v152, after2_v107]
  rfl

/-- It is still there when the third layer's host stretch reads it. -/
theorem midVal8 : T8 X A2 A3 c (Proc.devRef .tc main_v153_0) = gcn1Out X g2 c :=
  (exit3_v153_0 (T7 X A2) A3 c).trans ((after3_v153_0 (T6 X A2 c)).trans (midVal6 X A2 A3 A4 g2 g4 H c))

/-- The third layer's output array at the region's exit. -/
theorem midVal10 : T10 X A2 A3 A4 c (Proc.devRef .tc main_v224) = gcn2Out X g2 g4 c := by
  refine (exit4_out (T9 X A2 A3) A4 c).trans ((H.out4 c).trans ?_)
  unfold T9
  rw [after4_v191, after4_v214, after4_v217, after4_v205, after4_v212, after4_v220, after4_v223,
    midVal8 X A2 A3 A4 g2 g4 H c, midKept8 X A2 A3 A4 g2 g4 H c main_v3 (by simp [midKeep]), midKept8 X A2 A3 A4 g2 g4 H c main_v6 (by simp [midKeep]), midKept8 X A2 A3 A4 g2 g4 H c main_v28 (by simp [midKeep]), midKept8 X A2 A3 A4 g2 g4 H c main_arg3 (by simp [midKeep]), midKept8 X A2 A3 A4 g2 g4 H c main_arg4 (by simp [midKeep]), midKept8 X A2 A3 A4 g2 g4 H c main_arg5 (by simp [midKeep]), midKept8 X A2 A3 A4 g2 g4 H c main_arg6 (by simp [midKeep])]
  rfl

end Values

end Chain

end Cert.KernelIdeal.Hand

end
-- ==== Proof.KI.Reg5Value.lean ====
import proofs.«402460_j82824149336546_1_alg».proof.Proof.KI.Reg5
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5's output array after the region, as one function of its two input arrays, index by index -/

/-- What point `t` writes back to the output window's array: the body's result for that window, through the
    window's block. -/
theorem flushed5_2 (c : Dev nD) (t : Fin cfg5.N) :
    (dat5 V c).flushed 2 t = (cfg5.win 2).cut (grid5.coords t) (out5_2 (iblk5 V c 0 t) (iblk5 V c 1 t)) := by
  show (cfg5.win 2).cut (grid5.coords t) ((dat5 V c).after 2 t) = _
  rw [after5_2]

/-- The origin of a rank-2 buffer, as a constant function. -/
theorem origin5 : (![0, 0] : Fin 2 → Nat) = fun _ => 0 := funext fun a => by fin_cases a <;> rfl

/-- The combination `0.2·a0 + 0.8·a1` of two [50000,128] arrays, index by index (the two coefficients as the
    f32 constants the body holds). -/
def G5_2 (a0 : S50000x128.Idx → Elt F .f32) (a1 : S50000x128.Idx → Elt F .f32) : S50000x128.Idx → Elt F .f32 := fun i => FloatOps.addf (FloatOps.mulf (Scalar.ofBits .f32 0x3E4CCCCD#32) (a0 i)) (FloatOps.mulf (Scalar.ofBits .f32 0x3F4CCCCD#32) (a1 i))

/-- The body's payload is that combination of its two loaded blocks, index by index: the two same-shape casts are
    identities, the broadcasts constant. -/
theorem combine5_apply (x0 : Vec F S2000x128 .f32) (x1 : Vec F S2000x128 .f32) :
    k5_pay1 x0 x1 = fun j => FloatOps.addf (FloatOps.mulf (Scalar.ofBits .f32 0x3E4CCCCD#32) (x0 j)) (FloatOps.mulf (Scalar.ofBits .f32 0x3F4CCCCD#32) (x1 j)) := by
  unfold k5_pay1
  simp only [shapeCast_self]
  rfl

/-- The printed index maps, decided over the grid: each input window moves with the output window, block for block,
    and the output's block indices stay in their ranges. -/
theorem idx_facts5 : ∀ t : Fin cfg5.N, win5_0.index t (0 : Fin 2) = win5_2.index t (0 : Fin 2) + 0
    ∧ win5_0.index t (1 : Fin 2) = win5_2.index t (1 : Fin 2) + 0
    ∧ win5_1.index t (0 : Fin 2) = win5_2.index t (0 : Fin 2) + 0
    ∧ win5_1.index t (1 : Fin 2) = win5_2.index t (1 : Fin 2) + 0
    ∧ 0 ≤ win5_2.index t (0 : Fin 2) ∧ win5_2.index t (0 : Fin 2) ≤ 24
    ∧ 0 ≤ win5_2.index t (1 : Fin 2) ∧ win5_2.index t (1 : Fin 2) ≤ 0 :=
  (by decide +kernel : ∀ t : Fin grid5.N, _)

/-- Every block of the output array is some point's. -/
theorem idx_onto5 : ∀ (q0 : Fin 25) (q1 : Fin 1), ∃ t : Fin cfg5.N, win5_2.index t = ![q0.val + 0, q1.val + 0] :=
  (by decide +kernel : ∀ (q0 : Fin 25) (q1 : Fin 1), ∃ t : Fin grid5.N, win5_2.index t = ![q0.val + 0, q1.val + 0])

/-- What point `t` writes back is block `t` of `G5_2` of the two input arrays as the region finds them. -/
theorem flushed5_2_eq (c : Dev nD) (t : Fin cfg5.N) :
    (dat5 V c).flushed 2 t = ((cfg5.win 2).blk t).view.read (Elt F) (G5_2 (V c main_v237) (V c main_v224)) := by
  show (cfg5.win 2).cut (grid5.coords t) ((dat5 V c).after 2 t) = _
  rw [after5_2]
  unfold out5_2
  rw [View.canon_unit_zero origin5]
  simp only [View.ld_unit_zero (S := S2000x128) origin5]
  rw [combine5_apply]
  obtain ⟨e0, e1, e2, e3, lo0, hi0, lo1, hi1⟩ := idx_facts5 t
  funext j
  show FloatOps.addf (FloatOps.mulf _ (V c main_v237 (((cfg5.win 0).blk t).view.emb j))) (FloatOps.mulf _ (V c main_v224 (((cfg5.win 1).blk t).view.emb j))) = FloatOps.addf (FloatOps.mulf _ (V c main_v237 (((cfg5.win 2).blk t).view.emb j))) (FloatOps.mulf _ (V c main_v224 (((cfg5.win 2).blk t).view.emb j)))
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 128 + 1 * (j 1).val = win5_2.index t (1 : Fin 2) * 128 + 1 * (j 1).val; omega
  rw [h0, h1]

/-- An index of the output array is in point `t`'s block iff each coordinate is in the block's range on its axis. -/
theorem mem_blk5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v238).slice (win5_2.rect t)).set ↔ _
  rw [View.set_slice_whole, Rect.mem_set_unit]
  exact Iff.rfl

/-- The 25 blocks of 2000 rows tile the 50000 rows: row `r` is in the block of point `r / 2000`. -/
theorem tiles5_2 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto5 ⟨(i 0).val / 2000, by omega⟩ ⟨(i 1).val / 128, by omega⟩
  have q0 : win5_2.index t (0 : Fin 2) = (i 0).val / 2000 + 0 := congrFun ht 0
  have q1 : win5_2.index t (1 : Fin 2) = (i 1).val / 128 + 0 := congrFun ht 1
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- The output array after the region: `G5_2` of the two input arrays as the region finds them, everywhere. -/
theorem final5_2 (c : Dev nD) : (dat5 V c).arrAt 2 cfg5.N = G5_2 (V c main_v237) (V c main_v224) :=
  (dat5 V c).arrAt_eq_of_cover 2 (G5_2 (V c main_v237) (V c main_v224)) (fun t _ => flushed5_2_eq V c t) tiles5_2

end Cert.KernelIdeal.Hand

end
-- ==== Proof.KI.Reg6Value.lean ====
import proofs.«402460_j82824149336546_1_alg».proof.Proof.KI.Reg6
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6's output array after the region, as one function of its two input arrays, index by index -/

/-- What point `t` writes back to the output window's array: the body's result for that window, through the
    window's block. -/
theorem flushed6_2 (c : Dev nD) (t : Fin cfg6.N) :
    (dat6 V c).flushed 2 t = (cfg6.win 2).cut (grid6.coords t) (out6_2 (iblk6 V c 0 t) (iblk6 V c 1 t)) := by
  show (cfg6.win 2).cut (grid6.coords t) ((dat6 V c).after 2 t) = _
  rw [after6_2]

/-- The origin of a rank-2 buffer, as a constant function. -/
theorem origin6 : (![0, 0] : Fin 2 → Nat) = fun _ => 0 := funext fun a => by fin_cases a <;> rfl

/-- The combination `0.2·a0 + 0.8·a1` of two [50000,128] arrays, index by index (the two coefficients as the
    f32 constants the body holds). -/
def G6_2 (a0 : S50000x128.Idx → Elt F .f32) (a1 : S50000x128.Idx → Elt F .f32) : S50000x128.Idx → Elt F .f32 := fun i => FloatOps.addf (FloatOps.mulf (Scalar.ofBits .f32 0x3E4CCCCD#32) (a0 i)) (FloatOps.mulf (Scalar.ofBits .f32 0x3F4CCCCD#32) (a1 i))

/-- The body's payload is that combination of its two loaded blocks, index by index: the two same-shape casts are
    identities, the broadcasts constant. -/
theorem combine6_apply (x0 : Vec F S2000x128 .f32) (x1 : Vec F S2000x128 .f32) :
    k6_pay1 x0 x1 = fun j => FloatOps.addf (FloatOps.mulf (Scalar.ofBits .f32 0x3E4CCCCD#32) (x0 j)) (FloatOps.mulf (Scalar.ofBits .f32 0x3F4CCCCD#32) (x1 j)) := by
  unfold k6_pay1
  simp only [shapeCast_self]
  rfl

/-- The printed index maps, decided over the grid: each input window moves with the output window, block for block,
    and the output's block indices stay in their ranges. -/
theorem idx_facts6 : ∀ t : Fin cfg6.N, win6_0.index t (0 : Fin 2) = win6_2.index t (0 : Fin 2) + 0
    ∧ win6_0.index t (1 : Fin 2) = win6_2.index t (1 : Fin 2) + 0
    ∧ win6_1.index t (0 : Fin 2) = win6_2.index t (0 : Fin 2) + 0
    ∧ win6_1.index t (1 : Fin 2) = win6_2.index t (1 : Fin 2) + 0
    ∧ 0 ≤ win6_2.index t (0 : Fin 2) ∧ win6_2.index t (0 : Fin 2) ≤ 24
    ∧ 0 ≤ win6_2.index t (1 : Fin 2) ∧ win6_2.index t (1 : Fin 2) ≤ 0 :=
  (by decide +kernel : ∀ t : Fin grid6.N, _)

/-- Every block of the output array is some point's. -/
theorem idx_onto6 : ∀ (q0 : Fin 25) (q1 : Fin 1), ∃ t : Fin cfg6.N, win6_2.index t = ![q0.val + 0, q1.val + 0] :=
  (by decide +kernel : ∀ (q0 : Fin 25) (q1 : Fin 1), ∃ t : Fin grid6.N, win6_2.index t = ![q0.val + 0, q1.val + 0])

/-- What point `t` writes back is block `t` of `G6_2` of the two input arrays as the region finds them. -/
theorem flushed6_2_eq (c : Dev nD) (t : Fin cfg6.N) :
    (dat6 V c).flushed 2 t = ((cfg6.win 2).blk t).view.read (Elt F) (G6_2 (V c main_v251) (V c main_v224)) := by
  show (cfg6.win 2).cut (grid6.coords t) ((dat6 V c).after 2 t) = _
  rw [after6_2]
  unfold out6_2
  rw [View.canon_unit_zero origin6]
  simp only [View.ld_unit_zero (S := S2000x128) origin6]
  rw [combine6_apply]
  obtain ⟨e0, e1, e2, e3, lo0, hi0, lo1, hi1⟩ := idx_facts6 t
  funext j
  show FloatOps.addf (FloatOps.mulf _ (V c main_v251 (((cfg6.win 0).blk t).view.emb j))) (FloatOps.mulf _ (V c main_v224 (((cfg6.win 1).blk t).view.emb j))) = FloatOps.addf (FloatOps.mulf _ (V c main_v251 (((cfg6.win 2).blk t).view.emb j))) (FloatOps.mulf _ (V c main_v224 (((cfg6.win 2).blk t).view.emb j)))
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 128 + 1 * (j 1).val = win6_2.index t (1 : Fin 2) * 128 + 1 * (j 1).val; omega
  rw [h0, h1]

/-- An index of the output array is in point `t`'s block iff each coordinate is in the block's range on its axis. -/
theorem mem_blk6 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v252).slice (win6_2.rect t)).set ↔ _
  rw [View.set_slice_whole, Rect.mem_set_unit]
  exact Iff.rfl

/-- The 25 blocks of 2000 rows tile the 50000 rows: row `r` is in the block of point `r / 2000`. -/
theorem tiles6_2 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto6 ⟨(i 0).val / 2000, by omega⟩ ⟨(i 1).val / 128, by omega⟩
  have q0 : win6_2.index t (0 : Fin 2) = (i 0).val / 2000 + 0 := congrFun ht 0
  have q1 : win6_2.index t (1 : Fin 2) = (i 1).val / 128 + 0 := congrFun ht 1
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- The output array after the region: `G6_2` of the two input arrays as the region finds them, everywhere. -/
theorem final6_2 (c : Dev nD) : (dat6 V c).arrAt 2 cfg6.N = G6_2 (V c main_v251) (V c main_v224) :=
  (dat6 V c).arrAt_eq_of_cover 2 (G6_2 (V c main_v251) (V c main_v224)) (fun t _ => flushed6_2_eq V c t) tiles6_2

end Cert.KernelIdeal.Hand

end
-- ==== Proof.KI.Reg7Value.lean ====
import proofs.«402460_j82824149336546_1_alg».proof.Proof.KI.Reg7
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7's output array after the region, as one function of its two input arrays, index by index -/

/-- What point `t` writes back to the output window's array: the body's result for that window, through the
    window's block. -/
theorem flushed7_2 (c : Dev nD) (t : Fin cfg7.N) :
    (dat7 V c).flushed 2 t = (cfg7.win 2).cut (grid7.coords t) (out7_2 (iblk7 V c 0 t) (iblk7 V c 1 t)) := by
  show (cfg7.win 2).cut (grid7.coords t) ((dat7 V c).after 2 t) = _
  rw [after7_2]

/-- The origin of a rank-2 buffer, as a constant function. -/
theorem origin7 : (![0, 0] : Fin 2 → Nat) = fun _ => 0 := funext fun a => by fin_cases a <;> rfl

/-- The combination `0.2·a0 + 0.8·a1` of two [50000,128] arrays, index by index (the two coefficients as the
    f32 constants the body holds). -/
def G7_2 (a0 : S50000x128.Idx → Elt F .f32) (a1 : S50000x128.Idx → Elt F .f32) : S50000x128.Idx → Elt F .f32 := fun i => FloatOps.addf (FloatOps.mulf (Scalar.ofBits .f32 0x3E4CCCCD#32) (a0 i)) (FloatOps.mulf (Scalar.ofBits .f32 0x3F4CCCCD#32) (a1 i))

/-- The body's payload is that combination of its two loaded blocks, index by index: the two same-shape casts are
    identities, the broadcasts constant. -/
theorem combine7_apply (x0 : Vec F S2000x128 .f32) (x1 : Vec F S2000x128 .f32) :
    k7_pay1 x0 x1 = fun j => FloatOps.addf (FloatOps.mulf (Scalar.ofBits .f32 0x3E4CCCCD#32) (x0 j)) (FloatOps.mulf (Scalar.ofBits .f32 0x3F4CCCCD#32) (x1 j)) := by
  unfold k7_pay1
  simp only [shapeCast_self]
  rfl

/-- The printed index maps, decided over the grid: each input window moves with the output window, block for block,
    and the output's block indices stay in their ranges. -/
theorem idx_facts7 : ∀ t : Fin cfg7.N, win7_0.index t (0 : Fin 2) = win7_2.index t (0 : Fin 2) + 0
    ∧ win7_0.index t (1 : Fin 2) = win7_2.index t (1 : Fin 2) + 0
    ∧ win7_1.index t (0 : Fin 2) = win7_2.index t (0 : Fin 2) + 0
    ∧ win7_1.index t (1 : Fin 2) = win7_2.index t (1 : Fin 2) + 0
    ∧ 0 ≤ win7_2.index t (0 : Fin 2) ∧ win7_2.index t (0 : Fin 2) ≤ 24
    ∧ 0 ≤ win7_2.index t (1 : Fin 2) ∧ win7_2.index t (1 : Fin 2) ≤ 0 :=
  (by decide +kernel : ∀ t : Fin grid7.N, _)

/-- Every block of the output array is some point's. -/
theorem idx_onto7 : ∀ (q0 : Fin 25) (q1 : Fin 1), ∃ t : Fin cfg7.N, win7_2.index t = ![q0.val + 0, q1.val + 0] :=
  (by decide +kernel : ∀ (q0 : Fin 25) (q1 : Fin 1), ∃ t : Fin grid7.N, win7_2.index t = ![q0.val + 0, q1.val + 0])

/-- What point `t` writes back is block `t` of `G7_2` of the two input arrays as the region finds them. -/
theorem flushed7_2_eq (c : Dev nD) (t : Fin cfg7.N) :
    (dat7 V c).flushed 2 t = ((cfg7.win 2).blk t).view.read (Elt F) (G7_2 (V c main_v265) (V c main_v224)) := by
  show (cfg7.win 2).cut (grid7.coords t) ((dat7 V c).after 2 t) = _
  rw [after7_2]
  unfold out7_2
  rw [View.canon_unit_zero origin7]
  simp only [View.ld_unit_zero (S := S2000x128) origin7]
  rw [combine7_apply]
  obtain ⟨e0, e1, e2, e3, lo0, hi0, lo1, hi1⟩ := idx_facts7 t
  funext j
  show FloatOps.addf (FloatOps.mulf _ (V c main_v265 (((cfg7.win 0).blk t).view.emb j))) (FloatOps.mulf _ (V c main_v224 (((cfg7.win 1).blk t).view.emb j))) = FloatOps.addf (FloatOps.mulf _ (V c main_v265 (((cfg7.win 2).blk t).view.emb j))) (FloatOps.mulf _ (V c main_v224 (((cfg7.win 2).blk t).view.emb j)))
  have h0 : ((cfg7.win 0).blk t).view.emb j = ((cfg7.win 2).blk t).view.emb j := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb j = ((cfg7.win 2).blk t).view.emb j := by
    funext a; apply Fin.ext
    match a with
    | ⟨0, _⟩ => show win7_1.index t (0 : Fin 2) * 2000 + 1 * (j 0).val = win7_2.index t (0 : Fin 2) * 2000 + 1 * (j 0).val; omega
    | ⟨1, _⟩ => show win7_1.index t (1 : Fin 2) * 128 + 1 * (j 1).val = win7_2.index t (1 : Fin 2) * 128 + 1 * (j 1).val; omega
  rw [h0, h1]

/-- An index of the output array is in point `t`'s block iff each coordinate is in the block's range on its axis. -/
theorem mem_blk7 (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v266).slice (win7_2.rect t)).set ↔ _
  rw [View.set_slice_whole, Rect.mem_set_unit]
  exact Iff.rfl

/-- The 25 blocks of 2000 rows tile the 50000 rows: row `r` is in the block of point `r / 2000`. -/
theorem tiles7_2 (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := idx_onto7 ⟨(i 0).val / 2000, by omega⟩ ⟨(i 1).val / 128, by omega⟩
  have q0 : win7_2.index t (0 : Fin 2) = (i 0).val / 2000 + 0 := congrFun ht 0
  have q1 : win7_2.index t (1 : Fin 2) = (i 1).val / 128 + 0 := congrFun ht 1
  refine ⟨t, flush7_2 t, ?_⟩
  rw [mem_blk7]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-- The output array after the region: `G7_2` of the two input arrays as the region finds them, everywhere. -/
theorem final7_2 (c : Dev nD) : (dat7 V c).arrAt 2 cfg7.N = G7_2 (V c main_v265) (V c main_v224) :=
  (dat7 V c).arrAt_eq_of_cover 2 (G7_2 (V c main_v265) (V c main_v224)) (fun t _ => flushed7_2_eq V c t) tiles7_2

end Cert.KernelIdeal.Hand

end
-- ==== Proof.KI.Reg8Value.lean ====
import proofs.«402460_j82824149336546_1_alg».proof.Proof.KI.Reg8
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8's output array after the region, as one function of its two input arrays, index by index -/

/-- What point `t` writes back to the output window's array: the body's result for that window, through the
    window's block. -/
theorem flushed8_2 (c : Dev nD) (t : Fin cfg8.N) :
    (dat8 V c).flushed 2 t = (cfg8.win 2).cut (grid8.coords t) (out8_2 (iblk8 V c 0 t) (iblk8 V c 1 t)) := by
  show (cfg8.win 2).cut (grid8.coords t) ((dat8 V c).after 2 t) = _
  rw [after8_2]

/-- The origin of a rank-2 buffer, as a constant function. -/
theorem origin8 : (![0, 0] : Fin 2 → Nat) = fun _ => 0 := funext fun a => by fin_cases a <;> rfl

/-- The combination `0.2·a0 + 0.8·a1` of two [50000,128] arrays, index by index (the two coefficients as the
    f32 constants the body holds). -/
def G8_2 (a0 : S50000x128.Idx → Elt F .f32) (a1 : S50000x128.Idx → Elt F .f32) : S50000x128.Idx → Elt F .f32 := fun i => FloatOps.addf (FloatOps.mulf (Scalar.ofBits .f32 0x3E4CCCCD#32) (a0 i)) (FloatOps.mulf (Scalar.ofBits .f32 0x3F4CCCCD#32) (a1 i))

/-- The body's payload is that combination of its two loaded blocks, index by index: the two same-shape casts are
    identities, the broadcasts constant. -/
theorem combine8_apply (x0 : Vec F S2000x128 .f32) (x1 : Vec F S2000x128 .f32) :
    k8_pay1 x0 x1 = fun j => FloatOps.addf (FloatOps.mulf (Scalar.ofBits .f32 0x3E4CCCCD#32) (x0 j)) (FloatOps.mulf (Scalar.ofBits .f32 0x3F4CCCCD#32) (x1 j)) := by
  unfold k8_pay1
  simp only [shapeCast_self]
  rfl

/-- The printed index maps, decided over the grid: each input window moves with the output window, block for block,
    and the output's block indices stay in their ranges. -/
theorem idx_facts8 : ∀ t : Fin cfg8.N, win8_0.index t (0 : Fin 2) = win8_2.index t (0 : Fin 2) + 0
    ∧ win8_0.index t (1 : Fin 2) = win8_2.index t (1 : Fin 2) + 0
    ∧ win8_1.index t (0 : Fin 2) = win8_2.index t (0 : Fin 2) + 0
    ∧ win8_1.index t (1 : Fin 2) = win8_2.index t (1 : Fin 2) + 0
    ∧ 0 ≤ win8_2.index t (0 : Fin 2) ∧ win8_2.index t (0 : Fin 2) ≤ 24
    ∧ 0 ≤ win8_2.index t (1 : Fin 2) ∧ win8_2.index t (1 : Fin 2) ≤ 0 :=
  (by decide +kernel : ∀ t : Fin grid8.N, _)

/-- Every block of the output array is some point's. -/
theorem idx_onto8 : ∀ (q0 : Fin 25) (q1 : Fin 1), ∃ t : Fin cfg8.N, win8_2.index t = ![q0.val + 0, q1.val + 0] :=
  (by decide +kernel : ∀ (q0 : Fin 25) (q1 : Fin 1), ∃ t : Fin grid8.N, win8_2.index t = ![q0.val + 0, q1.val + 0])

/-- What point `t` writes back is block `t` of `G8_2` of the two input arrays as the region finds them. -/
theorem flushed8_2_eq (c : Dev nD) (t : Fin cfg8.N) :
    (dat8 V c).flushed 2 t = ((cfg8.win 2).blk t).view.read (Elt F) (G8_2 (V c main_v279) (V c main_v224)) := by
  show (cfg8.win 2).cut (grid8.coords t) ((dat8 V c).after 2 t) = _
  rw [after8_2]
  unfold out8_2
  rw [View.canon_unit_zero origin8]
  simp only [View.ld_unit_zero (S := S2000x128) origin8]
  rw [combine8_apply]
  obtain ⟨e0, e1, e2, e3, lo0, hi0, lo1, hi1⟩ := idx_facts8 t
  funext j
  show FloatOps.addf (FloatOps.mulf _ (V c main_v279 (((cfg8.win 0).blk t).view.emb j))) (FloatOps.mulf _ (V c main_v224 (((cfg8.win 1).blk t).view.emb j))) = FloatOps.addf (FloatOps.mulf _ (V c main_v279 (((cfg8.win 2).blk t).view.emb j))) (FloatOps.mulf _ (V c main_v224 (((cfg8.win 2).blk t).view.emb j)))
  have h0 : ((cfg8.win 0).blk t).view.emb j = ((cfg8.win 2).blk t).view.emb j := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 128 + 1 * (j 1).val = win8_2.index t (1 : Fin 2) * 128 + 1 * (j 1).val; omega
  have h1 : ((cfg8.win 1).blk t).view.emb j = ((cfg8.win 2).blk t).view.emb j := by
    funext a; apply Fin.ext
    match a with
    | ⟨0, _⟩ => show win8_1.index t (0 : Fin 2) * 2000 + 1 * (j 0).val = win8_2.index t (0 : Fin 2) * 2000 + 1 * (j 0).val; omega
    | ⟨1, _⟩ => show win8_1.index t (1 : Fin 2) * 128 + 1 * (j 1).val = win8_2.index t (1 : Fin 2) * 128 + 1 * (j 1).val; omega
  rw [h0, h1]

/-- An index of the output array is in point `t`'s block iff each coordinate is in the block's range on its axis. -/
theorem mem_blk8 (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v280).slice (win8_2.rect t)).set ↔ _
  rw [View.set_slice_whole, Rect.mem_set_unit]
  exact Iff.rfl

/-- The 25 blocks of 2000 rows tile the 50000 rows: row `r` is in the block of point `r / 2000`. -/
theorem tiles8_2 (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  obtain ⟨t, ht⟩ := idx_onto8 ⟨(i 0).val / 2000, by omega⟩ ⟨(i 1).val / 128, by omega⟩
  have q0 : win8_2.index t (0 : Fin 2) = (i 0).val / 2000 + 0 := congrFun ht 0
  have q1 : win8_2.index t (1 : Fin 2) = (i 1).val / 128 + 0 := congrFun ht 1
  refine ⟨t, flush8_2 t, ?_⟩
  rw [mem_blk8]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 128 ≤ (i 1).val ∧ (i 1).val < win8_2.index t (1 : Fin 2) * 128 + 128; omega

/-- The output array after the region: `G8_2` of the two input arrays as the region finds them, everywhere. -/
theorem final8_2 (c : Dev nD) : (dat8 V c).arrAt 2 cfg8.N = G8_2 (V c main_v279) (V c main_v224) :=
  (dat8 V c).arrAt_eq_of_cover 2 (G8_2 (V c main_v279) (V c main_v224)) (fun t _ => flushed8_2_eq V c t) tiles8_2

end Cert.KernelIdeal.Hand

end
-- ==== Proof.KI.Reg9Value.lean ====
import proofs.«402460_j82824149336546_1_alg».proof.Proof.KI.Reg9
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9's output array after the region, as one function of its two input arrays, index by index -/

/-- What point `t` writes back to the output window's array: the body's result for that window, through the
    window's block. -/
theorem flushed9_2 (c : Dev nD) (t : Fin cfg9.N) :
    (dat9 V c).flushed 2 t = (cfg9.win 2).cut (grid9.coords t) (out9_2 (iblk9 V c 0 t) (iblk9 V c 1 t)) := by
  show (cfg9.win 2).cut (grid9.coords t) ((dat9 V c).after 2 t) = _
  rw [after9_2]

/-- The origin of a rank-2 buffer, as a constant function. -/
theorem origin9 : (![0, 0] : Fin 2 → Nat) = fun _ => 0 := funext fun a => by fin_cases a <;> rfl

/-- The combination `0.2·a0 + 0.8·a1` of two [50000,128] arrays, index by index (the two coefficients as the
    f32 constants the body holds). -/
def G9_2 (a0 : S50000x128.Idx → Elt F .f32) (a1 : S50000x128.Idx → Elt F .f32) : S50000x128.Idx → Elt F .f32 := fun i => FloatOps.addf (FloatOps.mulf (Scalar.ofBits .f32 0x3E4CCCCD#32) (a0 i)) (FloatOps.mulf (Scalar.ofBits .f32 0x3F4CCCCD#32) (a1 i))

/-- The body's payload is that combination of its two loaded blocks, index by index: the two same-shape casts are
    identities, the broadcasts constant. -/
theorem combine9_apply (x0 : Vec F S2000x128 .f32) (x1 : Vec F S2000x128 .f32) :
    k9_pay1 x0 x1 = fun j => FloatOps.addf (FloatOps.mulf (Scalar.ofBits .f32 0x3E4CCCCD#32) (x0 j)) (FloatOps.mulf (Scalar.ofBits .f32 0x3F4CCCCD#32) (x1 j)) := by
  unfold k9_pay1
  simp only [shapeCast_self]
  rfl

/-- The printed index maps, decided over the grid: each input window moves with the output window, block for block,
    and the output's block indices stay in their ranges. -/
theorem idx_facts9 : ∀ t : Fin cfg9.N, win9_0.index t (0 : Fin 2) = win9_2.index t (0 : Fin 2) + 0
    ∧ win9_0.index t (1 : Fin 2) = win9_2.index t (1 : Fin 2) + 0
    ∧ win9_1.index t (0 : Fin 2) = win9_2.index t (0 : Fin 2) + 0
    ∧ win9_1.index t (1 : Fin 2) = win9_2.index t (1 : Fin 2) + 0
    ∧ 0 ≤ win9_2.index t (0 : Fin 2) ∧ win9_2.index t (0 : Fin 2) ≤ 24
    ∧ 0 ≤ win9_2.index t (1 : Fin 2) ∧ win9_2.index t (1 : Fin 2) ≤ 0 :=
  (by decide +kernel : ∀ t : Fin grid9.N, _)

/-- Every block of the output array is some point's. -/
theorem idx_onto9 : ∀ (q0 : Fin 25) (q1 : Fin 1), ∃ t : Fin cfg9.N, win9_2.index t = ![q0.val + 0, q1.val + 0] :=
  (by decide +kernel : ∀ (q0 : Fin 25) (q1 : Fin 1), ∃ t : Fin grid9.N, win9_2.index t = ![q0.val + 0, q1.val + 0])

/-- What point `t` writes back is block `t` of `G9_2` of the two input arrays as the region finds them. -/
theorem flushed9_2_eq (c : Dev nD) (t : Fin cfg9.N) :
    (dat9 V c).flushed 2 t = ((cfg9.win 2).blk t).view.read (Elt F) (G9_2 (V c main_v293) (V c main_v224)) := by
  show (cfg9.win 2).cut (grid9.coords t) ((dat9 V c).after 2 t) = _
  rw [after9_2]
  unfold out9_2
  rw [View.canon_unit_zero origin9]
  simp only [View.ld_unit_zero (S := S2000x128) origin9]
  rw [combine9_apply]
  obtain ⟨e0, e1, e2, e3, lo0, hi0, lo1, hi1⟩ := idx_facts9 t
  funext j
  show FloatOps.addf (FloatOps.mulf _ (V c main_v293 (((cfg9.win 0).blk t).view.emb j))) (FloatOps.mulf _ (V c main_v224 (((cfg9.win 1).blk t).view.emb j))) = FloatOps.addf (FloatOps.mulf _ (V c main_v293 (((cfg9.win 2).blk t).view.emb j))) (FloatOps.mulf _ (V c main_v224 (((cfg9.win 2).blk t).view.emb j)))
  have h0 : ((cfg9.win 0).blk t).view.emb j = ((cfg9.win 2).blk t).view.emb j := by
    funext a; apply Fin.ext
    match a with
    | ⟨0, _⟩ => show win9_0.index t (0 : Fin 2) * 2000 + 1 * (j 0).val = win9_2.index t (0 : Fin 2) * 2000 + 1 * (j 0).val; omega
    | ⟨1, _⟩ => show win9_0.index t (1 : Fin 2) * 128 + 1 * (j 1).val = win9_2.index t (1 : Fin 2) * 128 + 1 * (j 1).val; omega
  have h1 : ((cfg9.win 1).blk t).view.emb j = ((cfg9.win 2).blk t).view.emb j := by
    funext a; apply Fin.ext
    match a with
    | ⟨0, _⟩ => show win9_1.index t (0 : Fin 2) * 2000 + 1 * (j 0).val = win9_2.index t (0 : Fin 2) * 2000 + 1 * (j 0).val; omega
    | ⟨1, _⟩ => show win9_1.index t (1 : Fin 2) * 128 + 1 * (j 1).val = win9_2.index t (1 : Fin 2) * 128 + 1 * (j 1).val; omega
  rw [h0, h1]

/-- An index of the output array is in point `t`'s block iff each coordinate is in the block's range on its axis. -/
theorem mem_blk9 (t : Fin cfg9.N) (i : S50000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v294).slice (win9_2.rect t)).set ↔ _
  rw [View.set_slice_whole, Rect.mem_set_unit]
  exact Iff.rfl

/-- The 25 blocks of 2000 rows tile the 50000 rows: row `r` is in the block of point `r / 2000`. -/
theorem tiles9_2 (i : S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ := idx_onto9 ⟨(i 0).val / 2000, by omega⟩ ⟨(i 1).val / 128, by omega⟩
  have q0 : win9_2.index t (0 : Fin 2) = (i 0).val / 2000 + 0 := congrFun ht 0
  have q1 : win9_2.index t (1 : Fin 2) = (i 1).val / 128 + 0 := congrFun ht 1
  refine ⟨t, flush9_2 t, ?_⟩
  rw [mem_blk9]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 128 ≤ (i 1).val ∧ (i 1).val < win9_2.index t (1 : Fin 2) * 128 + 128; omega

/-- The output array after the region: `G9_2` of the two input arrays as the region finds them, everywhere. -/
theorem final9_2 (c : Dev nD) : (dat9 V c).arrAt 2 cfg9.N = G9_2 (V c main_v293) (V c main_v224) :=
  (dat9 V c).arrAt_eq_of_cover 2 (G9_2 (V c main_v293) (V c main_v224)) (fun t _ => flushed9_2_eq V c t) tiles9_2

end Cert.KernelIdeal.Hand

end
-- ==== Proof.KI.Reg10Value.lean ====
/- Region 10 (the pooled sum), its value at the ideal numbers: what each control case leaves in the accumulator and in
   the output as the one payload of the point's blocks and of what the accumulator held; the payload index by index
   (the accumulator plus the sum over the tile's 2000 rows of the products); each input block as rows of its array;
   the accumulator after every point by induction over the points; the one write-back; the output array as one
   function of the two input arrays, and the same function as one sum over all 50000 rows. -/
import proofs.«402460_j82824149336546_1_alg».proof.Proof.KI.Reg10
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx
open Idealize.ShloMosaic.Pipeline (Cfg Window)

/-! ## The cases' payloads (at any float instance) -/

section AnyInstance
variable {F : FTy → Type} [FloatOps F]

/-- The accesses of the body are all at zero offsets. -/
theorem zero_off : (![0, 0] : Fin 2 → Nat) = fun _ => 0 := funext fun a => by fin_cases a <;> rfl

/-- First point: the accumulator is zeroed, then the tile's product is added onto the zeros. -/
theorem sout10_A_eq (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : cond10_0 i) (hc1 : ¬cond10_1 i) (x0 : Vec F S2000x128 .f32) (x1 : Vec F S2000x512 .bf16) :
    sout10_A_0 c i arg1 harg1 arg2 harg2 arg3 harg3 arg4 harg4 hc0 hc1 x0 x1 = k10_pay2 x0 x1 (k10_pay1 (F := F)) := by
  unfold sout10_A_0
  rw [View.read_writes_eq_canon _ _ _ (scover10_A_0 c i arg1 harg1 arg2 harg2 arg3 harg3 arg4 harg4 hc0 hc1 x0 x1)]
  unfold kernelRun10_A
  dsimp only
  try sl_unfold_words
  rw [View.canon_cons_unit_zero zero_off]
  simp only [View.readAt_eq_ld, harg1.read_unread, harg2.read_unread, View.ld_unit_zero (S := S2000x128) zero_off, View.ld_unit_zero (S := S2000x512) zero_off, View.ld_unit_zero (S := S512x128) zero_off]
  rw [View.readCov_unit_zero _ zero_off]

/-- A middle point adds the tile's product onto what the accumulator held. -/
theorem sout10_B_eq (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : ¬cond10_1 i) (x0 : Vec F S2000x128 .f32) (x1 : Vec F S2000x512 .bf16) (xs0 : Vec F S512x128 .f32) :
    sout10_B_0 c i arg1 harg1 arg2 harg2 arg3 harg3 arg4 harg4 hc0 hc1 x0 x1 xs0 = k10_pay2 x0 x1 xs0 := by
  unfold sout10_B_0
  rw [View.read_writes_eq_canon _ _ _ (scover10_B_0 c i arg1 harg1 arg2 harg2 arg3 harg3 arg4 harg4 hc0 hc1 x0 x1 xs0)]
  unfold kernelRun10_B
  dsimp only
  try sl_unfold_words
  rw [View.canon_unit_zero zero_off]
  simp only [View.readAt_eq_ld, harg1.read_unread, harg2.read_unread, harg4.read_unread, View.ld_unit_zero (S := S2000x128) zero_off, View.ld_unit_zero (S := S2000x512) zero_off, View.ld_unit_zero (S := S512x128) zero_off]

/-- The last point does the same to the accumulator … -/
theorem sout10_C_eq (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) :
    sout10_C_0 c i arg1 harg1 arg2 harg2 arg3 harg3 arg4 harg4 hc0 hc1 x0 x1 xs0 = k10_pay2 x0 x1 xs0 := by
  unfold sout10_C_0
  rw [View.read_writes_eq_canon _ _ _ (scover10_C_0 c i arg1 harg1 arg2 harg2 arg3 harg3 arg4 harg4 hc0 hc1 x0 x1 xs0)]
  unfold kernelRun10_C
  dsimp only
  try sl_unfold_words
  rw [View.canon_unit_zero zero_off]
  simp only [View.readAt_eq_ld, harg1.read_unread, harg2.read_unread, harg4.read_unread, View.ld_unit_zero (S := S2000x128) zero_off, View.ld_unit_zero (S := S2000x512) zero_off, View.ld_unit_zero (S := S512x128) zero_off]

/-- … and stores what the accumulator then holds into the output. -/
theorem out10_C_eq (c : Dev nD) (i : grid10.Coords) (arg1 : Memref sig .tc .vmem S2000x128 .f32) (harg1 : arg1.IsWhole) (arg2 : Memref sig .tc .vmem S2000x512 .bf16) (harg2 : arg2.IsWhole) (arg3 : Memref sig .tc .vmem S512x128 .f32) (harg3 : arg3.IsWhole) (arg4 : Memref sig .tc .vmem S512x128 .f32) (harg4 : arg4.IsWhole) (hc0 : ¬cond10_0 i) (hc1 : cond10_1 i) (x0 : Vec F S2000x128 .f32) (x1 : Vec F S2000x512 .bf16) (xs0 : Vec F S512x128 .f32) :
    out10_C_2 c i arg1 harg1 arg2 harg2 arg3 harg3 arg4 harg4 hc0 hc1 x0 x1 xs0 = k10_pay2 x0 x1 xs0 := by
  unfold out10_C_2
  rw [View.read_writes_eq_canon _ _ _ (cover10_C_2 c i arg1 harg1 arg2 harg2 arg3 harg3 arg4 harg4 hc0 hc1 x0 x1 xs0)]
  unfold kernelRun10_C
  dsimp only
  try sl_unfold_words
  rw [View.canon_unit_zero zero_off, View.readCov_unit_zero _ zero_off]
  simp only [View.readAt_eq_ld, harg1.read_unread, harg2.read_unread, harg4.read_unread, View.ld_unit_zero (S := S2000x128) zero_off, View.ld_unit_zero (S := S2000x512) zero_off, View.ld_unit_zero (S := S512x128) zero_off]

variable (V : (c : Dev nD) → (b : Ref sig .tc) → Buf (Elt F) ((c : Thread nD τ).loc b))

/-- The accumulator after the first point. -/
theorem acc10_zero (c : Dev nD) (h : 0 < cfg10.N) :
    (outsAt10 V c 0 h).2 = k10_pay2 (iblk10 V c 0 ⟨0, h⟩) (iblk10 V c 1 ⟨0, h⟩) (k10_pay1 (F := F)) := by
  rw [outsAt10_A V c ⟨0, h⟩ rfl (by decide : ¬(0 : ℕ) = 24)]
  dsimp only
  rw [sout10_A_eq]

/-- The accumulator after a later point: the tile's product added onto what the point before left. -/
theorem acc10_succ (c : Dev nD) (n : ℕ) (h : n + 1 < cfg10.N) :
    (outsAt10 V c (n + 1) h).2 = k10_pay2 (iblk10 V c 0 ⟨n + 1, h⟩) (iblk10 V c 1 ⟨n + 1, h⟩) (outsAt10 V c n (Nat.lt_of_succ_lt h)).2 := by
  by_cases h1 : n + 1 = 24
  · rw [outsAt10_C V c ⟨n + 1, h⟩ (Nat.succ_ne_zero n) h1]
    dsimp only
    rw [sout10_C_eq] <;> rfl
  · rw [outsAt10_B V c ⟨n + 1, h⟩ (Nat.succ_ne_zero n) h1]
    dsimp only
    rw [sout10_B_eq] <;> rfl

/-- The output's staging buffer after the last point holds what the accumulator holds. -/
theorem out10_last (c : Dev nD) (t : Fin cfg10.N) (ht : t.val = 24) :
    (outsAt10 V c t.val t.isLt).1 = (outsAt10 V c t.val t.isLt).2 := by
  rw [outsAt10_C V c t (by omega) ht]
  dsimp only
  rw [out10_C_eq, sout10_C_eq]

/-! ## Each input block as rows of its array -/

/-- The printed index maps of the two inputs, over the grid: block t of the rows, block 0 of the columns. -/
theorem idx10_in : ∀ t : Fin cfg10.N, win10_0.index t (0 : Fin 2) = t.val ∧ win10_0.index t (1 : Fin 2) = 0
    ∧ win10_1.index t (0 : Fin 2) = t.val ∧ win10_1.index t (1 : Fin 2) = 0 :=
  (by decide +kernel : ∀ t : Fin grid10.N, _)

theorem rows_lt (t : Fin cfg10.N) (r : Fin 2000) : 2000 * t.val + r.val < 50000 := by
  have h1 := t.isLt; have h2 : cfg10.N = 25 := N_10; have h3 := r.isLt; omega

/-- Row r of block t of the node features is row 2000·t + r of the array. -/
theorem iblk10_0_at (c : Dev nD) (t : Fin cfg10.N) (r : Fin 2000) (k : Fin 128) :
    (iblk10 V c 0 t : Vec F S2000x128 .f32) (ix2 r k)
      = (V c main_v294 : Vec F S50000x128 .f32) (ix2 (⟨2000 * t.val + r.val, rows_lt t r⟩ : Fin 50000) k) := by
  show V c main_v294 (((cfg10.win 0).blk t).view.emb (ix2 r k)) = _
  refine congrArg (V c main_v294) ?_
  obtain ⟨e0, e1, -, -⟩ := idx10_in t
  funext a; apply Fin.ext
  match a with
  | ⟨0, _⟩ => show win10_0.index t (0 : Fin 2) * 2000 + 1 * r.val = 2000 * t.val + r.val; rw [e0]; omega
  | ⟨1, _⟩ => show win10_0.index t (1 : Fin 2) * 128 + 1 * k.val = k.val; rw [e1]; omega

/-- Row r of block t of the one-hot assignment is row 2000·t + r of the array. -/
theorem iblk10_1_at (c : Dev nD) (t : Fin cfg10.N) (r : Fin 2000) (g : Fin 512) :
    (iblk10 V c 1 t : Vec F S2000x512 .bf16) (ix2 r g)
      = (V c main_v35 : Vec F S50000x512 .bf16) (ix2 (⟨2000 * t.val + r.val, rows_lt t r⟩ : Fin 50000) g) := by
  show V c main_v35 (((cfg10.win 1).blk t).view.emb (ix2 r g)) = _
  refine congrArg (V c main_v35) ?_
  obtain ⟨-, -, e0, e1⟩ := idx10_in t
  funext a; apply Fin.ext
  match a with
  | ⟨0, _⟩ => show win10_1.index t (0 : Fin 2) * 2000 + 1 * r.val = 2000 * t.val + r.val; rw [e0]; omega
  | ⟨1, _⟩ => show win10_1.index t (1 : Fin 2) * 512 + 1 * g.val = g.val; rw [e1]; omega

end AnyInstance

/-! ## At the ideal numbers -/

/-- The 50000 rows are the 25 tiles of 2000 rows, in order. -/
theorem sum_tiles {M : Type*} [AddCommMonoid M] (f : Fin 50000 → M) :
    ∑ i : Fin 25, ∑ r : Fin 2000, f ⟨2000 * i.val + r.val, by omega⟩ = ∑ n : Fin 50000, f n := by
  rw [← Fintype.sum_prod_type (f := fun p : Fin 25 × Fin 2000 => f ⟨2000 * p.1.val + p.2.val, by omega⟩)]
  rw [← Equiv.sum_comp (finProdFinEquiv (m := 25) (n := 2000)) f]
  refine Fintype.sum_congr _ _ fun p => congrArg f (Fin.ext ?_)
  show 2000 * p.1.val + p.2.val = p.2.val + 2000 * p.1.val
  omega

/-- The reset's payload is zero everywhere. -/
theorem pay1_apply (j : S512x128.Idx) : (k10_pay1 (F := Ideal)) j = 0 := by
  unfold k10_pay1
  rw [shapeCast_self]
  exact Ideal.ofBits_zero_f32

/-- The accumulation's payload at an index: what the accumulator held there plus the sum over the tile's rows of
    one-hot(row, group) · feature(row, column); the casts are the identity at the ideal numbers. -/
theorem pay2_apply (x0 : Vec Ideal S2000x128 .f32) (x1 : Vec Ideal S2000x512 .bf16) (acc : Vec Ideal S512x128 .f32) (j : S512x128.Idx) :
    k10_pay2 x0 x1 acc j = acc j + ∑ r : Fin 2000, x1 (ix2 r (j 0 : Fin 512)) * x0 (ix2 r (j 1 : Fin 128)) := by
  unfold k10_pay2
  simp only [shapeCast_self]
  show acc j + FloatOps.matmul (F := Ideal) dot_S2000x512_S2000x128_S512x128_0_0_1_1_n_n none (x1 : FVec Ideal S2000x512 .bf16) (x0 : FVec Ideal S2000x128 .bf16) (constant (F := Ideal) S512x128 .f32 0x00000000#32) j = _
  rw [Ideal.matmul_constant_zero_apply]
  congr 1
  rw [← Equiv.sum_comp (contrEquiv1 dot_S2000x512_S2000x128_S512x128_0_0_1_1_n_n 2000 rfl rfl).symm]
  refine Finset.sum_congr rfl fun r _ => ?_
  have cv := contrEquiv1_symm_val dot_S2000x512_S2000x128_S512x128_0_0_1_1_n_n 2000 rfl rfl r
  have hl : (dot_S2000x512_S2000x128_S512x128_0_0_1_1_n_n).lhsIdx j ((contrEquiv1 dot_S2000x512_S2000x128_S512x128_0_0_1_1_n_n 2000 rfl rfl).symm r) = ix2 r (j 0 : Fin 512) := by
    funext ax; apply Fin.ext
    match ax with
    | ⟨0, _⟩ => simp [DotDims.lhsIdx, dot_S2000x512_S2000x128_S512x128_0_0_1_1_n_n]; exact cv
    | ⟨1, _⟩ => simp [DotDims.lhsIdx, dot_S2000x512_S2000x128_S512x128_0_0_1_1_n_n]; rfl
  have hr : (dot_S2000x512_S2000x128_S512x128_0_0_1_1_n_n).rhsIdx j ((contrEquiv1 dot_S2000x512_S2000x128_S512x128_0_0_1_1_n_n 2000 rfl rfl).symm r) = ix2 r (j 1 : Fin 128) := by
    funext ax; apply Fin.ext
    match ax with
    | ⟨0, _⟩ => simp [DotDims.rhsIdx, dot_S2000x512_S2000x128_S512x128_0_0_1_1_n_n]; exact cv
    | ⟨1, _⟩ => simp [DotDims.rhsIdx, dot_S2000x512_S2000x128_S512x128_0_0_1_1_n_n]; rfl
  rw [hl, hr]
  rfl

/-- THE POOLED SUM: entry (g, k) is the sum over the 25 row tiles, in the grid's order, of the sum over the tile's
    2000 rows n of one-hot(n, g) · h(n, k). -/
def G10_2 (h : Vec Ideal S50000x128 .f32) (oh : Vec Ideal S50000x512 .bf16) : Vec Ideal S512x128 .f32 :=
  fun j => ∑ i : Fin 25, ∑ r : Fin 2000,
    oh (ValueIdx.ix2 (⟨2000 * i.val + r.val, by omega⟩ : Fin 50000) (j 0 : Fin 512))
      * h (ValueIdx.ix2 (⟨2000 * i.val + r.val, by omega⟩ : Fin 50000) (j 1 : Fin 128))

/-- The same as ONE sum over all 50000 rows. -/
theorem G10_2_flat (h : Vec Ideal S50000x128 .f32) (oh : Vec Ideal S50000x512 .bf16) (j : S512x128.Idx) :
    G10_2 h oh j = ∑ n : Fin 50000, oh (ix2 n (j 0 : Fin 512)) * h (ix2 n (j 1 : Fin 128)) :=
  sum_tiles (fun n => oh (ix2 n (j 0 : Fin 512)) * h (ix2 n (j 1 : Fin 128)))

/-- Tile i's term, for any position i (zero past the grid). -/
def tile10 (h : Vec Ideal S50000x128 .f32) (oh : Vec Ideal S50000x512 .bf16) (j : S512x128.Idx) (i : ℕ) : EReal :=
  if hi : i < 25 then ∑ r : Fin 2000,
    oh (ix2 (⟨2000 * i + r.val, by omega⟩ : Fin 50000) (j 0 : Fin 512)) * h (ix2 (⟨2000 * i + r.val, by omega⟩ : Fin 50000) (j 1 : Fin 128))
  else 0

theorem G10_2_range (h : Vec Ideal S50000x128 .f32) (oh : Vec Ideal S50000x512 .bf16) (j : S512x128.Idx) :
    G10_2 h oh j = ∑ i ∈ Finset.range 25, tile10 h oh j i := by
  rw [Finset.sum_range]
  show (∑ i : Fin 25, _) = _
  refine Finset.sum_congr rfl fun i _ => ?_
  unfold tile10
  rw [dif_pos i.isLt]

variable (V : (c : Dev nD) → (b : Ref sig .tc) → Buf (Elt Ideal) ((c : Thread nD τ).loc b))

/-- The two input blocks at point t, at their literal types. -/
abbrev hblk10 (c : Dev nD) (t : Fin cfg10.N) : Vec Ideal S2000x128 .f32 := iblk10 V c 0 t
abbrev ohblk10 (c : Dev nD) (t : Fin cfg10.N) : Vec Ideal S2000x512 .bf16 := iblk10 V c 1 t

/-- The rows' products of block t are tile t's term. -/
theorem block_tile (c : Dev nD) (t : Fin cfg10.N) (j : S512x128.Idx) :
    ∑ r : Fin 2000, ohblk10 V c t (ix2 r (j 0 : Fin 512)) * hblk10 V c t (ix2 r (j 1 : Fin 128))
      = tile10 (V c main_v294) (V c main_v35) j t.val := by
  have ht : t.val < 25 := lt_of_lt_of_eq t.isLt (show cfg10.N = 25 from N_10)
  unfold tile10
  rw [dif_pos ht]
  refine Finset.sum_congr rfl fun r _ => ?_
  have e1 : ohblk10 V c t (ix2 r (j 0 : Fin 512))
      = (V c main_v35 : Vec Ideal S50000x512 .bf16) (ix2 (⟨2000 * t.val + r.val, rows_lt t r⟩ : Fin 50000) (j 0 : Fin 512)) := iblk10_1_at V c t r (j 0)
  have e0 : hblk10 V c t (ix2 r (j 1 : Fin 128))
      = (V c main_v294 : Vec Ideal S50000x128 .f32) (ix2 (⟨2000 * t.val + r.val, rows_lt t r⟩ : Fin 50000) (j 1 : Fin 128)) := iblk10_0_at V c t r (j 1)
  rw [e1, e0]

/-- THE ACCUMULATOR after point n: the tiles' terms up to n, added in the grid's order. -/
theorem acc10_eq (c : Dev nD) (n : ℕ) (hn : n < cfg10.N) (j : S512x128.Idx) :
    (outsAt10 V c n hn).2 j = ∑ i ∈ Finset.range (n + 1), tile10 (V c main_v294) (V c main_v35) j i := by
  induction n with
  | zero =>
    rw [acc10_zero V c hn, pay2_apply, pay1_apply, zero_add, Finset.sum_range_succ, Finset.sum_range_zero, zero_add]
    exact block_tile V c ⟨0, hn⟩ j
  | succ n ih =>
    rw [acc10_succ V c n hn, pay2_apply, ih (Nat.lt_of_succ_lt hn), Finset.sum_range_succ _ (n + 1)]
    congr 1
    exact block_tile V c ⟨n + 1, hn⟩ j

/-- What the output's staging buffer holds after the last point. -/
theorem after_last10 (c : Dev nD) (t : Fin cfg10.N) (ht : t.val = 24) :
    (outsAt10 V c t.val t.isLt).1 = G10_2 (V c main_v294) (V c main_v35) := by
  rw [out10_last V c t ht]
  funext j
  rw [acc10_eq V c t.val t.isLt j, G10_2_range, ht]

/-! ## From the one write-back to the array -/

/-- The output's printed index map over the grid: block (0, 0). -/
theorem idx10_out : ∀ t : Fin cfg10.N, win10_2.index t (0 : Fin 2) = 0 ∧ win10_2.index t (1 : Fin 2) = 0 :=
  (by decide +kernel : ∀ t : Fin grid10.N, _)

/-- The write-back (at the last point) writes the pooled sum: block (0, 0) of the [512, 128] array is the array. -/
theorem flushed10_2_eq (c : Dev nD) (t : Fin cfg10.N) (hf : (cfg10.win 2).flush t = true) :
    (dat10 V c).flushed 2 t = ((cfg10.win 2).blk t).view.read (Elt Ideal) (G10_2 (V c main_v294) (V c main_v35)) := by
  have hN : cfg10.N = 25 := N_10
  have ht : t.val = 24 := by have := (flush10_2 t).mp hf; have := t.isLt; omega
  show (cfg10.win 2).cut (grid10.coords t) ((dat10 V c).after 2 t) = _
  rw [after10_2, after_last10 V c t ht]
  obtain ⟨e0, e1⟩ := idx10_out t
  funext x
  show G10_2 (V c main_v294) (V c main_v35) x = G10_2 (V c main_v294) (V c main_v35) (((cfg10.win 2).blk t).view.emb x)
  refine congrArg (G10_2 (V c main_v294) (V c main_v35)) ?_
  funext a; apply Fin.ext
  match a with
  | ⟨0, _⟩ => show (x 0).val = win10_2.index t (0 : Fin 2) * 512 + 1 * (x 0).val; rw [e0]; omega
  | ⟨1, _⟩ => show (x 1).val = win10_2.index t (1 : Fin 2) * 128 + 1 * (x 1).val; rw [e1]; omega

/-- An index of the array is in point t's block iff each coordinate is in the block's range on its axis. -/
theorem mem_blk10_2 (t : Fin cfg10.N) (i : S512x128.Idx) :
    i ∈ ((cfg10.win 2).blk t).view.set ↔ ∀ a : Fin 2, win10_2.index t a * S512x128.size a ≤ (i a).val ∧ (i a).val < win10_2.index t a * S512x128.size a + S512x128.size a := by
  show i ∈ ((View.whole main_v295).slice (win10_2.rect t)).set ↔ _
  rw [View.set_slice_whole, Rect.mem_set_unit]
  exact Iff.rfl

/-- THE OUTPUT ARRAY after the region: the pooled sum of the two input arrays as the region finds them. -/
theorem final10_2 (c : Dev nD) : (dat10 V c).arrAt 2 cfg10.N = G10_2 (V c main_v294) (V c main_v35) :=
  (dat10 V c).arrAt_eq_of_cover 2 (G10_2 (V c main_v294) (V c main_v35)) (flushed10_2_eq V c) fun i => by
    have hN : cfg10.N = 25 := N_10
    let t : Fin cfg10.N := ⟨24, by omega⟩
    refine ⟨t, (flush10_2 t).mpr rfl, ?_⟩
    rw [mem_blk10_2]
    obtain ⟨e0, e1⟩ := idx10_out t
    intro a
    match a with
    | ⟨0, _⟩ => show win10_2.index t (0 : Fin 2) * 512 ≤ (i 0).val ∧ (i 0).val < win10_2.index t (0 : Fin 2) * 512 + 512
                have h0 : (i 0).val < 512 := (i 0).isLt
                rw [e0]; omega
    | ⟨1, _⟩ => show win10_2.index t (1 : Fin 2) * 128 ≤ (i 1).val ∧ (i 1).val < win10_2.index t (1 : Fin 2) * 128 + 128
                have h1 : (i 1).val < 128 := (i 1).isLt
                rw [e1]; omega

end Cert.KernelIdeal.Hand

end
-- ==== Proof.KI.Reg11Value.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«402460_j82824149336546_1_alg».proof.Proof.KI.Reg11

/-!
# Region 11 of @main: what the output head leaves, as one function of its three input arrays

The region's one grid point reads the pooled features, the weights and the bias row whole and writes the result whole.
So the result array after the region is, index by index, the pooled features times the weights plus the bias row:
`out (g, k) = (∑ j, pooled (g, j) * wout (j, k)) + bout (0, k)`, at the ideal values, where the two narrowings of the
product's operands are the identity.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The head's result, index by index: row `g` of the pooled features against column `k` of the weights, summed over the
    128 shared coordinates, plus the bias row's entry at column `k`. -/
def G11_3 (pooled : S512x128.Idx → Elt Ideal .f32) (wout : S128x128.Idx → Elt Ideal .f32) (bout : S1x128.Idx → Elt Ideal .f32) :
    S512x128.Idx → Elt Ideal .f32 :=
  fun i => (∑ j : Fin 128, pooled (ValueIdx.ix2 (i 0 : Fin 512) j) * wout (ValueIdx.ix2 j (i 1 : Fin 128)))
    + bout (ValueIdx.ix2 (0 : Fin 1) (i 1 : Fin 128))

/-! ## The head's matrix product, coordinate by coordinate

The product contracts the pooled features' second axis against the weights' first.  At output index `j` and
contraction position `k` the left operand is read at row `j 0`, column `k`, and the right at row `k`, column `j 1`. -/

theorem lhs11_0 (j : S512x128.Idx) (k : dot_S512x128_S128x128_S512x128_1_0_0_1_n_n.contr.Idx) :
    (dot_S512x128_S128x128_S512x128_1_0_0_1_n_n.lhsIdx j k 0).val = (j 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

theorem lhs11_1 (j : S512x128.Idx) (k : dot_S512x128_S128x128_S512x128_1_0_0_1_n_n.contr.Idx) :
    (dot_S512x128_S128x128_S512x128_1_0_0_1_n_n.lhsIdx j k 1).val = (k ⟨0, by decide⟩).val :=
  dot_S512x128_S128x128_S512x128_1_0_0_1_n_n.lhsIdx_val_of_single rfl j k

theorem rhs11_0 (j : S512x128.Idx) (k : dot_S512x128_S128x128_S512x128_1_0_0_1_n_n.contr.Idx) :
    (dot_S512x128_S128x128_S512x128_1_0_0_1_n_n.rhsIdx j k 0).val = (k ⟨0, by decide⟩).val :=
  dot_S512x128_S128x128_S512x128_1_0_0_1_n_n.rhsIdx_val_of_single rfl j k

theorem rhs11_1 (j : S512x128.Idx) (k : dot_S512x128_S128x128_S512x128_1_0_0_1_n_n.contr.Idx) :
    (dot_S512x128_S128x128_S512x128_1_0_0_1_n_n.rhsIdx j k 1).val = (j 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The product read at `(g, q)`: the sum over the 128 shared coordinates. -/
theorem matmul11_apply (a : FVec Ideal S512x128 .bf16) (b : FVec Ideal S128x128 .bf16) (g : Fin 512) (q : Fin 128) :
    matmul dot_S512x128_S128x128_S512x128_1_0_0_1_n_n none a b (constant S512x128 .f32 0x00000000#32) (ix2 g q)
      = ∑ j : Fin 128, a (ix2 g j) * b (ix2 j q) := by
  simp only [matmul]
  rw [Ideal.matmul_constant_zero_apply,
    ← Equiv.sum_comp (contrEquiv1 dot_S512x128_S128x128_S512x128_1_0_0_1_n_n 128 rfl rfl).symm]
  refine Finset.sum_congr rfl fun c _ => ?_
  have hc := contrEquiv1_symm_val dot_S512x128_S128x128_S512x128_1_0_0_1_n_n 128 rfl rfl c
  have hl : dot_S512x128_S128x128_S512x128_1_0_0_1_n_n.lhsIdx (ix2 g q)
      ((contrEquiv1 dot_S512x128_S128x128_S512x128_1_0_0_1_n_n 128 rfl rfl).symm c) = ix2 g c := by
    funext ax; apply Fin.ext
    match ax with
    | ⟨0, _⟩ => exact lhs11_0 _ _
    | ⟨1, _⟩ => exact (lhs11_1 _ _).trans hc
  have hr : dot_S512x128_S128x128_S512x128_1_0_0_1_n_n.rhsIdx (ix2 g q)
      ((contrEquiv1 dot_S512x128_S128x128_S512x128_1_0_0_1_n_n 128 rfl rfl).symm c) = ix2 c q := by
    funext ax; apply Fin.ext
    match ax with
    | ⟨0, _⟩ => exact (rhs11_0 _ _).trans hc
    | ⟨1, _⟩ => exact rhs11_1 _ _
  rw [hl, hr]

/-- THE BODY'S PAYLOAD AT AN INDEX: the two narrowings are the identity on the ideal values, the shape casts keep
    their shapes, and the bias row is read at the column whatever the row. -/
theorem pay11_apply (x0 : Vec Ideal S512x128 .f32) (x1 : Vec Ideal S128x128 .f32) (x2 : Vec Ideal S1x128 .f32) (i : S512x128.Idx) :
    k11_pay1 x0 x1 x2 i = G11_3 x0 x1 x2 i := by
  obtain ⟨g, q, rfl⟩ : ∃ (g : Fin 512) (q : Fin 128), i = ix2 g q := ⟨i 0, i 1, eq_ix2 i⟩
  unfold k11_pay1 G11_3
  simp only [shapeCast_self]
  rw [addf_apply, matmul11_apply, broadcastTo_1b_ab_apply]
  rfl

/-! ## From the one block to the array -/

variable (V : (c : Dev nD) → (b : Ref sig .tc) → Buf (Elt Ideal) ((c : Thread nD τ).loc b))

theorem zeros11 : (![0, 0] : Fin 2 → Nat) = fun _ => 0 := funext fun a => by fin_cases a <;> rfl

/-- The printed index maps, decided over the grid: every window's one block sits at the origin of its array. -/
theorem origin11 : ∀ t : Fin cfg11.N, win11_0.index t (0 : Fin 2) = 0 ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0 :=
  (by decide +kernel : ∀ t : Fin grid11.N, _)

/-- Each window's block is its whole array, so a block index is the array index it stands for. -/
theorem emb11_0 (t : Fin cfg11.N) (y : S512x128.Idx) : ((cfg11.win 0).blk t).view.emb y = y := by
  obtain ⟨e0, e1, -⟩ := origin11 t
  funext a; apply Fin.ext
  match a with
  | ⟨0, _⟩ => show win11_0.index t (0 : Fin 2) * 512 + 1 * (y 0).val = (y 0).val; omega
  | ⟨1, _⟩ => show win11_0.index t (1 : Fin 2) * 128 + 1 * (y 1).val = (y 1).val; omega

theorem emb11_1 (t : Fin cfg11.N) (y : S128x128.Idx) : ((cfg11.win 1).blk t).view.emb y = y := by
  obtain ⟨-, -, e0, e1, -⟩ := origin11 t
  funext a; apply Fin.ext
  match a with
  | ⟨0, _⟩ => show win11_1.index t (0 : Fin 2) * 128 + 1 * (y 0).val = (y 0).val; omega
  | ⟨1, _⟩ => show win11_1.index t (1 : Fin 2) * 128 + 1 * (y 1).val = (y 1).val; omega

theorem emb11_2 (t : Fin cfg11.N) (y : S1x128.Idx) : ((cfg11.win 2).blk t).view.emb y = y := by
  obtain ⟨-, -, -, -, e0, e1, -⟩ := origin11 t
  funext a; apply Fin.ext
  match a with
  | ⟨0, _⟩ => show win11_2.index t (0 : Fin 2) * 1 + 1 * (y 0).val = (y 0).val; omega
  | ⟨1, _⟩ => show win11_2.index t (1 : Fin 2) * 128 + 1 * (y 1).val = (y 1).val; omega

theorem emb11_3 (t : Fin cfg11.N) (y : S512x128.Idx) : ((cfg11.win 3).blk t).view.emb y = y := by
  obtain ⟨-, -, -, -, -, -, e0, e1⟩ := origin11 t
  funext a; apply Fin.ext
  match a with
  | ⟨0, _⟩ => show win11_3.index t (0 : Fin 2) * 512 + 1 * (y 0).val = (y 0).val; omega
  | ⟨1, _⟩ => show win11_3.index t (1 : Fin 2) * 128 + 1 * (y 1).val = (y 1).val; omega

/-- So each input's block, read off its array as the region finds it, is that array. -/
theorem iblk11_0_eq (c : Dev nD) (t : Fin cfg11.N) : (iblk11 V c 0 t : S512x128.Idx → Elt Ideal .f32) = V c main_v304 := by
  funext y
  show V c main_v304 (((cfg11.win 0).blk t).view.emb y) = V c main_v304 y
  rw [emb11_0]

theorem iblk11_1_eq (c : Dev nD) (t : Fin cfg11.N) : (iblk11 V c 1 t : S128x128.Idx → Elt Ideal .f32) = V c main_arg16 := by
  funext y
  show V c main_arg16 (((cfg11.win 1).blk t).view.emb y) = V c main_arg16 y
  rw [emb11_1]

theorem iblk11_2_eq (c : Dev nD) (t : Fin cfg11.N) : (iblk11 V c 2 t : S1x128.Idx → Elt Ideal .f32) = V c main_v305 := by
  funext y
  show V c main_v305 (((cfg11.win 2).blk t).view.emb y) = V c main_v305 y
  rw [emb11_2]

/-- WHAT THE POINT WRITES BACK is the block of `G11_3` of the three input arrays as the region finds them. -/
theorem flushed11_3_eq (c : Dev nD) (t : Fin cfg11.N) :
    (dat11 V c).flushed 3 t
      = ((cfg11.win 3).blk t).view.read (Elt Ideal) (G11_3 (V c main_v304) (V c main_arg16) (V c main_v305)) := by
  show (cfg11.win 3).cut (grid11.coords t) ((dat11 V c).after 3 t) = _
  rw [after11_3]
  unfold out11_3
  rw [View.canon_unit_zero zeros11]
  simp only [View.ld_unit_zero (S := S512x128) zeros11, View.ld_unit_zero (S := S128x128) zeros11,
    View.ld_unit_zero (S := S1x128) zeros11]
  funext j
  show k11_pay1 (iblk11 V c 0 t) (iblk11 V c 1 t) (iblk11 V c 2 t) j
    = G11_3 (V c main_v304) (V c main_arg16) (V c main_v305) (((cfg11.win 3).blk t).view.emb j)
  rw [emb11_3]
  refine (pay11_apply (iblk11 V c 0 t) (iblk11 V c 1 t) (iblk11 V c 2 t) j).trans ?_
  rw [iblk11_0_eq, iblk11_1_eq, iblk11_2_eq]

/-- An index of the result array is in the point's block iff each coordinate is in the block's range on its axis. -/
theorem mem_blk11_3 (t : Fin cfg11.N) (i : S512x128.Idx) :
    i ∈ ((cfg11.win 3).blk t).view.set
      ↔ ∀ a : Fin 2, win11_3.index t a * S512x128.size a ≤ (i a).val ∧ (i a).val < win11_3.index t a * S512x128.size a + S512x128.size a := by
  show i ∈ ((View.whole main_v306).slice (win11_3.rect t)).set ↔ _
  rw [View.set_slice_whole, Rect.mem_set_unit]
  exact Iff.rfl

/-- The one block covers the result array. -/
theorem cover11_3_arr (i : S512x128.Idx) :
    ∃ t : Fin cfg11.N, (cfg11.win 3).flush t = true ∧ i ∈ ((cfg11.win 3).blk t).view.set := by
  refine ⟨t11_0, flush11_3 t11_0, ?_⟩
  rw [mem_blk11_3]
  obtain ⟨-, -, -, -, -, -, e0, e1⟩ := origin11 t11_0
  have hi0 : (i 0).val < 512 := (i 0).isLt
  have hi1 : (i 1).val < 128 := (i 1).isLt
  intro a
  match a with
  | ⟨0, _⟩ => show win11_3.index t11_0 (0 : Fin 2) * 512 ≤ (i 0).val ∧ (i 0).val < win11_3.index t11_0 (0 : Fin 2) * 512 + 512; omega
  | ⟨1, _⟩ => show win11_3.index t11_0 (1 : Fin 2) * 128 ≤ (i 1).val ∧ (i 1).val < win11_3.index t11_0 (1 : Fin 2) * 128 + 128; omega

/-- THE RESULT ARRAY after the region: `G11_3` of the pooled features, the weights and the bias row. -/
theorem final11_3 (c : Dev nD) :
    (dat11 V c).arrAt 3 cfg11.N = G11_3 (V c main_v304) (V c main_arg16) (V c main_v305) :=
  (dat11 V c).arrAt_eq_of_cover 3 (G11_3 (V c main_v304) (V c main_arg16) (V c main_v305))
    (fun t _ => flushed11_3_eq V c t) cover11_3_arr

end Cert.KernelIdeal.Hand
-- ==== Proof.Val.KFoldB.lean ====
import proofs.«402460_j82824149336546_1_alg».proof.Proof.Gen.KernelIdeal.Launch
import proofs.«402460_j82824149336546_1_alg».proof.Proof.Gen.KernelIdeal.Skeleton
import proofs.«402460_j82824149336546_1_alg».proof.Proof.Gen.KernelIdeal.Points
import proofs.«402460_j82824149336546_1_alg».proof.Proof.Val.KStages
import proofs.«402460_j82824149336546_1_alg».proof.Proof.KI.Reg5Value
import proofs.«402460_j82824149336546_1_alg».proof.Proof.KI.Reg6Value
import proofs.«402460_j82824149336546_1_alg».proof.Proof.KI.Reg7Value
import proofs.«402460_j82824149336546_1_alg».proof.Proof.KI.Reg8Value
import proofs.«402460_j82824149336546_1_alg».proof.Proof.KI.Reg9Value
import proofs.«402460_j82824149336546_1_alg».proof.Proof.KI.Reg10Value
import proofs.«402460_j82824149336546_1_alg».proof.Proof.KI.Reg11Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The second half of the kernel's value: from the third layer's exit to the result

After the third graph-convolution layer the program runs five rounds of personalised propagation, each a host stretch
(every edge carries its weight times its source's row to its target) followed by a kernel region that mixes the
propagated rows with the layer's output; then a region sums the rows per graph, a host stretch divides by the graph
sizes and lays the output bias out as a row, and the last region applies the linear head.

Each item is read here as a function of the buffers it finds: a host stretch's result buffer is the stage function of
the buffers it reads, a region's output array is its closed form of its input arrays, and a buffer an item does not
write is as it was.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The buffers the tail reads late

The layer's output, the two ends and the weight of every edge, the node-against-graph indicator, the graph of every
node, and the head's weights and bias: no item after the third layer writes any of them. -/

/-- Those eight buffers. -/
def lateRead : List (Ref sig .tc) := [main_v224, main_v3, main_v6, main_v28, main_v35, main_arg2, main_arg16, main_arg17]

/-! ## The host stretches, over any contents `W` -/

section Host
variable (W : Valuation τ sig (Elt Ideal))

set_option maxHeartbeats 1000000 in
/-- Round 1's propagation of the layer's output. -/
theorem after5_v237 : StableHlo.after hostOps5 W (Proc.devRef .tc main_v237)
    = Stage.propOf (W (Proc.devRef .tc main_v3)) (W (Proc.devRef .tc main_v6)) (W (Proc.devRef .tc main_v28)) (W (Proc.devRef .tc main_v224)) := by
  after_results_simp; rfl

set_option maxHeartbeats 1000000 in
/-- Round 2's propagation of round 1's mix. -/
theorem after6_v251 : StableHlo.after hostOps6 W (Proc.devRef .tc main_v251)
    = Stage.propOf (W (Proc.devRef .tc main_v3)) (W (Proc.devRef .tc main_v6)) (W (Proc.devRef .tc main_v28)) (W (Proc.devRef .tc main_v238)) := by
  after_results_simp; rfl

set_option maxHeartbeats 1000000 in
/-- Round 3's. -/
theorem after7_v265 : StableHlo.after hostOps7 W (Proc.devRef .tc main_v265)
    = Stage.propOf (W (Proc.devRef .tc main_v3)) (W (Proc.devRef .tc main_v6)) (W (Proc.devRef .tc main_v28)) (W (Proc.devRef .tc main_v252)) := by
  after_results_simp; rfl

set_option maxHeartbeats 1000000 in
/-- Round 4's. -/
theorem after8_v279 : StableHlo.after hostOps8 W (Proc.devRef .tc main_v279)
    = Stage.propOf (W (Proc.devRef .tc main_v3)) (W (Proc.devRef .tc main_v6)) (W (Proc.devRef .tc main_v28)) (W (Proc.devRef .tc main_v266)) := by
  after_results_simp; rfl

set_option maxHeartbeats 1000000 in
/-- Round 5's. -/
theorem after9_v293 : StableHlo.after hostOps9 W (Proc.devRef .tc main_v293)
    = Stage.propOf (W (Proc.devRef .tc main_v3)) (W (Proc.devRef .tc main_v6)) (W (Proc.devRef .tc main_v28)) (W (Proc.devRef .tc main_v280)) := by
  after_results_simp; rfl

set_option maxHeartbeats 1000000 in
/-- The per-graph sums divided by the graph sizes. -/
theorem after11_v304 : StableHlo.after hostOps11 W (Proc.devRef .tc main_v304)
    = Stage.pooled (W (Proc.devRef .tc main_v295)) (W (Proc.devRef .tc main_arg2)) := by
  after_results_simp; rfl

set_option maxHeartbeats 1000000 in
/-- The output bias as a row. -/
theorem after11_v305 : StableHlo.after hostOps11 W (Proc.devRef .tc main_v305)
    = Stage.boutRow (W (Proc.devRef .tc main_arg17)) := by
  after_results_simp; rfl

set_option maxHeartbeats 1000000 in
/-- No host stretch of the tail writes a late-read buffer. -/
theorem after5_keep (r : Ref sig .tc) (hr : r ∈ lateRead) :
    StableHlo.after hostOps5 W (Proc.devRef .tc r) = W (Proc.devRef .tc r) := by
  simp only [lateRead, List.mem_cons, List.mem_nil_iff, or_false] at hr
  rcases hr with rfl | rfl | rfl | rfl | rfl | rfl | rfl | rfl <;> after_results_simp

set_option maxHeartbeats 1000000 in
theorem after6_keep (r : Ref sig .tc) (hr : r ∈ lateRead) :
    StableHlo.after hostOps6 W (Proc.devRef .tc r) = W (Proc.devRef .tc r) := by
  simp only [lateRead, List.mem_cons, List.mem_nil_iff, or_false] at hr
  rcases hr with rfl | rfl | rfl | rfl | rfl | rfl | rfl | rfl <;> after_results_simp

set_option maxHeartbeats 1000000 in
theorem after7_keep (r : Ref sig .tc) (hr : r ∈ lateRead) :
    StableHlo.after hostOps7 W (Proc.devRef .tc r) = W (Proc.devRef .tc r) := by
  simp only [lateRead, List.mem_cons, List.mem_nil_iff, or_false] at hr
  rcases hr with rfl | rfl | rfl | rfl | rfl | rfl | rfl | rfl <;> after_results_simp

set_option maxHeartbeats 1000000 in
theorem after8_keep (r : Ref sig .tc) (hr : r ∈ lateRead) :
    StableHlo.after hostOps8 W (Proc.devRef .tc r) = W (Proc.devRef .tc r) := by
  simp only [lateRead, List.mem_cons, List.mem_nil_iff, or_false] at hr
  rcases hr with rfl | rfl | rfl | rfl | rfl | rfl | rfl | rfl <;> after_results_simp

set_option maxHeartbeats 1000000 in
theorem after9_keep (r : Ref sig .tc) (hr : r ∈ lateRead) :
    StableHlo.after hostOps9 W (Proc.devRef .tc r) = W (Proc.devRef .tc r) := by
  simp only [lateRead, List.mem_cons, List.mem_nil_iff, or_false] at hr
  rcases hr with rfl | rfl | rfl | rfl | rfl | rfl | rfl | rfl <;> after_results_simp

set_option maxHeartbeats 1000000 in
theorem after11_keep (r : Ref sig .tc) (hr : r ∈ lateRead) :
    StableHlo.after hostOps11 W (Proc.devRef .tc r) = W (Proc.devRef .tc r) := by
  simp only [lateRead, List.mem_cons, List.mem_nil_iff, or_false] at hr
  rcases hr with rfl | rfl | rfl | rfl | rfl | rfl | rfl | rfl <;> after_results_simp

end Host

/-! ## The regions, over any entry contents `Y` -/

section Regions
variable (Y : Dev nD → Valuation τ sig (Elt Ideal))

/-- Contents read at the TensorCore's references. -/
abbrev atTc : (c : Dev nD) → (b : Ref sig .tc) → Buf (Elt Ideal) ((c : Thread nD τ).loc b) := fun c b => Y c b

/-- Region 5's exit contents from entry contents `Y`: its arrays at what the pipeline leaves, every other buffer as entered. -/
def exit5 (c : Dev nD) : Valuation τ sig (Elt Ideal) :=
  Pipeline.withArrays spec5 c (Y c) fun w => (dat5 (atTc Y) c).arrAt w cfg5.N

theorem exit5_out (c : Dev nD) : exit5 Y c (Proc.devRef .tc main_v238)
    = G5_2 (Y c (Proc.devRef .tc main_v237)) (Y c (Proc.devRef .tc main_v224)) :=
  (Pipeline.withArrays_arr spec5 launch5.win.arr_inj c _ _ 2).trans (final5_2 (atTc Y) c)

theorem exit5_keep (c : Dev nD) (r : Ref sig .tc) (hr : r ∈ lateRead) :
    exit5 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec5 c _ _ _ (by decide)
    | exact (Pipeline.withArrays_arr spec5 launch5.win.arr_inj c _ _ 1).trans
        (((dat5 (atTc Y) c).arrAt_in 1 rfl _).trans (A_eq5 (atTc Y) c 1))

/-- Region 6's exit contents from entry contents `Y`: its arrays at what the pipeline leaves, every other buffer as entered. -/
def exit6 (c : Dev nD) : Valuation τ sig (Elt Ideal) :=
  Pipeline.withArrays spec6 c (Y c) fun w => (dat6 (atTc Y) c).arrAt w cfg6.N

theorem exit6_out (c : Dev nD) : exit6 Y c (Proc.devRef .tc main_v252)
    = G6_2 (Y c (Proc.devRef .tc main_v251)) (Y c (Proc.devRef .tc main_v224)) :=
  (Pipeline.withArrays_arr spec6 launch6.win.arr_inj c _ _ 2).trans (final6_2 (atTc Y) c)

theorem exit6_keep (c : Dev nD) (r : Ref sig .tc) (hr : r ∈ lateRead) :
    exit6 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec6 c _ _ _ (by decide)
    | exact (Pipeline.withArrays_arr spec6 launch6.win.arr_inj c _ _ 1).trans
        (((dat6 (atTc Y) c).arrAt_in 1 rfl _).trans (A_eq6 (atTc Y) c 1))

/-- Region 7's exit contents from entry contents `Y`: its arrays at what the pipeline leaves, every other buffer as entered. -/
def exit7 (c : Dev nD) : Valuation τ sig (Elt Ideal) :=
  Pipeline.withArrays spec7 c (Y c) fun w => (dat7 (atTc Y) c).arrAt w cfg7.N

theorem exit7_out (c : Dev nD) : exit7 Y c (Proc.devRef .tc main_v266)
    = G7_2 (Y c (Proc.devRef .tc main_v265)) (Y c (Proc.devRef .tc main_v224)) :=
  (Pipeline.withArrays_arr spec7 launch7.win.arr_inj c _ _ 2).trans (final7_2 (atTc Y) c)

theorem exit7_keep (c : Dev nD) (r : Ref sig .tc) (hr : r ∈ lateRead) :
    exit7 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec7 c _ _ _ (by decide)
    | exact (Pipeline.withArrays_arr spec7 launch7.win.arr_inj c _ _ 1).trans
        (((dat7 (atTc Y) c).arrAt_in 1 rfl _).trans (A_eq7 (atTc Y) c 1))

/-- Region 8's exit contents from entry contents `Y`: its arrays at what the pipeline leaves, every other buffer as entered. -/
def exit8 (c : Dev nD) : Valuation τ sig (Elt Ideal) :=
  Pipeline.withArrays spec8 c (Y c) fun w => (dat8 (atTc Y) c).arrAt w cfg8.N

theorem exit8_out (c : Dev nD) : exit8 Y c (Proc.devRef .tc main_v280)
    = G8_2 (Y c (Proc.devRef .tc main_v279)) (Y c (Proc.devRef .tc main_v224)) :=
  (Pipeline.withArrays_arr spec8 launch8.win.arr_inj c _ _ 2).trans (final8_2 (atTc Y) c)

theorem exit8_keep (c : Dev nD) (r : Ref sig .tc) (hr : r ∈ lateRead) :
    exit8 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec8 c _ _ _ (by decide)
    | exact (Pipeline.withArrays_arr spec8 launch8.win.arr_inj c _ _ 1).trans
        (((dat8 (atTc Y) c).arrAt_in 1 rfl _).trans (A_eq8 (atTc Y) c 1))

/-- Region 9's exit contents from entry contents `Y`: its arrays at what the pipeline leaves, every other buffer as entered. -/
def exit9 (c : Dev nD) : Valuation τ sig (Elt Ideal) :=
  Pipeline.withArrays spec9 c (Y c) fun w => (dat9 (atTc Y) c).arrAt w cfg9.N

theorem exit9_out (c : Dev nD) : exit9 Y c (Proc.devRef .tc main_v294)
    = G9_2 (Y c (Proc.devRef .tc main_v293)) (Y c (Proc.devRef .tc main_v224)) :=
  (Pipeline.withArrays_arr spec9 launch9.win.arr_inj c _ _ 2).trans (final9_2 (atTc Y) c)

theorem exit9_keep (c : Dev nD) (r : Ref sig .tc) (hr : r ∈ lateRead) :
    exit9 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec9 c _ _ _ (by decide)
    | exact (Pipeline.withArrays_arr spec9 launch9.win.arr_inj c _ _ 1).trans
        (((dat9 (atTc Y) c).arrAt_in 1 rfl _).trans (A_eq9 (atTc Y) c 1))

/-- Region 10's exit contents from entry contents `Y`: its arrays at what the pipeline leaves, every other buffer as entered. -/
def exit10 (c : Dev nD) : Valuation τ sig (Elt Ideal) :=
  Pipeline.withArrays spec10 c (Y c) fun w => (dat10 (atTc Y) c).arrAt w cfg10.N

theorem exit10_out (c : Dev nD) : exit10 Y c (Proc.devRef .tc main_v295)
    = G10_2 (Y c (Proc.devRef .tc main_v294)) (Y c (Proc.devRef .tc main_v35)) :=
  (Pipeline.withArrays_arr spec10 launch10.win.arr_inj c _ _ 2).trans (final10_2 (atTc Y) c)

theorem exit10_keep (c : Dev nD) (r : Ref sig .tc) (hr : r ∈ lateRead) :
    exit10 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec10 c _ _ _ (by decide)
    | exact (Pipeline.withArrays_arr spec10 launch10.win.arr_inj c _ _ 1).trans
        (((dat10 (atTc Y) c).arrAt_in 1 rfl _).trans (A_eq10 (atTc Y) c 1))

/-- Region 11's exit contents from entry contents `Y`: its arrays at what the pipeline leaves, every other buffer as entered. -/
def exit11 (c : Dev nD) : Valuation τ sig (Elt Ideal) :=
  Pipeline.withArrays spec11 c (Y c) fun w => (dat11 (atTc Y) c).arrAt w cfg11.N

theorem exit11_out (c : Dev nD) : exit11 Y c (Proc.devRef .tc main_v306)
    = G11_3 (Y c (Proc.devRef .tc main_v304)) (Y c (Proc.devRef .tc main_arg16)) (Y c (Proc.devRef .tc main_v305)) :=
  (Pipeline.withArrays_arr spec11 launch11.win.arr_inj c _ _ 3).trans (final11_3 (atTc Y) c)

theorem exit11_keep (c : Dev nD) (r : Ref sig .tc) (hr : r ∈ lateRead) :
    exit11 Y c (Proc.devRef .tc r) = Y c (Proc.devRef .tc r) := by
  simp only [lateRead, List.mem_cons, List.mem_nil_iff, or_false] at hr
  rcases hr with rfl | rfl | rfl | rfl | rfl | rfl | rfl | rfl
  all_goals first
    | exact Pipeline.withArrays_of_ne spec11 c _ _ _ (by decide)
    | exact (Pipeline.withArrays_arr spec11 launch11.win.arr_inj c _ _ 1).trans
        (((dat11 (atTc Y) c).arrAt_in 1 rfl _).trans (A_eq11 (atTc Y) c 1))

end Regions

/-! ## The tail, from the contents `X` at the third layer's exit -/

section Chain
variable (X : Dev nD → Valuation τ sig (Elt Ideal))

/-- The contents at each later boundary: a host stretch's, then a region's exit, in the program's order (regions 9 and
    10 have no stretch between them). -/
def T11 (c : Dev nD) : Valuation τ sig (Elt Ideal) := StableHlo.after hostOps5 (X c)
def T12 : Dev nD → Valuation τ sig (Elt Ideal) := exit5 (T11 X)
def T13 (c : Dev nD) : Valuation τ sig (Elt Ideal) := StableHlo.after hostOps6 (T12 X c)
def T14 : Dev nD → Valuation τ sig (Elt Ideal) := exit6 (T13 X)
def T15 (c : Dev nD) : Valuation τ sig (Elt Ideal) := StableHlo.after hostOps7 (T14 X c)
def T16 : Dev nD → Valuation τ sig (Elt Ideal) := exit7 (T15 X)
def T17 (c : Dev nD) : Valuation τ sig (Elt Ideal) := StableHlo.after hostOps8 (T16 X c)
def T18 : Dev nD → Valuation τ sig (Elt Ideal) := exit8 (T17 X)
def T19 (c : Dev nD) : Valuation τ sig (Elt Ideal) := StableHlo.after hostOps9 (T18 X c)
def T20 : Dev nD → Valuation τ sig (Elt Ideal) := exit9 (T19 X)
def T21 : Dev nD → Valuation τ sig (Elt Ideal) := exit10 (T20 X)
def T22 (c : Dev nD) : Valuation τ sig (Elt Ideal) := StableHlo.after hostOps11 (T21 X c)
def T23 : Dev nD → Valuation τ sig (Elt Ideal) := exit11 (T22 X)

/-! ### The late-read buffers hold at every boundary what they held at the start -/

variable (c : Dev nD) (r : Ref sig .tc) (hr : r ∈ lateRead)
include hr

theorem keep11 : T11 X c (Proc.devRef .tc r) = X c (Proc.devRef .tc r) := after5_keep (X c) r hr
theorem keep12 : T12 X c (Proc.devRef .tc r) = X c (Proc.devRef .tc r) := (exit5_keep (T11 X) c r hr).trans (keep11 X c r hr)
theorem keep13 : T13 X c (Proc.devRef .tc r) = X c (Proc.devRef .tc r) := (after6_keep (T12 X c) r hr).trans (keep12 X c r hr)
theorem keep14 : T14 X c (Proc.devRef .tc r) = X c (Proc.devRef .tc r) := (exit6_keep (T13 X) c r hr).trans (keep13 X c r hr)
theorem keep15 : T15 X c (Proc.devRef .tc r) = X c (Proc.devRef .tc r) := (after7_keep (T14 X c) r hr).trans (keep14 X c r hr)
theorem keep16 : T16 X c (Proc.devRef .tc r) = X c (Proc.devRef .tc r) := (exit7_keep (T15 X) c r hr).trans (keep15 X c r hr)
theorem keep17 : T17 X c (Proc.devRef .tc r) = X c (Proc.devRef .tc r) := (after8_keep (T16 X c) r hr).trans (keep16 X c r hr)
theorem keep18 : T18 X c (Proc.devRef .tc r) = X c (Proc.devRef .tc r) := (exit8_keep (T17 X) c r hr).trans (keep17 X c r hr)
theorem keep19 : T19 X c (Proc.devRef .tc r) = X c (Proc.devRef .tc r) := (after9_keep (T18 X c) r hr).trans (keep18 X c r hr)
theorem keep20 : T20 X c (Proc.devRef .tc r) = X c (Proc.devRef .tc r) := (exit9_keep (T19 X) c r hr).trans (keep19 X c r hr)
theorem keep21 : T21 X c (Proc.devRef .tc r) = X c (Proc.devRef .tc r) := (exit10_keep (T20 X) c r hr).trans (keep20 X c r hr)
theorem keep22 : T22 X c (Proc.devRef .tc r) = X c (Proc.devRef .tc r) := (after11_keep (T21 X c) r hr).trans (keep21 X c r hr)

omit hr

/-! ### The rounds' values -/

/-- One propagation along the edges as the start contents give them. -/
def roundOf (h : S50000x128.Idx → Elt Ideal .f32) : S50000x128.Idx → Elt Ideal .f32 :=
  Stage.propOf (X c (Proc.devRef .tc main_v3)) (X c (Proc.devRef .tc main_v6)) (X c (Proc.devRef .tc main_v28)) h

/-- The layer's output, and the five mixes of a propagated state with it. -/
def mix0 : S50000x128.Idx → Elt Ideal .f32 := X c (Proc.devRef .tc main_v224)
def mix1 : S50000x128.Idx → Elt Ideal .f32 := G5_2 (F := Ideal) (roundOf X c (mix0 X c)) (mix0 X c)
def mix2 : S50000x128.Idx → Elt Ideal .f32 := G6_2 (F := Ideal) (roundOf X c (mix1 X c)) (mix0 X c)
def mix3 : S50000x128.Idx → Elt Ideal .f32 := G7_2 (F := Ideal) (roundOf X c (mix2 X c)) (mix0 X c)
def mix4 : S50000x128.Idx → Elt Ideal .f32 := G8_2 (F := Ideal) (roundOf X c (mix3 X c)) (mix0 X c)
def mix5 : S50000x128.Idx → Elt Ideal .f32 := G9_2 (F := Ideal) (roundOf X c (mix4 X c)) (mix0 X c)

theorem lateRead_v224 : main_v224 ∈ lateRead := by simp [lateRead]
theorem lateRead_v3 : main_v3 ∈ lateRead := by simp [lateRead]
theorem lateRead_v6 : main_v6 ∈ lateRead := by simp [lateRead]
theorem lateRead_v28 : main_v28 ∈ lateRead := by simp [lateRead]
theorem lateRead_v35 : main_v35 ∈ lateRead := by simp [lateRead]
theorem lateRead_arg2 : main_arg2 ∈ lateRead := by simp [lateRead]
theorem lateRead_arg16 : main_arg16 ∈ lateRead := by simp [lateRead]
theorem lateRead_arg17 : main_arg17 ∈ lateRead := by simp [lateRead]

theorem val11 : T11 X c (Proc.devRef .tc main_v237) = roundOf X c (mix0 X c) := after5_v237 (X c)

theorem val12 : T12 X c (Proc.devRef .tc main_v238) = mix1 X c := by
  refine (exit5_out (T11 X) c).trans ?_
  rw [val11, keep11 X c main_v224 lateRead_v224]; rfl

theorem val13 : T13 X c (Proc.devRef .tc main_v251) = roundOf X c (mix1 X c) := by
  refine (after6_v251 (T12 X c)).trans ?_
  rw [val12, keep12 X c main_v3 lateRead_v3, keep12 X c main_v6 lateRead_v6, keep12 X c main_v28 lateRead_v28]; rfl

theorem val14 : T14 X c (Proc.devRef .tc main_v252) = mix2 X c := by
  refine (exit6_out (T13 X) c).trans ?_
  rw [val13, keep13 X c main_v224 lateRead_v224]; rfl

theorem val15 : T15 X c (Proc.devRef .tc main_v265) = roundOf X c (mix2 X c) := by
  refine (after7_v265 (T14 X c)).trans ?_
  rw [val14, keep14 X c main_v3 lateRead_v3, keep14 X c main_v6 lateRead_v6, keep14 X c main_v28 lateRead_v28]; rfl

theorem val16 : T16 X c (Proc.devRef .tc main_v266) = mix3 X c := by
  refine (exit7_out (T15 X) c).trans ?_
  rw [val15, keep15 X c main_v224 lateRead_v224]; rfl

theorem val17 : T17 X c (Proc.devRef .tc main_v279) = roundOf X c (mix3 X c) := by
  refine (after8_v279 (T16 X c)).trans ?_
  rw [val16, keep16 X c main_v3 lateRead_v3, keep16 X c main_v6 lateRead_v6, keep16 X c main_v28 lateRead_v28]; rfl

theorem val18 : T18 X c (Proc.devRef .tc main_v280) = mix4 X c := by
  refine (exit8_out (T17 X) c).trans ?_
  rw [val17, keep17 X c main_v224 lateRead_v224]; rfl

theorem val19 : T19 X c (Proc.devRef .tc main_v293) = roundOf X c (mix4 X c) := by
  refine (after9_v293 (T18 X c)).trans ?_
  rw [val18, keep18 X c main_v3 lateRead_v3, keep18 X c main_v6 lateRead_v6, keep18 X c main_v28 lateRead_v28]; rfl

theorem val20 : T20 X c (Proc.devRef .tc main_v294) = mix5 X c := by
  refine (exit9_out (T19 X) c).trans ?_
  rw [val19, keep19 X c main_v224 lateRead_v224]; rfl

/-- The per-graph sums of the last mix. -/
theorem val21 : T21 X c (Proc.devRef .tc main_v295) = G10_2 (mix5 X c) (X c (Proc.devRef .tc main_v35)) := by
  refine (exit10_out (T20 X) c).trans ?_
  rw [val20, keep20 X c main_v35 lateRead_v35]

/-- The per-graph means, and the bias row. -/
theorem val22_pooled : T22 X c (Proc.devRef .tc main_v304)
    = Stage.pooled (G10_2 (mix5 X c) (X c (Proc.devRef .tc main_v35))) (X c (Proc.devRef .tc main_arg2)) := by
  refine (after11_v304 (T21 X c)).trans ?_
  rw [val21, keep21 X c main_arg2 lateRead_arg2]

theorem val22_bias : T22 X c (Proc.devRef .tc main_v305) = Stage.boutRow (X c (Proc.devRef .tc main_arg17)) := by
  refine (after11_v305 (T21 X c)).trans ?_
  rw [keep21 X c main_arg17 lateRead_arg17]

/-- THE RESULT, from the contents at the third layer's exit. -/
theorem val23 : T23 X c (Proc.devRef .tc main_v306)
    = G11_3 (Stage.pooled (G10_2 (mix5 X c) (X c (Proc.devRef .tc main_v35))) (X c (Proc.devRef .tc main_arg2)))
        (X c (Proc.devRef .tc main_arg16)) (Stage.boutRow (X c (Proc.devRef .tc main_arg17))) := by
  refine (exit11_out (T22 X) c).trans ?_
  rw [val22_pooled, val22_bias, keep22 X c main_arg16 lateRead_arg16]

end Chain

/-! ## The tail's closed form, of the eight values it reads -/

section Closed

variable (s d : IVec S650000 32) (w : S650000.Idx → Elt Ideal .f32) (h3 : S50000x128.Idx → Elt Ideal .f32)

/-- The five mixes: each is the propagation of the one before along the edges `s → d` with weights `w`, mixed with the
    layer's output `h3`. -/
def tailMix1 : S50000x128.Idx → Elt Ideal .f32 := G5_2 (F := Ideal) (Stage.propOf s d w h3) h3
def tailMix2 : S50000x128.Idx → Elt Ideal .f32 := G6_2 (F := Ideal) (Stage.propOf s d w (tailMix1 s d w h3)) h3
def tailMix3 : S50000x128.Idx → Elt Ideal .f32 := G7_2 (F := Ideal) (Stage.propOf s d w (tailMix2 s d w h3)) h3
def tailMix4 : S50000x128.Idx → Elt Ideal .f32 := G8_2 (F := Ideal) (Stage.propOf s d w (tailMix3 s d w h3)) h3
def tailMix5 : S50000x128.Idx → Elt Ideal .f32 := G9_2 (F := Ideal) (Stage.propOf s d w (tailMix4 s d w h3)) h3

/-- The result: the last mix summed per graph (`oh`: node against graph), divided by the graph sizes (`batch`: the
    graph of every node), through the linear head (`wout`, `bout`). -/
def tailOf (oh : S50000x512.Idx → Elt Ideal .bf16) (batch : IVec S50000 32) (wout : S128x128.Idx → Elt Ideal .f32)
    (bout : S128.Idx → Elt Ideal .f32) : S512x128.Idx → Elt Ideal .f32 :=
  G11_3 (Stage.pooled (G10_2 (tailMix5 s d w h3) oh) batch) wout (Stage.boutRow bout)

end Closed

section ClosedChain
variable (X : Dev nD → Valuation τ sig (Elt Ideal)) (c : Dev nD)

/-- THE RESULT as the closed form of the start contents' eight buffers. -/
theorem tail_closed : T23 X c (Proc.devRef .tc main_v306)
    = tailOf (X c (Proc.devRef .tc main_v3)) (X c (Proc.devRef .tc main_v6)) (X c (Proc.devRef .tc main_v28)) (X c (Proc.devRef .tc main_v224))
        (X c (Proc.devRef .tc main_v35)) (X c (Proc.devRef .tc main_arg2)) (X c (Proc.devRef .tc main_arg16)) (X c (Proc.devRef .tc main_arg17)) :=
  (val23 X c).trans rfl

/-- The same with the eight buffers' contents named by hypotheses, for whatever computes them before. -/
theorem tail_value_of (s d : IVec S650000 32) (w : S650000.Idx → Elt Ideal .f32) (h3 : S50000x128.Idx → Elt Ideal .f32)
    (oh : S50000x512.Idx → Elt Ideal .bf16) (batch : IVec S50000 32) (wout : S128x128.Idx → Elt Ideal .f32)
    (bout : S128.Idx → Elt Ideal .f32)
    (hs : X c (Proc.devRef .tc main_v3) = s) (hd : X c (Proc.devRef .tc main_v6) = d) (hw : X c (Proc.devRef .tc main_v28) = w)
    (hh3 : X c (Proc.devRef .tc main_v224) = h3) (hoh : X c (Proc.devRef .tc main_v35) = oh) (hbatch : X c (Proc.devRef .tc main_arg2) = batch)
    (hwout : X c (Proc.devRef .tc main_arg16) = wout) (hbout : X c (Proc.devRef .tc main_arg17) = bout) :
    T23 X c (Proc.devRef .tc main_v306) = tailOf s d w h3 oh batch wout bout := by
  subst hs hd hw hh3 hoh hbatch hwout hbout
  exact tail_closed X c

end ClosedChain

end Cert.KernelIdeal.Hand
-- ==== Proof.Val.KOutG.lean ====
/-
  The kernel's result as one function of its eighteen arguments: the host stages and the functions the
  twelve regions compute, composed in the program's order. The regions' functions enter as a record of
  parameters, so that the composition can be read (and compared with the reference's) without their bodies;
  the named intermediate values are the arrays the program holds after its regions 0, 1, 2, 4 and 9.
-/
import proofs.«402460_j82824149336546_1_alg».proof.Proof.Val.KStages

set_option maxRecDepth 16384

noncomputable section

namespace Cert.KernelIdeal.Stage

open Idealize.ShloMosaic
open Cert.KernelIdeal Cert.KernelIdeal.Facts₀ Cert.KernelIdeal.Facts

/-- One whole-array function per region whose output the result depends on (regions 0, 1, 2, 4, 5-9, 10, 11;
    region 0 and region 2 have two outputs, of region 2 only the first is read). -/
structure RegionFns where
  /-- region 0, first output: the new node rows. Arguments: propagated rows, weights, bias, mean, variance,
      scale, shift (one row each), node-against-graph indicator, virtual node. -/
  conv0 : Vec Ideal S50000x128 .f32 → Vec Ideal S128x128 .f32 → Vec Ideal S1x128 .f32 → Vec Ideal S1x128 .f32 →
    Vec Ideal S1x128 .f32 → Vec Ideal S1x128 .f32 → Vec Ideal S1x128 .f32 → Vec Ideal S50000x512 .bf16 →
    Vec Ideal S512x128 .f32 → Vec Ideal S50000x128 .f32
  /-- region 0, second output: the new node rows summed per graph. -/
  sum0 : Vec Ideal S50000x128 .f32 → Vec Ideal S128x128 .f32 → Vec Ideal S1x128 .f32 → Vec Ideal S1x128 .f32 →
    Vec Ideal S1x128 .f32 → Vec Ideal S1x128 .f32 → Vec Ideal S1x128 .f32 → Vec Ideal S50000x512 .bf16 →
    Vec Ideal S512x128 .f32 → Vec Ideal S512x128 .f32
  /-- region 1: the virtual node's two-layer map. -/
  mlp : Vec Ideal S512x128 .f32 → Vec Ideal S128x256 .f32 → Vec Ideal S1x256 .f32 → Vec Ideal S1x256 .f32 →
    Vec Ideal S1x256 .f32 → Vec Ideal S256x128 .f32 → Vec Ideal S1x128 .f32 → Vec Ideal S1x128 .f32 →
    Vec Ideal S1x128 .f32 → Vec Ideal S512x128 .f32
  /-- region 2, first output. -/
  conv1 : Vec Ideal S50000x128 .f32 → Vec Ideal S128x128 .f32 → Vec Ideal S1x128 .f32 → Vec Ideal S1x128 .f32 →
    Vec Ideal S1x128 .f32 → Vec Ideal S1x128 .f32 → Vec Ideal S1x128 .f32 → Vec Ideal S50000x512 .bf16 →
    Vec Ideal S512x128 .f32 → Vec Ideal S50000x128 .f32
  /-- region 4: the last layer (no rectifier, no virtual node). -/
  convF : Vec Ideal S50000x128 .f32 → Vec Ideal S128x128 .f32 → Vec Ideal S1x128 .f32 → Vec Ideal S1x128 .f32 →
    Vec Ideal S1x128 .f32 → Vec Ideal S1x128 .f32 → Vec Ideal S1x128 .f32 → Vec Ideal S50000x128 .f32
  /-- regions 5 to 9: the weighted sum of the propagated rows and the rows the steps started from. -/
  mix1 : Vec Ideal S50000x128 .f32 → Vec Ideal S50000x128 .f32 → Vec Ideal S50000x128 .f32
  mix2 : Vec Ideal S50000x128 .f32 → Vec Ideal S50000x128 .f32 → Vec Ideal S50000x128 .f32
  mix3 : Vec Ideal S50000x128 .f32 → Vec Ideal S50000x128 .f32 → Vec Ideal S50000x128 .f32
  mix4 : Vec Ideal S50000x128 .f32 → Vec Ideal S50000x128 .f32 → Vec Ideal S50000x128 .f32
  mix5 : Vec Ideal S50000x128 .f32 → Vec Ideal S50000x128 .f32 → Vec Ideal S50000x128 .f32
  /-- region 10: the rows summed per graph. -/
  poolSum : Vec Ideal S50000x128 .f32 → Vec Ideal S50000x512 .bf16 → Vec Ideal S512x128 .f32
  /-- region 11: the output layer. -/
  head : Vec Ideal S512x128 .f32 → Vec Ideal S128x128 .f32 → Vec Ideal S1x128 .f32 → Vec Ideal S512x128 .f32

variable [Cert.KernelIdeal.Facts]

section
variable (G : RegionFns)
  (x : FVec Ideal S50000x128 .f32) (ei : IVec S2x600000 32) (batch : IVec S50000 32)
  (W : FVec Ideal S3x128x128 .f32) (b gamma beta : FVec Ideal S3x128 .f32) (vnEmb : FVec Ideal S128 .f32)
  (W1 : FVec Ideal S2x128x256 .f32) (b1 g1 bt1 : FVec Ideal S2x256 .f32)
  (W2 : FVec Ideal S2x256x128 .f32) (b2 g2 bt2 : FVec Ideal S2x128 .f32)

/-- The node rows after region 0 (its first output). -/
def kH1 : FVec Ideal S50000x128 .f32 :=
  G.conv0 (prop ei x) (sliceW0 W) (row0 b) (mean (lin0 (prop ei x) W b))
    (var (lin0 (prop ei x) W b) (mean (lin0 (prop ei x) W b))) (row0 gamma) (row0 beta) (onehot batch) (vn0 vnEmb)

/-- The per-graph sums after region 0 (its second output). -/
def kS1 : FVec Ideal S512x128 .f32 :=
  G.sum0 (prop ei x) (sliceW0 W) (row0 b) (mean (lin0 (prop ei x) W b))
    (var (lin0 (prop ei x) W b) (mean (lin0 (prop ei x) W b))) (row0 gamma) (row0 beta) (onehot batch) (vn0 vnEmb)

/-- The virtual node after region 1 and the addition that follows it. -/
def kVn1 : FVec Ideal S512x128 .f32 :=
  vnNext (vn0 vnEmb)
    (G.mlp (vtOf (kS1 G x ei batch W b gamma beta vnEmb) (vn0 vnEmb)) (mlpA1 W1) (mlpRowA1 b1) (mlpRowA1 g1) (mlpRowA1 bt1)
      (mlpB1 W2) (mlpRowB1 b2) (mlpRowB1 g2) (mlpRowB1 bt2))

/-- The node rows after region 2 (its first output). -/
def kH2 : FVec Ideal S50000x128 .f32 :=
  G.conv1 (prop ei (kH1 G x ei batch W b gamma beta vnEmb)) (sliceW1 W) (row1 b)
    (mean (lin1 (prop ei (kH1 G x ei batch W b gamma beta vnEmb)) W b))
    (var (lin1 (prop ei (kH1 G x ei batch W b gamma beta vnEmb)) W b)
      (mean (lin1 (prop ei (kH1 G x ei batch W b gamma beta vnEmb)) W b)))
    (row1 gamma) (row1 beta) (onehot batch) (kVn1 G x ei batch W b gamma beta vnEmb W1 b1 g1 bt1 W2 b2 g2 bt2)

/-- The node rows after region 4. -/
def kH3 : FVec Ideal S50000x128 .f32 :=
  G.convF (prop ei (kH2 G x ei batch W b gamma beta vnEmb W1 b1 g1 bt1 W2 b2 g2 bt2)) (sliceW2 W) (row2 b)
    (mean (lin2 (prop ei (kH2 G x ei batch W b gamma beta vnEmb W1 b1 g1 bt1 W2 b2 g2 bt2)) W b))
    (var (lin2 (prop ei (kH2 G x ei batch W b gamma beta vnEmb W1 b1 g1 bt1 W2 b2 g2 bt2)) W b)
      (mean (lin2 (prop ei (kH2 G x ei batch W b gamma beta vnEmb W1 b1 g1 bt1 W2 b2 g2 bt2)) W b)))
    (row2 gamma) (row2 beta)

/-- The node rows after the five propagation steps (regions 5 to 9), from the rows `h3` the steps start from. -/
def kSteps (h3 : FVec Ideal S50000x128 .f32) : FVec Ideal S50000x128 .f32 :=
  G.mix5 (prop ei (G.mix4 (prop ei (G.mix3 (prop ei (G.mix2 (prop ei (G.mix1 (prop ei h3) h3)) h3)) h3)) h3)) h3

end

/-- The kernel's result: region 11's output as a function of the eighteen arguments (in the program's order). -/
def kernelOutG (G : RegionFns)
    (x : FVec Ideal S50000x128 .f32) (ei : IVec S2x600000 32) (batch : IVec S50000 32)
    (W : FVec Ideal S3x128x128 .f32) (b gamma beta : FVec Ideal S3x128 .f32) (vnEmb : FVec Ideal S128 .f32)
    (W1 : FVec Ideal S2x128x256 .f32) (b1 g1 bt1 : FVec Ideal S2x256 .f32)
    (W2 : FVec Ideal S2x256x128 .f32) (b2 g2 bt2 : FVec Ideal S2x128 .f32)
    (Wout : FVec Ideal S128x128 .f32) (bout : FVec Ideal S128 .f32) : FVec Ideal S512x128 .f32 :=
  G.head
    (pooled (G.poolSum (kSteps G ei (kH3 G x ei batch W b gamma beta vnEmb W1 b1 g1 bt1 W2 b2 g2 bt2)) (onehot batch)) batch)
    Wout (boutRow bout)

end Cert.KernelIdeal.Stage
-- ==== Proof.KI.Reg4Value.lean ====
import proofs.«402460_j82824149336546_1_alg».proof.Proof.KI.Reg4
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 4's result as one function of its input arrays, at the ideal values

Every row block of the result is the same function of the matching row block of the features and of the six whole
parameter arrays; the 25 row blocks tile the result. -/

/-! ## The closed form -/

/-- The result, index by index: the scale times (the features' row times the weights' column, plus the bias, minus the
    running mean), times the reciprocal square root of (the running variance plus the constant), plus the shift —
    associated as the body computes it. -/
def G4_7 (hp : S50000x128.Idx → Elt Ideal .f32) (W : S128x128.Idx → Elt Ideal .f32)
    (b mean var gamma beta : S1x128.Idx → Elt Ideal .f32) : S50000x128.Idx → Elt Ideal .f32 := fun i =>
  gamma (ix2 0 (i 1)) * ((∑ j : Fin 128, hp (ix2 (i 0) j) * W (ix2 j (i 1))) + b (ix2 0 (i 1)) - mean (ix2 0 (i 1)))
    * Ideal.rsqrt (var (ix2 0 (i 1)) + Ideal.ofBits .f32 0x3727C5AC#32) + beta (ix2 0 (i 1))

/-! ## The body's payload at an index -/

/-- The dimension numbers of the body's product are the plain ones: rows by columns. -/
theorem dot4_plain : dot_S2000x128_S128x128_S2000x128_1_0_0_1_n_n = DotDims.plain 2000 128 128 := rfl

/-- The payload read at row `p`, column `q`: the casts are the identity at the ideal values, the product into the zero
    accumulator is the sum over the contracted coordinate, and each one-row operand is read at column `q`. -/
theorem pay4_apply (x0 : Vec Ideal S2000x128 .f32) (x1 : Vec Ideal S128x128 .f32) (x2 x3 x4 x5 x6 : Vec Ideal S1x128 .f32)
    (p : Fin 2000) (q : Fin 128) :
    k4_pay1 x0 x1 x2 x4 x5 x3 x6 (ix2 p q)
      = x5 (ix2 0 q) * ((∑ j : Fin 128, x0 (ix2 p j) * x1 (ix2 j q)) + x2 (ix2 0 q) - x3 (ix2 0 q))
          * Ideal.rsqrt (x4 (ix2 0 q) + Ideal.ofBits .f32 0x3727C5AC#32) + x6 (ix2 0 q) := by
  unfold k4_pay1
  simp only [shapeCast_self, matmul_zero_eq_dotGeneral, dot4_plain]
  simp only [addf_apply, mulf_apply, subf_apply, broadcastTo_1b_ab_apply, StackMember.dotGeneral_plain_apply, truncf_apply]
  rfl

/-! ## The windows' block indices, decided over the grid -/

theorem hz4 : (![0, 0] : Fin 2 → Nat) = fun _ => 0 := funext fun a => by fin_cases a <;> rfl

/-- The features' block moves with the result's; the six parameter windows stay at block (0, 0); the result's block
    index is the point's number on the rows and 0 on the columns. -/
theorem idx_facts4 : ∀ t : Fin cfg4.N, win4_0.index t (0 : Fin 2) = win4_7.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) ≤ 24 ∧ win4_7.index t (1 : Fin 2) = 0 :=
  (by decide +kernel : ∀ t : Fin grid4.N, _)

/-- Every row block of the result is some point's. -/
theorem idx_onto4 : ∀ q0 : Fin 25, ∃ t : Fin cfg4.N, win4_7.index t = ![q0.val, 0] :=
  (by decide +kernel : ∀ q0 : Fin 25, ∃ t : Fin grid4.N, win4_7.index t = ![q0.val, 0])

/-! ## Where each window's block sits in its array -/

/-- The result's block at point `t`, at row `p` and column `q`, is the array's column `q`. -/
theorem emb4_7_col (t : Fin cfg4.N) (p : Fin 2000) (q : Fin 128) : (((cfg4.win 7).blk t).view.emb (ix2 p q)) 1 = q := by
  obtain ⟨-, -, -, -, -, -, -, -, -, -, -, -, -, -, -, e7⟩ := idx_facts4 t
  apply Fin.ext
  show win4_7.index t (1 : Fin 2) * 128 + 1 * q.val = q.val
  omega

/-- The features' block at point `t` is on the result's rows there, at its own columns. -/
theorem emb4_0 (t : Fin cfg4.N) (p : Fin 2000) (q j : Fin 128) :
    ((cfg4.win 0).blk t).view.emb (ix2 p j) = ix2 ((((cfg4.win 7).blk t).view.emb (ix2 p q)) 0) j := by
  obtain ⟨e0, e1, -⟩ := idx_facts4 t
  funext a; apply Fin.ext
  match a with
  | ⟨0, _⟩ => show win4_0.index t (0 : Fin 2) * 2000 + 1 * p.val = win4_7.index t (0 : Fin 2) * 2000 + 1 * p.val; omega
  | ⟨1, _⟩ => show win4_0.index t (1 : Fin 2) * 128 + 1 * j.val = j.val; omega

/-- The weights' one block is the whole array. -/
theorem emb4_1 (t : Fin cfg4.N) (a b : Fin 128) : ((cfg4.win 1).blk t).view.emb (ix2 a b) = ix2 a b := by
  obtain ⟨-, -, e0, e1, -⟩ := idx_facts4 t
  funext x; apply Fin.ext
  match x with
  | ⟨0, _⟩ => show win4_1.index t (0 : Fin 2) * 128 + 1 * a.val = a.val; omega
  | ⟨1, _⟩ => show win4_1.index t (1 : Fin 2) * 128 + 1 * b.val = b.val; omega

/-- Window 2's one block is its whole one-row array. -/
theorem emb4_2 (t : Fin cfg4.N) (b : Fin 128) : ((cfg4.win 2).blk t).view.emb (ix2 (0 : Fin 1) b) = ix2 (0 : Fin 1) b := by
  obtain ⟨-, -, -, -, e0, e1, -⟩ := idx_facts4 t
  funext x; apply Fin.ext
  match x with
  | ⟨0, _⟩ => show win4_2.index t (0 : Fin 2) * 1 + 1 * (0 : Fin 1).val = (0 : Fin 1).val; simp only [Fin.val_zero]; omega
  | ⟨1, _⟩ => show win4_2.index t (1 : Fin 2) * 128 + 1 * b.val = b.val; omega

/-- Window 3's one block is its whole one-row array. -/
theorem emb4_3 (t : Fin cfg4.N) (b : Fin 128) : ((cfg4.win 3).blk t).view.emb (ix2 (0 : Fin 1) b) = ix2 (0 : Fin 1) b := by
  obtain ⟨-, -, -, -, -, -, e0, e1, -⟩ := idx_facts4 t
  funext x; apply Fin.ext
  match x with
  | ⟨0, _⟩ => show win4_3.index t (0 : Fin 2) * 1 + 1 * (0 : Fin 1).val = (0 : Fin 1).val; simp only [Fin.val_zero]; omega
  | ⟨1, _⟩ => show win4_3.index t (1 : Fin 2) * 128 + 1 * b.val = b.val; omega

/-- Window 4's one block is its whole one-row array. -/
theorem emb4_4 (t : Fin cfg4.N) (b : Fin 128) : ((cfg4.win 4).blk t).view.emb (ix2 (0 : Fin 1) b) = ix2 (0 : Fin 1) b := by
  obtain ⟨-, -, -, -, -, -, -, -, e0, e1, -⟩ := idx_facts4 t
  funext x; apply Fin.ext
  match x with
  | ⟨0, _⟩ => show win4_4.index t (0 : Fin 2) * 1 + 1 * (0 : Fin 1).val = (0 : Fin 1).val; simp only [Fin.val_zero]; omega
  | ⟨1, _⟩ => show win4_4.index t (1 : Fin 2) * 128 + 1 * b.val = b.val; omega

/-- Window 5's one block is its whole one-row array. -/
theorem emb4_5 (t : Fin cfg4.N) (b : Fin 128) : ((cfg4.win 5).blk t).view.emb (ix2 (0 : Fin 1) b) = ix2 (0 : Fin 1) b := by
  obtain ⟨-, -, -, -, -, -, -, -, -, -, e0, e1, -⟩ := idx_facts4 t
  funext x; apply Fin.ext
  match x with
  | ⟨0, _⟩ => show win4_5.index t (0 : Fin 2) * 1 + 1 * (0 : Fin 1).val = (0 : Fin 1).val; simp only [Fin.val_zero]; omega
  | ⟨1, _⟩ => show win4_5.index t (1 : Fin 2) * 128 + 1 * b.val = b.val; omega

/-- Window 6's one block is its whole one-row array. -/
theorem emb4_6 (t : Fin cfg4.N) (b : Fin 128) : ((cfg4.win 6).blk t).view.emb (ix2 (0 : Fin 1) b) = ix2 (0 : Fin 1) b := by
  obtain ⟨-, -, -, -, -, -, -, -, -, -, -, -, e0, e1, -⟩ := idx_facts4 t
  funext x; apply Fin.ext
  match x with
  | ⟨0, _⟩ => show win4_6.index t (0 : Fin 2) * 1 + 1 * (0 : Fin 1).val = (0 : Fin 1).val; simp only [Fin.val_zero]; omega
  | ⟨1, _⟩ => show win4_6.index t (1 : Fin 2) * 128 + 1 * b.val = b.val; omega

/-! ## The result's blocks tile its array -/

/-- An index of the array is in point `t`'s block iff each coordinate is in the block's range on its axis. -/
theorem mem_blk4_7 (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v224).slice (win4_7.rect t)).set ↔ _
  rw [View.set_slice_whole, Rect.mem_set_unit]
  exact Iff.rfl

/-- Every index of the result is in some point's block. -/
theorem covered4_7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  obtain ⟨t, ht⟩ := idx_onto4 ⟨(i 0).val / 2000, by omega⟩
  have q0 : win4_7.index t (0 : Fin 2) = (i 0).val / 2000 := congrFun ht 0
  have q1 : win4_7.index t (1 : Fin 2) = 0 := congrFun ht 1
  refine ⟨t, flush4_7 t, ?_⟩
  rw [mem_blk4_7]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 128 ≤ (i 1).val ∧ (i 1).val < win4_7.index t (1 : Fin 2) * 128 + 128; omega

/-! ## The closed form read at an index of point `t`'s block -/

/-- The closed form at an index whose column is `q`. -/
theorem G4_7_at (hp : S50000x128.Idx → Elt Ideal .f32) (W : S128x128.Idx → Elt Ideal .f32)
    (b mean var gamma beta : S1x128.Idx → Elt Ideal .f32) (i : S50000x128.Idx) (q : Fin 128) (h : i 1 = q) :
    G4_7 hp W b mean var gamma beta i
      = gamma (ix2 0 q) * ((∑ j : Fin 128, hp (ix2 (i 0) j) * W (ix2 j q)) + b (ix2 0 q) - mean (ix2 0 q))
          * Ideal.rsqrt (var (ix2 0 q) + Ideal.ofBits .f32 0x3727C5AC#32) + beta (ix2 0 q) := by
  subst h; rfl

/-- The closed form at row `p`, column `q` of the result's block at point `t`, with every array read through its own
    window's block there. -/
theorem G4_7_blk (hp : S50000x128.Idx → Elt Ideal .f32) (W : S128x128.Idx → Elt Ideal .f32)
    (b mean var gamma beta : S1x128.Idx → Elt Ideal .f32) (t : Fin cfg4.N) (p : Fin 2000) (q : Fin 128) :
    G4_7 hp W b mean var gamma beta (((cfg4.win 7).blk t).view.emb (ix2 p q))
      = gamma (((cfg4.win 5).blk t).view.emb (ix2 (0 : Fin 1) q))
          * ((∑ j : Fin 128, hp (((cfg4.win 0).blk t).view.emb (ix2 p j)) * W (((cfg4.win 1).blk t).view.emb (ix2 j q)))
              + b (((cfg4.win 2).blk t).view.emb (ix2 (0 : Fin 1) q)) - mean (((cfg4.win 3).blk t).view.emb (ix2 (0 : Fin 1) q)))
          * Ideal.rsqrt (var (((cfg4.win 4).blk t).view.emb (ix2 (0 : Fin 1) q)) + Ideal.ofBits .f32 0x3727C5AC#32)
          + beta (((cfg4.win 6).blk t).view.emb (ix2 (0 : Fin 1) q)) := by
  rw [G4_7_at hp W b mean var gamma beta _ q (emb4_7_col t p q)]
  have e1 : ∀ j : Fin 128, ((cfg4.win 1).blk t).view.emb (ix2 j q) = ix2 j q := fun j => emb4_1 t j q
  simp only [emb4_0 t p q, e1, emb4_2 t q, emb4_3 t q, emb4_4 t q, emb4_5 t q, emb4_6 t q]
  rfl

/-! ## What each point writes back, and the whole array -/

variable (V : (c : Dev nD) → (b : Ref sig .tc) → Buf (Elt Ideal) ((c : Thread nD τ).loc b))

/-- What point `t` writes back is block `t` of the closed form of the arrays as the region finds them: the one store is
    of the whole block, the loads read whole blocks, and each block sits in its array where the closed form reads it. -/
theorem flushed4_7_eq (c : Dev nD) (t : Fin cfg4.N) :
    (dat4 (F := Ideal) V c).flushed 7 t = ((cfg4.win 7).blk t).view.read (Elt Ideal)
      (G4_7 (V c main_v191) (V c main_v214) (V c main_v217) (V c main_v205) (V c main_v212) (V c main_v220) (V c main_v223)) := by
  show (cfg4.win 7).cut (grid4.coords t) ((dat4 (F := Ideal) V c).after 7 t) = _
  rw [after4_7]
  unfold out4_7
  rw [View.canon_unit_zero hz4]
  simp only [View.ld_unit_zero (S := S2000x128) hz4, View.ld_unit_zero (S := S128x128) hz4, View.ld_unit_zero (S := S1x128) hz4]
  funext j
  obtain ⟨p, q, rfl⟩ : ∃ (p : Fin 2000) (q : Fin 128), j = ix2 p q := ⟨j 0, j 1, eq_ix2 j⟩
  refine Eq.trans (b := k4_pay1 (iblk4 V c 0 t) (iblk4 V c 1 t) (iblk4 V c 2 t) (iblk4 V c 4 t) (iblk4 V c 5 t) (iblk4 V c 3 t) (iblk4 V c 6 t) (ix2 p q)) rfl ?_
  refine (pay4_apply _ _ _ _ _ _ _ p q).trans ?_
  exact (G4_7_blk (V c main_v191) (V c main_v214) (V c main_v217) (V c main_v205) (V c main_v212) (V c main_v220) (V c main_v223) t p q).symm

/-- The result after the region: the closed form of the input arrays as the region finds them, everywhere, since the 25
    row blocks tile the result. -/
theorem final4_7 (c : Dev nD) : (dat4 (F := Ideal) V c).arrAt 7 cfg4.N
    = G4_7 (V c main_v191) (V c main_v214) (V c main_v217) (V c main_v205) (V c main_v212) (V c main_v220) (V c main_v223) :=
  (dat4 (F := Ideal) V c).arrAt_eq_of_cover 7 _ (fun t _ => flushed4_7_eq V c t) covered4_7

end Cert.KernelIdeal.Hand
-- ==== Proof.Val.KOut.lean ====
/-
  The kernel's result with the functions its own regions compute: the composition of the host stages and the
  regions' whole-array functions, as one function of the eighteen arguments. Regions 0 and 2 run one body (on
  different parameter rows), so region 2's first output is read with region 0's function.
-/
import proofs.«402460_j82824149336546_1_alg».proof.Proof.Val.KOutG
import proofs.«402460_j82824149336546_1_alg».proof.Proof.KI.Reg0Pay
import proofs.«402460_j82824149336546_1_alg».proof.Proof.KI.Reg1Value
import proofs.«402460_j82824149336546_1_alg».proof.Proof.KI.Reg4Value
import proofs.«402460_j82824149336546_1_alg».proof.Proof.KI.Reg5Value
import proofs.«402460_j82824149336546_1_alg».proof.Proof.KI.Reg6Value
import proofs.«402460_j82824149336546_1_alg».proof.Proof.KI.Reg7Value
import proofs.«402460_j82824149336546_1_alg».proof.Proof.KI.Reg8Value
import proofs.«402460_j82824149336546_1_alg».proof.Proof.KI.Reg9Value
import proofs.«402460_j82824149336546_1_alg».proof.Proof.KI.Reg10Value
import proofs.«402460_j82824149336546_1_alg».proof.Proof.KI.Reg11Value

set_option maxRecDepth 16384

noncomputable section

namespace Cert.KernelIdeal.Stage

open Idealize.ShloMosaic
open Cert.KernelIdeal Cert.KernelIdeal.Hand

/-- The functions this program's regions compute (region 2 runs region 0's body). -/
abbrev regionFns : RegionFns where
  conv0 := G0_9
  sum0 := G0_10
  mlp := G1_9
  conv1 := G0_9
  convF := G4_7
  mix1 := G5_2 (F := Ideal)
  mix2 := G6_2 (F := Ideal)
  mix3 := G7_2 (F := Ideal)
  mix4 := G8_2 (F := Ideal)
  mix5 := G9_2 (F := Ideal)
  poolSum := G10_2
  head := G11_3

variable [Cert.KernelIdeal.Facts]

/-- The kernel's result as a function of its eighteen arguments (in the program's order). -/
def kernelOut (x : FVec Ideal S50000x128 .f32) (ei : IVec S2x600000 32) (batch : IVec S50000 32)
    (W : FVec Ideal S3x128x128 .f32) (b gamma beta : FVec Ideal S3x128 .f32) (vnEmb : FVec Ideal S128 .f32)
    (W1 : FVec Ideal S2x128x256 .f32) (b1 g1 bt1 : FVec Ideal S2x256 .f32)
    (W2 : FVec Ideal S2x256x128 .f32) (b2 g2 bt2 : FVec Ideal S2x128 .f32)
    (Wout : FVec Ideal S128x128 .f32) (bout : FVec Ideal S128 .f32) : FVec Ideal S512x128 .f32 :=
  kernelOutG regionFns x ei batch W b gamma beta vnEmb W1 b1 g1 bt1 W2 b2 g2 bt2 Wout bout

end Cert.KernelIdeal.Stage
-- ==== Proof.KI.Reg3Value.lean ====
/- Region 3 of @main, its VALUE at the ideal reals: the output array after the region as one function of the nine
   input arrays, index by index — the second layer of the virtual-node MLP at the first layer's value. The two
   payloads are read at an index; the one grid point's block of every window is its whole array; the one write-back
   covers the output array. -/
import proofs.«402460_j82824149336546_1_alg».proof.Proof.KI.Reg3
import proofs.«402460_j82824149336546_1_alg».proof.Proof.KI.MlpValue

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx

/-- The region's output array: the second layer at the first layer's value. -/
def G3_9 (vt : S512x128.Idx → EReal) (W1 : S128x256.Idx → EReal) (b1 g1 bt1 : S1x256.Idx → EReal) (W2 : S256x128.Idx → EReal) (b2 g2 bt2 : S1x128.Idx → EReal) : S512x128.Idx → EReal :=
  fun i => mlpAct (mlpAct (fun r k => vt (ix2 r k)) W1 b1 g1 bt1) W2 b2 g2 bt2 (i 0) (i 1)

/-! ## The payloads, index by index -/

set_option maxHeartbeats 2000000 in
/-- The first layer's payload. -/
theorem pay3_2_apply (x0 : Vec Ideal S512x128 .f32) (x1 : Vec Ideal S128x256 .f32) (x2 x3 x4 : Vec Ideal S1x256 .f32) (i : S512x256.Idx) :
    k3_pay2 x0 x1 x2 x3 x4 i = mlpAct (fun r k => x0 (ix2 r k)) x1 x2 x3 x4 (i 0) (i 1) := by
  unfold k3_pay2
  simp only [matmul, mlpDot1_eq, shapeCast_self]
  rw [mlpColSum256]
  rw [mlpColSum256]
  simp only [truncf_apply, maximumf_apply, addf_apply, mulf_apply, subf_apply, divf_apply, mlpRsqrt_apply, broadcast_apply,
    mlpBcastRow_apply, mlpCastRow_apply, mlpPlainMatmul_apply, mlpOfBits_zero]
  rfl

set_option maxHeartbeats 2000000 in
/-- The second layer's payload, at whatever the first left. -/
theorem pay3_1_apply (a : FVec Ideal S512x256 .bf16) (x5 : Vec Ideal S256x128 .f32) (x6 x7 x8 : Vec Ideal S1x128 .f32) (i : S512x128.Idx) :
    k3_pay1 a x5 x6 x7 x8 i = mlpAct (fun r k => a (ix2 r k)) x5 x6 x7 x8 (i 0) (i 1) := by
  unfold k3_pay1
  simp only [matmul, mlpDot2_eq, shapeCast_self]
  rw [mlpColSum128]
  rw [mlpColSum128]
  simp only [truncf_apply, maximumf_apply, addf_apply, mulf_apply, subf_apply, divf_apply, mlpRsqrt_apply, broadcast_apply,
    mlpBcastRow_apply, mlpCastRow_apply, mlpPlainMatmul_apply, mlpOfBits_zero]
  rfl

/-- The two composed: what the body stores, as `G3_9` of what it loaded. -/
theorem pay3_eq (x0 : Vec Ideal S512x128 .f32) (x1 : Vec Ideal S128x256 .f32) (x2 x3 x4 : Vec Ideal S1x256 .f32)
    (x5 : Vec Ideal S256x128 .f32) (x6 x7 x8 : Vec Ideal S1x128 .f32) :
    k3_pay1 (k3_pay2 x0 x1 x2 x3 x4) x5 x6 x7 x8 = G3_9 x0 x1 x2 x3 x4 x5 x6 x7 x8 := by
  funext i
  rw [pay3_1_apply]
  unfold G3_9
  exact congrArg (fun A : Fin 512 → Fin 256 → EReal => mlpAct A x5 x6 x7 x8 (i 0) (i 1))
    (funext fun r => funext fun k => pay3_2_apply x0 x1 x2 x3 x4 (ix2 r k))

/-! ## From the one point's blocks to the arrays -/

variable (V : (c : Dev nD) → (b : Ref sig .tc) → Buf (Elt Ideal) ((c : Thread nD τ).loc b))

theorem hz3 : (![0, 0] : Fin 2 → Nat) = fun _ => 0 := funext fun a => by fin_cases a <;> rfl

/-- Every window's block index is zero on both axes at every point, and the output's block is the whole array. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_9.xsize (grid3.coords t) (0 : Fin 2) = 512 ∧ win3_9.xsize (grid3.coords t) (1 : Fin 2) = 128 :=
  (by decide +kernel : ∀ t : Fin grid3.N, _)

/-- Input window 0's block at a point is its whole array. -/
theorem iblk3_0_eq (c : Dev nD) (t : Fin cfg3.N) : (iblk3 V c 0 t : Vec Ideal S512x128 .f32) = (V c main_v154 : S512x128.Idx → Elt Ideal .f32) := by
  have hz' : (fun a => win3_0.index t a * main_v154.ty.shape.size a) = fun _ => 0 := funext fun a => by
    have h := idx_facts3 t
    match a with
    | ⟨0, _⟩ => show win3_0.index t (0 : Fin 2) * _ = 0; rw [h.1]; exact Nat.zero_mul _
    | ⟨1, _⟩ => show win3_0.index t (1 : Fin 2) * _ = 0; rw [h.2.1]; exact Nat.zero_mul _
  unfold iblk3
  exact Memref.read_access_unit_zero (Elt Ideal) main_v154 hz' (fun a => by rw [congrFun hz' a]; simp) (V c main_v154)

/-- Input window 1's block at a point is its whole array. -/
theorem iblk3_1_eq (c : Dev nD) (t : Fin cfg3.N) : (iblk3 V c 1 t : Vec Ideal S128x256 .f32) = (V c main_v156 : S128x256.Idx → Elt Ideal .f32) := by
  have hz' : (fun a => win3_1.index t a * main_v156.ty.shape.size a) = fun _ => 0 := funext fun a => by
    have h := idx_facts3 t
    match a with
    | ⟨0, _⟩ => show win3_1.index t (0 : Fin 2) * _ = 0; rw [h.2.2.1]; exact Nat.zero_mul _
    | ⟨1, _⟩ => show win3_1.index t (1 : Fin 2) * _ = 0; rw [h.2.2.2.1]; exact Nat.zero_mul _
  unfold iblk3
  exact Memref.read_access_unit_zero (Elt Ideal) main_v156 hz' (fun a => by rw [congrFun hz' a]; simp) (V c main_v156)

/-- Input window 2's block at a point is its whole array. -/
theorem iblk3_2_eq (c : Dev nD) (t : Fin cfg3.N) : (iblk3 V c 2 t : Vec Ideal S1x256 .f32) = (V c main_v159 : S1x256.Idx → Elt Ideal .f32) := by
  have hz' : (fun a => win3_2.index t a * main_v159.ty.shape.size a) = fun _ => 0 := funext fun a => by
    have h := idx_facts3 t
    match a with
    | ⟨0, _⟩ => show win3_2.index t (0 : Fin 2) * _ = 0; rw [h.2.2.2.2.1]; exact Nat.zero_mul _
    | ⟨1, _⟩ => show win3_2.index t (1 : Fin 2) * _ = 0; rw [h.2.2.2.2.2.1]; exact Nat.zero_mul _
  unfold iblk3
  exact Memref.read_access_unit_zero (Elt Ideal) main_v159 hz' (fun a => by rw [congrFun hz' a]; simp) (V c main_v159)

/-- Input window 3's block at a point is its whole array. -/
theorem iblk3_3_eq (c : Dev nD) (t : Fin cfg3.N) : (iblk3 V c 3 t : Vec Ideal S1x256 .f32) = (V c main_v162 : S1x256.Idx → Elt Ideal .f32) := by
  have hz' : (fun a => win3_3.index t a * main_v162.ty.shape.size a) = fun _ => 0 := funext fun a => by
    have h := idx_facts3 t
    match a with
    | ⟨0, _⟩ => show win3_3.index t (0 : Fin 2) * _ = 0; rw [h.2.2.2.2.2.2.1]; exact Nat.zero_mul _
    | ⟨1, _⟩ => show win3_3.index t (1 : Fin 2) * _ = 0; rw [h.2.2.2.2.2.2.2.1]; exact Nat.zero_mul _
  unfold iblk3
  exact Memref.read_access_unit_zero (Elt Ideal) main_v162 hz' (fun a => by rw [congrFun hz' a]; simp) (V c main_v162)

/-- Input window 4's block at a point is its whole array. -/
theorem iblk3_4_eq (c : Dev nD) (t : Fin cfg3.N) : (iblk3 V c 4 t : Vec Ideal S1x256 .f32) = (V c main_v165 : S1x256.Idx → Elt Ideal .f32) := by
  have hz' : (fun a => win3_4.index t a * main_v165.ty.shape.size a) = fun _ => 0 := funext fun a => by
    have h := idx_facts3 t
    match a with
    | ⟨0, _⟩ => show win3_4.index t (0 : Fin 2) * _ = 0; rw [h.2.2.2.2.2.2.2.2.1]; exact Nat.zero_mul _
    | ⟨1, _⟩ => show win3_4.index t (1 : Fin 2) * _ = 0; rw [h.2.2.2.2.2.2.2.2.2.1]; exact Nat.zero_mul _
  unfold iblk3
  exact Memref.read_access_unit_zero (Elt Ideal) main_v165 hz' (fun a => by rw [congrFun hz' a]; simp) (V c main_v165)

/-- Input window 5's block at a point is its whole array. -/
theorem iblk3_5_eq (c : Dev nD) (t : Fin cfg3.N) : (iblk3 V c 5 t : Vec Ideal S256x128 .f32) = (V c main_v167 : S256x128.Idx → Elt Ideal .f32) := by
  have hz' : (fun a => win3_5.index t a * main_v167.ty.shape.size a) = fun _ => 0 := funext fun a => by
    have h := idx_facts3 t
    match a with
    | ⟨0, _⟩ => show win3_5.index t (0 : Fin 2) * _ = 0; rw [h.2.2.2.2.2.2.2.2.2.2.1]; exact Nat.zero_mul _
    | ⟨1, _⟩ => show win3_5.index t (1 : Fin 2) * _ = 0; rw [h.2.2.2.2.2.2.2.2.2.2.2.1]; exact Nat.zero_mul _
  unfold iblk3
  exact Memref.read_access_unit_zero (Elt Ideal) main_v167 hz' (fun a => by rw [congrFun hz' a]; simp) (V c main_v167)

/-- Input window 6's block at a point is its whole array. -/
theorem iblk3_6_eq (c : Dev nD) (t : Fin cfg3.N) : (iblk3 V c 6 t : Vec Ideal S1x128 .f32) = (V c main_v170 : S1x128.Idx → Elt Ideal .f32) := by
  have hz' : (fun a => win3_6.index t a * main_v170.ty.shape.size a) = fun _ => 0 := funext fun a => by
    have h := idx_facts3 t
    match a with
    | ⟨0, _⟩ => show win3_6.index t (0 : Fin 2) * _ = 0; rw [h.2.2.2.2.2.2.2.2.2.2.2.2.1]; exact Nat.zero_mul _
    | ⟨1, _⟩ => show win3_6.index t (1 : Fin 2) * _ = 0; rw [h.2.2.2.2.2.2.2.2.2.2.2.2.2.1]; exact Nat.zero_mul _
  unfold iblk3
  exact Memref.read_access_unit_zero (Elt Ideal) main_v170 hz' (fun a => by rw [congrFun hz' a]; simp) (V c main_v170)

/-- Input window 7's block at a point is its whole array. -/
theorem iblk3_7_eq (c : Dev nD) (t : Fin cfg3.N) : (iblk3 V c 7 t : Vec Ideal S1x128 .f32) = (V c main_v173 : S1x128.Idx → Elt Ideal .f32) := by
  have hz' : (fun a => win3_7.index t a * main_v173.ty.shape.size a) = fun _ => 0 := funext fun a => by
    have h := idx_facts3 t
    match a with
    | ⟨0, _⟩ => show win3_7.index t (0 : Fin 2) * _ = 0; rw [h.2.2.2.2.2.2.2.2.2.2.2.2.2.2.1]; exact Nat.zero_mul _
    | ⟨1, _⟩ => show win3_7.index t (1 : Fin 2) * _ = 0; rw [h.2.2.2.2.2.2.2.2.2.2.2.2.2.2.2.1]; exact Nat.zero_mul _
  unfold iblk3
  exact Memref.read_access_unit_zero (Elt Ideal) main_v173 hz' (fun a => by rw [congrFun hz' a]; simp) (V c main_v173)

/-- Input window 8's block at a point is its whole array. -/
theorem iblk3_8_eq (c : Dev nD) (t : Fin cfg3.N) : (iblk3 V c 8 t : Vec Ideal S1x128 .f32) = (V c main_v176 : S1x128.Idx → Elt Ideal .f32) := by
  have hz' : (fun a => win3_8.index t a * main_v176.ty.shape.size a) = fun _ => 0 := funext fun a => by
    have h := idx_facts3 t
    match a with
    | ⟨0, _⟩ => show win3_8.index t (0 : Fin 2) * _ = 0; rw [h.2.2.2.2.2.2.2.2.2.2.2.2.2.2.2.2.1]; exact Nat.zero_mul _
    | ⟨1, _⟩ => show win3_8.index t (1 : Fin 2) * _ = 0; rw [h.2.2.2.2.2.2.2.2.2.2.2.2.2.2.2.2.2.1]; exact Nat.zero_mul _
  unfold iblk3
  exact Memref.read_access_unit_zero (Elt Ideal) main_v176 hz' (fun a => by rw [congrFun hz' a]; simp) (V c main_v176)

/-- WHAT THE ONE POINT WRITES BACK is the block of `G3_9` of the input arrays as the region finds them. -/
theorem flushed3_9_eq (c : Dev nD) (t : Fin cfg3.N) (hf : (cfg3.win 9).flush t = true) :
    (dat3 V c).flushed 9 t = ((cfg3.win 9).blk t).view.read (Elt Ideal) (G3_9 (V c main_v154) (V c main_v156) (V c main_v159) (V c main_v162) (V c main_v165) (V c main_v167) (V c main_v170) (V c main_v173) (V c main_v176)) := by
  obtain rfl : t = t3_0 := fin_N3 t
  show (cfg3.win 9).cut (grid3.coords t3_0) ((dat3 V c).after 9 t3_0) = _
  rw [after3_9]
  unfold out3_9
  rw [View.canon_unit_zero hz3]
  simp only [View.ld_unit_zero (S := S512x128) hz3, View.ld_unit_zero (S := S128x256) hz3, View.ld_unit_zero (S := S1x256) hz3,
    View.ld_unit_zero (S := S256x128) hz3, View.ld_unit_zero (S := S1x128) hz3]
  rw [iblk3_0_eq, iblk3_1_eq, iblk3_2_eq, iblk3_3_eq, iblk3_4_eq, iblk3_5_eq, iblk3_6_eq, iblk3_7_eq, iblk3_8_eq, pay3_eq]
  have hz' : (fun a => win3_9.index t3_0 a * main_v177.ty.shape.size a) = fun _ => 0 := funext fun a => by
    have h := idx_facts3 t3_0
    match a with
    | ⟨0, _⟩ => show win3_9.index t3_0 (0 : Fin 2) * _ = 0; rw [h.2.2.2.2.2.2.2.2.2.2.2.2.2.2.2.2.2.2.1]; exact Nat.zero_mul _
    | ⟨1, _⟩ => show win3_9.index t3_0 (1 : Fin 2) * _ = 0; rw [h.2.2.2.2.2.2.2.2.2.2.2.2.2.2.2.2.2.2.2.1]; exact Nat.zero_mul _
  exact (Memref.read_access_unit_zero (Elt Ideal) main_v177 hz' (fun a => by rw [congrFun hz' a]; simp) (G3_9 (V c main_v154) (V c main_v156) (V c main_v159) (V c main_v162) (V c main_v165) (V c main_v167) (V c main_v170) (V c main_v173) (V c main_v176))).symm

/-- THE ARRAY after the region: `G3_9` of the input arrays (the one point's block is the whole output array). -/
theorem final3_9 (c : Dev nD) : (dat3 V c).arrAt 9 cfg3.N = G3_9 (V c main_v154) (V c main_v156) (V c main_v159) (V c main_v162) (V c main_v165) (V c main_v167) (V c main_v170) (V c main_v173) (V c main_v176) :=
  (dat3 V c).arrAt_eq_of_cover 9 (G3_9 (V c main_v154) (V c main_v156) (V c main_v159) (V c main_v162) (V c main_v165) (V c main_v167) (V c main_v170) (V c main_v173) (V c main_v176)) (flushed3_9_eq V c) fun i =>
    ⟨t3_0, flush3_9 t3_0, by
      show i ∈ ((View.whole main_v177).slice (win3_9.rect t3_0)).set
      rw [View.set_slice_whole, Rect.mem_set_unit]
      have h := idx_facts3 t3_0
      intro a
      match a with
      | ⟨0, _⟩ =>
        show win3_9.index t3_0 (0 : Fin 2) * win3_9.size 0 ≤ (i 0 : Nat) ∧ (i 0 : Nat) < win3_9.index t3_0 (0 : Fin 2) * win3_9.size 0 + win3_9.xsize (grid3.coords t3_0) (0 : Fin 2)
        rw [h.2.2.2.2.2.2.2.2.2.2.2.2.2.2.2.2.2.2.1, h.2.2.2.2.2.2.2.2.2.2.2.2.2.2.2.2.2.2.2.2.1]
        have hi : (i 0 : Nat) < 512 := (i 0).isLt
        omega
      | ⟨1, _⟩ =>
        show win3_9.index t3_0 (1 : Fin 2) * win3_9.size 1 ≤ (i 1 : Nat) ∧ (i 1 : Nat) < win3_9.index t3_0 (1 : Fin 2) * win3_9.size 1 + win3_9.xsize (grid3.coords t3_0) (1 : Fin 2)
        rw [h.2.2.2.2.2.2.2.2.2.2.2.2.2.2.2.2.2.2.2.1, h.2.2.2.2.2.2.2.2.2.2.2.2.2.2.2.2.2.2.2.2.2]
        have hi : (i 1 : Nat) < 128 := (i 1).isLt
        omega⟩

end Cert.KernelIdeal.Hand
-- ==== Proof.Val.KOutSame.lean ====
/-
  Regions that run one body have one function: region 2's two outputs are region 0's functions of its own
  inputs, and region 3's output is region 1's.
-/
import proofs.«402460_j82824149336546_1_alg».proof.Proof.KI.Reg0Pay
import proofs.«402460_j82824149336546_1_alg».proof.Proof.KI.Reg2Pay
import proofs.«402460_j82824149336546_1_alg».proof.Proof.KI.Reg1Value
import proofs.«402460_j82824149336546_1_alg».proof.Proof.KI.Reg3Value

noncomputable section

namespace Cert.KernelIdeal.Hand

theorem G2_9_eq : @G2_9 = @G0_9 := rfl
theorem G2_10_eq : @G2_10 = @G0_10 := rfl
theorem G3_9_eq : @G3_9 = @G1_9 := rfl

end Cert.KernelIdeal.Hand
-- ==== Proof.Val.KFoldA.lean ====
import proofs.«402460_j82824149336546_1_alg».proof.Proof.KI.Run
import proofs.«402460_j82824149336546_1_alg».proof.Proof.KI.Reg2Value
import proofs.«402460_j82824149336546_1_alg».proof.Proof.Val.KFoldA0
import proofs.«402460_j82824149336546_1_alg».proof.Proof.Val.KFoldA1
import proofs.«402460_j82824149336546_1_alg».proof.Proof.Val.KFoldA2
import proofs.«402460_j82824149336546_1_alg».proof.Proof.Val.KFoldB
import proofs.«402460_j82824149336546_1_alg».proof.Proof.Val.KOut
import proofs.«402460_j82824149336546_1_alg».proof.Proof.Val.KOutSame

/-!
# The kernel's result as a function of its arguments

The buffer contents at the launch's boundaries are a fold through the program: a host stretch's, then a region's
exit, in order. The four parts of the fold (to the first layer's exit, to the first update of the virtual node, to
the third layer's exit, to the result) are each read as functions of the contents they start from; here they are
put end to end from the launch memory, and the composition is the kernel's result function of the eighteen arguments.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The boundaries are the parts' chains -/

/-- What the pipelines of the second layer, the second update and the third layer leave in their arrays. -/
abbrev left2 : (c : Dev nD) → (w : Fin cfg2.W) → Buf (Elt Ideal) ((spec2 w).arr.view.loc (c.tc : Thread nD τ)) :=
  fun c w => (dat2 (V5 m ρ) c).arrAt w cfg2.N
abbrev left3 : (c : Dev nD) → (w : Fin cfg3.W) → Buf (Elt Ideal) ((spec3 w).arr.view.loc (c.tc : Thread nD τ)) :=
  fun c w => (dat3 (V7 m ρ) c).arrAt w cfg3.N
abbrev left4 : (c : Dev nD) → (w : Fin cfg4.W) → Buf (Elt Ideal) ((spec4 w).arr.view.loc (c.tc : Thread nD τ)) :=
  fun c w => (dat4 (V9 m ρ) c).arrAt w cfg4.N

theorem chain2 (c : Dev nD) : W2 m ρ c = A2 (W0 m ρ) c := rfl
theorem chain4 (c : Dev nD) : W4 m ρ c = A4 (W2 m ρ) c := rfl
theorem chain10 (c : Dev nD) : W10 m ρ c = T10 (W4 m ρ) (left2 m ρ) (left3 m ρ) (left4 m ρ) c := rfl
theorem chain23 (c : Dev nD) : W23 m ρ c = T23 (W10 m ρ) c := rfl

/-- The closed forms of the two layers' output arrays and the indicator array left as found, of the pipelines' proof data. -/
theorem midFacts : MidFacts (W4 m ρ) (left2 m ρ) (left3 m ρ) (left4 m ρ) G2_9 G4_7 :=
  ⟨fun c => final2_9 (V5 m ρ) c,
   fun c => ((dat2 (V5 m ρ) c).arrAt_in 7 rfl _).trans (A_eq2 (V5 m ρ) c 7),
   fun c => final4_7 (V9 m ρ) c⟩

/-! ## The launch memory at an argument -/

theorem w0_arg (c : Dev nD) (r : Ref sig .tc) : W0 m ρ c (Proc.devRef .tc r) = m ((c.tc : Thread nD τ).loc r) := rfl

/-! ## At the first layer's exit -/

section AtW2
variable (c : Dev nD)

theorem w2_arg (r : Ref sig .tc) (hr : r ∈ argsA0) : W2 m ρ c (Proc.devRef .tc r) = m ((c.tc : Thread nD τ).loc r) :=
  keepA2 (W0 m ρ) c r hr
theorem w2_src : W2 m ρ c (Proc.devRef .tc main_v3) = Stage.src (m ((c.tc : Thread nD τ).loc main_arg1)) := valA2_src (W0 m ρ) c
theorem w2_dst : W2 m ρ c (Proc.devRef .tc main_v6) = Stage.dst (m ((c.tc : Thread nD τ).loc main_arg1)) := valA2_dst (W0 m ρ) c
theorem w2_nrm : W2 m ρ c (Proc.devRef .tc main_v28) = Stage.nrm (m ((c.tc : Thread nD τ).loc main_arg1)) := valA2_nrm (W0 m ρ) c
theorem w2_onehot : W2 m ρ c (Proc.devRef .tc main_v35) = Stage.onehot (m ((c.tc : Thread nD τ).loc main_arg2)) := valA2_onehot (W0 m ρ) c
theorem w2_vn : W2 m ρ c (Proc.devRef .tc main_v36) = Stage.vn0 (m ((c.tc : Thread nD τ).loc main_arg7)) := valA2_vn (W0 m ρ) c
theorem w2_rows : W2 m ρ c (Proc.devRef .tc main_v82_0) = (Stage.kH1 Stage.regionFns (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Stage.kH1; dsimp only [Stage.regionFns]
  exact valA2_rows (W0 m ρ) c
theorem w2_sums : W2 m ρ c (Proc.devRef .tc main_v82_1) = (Stage.kS1 Stage.regionFns (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Stage.kS1; dsimp only [Stage.regionFns]
  exact valA2_sums (W0 m ρ) c

end AtW2

/-! ## At the first update's exit -/

section AtW4
variable (c : Dev nD)

theorem w4_arg (k : Ref sig .tc) (hk : k ∈ argsA0) (hk' : k ∈ keptA1) : W4 m ρ c (Proc.devRef .tc k) = m ((c.tc : Thread nD τ).loc k) :=
  (keepA4 (W2 m ρ) c k hk').trans (w2_arg m ρ c k hk)
theorem w4_src : W4 m ρ c (Proc.devRef .tc main_v3) = Stage.src (m ((c.tc : Thread nD τ).loc main_arg1)) :=
  (keepA4 (W2 m ρ) c main_v3 (by simp [keptA1])).trans (w2_src m ρ c)
theorem w4_dst : W4 m ρ c (Proc.devRef .tc main_v6) = Stage.dst (m ((c.tc : Thread nD τ).loc main_arg1)) :=
  (keepA4 (W2 m ρ) c main_v6 (by simp [keptA1])).trans (w2_dst m ρ c)
theorem w4_nrm : W4 m ρ c (Proc.devRef .tc main_v28) = Stage.nrm (m ((c.tc : Thread nD τ).loc main_arg1)) :=
  (keepA4 (W2 m ρ) c main_v28 (by simp [keptA1])).trans (w2_nrm m ρ c)
theorem w4_onehot : W4 m ρ c (Proc.devRef .tc main_v35) = Stage.onehot (m ((c.tc : Thread nD τ).loc main_arg2)) :=
  (keepA4 (W2 m ρ) c main_v35 (by simp [keptA1])).trans (w2_onehot m ρ c)
theorem w4_vn : W4 m ρ c (Proc.devRef .tc main_v36) = Stage.vn0 (m ((c.tc : Thread nD τ).loc main_arg7)) :=
  (keepA4 (W2 m ρ) c main_v36 (by simp [keptA1])).trans (w2_vn m ρ c)
theorem w4_rows : W4 m ρ c (Proc.devRef .tc main_v82_0) = (Stage.kH1 Stage.regionFns (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (keepA4 (W2 m ρ) c main_v82_0 (by simp [keptA1])).trans (w2_rows m ρ c)

/-- The virtual node's update. -/
theorem w4_upd : W4 m ρ c (Proc.devRef .tc main_v106)
    = headOf1 (Stage.kS1 Stage.regionFns (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (Stage.vn0 (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (valA4 (W2 m ρ) c).trans ?_
  rw [w2_sums m ρ c, w2_vn m ρ c, w2_arg m ρ c main_arg8 (by simp [argsA0]), w2_arg m ρ c main_arg9 (by simp [argsA0]), w2_arg m ρ c main_arg10 (by simp [argsA0]), w2_arg m ρ c main_arg11 (by simp [argsA0]), w2_arg m ρ c main_arg12 (by simp [argsA0]), w2_arg m ρ c main_arg13 (by simp [argsA0]), w2_arg m ρ c main_arg14 (by simp [argsA0]), w2_arg m ρ c main_arg15 (by simp [argsA0])]

end AtW4

/-! ## At the third layer's exit -/

section AtW10
variable (c : Dev nD)

theorem w10_src : W10 m ρ c (Proc.devRef .tc main_v3) = Stage.src (m ((c.tc : Thread nD τ).loc main_arg1)) :=
  (midKept10 (W4 m ρ) (left2 m ρ) (left3 m ρ) (left4 m ρ) G2_9 G4_7 (midFacts m ρ) c main_v3 (by simp [midKeep])).trans (w4_src m ρ c)
theorem w10_dst : W10 m ρ c (Proc.devRef .tc main_v6) = Stage.dst (m ((c.tc : Thread nD τ).loc main_arg1)) :=
  (midKept10 (W4 m ρ) (left2 m ρ) (left3 m ρ) (left4 m ρ) G2_9 G4_7 (midFacts m ρ) c main_v6 (by simp [midKeep])).trans (w4_dst m ρ c)
theorem w10_nrm : W10 m ρ c (Proc.devRef .tc main_v28) = Stage.nrm (m ((c.tc : Thread nD τ).loc main_arg1)) :=
  (midKept10 (W4 m ρ) (left2 m ρ) (left3 m ρ) (left4 m ρ) G2_9 G4_7 (midFacts m ρ) c main_v28 (by simp [midKeep])).trans (w4_nrm m ρ c)
theorem w10_onehot : W10 m ρ c (Proc.devRef .tc main_v35) = Stage.onehot (m ((c.tc : Thread nD τ).loc main_arg2)) :=
  (midKept10 (W4 m ρ) (left2 m ρ) (left3 m ρ) (left4 m ρ) G2_9 G4_7 (midFacts m ρ) c main_v35 (by simp [midKeep])).trans (w4_onehot m ρ c)
theorem w10_arg2 : W10 m ρ c (Proc.devRef .tc main_arg2) = (m ((c.tc : Thread nD τ).loc main_arg2)) :=
  (midKept10 (W4 m ρ) (left2 m ρ) (left3 m ρ) (left4 m ρ) G2_9 G4_7 (midFacts m ρ) c main_arg2 (by simp [midKeep])).trans (w4_arg m ρ c main_arg2 (by simp [argsA0]) (by simp [keptA1]))
theorem w10_arg16 : W10 m ρ c (Proc.devRef .tc main_arg16) = (m ((c.tc : Thread nD τ).loc main_arg16)) :=
  (midKept10 (W4 m ρ) (left2 m ρ) (left3 m ρ) (left4 m ρ) G2_9 G4_7 (midFacts m ρ) c main_arg16 (by simp [midKeep])).trans (w4_arg m ρ c main_arg16 (by simp [argsA0]) (by simp [keptA1]))
theorem w10_arg17 : W10 m ρ c (Proc.devRef .tc main_arg17) = (m ((c.tc : Thread nD τ).loc main_arg17)) :=
  (midKept10 (W4 m ρ) (left2 m ρ) (left3 m ρ) (left4 m ρ) G2_9 G4_7 (midFacts m ρ) c main_arg17 (by simp [midKeep])).trans (w4_arg m ρ c main_arg17 (by simp [argsA0]) (by simp [keptA1]))

/-- The third layer's node rows. -/
theorem w10_rows : W10 m ρ c (Proc.devRef .tc main_v224) = (Stage.kH3 Stage.regionFns (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine (midVal10 (W4 m ρ) (left2 m ρ) (left3 m ρ) (left4 m ρ) G2_9 G4_7 (midFacts m ρ) c).trans ?_
  unfold gcn2Out gcn2Lin gcn2In gcn1Out gcn1Lin gcn1In
  rw [w4_src m ρ c, w4_dst m ρ c, w4_nrm m ρ c, w4_rows m ρ c, w4_onehot m ρ c, w4_vn m ρ c, w4_upd m ρ c,
    w4_arg m ρ c main_arg3 (by simp [argsA0]) (by simp [keptA1]),
    w4_arg m ρ c main_arg4 (by simp [argsA0]) (by simp [keptA1]),
    w4_arg m ρ c main_arg5 (by simp [argsA0]) (by simp [keptA1]),
    w4_arg m ρ c main_arg6 (by simp [argsA0]) (by simp [keptA1])]
  unfold Stage.kH3 Stage.kH2 Stage.kVn1 headOf1
  dsimp only [Stage.regionFns]
  rw [G2_9_eq]
  rfl

end AtW10

/-! ## The result -/

/-- THE KERNEL'S RESULT: what the launch leaves in the result buffer is the kernel's result function of the
    eighteen arguments as launched. -/
theorem kernel_value (c : Dev nD) : W23 m ρ c (Proc.devRef .tc main_v306)
    = Stage.kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (tail_value_of (W10 m ρ) c (Stage.src (m ((c.tc : Thread nD τ).loc main_arg1))) (Stage.dst (m ((c.tc : Thread nD τ).loc main_arg1))) (Stage.nrm (m ((c.tc : Thread nD τ).loc main_arg1)))
    (Stage.kH3 Stage.regionFns (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    (Stage.onehot (m ((c.tc : Thread nD τ).loc main_arg2))) (m ((c.tc : Thread nD τ).loc main_arg2)) (m ((c.tc : Thread nD τ).loc main_arg16)) (m ((c.tc : Thread nD τ).loc main_arg17))
    (w10_src m ρ c) (w10_dst m ρ c) (w10_nrm m ρ c) (w10_rows m ρ c) (w10_onehot m ρ c) (w10_arg2 m ρ c) (w10_arg16 m ρ c) (w10_arg17 m ρ c)).trans ?_
  unfold tailOf tailMix5 tailMix4 tailMix3 tailMix2 tailMix1 Stage.kernelOut Stage.kernelOutG Stage.kSteps
  dsimp only [Stage.regionFns]
  rfl

end Cert.KernelIdeal.Hand

end
-- ==== Proof.Val.RStages.lean ====
import proofs.«402460_j82824149336546_1_alg».proof.ReferenceIdeal
import Idealize.ShloMosaic.PureOps.Ideal

/-!
# The reference's stages as pure functions (at the ideal instance)

Each definition below names the pure function one stage of the reference computes, built from
the operation functions of the reference's statements, in the statements' order. Statement
numbers are the program's value numbers; a constant is counted with the stage that reads it.
Abbreviation: `T s e` is the contents of an array of shape `s` and element type `e`.

## Interface (name : type — statements)

Edge lists and the normalisation
* `src  (ei : T S2x600000 .i32) : T S650000 .i32`                                   — %0-%3
* `dst  (ei : T S2x600000 .i32) : T S650000 .i32`                                   — %0, %4-%6
* `nrmOf (s d : T S650000 .i32) : T S650000 .f32`                                   — %7-%28  (s = %3, d = %6)
* `nrm  (ei : T S2x600000 .i32) : T S650000 .f32`  := nrmOf (src ei) (dst ei)        — %0-%28
* `vn0  (vnEmb : T S128 .f32) : T S512x128 .f32`                                    — %29
* `propOf (s d : T S650000 .i32) (w : T S650000 .f32) (h : T S50000x128 .f32) : T S50000x128 .f32` — %30-%42  (s = %3, d = %6, w = %28)
* `prop (ei : T S2x600000 .i32) (h : T S50000x128 .f32) : T S50000x128 .f32`  := propOf (src ei) (dst ei) (nrm ei) h
    (again at %170-%182, %310-%322, %360-%372, %378-%390, %396-%408, %414-%426, %432-%444)

Rows of the stacked parameters (slice, then reshape)
* `wAt0 wAt1 wAt2 (W : T S3x128x128 .f32) : T S128x128 .f32`                        — %43-%44, %183-%184, %323-%324
* `rowAt0 rowAt1 rowAt2 (b : T S3x128 .f32) : T S128 .f32`                          — %46-%47 / %51-%52 / %53-%54, %186-%187 / %191-%194, %326-%327 / %331-%334
* `w1At1 w1At0 (W1 : T S2x128x256 .f32) : T S128x256 .f32`                          — %93-%94, %233-%234
* `row256At1 row256At0 (b1 : T S2x256 .f32) : T S256 .f32`                          — %96-%97 / %101-%104, %236-%237 / %241-%244
* `w2At1 w2At0 (W2 : T S2x256x128 .f32) : T S256x128 .f32`                          — %131-%132, %271-%272
* `row128At1 row128At0 (b2 : T S2x128 .f32) : T S128 .f32`                          — %134-%135 / %139-%142, %274-%275 / %279-%282

A convolution layer on the 50000 nodes
* `lin50k  (hp : T S50000x128 .f32) (w : T S128x128 .f32) (b : T S128 .f32) : T S50000x128 .f32`   — %45, %48-%50
* `bn50k   (h : T S50000x128 .f32) (g bt : T S128 .f32) : T S50000x128 .f32`                       — %55-%79
* `relu50k (h : T S50000x128 .f32) : T S50000x128 .f32`                                            — %80
* `convH0 (hp) (W : T S3x128x128 .f32) (b gamma beta : T S3x128 .f32) : T S50000x128 .f32`         — %43-%80
* `convH1 (hp) (W) (b gamma beta) : T S50000x128 .f32`                                             — %183-%220
* `convF  (hp) (W) (b gamma beta) : T S50000x128 .f32`  (row 2, no relu)                           — %323-%359

The virtual node
* `addVn (hb : T S50000x128 .f32) (vn : T S512x128 .f32) (batch : T S50000 .i32) : T S50000x128 .f32` — %81-%88  (again %221-%228)
* `vtOf  (h' : T S50000x128 .f32) (vn : T S512x128 .f32) (batch : T S50000 .i32) : T S512x128 .f32`   — %89-%92  (again %229-%232)
* `linA (vt : T S512x128 .f32) (w : T S128x256 .f32) (b : T S256 .f32) : T S512x256 .f32`             — %95, %98-%100
* `bnA  (t : T S512x256 .f32) (g bt : T S256 .f32) : T S512x256 .f32`                                 — %105-%129
* `reluA (t : T S512x256 .f32) : T S512x256 .f32`                                                     — %130
* `linB (t : T S512x256 .f32) (w : T S256x128 .f32) (b : T S128 .f32) : T S512x128 .f32`              — %133, %136-%138
* `bnB  (t : T S512x128 .f32) (g bt : T S128 .f32) : T S512x128 .f32`                                 — %143-%167
* `reluB (t : T S512x128 .f32) : T S512x128 .f32`                                                     — %168
* `mlp1 (vt) (W1 : T S2x128x256 .f32) (b1 g1 bt1 : T S2x256 .f32) (W2 : T S2x256x128 .f32) (b2 g2 bt2 : T S2x128 .f32) : T S512x128 .f32` — %93-%168 (row 1)
* `mlp0 (vt) (W1) (b1 g1 bt1) (W2) (b2 g2 bt2) : T S512x128 .f32`                                     — %233-%308 (row 0)
* `vnNext (vn t : T S512x128 .f32) : T S512x128 .f32`                                                 — %169  (again %309)

Propagation steps, pooling, head
* `mix   (p h0 : T S50000x128 .f32) : T S50000x128 .f32`                             — %373-%377  (again %391-%395, %409-%413, %427-%431, %445-%449)
* `appnp (ei) (h h0 : T S50000x128 .f32) : T S50000x128 .f32`  := mix (prop ei h) h0  — %360-%377  (again %378-%395, %396-%413, %414-%431, %432-%449)
* `pool  (h : T S50000x128 .f32) (batch : T S50000 .i32) : T S512x128 .f32`          — %450-%461
* `head  (pooled : T S512x128 .f32) (Wout : T S128x128 .f32) (bout : T S128 .f32) : T S512x128 .f32` — %462-%465

The whole
* `refOutS (x) (ei) (batch) (W) (b) (gamma) (beta) (vnEmb) (W1) (b1) (g1) (bt1) (W2) (b2) (g2) (bt2) (Wout) (bout) : T S512x128 .f32`
    (the 18 arguments in the program's order %arg0 … %arg17)
  with the named intermediate values
    vnA := vn0 vnEmb                                             (%29)
    h1  := addVn (convH0 (prop ei x) W b gamma beta) vnA batch   (%88)
    vnB := vnNext vnA (mlp1 (vtOf h1 vnA batch) W1 … bt2)        (%169)
    h2  := addVn (convH1 (prop ei h1) W b gamma beta) vnB batch  (%228)
    (vnC := vnNext vnB (mlp0 (vtOf h2 vnB batch) W1 … bt2), %309, is computed by the program and read by nothing)
    h3  := convF (prop ei h2) W b gamma beta                     (%359)
    a1 … a5 := appnp ei a_(k-1) h3, a0 = h3                      (%377, %395, %413, %431, %449)
    refOutS = head (pool a5 batch) Wout bout                     (%465)
-/

set_option maxRecDepth 16384

noncomputable section

namespace Cert.ReferenceIdeal.Stage

open Idealize.ShloMosaic Idealize.SL.Sem
open Cert.ReferenceIdeal Cert.ReferenceIdeal.Facts₀ Cert.ReferenceIdeal.Facts

variable [Cert.ReferenceIdeal.Facts]

/-- The contents of an array of shape s and element type e, at the ideal instance. -/
abbrev T (s : Shape) (e : EltTy) : Type := (⟨s, e⟩ : BufTy).Contents (Elt Ideal)

/-! ## Edge lists and the normalisation -/

/-- The source ends of the edges followed by one self-loop per node (%0-%3). -/
def src (ei : T S2x600000 .i32) : T S650000 .i32 :=
  let v0 := ((iotaInDim S50000 32 0) : (⟨S50000, .i32⟩ : BufTy).Contents (Elt Ideal))
  let v1 := ((extractStridedSlice S1x600000 ![0, 0] · slices_S2x600000_S1x600000_0_0) : (⟨S2x600000, .i32⟩ : BufTy).Contents (Elt Ideal) → (⟨S1x600000, .i32⟩ : BufTy).Contents (Elt Ideal)) ei
  let v2 := ((fun v i => shapeCast S600000 v shapeCasts_S1x600000_S600000 i) : (⟨S1x600000, .i32⟩ : BufTy).Contents (Elt Ideal) → (⟨S600000, .i32⟩ : BufTy).Contents (Elt Ideal)) v1
  let v3 := ((fun a b => concatenate S650000 0 [⟨S600000, a⟩, ⟨S50000, b⟩] concatenates_S600000_S50000_S650000_d0) : (⟨S600000, .i32⟩ : BufTy).Contents (Elt Ideal) → (⟨S50000, .i32⟩ : BufTy).Contents (Elt Ideal) → (⟨S650000, .i32⟩ : BufTy).Contents (Elt Ideal)) v2 v0
  v3

/-- The destination ends of the edges followed by one self-loop per node (%0, %4-%6). -/
def dst (ei : T S2x600000 .i32) : T S650000 .i32 :=
  let v0 := ((iotaInDim S50000 32 0) : (⟨S50000, .i32⟩ : BufTy).Contents (Elt Ideal))
  let v4 := ((extractStridedSlice S1x600000 ![1, 0] · slices_S2x600000_S1x600000_1_0) : (⟨S2x600000, .i32⟩ : BufTy).Contents (Elt Ideal) → (⟨S1x600000, .i32⟩ : BufTy).Contents (Elt Ideal)) ei
  let v5 := ((fun v i => shapeCast S600000 v shapeCasts_S1x600000_S600000 i) : (⟨S1x600000, .i32⟩ : BufTy).Contents (Elt Ideal) → (⟨S600000, .i32⟩ : BufTy).Contents (Elt Ideal)) v4
  let v6 := ((fun a b => concatenate S650000 0 [⟨S600000, a⟩, ⟨S50000, b⟩] concatenates_S600000_S50000_S650000_d0) : (⟨S600000, .i32⟩ : BufTy).Contents (Elt Ideal) → (⟨S50000, .i32⟩ : BufTy).Contents (Elt Ideal) → (⟨S650000, .i32⟩ : BufTy).Contents (Elt Ideal)) v5 v0
  v6

/-- The symmetric normalisation of each edge from the two end lists: the in-degrees by a scatter of ones over the destinations, bounded below by one, their inverse square roots, gathered at both ends and multiplied (%7-%28). -/
def nrmOf (s : T S650000 .i32) (d : T S650000 .i32) : T S650000 .f32 :=
  let cst := ((constant (F := Ideal) S_ .f32 0x3F800000#32) : (⟨S_, .f32⟩ : BufTy).Contents (Elt Ideal))
  let v7 := (broadcastInDim S650000 ![] bcast_S_S650000 : (⟨S_, .f32⟩ : BufTy).Contents (Elt Ideal) → (⟨S650000, .f32⟩ : BufTy).Contents (Elt Ideal)) cst
  let cst_0 := ((constant (F := Ideal) S_ .f32 0x00000000#32) : (⟨S_, .f32⟩ : BufTy).Contents (Elt Ideal))
  let v8 := (broadcastInDim S50000 ![] bcast_S_S50000 : (⟨S_, .f32⟩ : BufTy).Contents (Elt Ideal) → (⟨S50000, .f32⟩ : BufTy).Contents (Elt Ideal)) cst_0
  let v9 := (broadcastInDim S650000x1 ![0] bcast_S650000_S650000x1_0 : (⟨S650000, .i32⟩ : BufTy).Contents (Elt Ideal) → (⟨S650000x1, .i32⟩ : BufTy).Contents (Elt Ideal)) d
  let v10 := ((fun x i u => Host.scatterAdd (F := Ideal) (φ := .f32) scatter_S50000_S650000x1_S650000_n_0_0_1 x i u) : (⟨S50000, .f32⟩ : BufTy).Contents (Elt Ideal) → (⟨S650000x1, .i32⟩ : BufTy).Contents (Elt Ideal) → (⟨S650000, .f32⟩ : BufTy).Contents (Elt Ideal) → (⟨S50000, .f32⟩ : BufTy).Contents (Elt Ideal)) v8 v9 v7
  let cst_1 := ((constant (F := Ideal) S_ .f32 0x3F800000#32) : (⟨S_, .f32⟩ : BufTy).Contents (Elt Ideal))
  let v11 := (broadcastInDim S50000 ![] bcast_S_S50000 : (⟨S_, .f32⟩ : BufTy).Contents (Elt Ideal) → (⟨S50000, .f32⟩ : BufTy).Contents (Elt Ideal)) cst_1
  let v12 := (maximumf (F := Ideal) (φ := .f32) : (⟨S50000, .f32⟩ : BufTy).Contents (Elt Ideal) → (⟨S50000, .f32⟩ : BufTy).Contents (Elt Ideal) → (⟨S50000, .f32⟩ : BufTy).Contents (Elt Ideal)) v10 v11
  let v13 := (Host.rsqrt (F := Ideal) (φ := .f32) : (⟨S50000, .f32⟩ : BufTy).Contents (Elt Ideal) → (⟨S50000, .f32⟩ : BufTy).Contents (Elt Ideal)) v12
  let c := ((constantI S_ 32 0#32) : (⟨S_, .i32⟩ : BufTy).Contents (Elt Ideal))
  let v14 := (broadcastInDim S650000 ![] bcast_S_S650000 : (⟨S_, .i32⟩ : BufTy).Contents (Elt Ideal) → (⟨S650000, .i32⟩ : BufTy).Contents (Elt Ideal)) c
  let v15 := (cmpi .slt : (⟨S650000, .i32⟩ : BufTy).Contents (Elt Ideal) → (⟨S650000, .i32⟩ : BufTy).Contents (Elt Ideal) → (⟨S650000, .i1⟩ : BufTy).Contents (Elt Ideal)) s v14
  let c_2 := ((constantI S_ 32 50000#32) : (⟨S_, .i32⟩ : BufTy).Contents (Elt Ideal))
  let v16 := (broadcastInDim S650000 ![] bcast_S_S650000 : (⟨S_, .i32⟩ : BufTy).Contents (Elt Ideal) → (⟨S650000, .i32⟩ : BufTy).Contents (Elt Ideal)) c_2
  let v17 := (addi : (⟨S650000, .i32⟩ : BufTy).Contents (Elt Ideal) → (⟨S650000, .i32⟩ : BufTy).Contents (Elt Ideal) → (⟨S650000, .i32⟩ : BufTy).Contents (Elt Ideal)) s v16
  let v18 := (select : (⟨S650000, .i1⟩ : BufTy).Contents (Elt Ideal) → (⟨S650000, .i32⟩ : BufTy).Contents (Elt Ideal) → (⟨S650000, .i32⟩ : BufTy).Contents (Elt Ideal) → (⟨S650000, .i32⟩ : BufTy).Contents (Elt Ideal)) v15 v17 s
  let v19 := (broadcastInDim S650000x1 ![0] bcast_S650000_S650000x1_0 : (⟨S650000, .i32⟩ : BufTy).Contents (Elt Ideal) → (⟨S650000x1, .i32⟩ : BufTy).Contents (Elt Ideal)) v18
  let v20 := ((fun x i => Host.gather gather_S50000_S650000x1_S650000_n_0_n_n_0_1_1 x i) : (⟨S50000, .f32⟩ : BufTy).Contents (Elt Ideal) → (⟨S650000x1, .i32⟩ : BufTy).Contents (Elt Ideal) → (⟨S650000, .f32⟩ : BufTy).Contents (Elt Ideal)) v13 v19
  let c_3 := ((constantI S_ 32 0#32) : (⟨S_, .i32⟩ : BufTy).Contents (Elt Ideal))
  let v21 := (broadcastInDim S650000 ![] bcast_S_S650000 : (⟨S_, .i32⟩ : BufTy).Contents (Elt Ideal) → (⟨S650000, .i32⟩ : BufTy).Contents (Elt Ideal)) c_3
  let v22 := (cmpi .slt : (⟨S650000, .i32⟩ : BufTy).Contents (Elt Ideal) → (⟨S650000, .i32⟩ : BufTy).Contents (Elt Ideal) → (⟨S650000, .i1⟩ : BufTy).Contents (Elt Ideal)) d v21
  let c_4 := ((constantI S_ 32 50000#32) : (⟨S_, .i32⟩ : BufTy).Contents (Elt Ideal))
  let v23 := (broadcastInDim S650000 ![] bcast_S_S650000 : (⟨S_, .i32⟩ : BufTy).Contents (Elt Ideal) → (⟨S650000, .i32⟩ : BufTy).Contents (Elt Ideal)) c_4
  let v24 := (addi : (⟨S650000, .i32⟩ : BufTy).Contents (Elt Ideal) → (⟨S650000, .i32⟩ : BufTy).Contents (Elt Ideal) → (⟨S650000, .i32⟩ : BufTy).Contents (Elt Ideal)) d v23
  let v25 := (select : (⟨S650000, .i1⟩ : BufTy).Contents (Elt Ideal) → (⟨S650000, .i32⟩ : BufTy).Contents (Elt Ideal) → (⟨S650000, .i32⟩ : BufTy).Contents (Elt Ideal) → (⟨S650000, .i32⟩ : BufTy).Contents (Elt Ideal)) v22 v24 d
  let v26 := (broadcastInDim S650000x1 ![0] bcast_S650000_S650000x1_0 : (⟨S650000, .i32⟩ : BufTy).Contents (Elt Ideal) → (⟨S650000x1, .i32⟩ : BufTy).Contents (Elt Ideal)) v25
  let v27 := ((fun x i => Host.gather gather_S50000_S650000x1_S650000_n_0_n_n_0_1_1 x i) : (⟨S50000, .f32⟩ : BufTy).Contents (Elt Ideal) → (⟨S650000x1, .i32⟩ : BufTy).Contents (Elt Ideal) → (⟨S650000, .f32⟩ : BufTy).Contents (Elt Ideal)) v13 v26
  let v28 := (mulf (F := Ideal) (φ := .f32) : (⟨S650000, .f32⟩ : BufTy).Contents (Elt Ideal) → (⟨S650000, .f32⟩ : BufTy).Contents (Elt Ideal) → (⟨S650000, .f32⟩ : BufTy).Contents (Elt Ideal)) v20 v27
  v28

/-- The normalisation of the edge list (%0-%28). -/
def nrm (ei : T S2x600000 .i32) : T S650000 .f32 :=
  nrmOf (src ei) (dst ei)

/-- The virtual node's embedding repeated for each of the 512 graphs (%29). -/
def vn0 (vnEmb : T S128 .f32) : T S512x128 .f32 :=
  let v29 := (broadcastInDim S512x128 ![1] bcast_S128_S512x128_1 : (⟨S128, .f32⟩ : BufTy).Contents (Elt Ideal) → (⟨S512x128, .f32⟩ : BufTy).Contents (Elt Ideal)) vnEmb
  v29

/-- One propagation from the end lists and the weights: gather the rows at the sources, weight them, scatter-add them at the destinations (%30-%42). -/
def propOf (s : T S650000 .i32) (d : T S650000 .i32) (w : T S650000 .f32) (h : T S50000x128 .f32) : T S50000x128 .f32 :=
  let v30 := (broadcastInDim S650000x1 ![0] bcast_S650000_S650000x1_0 : (⟨S650000, .f32⟩ : BufTy).Contents (Elt Ideal) → (⟨S650000x1, .f32⟩ : BufTy).Contents (Elt Ideal)) w
  let c_5 := ((constantI S_ 32 0#32) : (⟨S_, .i32⟩ : BufTy).Contents (Elt Ideal))
  let v31 := (broadcastInDim S650000 ![] bcast_S_S650000 : (⟨S_, .i32⟩ : BufTy).Contents (Elt Ideal) → (⟨S650000, .i32⟩ : BufTy).Contents (Elt Ideal)) c_5
  let v32 := (cmpi .slt : (⟨S650000, .i32⟩ : BufTy).Contents (Elt Ideal) → (⟨S650000, .i32⟩ : BufTy).Contents (Elt Ideal) → (⟨S650000, .i1⟩ : BufTy).Contents (Elt Ideal)) s v31
  let c_6 := ((constantI S_ 32 50000#32) : (⟨S_, .i32⟩ : BufTy).Contents (Elt Ideal))
  let v33 := (broadcastInDim S650000 ![] bcast_S_S650000 : (⟨S_, .i32⟩ : BufTy).Contents (Elt Ideal) → (⟨S650000, .i32⟩ : BufTy).Contents (Elt Ideal)) c_6
  let v34 := (addi : (⟨S650000, .i32⟩ : BufTy).Contents (Elt Ideal) → (⟨S650000, .i32⟩ : BufTy).Contents (Elt Ideal) → (⟨S650000, .i32⟩ : BufTy).Contents (Elt Ideal)) s v33
  let v35 := (select : (⟨S650000, .i1⟩ : BufTy).Contents (Elt Ideal) → (⟨S650000, .i32⟩ : BufTy).Contents (Elt Ideal) → (⟨S650000, .i32⟩ : BufTy).Contents (Elt Ideal) → (⟨S650000, .i32⟩ : BufTy).Contents (Elt Ideal)) v32 v34 s
  let v36 := (broadcastInDim S650000x1 ![0] bcast_S650000_S650000x1_0 : (⟨S650000, .i32⟩ : BufTy).Contents (Elt Ideal) → (⟨S650000x1, .i32⟩ : BufTy).Contents (Elt Ideal)) v35
  let v37 := ((fun x i => Host.gather gather_S50000x128_S650000x1_S650000x128_1_0_n_n_0_1_1128 x i) : (⟨S50000x128, .f32⟩ : BufTy).Contents (Elt Ideal) → (⟨S650000x1, .i32⟩ : BufTy).Contents (Elt Ideal) → (⟨S650000x128, .f32⟩ : BufTy).Contents (Elt Ideal)) h v36
  let v38 := (broadcastInDim S650000x128 ![0, 1] bcast_S650000x1_S650000x128_0_1 : (⟨S650000x1, .f32⟩ : BufTy).Contents (Elt Ideal) → (⟨S650000x128, .f32⟩ : BufTy).Contents (Elt Ideal)) v30
  let v39 := (mulf (F := Ideal) (φ := .f32) : (⟨S650000x128, .f32⟩ : BufTy).Contents (Elt Ideal) → (⟨S650000x128, .f32⟩ : BufTy).Contents (Elt Ideal) → (⟨S650000x128, .f32⟩ : BufTy).Contents (Elt Ideal)) v38 v37
  let cst_7 := ((constant (F := Ideal) S_ .f32 0x00000000#32) : (⟨S_, .f32⟩ : BufTy).Contents (Elt Ideal))
  let v40 := (broadcastInDim S50000x128 ![] bcast_S_S50000x128 : (⟨S_, .f32⟩ : BufTy).Contents (Elt Ideal) → (⟨S50000x128, .f32⟩ : BufTy).Contents (Elt Ideal)) cst_7
  let v41 := (broadcastInDim S650000x1 ![0] bcast_S650000_S650000x1_0 : (⟨S650000, .i32⟩ : BufTy).Contents (Elt Ideal) → (⟨S650000x1, .i32⟩ : BufTy).Contents (Elt Ideal)) d
  let v42 := ((fun x i u => Host.scatterAdd (F := Ideal) (φ := .f32) scatter_S50000x128_S650000x1_S650000x128_1_0_0_1 x i u) : (⟨S50000x128, .f32⟩ : BufTy).Contents (Elt Ideal) → (⟨S650000x1, .i32⟩ : BufTy).Contents (Elt Ideal) → (⟨S650000x128, .f32⟩ : BufTy).Contents (Elt Ideal) → (⟨S50000x128, .f32⟩ : BufTy).Contents (Elt Ideal)) v40 v41 v39
  v42

/-- One propagation over the edge list. -/
def prop (ei : T S2x600000 .i32) (h : T S50000x128 .f32) : T S50000x128 .f32 :=
  propOf (src ei) (dst ei) (nrm ei) h

/-! ## Rows of the stacked parameters (a slice, then a reshape) -/

/-- Matrix 0 of the three convolution weights. -/
def wAt0 (W : T S3x128x128 .f32) : T S128x128 .f32 :=
  let v43 := ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) W
  let v44 := ((fun v i => shapeCast S128x128 v shapeCasts_S1x128x128_S128x128 i) : (⟨S1x128x128, .f32⟩ : BufTy).Contents (Elt Ideal) → (⟨S128x128, .f32⟩ : BufTy).Contents (Elt Ideal)) v43
  v44

/-- Matrix 1 of the three convolution weights. -/
def wAt1 (W : T S3x128x128 .f32) : T S128x128 .f32 :=
  let v183 := ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) W
  let v184 := ((fun v i => shapeCast S128x128 v shapeCasts_S1x128x128_S128x128 i) : (⟨S1x128x128, .f32⟩ : BufTy).Contents (Elt Ideal) → (⟨S128x128, .f32⟩ : BufTy).Contents (Elt Ideal)) v183
  v184

/-- Matrix 2 of the three convolution weights. -/
def wAt2 (W : T S3x128x128 .f32) : T S128x128 .f32 :=
  let v323 := ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) W
  let v324 := ((fun v i => shapeCast S128x128 v shapeCasts_S1x128x128_S128x128 i) : (⟨S1x128x128, .f32⟩ : BufTy).Contents (Elt Ideal) → (⟨S128x128, .f32⟩ : BufTy).Contents (Elt Ideal)) v323
  v324

/-- Row 0 of a 3x128 parameter. -/
def rowAt0 (b : T S3x128 .f32) : T S128 .f32 :=
  let v46 := ((extractStridedSlice S1x128 ![0, 0] · slices_S3x128_S1x128_0_0) : (⟨S3x128, .f32⟩ : BufTy).Contents (Elt Ideal) → (⟨S1x128, .f32⟩ : BufTy).Contents (Elt Ideal)) b
  let v47 := ((fun v i => shapeCast S128 v shapeCasts_S1x128_S128 i) : (⟨S1x128, .f32⟩ : BufTy).Contents (Elt Ideal) → (⟨S128, .f32⟩ : BufTy).Contents (Elt Ideal)) v46
  v47

/-- Row 1 of a 3x128 parameter. -/
def rowAt1 (b : T S3x128 .f32) : T S128 .f32 :=
  let v186 := ((extractStridedSlice S1x128 ![1, 0] · slices_S3x128_S1x128_1_0) : (⟨S3x128, .f32⟩ : BufTy).Contents (Elt Ideal) → (⟨S1x128, .f32⟩ : BufTy).Contents (Elt Ideal)) b
  let v187 := ((fun v i => shapeCast S128 v shapeCasts_S1x128_S128 i) : (⟨S1x128, .f32⟩ : BufTy).Contents (Elt Ideal) → (⟨S128, .f32⟩ : BufTy).Contents (Elt Ideal)) v186
  v187

/-- Row 2 of a 3x128 parameter. -/
def rowAt2 (b : T S3x128 .f32) : T S128 .f32 :=
  let v326 := ((extractStridedSlice S1x128 ![2, 0] · slices_S3x128_S1x128_2_0) : (⟨S3x128, .f32⟩ : BufTy).Contents (Elt Ideal) → (⟨S1x128, .f32⟩ : BufTy).Contents (Elt Ideal)) b
  let v327 := ((fun v i => shapeCast S128 v shapeCasts_S1x128_S128 i) : (⟨S1x128, .f32⟩ : BufTy).Contents (Elt Ideal) → (⟨S128, .f32⟩ : BufTy).Contents (Elt Ideal)) v326
  v327

/-- Matrix 1 of the first dense weights. -/
def w1At1 (W1 : T S2x128x256 .f32) : T S128x256 .f32 :=
  let v93 := ((extractStridedSlice S1x128x256 ![1, 0, 0] · slices_S2x128x256_S1x128x256_1_0_0) : (⟨S2x128x256, .f32⟩ : BufTy).Contents (Elt Ideal) → (⟨S1x128x256, .f32⟩ : BufTy).Contents (Elt Ideal)) W1
  let v94 := ((fun v i => shapeCast S128x256 v shapeCasts_S1x128x256_S128x256 i) : (⟨S1x128x256, .f32⟩ : BufTy).Contents (Elt Ideal) → (⟨S128x256, .f32⟩ : BufTy).Contents (Elt Ideal)) v93
  v94

/-- Matrix 0 of the first dense weights. -/
def w1At0 (W1 : T S2x128x256 .f32) : T S128x256 .f32 :=
  let v233 := ((extractStridedSlice S1x128x256 ![0, 0, 0] · slices_S2x128x256_S1x128x256_0_0_0) : (⟨S2x128x256, .f32⟩ : BufTy).Contents (Elt Ideal) → (⟨S1x128x256, .f32⟩ : BufTy).Contents (Elt Ideal)) W1
  let v234 := ((fun v i => shapeCast S128x256 v shapeCasts_S1x128x256_S128x256 i) : (⟨S1x128x256, .f32⟩ : BufTy).Contents (Elt Ideal) → (⟨S128x256, .f32⟩ : BufTy).Contents (Elt Ideal)) v233
  v234

/-- Row 1 of a 2x256 parameter. -/
def row256At1 (b : T S2x256 .f32) : T S256 .f32 :=
  let v96 := ((extractStridedSlice S1x256 ![1, 0] · slices_S2x256_S1x256_1_0) : (⟨S2x256, .f32⟩ : BufTy).Contents (Elt Ideal) → (⟨S1x256, .f32⟩ : BufTy).Contents (Elt Ideal)) b
  let v97 := ((fun v i => shapeCast S256 v shapeCasts_S1x256_S256 i) : (⟨S1x256, .f32⟩ : BufTy).Contents (Elt Ideal) → (⟨S256, .f32⟩ : BufTy).Contents (Elt Ideal)) v96
  v97

/-- Row 0 of a 2x256 parameter. -/
def row256At0 (b : T S2x256 .f32) : T S256 .f32 :=
  let v236 := ((extractStridedSlice S1x256 ![0, 0] · slices_S2x256_S1x256_0_0) : (⟨S2x256, .f32⟩ : BufTy).Contents (Elt Ideal) → (⟨S1x256, .f32⟩ : BufTy).Contents (Elt Ideal)) b
  let v237 := ((fun v i => shapeCast S256 v shapeCasts_S1x256_S256 i) : (⟨S1x256, .f32⟩ : BufTy).Contents (Elt Ideal) → (⟨S256, .f32⟩ : BufTy).Contents (Elt Ideal)) v236
  v237

/-- Matrix 1 of the second dense weights. -/
def w2At1 (W2 : T S2x256x128 .f32) : T S256x128 .f32 :=
  let v131 := ((extractStridedSlice S1x256x128 ![1, 0, 0] · slices_S2x256x128_S1x256x128_1_0_0) : (⟨S2x256x128, .f32⟩ : BufTy).Contents (Elt Ideal) → (⟨S1x256x128, .f32⟩ : BufTy).Contents (Elt Ideal)) W2
  let v132 := ((fun v i => shapeCast S256x128 v shapeCasts_S1x256x128_S256x128 i) : (⟨S1x256x128, .f32⟩ : BufTy).Contents (Elt Ideal) → (⟨S256x128, .f32⟩ : BufTy).Contents (Elt Ideal)) v131
  v132

/-- Matrix 0 of the second dense weights. -/
def w2At0 (W2 : T S2x256x128 .f32) : T S256x128 .f32 :=
  let v271 := ((extractStridedSlice S1x256x128 ![0, 0, 0] · slices_S2x256x128_S1x256x128_0_0_0) : (⟨S2x256x128, .f32⟩ : BufTy).Contents (Elt Ideal) → (⟨S1x256x128, .f32⟩ : BufTy).Contents (Elt Ideal)) W2
  let v272 := ((fun v i => shapeCast S256x128 v shapeCasts_S1x256x128_S256x128 i) : (⟨S1x256x128, .f32⟩ : BufTy).Contents (Elt Ideal) → (⟨S256x128, .f32⟩ : BufTy).Contents (Elt Ideal)) v271
  v272

/-- Row 1 of a 2x128 parameter. -/
def row128At1 (b : T S2x128 .f32) : T S128 .f32 :=
  let v134 := ((extractStridedSlice S1x128 ![1, 0] · slices_S2x128_S1x128_1_0) : (⟨S2x128, .f32⟩ : BufTy).Contents (Elt Ideal) → (⟨S1x128, .f32⟩ : BufTy).Contents (Elt Ideal)) b
  let v135 := ((fun v i => shapeCast S128 v shapeCasts_S1x128_S128 i) : (⟨S1x128, .f32⟩ : BufTy).Contents (Elt Ideal) → (⟨S128, .f32⟩ : BufTy).Contents (Elt Ideal)) v134
  v135

/-- Row 0 of a 2x128 parameter. -/
def row128At0 (b : T S2x128 .f32) : T S128 .f32 :=
  let v274 := ((extractStridedSlice S1x128 ![0, 0] · slices_S2x128_S1x128_0_0) : (⟨S2x128, .f32⟩ : BufTy).Contents (Elt Ideal) → (⟨S1x128, .f32⟩ : BufTy).Contents (Elt Ideal)) b
  let v275 := ((fun v i => shapeCast S128 v shapeCasts_S1x128_S128 i) : (⟨S1x128, .f32⟩ : BufTy).Contents (Elt Ideal) → (⟨S128, .f32⟩ : BufTy).Contents (Elt Ideal)) v274
  v275

/-! ## A convolution layer on the 50000 nodes -/

/-- The affine map of a layer: the rows times the weight matrix plus the bias row (%45, %48-%50). -/
def lin50k (hp : T S50000x128 .f32) (w : T S128x128 .f32) (b : T S128 .f32) : T S50000x128 .f32 :=
  let v45 := ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)) hp w
  let v48 := (broadcastInDim S1x128 ![1] bcast_S128_S1x128_1 : (⟨S128, .f32⟩ : BufTy).Contents (Elt Ideal) → (⟨S1x128, .f32⟩ : BufTy).Contents (Elt Ideal)) b
  let v49 := (broadcastInDim S50000x128 ![0, 1] bcast_S1x128_S50000x128_0_1 : (⟨S1x128, .f32⟩ : BufTy).Contents (Elt Ideal) → (⟨S50000x128, .f32⟩ : BufTy).Contents (Elt Ideal)) v48
  let v50 := (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v45 v49
  v50

/-- Batch normalisation over the 50000 rows with the batch's own statistics: g * (h - mean) * rsqrt (var + eps) + bt, the mean and the variance by column (%55-%79). -/
def bn50k (h : T S50000x128 .f32) (g : T S128 .f32) (bt : T S128 .f32) : T S50000x128 .f32 :=
  let cst_8 := ((constant (F := Ideal) S_ .f32 0x00000000#32) : (⟨S_, .f32⟩ : BufTy).Contents (Elt Ideal))
  let v55 := ((fun x v => Host.reduceAdd (F := Ideal) (φ := .f32) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) h cst_8
  let cst_9 := ((constant (F := Ideal) S_ .f32 0x47435000#32) : (⟨S_, .f32⟩ : BufTy).Contents (Elt Ideal))
  let v56 := (broadcastInDim S128 ![] bcast_S_S128 : (⟨S_, .f32⟩ : BufTy).Contents (Elt Ideal) → (⟨S128, .f32⟩ : BufTy).Contents (Elt Ideal)) cst_9
  let v57 := (Host.divf (F := Ideal) (φ := .f32) : (⟨S128, .f32⟩ : BufTy).Contents (Elt Ideal) → (⟨S128, .f32⟩ : BufTy).Contents (Elt Ideal) → (⟨S128, .f32⟩ : BufTy).Contents (Elt Ideal)) v55 v56
  let v58 := (broadcastInDim S1x128 ![1] bcast_S128_S1x128_1 : (⟨S128, .f32⟩ : BufTy).Contents (Elt Ideal) → (⟨S1x128, .f32⟩ : BufTy).Contents (Elt Ideal)) v57
  let v59 := (broadcastInDim S50000x128 ![0, 1] bcast_S1x128_S50000x128_0_1 : (⟨S1x128, .f32⟩ : BufTy).Contents (Elt Ideal) → (⟨S50000x128, .f32⟩ : BufTy).Contents (Elt Ideal)) v58
  let v60 := (subf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) h v59
  let v61 := (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v60 v60
  let cst_10 := ((constant (F := Ideal) S_ .f32 0x00000000#32) : (⟨S_, .f32⟩ : BufTy).Contents (Elt Ideal))
  let v62 := ((fun x v => Host.reduceAdd (F := Ideal) (φ := .f32) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) v61 cst_10
  let cst_11 := ((constant (F := Ideal) S_ .f32 0x47435000#32) : (⟨S_, .f32⟩ : BufTy).Contents (Elt Ideal))
  let v63 := (broadcastInDim S128 ![] bcast_S_S128 : (⟨S_, .f32⟩ : BufTy).Contents (Elt Ideal) → (⟨S128, .f32⟩ : BufTy).Contents (Elt Ideal)) cst_11
  let v64 := (Host.divf (F := Ideal) (φ := .f32) : (⟨S128, .f32⟩ : BufTy).Contents (Elt Ideal) → (⟨S128, .f32⟩ : BufTy).Contents (Elt Ideal) → (⟨S128, .f32⟩ : BufTy).Contents (Elt Ideal)) v62 v63
  let v65 := (broadcastInDim S1x128 ![1] bcast_S128_S1x128_1 : (⟨S128, .f32⟩ : BufTy).Contents (Elt Ideal) → (⟨S1x128, .f32⟩ : BufTy).Contents (Elt Ideal)) v57
  let v66 := (broadcastInDim S50000x128 ![0, 1] bcast_S1x128_S50000x128_0_1 : (⟨S1x128, .f32⟩ : BufTy).Contents (Elt Ideal) → (⟨S50000x128, .f32⟩ : BufTy).Contents (Elt Ideal)) v65
  let v67 := (subf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) h v66
  let v68 := (broadcastInDim S1x128 ![1] bcast_S128_S1x128_1 : (⟨S128, .f32⟩ : BufTy).Contents (Elt Ideal) → (⟨S1x128, .f32⟩ : BufTy).Contents (Elt Ideal)) g
  let v69 := (broadcastInDim S50000x128 ![0, 1] bcast_S1x128_S50000x128_0_1 : (⟨S1x128, .f32⟩ : BufTy).Contents (Elt Ideal) → (⟨S50000x128, .f32⟩ : BufTy).Contents (Elt Ideal)) v68
  let v70 := (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v69 v67
  let cst_12 := ((constant (F := Ideal) S_ .f32 0x3727C5AC#32) : (⟨S_, .f32⟩ : BufTy).Contents (Elt Ideal))
  let v71 := (broadcastInDim S128 ![] bcast_S_S128 : (⟨S_, .f32⟩ : BufTy).Contents (Elt Ideal) → (⟨S128, .f32⟩ : BufTy).Contents (Elt Ideal)) cst_12
  let v72 := (addf (F := Ideal) (φ := .f32) : (⟨S128, .f32⟩ : BufTy).Contents (Elt Ideal) → (⟨S128, .f32⟩ : BufTy).Contents (Elt Ideal) → (⟨S128, .f32⟩ : BufTy).Contents (Elt Ideal)) v64 v71
  let v73 := (Host.rsqrt (F := Ideal) (φ := .f32) : (⟨S128, .f32⟩ : BufTy).Contents (Elt Ideal) → (⟨S128, .f32⟩ : BufTy).Contents (Elt Ideal)) v72
  let v74 := (broadcastInDim S1x128 ![1] bcast_S128_S1x128_1 : (⟨S128, .f32⟩ : BufTy).Contents (Elt Ideal) → (⟨S1x128, .f32⟩ : BufTy).Contents (Elt Ideal)) v73
  let v75 := (broadcastInDim S50000x128 ![0, 1] bcast_S1x128_S50000x128_0_1 : (⟨S1x128, .f32⟩ : BufTy).Contents (Elt Ideal) → (⟨S50000x128, .f32⟩ : BufTy).Contents (Elt Ideal)) v74
  let v76 := (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v70 v75
  let v77 := (broadcastInDim S1x128 ![1] bcast_S128_S1x128_1 : (⟨S128, .f32⟩ : BufTy).Contents (Elt Ideal) → (⟨S1x128, .f32⟩ : BufTy).Contents (Elt Ideal)) bt
  let v78 := (broadcastInDim S50000x128 ![0, 1] bcast_S1x128_S50000x128_0_1 : (⟨S1x128, .f32⟩ : BufTy).Contents (Elt Ideal) → (⟨S50000x128, .f32⟩ : BufTy).Contents (Elt Ideal)) v77
  let v79 := (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v76 v78
  v79

/-- The maximum with zero, entry by entry (%80). -/
def relu50k (h : T S50000x128 .f32) : T S50000x128 .f32 :=
  let call0_cst := ((constant (F := Ideal) S_ .f32 0x00000000#32) : (⟨S_, .f32⟩ : BufTy).Contents (Elt Ideal))
  let call0_v0 := (broadcastInDim S50000x128 ![] bcast_S_S50000x128 : (⟨S_, .f32⟩ : BufTy).Contents (Elt Ideal) → (⟨S50000x128, .f32⟩ : BufTy).Contents (Elt Ideal)) call0_cst
  let v80 := (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) h call0_v0
  v80

/-- Layer 0 after the propagation: affine map, batch normalisation, relu (%43-%80). -/
def convH0 (hp : T S50000x128 .f32) (W : T S3x128x128 .f32) (b : T S3x128 .f32) (gamma : T S3x128 .f32) (beta : T S3x128 .f32) : T S50000x128 .f32 :=
  relu50k (bn50k (lin50k hp (wAt0 W) (rowAt0 b)) (rowAt0 gamma) (rowAt0 beta))

/-- Layer 1 after the propagation: affine map, batch normalisation, relu (%183-%220). -/
def convH1 (hp : T S50000x128 .f32) (W : T S3x128x128 .f32) (b : T S3x128 .f32) (gamma : T S3x128 .f32) (beta : T S3x128 .f32) : T S50000x128 .f32 :=
  relu50k (bn50k (lin50k hp (wAt1 W) (rowAt1 b)) (rowAt1 gamma) (rowAt1 beta))

/-- The last layer after the propagation: affine map and batch normalisation, no relu (%323-%359). -/
def convF (hp : T S50000x128 .f32) (W : T S3x128x128 .f32) (b : T S3x128 .f32) (gamma : T S3x128 .f32) (beta : T S3x128 .f32) : T S50000x128 .f32 :=
  bn50k (lin50k hp (wAt2 W) (rowAt2 b)) (rowAt2 gamma) (rowAt2 beta)

/-! ## The virtual node -/

/-- Each node's row plus its graph's virtual-node row, the graph index wrapped once if negative (%81-%88). -/
def addVn (hb : T S50000x128 .f32) (vn : T S512x128 .f32) (batch : T S50000 .i32) : T S50000x128 .f32 :=
  let c_13 := ((constantI S_ 32 0#32) : (⟨S_, .i32⟩ : BufTy).Contents (Elt Ideal))
  let v81 := (broadcastInDim S50000 ![] bcast_S_S50000 : (⟨S_, .i32⟩ : BufTy).Contents (Elt Ideal) → (⟨S50000, .i32⟩ : BufTy).Contents (Elt Ideal)) c_13
  let v82 := (cmpi .slt : (⟨S50000, .i32⟩ : BufTy).Contents (Elt Ideal) → (⟨S50000, .i32⟩ : BufTy).Contents (Elt Ideal) → (⟨S50000, .i1⟩ : BufTy).Contents (Elt Ideal)) batch v81
  let c_14 := ((constantI S_ 32 512#32) : (⟨S_, .i32⟩ : BufTy).Contents (Elt Ideal))
  let v83 := (broadcastInDim S50000 ![] bcast_S_S50000 : (⟨S_, .i32⟩ : BufTy).Contents (Elt Ideal) → (⟨S50000, .i32⟩ : BufTy).Contents (Elt Ideal)) c_14
  let v84 := (addi : (⟨S50000, .i32⟩ : BufTy).Contents (Elt Ideal) → (⟨S50000, .i32⟩ : BufTy).Contents (Elt Ideal) → (⟨S50000, .i32⟩ : BufTy).Contents (Elt Ideal)) batch v83
  let v85 := (select : (⟨S50000, .i1⟩ : BufTy).Contents (Elt Ideal) → (⟨S50000, .i32⟩ : BufTy).Contents (Elt Ideal) → (⟨S50000, .i32⟩ : BufTy).Contents (Elt Ideal) → (⟨S50000, .i32⟩ : BufTy).Contents (Elt Ideal)) v82 v84 batch
  let v86 := (broadcastInDim S50000x1 ![0] bcast_S50000_S50000x1_0 : (⟨S50000, .i32⟩ : BufTy).Contents (Elt Ideal) → (⟨S50000x1, .i32⟩ : BufTy).Contents (Elt Ideal)) v85
  let v87 := ((fun x i => Host.gather gather_S512x128_S50000x1_S50000x128_1_0_n_n_0_1_1128 x i) : (⟨S512x128, .f32⟩ : BufTy).Contents (Elt Ideal) → (⟨S50000x1, .i32⟩ : BufTy).Contents (Elt Ideal) → (⟨S50000x128, .f32⟩ : BufTy).Contents (Elt Ideal)) vn v86
  let v88 := (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) hb v87
  v88

/-- The rows summed by graph, plus the virtual node (%89-%92). -/
def vtOf (h' : T S50000x128 .f32) (vn : T S512x128 .f32) (batch : T S50000 .i32) : T S512x128 .f32 :=
  let cst_15 := ((constant (F := Ideal) S_ .f32 0x00000000#32) : (⟨S_, .f32⟩ : BufTy).Contents (Elt Ideal))
  let v89 := (broadcastInDim S512x128 ![] bcast_S_S512x128 : (⟨S_, .f32⟩ : BufTy).Contents (Elt Ideal) → (⟨S512x128, .f32⟩ : BufTy).Contents (Elt Ideal)) cst_15
  let v90 := (broadcastInDim S50000x1 ![0] bcast_S50000_S50000x1_0 : (⟨S50000, .i32⟩ : BufTy).Contents (Elt Ideal) → (⟨S50000x1, .i32⟩ : BufTy).Contents (Elt Ideal)) batch
  let v91 := ((fun x i u => Host.scatterAdd (F := Ideal) (φ := .f32) scatter_S512x128_S50000x1_S50000x128_1_0_0_1 x i u) : (⟨S512x128, .f32⟩ : BufTy).Contents (Elt Ideal) → (⟨S50000x1, .i32⟩ : BufTy).Contents (Elt Ideal) → (⟨S50000x128, .f32⟩ : BufTy).Contents (Elt Ideal) → (⟨S512x128, .f32⟩ : BufTy).Contents (Elt Ideal)) v89 v90 h'
  let v92 := (addf (F := Ideal) (φ := .f32) : (⟨S512x128, .f32⟩ : BufTy).Contents (Elt Ideal) → (⟨S512x128, .f32⟩ : BufTy).Contents (Elt Ideal) → (⟨S512x128, .f32⟩ : BufTy).Contents (Elt Ideal)) v91 vn
  v92

/-- The first dense map of the virtual node's update (%95, %98-%100). -/
def linA (vt : T S512x128 .f32) (w : T S128x256 .f32) (b : T S256 .f32) : T S512x256 .f32 :=
  let v95 := ((fun l r => Host.dotGeneral (F := Ideal) (φ₁ := .f32) (φ₂ := .f32) dot_S512x128_S128x256_S512x256_1_0_0_1_n_n none l r) : (⟨S512x128, .f32⟩ : BufTy).Contents (Elt Ideal) → (⟨S128x256, .f32⟩ : BufTy).Contents (Elt Ideal) → (⟨S512x256, .f32⟩ : BufTy).Contents (Elt Ideal)) vt w
  let v98 := (broadcastInDim S1x256 ![1] bcast_S256_S1x256_1 : (⟨S256, .f32⟩ : BufTy).Contents (Elt Ideal) → (⟨S1x256, .f32⟩ : BufTy).Contents (Elt Ideal)) b
  let v99 := (broadcastInDim S512x256 ![0, 1] bcast_S1x256_S512x256_0_1 : (⟨S1x256, .f32⟩ : BufTy).Contents (Elt Ideal) → (⟨S512x256, .f32⟩ : BufTy).Contents (Elt Ideal)) v98
  let v100 := (addf (F := Ideal) (φ := .f32) : (⟨S512x256, .f32⟩ : BufTy).Contents (Elt Ideal) → (⟨S512x256, .f32⟩ : BufTy).Contents (Elt Ideal) → (⟨S512x256, .f32⟩ : BufTy).Contents (Elt Ideal)) v95 v99
  v100

/-- Batch normalisation over the 512 rows, 256 columns (%105-%129). -/
def bnA (t : T S512x256 .f32) (g : T S256 .f32) (bt : T S256 .f32) : T S512x256 .f32 :=
  let cst_16 := ((constant (F := Ideal) S_ .f32 0x00000000#32) : (⟨S_, .f32⟩ : BufTy).Contents (Elt Ideal))
  let v105 := ((fun x v => Host.reduceAdd (F := Ideal) (φ := .f32) x v reducesTo_S512x256_S256_d0 h_S_) : (⟨S512x256, .f32⟩ : BufTy).Contents (Elt Ideal) → (⟨S_, .f32⟩ : BufTy).Contents (Elt Ideal) → (⟨S256, .f32⟩ : BufTy).Contents (Elt Ideal)) t cst_16
  let cst_17 := ((constant (F := Ideal) S_ .f32 0x44000000#32) : (⟨S_, .f32⟩ : BufTy).Contents (Elt Ideal))
  let v106 := (broadcastInDim S256 ![] bcast_S_S256 : (⟨S_, .f32⟩ : BufTy).Contents (Elt Ideal) → (⟨S256, .f32⟩ : BufTy).Contents (Elt Ideal)) cst_17
  let v107 := (Host.divf (F := Ideal) (φ := .f32) : (⟨S256, .f32⟩ : BufTy).Contents (Elt Ideal) → (⟨S256, .f32⟩ : BufTy).Contents (Elt Ideal) → (⟨S256, .f32⟩ : BufTy).Contents (Elt Ideal)) v105 v106
  let v108 := (broadcastInDim S1x256 ![1] bcast_S256_S1x256_1 : (⟨S256, .f32⟩ : BufTy).Contents (Elt Ideal) → (⟨S1x256, .f32⟩ : BufTy).Contents (Elt Ideal)) v107
  let v109 := (broadcastInDim S512x256 ![0, 1] bcast_S1x256_S512x256_0_1 : (⟨S1x256, .f32⟩ : BufTy).Contents (Elt Ideal) → (⟨S512x256, .f32⟩ : BufTy).Contents (Elt Ideal)) v108
  let v110 := (subf (F := Ideal) (φ := .f32) : (⟨S512x256, .f32⟩ : BufTy).Contents (Elt Ideal) → (⟨S512x256, .f32⟩ : BufTy).Contents (Elt Ideal) → (⟨S512x256, .f32⟩ : BufTy).Contents (Elt Ideal)) t v109
  let v111 := (mulf (F := Ideal) (φ := .f32) : (⟨S512x256, .f32⟩ : BufTy).Contents (Elt Ideal) → (⟨S512x256, .f32⟩ : BufTy).Contents (Elt Ideal) → (⟨S512x256, .f32⟩ : BufTy).Contents (Elt Ideal)) v110 v110
  let cst_18 := ((constant (F := Ideal) S_ .f32 0x00000000#32) : (⟨S_, .f32⟩ : BufTy).Contents (Elt Ideal))
  let v112 := ((fun x v => Host.reduceAdd (F := Ideal) (φ := .f32) x v reducesTo_S512x256_S256_d0 h_S_) : (⟨S512x256, .f32⟩ : BufTy).Contents (Elt Ideal) → (⟨S_, .f32⟩ : BufTy).Contents (Elt Ideal) → (⟨S256, .f32⟩ : BufTy).Contents (Elt Ideal)) v111 cst_18
  let cst_19 := ((constant (F := Ideal) S_ .f32 0x44000000#32) : (⟨S_, .f32⟩ : BufTy).Contents (Elt Ideal))
  let v113 := (broadcastInDim S256 ![] bcast_S_S256 : (⟨S_, .f32⟩ : BufTy).Contents (Elt Ideal) → (⟨S256, .f32⟩ : BufTy).Contents (Elt Ideal)) cst_19
  let v114 := (Host.divf (F := Ideal) (φ := .f32) : (⟨S256, .f32⟩ : BufTy).Contents (Elt Ideal) → (⟨S256, .f32⟩ : BufTy).Contents (Elt Ideal) → (⟨S256, .f32⟩ : BufTy).Contents (Elt Ideal)) v112 v113
  let v115 := (broadcastInDim S1x256 ![1] bcast_S256_S1x256_1 : (⟨S256, .f32⟩ : BufTy).Contents (Elt Ideal) → (⟨S1x256, .f32⟩ : BufTy).Contents (Elt Ideal)) v107
  let v116 := (broadcastInDim S512x256 ![0, 1] bcast_S1x256_S512x256_0_1 : (⟨S1x256, .f32⟩ : BufTy).Contents (Elt Ideal) → (⟨S512x256, .f32⟩ : BufTy).Contents (Elt Ideal)) v115
  let v117 := (subf (F := Ideal) (φ := .f32) : (⟨S512x256, .f32⟩ : BufTy).Contents (Elt Ideal) → (⟨S512x256, .f32⟩ : BufTy).Contents (Elt Ideal) → (⟨S512x256, .f32⟩ : BufTy).Contents (Elt Ideal)) t v116
  let v118 := (broadcastInDim S1x256 ![1] bcast_S256_S1x256_1 : (⟨S256, .f32⟩ : BufTy).Contents (Elt Ideal) → (⟨S1x256, .f32⟩ : BufTy).Contents (Elt Ideal)) g
  let v119 := (broadcastInDim S512x256 ![0, 1] bcast_S1x256_S512x256_0_1 : (⟨S1x256, .f32⟩ : BufTy).Contents (Elt Ideal) → (⟨S512x256, .f32⟩ : BufTy).Contents (Elt Ideal)) v118
  let v120 := (mulf (F := Ideal) (φ := .f32) : (⟨S512x256, .f32⟩ : BufTy).Contents (Elt Ideal) → (⟨S512x256, .f32⟩ : BufTy).Contents (Elt Ideal) → (⟨S512x256, .f32⟩ : BufTy).Contents (Elt Ideal)) v119 v117
  let cst_20 := ((constant (F := Ideal) S_ .f32 0x3727C5AC#32) : (⟨S_, .f32⟩ : BufTy).Contents (Elt Ideal))
  let v121 := (broadcastInDim S256 ![] bcast_S_S256 : (⟨S_, .f32⟩ : BufTy).Contents (Elt Ideal) → (⟨S256, .f32⟩ : BufTy).Contents (Elt Ideal)) cst_20
  let v122 := (addf (F := Ideal) (φ := .f32) : (⟨S256, .f32⟩ : BufTy).Contents (Elt Ideal) → (⟨S256, .f32⟩ : BufTy).Contents (Elt Ideal) → (⟨S256, .f32⟩ : BufTy).Contents (Elt Ideal)) v114 v121
  let v123 := (Host.rsqrt (F := Ideal) (φ := .f32) : (⟨S256, .f32⟩ : BufTy).Contents (Elt Ideal) → (⟨S256, .f32⟩ : BufTy).Contents (Elt Ideal)) v122
  let v124 := (broadcastInDim S1x256 ![1] bcast_S256_S1x256_1 : (⟨S256, .f32⟩ : BufTy).Contents (Elt Ideal) → (⟨S1x256, .f32⟩ : BufTy).Contents (Elt Ideal)) v123
  let v125 := (broadcastInDim S512x256 ![0, 1] bcast_S1x256_S512x256_0_1 : (⟨S1x256, .f32⟩ : BufTy).Contents (Elt Ideal) → (⟨S512x256, .f32⟩ : BufTy).Contents (Elt Ideal)) v124
  let v126 := (mulf (F := Ideal) (φ := .f32) : (⟨S512x256, .f32⟩ : BufTy).Contents (Elt Ideal) → (⟨S512x256, .f32⟩ : BufTy).Contents (Elt Ideal) → (⟨S512x256, .f32⟩ : BufTy).Contents (Elt Ideal)) v120 v125
  let v127 := (broadcastInDim S1x256 ![1] bcast_S256_S1x256_1 : (⟨S256, .f32⟩ : BufTy).Contents (Elt Ideal) → (⟨S1x256, .f32⟩ : BufTy).Contents (Elt Ideal)) bt
  let v128 := (broadcastInDim S512x256 ![0, 1] bcast_S1x256_S512x256_0_1 : (⟨S1x256, .f32⟩ : BufTy).Contents (Elt Ideal) → (⟨S512x256, .f32⟩ : BufTy).Contents (Elt Ideal)) v127
  let v129 := (addf (F := Ideal) (φ := .f32) : (⟨S512x256, .f32⟩ : BufTy).Contents (Elt Ideal) → (⟨S512x256, .f32⟩ : BufTy).Contents (Elt Ideal) → (⟨S512x256, .f32⟩ : BufTy).Contents (Elt Ideal)) v126 v128
  v129

/-- The maximum with zero, entry by entry (%130). -/
def reluA (t : T S512x256 .f32) : T S512x256 .f32 :=
  let call1_cst := ((constant (F := Ideal) S_ .f32 0x00000000#32) : (⟨S_, .f32⟩ : BufTy).Contents (Elt Ideal))
  let call1_v0 := (broadcastInDim S512x256 ![] bcast_S_S512x256 : (⟨S_, .f32⟩ : BufTy).Contents (Elt Ideal) → (⟨S512x256, .f32⟩ : BufTy).Contents (Elt Ideal)) call1_cst
  let v130 := (maximumf (F := Ideal) (φ := .f32) : (⟨S512x256, .f32⟩ : BufTy).Contents (Elt Ideal) → (⟨S512x256, .f32⟩ : BufTy).Contents (Elt Ideal) → (⟨S512x256, .f32⟩ : BufTy).Contents (Elt Ideal)) t call1_v0
  v130

/-- The second dense map of the virtual node's update (%133, %136-%138). -/
def linB (t : T S512x256 .f32) (w : T S256x128 .f32) (b : T S128 .f32) : T S512x128 .f32 :=
  let v133 := ((fun l r => Host.dotGeneral (F := Ideal) (φ₁ := .f32) (φ₂ := .f32) dot_S512x256_S256x128_S512x128_1_0_0_1_n_n none l r) : (⟨S512x256, .f32⟩ : BufTy).Contents (Elt Ideal) → (⟨S256x128, .f32⟩ : BufTy).Contents (Elt Ideal) → (⟨S512x128, .f32⟩ : BufTy).Contents (Elt Ideal)) t w
  let v136 := (broadcastInDim S1x128 ![1] bcast_S128_S1x128_1 : (⟨S128, .f32⟩ : BufTy).Contents (Elt Ideal) → (⟨S1x128, .f32⟩ : BufTy).Contents (Elt Ideal)) b
  let v137 := (broadcastInDim S512x128 ![0, 1] bcast_S1x128_S512x128_0_1 : (⟨S1x128, .f32⟩ : BufTy).Contents (Elt Ideal) → (⟨S512x128, .f32⟩ : BufTy).Contents (Elt Ideal)) v136
  let v138 := (addf (F := Ideal) (φ := .f32) : (⟨S512x128, .f32⟩ : BufTy).Contents (Elt Ideal) → (⟨S512x128, .f32⟩ : BufTy).Contents (Elt Ideal) → (⟨S512x128, .f32⟩ : BufTy).Contents (Elt Ideal)) v133 v137
  v138

/-- Batch normalisation over the 512 rows, 128 columns (%143-%167). -/
def bnB (t : T S512x128 .f32) (g : T S128 .f32) (bt : T S128 .f32) : T S512x128 .f32 :=
  let cst_21 := ((constant (F := Ideal) S_ .f32 0x00000000#32) : (⟨S_, .f32⟩ : BufTy).Contents (Elt Ideal))
  let v143 := ((fun x v => Host.reduceAdd (F := Ideal) (φ := .f32) x v reducesTo_S512x128_S128_d0 h_S_) : (⟨S512x128, .f32⟩ : BufTy).Contents (Elt Ideal) → (⟨S_, .f32⟩ : BufTy).Contents (Elt Ideal) → (⟨S128, .f32⟩ : BufTy).Contents (Elt Ideal)) t cst_21
  let cst_22 := ((constant (F := Ideal) S_ .f32 0x44000000#32) : (⟨S_, .f32⟩ : BufTy).Contents (Elt Ideal))
  let v144 := (broadcastInDim S128 ![] bcast_S_S128 : (⟨S_, .f32⟩ : BufTy).Contents (Elt Ideal) → (⟨S128, .f32⟩ : BufTy).Contents (Elt Ideal)) cst_22
  let v145 := (Host.divf (F := Ideal) (φ := .f32) : (⟨S128, .f32⟩ : BufTy).Contents (Elt Ideal) → (⟨S128, .f32⟩ : BufTy).Contents (Elt Ideal) → (⟨S128, .f32⟩ : BufTy).Contents (Elt Ideal)) v143 v144
  let v146 := (broadcastInDim S1x128 ![1] bcast_S128_S1x128_1 : (⟨S128, .f32⟩ : BufTy).Contents (Elt Ideal) → (⟨S1x128, .f32⟩ : BufTy).Contents (Elt Ideal)) v145
  let v147 := (broadcastInDim S512x128 ![0, 1] bcast_S1x128_S512x128_0_1 : (⟨S1x128, .f32⟩ : BufTy).Contents (Elt Ideal) → (⟨S512x128, .f32⟩ : BufTy).Contents (Elt Ideal)) v146
  let v148 := (subf (F := Ideal) (φ := .f32) : (⟨S512x128, .f32⟩ : BufTy).Contents (Elt Ideal) → (⟨S512x128, .f32⟩ : BufTy).Contents (Elt Ideal) → (⟨S512x128, .f32⟩ : BufTy).Contents (Elt Ideal)) t v147
  let v149 := (mulf (F := Ideal) (φ := .f32) : (⟨S512x128, .f32⟩ : BufTy).Contents (Elt Ideal) → (⟨S512x128, .f32⟩ : BufTy).Contents (Elt Ideal) → (⟨S512x128, .f32⟩ : BufTy).Contents (Elt Ideal)) v148 v148
  let cst_23 := ((constant (F := Ideal) S_ .f32 0x00000000#32) : (⟨S_, .f32⟩ : BufTy).Contents (Elt Ideal))
  let v150 := ((fun x v => Host.reduceAdd (F := Ideal) (φ := .f32) x v reducesTo_S512x128_S128_d0 h_S_) : (⟨S512x128, .f32⟩ : BufTy).Contents (Elt Ideal) → (⟨S_, .f32⟩ : BufTy).Contents (Elt Ideal) → (⟨S128, .f32⟩ : BufTy).Contents (Elt Ideal)) v149 cst_23
  let cst_24 := ((constant (F := Ideal) S_ .f32 0x44000000#32) : (⟨S_, .f32⟩ : BufTy).Contents (Elt Ideal))
  let v151 := (broadcastInDim S128 ![] bcast_S_S128 : (⟨S_, .f32⟩ : BufTy).Contents (Elt Ideal) → (⟨S128, .f32⟩ : BufTy).Contents (Elt Ideal)) cst_24
  let v152 := (Host.divf (F := Ideal) (φ := .f32) : (⟨S128, .f32⟩ : BufTy).Contents (Elt Ideal) → (⟨S128, .f32⟩ : BufTy).Contents (Elt Ideal) → (⟨S128, .f32⟩ : BufTy).Contents (Elt Ideal)) v150 v151
  let v153 := (broadcastInDim S1x128 ![1] bcast_S128_S1x128_1 : (⟨S128, .f32⟩ : BufTy).Contents (Elt Ideal) → (⟨S1x128, .f32⟩ : BufTy).Contents (Elt Ideal)) v145
  let v154 := (broadcastInDim S512x128 ![0, 1] bcast_S1x128_S512x128_0_1 : (⟨S1x128, .f32⟩ : BufTy).Contents (Elt Ideal) → (⟨S512x128, .f32⟩ : BufTy).Contents (Elt Ideal)) v153
  let v155 := (subf (F := Ideal) (φ := .f32) : (⟨S512x128, .f32⟩ : BufTy).Contents (Elt Ideal) → (⟨S512x128, .f32⟩ : BufTy).Contents (Elt Ideal) → (⟨S512x128, .f32⟩ : BufTy).Contents (Elt Ideal)) t v154
  let v156 := (broadcastInDim S1x128 ![1] bcast_S128_S1x128_1 : (⟨S128, .f32⟩ : BufTy).Contents (Elt Ideal) → (⟨S1x128, .f32⟩ : BufTy).Contents (Elt Ideal)) g
  let v157 := (broadcastInDim S512x128 ![0, 1] bcast_S1x128_S512x128_0_1 : (⟨S1x128, .f32⟩ : BufTy).Contents (Elt Ideal) → (⟨S512x128, .f32⟩ : BufTy).Contents (Elt Ideal)) v156
  let v158 := (mulf (F := Ideal) (φ := .f32) : (⟨S512x128, .f32⟩ : BufTy).Contents (Elt Ideal) → (⟨S512x128, .f32⟩ : BufTy).Contents (Elt Ideal) → (⟨S512x128, .f32⟩ : BufTy).Contents (Elt Ideal)) v157 v155
  let cst_25 := ((constant (F := Ideal) S_ .f32 0x3727C5AC#32) : (⟨S_, .f32⟩ : BufTy).Contents (Elt Ideal))
  let v159 := (broadcastInDim S128 ![] bcast_S_S128 : (⟨S_, .f32⟩ : BufTy).Contents (Elt Ideal) → (⟨S128, .f32⟩ : BufTy).Contents (Elt Ideal)) cst_25
  let v160 := (addf (F := Ideal) (φ := .f32) : (⟨S128, .f32⟩ : BufTy).Contents (Elt Ideal) → (⟨S128, .f32⟩ : BufTy).Contents (Elt Ideal) → (⟨S128, .f32⟩ : BufTy).Contents (Elt Ideal)) v152 v159
  let v161 := (Host.rsqrt (F := Ideal) (φ := .f32) : (⟨S128, .f32⟩ : BufTy).Contents (Elt Ideal) → (⟨S128, .f32⟩ : BufTy).Contents (Elt Ideal)) v160
  let v162 := (broadcastInDim S1x128 ![1] bcast_S128_S1x128_1 : (⟨S128, .f32⟩ : BufTy).Contents (Elt Ideal) → (⟨S1x128, .f32⟩ : BufTy).Contents (Elt Ideal)) v161
  let v163 := (broadcastInDim S512x128 ![0, 1] bcast_S1x128_S512x128_0_1 : (⟨S1x128, .f32⟩ : BufTy).Contents (Elt Ideal) → (⟨S512x128, .f32⟩ : BufTy).Contents (Elt Ideal)) v162
  let v164 := (mulf (F := Ideal) (φ := .f32) : (⟨S512x128, .f32⟩ : BufTy).Contents (Elt Ideal) → (⟨S512x128, .f32⟩ : BufTy).Contents (Elt Ideal) → (⟨S512x128, .f32⟩ : BufTy).Contents (Elt Ideal)) v158 v163
  let v165 := (broadcastInDim S1x128 ![1] bcast_S128_S1x128_1 : (⟨S128, .f32⟩ : BufTy).Contents (Elt Ideal) → (⟨S1x128, .f32⟩ : BufTy).Contents (Elt Ideal)) bt
  let v166 := (broadcastInDim S512x128 ![0, 1] bcast_S1x128_S512x128_0_1 : (⟨S1x128, .f32⟩ : BufTy).Contents (Elt Ideal) → (⟨S512x128, .f32⟩ : BufTy).Contents (Elt Ideal)) v165
  let v167 := (addf (F := Ideal) (φ := .f32) : (⟨S512x128, .f32⟩ : BufTy).Contents (Elt Ideal) → (⟨S512x128, .f32⟩ : BufTy).Contents (Elt Ideal) → (⟨S512x128, .f32⟩ : BufTy).Contents (Elt Ideal)) v164 v166
  v167

/-- The maximum with zero, entry by entry (%168). -/
def reluB (t : T S512x128 .f32) : T S512x128 .f32 :=
  let call2_cst := ((constant (F := Ideal) S_ .f32 0x00000000#32) : (⟨S_, .f32⟩ : BufTy).Contents (Elt Ideal))
  let call2_v0 := (broadcastInDim S512x128 ![] bcast_S_S512x128 : (⟨S_, .f32⟩ : BufTy).Contents (Elt Ideal) → (⟨S512x128, .f32⟩ : BufTy).Contents (Elt Ideal)) call2_cst
  let v168 := (maximumf (F := Ideal) (φ := .f32) : (⟨S512x128, .f32⟩ : BufTy).Contents (Elt Ideal) → (⟨S512x128, .f32⟩ : BufTy).Contents (Elt Ideal) → (⟨S512x128, .f32⟩ : BufTy).Contents (Elt Ideal)) t call2_v0
  v168

/-- The virtual node's update with row 1 of its parameters: dense, batch normalisation, relu, twice (%93-%168). -/
def mlp1 (vt : T S512x128 .f32) (W1 : T S2x128x256 .f32) (b1 : T S2x256 .f32) (g1 : T S2x256 .f32) (bt1 : T S2x256 .f32) (W2 : T S2x256x128 .f32) (b2 : T S2x128 .f32) (g2 : T S2x128 .f32) (bt2 : T S2x128 .f32) : T S512x128 .f32 :=
  reluB (bnB (linB (reluA (bnA (linA vt (w1At1 W1) (row256At1 b1)) (row256At1 g1) (row256At1 bt1))) (w2At1 W2) (row128At1 b2)) (row128At1 g2) (row128At1 bt2))

/-- The virtual node's update with row 0 of its parameters: dense, batch normalisation, relu, twice (%233-%308). -/
def mlp0 (vt : T S512x128 .f32) (W1 : T S2x128x256 .f32) (b1 : T S2x256 .f32) (g1 : T S2x256 .f32) (bt1 : T S2x256 .f32) (W2 : T S2x256x128 .f32) (b2 : T S2x128 .f32) (g2 : T S2x128 .f32) (bt2 : T S2x128 .f32) : T S512x128 .f32 :=
  reluB (bnB (linB (reluA (bnA (linA vt (w1At0 W1) (row256At0 b1)) (row256At0 g1) (row256At0 bt1))) (w2At0 W2) (row128At0 b2)) (row128At0 g2) (row128At0 bt2))

/-- The virtual node plus its update (%169). -/
def vnNext (vn : T S512x128 .f32) (t : T S512x128 .f32) : T S512x128 .f32 :=
  let v169 := (addf (F := Ideal) (φ := .f32) : (⟨S512x128, .f32⟩ : BufTy).Contents (Elt Ideal) → (⟨S512x128, .f32⟩ : BufTy).Contents (Elt Ideal) → (⟨S512x128, .f32⟩ : BufTy).Contents (Elt Ideal)) vn t
  v169

/-! ## Propagation steps, pooling, head -/

/-- 0.2 times the propagated rows plus 0.8 times the rows the steps started from (%373-%377). -/
def mix (p : T S50000x128 .f32) (h0 : T S50000x128 .f32) : T S50000x128 .f32 :=
  let cst_58 := ((constant (F := Ideal) S_ .f32 0x3E4CCCCD#32) : (⟨S_, .f32⟩ : BufTy).Contents (Elt Ideal))
  let v373 := (broadcastInDim S50000x128 ![] bcast_S_S50000x128 : (⟨S_, .f32⟩ : BufTy).Contents (Elt Ideal) → (⟨S50000x128, .f32⟩ : BufTy).Contents (Elt Ideal)) cst_58
  let v374 := (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v373 p
  let cst_59 := ((constant (F := Ideal) S_ .f32 0x3F4CCCCD#32) : (⟨S_, .f32⟩ : BufTy).Contents (Elt Ideal))
  let v375 := (broadcastInDim S50000x128 ![] bcast_S_S50000x128 : (⟨S_, .f32⟩ : BufTy).Contents (Elt Ideal) → (⟨S50000x128, .f32⟩ : BufTy).Contents (Elt Ideal)) cst_59
  let v376 := (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v375 h0
  let v377 := (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) v374 v376
  v377

/-- One personalised-propagation step (%360-%377). -/
def appnp (ei : T S2x600000 .i32) (h : T S50000x128 .f32) (h0 : T S50000x128 .f32) : T S50000x128 .f32 :=
  mix (prop ei h) h0

/-- The mean of the rows of each graph: the rows summed by graph over the graph's node count bounded below by one (%450-%461). -/
def pool (h : T S50000x128 .f32) (batch : T S50000 .i32) : T S512x128 .f32 :=
  let cst_80 := ((constant (F := Ideal) S_ .f32 0x3F800000#32) : (⟨S_, .f32⟩ : BufTy).Contents (Elt Ideal))
  let v450 := (broadcastInDim S50000 ![] bcast_S_S50000 : (⟨S_, .f32⟩ : BufTy).Contents (Elt Ideal) → (⟨S50000, .f32⟩ : BufTy).Contents (Elt Ideal)) cst_80
  let cst_81 := ((constant (F := Ideal) S_ .f32 0x00000000#32) : (⟨S_, .f32⟩ : BufTy).Contents (Elt Ideal))
  let v451 := (broadcastInDim S512 ![] bcast_S_S512 : (⟨S_, .f32⟩ : BufTy).Contents (Elt Ideal) → (⟨S512, .f32⟩ : BufTy).Contents (Elt Ideal)) cst_81
  let v452 := (broadcastInDim S50000x1 ![0] bcast_S50000_S50000x1_0 : (⟨S50000, .i32⟩ : BufTy).Contents (Elt Ideal) → (⟨S50000x1, .i32⟩ : BufTy).Contents (Elt Ideal)) batch
  let v453 := ((fun x i u => Host.scatterAdd (F := Ideal) (φ := .f32) scatter_S512_S50000x1_S50000_n_0_0_1 x i u) : (⟨S512, .f32⟩ : BufTy).Contents (Elt Ideal) → (⟨S50000x1, .i32⟩ : BufTy).Contents (Elt Ideal) → (⟨S50000, .f32⟩ : BufTy).Contents (Elt Ideal) → (⟨S512, .f32⟩ : BufTy).Contents (Elt Ideal)) v451 v452 v450
  let cst_82 := ((constant (F := Ideal) S_ .f32 0x00000000#32) : (⟨S_, .f32⟩ : BufTy).Contents (Elt Ideal))
  let v454 := (broadcastInDim S512x128 ![] bcast_S_S512x128 : (⟨S_, .f32⟩ : BufTy).Contents (Elt Ideal) → (⟨S512x128, .f32⟩ : BufTy).Contents (Elt Ideal)) cst_82
  let v455 := (broadcastInDim S50000x1 ![0] bcast_S50000_S50000x1_0 : (⟨S50000, .i32⟩ : BufTy).Contents (Elt Ideal) → (⟨S50000x1, .i32⟩ : BufTy).Contents (Elt Ideal)) batch
  let v456 := ((fun x i u => Host.scatterAdd (F := Ideal) (φ := .f32) scatter_S512x128_S50000x1_S50000x128_1_0_0_1 x i u) : (⟨S512x128, .f32⟩ : BufTy).Contents (Elt Ideal) → (⟨S50000x1, .i32⟩ : BufTy).Contents (Elt Ideal) → (⟨S50000x128, .f32⟩ : BufTy).Contents (Elt Ideal) → (⟨S512x128, .f32⟩ : BufTy).Contents (Elt Ideal)) v454 v455 h
  let cst_83 := ((constant (F := Ideal) S_ .f32 0x3F800000#32) : (⟨S_, .f32⟩ : BufTy).Contents (Elt Ideal))
  let v457 := (broadcastInDim S512 ![] bcast_S_S512 : (⟨S_, .f32⟩ : BufTy).Contents (Elt Ideal) → (⟨S512, .f32⟩ : BufTy).Contents (Elt Ideal)) cst_83
  let v458 := (maximumf (F := Ideal) (φ := .f32) : (⟨S512, .f32⟩ : BufTy).Contents (Elt Ideal) → (⟨S512, .f32⟩ : BufTy).Contents (Elt Ideal) → (⟨S512, .f32⟩ : BufTy).Contents (Elt Ideal)) v453 v457
  let v459 := (broadcastInDim S512x1 ![0] bcast_S512_S512x1_0 : (⟨S512, .f32⟩ : BufTy).Contents (Elt Ideal) → (⟨S512x1, .f32⟩ : BufTy).Contents (Elt Ideal)) v458
  let v460 := (broadcastInDim S512x128 ![0, 1] bcast_S512x1_S512x128_0_1 : (⟨S512x1, .f32⟩ : BufTy).Contents (Elt Ideal) → (⟨S512x128, .f32⟩ : BufTy).Contents (Elt Ideal)) v459
  let v461 := (Host.divf (F := Ideal) (φ := .f32) : (⟨S512x128, .f32⟩ : BufTy).Contents (Elt Ideal) → (⟨S512x128, .f32⟩ : BufTy).Contents (Elt Ideal) → (⟨S512x128, .f32⟩ : BufTy).Contents (Elt Ideal)) v456 v460
  v461

/-- The output layer: the pooled rows times the weights plus the bias row (%462-%465). -/
def head (pooled : T S512x128 .f32) (Wout : T S128x128 .f32) (bout : T S128 .f32) : T S512x128 .f32 :=
  let v462 := ((fun l r => Host.dotGeneral (F := Ideal) (φ₁ := .f32) (φ₂ := .f32) dot_S512x128_S128x128_S512x128_1_0_0_1_n_n none l r) : (⟨S512x128, .f32⟩ : BufTy).Contents (Elt Ideal) → (⟨S128x128, .f32⟩ : BufTy).Contents (Elt Ideal) → (⟨S512x128, .f32⟩ : BufTy).Contents (Elt Ideal)) pooled Wout
  let v463 := (broadcastInDim S1x128 ![1] bcast_S128_S1x128_1 : (⟨S128, .f32⟩ : BufTy).Contents (Elt Ideal) → (⟨S1x128, .f32⟩ : BufTy).Contents (Elt Ideal)) bout
  let v464 := (broadcastInDim S512x128 ![0, 1] bcast_S1x128_S512x128_0_1 : (⟨S1x128, .f32⟩ : BufTy).Contents (Elt Ideal) → (⟨S512x128, .f32⟩ : BufTy).Contents (Elt Ideal)) v463
  let v465 := (addf (F := Ideal) (φ := .f32) : (⟨S512x128, .f32⟩ : BufTy).Contents (Elt Ideal) → (⟨S512x128, .f32⟩ : BufTy).Contents (Elt Ideal) → (⟨S512x128, .f32⟩ : BufTy).Contents (Elt Ideal)) v462 v464
  v465

/-! ## The whole -/

/-- The reference's result as the composition of its stages, over the 18 arguments in the program's order. -/
def refOutS (x : T S50000x128 .f32) (ei : T S2x600000 .i32) (batch : T S50000 .i32) (W : T S3x128x128 .f32) (b : T S3x128 .f32) (gamma : T S3x128 .f32) (beta : T S3x128 .f32) (vnEmb : T S128 .f32) (W1 : T S2x128x256 .f32) (b1 : T S2x256 .f32) (g1 : T S2x256 .f32) (bt1 : T S2x256 .f32) (W2 : T S2x256x128 .f32) (b2 : T S2x128 .f32) (g2 : T S2x128 .f32) (bt2 : T S2x128 .f32) (Wout : T S128x128 .f32) (bout : T S128 .f32) : T S512x128 .f32 :=
  let vnA := vn0 vnEmb
  let h1 := addVn (convH0 (prop ei x) W b gamma beta) vnA batch
  let vnB := vnNext vnA (mlp1 (vtOf h1 vnA batch) W1 b1 g1 bt1 W2 b2 g2 bt2)
  let h2 := addVn (convH1 (prop ei h1) W b gamma beta) vnB batch
  let h3 := convF (prop ei h2) W b gamma beta
  let a1 := appnp ei h3 h3
  let a2 := appnp ei a1 h3
  let a3 := appnp ei a2 h3
  let a4 := appnp ei a3 h3
  let a5 := appnp ei a4 h3
  head (pool a5 batch) Wout bout

end Cert.ReferenceIdeal.Stage

end
-- ==== Proof.Val.BridgeCore.lean ====
/-
  The composition. If every stage of the kernel's program computes what the matching stage of the reference's
  program computes (the hypotheses below, one per stage, each for arbitrary input arrays), then the two results
  are equal as functions of the eighteen arguments. The proof only rewrites, from the inside out, along the
  named intermediate values of the two compositions; no stage is opened. The regions' functions are a parameter,
  and the graph index of every node is assumed in range (0 ≤ batch n < 512).
-/
import proofs.«402460_j82824149336546_1_alg».proof.Proof.Val.KOutG
import proofs.«402460_j82824149336546_1_alg».proof.Proof.Val.RStages
import Idealize.ShloMosaic.Lib.ValueIdx

set_option maxRecDepth 16384

noncomputable section

namespace Cert.Bridge

open Idealize.ShloMosaic
open Cert.KernelIdeal (S50000x128 S2x600000 S50000 S3x128x128 S3x128 S128 S2x128x256 S2x256 S2x256x128 S2x128 S128x128 S512x128 S1x128 S1x256 S128x256 S256x128 S50000x512)
open Cert.KernelIdeal.Stage (RegionFns)

variable [Cert.KernelIdeal.Facts] [Cert.ReferenceIdeal.Facts]

/-- Every node's graph index lies in 0 … 511. -/
abbrev InRange (batch : IVec S50000 32) : Prop :=
  ∀ n : Fin 50000, 0 ≤ (batch (ValueIdx.ix1 n)).toInt ∧ (batch (ValueIdx.ix1 n)).toInt < 512

/-! ## The reference's intermediate values, named -/

section
variable (x : FVec Ideal S50000x128 .f32) (ei : IVec S2x600000 32) (batch : IVec S50000 32)
    (W : FVec Ideal S3x128x128 .f32) (b gamma beta : FVec Ideal S3x128 .f32) (vnEmb : FVec Ideal S128 .f32)
    (W1 : FVec Ideal S2x128x256 .f32) (b1 g1 bt1 : FVec Ideal S2x256 .f32)
    (W2 : FVec Ideal S2x256x128 .f32) (b2 g2 bt2 : FVec Ideal S2x128 .f32)

/-- The node rows after the first layer (%88). -/
def rH1 : FVec Ideal S50000x128 .f32 :=
  Cert.ReferenceIdeal.Stage.addVn (Cert.ReferenceIdeal.Stage.convH0 (Cert.ReferenceIdeal.Stage.prop ei x) W b gamma beta) (Cert.ReferenceIdeal.Stage.vn0 vnEmb) batch

/-- The virtual node after its first update (%169). -/
def rVn1 : FVec Ideal S512x128 .f32 :=
  Cert.ReferenceIdeal.Stage.vnNext (Cert.ReferenceIdeal.Stage.vn0 vnEmb)
    (Cert.ReferenceIdeal.Stage.mlp1 (Cert.ReferenceIdeal.Stage.vtOf (rH1 x ei batch W b gamma beta vnEmb) (Cert.ReferenceIdeal.Stage.vn0 vnEmb) batch) W1 b1 g1 bt1 W2 b2 g2 bt2)

/-- The node rows after the second layer (%228). -/
def rH2 : FVec Ideal S50000x128 .f32 :=
  Cert.ReferenceIdeal.Stage.addVn (Cert.ReferenceIdeal.Stage.convH1 (Cert.ReferenceIdeal.Stage.prop ei (rH1 x ei batch W b gamma beta vnEmb)) W b gamma beta) (rVn1 x ei batch W b gamma beta vnEmb W1 b1 g1 bt1 W2 b2 g2 bt2) batch

/-- The node rows after the last layer (%359). -/
def rH3 : FVec Ideal S50000x128 .f32 :=
  Cert.ReferenceIdeal.Stage.convF (Cert.ReferenceIdeal.Stage.prop ei (rH2 x ei batch W b gamma beta vnEmb W1 b1 g1 bt1 W2 b2 g2 bt2)) W b gamma beta

/-- The node rows after the five propagation steps started from `h3` (%449). -/
def rSteps (h3 : FVec Ideal S50000x128 .f32) : FVec Ideal S50000x128 .f32 :=
  Cert.ReferenceIdeal.Stage.appnp ei (Cert.ReferenceIdeal.Stage.appnp ei (Cert.ReferenceIdeal.Stage.appnp ei (Cert.ReferenceIdeal.Stage.appnp ei (Cert.ReferenceIdeal.Stage.appnp ei h3 h3) h3) h3) h3) h3

end

/-- The reference's result through the named intermediate values. -/
theorem refOutS_eq (x : FVec Ideal S50000x128 .f32) (ei : IVec S2x600000 32) (batch : IVec S50000 32)
    (W : FVec Ideal S3x128x128 .f32) (b gamma beta : FVec Ideal S3x128 .f32) (vnEmb : FVec Ideal S128 .f32)
    (W1 : FVec Ideal S2x128x256 .f32) (b1 g1 bt1 : FVec Ideal S2x256 .f32)
    (W2 : FVec Ideal S2x256x128 .f32) (b2 g2 bt2 : FVec Ideal S2x128 .f32)
    (Wout : FVec Ideal S128x128 .f32) (bout : FVec Ideal S128 .f32) :
    Cert.ReferenceIdeal.Stage.refOutS x ei batch W b gamma beta vnEmb W1 b1 g1 bt1 W2 b2 g2 bt2 Wout bout
      = Cert.ReferenceIdeal.Stage.head (Cert.ReferenceIdeal.Stage.pool (rSteps ei (rH3 x ei batch W b gamma beta vnEmb W1 b1 g1 bt1 W2 b2 g2 bt2)) batch) Wout bout := rfl

/-! ## The composition -/

theorem kernelOutG_eq_refOutS (G : RegionFns)
    (hProp : ∀ (ei : IVec S2x600000 32) (h : FVec Ideal S50000x128 .f32), Cert.KernelIdeal.Stage.prop ei h = Cert.ReferenceIdeal.Stage.prop ei h)
    (hVn0 : ∀ (e : FVec Ideal S128 .f32), Cert.KernelIdeal.Stage.vn0 e = Cert.ReferenceIdeal.Stage.vn0 e)
    (hVnNext : ∀ (vn t : FVec Ideal S512x128 .f32), Cert.KernelIdeal.Stage.vnNext vn t = Cert.ReferenceIdeal.Stage.vnNext vn t)
    (hConv0 : ∀ (hp : FVec Ideal S50000x128 .f32) (W : FVec Ideal S3x128x128 .f32) (b gamma beta : FVec Ideal S3x128 .f32)
        (batch : IVec S50000 32) (vn : FVec Ideal S512x128 .f32), InRange batch →
      G.conv0 hp (Cert.KernelIdeal.Stage.sliceW0 W) (Cert.KernelIdeal.Stage.row0 b) (Cert.KernelIdeal.Stage.mean (Cert.KernelIdeal.Stage.lin0 hp W b))
        (Cert.KernelIdeal.Stage.var (Cert.KernelIdeal.Stage.lin0 hp W b) (Cert.KernelIdeal.Stage.mean (Cert.KernelIdeal.Stage.lin0 hp W b))) (Cert.KernelIdeal.Stage.row0 gamma) (Cert.KernelIdeal.Stage.row0 beta) (Cert.KernelIdeal.Stage.onehot batch) vn
        = Cert.ReferenceIdeal.Stage.addVn (Cert.ReferenceIdeal.Stage.convH0 hp W b gamma beta) vn batch)
    (hSum0 : ∀ (hp : FVec Ideal S50000x128 .f32) (W : FVec Ideal S3x128x128 .f32) (b gamma beta : FVec Ideal S3x128 .f32)
        (batch : IVec S50000 32) (vn : FVec Ideal S512x128 .f32), InRange batch →
      Cert.KernelIdeal.Stage.vtOf (G.sum0 hp (Cert.KernelIdeal.Stage.sliceW0 W) (Cert.KernelIdeal.Stage.row0 b) (Cert.KernelIdeal.Stage.mean (Cert.KernelIdeal.Stage.lin0 hp W b))
        (Cert.KernelIdeal.Stage.var (Cert.KernelIdeal.Stage.lin0 hp W b) (Cert.KernelIdeal.Stage.mean (Cert.KernelIdeal.Stage.lin0 hp W b))) (Cert.KernelIdeal.Stage.row0 gamma) (Cert.KernelIdeal.Stage.row0 beta) (Cert.KernelIdeal.Stage.onehot batch) vn) vn
        = Cert.ReferenceIdeal.Stage.vtOf (Cert.ReferenceIdeal.Stage.addVn (Cert.ReferenceIdeal.Stage.convH0 hp W b gamma beta) vn batch) vn batch)
    (hConv1 : ∀ (hp : FVec Ideal S50000x128 .f32) (W : FVec Ideal S3x128x128 .f32) (b gamma beta : FVec Ideal S3x128 .f32)
        (batch : IVec S50000 32) (vn : FVec Ideal S512x128 .f32), InRange batch →
      G.conv1 hp (Cert.KernelIdeal.Stage.sliceW1 W) (Cert.KernelIdeal.Stage.row1 b) (Cert.KernelIdeal.Stage.mean (Cert.KernelIdeal.Stage.lin1 hp W b))
        (Cert.KernelIdeal.Stage.var (Cert.KernelIdeal.Stage.lin1 hp W b) (Cert.KernelIdeal.Stage.mean (Cert.KernelIdeal.Stage.lin1 hp W b))) (Cert.KernelIdeal.Stage.row1 gamma) (Cert.KernelIdeal.Stage.row1 beta) (Cert.KernelIdeal.Stage.onehot batch) vn
        = Cert.ReferenceIdeal.Stage.addVn (Cert.ReferenceIdeal.Stage.convH1 hp W b gamma beta) vn batch)
    (hConvF : ∀ (hp : FVec Ideal S50000x128 .f32) (W : FVec Ideal S3x128x128 .f32) (b gamma beta : FVec Ideal S3x128 .f32),
      G.convF hp (Cert.KernelIdeal.Stage.sliceW2 W) (Cert.KernelIdeal.Stage.row2 b) (Cert.KernelIdeal.Stage.mean (Cert.KernelIdeal.Stage.lin2 hp W b))
        (Cert.KernelIdeal.Stage.var (Cert.KernelIdeal.Stage.lin2 hp W b) (Cert.KernelIdeal.Stage.mean (Cert.KernelIdeal.Stage.lin2 hp W b))) (Cert.KernelIdeal.Stage.row2 gamma) (Cert.KernelIdeal.Stage.row2 beta)
        = Cert.ReferenceIdeal.Stage.convF hp W b gamma beta)
    (hMlp : ∀ (vt : FVec Ideal S512x128 .f32) (W1 : FVec Ideal S2x128x256 .f32) (b1 g1 bt1 : FVec Ideal S2x256 .f32)
        (W2 : FVec Ideal S2x256x128 .f32) (b2 g2 bt2 : FVec Ideal S2x128 .f32),
      G.mlp vt (Cert.KernelIdeal.Stage.mlpA1 W1) (Cert.KernelIdeal.Stage.mlpRowA1 b1) (Cert.KernelIdeal.Stage.mlpRowA1 g1) (Cert.KernelIdeal.Stage.mlpRowA1 bt1)
          (Cert.KernelIdeal.Stage.mlpB1 W2) (Cert.KernelIdeal.Stage.mlpRowB1 b2) (Cert.KernelIdeal.Stage.mlpRowB1 g2) (Cert.KernelIdeal.Stage.mlpRowB1 bt2)
        = Cert.ReferenceIdeal.Stage.mlp1 vt W1 b1 g1 bt1 W2 b2 g2 bt2)
    (hStep1 : ∀ (ei : IVec S2x600000 32) (a h0 : FVec Ideal S50000x128 .f32),
      G.mix1 (Cert.KernelIdeal.Stage.prop ei a) h0 = Cert.ReferenceIdeal.Stage.appnp ei a h0)
    (hStep2 : ∀ (ei : IVec S2x600000 32) (a h0 : FVec Ideal S50000x128 .f32),
      G.mix2 (Cert.KernelIdeal.Stage.prop ei a) h0 = Cert.ReferenceIdeal.Stage.appnp ei a h0)
    (hStep3 : ∀ (ei : IVec S2x600000 32) (a h0 : FVec Ideal S50000x128 .f32),
      G.mix3 (Cert.KernelIdeal.Stage.prop ei a) h0 = Cert.ReferenceIdeal.Stage.appnp ei a h0)
    (hStep4 : ∀ (ei : IVec S2x600000 32) (a h0 : FVec Ideal S50000x128 .f32),
      G.mix4 (Cert.KernelIdeal.Stage.prop ei a) h0 = Cert.ReferenceIdeal.Stage.appnp ei a h0)
    (hStep5 : ∀ (ei : IVec S2x600000 32) (a h0 : FVec Ideal S50000x128 .f32),
      G.mix5 (Cert.KernelIdeal.Stage.prop ei a) h0 = Cert.ReferenceIdeal.Stage.appnp ei a h0)
    (hPool : ∀ (a : FVec Ideal S50000x128 .f32) (batch : IVec S50000 32), InRange batch →
      Cert.KernelIdeal.Stage.pooled (G.poolSum a (Cert.KernelIdeal.Stage.onehot batch)) batch = Cert.ReferenceIdeal.Stage.pool a batch)
    (hHead : ∀ (p : FVec Ideal S512x128 .f32) (Wout : FVec Ideal S128x128 .f32) (bout : FVec Ideal S128 .f32),
      G.head p Wout (Cert.KernelIdeal.Stage.boutRow bout) = Cert.ReferenceIdeal.Stage.head p Wout bout)
    (x : FVec Ideal S50000x128 .f32) (ei : IVec S2x600000 32) (batch : IVec S50000 32)
    (W : FVec Ideal S3x128x128 .f32) (b gamma beta : FVec Ideal S3x128 .f32) (vnEmb : FVec Ideal S128 .f32)
    (W1 : FVec Ideal S2x128x256 .f32) (b1 g1 bt1 : FVec Ideal S2x256 .f32)
    (W2 : FVec Ideal S2x256x128 .f32) (b2 g2 bt2 : FVec Ideal S2x128 .f32)
    (Wout : FVec Ideal S128x128 .f32) (bout : FVec Ideal S128 .f32)
    (hr : InRange batch) :
    Cert.KernelIdeal.Stage.kernelOutG G x ei batch W b gamma beta vnEmb W1 b1 g1 bt1 W2 b2 g2 bt2 Wout bout = Cert.ReferenceIdeal.Stage.refOutS x ei batch W b gamma beta vnEmb W1 b1 g1 bt1 W2 b2 g2 bt2 Wout bout := by
  -- the node rows after the first layer
  have e1 : Cert.KernelIdeal.Stage.kH1 G x ei batch W b gamma beta vnEmb = rH1 x ei batch W b gamma beta vnEmb := by
    unfold Cert.KernelIdeal.Stage.kH1 rH1
    rw [hProp, hVn0]
    exact hConv0 _ _ _ _ _ _ _ hr
  -- the per-graph sums plus the virtual node
  have eVt : Cert.KernelIdeal.Stage.vtOf (Cert.KernelIdeal.Stage.kS1 G x ei batch W b gamma beta vnEmb) (Cert.KernelIdeal.Stage.vn0 vnEmb)
      = Cert.ReferenceIdeal.Stage.vtOf (rH1 x ei batch W b gamma beta vnEmb) (Cert.ReferenceIdeal.Stage.vn0 vnEmb) batch := by
    unfold Cert.KernelIdeal.Stage.kS1 rH1
    rw [hProp, hVn0]
    exact hSum0 _ _ _ _ _ _ _ hr
  -- the virtual node after its update
  have e2 : Cert.KernelIdeal.Stage.kVn1 G x ei batch W b gamma beta vnEmb W1 b1 g1 bt1 W2 b2 g2 bt2 = rVn1 x ei batch W b gamma beta vnEmb W1 b1 g1 bt1 W2 b2 g2 bt2 := by
    unfold Cert.KernelIdeal.Stage.kVn1 rVn1
    rw [eVt, hMlp, hVn0, hVnNext]
  -- the node rows after the second layer
  have e3 : Cert.KernelIdeal.Stage.kH2 G x ei batch W b gamma beta vnEmb W1 b1 g1 bt1 W2 b2 g2 bt2 = rH2 x ei batch W b gamma beta vnEmb W1 b1 g1 bt1 W2 b2 g2 bt2 := by
    unfold Cert.KernelIdeal.Stage.kH2 rH2
    rw [e1, e2, hProp]
    exact hConv1 _ _ _ _ _ _ _ hr
  -- the node rows after the last layer
  have e4 : Cert.KernelIdeal.Stage.kH3 G x ei batch W b gamma beta vnEmb W1 b1 g1 bt1 W2 b2 g2 bt2 = rH3 x ei batch W b gamma beta vnEmb W1 b1 g1 bt1 W2 b2 g2 bt2 := by
    unfold Cert.KernelIdeal.Stage.kH3 rH3
    rw [e3, hProp]
    exact hConvF _ _ _ _ _
  -- the five propagation steps
  have e5 : ∀ h3 : FVec Ideal S50000x128 .f32, Cert.KernelIdeal.Stage.kSteps G ei h3 = rSteps ei h3 := by
    intro h3
    unfold Cert.KernelIdeal.Stage.kSteps rSteps
    rw [hStep1, hStep2, hStep3, hStep4, hStep5]
  -- pooling and the output layer
  rw [refOutS_eq]
  unfold Cert.KernelIdeal.Stage.kernelOutG
  rw [e4, e5, hPool _ _ hr, hHead]

end Cert.Bridge
-- ==== Proof.Val.BridgeRfl.lean ====
/-
  The stages the two programs share word for word: the edge lists with their self loops, the edge weights, the
  virtual node's first value, one propagation, and the virtual node's update are built from the same operations
  on the same shapes in both programs, so each pair of stage functions is one function. The shapes and the
  dimension records of the two programs are the same literals; the proofs only unfold the two definitions.
-/
import proofs.«402460_j82824149336546_1_alg».proof.Proof.Val.KStages
import proofs.«402460_j82824149336546_1_alg».proof.Proof.Val.RStages

set_option maxRecDepth 16384

noncomputable section

namespace Cert.Bridge

open Idealize.ShloMosaic
open Cert.KernelIdeal (S50000x128 S2x600000 S650000 S128 S512x128)

variable [Cert.KernelIdeal.Facts] [Cert.ReferenceIdeal.Facts]

/-- The source end of every edge and self loop. -/
theorem src_eq (ei : IVec S2x600000 32) : Cert.KernelIdeal.Stage.src ei = Cert.ReferenceIdeal.Stage.src ei := rfl

/-- The target end of every edge and self loop. -/
theorem dst_eq (ei : IVec S2x600000 32) : Cert.KernelIdeal.Stage.dst ei = Cert.ReferenceIdeal.Stage.dst ei := rfl

/-- The weight of every edge from the two end lists. -/
theorem nrmOf_eq (s d : IVec S650000 32) : Cert.KernelIdeal.Stage.nrmOf s d = Cert.ReferenceIdeal.Stage.nrmOf s d := rfl

/-- The weight of every edge. -/
theorem nrm_eq (ei : IVec S2x600000 32) : Cert.KernelIdeal.Stage.nrm ei = Cert.ReferenceIdeal.Stage.nrm ei := by
  show Cert.KernelIdeal.Stage.nrmOf (Cert.KernelIdeal.Stage.src ei) (Cert.KernelIdeal.Stage.dst ei) = Cert.ReferenceIdeal.Stage.nrmOf (Cert.ReferenceIdeal.Stage.src ei) (Cert.ReferenceIdeal.Stage.dst ei)
  rw [src_eq, dst_eq, nrmOf_eq]

/-- The virtual node's first value. -/
theorem vn0_eq (e : FVec Ideal S128 .f32) : Cert.KernelIdeal.Stage.vn0 e = Cert.ReferenceIdeal.Stage.vn0 e := rfl

/-- One propagation from the end lists and the weights. -/
theorem propOf_eq (s d : IVec S650000 32) (w : FVec Ideal S650000 .f32) (h : FVec Ideal S50000x128 .f32) :
    Cert.KernelIdeal.Stage.propOf s d w h = Cert.ReferenceIdeal.Stage.propOf s d w h := rfl

/-- One propagation over the edge list. -/
theorem prop_eq (ei : IVec S2x600000 32) (h : FVec Ideal S50000x128 .f32) : Cert.KernelIdeal.Stage.prop ei h = Cert.ReferenceIdeal.Stage.prop ei h := by
  show Cert.KernelIdeal.Stage.propOf (Cert.KernelIdeal.Stage.src ei) (Cert.KernelIdeal.Stage.dst ei) (Cert.KernelIdeal.Stage.nrm ei) h = Cert.ReferenceIdeal.Stage.propOf (Cert.ReferenceIdeal.Stage.src ei) (Cert.ReferenceIdeal.Stage.dst ei) (Cert.ReferenceIdeal.Stage.nrm ei) h
  rw [src_eq, dst_eq, nrm_eq, propOf_eq]

/-- The virtual node's update. -/
theorem vnNext_eq (vn t : FVec Ideal S512x128 .f32) : Cert.KernelIdeal.Stage.vnNext vn t = Cert.ReferenceIdeal.Stage.vnNext vn t := rfl

end Cert.Bridge
-- ==== Proof.Val.DenseLib.lean ====
/-
  Dense layers with batch normalisation, read at an index.

  The host operations a dense layer with batch normalisation is written with, each read at an index given by
  coordinates over literal extents: a row broadcast to one row and then over many rows, a scalar broadcast, the sum
  down the rows, a slice of a stack of matrices or rows followed by the cast that drops the unit axis, and the plain
  product of two matrices. Then the pure functions of a column the normalisation is made of (mean, variance, the
  normalised value), as functions of the column itself.
-/
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.Bridge

open Idealize.ShloMosaic Idealize.ShloMosaic.ValueIdx
open scoped BigOperators

/-! ## Broadcasts -/

section Layout
variable {α : Type}

/-- A vector made the one row of a one-row matrix. -/
theorem bcastRow_apply {n : Nat}
    (h : (⟨1, ![n]⟩ : Shape).BroadcastsInDim ⟨2, ![1, n]⟩ (![1] : Fin 1 → Fin 2))
    (v : (⟨1, ![n]⟩ : Shape).Idx → α) (u : Fin 1) (c : Fin n) :
    broadcastInDim ⟨2, ![1, n]⟩ (![1] : Fin 1 → Fin 2) h v (ix2 u c) = v (ix1 c) := by
  refine broadcastInDim_apply _ h v _ (ix1 c) fun a => ?_
  match a with
  | ⟨0, _⟩ =>
    show c.val = if n = 1 then 0 else c.val
    split
    · have := c.isLt; omega
    · rfl

/-- A one-row matrix repeated over many rows. -/
theorem bcastRows_apply {m n : Nat}
    (h : (⟨2, ![1, n]⟩ : Shape).BroadcastsInDim ⟨2, ![m, n]⟩ (![0, 1] : Fin 2 → Fin 2))
    (v : (⟨2, ![1, n]⟩ : Shape).Idx → α) (r : Fin m) (c : Fin n) :
    broadcastInDim ⟨2, ![m, n]⟩ (![0, 1] : Fin 2 → Fin 2) h v (ix2 r c) = v (ix2 (0 : Fin 1) c) := by
  refine broadcastInDim_apply _ h v _ (ix2 (0 : Fin 1) c) fun a => ?_
  match a with
  | ⟨0, _⟩ => rfl
  | ⟨1, _⟩ =>
    show c.val = if n = 1 then 0 else c.val
    split
    · have := c.isLt; omega
    · rfl

/-- A scalar repeated everywhere. -/
theorem bcastScalar_apply {t : Shape} (dims : Fin (⟨0, ![]⟩ : Shape).rank → Fin t.rank)
    (h : (⟨0, ![]⟩ : Shape).BroadcastsInDim t dims)
    (v : (⟨0, ![]⟩ : Shape).Idx → α) (j : t.Idx) :
    broadcastInDim t dims h v j = v ix0 :=
  broadcastInDim_apply _ h v _ ix0 fun a => a.elim0

/-- The first (and only) index of the scalar shape. -/
theorem first_scalar (hu : 0 < (⟨0, ![]⟩ : Shape).numel) : Shape.Idx.first hu = ix0 := funext fun a => a.elim0

/-! ## A member of a stack, by a slice and a cast -/

/-- Matrix \`o\` of a stack of \`g\` matrices. -/
theorem sliceMat_apply {g a b : Nat} (o : Nat) (ho : o < g) (X : (⟨3, ![g, a, b]⟩ : Shape).Idx → α)
    (hs : (⟨3, ![g, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j)
      = X (ix3 (⟨o, ho⟩ : Fin g) i j) := by
  rw [shapeCast_1ab_ab_apply]
  refine extractStridedSlice_apply _ X hs _ _ fun ax => ?_
  match ax with
  | ⟨0, _⟩ => rfl
  | ⟨1, _⟩ => exact (Nat.zero_add _).symm
  | ⟨2, _⟩ => exact (Nat.zero_add _).symm

/-- Row \`o\` of a stack of \`g\` rows. -/
theorem sliceRow_apply {g a : Nat} (o : Nat) (ho : o < g) (X : (⟨2, ![g, a]⟩ : Shape).Idx → α)
    (hs : (⟨2, ![g, a]⟩ : Shape).Slices ![o, 0] ⟨2, ![1, a]⟩)
    (hc : (⟨2, ![1, a]⟩ : Shape).ShapeCasts ⟨1, ![a]⟩) (i : Fin a) :
    shapeCast ⟨1, ![a]⟩ (extractStridedSlice ⟨2, ![1, a]⟩ ![o, 0] X hs) hc (ix1 i)
      = X (ix2 (⟨o, ho⟩ : Fin g) i) := by
  rw [shapeCast_1a_a_apply]
  refine extractStridedSlice_apply _ X hs _ _ fun ax => ?_
  match ax with
  | ⟨0, _⟩ => rfl
  | ⟨1, _⟩ => exact (Nat.zero_add _).symm

end Layout

/-! ## The sum down the rows, the product of two matrices -/

/-- The host's sum over the leading axis of a matrix, at a column: the initial value plus the column's sum. -/
theorem reduceRows_apply {m n : Nat} {φ : FTy}
    (h' : (⟨2, ![m, n]⟩ : Shape).ReducesTo ([0] : List (Fin 2)) ⟨1, ![n]⟩) (hu : 0 < (⟨0, ![]⟩ : Shape).numel)
    (x : FVec Ideal ⟨2, ![m, n]⟩ φ) (init : (⟨0, ![]⟩ : Shape).Idx → Ideal φ) (c : Fin n) :
    Host.reduceAdd x init h' hu (ix1 c) = init ix0 + ∑ r : Fin m, x (ix2 r c) := by
  have h : (⟨2, ![m, n]⟩ : Shape).Reduces ([0] : List (Fin 2)) ⟨1, ![n]⟩ := ⟨h'.1, Nat.one_pos, h'.2⟩
  show Ideal.hostReduceAdd h' x (init (Shape.Idx.first hu)) (ix1 c) = _
  rw [Ideal.hostReduceAdd_single h' h, first_scalar]
  refine congrArg (init ix0 + ·) (Finset.sum_congr rfl fun r _ => congrArg x ?_)
  funext a
  match a with
  | ⟨0, _⟩ => rfl
  | ⟨1, _⟩ => rfl

/-- The plain product of two matrices at an index: the row against the column. -/
theorem dot_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The host's quotient and reciprocal square root, entry by entry. -/
theorem hostDivf_apply {s : Shape} {φ : FTy} (x y : FVec Ideal s φ) (i : s.Idx) : Host.divf x y i = Ideal.div (x i) (y i) := rfl
theorem hostRsqrt_apply {s : Shape} {φ : FTy} (x : FVec Ideal s φ) (i : s.Idx) : Host.rsqrt x i = Ideal.rsqrt (x i) := rfl

/-! ## The normalisation of a column -/

/-- The mean of a column over its \`R\` entries, \`N\` the count as the program writes it. -/
def colMean {R : Nat} (N : EReal) (h : Fin R → EReal) : EReal := Ideal.div (∑ r : Fin R, h r) N
/-- The mean of the squared deviations from \`mu\`. -/
def colVar {R : Nat} (N : EReal) (h : Fin R → EReal) (mu : EReal) : EReal :=
  Ideal.div (∑ r : Fin R, (h r - mu) * (h r - mu)) N
/-- The constant added to the variance under the square root. -/
def bnEps : EReal := Ideal.ofBits .f32 0x3727C5AC#32
/-- An entry \`x\` of a column \`h\`, normalised by the column's own mean and variance, scaled and shifted. -/
def colNorm {R : Nat} (N : EReal) (h : Fin R → EReal) (g bt x : EReal) : EReal :=
  g * (x - colMean N h) * Ideal.rsqrt (colVar N h (colMean N h) + bnEps) + bt

end Cert.Bridge

end
-- ==== Proof.Val.ConvRead.lean ====
/-
  The convolution layer's dense part, read at an index, on both sides.

  The reference's affine map and batch normalisation over the 50000 rows, and the kernel program's host-side affine
  map, column means and column variances, each at an index given by coordinates; the members of the stacked
  parameters; and the two affine maps as one array.
-/
import proofs.«402460_j82824149336546_1_alg».proof.Proof.Val.KStages
import proofs.«402460_j82824149336546_1_alg».proof.Proof.Val.RStages
import proofs.«402460_j82824149336546_1_alg».proof.Proof.Val.DenseLib

set_option maxRecDepth 16384

noncomputable section

namespace Cert.Bridge

open Idealize.ShloMosaic Idealize.ShloMosaic.ValueIdx
open scoped BigOperators

variable [Cert.KernelIdeal.Facts] [Cert.ReferenceIdeal.Facts]

/-- The row count 50000 as both programs write it. -/
def n50k : EReal := Ideal.ofBits .f32 0x47435000#32

/-! ## Members of the stacked parameters -/

section Members
variable (W : FVec Ideal ⟨3, ![3, 128, 128]⟩ .f32) (v : FVec Ideal ⟨2, ![3, 128]⟩ .f32)

theorem R_wAt0_apply (k q : Fin 128) : Cert.ReferenceIdeal.Stage.wAt0 W (ix2 k q) = W (ix3 (0 : Fin 3) k q) := by
  unfold Cert.ReferenceIdeal.Stage.wAt0
  exact sliceMat_apply 0 (by omega) W _ _ k q
theorem R_wAt1_apply (k q : Fin 128) : Cert.ReferenceIdeal.Stage.wAt1 W (ix2 k q) = W (ix3 (1 : Fin 3) k q) := by
  unfold Cert.ReferenceIdeal.Stage.wAt1
  exact sliceMat_apply 1 (by omega) W _ _ k q
theorem R_wAt2_apply (k q : Fin 128) : Cert.ReferenceIdeal.Stage.wAt2 W (ix2 k q) = W (ix3 (2 : Fin 3) k q) := by
  unfold Cert.ReferenceIdeal.Stage.wAt2
  exact sliceMat_apply 2 (by omega) W _ _ k q

theorem R_rowAt0_apply (q : Fin 128) : Cert.ReferenceIdeal.Stage.rowAt0 v (ix1 q) = v (ix2 (0 : Fin 3) q) := by
  unfold Cert.ReferenceIdeal.Stage.rowAt0
  exact sliceRow_apply 0 (by omega) v _ _ q
theorem R_rowAt1_apply (q : Fin 128) : Cert.ReferenceIdeal.Stage.rowAt1 v (ix1 q) = v (ix2 (1 : Fin 3) q) := by
  unfold Cert.ReferenceIdeal.Stage.rowAt1
  exact sliceRow_apply 1 (by omega) v _ _ q
theorem R_rowAt2_apply (q : Fin 128) : Cert.ReferenceIdeal.Stage.rowAt2 v (ix1 q) = v (ix2 (2 : Fin 3) q) := by
  unfold Cert.ReferenceIdeal.Stage.rowAt2
  exact sliceRow_apply 2 (by omega) v _ _ q

theorem K_sliceW0_apply (k q : Fin 128) : Cert.KernelIdeal.Stage.sliceW0 W (ix2 k q) = W (ix3 (0 : Fin 3) k q) := by
  unfold Cert.KernelIdeal.Stage.sliceW0 Cert.KernelIdeal.StageF.sliceW0
  exact sliceMat_apply 0 (by omega) W _ _ k q
theorem K_sliceW1_apply (k q : Fin 128) : Cert.KernelIdeal.Stage.sliceW1 W (ix2 k q) = W (ix3 (1 : Fin 3) k q) := by
  unfold Cert.KernelIdeal.Stage.sliceW1 Cert.KernelIdeal.StageF.sliceW1
  exact sliceMat_apply 1 (by omega) W _ _ k q
theorem K_sliceW2_apply (k q : Fin 128) : Cert.KernelIdeal.Stage.sliceW2 W (ix2 k q) = W (ix3 (2 : Fin 3) k q) := by
  unfold Cert.KernelIdeal.Stage.sliceW2 Cert.KernelIdeal.StageF.sliceW2
  exact sliceMat_apply 2 (by omega) W _ _ k q

theorem K_row0_apply (u : Fin 1) (q : Fin 128) : Cert.KernelIdeal.Stage.row0 v (ix2 u q) = v (ix2 (0 : Fin 3) q) := by
  unfold Cert.KernelIdeal.Stage.row0 Cert.KernelIdeal.StageF.row0
  exact (bcastRow_apply _ _ u q).trans (sliceRow_apply 0 (by omega) v _ _ q)
theorem K_row1_apply (u : Fin 1) (q : Fin 128) : Cert.KernelIdeal.Stage.row1 v (ix2 u q) = v (ix2 (1 : Fin 3) q) := by
  unfold Cert.KernelIdeal.Stage.row1 Cert.KernelIdeal.StageF.row1
  exact (bcastRow_apply _ _ u q).trans (sliceRow_apply 1 (by omega) v _ _ q)
theorem K_row2_apply (u : Fin 1) (q : Fin 128) : Cert.KernelIdeal.Stage.row2 v (ix2 u q) = v (ix2 (2 : Fin 3) q) := by
  unfold Cert.KernelIdeal.Stage.row2 Cert.KernelIdeal.StageF.row2
  exact (bcastRow_apply _ _ u q).trans (sliceRow_apply 2 (by omega) v _ _ q)

end Members

/-! ## The affine map -/

section Affine
variable (hp : FVec Ideal ⟨2, ![50000, 128]⟩ .f32)

/-- The reference's affine map at an index: the row against the column, plus the bias. -/
theorem R_lin50k_apply (w : FVec Ideal ⟨2, ![128, 128]⟩ .f32) (b : FVec Ideal ⟨1, ![128]⟩ .f32) (p : Fin 50000) (q : Fin 128) :
    Cert.ReferenceIdeal.Stage.lin50k hp w b (ix2 p q) = (∑ k : Fin 128, hp (ix2 p k) * w (ix2 k q)) + b (ix1 q) := by
  unfold Cert.ReferenceIdeal.Stage.lin50k
  refine congrArg₂ (· + ·) (dot_apply _ rfl none hp w p q) ?_
  exact (bcastRows_apply _ _ p q).trans (bcastRow_apply _ _ 0 q)

variable (W : FVec Ideal ⟨3, ![3, 128, 128]⟩ .f32) (b : FVec Ideal ⟨2, ![3, 128]⟩ .f32)

/-- The kernel program's affine maps at an index (the narrowing of the operands is the identity at the ideal values). -/
theorem K_lin0_apply (p : Fin 50000) (q : Fin 128) :
    Cert.KernelIdeal.Stage.lin0 hp W b (ix2 p q) = (∑ k : Fin 128, hp (ix2 p k) * W (ix3 (0 : Fin 3) k q)) + b (ix2 (0 : Fin 3) q) := by
  unfold Cert.KernelIdeal.Stage.lin0 Cert.KernelIdeal.StageF.lin0
  refine congrArg₂ (· + ·) ((dot_apply _ rfl none _ _ p q).trans (Finset.sum_congr rfl fun k _ => ?_)) ?_
  · exact congrArg (hp (ix2 p k) * ·) (K_sliceW0_apply W k q)
  · exact (bcastRows_apply _ _ p q).trans ((bcastRow_apply _ _ 0 q).trans (sliceRow_apply 0 (by omega) b _ _ q))
theorem K_lin1_apply (p : Fin 50000) (q : Fin 128) :
    Cert.KernelIdeal.Stage.lin1 hp W b (ix2 p q) = (∑ k : Fin 128, hp (ix2 p k) * W (ix3 (1 : Fin 3) k q)) + b (ix2 (1 : Fin 3) q) := by
  unfold Cert.KernelIdeal.Stage.lin1 Cert.KernelIdeal.StageF.lin1
  refine congrArg₂ (· + ·) ((dot_apply _ rfl none _ _ p q).trans (Finset.sum_congr rfl fun k _ => ?_)) ?_
  · exact congrArg (hp (ix2 p k) * ·) (K_sliceW1_apply W k q)
  · exact (bcastRows_apply _ _ p q).trans ((bcastRow_apply _ _ 0 q).trans (sliceRow_apply 1 (by omega) b _ _ q))
theorem K_lin2_apply (p : Fin 50000) (q : Fin 128) :
    Cert.KernelIdeal.Stage.lin2 hp W b (ix2 p q) = (∑ k : Fin 128, hp (ix2 p k) * W (ix3 (2 : Fin 3) k q)) + b (ix2 (2 : Fin 3) q) := by
  unfold Cert.KernelIdeal.Stage.lin2 Cert.KernelIdeal.StageF.lin2
  refine congrArg₂ (· + ·) ((dot_apply _ rfl none _ _ p q).trans (Finset.sum_congr rfl fun k _ => ?_)) ?_
  · exact congrArg (hp (ix2 p k) * ·) (K_sliceW2_apply W k q)
  · exact (bcastRows_apply _ _ p q).trans ((bcastRow_apply _ _ 0 q).trans (sliceRow_apply 2 (by omega) b _ _ q))

/-- The two sides' affine maps are one array. -/
theorem lin0_eq : Cert.KernelIdeal.Stage.lin0 hp W b
    = Cert.ReferenceIdeal.Stage.lin50k hp (Cert.ReferenceIdeal.Stage.wAt0 W) (Cert.ReferenceIdeal.Stage.rowAt0 b) := by
  funext i
  obtain ⟨p, q, rfl⟩ : ∃ (p : Fin 50000) (q : Fin 128), i = ix2 p q := ⟨i 0, i 1, eq_ix2 i⟩
  rw [K_lin0_apply, R_lin50k_apply, R_rowAt0_apply]
  exact congrArg (· + b (ix2 (0 : Fin 3) q)) (Finset.sum_congr rfl fun k _ => by rw [R_wAt0_apply])
theorem lin1_eq : Cert.KernelIdeal.Stage.lin1 hp W b
    = Cert.ReferenceIdeal.Stage.lin50k hp (Cert.ReferenceIdeal.Stage.wAt1 W) (Cert.ReferenceIdeal.Stage.rowAt1 b) := by
  funext i
  obtain ⟨p, q, rfl⟩ : ∃ (p : Fin 50000) (q : Fin 128), i = ix2 p q := ⟨i 0, i 1, eq_ix2 i⟩
  rw [K_lin1_apply, R_lin50k_apply, R_rowAt1_apply]
  exact congrArg (· + b (ix2 (1 : Fin 3) q)) (Finset.sum_congr rfl fun k _ => by rw [R_wAt1_apply])
theorem lin2_eq : Cert.KernelIdeal.Stage.lin2 hp W b
    = Cert.ReferenceIdeal.Stage.lin50k hp (Cert.ReferenceIdeal.Stage.wAt2 W) (Cert.ReferenceIdeal.Stage.rowAt2 b) := by
  funext i
  obtain ⟨p, q, rfl⟩ : ∃ (p : Fin 50000) (q : Fin 128), i = ix2 p q := ⟨i 0, i 1, eq_ix2 i⟩
  rw [K_lin2_apply, R_lin50k_apply, R_rowAt2_apply]
  exact congrArg (· + b (ix2 (2 : Fin 3) q)) (Finset.sum_congr rfl fun k _ => by rw [R_wAt2_apply])

end Affine

/-! ## The column statistics and the normalisation -/

section Norm
variable (h : FVec Ideal ⟨2, ![50000, 128]⟩ .f32)

/-- The kernel program's column means, as one row. -/
theorem K_mean_apply (u : Fin 1) (q : Fin 128) :
    Cert.KernelIdeal.Stage.mean h (ix2 u q) = colMean n50k (fun r => h (ix2 r q)) := by
  unfold Cert.KernelIdeal.Stage.mean Cert.KernelIdeal.StageF.mean
  beta_reduce
  rw [hostDivf_apply, bcastRow_apply, reduceRows_apply, bcastScalar_apply, constant_apply, constant_apply,
    Ideal.ofBits_zero_f32, zero_add]
  rfl

/-- The kernel program's column variances about a given row of means, as one row. -/
theorem K_var_apply (mu : FVec Ideal ⟨2, ![1, 128]⟩ .f32) (u : Fin 1) (q : Fin 128) :
    Cert.KernelIdeal.Stage.var h mu (ix2 u q) = colVar n50k (fun r => h (ix2 r q)) (mu (ix2 (0 : Fin 1) q)) := by
  unfold Cert.KernelIdeal.Stage.var Cert.KernelIdeal.StageF.var
  beta_reduce
  rw [hostDivf_apply, bcastRow_apply, reduceRows_apply, bcastScalar_apply, constant_apply, constant_apply,
    Ideal.ofBits_zero_f32, zero_add]
  have hf : (fun r : Fin 50000 => (mulf (subf h (broadcastInDim Cert.KernelIdeal.S50000x128 ![0, 1] Cert.KernelIdeal.Facts₀.bcast_S1x128_S50000x128_0_1 mu)) (subf h (broadcastInDim Cert.KernelIdeal.S50000x128 ![0, 1] Cert.KernelIdeal.Facts₀.bcast_S1x128_S50000x128_0_1 mu))) (ix2 r q))
      = fun r => (h (ix2 r q) - mu (ix2 (0 : Fin 1) q)) * (h (ix2 r q) - mu (ix2 (0 : Fin 1) q)) :=
    funext fun r => by rw [mulf_apply, subf_apply, bcastRows_apply]
  rw [hf]
  rfl

/-- The reference's batch normalisation at an index: the entry normalised by its column's own statistics. -/
theorem R_bn50k_apply (g bt : FVec Ideal ⟨1, ![128]⟩ .f32) (p : Fin 50000) (q : Fin 128) :
    Cert.ReferenceIdeal.Stage.bn50k h g bt (ix2 p q)
      = colNorm n50k (fun r => h (ix2 r q)) (g (ix1 q)) (bt (ix1 q)) (h (ix2 p q)) := by
  unfold Cert.ReferenceIdeal.Stage.bn50k
  simp only [addf_apply, mulf_apply, subf_apply, hostDivf_apply, hostRsqrt_apply, bcastRows_apply, bcastRow_apply,
    bcastScalar_apply, reduceRows_apply, constant_apply, Ideal.ofBits_zero_f32, zero_add]
  rfl

end Norm

end Cert.Bridge

end
-- ==== Proof.LibOneHot.lean ====
/-
  ONE-HOT ALGEBRA AT THE EXTENDED REALS. A row gather `v[idx]` and a segment sum over 512 segments can both be
  written as products with the indicator matrix `onehot (n, g) = [idx n = g]`. This file states, over the literal
  extents 50000 rows, 512 segments and 128 columns:

  * the indicator as a program spells it (two broadcasts, an iota, an equality test, the conversion of the one-bit
    result to a float) read at one element: it is 1 where the row's index word is the segment's number, else 0;
  * the product of a row of the indicator with a table is the table's row the index names (a gather);
  * the product of a column of the indicator with an array of rows is the sum of the rows whose index is that
    segment, and that is what an accumulating scatter of those rows into zeros holds;
  * a sum over 50000 rows is the sum over 25 tiles of the sums over each tile's 2000 rows, and a running
    accumulator that starts at zero and adds one tile's sum per step ends at it;
  * the gather whose start indices are wrapped (a negative index moved up by 512) reads the table at the index
    itself when that index is in range.

  Nothing here is finite-valued: only `0 * x = 0`, `1 * x = x` and the commutative monoid laws of addition.
-/
import Idealize.ShloMosaic.PureOps.Ideal
import Idealize.ShloMosaic.PureOps.Ideal.Laws
import Idealize.ShloMosaic.Lib.ValueIdx
import Idealize.ShloMosaic.Lib.StableHlo.Predicate

set_option maxRecDepth 16384

noncomputable section

open scoped BigOperators

namespace Idealize.ShloMosaic.OneHot

open Idealize.ShloMosaic Idealize.ShloMosaic.ValueIdx Idealize.ShloMosaic.StableHlo.Predicate

/-! ## Words: an index word in `[0, 512)` read signed is its unsigned value -/

/-- A 32-bit word whose signed value lies in `[0, 512)` has that same unsigned value, below 512. -/
theorem word_range {b : BitVec 32} (h : 0 ≤ b.toInt ∧ b.toInt < 512) : b.toNat < 512 ∧ b.toInt = (b.toNat : ℤ) := by
  have hlt := b.isLt
  by_cases hc : 2 * b.toNat < 2 ^ 32
  · have e : b.toInt = (b.toNat : ℤ) := by rw [BitVec.toInt_eq_toNat_cond, if_pos hc]
    rw [e] at h
    exact ⟨by omega, e⟩
  · have e : b.toInt = (b.toNat : ℤ) - (2 ^ 32 : ℕ) := by rw [BitVec.toInt_eq_toNat_cond, if_neg hc]
    rw [e] at h
    omega

/-- A 32-bit word is the word of a natural number below `2 ^ 32` exactly when that number is its unsigned value. -/
theorem eq_ofNat_iff (b : BitVec 32) (g : ℕ) (hg : g < 2 ^ 32) : b = BitVec.ofNat 32 g ↔ b.toNat = g := by
  constructor
  · rintro rfl
    rw [BitVec.toNat_ofNat, Nat.mod_eq_of_lt hg]
  · intro h
    apply BitVec.eq_of_toNat_eq
    rw [BitVec.toNat_ofNat, Nat.mod_eq_of_lt hg, h]

/-- The segment an in-range index word names: its unsigned value, as a position among the 512 segments. -/
def segOf {N : ℕ} (idx : Fin N → BitVec 32) (hr : ∀ n, 0 ≤ (idx n).toInt ∧ (idx n).toInt < 512) (n : Fin N) : Fin 512 :=
  ⟨(idx n).toNat, (word_range (hr n)).1⟩

/-- An in-range index word is the word of its segment's number. -/
theorem idx_eq_ofNat_segOf {N : ℕ} (idx : Fin N → BitVec 32) (hr : ∀ n, 0 ≤ (idx n).toInt ∧ (idx n).toInt < 512)
    (n : Fin N) : idx n = BitVec.ofNat 32 (segOf idx hr n).val :=
  (eq_ofNat_iff _ _ (lt_trans (segOf idx hr n).isLt (by norm_num))).mpr rfl

/-- An in-range index word equals the word of segment `g`'s number exactly when `g` is its segment. -/
theorem idx_eq_ofNat_iff {N : ℕ} (idx : Fin N → BitVec 32) (hr : ∀ n, 0 ≤ (idx n).toInt ∧ (idx n).toInt < 512)
    (n : Fin N) (g : Fin 512) : idx n = BitVec.ofNat 32 g.val ↔ g = segOf idx hr n := by
  rw [eq_ofNat_iff _ _ (lt_trans g.isLt (by norm_num))]
  constructor
  · intro h; exact Fin.ext h.symm
  · intro h; rw [h]; rfl

/-- The signed value of an in-range index word is its segment's number. -/
theorem toInt_eq_segOf {N : ℕ} (idx : Fin N → BitVec 32) (hr : ∀ n, 0 ≤ (idx n).toInt ∧ (idx n).toInt < 512)
    (n : Fin N) : (idx n).toInt = ((segOf idx hr n).val : ℤ) := (word_range (hr n)).2

/-! ## The indicator as a program spells it, read at one element -/

/-- The two spellings of a rank-2 index from its coordinates agree. -/
theorem ij_eq_ix2 {n m : ℕ} (p : Fin n) (q : Fin m) : ij p q = ix2 p q := by
  funext a; match a with | ⟨0, _⟩ => rfl | ⟨1, _⟩ => rfl

/-- The two spellings of a rank-1 index from its coordinate agree. -/
theorem ofFin_eq_ix1 {n : ℕ} (p : Fin n) : Shape.Idx.ofFin p = ix1 p := by
  funext a; match a with | ⟨0, _⟩ => rfl

/-- The conversion of a one-bit word to a float at the extended reals: 1 for the set bit, 0 for the clear one. -/
theorem uitofp_bit (φ : FTy) (b : BitVec 1) : (FloatOps.uitofp (F := Ideal) φ b : EReal) = if b = 1#1 then 1 else 0 := by
  rcases (by decide : ∀ b : BitVec 1, b = 0#1 ∨ b = 1#1) b with rfl | rfl
  · show (((0#1 : BitVec 1).toNat : ℝ) : EReal) = _
    simp
  · show (((1#1 : BitVec 1).toNat : ℝ) : EReal) = _
    simp

/-- THE INDICATOR MATRIX as a program spells `convert (idx[:, None] == iota[None, :])`: the index vector laid along
    the rows of a 50000 × 512 rectangle, the segment numbers `0 … 511` laid along its columns, their equality test, and
    the one-bit result converted to a float. -/
def onehot (φ : FTy)
    (h₁ : (⟨1, ![50000]⟩ : Shape).BroadcastsInDim ⟨2, ![50000, 1]⟩ ![0])
    (h₂ : (⟨2, ![50000, 1]⟩ : Shape).BroadcastsInDim ⟨2, ![50000, 512]⟩ ![0, 1])
    (h₃ : (⟨1, ![512]⟩ : Shape).BroadcastsInDim ⟨2, ![1, 512]⟩ ![1])
    (h₄ : (⟨2, ![1, 512]⟩ : Shape).BroadcastsInDim ⟨2, ![50000, 512]⟩ ![0, 1])
    (batch : IVec ⟨1, ![50000]⟩ 32) : FVec Ideal ⟨2, ![50000, 512]⟩ φ :=
  uitofp φ (cmpi .eq
    (broadcastInDim ⟨2, ![50000, 512]⟩ ![0, 1] h₂ (broadcastInDim ⟨2, ![50000, 1]⟩ ![0] h₁ batch))
    (broadcastInDim ⟨2, ![50000, 512]⟩ ![0, 1] h₄ (broadcastInDim ⟨2, ![1, 512]⟩ ![1] h₃ (iotaInDim ⟨1, ![512]⟩ 32 0))))

/-- The indicator at row `n`, segment `g`: 1 where row `n`'s index word is the word of `g`, else 0. -/
theorem onehot_apply (φ : FTy)
    (h₁ : (⟨1, ![50000]⟩ : Shape).BroadcastsInDim ⟨2, ![50000, 1]⟩ ![0])
    (h₂ : (⟨2, ![50000, 1]⟩ : Shape).BroadcastsInDim ⟨2, ![50000, 512]⟩ ![0, 1])
    (h₃ : (⟨1, ![512]⟩ : Shape).BroadcastsInDim ⟨2, ![1, 512]⟩ ![1])
    (h₄ : (⟨2, ![1, 512]⟩ : Shape).BroadcastsInDim ⟨2, ![50000, 512]⟩ ![0, 1])
    (batch : IVec ⟨1, ![50000]⟩ 32) (n : Fin 50000) (g : Fin 512) :
    onehot φ h₁ h₂ h₃ h₄ batch (ix2 n g) = if batch (ix1 n) = BitVec.ofNat 32 g.val then 1 else 0 := by
  show (FloatOps.uitofp (F := Ideal) φ (IntOp.cmpi .eq
    (broadcastInDim ⟨2, ![50000, 512]⟩ ![0, 1] h₂ (broadcastInDim ⟨2, ![50000, 1]⟩ ![0] h₁ batch) (ix2 n g))
    (broadcastInDim ⟨2, ![50000, 512]⟩ ![0, 1] h₄ (broadcastInDim ⟨2, ![1, 512]⟩ ![1] h₃ (iotaInDim ⟨1, ![512]⟩ 32 0))
      (ix2 n g))) : EReal) = _
  rw [← ij_eq_ix2, bcast_rows h₁ h₂ batch n g, bcast_cols h₃ h₄ _ n g, iota_apply, uitofp_bit, ofFin_eq_ix1]
  by_cases h : batch (ix1 n) = BitVec.ofNat 32 g.val
  · rw [if_pos h, if_pos (cmpi_eq_iff.mpr h)]
  · rw [if_neg h, if_neg (fun h' => h (cmpi_eq_iff.mp h'))]

/-! ## The two products with the indicator -/

/-- A ROW of the indicator against a table: `∑ g, [g = s] * v g = v s`. Only `0 * x = 0` and `1 * x = x` are used, so
    the table's entries may be infinite. -/
theorem sum_indicator_mul {G : ℕ} (s : Fin G) (v : Fin G → EReal) :
    ∑ g : Fin G, (if g = s then (1 : EReal) else 0) * v g = v s := by
  rw [Finset.sum_eq_single s]
  · rw [if_pos rfl, one_mul]
  · intro g _ hg; rw [if_neg hg, zero_mul]
  · intro h; exact absurd (Finset.mem_univ s) h

/-- A COLUMN of the indicator against an array of rows: `∑ n, [p n] * h n` is the sum of `h` over the rows where `p`
    holds. -/
theorem sum_indicator_mul_filter {N : ℕ} (p : Fin N → Prop) [DecidablePred p] (h : Fin N → EReal) :
    ∑ n : Fin N, (if p n then (1 : EReal) else 0) * h n = ∑ n ∈ Finset.univ.filter p, h n := by
  rw [Finset.sum_filter]
  refine Finset.sum_congr rfl fun n _ => ?_
  by_cases hp : p n
  · rw [if_pos hp, if_pos hp, one_mul]
  · rw [if_neg hp, if_neg hp, zero_mul]

/-- (1) THE GATHER AS A PRODUCT. For index words in `[0, 512)`, row `n` of the indicator `[idx n = g]` against column `k`
    of a 512-row table is the table at row `idx n`, column `k`. -/
theorem onehot_mul_table {N H : ℕ} (idx : Fin N → BitVec 32) (hr : ∀ n, 0 ≤ (idx n).toInt ∧ (idx n).toInt < 512)
    (vn : (⟨2, ![512, H]⟩ : Shape).Idx → EReal) (n : Fin N) (k : Fin H) :
    ∑ g : Fin 512, (if idx n = BitVec.ofNat 32 g.val then (1 : EReal) else 0) * vn (ix2 g k)
      = vn (ix2 (segOf idx hr n) k) := by
  rw [← sum_indicator_mul (segOf idx hr n) (fun g => vn (ix2 g k))]
  refine Finset.sum_congr rfl fun g _ => ?_
  by_cases hg : g = segOf idx hr n
  · rw [if_pos hg, if_pos ((idx_eq_ofNat_iff idx hr n g).mpr hg)]
  · rw [if_neg hg, if_neg (fun h' => hg ((idx_eq_ofNat_iff idx hr n g).mp h'))]

/-- (2) THE SEGMENT SUM AS A PRODUCT. Column `g` of the indicator `[idx n = g]` against column `k` of an array of rows
    is the sum of the rows whose index word is the word of `g`. -/
theorem onehot_mul_rows {N H : ℕ} (idx : Fin N → BitVec 32) (h : (⟨2, ![N, H]⟩ : Shape).Idx → EReal) (g : Fin 512)
    (k : Fin H) :
    ∑ n : Fin N, (if idx n = BitVec.ofNat 32 g.val then (1 : EReal) else 0) * h (ix2 n k)
      = ∑ n ∈ Finset.univ.filter (fun n : Fin N => idx n = BitVec.ofNat 32 g.val), h (ix2 n k) :=
  sum_indicator_mul_filter (fun n => idx n = BitVec.ofNat 32 g.val) (fun n => h (ix2 n k))

/-! ## The row gather `table[idx]` of a 512 × 128 table, read at one element -/

/-- The dimension numbers of `table[idx]` for a 512 × 128 table and a 50000 × 1 column of start indices: the row axis
    collapsed and start-indexed, the column axis an offset axis of full width. Their conditions are decided on the
    literal shapes by whoever names them. -/
abbrev rowGatherDims
    (wf : GatherDims.WF ⟨2, ![512, 128]⟩ ⟨2, ![50000, 1]⟩ ⟨2, ![50000, 128]⟩ [1] [0] [] [0] [] 1 ![1, 128]) :
    GatherDims ⟨2, ![512, 128]⟩ ⟨2, ![50000, 1]⟩ ⟨2, ![50000, 128]⟩ where
  offsetDims := [1]
  collapsedSliceDims := [0]
  operandBatchingDims := []
  startIndicesBatchingDims := []
  startIndexMap := [0]
  indexVectorDim := 1
  sliceSizes := ![1, 128]
  wf := wf

/-- THE ROW GATHER READ AT `(n, k)`: the table at the row `idx[n, 0]` names — read signed and clamped into
    `[0, 511]` — and column `k`. -/
theorem gather_rows_apply {α : Type} {w : ℕ}
    (wf : GatherDims.WF ⟨2, ![512, 128]⟩ ⟨2, ![50000, 1]⟩ ⟨2, ![50000, 128]⟩ [1] [0] [] [0] [] 1 ![1, 128])
    (x : (⟨2, ![512, 128]⟩ : Shape).Idx → α) (idx : IVec ⟨2, ![50000, 1]⟩ w) (n : Fin 50000) (k : Fin 128) :
    Host.gather (rowGatherDims wf) x idx (ix2 n k)
      = x (ix2 (⟨min (idx (ixP n)).toInt.toNat 511, by omega⟩ : Fin 512) k) := by
  unfold Host.gather
  congr 1
  funext a
  refine Fin.ext ?_
  match a with
  | ⟨0, _⟩ =>
    show (rowGatherDims wf).start (ix2 n k) idx 0 + (rowGatherDims wf).batchCoord (ix2 n k) 0
      + (rowGatherDims wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims wf).startIndexMap from List.mem_singleton.mpr rfl)]
    have hsi : (rowGatherDims wf).siIdx (ix2 n k) ⟨List.idxOf (0 : Fin 2) (rowGatherDims wf).startIndexMap,
        List.idxOf_lt_length_iff.2 (List.mem_singleton.mpr rfl)⟩ = ixP n := by
      funext b; refine Fin.ext ?_
      match b with
      | ⟨0, _⟩ => rfl
      | ⟨1, _⟩ => rfl
    rw [hsi]
    rfl
  | ⟨1, _⟩ =>
    show (rowGatherDims wf).start (ix2 n k) idx 1 + (rowGatherDims wf).batchCoord (ix2 n k) 1
      + (rowGatherDims wf).offCoord (ix2 n k) 1 = k.val
    rw [GatherDims.batchCoord_eq_zero _ _ _ List.not_mem_nil]
    unfold GatherDims.start
    rw [dif_neg (show (1 : Fin 2) ∉ (rowGatherDims wf).startIndexMap from (by decide : (1 : Fin 2) ∉ ([0] : List (Fin 2))))]
    unfold GatherDims.offCoord
    rw [dif_pos (show (1 : Fin 2) ∈ (rowGatherDims wf).sKept from
      (by decide : (1 : Fin 2) ∈ Shape.kept (⟨2, ![512, 128]⟩ : Shape) ([0] ++ [] : List (Fin 2))))]
    simp only [Nat.zero_add, Nat.add_zero]
    rfl

/-- (4) THE WRAPPED START INDEX. Moving a negative index word up by 512 and keeping a non-negative one leaves an
    index word that is not negative as it is. -/
theorem wrap_index_of_nonneg (b : BitVec 32) (h0 : 0 ≤ b.toInt) :
    Scalar.select (IntOp.cmpi .slt b 0#32) (IntOp.addi b 512#32) b = b := by
  have hlt : ¬ b.slt 0#32 = true := by
    rw [BitVec.slt]
    simp only [BitVec.toInt_zero, decide_eq_true_eq, not_lt]
    exact h0
  have hz : IntOp.cmpi .slt b 0#32 = 0#1 := by
    show BitVec.ofBool (b.slt 0#32) = 0#1
    rw [Bool.not_eq_true] at hlt
    rw [hlt]; rfl
  rw [hz]
  exact select_zero _ _

/-- (4) THE ROW GATHER AT AN IN-RANGE INDEX: where every index word of the column is in `[0, 512)`, the gather reads the
    table at that row itself. -/
theorem gather_rows_of_range {α : Type}
    (wf : GatherDims.WF ⟨2, ![512, 128]⟩ ⟨2, ![50000, 1]⟩ ⟨2, ![50000, 128]⟩ [1] [0] [] [0] [] 1 ![1, 128])
    (x : (⟨2, ![512, 128]⟩ : Shape).Idx → α) (col : IVec ⟨2, ![50000, 1]⟩ 32)
    (idx : Fin 50000 → BitVec 32) (hr : ∀ n, 0 ≤ (idx n).toInt ∧ (idx n).toInt < 512)
    (hcol : ∀ n, col (ixP n) = idx n) (n : Fin 50000) (k : Fin 128) :
    Host.gather (rowGatherDims wf) x col (ix2 n k) = x (ix2 (segOf idx hr n) k) := by
  rw [gather_rows_apply]
  congr 2
  refine Fin.ext ?_
  show min (col (ixP n)).toInt.toNat 511 = (idx n).toNat
  rw [hcol n]
  have h := word_range (hr n)
  omega

/-! ## The accumulating scatter of 50000 rows into 512 segments, read at one element -/

/-- The dimension numbers of `zeros.at[idx].add(rows)` for a 512 × 128 target, a 50000 × 1 column of scatter indices
    and 50000 × 128 updates: the row axis inserted and scatter-indexed, the column axis the update's window. -/
abbrev rowScatterDims
    (wf : ScatterDims.WF ⟨2, ![512, 128]⟩ ⟨2, ![50000, 1]⟩ ⟨2, ![50000, 128]⟩ [1] [0] [0] 1) :
    ScatterDims ⟨2, ![512, 128]⟩ ⟨2, ![50000, 1]⟩ ⟨2, ![50000, 128]⟩ where
  updateWindowDims := [1]
  insertedWindowDims := [0]
  scatterDimsToOperandDims := [0]
  indexVectorDim := 1
  wf := wf

section Scatter
variable {w : ℕ} (wf : ScatterDims.WF ⟨2, ![512, 128]⟩ ⟨2, ![50000, 1]⟩ ⟨2, ![50000, 128]⟩ [1] [0] [0] 1)
  (idx : IVec ⟨2, ![50000, 1]⟩ w) (n : Fin 50000) (k : Fin 128)

/-- Update `(n, k)` starts, on the row axis, at the index word `idx[n, 0]` read signed. -/
theorem rowScatter_start0 : (rowScatterDims wf).start (ix2 n k) idx 0 = (idx (ixP n)).toInt := by
  unfold ScatterDims.start
  rw [dif_pos (show (0 : Fin 2) ∈ (rowScatterDims wf).scatterDimsToOperandDims from List.mem_singleton.mpr rfl)]
  have hsi : (rowScatterDims wf).siIdx (ix2 n k) ⟨List.idxOf (0 : Fin 2) (rowScatterDims wf).scatterDimsToOperandDims,
      List.idxOf_lt_length_iff.2 (List.mem_singleton.mpr rfl)⟩ = ixP n := by
    funext b; refine Fin.ext ?_
    match b with
    | ⟨0, _⟩ => rfl
    | ⟨1, _⟩ => rfl
  rw [hsi]

/-- … and, on the column axis, at 0. -/
theorem rowScatter_start1 : (rowScatterDims wf).start (ix2 n k) idx 1 = 0 := by
  unfold ScatterDims.start
  rw [dif_neg (show (1 : Fin 2) ∉ (rowScatterDims wf).scatterDimsToOperandDims from
    (by decide : (1 : Fin 2) ∉ ([0] : List (Fin 2))))]

/-- Update `(n, k)`'s window coordinate is 0 on the row axis … -/
theorem rowScatter_window0 : (rowScatterDims wf).window (ix2 n k) 0 = 0 := by
  unfold ScatterDims.window
  rw [dif_neg (show (0 : Fin 2) ∉ (rowScatterDims wf).sKept from
    (by decide : (0 : Fin 2) ∉ Shape.kept (⟨2, ![512, 128]⟩ : Shape) ([0] : List (Fin 2))))]

/-- … and `k` on the column axis. -/
theorem rowScatter_window1 : (rowScatterDims wf).window (ix2 n k) 1 = k.val := by
  unfold ScatterDims.window
  rw [dif_pos (show (1 : Fin 2) ∈ (rowScatterDims wf).sKept from
    (by decide : (1 : Fin 2) ∈ Shape.kept (⟨2, ![512, 128]⟩ : Shape) ([0] : List (Fin 2))))]
  rfl

/-- WHERE AN UPDATE LANDS: update `(n, k)` lands on element `(g, k')` of the target exactly when the index word
    `idx[n, 0]`, read signed, is `g` and `k = k'`. -/
theorem rowScatter_resultIdx_eq_some_iff (g : Fin 512) (k' : Fin 128) :
    (rowScatterDims wf).resultIdx? (ix2 n k) idx = some (ix2 g k') ↔ (idx (ixP n)).toInt = (g.val : ℤ) ∧ k = k' := by
  have hg := g.isLt
  have hk := k.isLt
  unfold ScatterDims.resultIdx?
  split
  · next hin =>
    constructor
    · intro e
      have e' := Option.some.inj e
      have e0 : ((rowScatterDims wf).start (ix2 n k) idx 0 + ((rowScatterDims wf).window (ix2 n k) 0 : ℤ)).toNat = g.val :=
        congrArg Fin.val (congrFun e' 0)
      have e1 : ((rowScatterDims wf).start (ix2 n k) idx 1 + ((rowScatterDims wf).window (ix2 n k) 1 : ℤ)).toNat = k'.val :=
        congrArg Fin.val (congrFun e' 1)
      have h0 := (hin 0).1
      rw [rowScatter_start0, rowScatter_window0] at e0 h0
      rw [rowScatter_start1, rowScatter_window1] at e1
      refine ⟨by omega, Fin.ext (by omega)⟩
    · rintro ⟨e0, rfl⟩
      refine congrArg some (funext fun a => Fin.ext ?_)
      match a with
      | ⟨0, _⟩ =>
        show ((rowScatterDims wf).start (ix2 n k) idx 0 + ((rowScatterDims wf).window (ix2 n k) 0 : ℤ)).toNat = g.val
        rw [rowScatter_start0, rowScatter_window0, e0]; omega
      | ⟨1, _⟩ =>
        show ((rowScatterDims wf).start (ix2 n k) idx 1 + ((rowScatterDims wf).window (ix2 n k) 1 : ℤ)).toNat = k.val
        rw [rowScatter_start1, rowScatter_window1]; omega
  · next hin =>
    constructor
    · intro e; exact absurd e (by simp)
    · rintro ⟨e0, rfl⟩
      refine absurd (fun a => ?_) hin
      match a with
      | ⟨0, _⟩ =>
        show 0 ≤ (rowScatterDims wf).start (ix2 n k) idx 0 + ((rowScatterDims wf).window (ix2 n k) 0 : ℤ)
          ∧ (rowScatterDims wf).start (ix2 n k) idx 0 + ((rowScatterDims wf).window (ix2 n k) 0 : ℤ) < (512 : ℕ)
        rw [rowScatter_start0, rowScatter_window0, e0]; omega
      | ⟨1, _⟩ =>
        show 0 ≤ (rowScatterDims wf).start (ix2 n k) idx 1 + ((rowScatterDims wf).window (ix2 n k) 1 : ℤ)
          ∧ (rowScatterDims wf).start (ix2 n k) idx 1 + ((rowScatterDims wf).window (ix2 n k) 1 : ℤ) < (128 : ℕ)
        rw [rowScatter_start1, rowScatter_window1]; omega

end Scatter

/-- (2) THE ACCUMULATING SCATTER READ AT `(g, k)`, at the extended reals: the target's element plus the sum of column
    `k` of the update rows whose index word `idx[n, 0]`, read signed, is `g`. -/
theorem scatterAdd_rows_apply {φ : FTy} {w : ℕ}
    (wf : ScatterDims.WF ⟨2, ![512, 128]⟩ ⟨2, ![50000, 1]⟩ ⟨2, ![50000, 128]⟩ [1] [0] [0] 1)
    (x : FVec Ideal ⟨2, ![512, 128]⟩ φ) (idx : IVec ⟨2, ![50000, 1]⟩ w) (upd : FVec Ideal ⟨2, ![50000, 128]⟩ φ)
    (g : Fin 512) (k : Fin 128) :
    (Host.scatterAdd (rowScatterDims wf) x idx upd (ix2 g k) : EReal)
      = x (ix2 g k) + ∑ n ∈ Finset.univ.filter (fun n : Fin 50000 => (idx (ixP n)).toInt = (g.val : ℤ)), upd (ix2 n k) := by
  show (x (ix2 g k) : EReal) + ∑ j ∈ Finset.univ.filter
    (fun j => (rowScatterDims wf).resultIdx? j idx = some (ix2 g k)), (upd j : EReal) = _
  refine congrArg (fun z : EReal => (x (ix2 g k) : EReal) + z) ?_
  rw [Finset.sum_filter, sum_idx2, Finset.sum_filter]
  refine Finset.sum_congr rfl fun n _ => ?_
  by_cases hn : (idx (ixP n)).toInt = (g.val : ℤ)
  · rw [if_pos hn, Finset.sum_eq_single k]
    · rw [if_pos ((rowScatter_resultIdx_eq_some_iff wf idx n k g k).mpr ⟨hn, rfl⟩)]
    · intro b _ hb
      rw [if_neg (fun h => hb ((rowScatter_resultIdx_eq_some_iff wf idx n b g k).mp h).2)]
    · intro h; exact absurd (Finset.mem_univ k) h
  · rw [if_neg hn]
    refine Finset.sum_eq_zero fun b _ => ?_
    rw [if_neg (fun h => hn ((rowScatter_resultIdx_eq_some_iff wf idx n b g k).mp h).1)]

/-- (2) THE SEGMENT SUM IS THE PRODUCT WITH THE INDICATOR. For index words in `[0, 512)`, the accumulating scatter of
    the rows `h` into zeros holds, at `(g, k)`, column `g` of the indicator `[idx n = g]` against column `k` of `h`. -/
theorem scatterAdd_rows_eq_onehot_mul {φ : FTy}
    (wf : ScatterDims.WF ⟨2, ![512, 128]⟩ ⟨2, ![50000, 1]⟩ ⟨2, ![50000, 128]⟩ [1] [0] [0] 1)
    (x : FVec Ideal ⟨2, ![512, 128]⟩ φ) (hx : ∀ i, (x i : EReal) = 0) (col : IVec ⟨2, ![50000, 1]⟩ 32)
    (idx : Fin 50000 → BitVec 32) (hr : ∀ n, 0 ≤ (idx n).toInt ∧ (idx n).toInt < 512)
    (hcol : ∀ n, col (ixP n) = idx n) (h : FVec Ideal ⟨2, ![50000, 128]⟩ φ) (g : Fin 512) (k : Fin 128) :
    (Host.scatterAdd (rowScatterDims wf) x col h (ix2 g k) : EReal)
      = ∑ n : Fin 50000, (if idx n = BitVec.ofNat 32 g.val then (1 : EReal) else 0) * h (ix2 n k) := by
  rw [scatterAdd_rows_apply, hx, zero_add, onehot_mul_rows idx h g k]
  refine Finset.sum_congr ?_ fun _ _ => rfl
  ext n
  simp only [Finset.mem_filter, Finset.mem_univ, true_and]
  rw [hcol n, idx_eq_ofNat_iff idx hr n g, toInt_eq_segOf idx hr n]
  constructor
  · intro e; exact Fin.ext (by exact_mod_cast e.symm)
  · intro e; rw [e]

/-! ## The sum over 50000 rows, tile by tile -/

/-- Row `r` of tile `t`, of 25 tiles of 2000 rows: row `2000 t + r` of the 50000. -/
def tileRow (t : Fin 25) (r : Fin 2000) : Fin 50000 := ⟨2000 * t.val + r.val, by have := t.isLt; have := r.isLt; omega⟩

/-- (3) A sum over the 50000 rows is the sum over the 25 tiles of the sums over each tile's 2000 rows (addition of
    extended reals is commutative and associative; nothing need be finite). -/
theorem sum_rows_eq_sum_tiles {M : Type*} [AddCommMonoid M] (f : Fin 50000 → M) :
    ∑ n : Fin 50000, f n = ∑ t : Fin 25, ∑ r : Fin 2000, f (tileRow t r) := by
  rw [← Fintype.sum_prod_type']
  refine (Fintype.sum_equiv (finProdFinEquiv (m := 25) (n := 2000)) _ _ fun p => ?_).symm
  show f (tileRow p.1 p.2) = f (finProdFinEquiv p)
  congr 1
  refine Fin.ext ?_
  show 2000 * p.1.val + p.2.val = p.2.val + 2000 * p.1.val
  omega

/-- A running accumulator that starts at zero and adds one term per step holds, after `T` steps, the sum of the
    first `T` terms (in the order `0 + s 0 + s 1 + …`). -/
theorem acc_eq_sum_range {M : Type*} [AddCommMonoid M] (acc s : ℕ → M) (h0 : acc 0 = 0)
    (hs : ∀ t, acc (t + 1) = acc t + s t) (T : ℕ) : acc T = ∑ t ∈ Finset.range T, s t := by
  induction T with
  | zero => rw [h0, Finset.range_zero, Finset.sum_empty]
  | succ T ih => rw [hs, ih, Finset.sum_range_succ]

/-- (3) THE TILED ACCUMULATION. An accumulator that starts at zero and at step `t < 25` adds tile `t`'s sum of `f` over its
    2000 rows holds, after the 25 steps, the sum of `f` over all 50000 rows. -/
theorem acc_tiles_eq_sum_rows {M : Type*} [AddCommMonoid M] (f : Fin 50000 → M) (acc : ℕ → M) (h0 : acc 0 = 0)
    (hs : ∀ t : Fin 25, acc (t.val + 1) = acc t.val + ∑ r : Fin 2000, f (tileRow t r)) :
    acc 25 = ∑ n : Fin 50000, f n := by
  rw [sum_rows_eq_sum_tiles]
  have key : ∀ T (hT : T ≤ 25), acc T = ∑ t : Fin 25, if t.val < T then ∑ r : Fin 2000, f (tileRow t r) else 0 := by
    intro T
    induction T with
    | zero => intro _; rw [h0]; simp
    | succ T ih =>
      intro hT
      rw [hs ⟨T, by omega⟩, ih (by omega)]
      rw [← Finset.sum_erase_add _ _ (Finset.mem_univ (⟨T, by omega⟩ : Fin 25))]
      rw [← Finset.sum_erase_add (a := (⟨T, by omega⟩ : Fin 25)) _ _ (Finset.mem_univ _)]
      rw [if_neg (by simp), add_zero, if_pos (by simp)]
      congr 1
      refine Finset.sum_congr rfl fun t ht => ?_
      have hne : t.val ≠ T := fun e => (Finset.ne_of_mem_erase ht) (Fin.ext e)
      by_cases hlt : t.val < T
      · rw [if_pos hlt, if_pos (by omega)]
      · rw [if_neg hlt, if_neg (by omega)]
  rw [key 25 le_rfl]
  refine Finset.sum_congr rfl fun t _ => ?_
  rw [if_pos t.isLt]

/-! ## The same facts in a program's spelling: the index vector kept as a 50000 × 1 column -/

/-- The index vector kept as a column reads, at row `n`, the vector at `n`. -/
theorem col_apply {α : Type} (h₁ : (⟨1, ![50000]⟩ : Shape).BroadcastsInDim ⟨2, ![50000, 1]⟩ ![0])
    (v : (⟨1, ![50000]⟩ : Shape).Idx → α) (n : Fin 50000) :
    broadcastInDim ⟨2, ![50000, 1]⟩ ![0] h₁ v (ixP n) = v (ix1 n) := by
  rw [bcast_col1, ofFin_eq_ix1]

/-- (4) The wrapped index vector `select (idx < 0) (idx + 512) idx`, as a program spells it, is the index vector
    itself at a row whose index word is not negative. -/
theorem wrapped_index_apply (hb : (⟨0, ![]⟩ : Shape).BroadcastsInDim ⟨1, ![50000]⟩ ![])
    (batch : IVec ⟨1, ![50000]⟩ 32) (n : Fin 50000) (h0 : 0 ≤ (batch (ix1 n)).toInt) :
    select (cmpi .slt batch (broadcastInDim ⟨1, ![50000]⟩ ![] hb (constantI ⟨0, ![]⟩ 32 0#32)))
      (addi batch (broadcastInDim ⟨1, ![50000]⟩ ![] hb (constantI ⟨0, ![]⟩ 32 512#32))) batch (ix1 n)
      = batch (ix1 n) :=
  wrap_index_of_nonneg _ h0

/-- (4) THE GATHER WITH WRAPPED START INDICES IS THE TABLE AT THE INDEX: for index words in `[0, 512)`, the row gather
    whose start indices are the wrapped index vector kept as a column reads, at `(n, k)`, the table at row `idx n`,
    column `k` — the value the product of row `n` of the indicator with the table has (`onehot_mul_table`). -/
theorem gather_wrapped_rows {α : Type}
    (wf : GatherDims.WF ⟨2, ![512, 128]⟩ ⟨2, ![50000, 1]⟩ ⟨2, ![50000, 128]⟩ [1] [0] [] [0] [] 1 ![1, 128])
    (h₁ : (⟨1, ![50000]⟩ : Shape).BroadcastsInDim ⟨2, ![50000, 1]⟩ ![0])
    (hb : (⟨0, ![]⟩ : Shape).BroadcastsInDim ⟨1, ![50000]⟩ ![])
    (x : (⟨2, ![512, 128]⟩ : Shape).Idx → α) (batch : IVec ⟨1, ![50000]⟩ 32)
    (hr : ∀ n : Fin 50000, 0 ≤ (batch (ix1 n)).toInt ∧ (batch (ix1 n)).toInt < 512) (n : Fin 50000) (k : Fin 128) :
    Host.gather (rowGatherDims wf) x
        (broadcastInDim ⟨2, ![50000, 1]⟩ ![0] h₁
          (select (cmpi .slt batch (broadcastInDim ⟨1, ![50000]⟩ ![] hb (constantI ⟨0, ![]⟩ 32 0#32)))
            (addi batch (broadcastInDim ⟨1, ![50000]⟩ ![] hb (constantI ⟨0, ![]⟩ 32 512#32))) batch))
        (ix2 n k)
      = x (ix2 (segOf (fun n => batch (ix1 n)) hr n) k) :=
  gather_rows_of_range wf x _ (fun n => batch (ix1 n)) hr
    (fun n => by rw [col_apply]; exact wrapped_index_apply hb batch n (hr n).1) n k

/-- (2) THE SEGMENT SUM INTO ZEROS IS THE PRODUCT WITH THE INDICATOR, in a program's spelling: for index words in
    `[0, 512)`, the accumulating scatter of the rows `h` into an all-zero target, its scatter indices the index vector
    kept as a column, holds at `(g, k)` the sum over the rows of `[idx n = g] * h (n, k)`. -/
theorem scatterAdd_col_eq_onehot_mul {φ : FTy}
    (wf : ScatterDims.WF ⟨2, ![512, 128]⟩ ⟨2, ![50000, 1]⟩ ⟨2, ![50000, 128]⟩ [1] [0] [0] 1)
    (h₁ : (⟨1, ![50000]⟩ : Shape).BroadcastsInDim ⟨2, ![50000, 1]⟩ ![0])
    (x : FVec Ideal ⟨2, ![512, 128]⟩ φ) (hx : ∀ i, (x i : EReal) = 0) (batch : IVec ⟨1, ![50000]⟩ 32)
    (hr : ∀ n : Fin 50000, 0 ≤ (batch (ix1 n)).toInt ∧ (batch (ix1 n)).toInt < 512)
    (h : FVec Ideal ⟨2, ![50000, 128]⟩ φ) (g : Fin 512) (k : Fin 128) :
    (Host.scatterAdd (rowScatterDims wf) x (broadcastInDim ⟨2, ![50000, 1]⟩ ![0] h₁ batch) h (ix2 g k) : EReal)
      = ∑ n : Fin 50000, (if batch (ix1 n) = BitVec.ofNat 32 g.val then (1 : EReal) else 0) * h (ix2 n k) :=
  scatterAdd_rows_eq_onehot_mul wf x hx _ (fun n => batch (ix1 n)) hr (fun n => col_apply h₁ batch n) h g k

end Idealize.ShloMosaic.OneHot

end
-- ==== Proof.Val.BridgeLayer.lean ====
/-
  A HIDDEN CONVOLUTION LAYER WITH THE VIRTUAL NODE: THE TWO PROGRAMS COMPUTE THE SAME ARRAYS.

  One program adds to every node's normalised, clamped row the row of its graph's virtual node by a product with the
  indicator matrix (node against graph), and sums the new rows per graph by the product with that matrix transposed.
  The other gathers the virtual node's row at the node's graph index (a negative index moved up by 512 first) and sums
  the new rows per graph by an accumulating scatter into zeros. For graph indices in [0, 512) these are the same
  arrays:

  * the gather at the wrapped index reads the table at the index itself, which is what a row of the indicator
    against the table gives;
  * the accumulating scatter into zeros holds, at a graph and a column, the sum of that column over the graph's nodes,
    which is what a column of the indicator against the rows gives.

  The dense part (affine map, column statistics, normalisation, clamp) has on both sides the same association of its
  products and sums, so it agrees entry by entry once each side is read at an index. Nothing is assumed finite.
-/
import proofs.«402460_j82824149336546_1_alg».proof.Proof.Val.ConvRead
import proofs.«402460_j82824149336546_1_alg».proof.Proof.LibOneHot
import proofs.«402460_j82824149336546_1_alg».proof.Proof.KI.Reg0Pay
import Idealize.ShloMosaic.Lib.IdealHost

set_option maxRecDepth 16384

noncomputable section

namespace Cert.Bridge

open Idealize.ShloMosaic Idealize.ShloMosaic.ValueIdx Idealize.ShloMosaic.OneHot
open Idealize.ShloMosaic.StableHlo.Predicate
open scoped BigOperators
open Cert.KernelIdeal.Hand (G0_9 G0_10 hnew0 normRelu0)

variable [Cert.KernelIdeal.Facts] [Cert.ReferenceIdeal.Facts]

/-! ## The reference's two virtual-node stages, read at an index -/

section Reference
open Cert.ReferenceIdeal Cert.ReferenceIdeal.Facts₀ Cert.ReferenceIdeal.Facts

/-- The gather's dimension numbers are those of a row gather from a 512 × 128 table. -/
theorem R_gatherDims_eq :
    gather_S512x128_S50000x1_S50000x128_1_0_n_n_0_1_1128
      = rowGatherDims gather_S512x128_S50000x1_S50000x128_1_0_n_n_0_1_1128_wf := rfl

/-- The scatter's dimension numbers are those of a row scatter into a 512 × 128 table. -/
theorem R_scatterDims_eq :
    scatter_S512x128_S50000x1_S50000x128_1_0_0_1
      = rowScatterDims scatter_S512x128_S50000x1_S50000x128_1_0_0_1_wf := rfl

/-- A node's new row: its own row plus the virtual node's row at the node's graph. The index is wrapped before the
    gather, and an index that is not negative is left as it is. -/
theorem R_addVn_apply (hb : FVec Ideal ⟨2, ![50000, 128]⟩ .f32) (vn : FVec Ideal ⟨2, ![512, 128]⟩ .f32)
    (batch : IVec ⟨1, ![50000]⟩ 32)
    (hr : ∀ n : Fin 50000, 0 ≤ (batch (ValueIdx.ix1 n)).toInt ∧ (batch (ValueIdx.ix1 n)).toInt < 512)
    (n : Fin 50000) (k : Fin 128) :
    (Cert.ReferenceIdeal.Stage.addVn hb vn batch (ix2 n k) : EReal)
      = hb (ix2 n k) + vn (ix2 (segOf (fun m => batch (ix1 m)) hr n) k) := by
  unfold Cert.ReferenceIdeal.Stage.addVn
  simp only []
  rw [addf_apply]
  refine congrArg (fun z : EReal => (hb (ix2 n k) : EReal) + z) ?_
  rw [R_gatherDims_eq]
  refine gather_rows_of_range _ vn _ (fun m => batch (ix1 m)) hr (fun m => ?_) n k
  rw [bcast_col1, ofFin_eq_ix1, select_apply]
  exact wrap_index_of_nonneg _ (hr m).1

/-- The per-graph sums plus the virtual node: at graph g and column k, the sum of column k over the nodes whose
    index word is g's, written as the product of the indicator's column g with the rows, plus the table's entry. -/
theorem R_vtOf_apply (h' : FVec Ideal ⟨2, ![50000, 128]⟩ .f32) (vn : FVec Ideal ⟨2, ![512, 128]⟩ .f32)
    (batch : IVec ⟨1, ![50000]⟩ 32)
    (hr : ∀ n : Fin 50000, 0 ≤ (batch (ValueIdx.ix1 n)).toInt ∧ (batch (ValueIdx.ix1 n)).toInt < 512)
    (g : Fin 512) (k : Fin 128) :
    (Cert.ReferenceIdeal.Stage.vtOf h' vn batch (ix2 g k) : EReal)
      = (∑ n : Fin 50000, (if batch (ix1 n) = BitVec.ofNat 32 g.val then (1 : EReal) else 0) * h' (ix2 n k))
        + vn (ix2 g k) := by
  unfold Cert.ReferenceIdeal.Stage.vtOf
  simp only []
  rw [addf_apply]
  refine congrArg (fun z : EReal => z + (vn (ix2 g k) : EReal)) ?_
  rw [R_scatterDims_eq]
  refine scatterAdd_rows_eq_onehot_mul _ _ (fun i => ?_) _ (fun m => batch (ix1 m)) hr (fun m => ?_) h' g k
  · show (Ideal.ofBits .f32 0x00000000#32 : EReal) = 0
    exact Ideal.ofBits_zero_f32
  · rw [bcast_col1, ofFin_eq_ix1]

/-- The clamp at zero, entry by entry. -/
theorem R_relu50k_apply (h : FVec Ideal ⟨2, ![50000, 128]⟩ .f32) (i : (⟨2, ![50000, 128]⟩ : Shape).Idx) :
    (Cert.ReferenceIdeal.Stage.relu50k h i : EReal) = max (h i) 0 := by
  unfold Cert.ReferenceIdeal.Stage.relu50k
  simp only []
  rw [maximumf_apply]
  refine congrArg (fun z : EReal => max (h i : EReal) z) ?_
  show (Ideal.ofBits .f32 0x00000000#32 : EReal) = 0
  exact Ideal.ofBits_zero_f32

end Reference

/-! ## The kernel program's indicator and its sum stage, read at an index -/

section Kernel
open Cert.KernelIdeal Cert.KernelIdeal.Facts₀ Cert.KernelIdeal.Facts

/-- The indicator at node n, graph g: 1 where the node's index word is g's, else 0. -/
theorem K_onehot_apply (batch : IVec ⟨1, ![50000]⟩ 32) (n : Fin 50000) (g : Fin 512) :
    (Cert.KernelIdeal.Stage.onehot batch (ix2 n g) : EReal)
      = if batch (ix1 n) = BitVec.ofNat 32 g.val then 1 else 0 := by
  unfold Cert.KernelIdeal.Stage.onehot Cert.KernelIdeal.StageF.onehot
  exact onehot_apply .bf16 bcast_S50000_S50000x1_0 bcast_S50000x1_S50000x512_0_1 bcast_S512_S1x512_1
    bcast_S1x512_S50000x512_0_1 batch n g

/-- The sum stage adds the virtual node's table to the accumulated product, entry by entry. -/
theorem K_vtOf_apply (p vn : FVec Ideal ⟨2, ![512, 128]⟩ .f32) (i : (⟨2, ![512, 128]⟩ : Shape).Idx) :
    (Cert.KernelIdeal.Stage.vtOf p vn i : EReal) = p i + vn i := by
  unfold Cert.KernelIdeal.Stage.vtOf Cert.KernelIdeal.StageF.vtOf
  exact addf_apply p vn i

end Kernel

/-! ## The virtual node's share of a node's new row -/

/-- Row n of the indicator against column k of the table is the table at the node's graph: the product form of the
    gather. -/
theorem onehot_row_mul_table (batch : IVec ⟨1, ![50000]⟩ 32)
    (hr : ∀ n : Fin 50000, 0 ≤ (batch (ValueIdx.ix1 n)).toInt ∧ (batch (ValueIdx.ix1 n)).toInt < 512)
    (vn : FVec Ideal ⟨2, ![512, 128]⟩ .f32) (n : Fin 50000) (k : Fin 128) :
    (∑ g : Fin 512, (Cert.KernelIdeal.Stage.onehot batch (ix2 n g) : EReal) * vn (ix2 g k))
      = vn (ix2 (segOf (fun m => batch (ix1 m)) hr n) k) := by
  rw [← onehot_mul_table (fun m => batch (ix1 m)) hr vn n k]
  exact Finset.sum_congr rfl fun g _ => by rw [K_onehot_apply]

/-! ## The layer and its per-graph sums, for any dense part

The array act stands for the reference's normalised, clamped rows; the hypothesis says the kernel program's entry
formula, at its own parameters, gives the same entries. -/

section Generic
variable (hp : FVec Ideal ⟨2, ![50000, 128]⟩ .f32) (W : FVec Ideal ⟨2, ![128, 128]⟩ .f32)
  (b mean var gamma beta : FVec Ideal ⟨2, ![1, 128]⟩ .f32)
  (batch : IVec ⟨1, ![50000]⟩ 32) (vn : FVec Ideal ⟨2, ![512, 128]⟩ .f32)
  (hr : ∀ n : Fin 50000, 0 ≤ (batch (ValueIdx.ix1 n)).toInt ∧ (batch (ValueIdx.ix1 n)).toInt < 512)
  (act : FVec Ideal ⟨2, ![50000, 128]⟩ .f32)
  (hact : ∀ (n : Fin 50000) (k : Fin 128),
    normRelu0 ((∑ j : Fin 128, hp (ix2 n j) * W (ix2 j k)) + b (ix2 0 k)) (mean (ix2 0 k)) (var (ix2 0 k))
      (gamma (ix2 0 k)) (beta (ix2 0 k)) = act (ix2 n k))

include hr hact in
/-- A node's new entry on the two sides: the dense part plus the virtual node's row at the node's graph. -/
theorem hnew_eq (n : Fin 50000) (k : Fin 128) :
    hnew0 hp W b mean var gamma beta (Cert.KernelIdeal.Stage.onehot batch) vn n k
      = Cert.ReferenceIdeal.Stage.addVn act vn batch (ix2 n k) := by
  rw [R_addVn_apply act vn batch hr n k]
  unfold hnew0
  rw [hact n k, onehot_row_mul_table batch hr vn n k]

include hr hact in
/-- THE NEW NODE ROWS are one array on the two sides. -/
theorem layer_eq :
    G0_9 hp W b mean var gamma beta (Cert.KernelIdeal.Stage.onehot batch) vn
      = Cert.ReferenceIdeal.Stage.addVn act vn batch := by
  funext i
  obtain ⟨n, k, rfl⟩ : ∃ (n : Fin 50000) (k : Fin 128), i = ix2 n k := ⟨i 0, i 1, eq_ix2 i⟩
  exact hnew_eq hp W b mean var gamma beta batch vn hr act hact n k

include hr hact in
/-- THE PER-GRAPH SUMS PLUS THE VIRTUAL NODE are one array on the two sides: the transposed indicator against the new
    rows is the accumulating scatter of the new rows into zeros. -/
theorem sum_eq :
    Cert.KernelIdeal.Stage.vtOf (G0_10 hp W b mean var gamma beta (Cert.KernelIdeal.Stage.onehot batch) vn) vn
      = Cert.ReferenceIdeal.Stage.vtOf (Cert.ReferenceIdeal.Stage.addVn act vn batch) vn batch := by
  funext i
  obtain ⟨g, k, rfl⟩ : ∃ (g : Fin 512) (k : Fin 128), i = ix2 g k := ⟨i 0, i 1, eq_ix2 i⟩
  rw [R_vtOf_apply _ vn batch hr g k, K_vtOf_apply]
  refine congrArg (fun z : EReal => z + (vn (ix2 g k) : EReal)) ?_
  show (∑ n : Fin 50000, (Cert.KernelIdeal.Stage.onehot batch (ix2 n g) : EReal)
      * hnew0 hp W b mean var gamma beta (Cert.KernelIdeal.Stage.onehot batch) vn n k) = _
  refine Finset.sum_congr rfl fun n _ => ?_
  rw [K_onehot_apply, hnew_eq hp W b mean var gamma beta batch vn hr act hact n k]

end Generic

/-! ## The dense part of the two hidden layers, entry by entry -/

section Dense
variable (hp : FVec Ideal ⟨2, ![50000, 128]⟩ .f32) (W : FVec Ideal ⟨3, ![3, 128, 128]⟩ .f32)
  (b gamma beta : FVec Ideal ⟨2, ![3, 128]⟩ .f32)

/-- An entry normalised by given statistics and clamped is the clamp of the column's normalisation when the
    statistics are the column's own. -/
theorem normRelu0_col (col : Fin 50000 → EReal) (g bt x : EReal) :
    normRelu0 x (colMean n50k col) (colVar n50k col (colMean n50k col)) g bt = max (colNorm n50k col g bt x) 0 := by
  unfold normRelu0 colNorm bnEps
  rfl

/-- Layer 0's dense part: the kernel program's entry formula at slice 0 of the parameters is the reference's
    normalised, clamped entry. -/
theorem dense0_eq (n : Fin 50000) (k : Fin 128) :
    normRelu0 ((∑ j : Fin 128, hp (ix2 n j) * Cert.KernelIdeal.Stage.sliceW0 W (ix2 j k))
        + Cert.KernelIdeal.Stage.row0 b (ix2 0 k))
      (Cert.KernelIdeal.Stage.mean (Cert.KernelIdeal.Stage.lin0 hp W b) (ix2 0 k))
      (Cert.KernelIdeal.Stage.var (Cert.KernelIdeal.Stage.lin0 hp W b)
        (Cert.KernelIdeal.Stage.mean (Cert.KernelIdeal.Stage.lin0 hp W b)) (ix2 0 k))
      (Cert.KernelIdeal.Stage.row0 gamma (ix2 0 k)) (Cert.KernelIdeal.Stage.row0 beta (ix2 0 k))
      = Cert.ReferenceIdeal.Stage.convH0 hp W b gamma beta (ix2 n k) := by
  have hlin : (∑ j : Fin 128, hp (ix2 n j) * Cert.KernelIdeal.Stage.sliceW0 W (ix2 j k))
      + Cert.KernelIdeal.Stage.row0 b (ix2 0 k) = Cert.KernelIdeal.Stage.lin0 hp W b (ix2 n k) := by
    rw [K_lin0_apply, K_row0_apply]
    exact congrArg (· + b (ix2 (0 : Fin 3) k)) (Finset.sum_congr rfl fun j _ => by rw [K_sliceW0_apply])
  rw [hlin, K_mean_apply, K_var_apply, K_mean_apply, K_row0_apply, K_row0_apply, normRelu0_col]
  unfold Cert.ReferenceIdeal.Stage.convH0
  rw [R_relu50k_apply, R_bn50k_apply, R_rowAt0_apply, R_rowAt0_apply, ← lin0_eq]

/-- Layer 1's dense part: the kernel program's entry formula at slice 1 of the parameters is the reference's
    normalised, clamped entry. -/
theorem dense1_eq (n : Fin 50000) (k : Fin 128) :
    normRelu0 ((∑ j : Fin 128, hp (ix2 n j) * Cert.KernelIdeal.Stage.sliceW1 W (ix2 j k))
        + Cert.KernelIdeal.Stage.row1 b (ix2 0 k))
      (Cert.KernelIdeal.Stage.mean (Cert.KernelIdeal.Stage.lin1 hp W b) (ix2 0 k))
      (Cert.KernelIdeal.Stage.var (Cert.KernelIdeal.Stage.lin1 hp W b)
        (Cert.KernelIdeal.Stage.mean (Cert.KernelIdeal.Stage.lin1 hp W b)) (ix2 0 k))
      (Cert.KernelIdeal.Stage.row1 gamma (ix2 0 k)) (Cert.KernelIdeal.Stage.row1 beta (ix2 0 k))
      = Cert.ReferenceIdeal.Stage.convH1 hp W b gamma beta (ix2 n k) := by
  have hlin : (∑ j : Fin 128, hp (ix2 n j) * Cert.KernelIdeal.Stage.sliceW1 W (ix2 j k))
      + Cert.KernelIdeal.Stage.row1 b (ix2 0 k) = Cert.KernelIdeal.Stage.lin1 hp W b (ix2 n k) := by
    rw [K_lin1_apply, K_row1_apply]
    exact congrArg (· + b (ix2 (1 : Fin 3) k)) (Finset.sum_congr rfl fun j _ => by rw [K_sliceW1_apply])
  rw [hlin, K_mean_apply, K_var_apply, K_mean_apply, K_row1_apply, K_row1_apply, normRelu0_col]
  unfold Cert.ReferenceIdeal.Stage.convH1
  rw [R_relu50k_apply, R_bn50k_apply, R_rowAt1_apply, R_rowAt1_apply, ← lin1_eq]

end Dense

/-! ## The three statements the composition cites -/

section Named
open Cert.KernelIdeal

/-- LAYER 0, the new node rows. -/
theorem conv0_eq (hp : FVec Ideal S50000x128 .f32) (W : FVec Ideal S3x128x128 .f32) (b gamma beta : FVec Ideal S3x128 .f32)
    (batch : IVec S50000 32) (vn : FVec Ideal S512x128 .f32)
    (hr : ∀ n : Fin 50000, 0 ≤ (batch (ValueIdx.ix1 n)).toInt ∧ (batch (ValueIdx.ix1 n)).toInt < 512) :
    Cert.KernelIdeal.Hand.G0_9 hp (Cert.KernelIdeal.Stage.sliceW0 W) (Cert.KernelIdeal.Stage.row0 b) (Cert.KernelIdeal.Stage.mean (Cert.KernelIdeal.Stage.lin0 hp W b))
        (Cert.KernelIdeal.Stage.var (Cert.KernelIdeal.Stage.lin0 hp W b) (Cert.KernelIdeal.Stage.mean (Cert.KernelIdeal.Stage.lin0 hp W b))) (Cert.KernelIdeal.Stage.row0 gamma) (Cert.KernelIdeal.Stage.row0 beta) (Cert.KernelIdeal.Stage.onehot batch) vn
      = Cert.ReferenceIdeal.Stage.addVn (Cert.ReferenceIdeal.Stage.convH0 hp W b gamma beta) vn batch :=
  layer_eq hp _ _ _ _ _ _ batch vn hr _ (dense0_eq hp W b gamma beta)

/-- LAYER 0, the per-graph sums plus the virtual node. -/
theorem sum0_eq (hp : FVec Ideal S50000x128 .f32) (W : FVec Ideal S3x128x128 .f32) (b gamma beta : FVec Ideal S3x128 .f32)
    (batch : IVec S50000 32) (vn : FVec Ideal S512x128 .f32)
    (hr : ∀ n : Fin 50000, 0 ≤ (batch (ValueIdx.ix1 n)).toInt ∧ (batch (ValueIdx.ix1 n)).toInt < 512) :
    Cert.KernelIdeal.Stage.vtOf (Cert.KernelIdeal.Hand.G0_10 hp (Cert.KernelIdeal.Stage.sliceW0 W) (Cert.KernelIdeal.Stage.row0 b) (Cert.KernelIdeal.Stage.mean (Cert.KernelIdeal.Stage.lin0 hp W b))
        (Cert.KernelIdeal.Stage.var (Cert.KernelIdeal.Stage.lin0 hp W b) (Cert.KernelIdeal.Stage.mean (Cert.KernelIdeal.Stage.lin0 hp W b))) (Cert.KernelIdeal.Stage.row0 gamma) (Cert.KernelIdeal.Stage.row0 beta) (Cert.KernelIdeal.Stage.onehot batch) vn) vn
      = Cert.ReferenceIdeal.Stage.vtOf (Cert.ReferenceIdeal.Stage.addVn (Cert.ReferenceIdeal.Stage.convH0 hp W b gamma beta) vn batch) vn batch :=
  sum_eq hp _ _ _ _ _ _ batch vn hr _ (dense0_eq hp W b gamma beta)

/-- LAYER 1, the new node rows (the region's function has layer 0's text). -/
theorem conv1_eq (hp : FVec Ideal S50000x128 .f32) (W : FVec Ideal S3x128x128 .f32) (b gamma beta : FVec Ideal S3x128 .f32)
    (batch : IVec S50000 32) (vn : FVec Ideal S512x128 .f32)
    (hr : ∀ n : Fin 50000, 0 ≤ (batch (ValueIdx.ix1 n)).toInt ∧ (batch (ValueIdx.ix1 n)).toInt < 512) :
    Cert.KernelIdeal.Hand.G0_9 hp (Cert.KernelIdeal.Stage.sliceW1 W) (Cert.KernelIdeal.Stage.row1 b) (Cert.KernelIdeal.Stage.mean (Cert.KernelIdeal.Stage.lin1 hp W b))
        (Cert.KernelIdeal.Stage.var (Cert.KernelIdeal.Stage.lin1 hp W b) (Cert.KernelIdeal.Stage.mean (Cert.KernelIdeal.Stage.lin1 hp W b))) (Cert.KernelIdeal.Stage.row1 gamma) (Cert.KernelIdeal.Stage.row1 beta) (Cert.KernelIdeal.Stage.onehot batch) vn
      = Cert.ReferenceIdeal.Stage.addVn (Cert.ReferenceIdeal.Stage.convH1 hp W b gamma beta) vn batch :=
  layer_eq hp _ _ _ _ _ _ batch vn hr _ (dense1_eq hp W b gamma beta)

end Named

end Cert.Bridge

end
-- ==== Proof.Val.BridgeDense.lean ====
/-
  The two dense stages across the two programs.

  The virtual node's map: two dense layers, each followed by a batch normalisation over the 512 rows and a clamp at
  zero. The last convolution layer: a dense layer followed by a batch normalisation over the 50000 rows. On the
  kernel program's side each is one region's function of its input arrays applied to the host-side slices of the
  stacked parameters (and, for the convolution, to the host-side column statistics); on the reference's side each is
  a chain of host operations. Both are read at an index and found to be the same expression.
-/
import proofs.«402460_j82824149336546_1_alg».proof.Proof.Val.ConvRead
import proofs.«402460_j82824149336546_1_alg».proof.Proof.KI.Reg1Value
import proofs.«402460_j82824149336546_1_alg».proof.Proof.KI.Reg4Value

set_option maxRecDepth 16384

noncomputable section

namespace Cert.Bridge

open Idealize.ShloMosaic Idealize.ShloMosaic.ValueIdx
open scoped BigOperators

variable [Cert.KernelIdeal.Facts] [Cert.ReferenceIdeal.Facts]

/-! ## The last convolution layer -/

/-- The last layer's region function at the host-side slices and column statistics is the reference's affine map
    followed by its batch normalisation. -/
theorem convF_eq (hp : FVec Ideal Cert.KernelIdeal.S50000x128 .f32) (W : FVec Ideal Cert.KernelIdeal.S3x128x128 .f32)
    (b gamma beta : FVec Ideal Cert.KernelIdeal.S3x128 .f32) :
    Cert.KernelIdeal.Hand.G4_7 hp (Cert.KernelIdeal.Stage.sliceW2 W) (Cert.KernelIdeal.Stage.row2 b) (Cert.KernelIdeal.Stage.mean (Cert.KernelIdeal.Stage.lin2 hp W b))
        (Cert.KernelIdeal.Stage.var (Cert.KernelIdeal.Stage.lin2 hp W b) (Cert.KernelIdeal.Stage.mean (Cert.KernelIdeal.Stage.lin2 hp W b))) (Cert.KernelIdeal.Stage.row2 gamma) (Cert.KernelIdeal.Stage.row2 beta)
      = Cert.ReferenceIdeal.Stage.convF hp W b gamma beta := by
  funext i
  obtain ⟨p, q, rfl⟩ : ∃ (p : Fin 50000) (q : Fin 128), i = ix2 p q := ⟨i 0, i 1, eq_ix2 i⟩
  unfold Cert.ReferenceIdeal.Stage.convF
  rw [R_bn50k_apply, ← lin2_eq hp W b]
  show Cert.KernelIdeal.Stage.row2 gamma (ix2 (0 : Fin 1) q)
      * ((∑ j : Fin 128, hp (ix2 p j) * Cert.KernelIdeal.Stage.sliceW2 W (ix2 j q)) + Cert.KernelIdeal.Stage.row2 b (ix2 (0 : Fin 1) q)
          - Cert.KernelIdeal.Stage.mean (Cert.KernelIdeal.Stage.lin2 hp W b) (ix2 (0 : Fin 1) q))
      * Ideal.rsqrt (Cert.KernelIdeal.Stage.var (Cert.KernelIdeal.Stage.lin2 hp W b) (Cert.KernelIdeal.Stage.mean (Cert.KernelIdeal.Stage.lin2 hp W b)) (ix2 (0 : Fin 1) q)
          + Ideal.ofBits .f32 0x3727C5AC#32)
      + Cert.KernelIdeal.Stage.row2 beta (ix2 (0 : Fin 1) q) = _
  rw [K_row2_apply, K_row2_apply, K_row2_apply, K_var_apply, K_mean_apply, R_rowAt2_apply, R_rowAt2_apply, K_lin2_apply]
  simp only [K_sliceW2_apply]
  rfl

/-! ## The virtual node's map -/

/-- The row count 512 as both programs write it. -/
def n512 : EReal := Ideal.ofBits .f32 0x44000000#32

/-- A dense layer at row \`r\`, column \`n\`. -/
def denseH {R K N : Nat} (x : Fin R → Fin K → EReal) (W : (⟨2, ![K, N]⟩ : Shape).Idx → EReal)
    (b : (⟨2, ![1, N]⟩ : Shape).Idx → EReal) (r : Fin R) (n : Fin N) : EReal :=
  (∑ k : Fin K, x r k * W (ix2 k n)) + b (ix2 (0 : Fin 1) n)
/-- The layer normalised by its columns' own statistics, scaled, shifted and clamped at zero. -/
def denseAct {R K N : Nat} (cnt : EReal) (x : Fin R → Fin K → EReal) (W : (⟨2, ![K, N]⟩ : Shape).Idx → EReal)
    (b g bt : (⟨2, ![1, N]⟩ : Shape).Idx → EReal) (r : Fin R) (n : Fin N) : EReal :=
  max (colNorm cnt (fun r' => denseH x W b r' n) (g (ix2 (0 : Fin 1) n)) (bt (ix2 (0 : Fin 1) n)) (denseH x W b r n)) 0

/-- The region's layer is this one at the count 512. -/
theorem mlpAct_eq {R K N : Nat} (x : Fin R → Fin K → EReal) (W : (⟨2, ![K, N]⟩ : Shape).Idx → EReal)
    (b g bt : (⟨2, ![1, N]⟩ : Shape).Idx → EReal) :
    Cert.KernelIdeal.Hand.mlpAct x W b g bt = denseAct n512 x W b g bt := rfl

/-! ### Members of the stacked parameters -/

section Members
variable (A : FVec Ideal ⟨3, ![2, 128, 256]⟩ .f32) (B : FVec Ideal ⟨3, ![2, 256, 128]⟩ .f32)
  (va : FVec Ideal ⟨2, ![2, 256]⟩ .f32) (vb : FVec Ideal ⟨2, ![2, 128]⟩ .f32)

theorem K_mlpA1_apply (k : Fin 128) (q : Fin 256) : Cert.KernelIdeal.Stage.mlpA1 A (ix2 k q) = A (ix3 (1 : Fin 2) k q) := by
  unfold Cert.KernelIdeal.Stage.mlpA1 Cert.KernelIdeal.StageF.mlpA1
  exact sliceMat_apply 1 (by omega) A _ _ k q
theorem K_mlpB1_apply (k : Fin 256) (q : Fin 128) : Cert.KernelIdeal.Stage.mlpB1 B (ix2 k q) = B (ix3 (1 : Fin 2) k q) := by
  unfold Cert.KernelIdeal.Stage.mlpB1 Cert.KernelIdeal.StageF.mlpB1
  exact sliceMat_apply 1 (by omega) B _ _ k q
theorem K_mlpRowA1_apply (u : Fin 1) (q : Fin 256) : Cert.KernelIdeal.Stage.mlpRowA1 va (ix2 u q) = va (ix2 (1 : Fin 2) q) := by
  unfold Cert.KernelIdeal.Stage.mlpRowA1 Cert.KernelIdeal.StageF.mlpRowA1
  exact (bcastRow_apply _ _ u q).trans (sliceRow_apply 1 (by omega) va _ _ q)
theorem K_mlpRowB1_apply (u : Fin 1) (q : Fin 128) : Cert.KernelIdeal.Stage.mlpRowB1 vb (ix2 u q) = vb (ix2 (1 : Fin 2) q) := by
  unfold Cert.KernelIdeal.Stage.mlpRowB1 Cert.KernelIdeal.StageF.mlpRowB1
  exact (bcastRow_apply _ _ u q).trans (sliceRow_apply 1 (by omega) vb _ _ q)
theorem R_w1At1_apply (k : Fin 128) (q : Fin 256) : Cert.ReferenceIdeal.Stage.w1At1 A (ix2 k q) = A (ix3 (1 : Fin 2) k q) := by
  unfold Cert.ReferenceIdeal.Stage.w1At1
  exact sliceMat_apply 1 (by omega) A _ _ k q
theorem R_w2At1_apply (k : Fin 256) (q : Fin 128) : Cert.ReferenceIdeal.Stage.w2At1 B (ix2 k q) = B (ix3 (1 : Fin 2) k q) := by
  unfold Cert.ReferenceIdeal.Stage.w2At1
  exact sliceMat_apply 1 (by omega) B _ _ k q
theorem R_row256At1_apply (q : Fin 256) : Cert.ReferenceIdeal.Stage.row256At1 va (ix1 q) = va (ix2 (1 : Fin 2) q) := by
  unfold Cert.ReferenceIdeal.Stage.row256At1
  exact sliceRow_apply 1 (by omega) va _ _ q
theorem R_row128At1_apply (q : Fin 128) : Cert.ReferenceIdeal.Stage.row128At1 vb (ix1 q) = vb (ix2 (1 : Fin 2) q) := by
  unfold Cert.ReferenceIdeal.Stage.row128At1
  exact sliceRow_apply 1 (by omega) vb _ _ q

theorem K_mlpA0_apply (k : Fin 128) (q : Fin 256) : Cert.KernelIdeal.Stage.mlpA0 A (ix2 k q) = A (ix3 (0 : Fin 2) k q) := by
  unfold Cert.KernelIdeal.Stage.mlpA0 Cert.KernelIdeal.StageF.mlpA0
  exact sliceMat_apply 0 (by omega) A _ _ k q
theorem K_mlpB0_apply (k : Fin 256) (q : Fin 128) : Cert.KernelIdeal.Stage.mlpB0 B (ix2 k q) = B (ix3 (0 : Fin 2) k q) := by
  unfold Cert.KernelIdeal.Stage.mlpB0 Cert.KernelIdeal.StageF.mlpB0
  exact sliceMat_apply 0 (by omega) B _ _ k q
theorem K_mlpRowA0_apply (u : Fin 1) (q : Fin 256) : Cert.KernelIdeal.Stage.mlpRowA0 va (ix2 u q) = va (ix2 (0 : Fin 2) q) := by
  unfold Cert.KernelIdeal.Stage.mlpRowA0 Cert.KernelIdeal.StageF.mlpRowA0
  exact (bcastRow_apply _ _ u q).trans (sliceRow_apply 0 (by omega) va _ _ q)
theorem K_mlpRowB0_apply (u : Fin 1) (q : Fin 128) : Cert.KernelIdeal.Stage.mlpRowB0 vb (ix2 u q) = vb (ix2 (0 : Fin 2) q) := by
  unfold Cert.KernelIdeal.Stage.mlpRowB0 Cert.KernelIdeal.StageF.mlpRowB0
  exact (bcastRow_apply _ _ u q).trans (sliceRow_apply 0 (by omega) vb _ _ q)
theorem R_w1At0_apply (k : Fin 128) (q : Fin 256) : Cert.ReferenceIdeal.Stage.w1At0 A (ix2 k q) = A (ix3 (0 : Fin 2) k q) := by
  unfold Cert.ReferenceIdeal.Stage.w1At0
  exact sliceMat_apply 0 (by omega) A _ _ k q
theorem R_w2At0_apply (k : Fin 256) (q : Fin 128) : Cert.ReferenceIdeal.Stage.w2At0 B (ix2 k q) = B (ix3 (0 : Fin 2) k q) := by
  unfold Cert.ReferenceIdeal.Stage.w2At0
  exact sliceMat_apply 0 (by omega) B _ _ k q
theorem R_row256At0_apply (q : Fin 256) : Cert.ReferenceIdeal.Stage.row256At0 va (ix1 q) = va (ix2 (0 : Fin 2) q) := by
  unfold Cert.ReferenceIdeal.Stage.row256At0
  exact sliceRow_apply 0 (by omega) va _ _ q
theorem R_row128At0_apply (q : Fin 128) : Cert.ReferenceIdeal.Stage.row128At0 vb (ix1 q) = vb (ix2 (0 : Fin 2) q) := by
  unfold Cert.ReferenceIdeal.Stage.row128At0
  exact sliceRow_apply 0 (by omega) vb _ _ q

end Members

/-! ### The reference's two layers, operation by operation -/

section LayerA

theorem R_linA_apply (x : FVec Ideal ⟨2, ![512, 128]⟩ .f32) (w : FVec Ideal ⟨2, ![128, 256]⟩ .f32) (b : FVec Ideal ⟨1, ![256]⟩ .f32)
    (p : Fin 512) (q : Fin 256) :
    Cert.ReferenceIdeal.Stage.linA x w b (ix2 p q) = (∑ c : Fin 128, x (ix2 p c) * w (ix2 c q)) + b (ix1 q) := by
  unfold Cert.ReferenceIdeal.Stage.linA
  refine congrArg₂ (· + ·) (dot_apply _ rfl none x w p q) ?_
  exact (bcastRows_apply _ _ p q).trans (bcastRow_apply _ _ 0 q)

theorem R_bnA_apply (t : FVec Ideal ⟨2, ![512, 256]⟩ .f32) (g bt : FVec Ideal ⟨1, ![256]⟩ .f32) (p : Fin 512) (q : Fin 256) :
    Cert.ReferenceIdeal.Stage.bnA t g bt (ix2 p q) = colNorm n512 (fun r => t (ix2 r q)) (g (ix1 q)) (bt (ix1 q)) (t (ix2 p q)) := by
  unfold Cert.ReferenceIdeal.Stage.bnA
  simp only [addf_apply, mulf_apply, subf_apply, hostDivf_apply, hostRsqrt_apply, bcastRows_apply, bcastRow_apply,
    bcastScalar_apply, reduceRows_apply, constant_apply, Ideal.ofBits_zero_f32, zero_add]
  rfl

theorem R_reluA_apply (t : FVec Ideal ⟨2, ![512, 256]⟩ .f32) (p : Fin 512) (q : Fin 256) :
    Cert.ReferenceIdeal.Stage.reluA t (ix2 p q) = max (t (ix2 p q)) 0 := by
  unfold Cert.ReferenceIdeal.Stage.reluA
  simp only [maximumf_apply, bcastScalar_apply, constant_apply, Ideal.ofBits_zero_f32]

/-- One whole layer of the reference at an index, against parameters given as the kernel program holds them (the
    weights as the same matrix, each row parameter as a one-row matrix). -/
theorem R_layerA_apply (x : FVec Ideal ⟨2, ![512, 128]⟩ .f32) (w : FVec Ideal ⟨2, ![128, 256]⟩ .f32) (b g bt : FVec Ideal ⟨1, ![256]⟩ .f32)
    (w' : (⟨2, ![128, 256]⟩ : Shape).Idx → EReal) (b' g' bt' : (⟨2, ![1, 256]⟩ : Shape).Idx → EReal)
    (hw : ∀ c q, w (ix2 c q) = w' (ix2 c q)) (hb : ∀ q, b (ix1 q) = b' (ix2 (0 : Fin 1) q))
    (hg : ∀ q, g (ix1 q) = g' (ix2 (0 : Fin 1) q)) (hbt : ∀ q, bt (ix1 q) = bt' (ix2 (0 : Fin 1) q))
    (p : Fin 512) (q : Fin 256) :
    Cert.ReferenceIdeal.Stage.reluA (Cert.ReferenceIdeal.Stage.bnA (Cert.ReferenceIdeal.Stage.linA x w b) g bt) (ix2 p q)
      = denseAct n512 (fun r c => x (ix2 r c)) w' b' g' bt' p q := by
  have hlin : ∀ r : Fin 512, Cert.ReferenceIdeal.Stage.linA x w b (ix2 r q) = denseH (fun r c => x (ix2 r c)) w' b' r q := fun r => by
    rw [R_linA_apply, hb]
    unfold denseH
    simp only [hw]
  rw [R_reluA_apply, R_bnA_apply, hg, hbt]
  unfold denseAct
  simp only [hlin]

end LayerA

section LayerB

theorem R_linB_apply (x : FVec Ideal ⟨2, ![512, 256]⟩ .f32) (w : FVec Ideal ⟨2, ![256, 128]⟩ .f32) (b : FVec Ideal ⟨1, ![128]⟩ .f32)
    (p : Fin 512) (q : Fin 128) :
    Cert.ReferenceIdeal.Stage.linB x w b (ix2 p q) = (∑ c : Fin 256, x (ix2 p c) * w (ix2 c q)) + b (ix1 q) := by
  unfold Cert.ReferenceIdeal.Stage.linB
  refine congrArg₂ (· + ·) (dot_apply _ rfl none x w p q) ?_
  exact (bcastRows_apply _ _ p q).trans (bcastRow_apply _ _ 0 q)

theorem R_bnB_apply (t : FVec Ideal ⟨2, ![512, 128]⟩ .f32) (g bt : FVec Ideal ⟨1, ![128]⟩ .f32) (p : Fin 512) (q : Fin 128) :
    Cert.ReferenceIdeal.Stage.bnB t g bt (ix2 p q) = colNorm n512 (fun r => t (ix2 r q)) (g (ix1 q)) (bt (ix1 q)) (t (ix2 p q)) := by
  unfold Cert.ReferenceIdeal.Stage.bnB
  simp only [addf_apply, mulf_apply, subf_apply, hostDivf_apply, hostRsqrt_apply, bcastRows_apply, bcastRow_apply,
    bcastScalar_apply, reduceRows_apply, constant_apply, Ideal.ofBits_zero_f32, zero_add]
  rfl

theorem R_reluB_apply (t : FVec Ideal ⟨2, ![512, 128]⟩ .f32) (p : Fin 512) (q : Fin 128) :
    Cert.ReferenceIdeal.Stage.reluB t (ix2 p q) = max (t (ix2 p q)) 0 := by
  unfold Cert.ReferenceIdeal.Stage.reluB
  simp only [maximumf_apply, bcastScalar_apply, constant_apply, Ideal.ofBits_zero_f32]

/-- One whole layer of the reference at an index, against parameters given as the kernel program holds them (the
    weights as the same matrix, each row parameter as a one-row matrix). -/
theorem R_layerB_apply (x : FVec Ideal ⟨2, ![512, 256]⟩ .f32) (w : FVec Ideal ⟨2, ![256, 128]⟩ .f32) (b g bt : FVec Ideal ⟨1, ![128]⟩ .f32)
    (w' : (⟨2, ![256, 128]⟩ : Shape).Idx → EReal) (b' g' bt' : (⟨2, ![1, 128]⟩ : Shape).Idx → EReal)
    (hw : ∀ c q, w (ix2 c q) = w' (ix2 c q)) (hb : ∀ q, b (ix1 q) = b' (ix2 (0 : Fin 1) q))
    (hg : ∀ q, g (ix1 q) = g' (ix2 (0 : Fin 1) q)) (hbt : ∀ q, bt (ix1 q) = bt' (ix2 (0 : Fin 1) q))
    (p : Fin 512) (q : Fin 128) :
    Cert.ReferenceIdeal.Stage.reluB (Cert.ReferenceIdeal.Stage.bnB (Cert.ReferenceIdeal.Stage.linB x w b) g bt) (ix2 p q)
      = denseAct n512 (fun r c => x (ix2 r c)) w' b' g' bt' p q := by
  have hlin : ∀ r : Fin 512, Cert.ReferenceIdeal.Stage.linB x w b (ix2 r q) = denseH (fun r c => x (ix2 r c)) w' b' r q := fun r => by
    rw [R_linB_apply, hb]
    unfold denseH
    simp only [hw]
  rw [R_reluB_apply, R_bnB_apply, hg, hbt]
  unfold denseAct
  simp only [hlin]

end LayerB

/-! ### The two programs' maps -/

/-- The virtual node's map with member 1 of its parameters. -/
theorem mlp1_eq (vt : FVec Ideal Cert.KernelIdeal.S512x128 .f32) (W1 : FVec Ideal Cert.KernelIdeal.S2x128x256 .f32)
    (b1 g1 bt1 : FVec Ideal Cert.KernelIdeal.S2x256 .f32) (W2 : FVec Ideal Cert.KernelIdeal.S2x256x128 .f32)
    (b2 g2 bt2 : FVec Ideal Cert.KernelIdeal.S2x128 .f32) :
    Cert.KernelIdeal.Hand.G1_9 vt (Cert.KernelIdeal.Stage.mlpA1 W1) (Cert.KernelIdeal.Stage.mlpRowA1 b1) (Cert.KernelIdeal.Stage.mlpRowA1 g1) (Cert.KernelIdeal.Stage.mlpRowA1 bt1)
        (Cert.KernelIdeal.Stage.mlpB1 W2) (Cert.KernelIdeal.Stage.mlpRowB1 b2) (Cert.KernelIdeal.Stage.mlpRowB1 g2) (Cert.KernelIdeal.Stage.mlpRowB1 bt2)
      = Cert.ReferenceIdeal.Stage.mlp1 vt W1 b1 g1 bt1 W2 b2 g2 bt2 := by
  funext i
  obtain ⟨p, q, rfl⟩ : ∃ (p : Fin 512) (q : Fin 128), i = ix2 p q := ⟨i 0, i 1, eq_ix2 i⟩
  unfold Cert.ReferenceIdeal.Stage.mlp1
  have hA : (fun r c => Cert.ReferenceIdeal.Stage.reluA (Cert.ReferenceIdeal.Stage.bnA (Cert.ReferenceIdeal.Stage.linA vt (Cert.ReferenceIdeal.Stage.w1At1 W1) (Cert.ReferenceIdeal.Stage.row256At1 b1))
        (Cert.ReferenceIdeal.Stage.row256At1 g1) (Cert.ReferenceIdeal.Stage.row256At1 bt1)) (ix2 r c))
      = denseAct n512 (fun r c => vt (ix2 r c)) (Cert.KernelIdeal.Stage.mlpA1 W1) (Cert.KernelIdeal.Stage.mlpRowA1 b1) (Cert.KernelIdeal.Stage.mlpRowA1 g1) (Cert.KernelIdeal.Stage.mlpRowA1 bt1) :=
    funext fun r => funext fun c => R_layerA_apply vt _ _ _ _ _ _ _ _
      (fun c q => by rw [R_w1At1_apply, K_mlpA1_apply])
      (fun q => by rw [R_row256At1_apply, K_mlpRowA1_apply])
      (fun q => by rw [R_row256At1_apply, K_mlpRowA1_apply])
      (fun q => by rw [R_row256At1_apply, K_mlpRowA1_apply]) r c
  rw [R_layerB_apply _ _ _ _ _ (Cert.KernelIdeal.Stage.mlpB1 W2) (Cert.KernelIdeal.Stage.mlpRowB1 b2) (Cert.KernelIdeal.Stage.mlpRowB1 g2) (Cert.KernelIdeal.Stage.mlpRowB1 bt2)
      (fun c q => by rw [R_w2At1_apply, K_mlpB1_apply])
      (fun q => by rw [R_row128At1_apply, K_mlpRowB1_apply])
      (fun q => by rw [R_row128At1_apply, K_mlpRowB1_apply])
      (fun q => by rw [R_row128At1_apply, K_mlpRowB1_apply]) p q, hA]
  rfl

end Cert.Bridge

end
-- ==== Proof.Val.BridgeTail.lean ====
/-
  THE TAIL OF THE NETWORK, KERNEL AGAINST REFERENCE, AT THE EXTENDED REALS.

  Three kinds of stage close the network: the five personalised-propagation steps, the mean over each graph, and the
  output layer. For each, the kernel's side is a region's whole-array function applied to host-side stage functions,
  and the reference's side is one stage function. This file proves the two equal as whole arrays, for arbitrary input
  arrays, by reading both at one index.

  * A propagation step is 0.2 · p + 0.8 · h₀ at every element on both sides: the same two products and one sum.
  * The output layer is, at (g, q), the sum over the 128 shared coordinates of pooled (g, j) · W (j, q), plus the bias at
    column q. The reference's contraction runs over the contraction shape of its dimension numbers, re-indexed here to
    the 128 coordinates; its bias is a one-row matrix repeated down the rows.
  * The mean over each graph divides per-graph sums by per-graph counts. Counts and division are the same operations
    on both sides. The kernel's sums are the product of the indicator matrix [graph of node n = g] with the rows, added
    tile by tile over 25 tiles of 2000 rows; the reference's are the accumulating scatter of the rows into zeros. For
    graph numbers in [0, 512) both are, at (g, k), the sum of column k over the rows of graph g.

  Only 0 · x = 0, 1 · x = x and the commutative-monoid laws of addition are used: no value need be finite.
-/
import proofs.«402460_j82824149336546_1_alg».proof.Proof.Val.KStages
import proofs.«402460_j82824149336546_1_alg».proof.Proof.Val.RStages
import proofs.«402460_j82824149336546_1_alg».proof.Proof.LibOneHot
import proofs.«402460_j82824149336546_1_alg».proof.Proof.KI.Reg5Value
import proofs.«402460_j82824149336546_1_alg».proof.Proof.KI.Reg6Value
import proofs.«402460_j82824149336546_1_alg».proof.Proof.KI.Reg7Value
import proofs.«402460_j82824149336546_1_alg».proof.Proof.KI.Reg8Value
import proofs.«402460_j82824149336546_1_alg».proof.Proof.KI.Reg9Value
import proofs.«402460_j82824149336546_1_alg».proof.Proof.KI.Reg10Value
import proofs.«402460_j82824149336546_1_alg».proof.Proof.KI.Reg11Value
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StableHlo.Predicate
import Idealize.ShloMosaic.PureOps.Ideal.Laws

set_option maxRecDepth 16384

noncomputable section

open scoped BigOperators

namespace Cert.Bridge

open Idealize.ShloMosaic Idealize.ShloMosaic.ValueIdx
open Cert.KernelIdeal.Hand (G5_2 G11_3 G10_2)

variable [Cert.KernelIdeal.Facts] [Cert.ReferenceIdeal.Facts]

/-! ## One propagation step -/

/-- 0.2 times the propagated rows plus 0.8 times the starting rows, on both sides the same two products and one sum at
    every element. -/
theorem step5_mix (p h0 : FVec Ideal Cert.KernelIdeal.S50000x128 .f32) :
    G5_2 (F := Ideal) p h0 = Cert.ReferenceIdeal.Stage.mix p h0 := by
  funext i
  rfl

/-- The same with the propagated rows named: given that the two programs' propagations agree on these rows. -/
theorem step5_eq (ei : IVec Cert.KernelIdeal.S2x600000 32) (a h0 : FVec Ideal Cert.KernelIdeal.S50000x128 .f32)
    (hprop : Cert.KernelIdeal.Stage.prop ei a = Cert.ReferenceIdeal.Stage.prop ei a) :
    G5_2 (F := Ideal) (Cert.KernelIdeal.Stage.prop ei a) h0 = Cert.ReferenceIdeal.Stage.appnp ei a h0 := by
  rw [hprop]
  exact step5_mix _ h0

/-- Step 2 of the five: the same blend. -/
theorem step6_mix (p h0 : FVec Ideal Cert.KernelIdeal.S50000x128 .f32) :
    Cert.KernelIdeal.Hand.G6_2 (F := Ideal) p h0 = Cert.ReferenceIdeal.Stage.mix p h0 := by
  funext i
  rfl

theorem step6_eq (ei : IVec Cert.KernelIdeal.S2x600000 32) (a h0 : FVec Ideal Cert.KernelIdeal.S50000x128 .f32)
    (hprop : Cert.KernelIdeal.Stage.prop ei a = Cert.ReferenceIdeal.Stage.prop ei a) :
    Cert.KernelIdeal.Hand.G6_2 (F := Ideal) (Cert.KernelIdeal.Stage.prop ei a) h0 = Cert.ReferenceIdeal.Stage.appnp ei a h0 := by
  rw [hprop]
  exact step6_mix _ h0

/-- Step 3 of the five: the same blend. -/
theorem step7_mix (p h0 : FVec Ideal Cert.KernelIdeal.S50000x128 .f32) :
    Cert.KernelIdeal.Hand.G7_2 (F := Ideal) p h0 = Cert.ReferenceIdeal.Stage.mix p h0 := by
  funext i
  rfl

theorem step7_eq (ei : IVec Cert.KernelIdeal.S2x600000 32) (a h0 : FVec Ideal Cert.KernelIdeal.S50000x128 .f32)
    (hprop : Cert.KernelIdeal.Stage.prop ei a = Cert.ReferenceIdeal.Stage.prop ei a) :
    Cert.KernelIdeal.Hand.G7_2 (F := Ideal) (Cert.KernelIdeal.Stage.prop ei a) h0 = Cert.ReferenceIdeal.Stage.appnp ei a h0 := by
  rw [hprop]
  exact step7_mix _ h0

/-- Step 4 of the five: the same blend. -/
theorem step8_mix (p h0 : FVec Ideal Cert.KernelIdeal.S50000x128 .f32) :
    Cert.KernelIdeal.Hand.G8_2 (F := Ideal) p h0 = Cert.ReferenceIdeal.Stage.mix p h0 := by
  funext i
  rfl

theorem step8_eq (ei : IVec Cert.KernelIdeal.S2x600000 32) (a h0 : FVec Ideal Cert.KernelIdeal.S50000x128 .f32)
    (hprop : Cert.KernelIdeal.Stage.prop ei a = Cert.ReferenceIdeal.Stage.prop ei a) :
    Cert.KernelIdeal.Hand.G8_2 (F := Ideal) (Cert.KernelIdeal.Stage.prop ei a) h0 = Cert.ReferenceIdeal.Stage.appnp ei a h0 := by
  rw [hprop]
  exact step8_mix _ h0

/-- Step 5 of the five: the same blend. -/
theorem step9_mix (p h0 : FVec Ideal Cert.KernelIdeal.S50000x128 .f32) :
    Cert.KernelIdeal.Hand.G9_2 (F := Ideal) p h0 = Cert.ReferenceIdeal.Stage.mix p h0 := by
  funext i
  rfl

theorem step9_eq (ei : IVec Cert.KernelIdeal.S2x600000 32) (a h0 : FVec Ideal Cert.KernelIdeal.S50000x128 .f32)
    (hprop : Cert.KernelIdeal.Stage.prop ei a = Cert.ReferenceIdeal.Stage.prop ei a) :
    Cert.KernelIdeal.Hand.G9_2 (F := Ideal) (Cert.KernelIdeal.Stage.prop ei a) h0 = Cert.ReferenceIdeal.Stage.appnp ei a h0 := by
  rw [hprop]
  exact step9_mix _ h0

/-! ## The output layer -/

/-- The reference's product read at `(g, q)`: the sum over the 128 shared coordinates. -/
theorem rdot_apply (a : FVec Ideal Cert.ReferenceIdeal.S512x128 .f32) (b : FVec Ideal Cert.ReferenceIdeal.S128x128 .f32) (g : Fin 512) (q : Fin 128) :
    ∑ k : Cert.ReferenceIdeal.dot_S512x128_S128x128_S512x128_1_0_0_1_n_n.contr.Idx,
        a (Cert.ReferenceIdeal.dot_S512x128_S128x128_S512x128_1_0_0_1_n_n.lhsIdx (ix2 g q) k)
          * b (Cert.ReferenceIdeal.dot_S512x128_S128x128_S512x128_1_0_0_1_n_n.rhsIdx (ix2 g q) k)
      = ∑ j : Fin 128, a (ix2 g j) * b (ix2 j q) := by
  rw [← Equiv.sum_comp (contrEquiv1 Cert.ReferenceIdeal.dot_S512x128_S128x128_S512x128_1_0_0_1_n_n 128 rfl rfl).symm]
  refine Finset.sum_congr rfl fun c _ => ?_
  have hc := contrEquiv1_symm_val Cert.ReferenceIdeal.dot_S512x128_S128x128_S512x128_1_0_0_1_n_n 128 rfl rfl c
  have hl : Cert.ReferenceIdeal.dot_S512x128_S128x128_S512x128_1_0_0_1_n_n.lhsIdx (ix2 g q)
      ((contrEquiv1 Cert.ReferenceIdeal.dot_S512x128_S128x128_S512x128_1_0_0_1_n_n 128 rfl rfl).symm c) = ix2 g c := by
    funext ax; apply Fin.ext
    match ax with
    | ⟨0, _⟩ => exact Cert.KernelIdeal.Hand.lhs11_0 _ _
    | ⟨1, _⟩ => exact (Cert.KernelIdeal.Hand.lhs11_1 _ _).trans hc
  have hr : Cert.ReferenceIdeal.dot_S512x128_S128x128_S512x128_1_0_0_1_n_n.rhsIdx (ix2 g q)
      ((contrEquiv1 Cert.ReferenceIdeal.dot_S512x128_S128x128_S512x128_1_0_0_1_n_n 128 rfl rfl).symm c) = ix2 c q := by
    funext ax; apply Fin.ext
    match ax with
    | ⟨0, _⟩ => exact (Cert.KernelIdeal.Hand.rhs11_0 _ _).trans hc
    | ⟨1, _⟩ => exact Cert.KernelIdeal.Hand.rhs11_1 _ _
  rw [hl, hr]

/-- Row `g` of the pooled features against column `q` of the weights plus the bias at column `q`: the region's
    closed form is the reference's product and broadcast bias read at `(g, q)`. -/
theorem head_eq (pooled : FVec Ideal Cert.KernelIdeal.S512x128 .f32) (Wout : FVec Ideal Cert.KernelIdeal.S128x128 .f32)
    (bout : FVec Ideal Cert.KernelIdeal.S128 .f32) :
    G11_3 pooled Wout (Cert.KernelIdeal.Stage.boutRow bout) = Cert.ReferenceIdeal.Stage.head pooled Wout bout := by
  funext i
  obtain ⟨g, q, rfl⟩ : ∃ (g : Fin 512) (q : Fin 128), i = ix2 g q := ⟨i 0, i 1, eq_ix2 i⟩
  unfold G11_3 Cert.ReferenceIdeal.Stage.head Cert.KernelIdeal.Stage.boutRow Cert.KernelIdeal.StageF.boutRow
  dsimp only
  rw [addf_apply]
  simp only [Host.dotGeneral]
  rw [Ideal.dotGeneral_apply, rdot_apply, broadcastInDim_oneRow_apply]

/-! ## The mean over each graph -/

/-- The indicator the kernel's program spells is the one-hot matrix of the index vector. -/
theorem onehot_eq (batch : IVec Cert.KernelIdeal.S50000 32) :
    Cert.KernelIdeal.Stage.onehot batch
      = OneHot.onehot .bf16 Cert.KernelIdeal.Facts₀.bcast_S50000_S50000x1_0 Cert.KernelIdeal.Facts₀.bcast_S50000x1_S50000x512_0_1
          Cert.KernelIdeal.Facts₀.bcast_S512_S1x512_1 Cert.KernelIdeal.Facts₀.bcast_S1x512_S50000x512_0_1 batch := rfl

/-- THE PER-GRAPH SUMS. For graph numbers in `[0, 512)`, the tiled product of the indicator's columns with the rows is
    the accumulating scatter of the rows into zeros: at `(g, k)` both are the sum of column `k` over the rows of graph `g`. -/
theorem segsum_eq (h : FVec Ideal Cert.KernelIdeal.S50000x128 .f32) (batch : IVec Cert.KernelIdeal.S50000 32)
    (hr : ∀ n : Fin 50000, 0 ≤ (batch (ValueIdx.ix1 n)).toInt ∧ (batch (ValueIdx.ix1 n)).toInt < 512) :
    G10_2 h (Cert.KernelIdeal.Stage.onehot batch)
      = Host.scatterAdd (F := Ideal) (φ := .f32) Cert.ReferenceIdeal.scatter_S512x128_S50000x1_S50000x128_1_0_0_1
          (broadcastInDim Cert.ReferenceIdeal.S512x128 ![] Cert.ReferenceIdeal.Facts₀.bcast_S_S512x128 (constant (F := Ideal) Cert.ReferenceIdeal.S_ .f32 0x00000000#32))
          (broadcastInDim Cert.ReferenceIdeal.S50000x1 ![0] Cert.ReferenceIdeal.Facts₀.bcast_S50000_S50000x1_0 batch) h := by
  funext j
  obtain ⟨g, k, rfl⟩ : ∃ (g : Fin 512) (k : Fin 128), j = ix2 g k := ⟨j 0, j 1, eq_ix2 j⟩
  refine Eq.trans ?_ (OneHot.scatterAdd_col_eq_onehot_mul (φ := .f32)
    Cert.ReferenceIdeal.Facts₀.scatter_S512x128_S50000x1_S50000x128_1_0_0_1_wf Cert.ReferenceIdeal.Facts₀.bcast_S50000_S50000x1_0
    (broadcastInDim Cert.ReferenceIdeal.S512x128 ![] Cert.ReferenceIdeal.Facts₀.bcast_S_S512x128 (constant (F := Ideal) Cert.ReferenceIdeal.S_ .f32 0x00000000#32))
    (fun i => Ideal.ofBits_zero_f32) batch hr h g k).symm
  show ∑ t : Fin 25, ∑ r : Fin 2000,
      (fun n : Fin 50000 => Cert.KernelIdeal.Stage.onehot batch (ix2 n g) * h (ix2 n k)) (OneHot.tileRow t r) = _
  refine (OneHot.sum_rows_eq_sum_tiles (M := EReal)
    (fun n : Fin 50000 => (Cert.KernelIdeal.Stage.onehot batch (ix2 n g) : EReal) * (h (ix2 n k) : EReal))).symm.trans ?_
  refine Finset.sum_congr rfl fun n _ => ?_
  show Cert.KernelIdeal.Stage.onehot batch (ix2 n g) * h (ix2 n k) = _
  rw [onehot_eq, OneHot.onehot_apply]

/-- THE MEAN OVER EACH GRAPH: the same node counts and the same division on both sides, over per-graph sums that
    agree for graph numbers in `[0, 512)`. -/
theorem pool_eq (h : FVec Ideal Cert.KernelIdeal.S50000x128 .f32) (batch : IVec Cert.KernelIdeal.S50000 32)
    (hr : ∀ n : Fin 50000, 0 ≤ (batch (ValueIdx.ix1 n)).toInt ∧ (batch (ValueIdx.ix1 n)).toInt < 512) :
    Cert.KernelIdeal.Stage.pooled (G10_2 h (Cert.KernelIdeal.Stage.onehot batch)) batch
      = Cert.ReferenceIdeal.Stage.pool h batch := by
  rw [segsum_eq h batch hr]
  rfl

end Cert.Bridge

end
-- ==== Proof.Val.Bridge.lean ====
/-
  The two programs' results are equal as functions of the eighteen arguments, when every node's graph index is
  in range: the composition theorem with the functions this program's regions compute, each stage hypothesis
  discharged by the lemma that compares that stage of the kernel's program with the reference's. The second
  statement reads the arguments out of two memories that agree on them.
-/
import proofs.«402460_j82824149336546_1_alg».proof.Proof.Val.BridgeCore
import proofs.«402460_j82824149336546_1_alg».proof.Proof.Val.BridgeRfl
import proofs.«402460_j82824149336546_1_alg».proof.Proof.Val.KOut
import proofs.«402460_j82824149336546_1_alg».proof.Proof.Val.BridgeLayer
import proofs.«402460_j82824149336546_1_alg».proof.Proof.Val.BridgeDense
import proofs.«402460_j82824149336546_1_alg».proof.Proof.Val.BridgeTail

set_option maxRecDepth 16384

noncomputable section

namespace Cert.Bridge

open Idealize.ShloMosaic Idealize.SL.Sem
open Cert.KernelIdeal (S50000x128 S2x600000 S50000 S3x128x128 S3x128 S128 S2x128x256 S2x256 S2x256x128 S2x128 S128x128 S512x128)

variable [Cert.KernelIdeal.Facts] [Cert.ReferenceIdeal.Facts]

/-- The kernel's result is the reference's, for arbitrary argument arrays with every graph index in 0 … 511. -/
theorem kernelOut_eq_refOutS (x : FVec Ideal S50000x128 .f32) (ei : IVec S2x600000 32) (batch : IVec S50000 32)
    (W : FVec Ideal S3x128x128 .f32) (b gamma beta : FVec Ideal S3x128 .f32) (vnEmb : FVec Ideal S128 .f32)
    (W1 : FVec Ideal S2x128x256 .f32) (b1 g1 bt1 : FVec Ideal S2x256 .f32)
    (W2 : FVec Ideal S2x256x128 .f32) (b2 g2 bt2 : FVec Ideal S2x128 .f32)
    (Wout : FVec Ideal S128x128 .f32) (bout : FVec Ideal S128 .f32)
    (hr : InRange batch) :
    Cert.KernelIdeal.Stage.kernelOut x ei batch W b gamma beta vnEmb W1 b1 g1 bt1 W2 b2 g2 bt2 Wout bout = Cert.ReferenceIdeal.Stage.refOutS x ei batch W b gamma beta vnEmb W1 b1 g1 bt1 W2 b2 g2 bt2 Wout bout := by
  unfold Cert.KernelIdeal.Stage.kernelOut
  exact kernelOutG_eq_refOutS Cert.KernelIdeal.Stage.regionFns prop_eq vn0_eq vnNext_eq
    (by intro hp W b gamma beta batch vn hr; dsimp only [Cert.KernelIdeal.Stage.regionFns]; exact conv0_eq hp W b gamma beta batch vn hr)
    (by intro hp W b gamma beta batch vn hr; dsimp only [Cert.KernelIdeal.Stage.regionFns]; exact sum0_eq hp W b gamma beta batch vn hr)
    (by intro hp W b gamma beta batch vn hr; dsimp only [Cert.KernelIdeal.Stage.regionFns]; exact conv1_eq hp W b gamma beta batch vn hr)
    (by intro hp W b gamma beta; dsimp only [Cert.KernelIdeal.Stage.regionFns]; exact convF_eq hp W b gamma beta)
    (by intro vt W1 b1 g1 bt1 W2 b2 g2 bt2; dsimp only [Cert.KernelIdeal.Stage.regionFns]; exact mlp1_eq vt W1 b1 g1 bt1 W2 b2 g2 bt2)
    (by intro ei a h0; dsimp only [Cert.KernelIdeal.Stage.regionFns]; exact step5_eq ei a h0 (prop_eq ei a))
    (by intro ei a h0; dsimp only [Cert.KernelIdeal.Stage.regionFns]; exact step6_eq ei a h0 (prop_eq ei a))
    (by intro ei a h0; dsimp only [Cert.KernelIdeal.Stage.regionFns]; exact step7_eq ei a h0 (prop_eq ei a))
    (by intro ei a h0; dsimp only [Cert.KernelIdeal.Stage.regionFns]; exact step8_eq ei a h0 (prop_eq ei a))
    (by intro ei a h0; dsimp only [Cert.KernelIdeal.Stage.regionFns]; exact step9_eq ei a h0 (prop_eq ei a))
    (by intro a batch hr; dsimp only [Cert.KernelIdeal.Stage.regionFns]; exact pool_eq a batch hr)
    (by intro p Wout bout; dsimp only [Cert.KernelIdeal.Stage.regionFns]; exact head_eq p Wout bout)
    x ei batch W b gamma beta vnEmb W1 b1 g1 bt1 W2 b2 g2 bt2 Wout bout hr

/-- The same for two memories that agree on the eighteen arguments (the kernel's `m`, the reference's `m'`), on one
    device: the kernel's result of `m`'s arguments is the reference's result of `m'`'s. -/
theorem kernelOut_eq_refOutS_mem
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hr : InRange (m ((c.tc : Thread Cert.KernelIdeal.nD Cert.KernelIdeal.τ).loc Cert.KernelIdeal.main_arg2))) :
    Cert.KernelIdeal.Stage.kernelOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
      = Cert.ReferenceIdeal.Stage.refOutS (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17)) := by
  obtain ⟨h0, h1, h2, h3, h4, h5, h6, h7, h8, h9, h10, h11, h12, h13, h14, h15, h16, h17⟩ := hag
  rw [h0, h1, h2, h3, h4, h5, h6, h7, h8, h9, h10, h11, h12, h13, h14, h15, h16, h17]
  exact kernelOut_eq_refOutS _ _ _ _ _ _ _ _ _ _ _ _ _ _ _ _ _ _ hr

end Cert.Bridge
-- ==== Proof.Ref.Ops.lean ====
import proofs.«402460_j82824149336546_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's main function as a list of operations, cut into stretches

The main function is a straight line of 564 array operations (the three operations of each call of the
rectifier stand at the call). The line is cut where a stage of the computation ends (the normalisation of the
graph, each propagation, each linear map, each batch normalisation, each rectifier, each update of the virtual
node, each step of the personalised propagation, the pooling, the head) and where the printed function is cut
into its ten parts. Each stretch is a list of its own; the whole line is their concatenation. -/

/-- A property of every element of two lists holds of every element of their concatenation. -/
theorem forall_append' {α : Type _} {p : α → Prop} {l₁ l₂ : List α} (h₁ : l₁.Forall p) (h₂ : l₂.Forall p) :
    (l₁ ++ l₂).Forall p :=
  List.forall_iff_forall_mem.mpr (List.forall_mem_append.mpr
    ⟨List.forall_iff_forall_mem.mp h₁, List.forall_iff_forall_mem.mp h₂⟩)

/-- Stretch 0: operations 1 … 3 (part 0 of the printed function). -/
abbrev ops0 : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000 ]
theorem ops0_sub : (ops0 : List (HloOp τ sig (Elt F))).Forall fun op => op.bufs ⊆ tcRefs τ sig :=
  ⟨nullary_bufs_sub .., unary_bufs_sub .., reshape_bufs_sub ..⟩
theorem ops0_fresh : (ops0 : List (HloOp τ sig (Elt F))).Forall fun op => op.fresh = ∅ :=
  ⟨rfl, rfl, rfl⟩

/-- Stretch 1: operations 4 … 6 (part 0 of the printed function). -/
abbrev ops1 : List (HloOp τ sig (Elt F)) :=
  [ binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000 ]
theorem ops1_sub : (ops1 : List (HloOp τ sig (Elt F))).Forall fun op => op.bufs ⊆ tcRefs τ sig :=
  ⟨binary_bufs_sub .., unary_bufs_sub .., reshape_bufs_sub ..⟩
theorem ops1_fresh : (ops1 : List (HloOp τ sig (Elt F))).Forall fun op => op.fresh = ∅ :=
  ⟨rfl, rfl, rfl⟩

/-- Stretch 2: operations 7 … 36 (part 0 of the printed function). -/
abbrev ops2 : List (HloOp τ sig (Elt F)) :=
  [ binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S650000 ![] bcast_S_S650000 : (⟨S_, .i32⟩ : BufTy).Contents (Elt F) → (⟨S650000, .i32⟩ : BufTy).Contents (Elt F)),
    binary main_v3 main_v14 main_v15 (cmpi .slt : (⟨S650000, .i32⟩ : BufTy).Contents (Elt F) → (⟨S650000, .i32⟩ : BufTy).Contents (Elt F) → (⟨S650000, .i1⟩ : BufTy).Contents (Elt F)),
    nullary main_c_2 (constantI S_ 32 50000#32),
    unary main_c_2 main_v16 (broadcastInDim S650000 ![] bcast_S_S650000 : (⟨S_, .i32⟩ : BufTy).Contents (Elt F) → (⟨S650000, .i32⟩ : BufTy).Contents (Elt F)),
    binary main_v3 main_v16 main_v17 (addi : (⟨S650000, .i32⟩ : BufTy).Contents (Elt F) → (⟨S650000, .i32⟩ : BufTy).Contents (Elt F) → (⟨S650000, .i32⟩ : BufTy).Contents (Elt F)),
    ternary main_v15 main_v17 main_v3 main_v18 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v18 main_v19 (broadcastInDim S650000x1 ![0] bcast_S650000_S650000x1_0 : (⟨S650000, .i32⟩ : BufTy).Contents (Elt F) → (⟨S650000x1, .i32⟩ : BufTy).Contents (Elt F)),
    binary main_v13 main_v19 main_v20 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_3 (constantI S_ 32 0#32),
    unary main_c_3 main_v21 (broadcastInDim S650000 ![] bcast_S_S650000 : (⟨S_, .i32⟩ : BufTy).Contents (Elt F) → (⟨S650000, .i32⟩ : BufTy).Contents (Elt F)),
    binary main_v6 main_v21 main_v22 (cmpi .slt : (⟨S650000, .i32⟩ : BufTy).Contents (Elt F) → (⟨S650000, .i32⟩ : BufTy).Contents (Elt F) → (⟨S650000, .i1⟩ : BufTy).Contents (Elt F)),
    nullary main_c_4 (constantI S_ 32 50000#32),
    unary main_c_4 main_v23 (broadcastInDim S650000 ![] bcast_S_S650000 : (⟨S_, .i32⟩ : BufTy).Contents (Elt F) → (⟨S650000, .i32⟩ : BufTy).Contents (Elt F)),
    binary main_v6 main_v23 main_v24 (addi : (⟨S650000, .i32⟩ : BufTy).Contents (Elt F) → (⟨S650000, .i32⟩ : BufTy).Contents (Elt F) → (⟨S650000, .i32⟩ : BufTy).Contents (Elt F)),
    ternary main_v22 main_v24 main_v6 main_v25 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v25 main_v26 (broadcastInDim S650000x1 ![0] bcast_S650000_S650000x1_0 : (⟨S650000, .i32⟩ : BufTy).Contents (Elt F) → (⟨S650000x1, .i32⟩ : BufTy).Contents (Elt F)),
    binary main_v13 main_v26 main_v27 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v20 main_v27 main_v28 (mulf : (⟨S650000, .f32⟩ : BufTy).Contents (Elt F) → (⟨S650000, .f32⟩ : BufTy).Contents (Elt F) → (⟨S650000, .f32⟩ : BufTy).Contents (Elt F)) ]
theorem ops2_sub : (ops2 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 3: operations 37 … 53 (part 0 of the printed function). -/
abbrev ops3 : List (HloOp τ sig (Elt F)) :=
  [ unary main_arg7 main_v29 (broadcastInDim S512x128 ![1] bcast_S128_S512x128_1 : (⟨S128, .f32⟩ : BufTy).Contents (Elt F) → (⟨S512x128, .f32⟩ : BufTy).Contents (Elt F)),
    unary main_v28 main_v30 (broadcastInDim S650000x1 ![0] bcast_S650000_S650000x1_0 : (⟨S650000, .f32⟩ : BufTy).Contents (Elt F) → (⟨S650000x1, .f32⟩ : BufTy).Contents (Elt F)),
    nullary main_c_5 (constantI S_ 32 0#32),
    unary main_c_5 main_v31 (broadcastInDim S650000 ![] bcast_S_S650000 : (⟨S_, .i32⟩ : BufTy).Contents (Elt F) → (⟨S650000, .i32⟩ : BufTy).Contents (Elt F)),
    binary main_v3 main_v31 main_v32 (cmpi .slt : (⟨S650000, .i32⟩ : BufTy).Contents (Elt F) → (⟨S650000, .i32⟩ : BufTy).Contents (Elt F) → (⟨S650000, .i1⟩ : BufTy).Contents (Elt F)),
    nullary main_c_6 (constantI S_ 32 50000#32),
    unary main_c_6 main_v33 (broadcastInDim S650000 ![] bcast_S_S650000 : (⟨S_, .i32⟩ : BufTy).Contents (Elt F) → (⟨S650000, .i32⟩ : BufTy).Contents (Elt F)),
    binary main_v3 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v3 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_arg0 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v30 main_v38 (broadcastInDim S650000x128 ![0, 1] bcast_S650000x1_S650000x128_0_1 : (⟨S650000x1, .f32⟩ : BufTy).Contents (Elt F) → (⟨S650000x128, .f32⟩ : BufTy).Contents (Elt F)),
    binary main_v38 main_v37 main_v39 (mulf : (⟨S650000x128, .f32⟩ : BufTy).Contents (Elt F) → (⟨S650000x128, .f32⟩ : BufTy).Contents (Elt F) → (⟨S650000x128, .f32⟩ : BufTy).Contents (Elt F)),
    nullary main_cst_7 (constant S_ .f32 0x00000000#32),
    unary main_cst_7 main_v40 (broadcastInDim S50000x128 ![] bcast_S_S50000x128 : (⟨S_, .f32⟩ : BufTy).Contents (Elt F) → (⟨S50000x128, .f32⟩ : BufTy).Contents (Elt F)),
    unary main_v6 main_v41 (broadcastInDim S650000x1 ![0] bcast_S650000_S650000x1_0 : (⟨S650000, .i32⟩ : BufTy).Contents (Elt F) → (⟨S650000x1, .i32⟩ : BufTy).Contents (Elt F)),
    ternary main_v40 main_v41 main_v39 main_v42 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
theorem ops3_sub : (ops3 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩

/-- Stretch 4: operations 54 … 60 (part 0 of the printed function). -/
abbrev ops4 : List (HloOp τ sig (Elt F)) :=
  [ unary main_arg3 main_v43 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v43 main_v44 rfl shapeCasts_S1x128x128_S128x128,
    binary main_v42 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)) ]
theorem ops4_sub : (ops4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub ..⟩
theorem ops4_fresh : (ops4 : List (HloOp τ sig (Elt F))).Forall fun op => op.fresh = ∅ :=
  ⟨rfl, rfl, rfl, rfl, rfl, rfl, rfl⟩

/-- Stretch 5: operations 61 … 61 (part 1 of the printed function). -/
abbrev ops5 : List (HloOp τ sig (Elt F)) :=
  [ binary main_v45 main_v49 main_v50 (addf : (⟨S50000x128, .f32⟩ : BufTy).Contents (Elt F) → (⟨S50000x128, .f32⟩ : BufTy).Contents (Elt F) → (⟨S50000x128, .f32⟩ : BufTy).Contents (Elt F)) ]
theorem ops5_sub : (ops5 : List (HloOp τ sig (Elt F))).Forall fun op => op.bufs ⊆ tcRefs τ sig :=
  binary_bufs_sub ..
theorem ops5_fresh : (ops5 : List (HloOp τ sig (Elt F))).Forall fun op => op.fresh = ∅ :=
  rfl

/-- Stretch 6: operations 62 … 95 (part 1 of the printed function). -/
abbrev ops6 : List (HloOp τ sig (Elt F)) :=
  [ unary main_arg5 main_v51 ((extractStridedSlice S1x128 ![0, 0] · slices_S3x128_S1x128_0_0) : (⟨S3x128, .f32⟩ : BufTy).Contents (Elt F) → (⟨S1x128, .f32⟩ : BufTy).Contents (Elt F)),
    reshape main_v51 main_v52 rfl shapeCasts_S1x128_S128,
    unary main_arg6 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    nullary main_cst_8 (constant S_ .f32 0x00000000#32),
    binary main_v50 main_cst_8 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v50 main_v59 main_v60 (subf : (⟨S50000x128, .f32⟩ : BufTy).Contents (Elt F) → (⟨S50000x128, .f32⟩ : BufTy).Contents (Elt F) → (⟨S50000x128, .f32⟩ : BufTy).Contents (Elt F)),
    binary main_v60 main_v60 main_v61 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v61 main_cst_10 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v63 (broadcastInDim S128 ![] bcast_S_S128 : (⟨S_, .f32⟩ : BufTy).Contents (Elt F) → (⟨S128, .f32⟩ : BufTy).Contents (Elt F)),
    binary main_v62 main_v63 main_v64 (Host.divf : (⟨S128, .f32⟩ : BufTy).Contents (Elt F) → (⟨S128, .f32⟩ : BufTy).Contents (Elt F) → (⟨S128, .f32⟩ : BufTy).Contents (Elt F)),
    unary main_v57 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v50 main_v66 main_v67 (subf : (⟨S50000x128, .f32⟩ : BufTy).Contents (Elt F) → (⟨S50000x128, .f32⟩ : BufTy).Contents (Elt F) → (⟨S50000x128, .f32⟩ : BufTy).Contents (Elt F)),
    unary main_v52 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v69 main_v67 main_v70 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v71 (broadcastInDim S128 ![] bcast_S_S128 : (⟨S_, .f32⟩ : BufTy).Contents (Elt F) → (⟨S128, .f32⟩ : BufTy).Contents (Elt F)),
    binary main_v64 main_v71 main_v72 (addf : (⟨S128, .f32⟩ : BufTy).Contents (Elt F) → (⟨S128, .f32⟩ : BufTy).Contents (Elt F) → (⟨S128, .f32⟩ : BufTy).Contents (Elt F)),
    unary main_v72 main_v73 (Host.rsqrt : (⟨S128, .f32⟩ : BufTy).Contents (Elt F) → (⟨S128, .f32⟩ : BufTy).Contents (Elt F)),
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v70 main_v75 main_v76 (mulf : (⟨S50000x128, .f32⟩ : BufTy).Contents (Elt F) → (⟨S50000x128, .f32⟩ : BufTy).Contents (Elt F) → (⟨S50000x128, .f32⟩ : BufTy).Contents (Elt F)),
    unary main_v54 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)) ]
theorem ops6_sub : (ops6 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 7: operations 96 … 98 (part 1 of the printed function). -/
abbrev ops7 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v79) (TRef.of (T := ⟨S50000x128, .f32⟩) main_call0_v0) (TRef.of (T := ⟨S50000x128, .f32⟩) main_v80) maximumf ]
theorem ops7_sub : (ops7 : List (HloOp τ sig (Elt F))).Forall fun op => op.bufs ⊆ tcRefs τ sig :=
  ⟨nullary_bufs_sub .., unary_bufs_sub .., binary_bufs_sub ..⟩
theorem ops7_fresh : (ops7 : List (HloOp τ sig (Elt F))).Forall fun op => op.fresh = ∅ :=
  ⟨rfl, rfl, rfl⟩

/-- Stretch 8: operations 99 … 108 (part 1 of the printed function). -/
abbrev ops8 : List (HloOp τ sig (Elt F)) :=
  [ nullary main_c_13 (constantI S_ 32 0#32),
    unary main_c_13 main_v81 (broadcastInDim S50000 ![] bcast_S_S50000 : (⟨S_, .i32⟩ : BufTy).Contents (Elt F) → (⟨S50000, .i32⟩ : BufTy).Contents (Elt F)),
    binary main_arg2 main_v81 main_v82 (cmpi .slt : (⟨S50000, .i32⟩ : BufTy).Contents (Elt F) → (⟨S50000, .i32⟩ : BufTy).Contents (Elt F) → (⟨S50000, .i1⟩ : BufTy).Contents (Elt F)),
    nullary main_c_14 (constantI S_ 32 512#32),
    unary main_c_14 main_v83 (broadcastInDim S50000 ![] bcast_S_S50000 : (⟨S_, .i32⟩ : BufTy).Contents (Elt F) → (⟨S50000, .i32⟩ : BufTy).Contents (Elt F)),
    binary main_arg2 main_v83 main_v84 (addi : (⟨S50000, .i32⟩ : BufTy).Contents (Elt F) → (⟨S50000, .i32⟩ : BufTy).Contents (Elt F) → (⟨S50000, .i32⟩ : BufTy).Contents (Elt F)),
    ternary main_v82 main_v84 main_arg2 main_v85 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v85 main_v86 (broadcastInDim S50000x1 ![0] bcast_S50000_S50000x1_0 : (⟨S50000, .i32⟩ : BufTy).Contents (Elt F) → (⟨S50000x1, .i32⟩ : BufTy).Contents (Elt F)),
    binary main_v29 main_v86 main_v87 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    binary main_v80 main_v87 main_v88 (addf : (⟨S50000x128, .f32⟩ : BufTy).Contents (Elt F) → (⟨S50000x128, .f32⟩ : BufTy).Contents (Elt F) → (⟨S50000x128, .f32⟩ : BufTy).Contents (Elt F)) ]
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem ops8_fresh : (ops8 : List (HloOp τ sig (Elt F))).Forall fun op => op.fresh = ∅ :=
  ⟨rfl, rfl, rfl, rfl, rfl, rfl, rfl, rfl, rfl, rfl⟩

/-- Stretch 9: operations 109 … 113 (part 1 of the printed function). -/
abbrev ops9 : List (HloOp τ sig (Elt F)) :=
  [ nullary main_cst_15 (constant S_ .f32 0x00000000#32),
    unary main_cst_15 main_v89 (broadcastInDim S512x128 ![] bcast_S_S512x128 : (⟨S_, .f32⟩ : BufTy).Contents (Elt F) → (⟨S512x128, .f32⟩ : BufTy).Contents (Elt F)),
    unary main_arg2 main_v90 (broadcastInDim S50000x1 ![0] bcast_S50000_S50000x1_0 : (⟨S50000, .i32⟩ : BufTy).Contents (Elt F) → (⟨S50000x1, .i32⟩ : BufTy).Contents (Elt F)),
    ternary main_v89 main_v90 main_v88 main_v91 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    binary main_v91 main_v29 main_v92 (addf : (⟨S512x128, .f32⟩ : BufTy).Contents (Elt F) → (⟨S512x128, .f32⟩ : BufTy).Contents (Elt F) → (⟨S512x128, .f32⟩ : BufTy).Contents (Elt F)) ]
theorem ops9_sub : (ops9 : List (HloOp τ sig (Elt F))).Forall fun op => op.bufs ⊆ tcRefs τ sig :=
  ⟨nullary_bufs_sub .., unary_bufs_sub .., unary_bufs_sub .., ternary_bufs_sub .., binary_bufs_sub ..⟩
theorem ops9_fresh : (ops9 : List (HloOp τ sig (Elt F))).Forall fun op => op.fresh = ∅ :=
  ⟨rfl, rfl, rfl, rfl, rfl⟩

/-- Stretch 10: operations 114 … 121 (part 1 of the printed function). -/
abbrev ops10 : List (HloOp τ sig (Elt F)) :=
  [ unary main_arg8 main_v93 ((extractStridedSlice S1x128x256 ![1, 0, 0] · slices_S2x128x256_S1x128x256_1_0_0) : (⟨S2x128x256, .f32⟩ : BufTy).Contents (Elt F) → (⟨S1x128x256, .f32⟩ : BufTy).Contents (Elt F)),
    reshape main_v93 main_v94 rfl shapeCasts_S1x128x256_S128x256,
    binary main_v92 main_v94 main_v95 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    unary main_arg9 main_v96 ((extractStridedSlice S1x256 ![1, 0] · slices_S2x256_S1x256_1_0) : (⟨S2x256, .f32⟩ : BufTy).Contents (Elt F) → (⟨S1x256, .f32⟩ : BufTy).Contents (Elt F)),
    reshape main_v96 main_v97 rfl shapeCasts_S1x256_S256,
    unary main_v97 main_v98 (broadcastInDim S1x256 ![1] bcast_S256_S1x256_1 : (⟨S256, .f32⟩ : BufTy).Contents (Elt F) → (⟨S1x256, .f32⟩ : BufTy).Contents (Elt F)),
    unary main_v98 main_v99 (broadcastInDim S512x256 ![0, 1] bcast_S1x256_S512x256_0_1 : (⟨S1x256, .f32⟩ : BufTy).Contents (Elt F) → (⟨S512x256, .f32⟩ : BufTy).Contents (Elt F)),
    binary main_v95 main_v99 main_v100 (addf : (⟨S512x256, .f32⟩ : BufTy).Contents (Elt F) → (⟨S512x256, .f32⟩ : BufTy).Contents (Elt F) → (⟨S512x256, .f32⟩ : BufTy).Contents (Elt F)) ]
theorem ops10_sub : (ops10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops10_fresh : (ops10 : List (HloOp τ sig (Elt F))).Forall fun op => op.fresh = ∅ :=
  ⟨rfl, rfl, rfl, rfl, rfl, rfl, rfl, rfl⟩

/-- Stretch 11: operations 122 … 122 (part 1 of the printed function). -/
abbrev ops11 : List (HloOp τ sig (Elt F)) :=
  [ unary main_arg10 main_v101 ((extractStridedSlice S1x256 ![1, 0] · slices_S2x256_S1x256_1_0) : (⟨S2x256, .f32⟩ : BufTy).Contents (Elt F) → (⟨S1x256, .f32⟩ : BufTy).Contents (Elt F)) ]
theorem ops11_sub : (ops11 : List (HloOp τ sig (Elt F))).Forall fun op => op.bufs ⊆ tcRefs τ sig :=
  unary_bufs_sub ..
theorem ops11_fresh : (ops11 : List (HloOp τ sig (Elt F))).Forall fun op => op.fresh = ∅ :=
  rfl

/-- Stretch 12: operations 123 … 155 (part 2 of the printed function). -/
abbrev ops12 : List (HloOp τ sig (Elt F)) :=
  [ reshape main_v101 main_v102 rfl shapeCasts_S1x256_S256,
    unary main_arg11 main_v103 ((extractStridedSlice S1x256 ![1, 0] · slices_S2x256_S1x256_1_0) : (⟨S2x256, .f32⟩ : BufTy).Contents (Elt F) → (⟨S1x256, .f32⟩ : BufTy).Contents (Elt F)),
    reshape main_v103 main_v104 rfl shapeCasts_S1x256_S256,
    nullary main_cst_16 (constant S_ .f32 0x00000000#32),
    binary main_v100 main_cst_16 main_v105 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    nullary main_cst_17 (constant S_ .f32 0x44000000#32),
    unary main_cst_17 main_v106 (broadcastInDim S256 ![] bcast_S_S256 : (⟨S_, .f32⟩ : BufTy).Contents (Elt F) → (⟨S256, .f32⟩ : BufTy).Contents (Elt F)),
    binary main_v105 main_v106 main_v107 (Host.divf : (⟨S256, .f32⟩ : BufTy).Contents (Elt F) → (⟨S256, .f32⟩ : BufTy).Contents (Elt F) → (⟨S256, .f32⟩ : BufTy).Contents (Elt F)),
    unary main_v107 main_v108 (broadcastInDim S1x256 ![1] bcast_S256_S1x256_1 : (⟨S256, .f32⟩ : BufTy).Contents (Elt F) → (⟨S1x256, .f32⟩ : BufTy).Contents (Elt F)),
    unary main_v108 main_v109 (broadcastInDim S512x256 ![0, 1] bcast_S1x256_S512x256_0_1 : (⟨S1x256, .f32⟩ : BufTy).Contents (Elt F) → (⟨S512x256, .f32⟩ : BufTy).Contents (Elt F)),
    binary main_v100 main_v109 main_v110 (subf : (⟨S512x256, .f32⟩ : BufTy).Contents (Elt F) → (⟨S512x256, .f32⟩ : BufTy).Contents (Elt F) → (⟨S512x256, .f32⟩ : BufTy).Contents (Elt F)),
    binary main_v110 main_v110 main_v111 (mulf : (⟨S512x256, .f32⟩ : BufTy).Contents (Elt F) → (⟨S512x256, .f32⟩ : BufTy).Contents (Elt F) → (⟨S512x256, .f32⟩ : BufTy).Contents (Elt F)),
    nullary main_cst_18 (constant S_ .f32 0x00000000#32),
    binary main_v111 main_cst_18 main_v112 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    nullary main_cst_19 (constant S_ .f32 0x44000000#32),
    unary main_cst_19 main_v113 (broadcastInDim S256 ![] bcast_S_S256 : (⟨S_, .f32⟩ : BufTy).Contents (Elt F) → (⟨S256, .f32⟩ : BufTy).Contents (Elt F)),
    binary main_v112 main_v113 main_v114 (Host.divf : (⟨S256, .f32⟩ : BufTy).Contents (Elt F) → (⟨S256, .f32⟩ : BufTy).Contents (Elt F) → (⟨S256, .f32⟩ : BufTy).Contents (Elt F)),
    unary main_v107 main_v115 (broadcastInDim S1x256 ![1] bcast_S256_S1x256_1 : (⟨S256, .f32⟩ : BufTy).Contents (Elt F) → (⟨S1x256, .f32⟩ : BufTy).Contents (Elt F)),
    unary main_v115 main_v116 (broadcastInDim S512x256 ![0, 1] bcast_S1x256_S512x256_0_1 : (⟨S1x256, .f32⟩ : BufTy).Contents (Elt F) → (⟨S512x256, .f32⟩ : BufTy).Contents (Elt F)),
    binary main_v100 main_v116 main_v117 (subf : (⟨S512x256, .f32⟩ : BufTy).Contents (Elt F) → (⟨S512x256, .f32⟩ : BufTy).Contents (Elt F) → (⟨S512x256, .f32⟩ : BufTy).Contents (Elt F)),
    unary main_v102 main_v118 (broadcastInDim S1x256 ![1] bcast_S256_S1x256_1 : (⟨S256, .f32⟩ : BufTy).Contents (Elt F) → (⟨S1x256, .f32⟩ : BufTy).Contents (Elt F)),
    unary main_v118 main_v119 (broadcastInDim S512x256 ![0, 1] bcast_S1x256_S512x256_0_1 : (⟨S1x256, .f32⟩ : BufTy).Contents (Elt F) → (⟨S512x256, .f32⟩ : BufTy).Contents (Elt F)),
    binary main_v119 main_v117 main_v120 (mulf : (⟨S512x256, .f32⟩ : BufTy).Contents (Elt F) → (⟨S512x256, .f32⟩ : BufTy).Contents (Elt F) → (⟨S512x256, .f32⟩ : BufTy).Contents (Elt F)),
    nullary main_cst_20 (constant S_ .f32 0x3727C5AC#32),
    unary main_cst_20 main_v121 (broadcastInDim S256 ![] bcast_S_S256 : (⟨S_, .f32⟩ : BufTy).Contents (Elt F) → (⟨S256, .f32⟩ : BufTy).Contents (Elt F)),
    binary main_v114 main_v121 main_v122 (addf : (⟨S256, .f32⟩ : BufTy).Contents (Elt F) → (⟨S256, .f32⟩ : BufTy).Contents (Elt F) → (⟨S256, .f32⟩ : BufTy).Contents (Elt F)),
    unary main_v122 main_v123 (Host.rsqrt : (⟨S256, .f32⟩ : BufTy).Contents (Elt F) → (⟨S256, .f32⟩ : BufTy).Contents (Elt F)),
    unary main_v123 main_v124 (broadcastInDim S1x256 ![1] bcast_S256_S1x256_1 : (⟨S256, .f32⟩ : BufTy).Contents (Elt F) → (⟨S1x256, .f32⟩ : BufTy).Contents (Elt F)),
    unary main_v124 main_v125 (broadcastInDim S512x256 ![0, 1] bcast_S1x256_S512x256_0_1 : (⟨S1x256, .f32⟩ : BufTy).Contents (Elt F) → (⟨S512x256, .f32⟩ : BufTy).Contents (Elt F)),
    binary main_v120 main_v125 main_v126 (mulf : (⟨S512x256, .f32⟩ : BufTy).Contents (Elt F) → (⟨S512x256, .f32⟩ : BufTy).Contents (Elt F) → (⟨S512x256, .f32⟩ : BufTy).Contents (Elt F)),
    unary main_v104 main_v127 (broadcastInDim S1x256 ![1] bcast_S256_S1x256_1 : (⟨S256, .f32⟩ : BufTy).Contents (Elt F) → (⟨S1x256, .f32⟩ : BufTy).Contents (Elt F)),
    unary main_v127 main_v128 (broadcastInDim S512x256 ![0, 1] bcast_S1x256_S512x256_0_1 : (⟨S1x256, .f32⟩ : BufTy).Contents (Elt F) → (⟨S512x256, .f32⟩ : BufTy).Contents (Elt F)),
    binary main_v126 main_v128 main_v129 (addf : (⟨S512x256, .f32⟩ : BufTy).Contents (Elt F) → (⟨S512x256, .f32⟩ : BufTy).Contents (Elt F) → (⟨S512x256, .f32⟩ : BufTy).Contents (Elt F)) ]
theorem ops12_sub : (ops12 : List (HloOp τ sig (Elt F))).Forall fun op => op.bufs ⊆ tcRefs τ sig :=
  ⟨reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 13: operations 156 … 158 (part 2 of the printed function). -/
abbrev ops13 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S512x256, .f32⟩) main_call1_v0) (broadcastInDim S512x256 ![] bcast_S_S512x256),
    TRef.binary (TRef.of (T := ⟨S512x256, .f32⟩) main_v129) (TRef.of (T := ⟨S512x256, .f32⟩) main_call1_v0) (TRef.of (T := ⟨S512x256, .f32⟩) main_v130) maximumf ]
theorem ops13_sub : (ops13 : List (HloOp τ sig (Elt F))).Forall fun op => op.bufs ⊆ tcRefs τ sig :=
  ⟨nullary_bufs_sub .., unary_bufs_sub .., binary_bufs_sub ..⟩
theorem ops13_fresh : (ops13 : List (HloOp τ sig (Elt F))).Forall fun op => op.fresh = ∅ :=
  ⟨rfl, rfl, rfl⟩

/-- Stretch 14: operations 159 … 166 (part 2 of the printed function). -/
abbrev ops14 : List (HloOp τ sig (Elt F)) :=
  [ unary main_arg12 main_v131 ((extractStridedSlice S1x256x128 ![1, 0, 0] · slices_S2x256x128_S1x256x128_1_0_0) : (⟨S2x256x128, .f32⟩ : BufTy).Contents (Elt F) → (⟨S1x256x128, .f32⟩ : BufTy).Contents (Elt F)),
    reshape main_v131 main_v132 rfl shapeCasts_S1x256x128_S256x128,
    binary main_v130 main_v132 main_v133 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg13 main_v134 ((extractStridedSlice S1x128 ![1, 0] · slices_S2x128_S1x128_1_0) : (⟨S2x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S512x128 ![0, 1] bcast_S1x128_S512x128_0_1 : (⟨S1x128, .f32⟩ : BufTy).Contents (Elt F) → (⟨S512x128, .f32⟩ : BufTy).Contents (Elt F)),
    binary main_v133 main_v137 main_v138 (addf : (⟨S512x128, .f32⟩ : BufTy).Contents (Elt F) → (⟨S512x128, .f32⟩ : BufTy).Contents (Elt F) → (⟨S512x128, .f32⟩ : BufTy).Contents (Elt F)) ]
theorem ops14_sub : (ops14 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops14_fresh : (ops14 : List (HloOp τ sig (Elt F))).Forall fun op => op.fresh = ∅ :=
  ⟨rfl, rfl, rfl, rfl, rfl, rfl, rfl, rfl⟩

/-- Stretch 15: operations 167 … 184 (part 2 of the printed function). -/
abbrev ops15 : List (HloOp τ sig (Elt F)) :=
  [ unary main_arg14 main_v139 ((extractStridedSlice S1x128 ![1, 0] · slices_S2x128_S1x128_1_0) : (⟨S2x128, .f32⟩ : BufTy).Contents (Elt F) → (⟨S1x128, .f32⟩ : BufTy).Contents (Elt F)),
    reshape main_v139 main_v140 rfl shapeCasts_S1x128_S128,
    unary main_arg15 main_v141 ((extractStridedSlice S1x128 ![1, 0] · slices_S2x128_S1x128_1_0) : (⟨S2x128, .f32⟩ : BufTy).Contents (Elt F) → (⟨S1x128, .f32⟩ : BufTy).Contents (Elt F)),
    reshape main_v141 main_v142 rfl shapeCasts_S1x128_S128,
    nullary main_cst_21 (constant S_ .f32 0x00000000#32),
    binary main_v138 main_cst_21 main_v143 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    nullary main_cst_22 (constant S_ .f32 0x44000000#32),
    unary main_cst_22 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S512x128 ![0, 1] bcast_S1x128_S512x128_0_1 : (⟨S1x128, .f32⟩ : BufTy).Contents (Elt F) → (⟨S512x128, .f32⟩ : BufTy).Contents (Elt F)),
    binary main_v138 main_v147 main_v148 (subf : (⟨S512x128, .f32⟩ : BufTy).Contents (Elt F) → (⟨S512x128, .f32⟩ : BufTy).Contents (Elt F) → (⟨S512x128, .f32⟩ : BufTy).Contents (Elt F)),
    binary main_v148 main_v148 main_v149 (mulf : (⟨S512x128, .f32⟩ : BufTy).Contents (Elt F) → (⟨S512x128, .f32⟩ : BufTy).Contents (Elt F) → (⟨S512x128, .f32⟩ : BufTy).Contents (Elt F)),
    nullary main_cst_23 (constant S_ .f32 0x00000000#32),
    binary main_v149 main_cst_23 main_v150 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    nullary main_cst_24 (constant S_ .f32 0x44000000#32),
    unary main_cst_24 main_v151 (broadcastInDim S128 ![] bcast_S_S128 : (⟨S_, .f32⟩ : BufTy).Contents (Elt F) → (⟨S128, .f32⟩ : BufTy).Contents (Elt F)),
    binary main_v150 main_v151 main_v152 (Host.divf : (⟨S128, .f32⟩ : BufTy).Contents (Elt F) → (⟨S128, .f32⟩ : BufTy).Contents (Elt F) → (⟨S128, .f32⟩ : BufTy).Contents (Elt F)) ]
theorem ops15_sub : (ops15 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem ops15_fresh : (ops15 : List (HloOp τ sig (Elt F))).Forall fun op => op.fresh = ∅ :=
  ⟨rfl, rfl, rfl, rfl, rfl, rfl, rfl, rfl, rfl, rfl, rfl, rfl, rfl, rfl, rfl, rfl, rfl, rfl⟩

/-- Stretch 16: operations 185 … 200 (part 3 of the printed function). -/
abbrev ops16 : List (HloOp τ sig (Elt F)) :=
  [ unary main_v145 main_v153 (broadcastInDim S1x128 ![1] bcast_S128_S1x128_1 : (⟨S128, .f32⟩ : BufTy).Contents (Elt F) → (⟨S1x128, .f32⟩ : BufTy).Contents (Elt F)),
    unary main_v153 main_v154 (broadcastInDim S512x128 ![0, 1] bcast_S1x128_S512x128_0_1 : (⟨S1x128, .f32⟩ : BufTy).Contents (Elt F) → (⟨S512x128, .f32⟩ : BufTy).Contents (Elt F)),
    binary main_v138 main_v154 main_v155 (subf : (⟨S512x128, .f32⟩ : BufTy).Contents (Elt F) → (⟨S512x128, .f32⟩ : BufTy).Contents (Elt F) → (⟨S512x128, .f32⟩ : BufTy).Contents (Elt F)),
    unary main_v140 main_v156 (broadcastInDim S1x128 ![1] bcast_S128_S1x128_1 : (⟨S128, .f32⟩ : BufTy).Contents (Elt F) → (⟨S1x128, .f32⟩ : BufTy).Contents (Elt F)),
    unary main_v156 main_v157 (broadcastInDim S512x128 ![0, 1] bcast_S1x128_S512x128_0_1 : (⟨S1x128, .f32⟩ : BufTy).Contents (Elt F) → (⟨S512x128, .f32⟩ : BufTy).Contents (Elt F)),
    binary main_v157 main_v155 main_v158 (mulf : (⟨S512x128, .f32⟩ : BufTy).Contents (Elt F) → (⟨S512x128, .f32⟩ : BufTy).Contents (Elt F) → (⟨S512x128, .f32⟩ : BufTy).Contents (Elt F)),
    nullary main_cst_25 (constant S_ .f32 0x3727C5AC#32),
    unary main_cst_25 main_v159 (broadcastInDim S128 ![] bcast_S_S128 : (⟨S_, .f32⟩ : BufTy).Contents (Elt F) → (⟨S128, .f32⟩ : BufTy).Contents (Elt F)),
    binary main_v152 main_v159 main_v160 (addf : (⟨S128, .f32⟩ : BufTy).Contents (Elt F) → (⟨S128, .f32⟩ : BufTy).Contents (Elt F) → (⟨S128, .f32⟩ : BufTy).Contents (Elt F)),
    unary main_v160 main_v161 (Host.rsqrt : (⟨S128, .f32⟩ : BufTy).Contents (Elt F) → (⟨S128, .f32⟩ : BufTy).Contents (Elt F)),
    unary main_v161 main_v162 (broadcastInDim S1x128 ![1] bcast_S128_S1x128_1 : (⟨S128, .f32⟩ : BufTy).Contents (Elt F) → (⟨S1x128, .f32⟩ : BufTy).Contents (Elt F)),
    unary main_v162 main_v163 (broadcastInDim S512x128 ![0, 1] bcast_S1x128_S512x128_0_1 : (⟨S1x128, .f32⟩ : BufTy).Contents (Elt F) → (⟨S512x128, .f32⟩ : BufTy).Contents (Elt F)),
    binary main_v158 main_v163 main_v164 (mulf : (⟨S512x128, .f32⟩ : BufTy).Contents (Elt F) → (⟨S512x128, .f32⟩ : BufTy).Contents (Elt F) → (⟨S512x128, .f32⟩ : BufTy).Contents (Elt F)),
    unary main_v142 main_v165 (broadcastInDim S1x128 ![1] bcast_S128_S1x128_1 : (⟨S128, .f32⟩ : BufTy).Contents (Elt F) → (⟨S1x128, .f32⟩ : BufTy).Contents (Elt F)),
    unary main_v165 main_v166 (broadcastInDim S512x128 ![0, 1] bcast_S1x128_S512x128_0_1 : (⟨S1x128, .f32⟩ : BufTy).Contents (Elt F) → (⟨S512x128, .f32⟩ : BufTy).Contents (Elt F)),
    binary main_v164 main_v166 main_v167 (addf : (⟨S512x128, .f32⟩ : BufTy).Contents (Elt F) → (⟨S512x128, .f32⟩ : BufTy).Contents (Elt F) → (⟨S512x128, .f32⟩ : BufTy).Contents (Elt F)) ]
theorem ops16_sub : (ops16 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem ops16_fresh : (ops16 : List (HloOp τ sig (Elt F))).Forall fun op => op.fresh = ∅ :=
  ⟨rfl, rfl, rfl, rfl, rfl, rfl, rfl, rfl, rfl, rfl, rfl, rfl, rfl, rfl, rfl, rfl⟩

/-- Stretch 17: operations 201 … 203 (part 3 of the printed function). -/
abbrev ops17 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S512x128, .f32⟩) main_call2_v0) (broadcastInDim S512x128 ![] bcast_S_S512x128),
    TRef.binary (TRef.of (T := ⟨S512x128, .f32⟩) main_v167) (TRef.of (T := ⟨S512x128, .f32⟩) main_call2_v0) (TRef.of (T := ⟨S512x128, .f32⟩) main_v168) maximumf ]
theorem ops17_sub : (ops17 : List (HloOp τ sig (Elt F))).Forall fun op => op.bufs ⊆ tcRefs τ sig :=
  ⟨nullary_bufs_sub .., unary_bufs_sub .., binary_bufs_sub ..⟩
theorem ops17_fresh : (ops17 : List (HloOp τ sig (Elt F))).Forall fun op => op.fresh = ∅ :=
  ⟨rfl, rfl, rfl⟩

/-- Stretch 18: operations 204 … 204 (part 3 of the printed function). -/
abbrev ops18 : List (HloOp τ sig (Elt F)) :=
  [ binary main_v29 main_v168 main_v169 (addf : (⟨S512x128, .f32⟩ : BufTy).Contents (Elt F) → (⟨S512x128, .f32⟩ : BufTy).Contents (Elt F) → (⟨S512x128, .f32⟩ : BufTy).Contents (Elt F)) ]
theorem ops18_sub : (ops18 : List (HloOp τ sig (Elt F))).Forall fun op => op.bufs ⊆ tcRefs τ sig :=
  binary_bufs_sub ..
theorem ops18_fresh : (ops18 : List (HloOp τ sig (Elt F))).Forall fun op => op.fresh = ∅ :=
  rfl

/-- Stretch 19: operations 205 … 220 (part 3 of the printed function). -/
abbrev ops19 : List (HloOp τ sig (Elt F)) :=
  [ unary main_v28 main_v170 (broadcastInDim S650000x1 ![0] bcast_S650000_S650000x1_0 : (⟨S650000, .f32⟩ : BufTy).Contents (Elt F) → (⟨S650000x1, .f32⟩ : BufTy).Contents (Elt F)),
    nullary main_c_26 (constantI S_ 32 0#32),
    unary main_c_26 main_v171 (broadcastInDim S650000 ![] bcast_S_S650000 : (⟨S_, .i32⟩ : BufTy).Contents (Elt F) → (⟨S650000, .i32⟩ : BufTy).Contents (Elt F)),
    binary main_v3 main_v171 main_v172 (cmpi .slt : (⟨S650000, .i32⟩ : BufTy).Contents (Elt F) → (⟨S650000, .i32⟩ : BufTy).Contents (Elt F) → (⟨S650000, .i1⟩ : BufTy).Contents (Elt F)),
    nullary main_c_27 (constantI S_ 32 50000#32),
    unary main_c_27 main_v173 (broadcastInDim S650000 ![] bcast_S_S650000 : (⟨S_, .i32⟩ : BufTy).Contents (Elt F) → (⟨S650000, .i32⟩ : BufTy).Contents (Elt F)),
    binary main_v3 main_v173 main_v174 (addi : (⟨S650000, .i32⟩ : BufTy).Contents (Elt F) → (⟨S650000, .i32⟩ : BufTy).Contents (Elt F) → (⟨S650000, .i32⟩ : BufTy).Contents (Elt F)),
    ternary main_v172 main_v174 main_v3 main_v175 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v175 main_v176 (broadcastInDim S650000x1 ![0] bcast_S650000_S650000x1_0 : (⟨S650000, .i32⟩ : BufTy).Contents (Elt F) → (⟨S650000x1, .i32⟩ : BufTy).Contents (Elt F)),
    binary main_v88 main_v176 main_v177 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v170 main_v178 (broadcastInDim S650000x128 ![0, 1] bcast_S650000x1_S650000x128_0_1 : (⟨S650000x1, .f32⟩ : BufTy).Contents (Elt F) → (⟨S650000x128, .f32⟩ : BufTy).Contents (Elt F)),
    binary main_v178 main_v177 main_v179 (mulf : (⟨S650000x128, .f32⟩ : BufTy).Contents (Elt F) → (⟨S650000x128, .f32⟩ : BufTy).Contents (Elt F) → (⟨S650000x128, .f32⟩ : BufTy).Contents (Elt F)),
    nullary main_cst_28 (constant S_ .f32 0x00000000#32),
    unary main_cst_28 main_v180 (broadcastInDim S50000x128 ![] bcast_S_S50000x128 : (⟨S_, .f32⟩ : BufTy).Contents (Elt F) → (⟨S50000x128, .f32⟩ : BufTy).Contents (Elt F)),
    unary main_v6 main_v181 (broadcastInDim S650000x1 ![0] bcast_S650000_S650000x1_0 : (⟨S650000, .i32⟩ : BufTy).Contents (Elt F) → (⟨S650000x1, .i32⟩ : BufTy).Contents (Elt F)),
    ternary main_v180 main_v181 main_v179 main_v182 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
theorem ops19_sub : (ops19 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem ops19_fresh : (ops19 : List (HloOp τ sig (Elt F))).Forall fun op => op.fresh = ∅ :=
  ⟨rfl, rfl, rfl, rfl, rfl, rfl, rfl, rfl, rfl, rfl, rfl, rfl, rfl, rfl, rfl, rfl⟩

/-- Stretch 20: operations 221 … 228 (part 3 of the printed function). -/
abbrev ops20 : List (HloOp τ sig (Elt F)) :=
  [ unary main_arg3 main_v183 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v183 main_v184 rfl shapeCasts_S1x128x128_S128x128,
    binary main_v182 main_v184 main_v185 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v186 ((extractStridedSlice S1x128 ![1, 0] · slices_S3x128_S1x128_1_0) : (⟨S3x128, .f32⟩ : BufTy).Contents (Elt F) → (⟨S1x128, .f32⟩ : BufTy).Contents (Elt F)),
    reshape main_v186 main_v187 rfl shapeCasts_S1x128_S128,
    unary main_v187 main_v188 (broadcastInDim S1x128 ![1] bcast_S128_S1x128_1 : (⟨S128, .f32⟩ : BufTy).Contents (Elt F) → (⟨S1x128, .f32⟩ : BufTy).Contents (Elt F)),
    unary main_v188 main_v189 (broadcastInDim S50000x128 ![0, 1] bcast_S1x128_S50000x128_0_1 : (⟨S1x128, .f32⟩ : BufTy).Contents (Elt F) → (⟨S50000x128, .f32⟩ : BufTy).Contents (Elt F)),
    binary main_v185 main_v189 main_v190 (addf : (⟨S50000x128, .f32⟩ : BufTy).Contents (Elt F) → (⟨S50000x128, .f32⟩ : BufTy).Contents (Elt F) → (⟨S50000x128, .f32⟩ : BufTy).Contents (Elt F)) ]
theorem ops20_sub : (ops20 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops20_fresh : (ops20 : List (HloOp τ sig (Elt F))).Forall fun op => op.fresh = ∅ :=
  ⟨rfl, rfl, rfl, rfl, rfl, rfl, rfl, rfl⟩

/-- Stretch 21: operations 229 … 246 (part 3 of the printed function). -/
abbrev ops21 : List (HloOp τ sig (Elt F)) :=
  [ unary main_arg5 main_v191 ((extractStridedSlice S1x128 ![1, 0] · slices_S3x128_S1x128_1_0) : (⟨S3x128, .f32⟩ : BufTy).Contents (Elt F) → (⟨S1x128, .f32⟩ : BufTy).Contents (Elt F)),
    reshape main_v191 main_v192 rfl shapeCasts_S1x128_S128,
    unary main_arg6 main_v193 ((extractStridedSlice S1x128 ![1, 0] · slices_S3x128_S1x128_1_0) : (⟨S3x128, .f32⟩ : BufTy).Contents (Elt F) → (⟨S1x128, .f32⟩ : BufTy).Contents (Elt F)),
    reshape main_v193 main_v194 rfl shapeCasts_S1x128_S128,
    nullary main_cst_29 (constant S_ .f32 0x00000000#32),
    binary main_v190 main_cst_29 main_v195 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v196 (broadcastInDim S128 ![] bcast_S_S128 : (⟨S_, .f32⟩ : BufTy).Contents (Elt F) → (⟨S128, .f32⟩ : BufTy).Contents (Elt F)),
    binary main_v195 main_v196 main_v197 (Host.divf : (⟨S128, .f32⟩ : BufTy).Contents (Elt F) → (⟨S128, .f32⟩ : BufTy).Contents (Elt F) → (⟨S128, .f32⟩ : BufTy).Contents (Elt F)),
    unary main_v197 main_v198 (broadcastInDim S1x128 ![1] bcast_S128_S1x128_1 : (⟨S128, .f32⟩ : BufTy).Contents (Elt F) → (⟨S1x128, .f32⟩ : BufTy).Contents (Elt F)),
    unary main_v198 main_v199 (broadcastInDim S50000x128 ![0, 1] bcast_S1x128_S50000x128_0_1 : (⟨S1x128, .f32⟩ : BufTy).Contents (Elt F) → (⟨S50000x128, .f32⟩ : BufTy).Contents (Elt F)),
    binary main_v190 main_v199 main_v200 (subf : (⟨S50000x128, .f32⟩ : BufTy).Contents (Elt F) → (⟨S50000x128, .f32⟩ : BufTy).Contents (Elt F) → (⟨S50000x128, .f32⟩ : BufTy).Contents (Elt F)),
    binary main_v200 main_v200 main_v201 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v201 main_cst_31 main_v202 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_32 (constant S_ .f32 0x47435000#32),
    unary main_cst_32 main_v203 (broadcastInDim S128 ![] bcast_S_S128 : (⟨S_, .f32⟩ : BufTy).Contents (Elt F) → (⟨S128, .f32⟩ : BufTy).Contents (Elt F)),
    binary main_v202 main_v203 main_v204 (Host.divf : (⟨S128, .f32⟩ : BufTy).Contents (Elt F) → (⟨S128, .f32⟩ : BufTy).Contents (Elt F) → (⟨S128, .f32⟩ : BufTy).Contents (Elt F)) ]
theorem ops21_sub : (ops21 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem ops21_fresh : (ops21 : List (HloOp τ sig (Elt F))).Forall fun op => op.fresh = ∅ :=
  ⟨rfl, rfl, rfl, rfl, rfl, rfl, rfl, rfl, rfl, rfl, rfl, rfl, rfl, rfl, rfl, rfl, rfl, rfl⟩

/-- Stretch 22: operations 247 … 262 (part 4 of the printed function). -/
abbrev ops22 : List (HloOp τ sig (Elt F)) :=
  [ unary main_v197 main_v205 (broadcastInDim S1x128 ![1] bcast_S128_S1x128_1 : (⟨S128, .f32⟩ : BufTy).Contents (Elt F) → (⟨S1x128, .f32⟩ : BufTy).Contents (Elt F)),
    unary main_v205 main_v206 (broadcastInDim S50000x128 ![0, 1] bcast_S1x128_S50000x128_0_1 : (⟨S1x128, .f32⟩ : BufTy).Contents (Elt F) → (⟨S50000x128, .f32⟩ : BufTy).Contents (Elt F)),
    binary main_v190 main_v206 main_v207 (subf : (⟨S50000x128, .f32⟩ : BufTy).Contents (Elt F) → (⟨S50000x128, .f32⟩ : BufTy).Contents (Elt F) → (⟨S50000x128, .f32⟩ : BufTy).Contents (Elt F)),
    unary main_v192 main_v208 (broadcastInDim S1x128 ![1] bcast_S128_S1x128_1 : (⟨S128, .f32⟩ : BufTy).Contents (Elt F) → (⟨S1x128, .f32⟩ : BufTy).Contents (Elt F)),
    unary main_v208 main_v209 (broadcastInDim S50000x128 ![0, 1] bcast_S1x128_S50000x128_0_1 : (⟨S1x128, .f32⟩ : BufTy).Contents (Elt F) → (⟨S50000x128, .f32⟩ : BufTy).Contents (Elt F)),
    binary main_v209 main_v207 main_v210 (mulf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v211 (broadcastInDim S128 ![] bcast_S_S128 : (⟨S_, .f32⟩ : BufTy).Contents (Elt F) → (⟨S128, .f32⟩ : BufTy).Contents (Elt F)),
    binary main_v204 main_v211 main_v212 (addf : (⟨S128, .f32⟩ : BufTy).Contents (Elt F) → (⟨S128, .f32⟩ : BufTy).Contents (Elt F) → (⟨S128, .f32⟩ : BufTy).Contents (Elt F)),
    unary main_v212 main_v213 (Host.rsqrt : (⟨S128, .f32⟩ : BufTy).Contents (Elt F) → (⟨S128, .f32⟩ : BufTy).Contents (Elt F)),
    unary main_v213 main_v214 (broadcastInDim S1x128 ![1] bcast_S128_S1x128_1 : (⟨S128, .f32⟩ : BufTy).Contents (Elt F) → (⟨S1x128, .f32⟩ : BufTy).Contents (Elt F)),
    unary main_v214 main_v215 (broadcastInDim S50000x128 ![0, 1] bcast_S1x128_S50000x128_0_1 : (⟨S1x128, .f32⟩ : BufTy).Contents (Elt F) → (⟨S50000x128, .f32⟩ : BufTy).Contents (Elt F)),
    binary main_v210 main_v215 main_v216 (mulf : (⟨S50000x128, .f32⟩ : BufTy).Contents (Elt F) → (⟨S50000x128, .f32⟩ : BufTy).Contents (Elt F) → (⟨S50000x128, .f32⟩ : BufTy).Contents (Elt F)),
    unary main_v194 main_v217 (broadcastInDim S1x128 ![1] bcast_S128_S1x128_1 : (⟨S128, .f32⟩ : BufTy).Contents (Elt F) → (⟨S1x128, .f32⟩ : BufTy).Contents (Elt F)),
    unary main_v217 main_v218 (broadcastInDim S50000x128 ![0, 1] bcast_S1x128_S50000x128_0_1 : (⟨S1x128, .f32⟩ : BufTy).Contents (Elt F) → (⟨S50000x128, .f32⟩ : BufTy).Contents (Elt F)),
    binary main_v216 main_v218 main_v219 (addf : (⟨S50000x128, .f32⟩ : BufTy).Contents (Elt F) → (⟨S50000x128, .f32⟩ : BufTy).Contents (Elt F) → (⟨S50000x128, .f32⟩ : BufTy).Contents (Elt F)) ]
theorem ops22_sub : (ops22 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem ops22_fresh : (ops22 : List (HloOp τ sig (Elt F))).Forall fun op => op.fresh = ∅ :=
  ⟨rfl, rfl, rfl, rfl, rfl, rfl, rfl, rfl, rfl, rfl, rfl, rfl, rfl, rfl, rfl, rfl⟩

/-- Stretch 23: operations 263 … 265 (part 4 of the printed function). -/
abbrev ops23 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v219) (TRef.of (T := ⟨S50000x128, .f32⟩) main_call3_v0) (TRef.of (T := ⟨S50000x128, .f32⟩) main_v220) maximumf ]
theorem ops23_sub : (ops23 : List (HloOp τ sig (Elt F))).Forall fun op => op.bufs ⊆ tcRefs τ sig :=
  ⟨nullary_bufs_sub .., unary_bufs_sub .., binary_bufs_sub ..⟩
theorem ops23_fresh : (ops23 : List (HloOp τ sig (Elt F))).Forall fun op => op.fresh = ∅ :=
  ⟨rfl, rfl, rfl⟩

/-- Stretch 24: operations 266 … 275 (part 4 of the printed function). -/
abbrev ops24 : List (HloOp τ sig (Elt F)) :=
  [ nullary main_c_34 (constantI S_ 32 0#32),
    unary main_c_34 main_v221 (broadcastInDim S50000 ![] bcast_S_S50000 : (⟨S_, .i32⟩ : BufTy).Contents (Elt F) → (⟨S50000, .i32⟩ : BufTy).Contents (Elt F)),
    binary main_arg2 main_v221 main_v222 (cmpi .slt : (⟨S50000, .i32⟩ : BufTy).Contents (Elt F) → (⟨S50000, .i32⟩ : BufTy).Contents (Elt F) → (⟨S50000, .i1⟩ : BufTy).Contents (Elt F)),
    nullary main_c_35 (constantI S_ 32 512#32),
    unary main_c_35 main_v223 (broadcastInDim S50000 ![] bcast_S_S50000 : (⟨S_, .i32⟩ : BufTy).Contents (Elt F) → (⟨S50000, .i32⟩ : BufTy).Contents (Elt F)),
    binary main_arg2 main_v223 main_v224 (addi : (⟨S50000, .i32⟩ : BufTy).Contents (Elt F) → (⟨S50000, .i32⟩ : BufTy).Contents (Elt F) → (⟨S50000, .i32⟩ : BufTy).Contents (Elt F)),
    ternary main_v222 main_v224 main_arg2 main_v225 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v225 main_v226 (broadcastInDim S50000x1 ![0] bcast_S50000_S50000x1_0 : (⟨S50000, .i32⟩ : BufTy).Contents (Elt F) → (⟨S50000x1, .i32⟩ : BufTy).Contents (Elt F)),
    binary main_v169 main_v226 main_v227 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    binary main_v220 main_v227 main_v228 (addf : (⟨S50000x128, .f32⟩ : BufTy).Contents (Elt F) → (⟨S50000x128, .f32⟩ : BufTy).Contents (Elt F) → (⟨S50000x128, .f32⟩ : BufTy).Contents (Elt F)) ]
theorem ops24_sub : (ops24 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem ops24_fresh : (ops24 : List (HloOp τ sig (Elt F))).Forall fun op => op.fresh = ∅ :=
  ⟨rfl, rfl, rfl, rfl, rfl, rfl, rfl, rfl, rfl, rfl⟩

/-- Stretch 25: operations 276 … 308 (part 4 of the printed function); nothing later reads what it computes. -/
abbrev ops25 : List (HloOp τ sig (Elt F)) :=
  [ nullary main_cst_36 (constant S_ .f32 0x00000000#32),
    unary main_cst_36 main_v229 (broadcastInDim S512x128 ![] bcast_S_S512x128 : (⟨S_, .f32⟩ : BufTy).Contents (Elt F) → (⟨S512x128, .f32⟩ : BufTy).Contents (Elt F)),
    unary main_arg2 main_v230 (broadcastInDim S50000x1 ![0] bcast_S50000_S50000x1_0 : (⟨S50000, .i32⟩ : BufTy).Contents (Elt F) → (⟨S50000x1, .i32⟩ : BufTy).Contents (Elt F)),
    ternary main_v229 main_v230 main_v228 main_v231 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    binary main_v231 main_v169 main_v232 (addf : (⟨S512x128, .f32⟩ : BufTy).Contents (Elt F) → (⟨S512x128, .f32⟩ : BufTy).Contents (Elt F) → (⟨S512x128, .f32⟩ : BufTy).Contents (Elt F)),
    unary main_arg8 main_v233 ((extractStridedSlice S1x128x256 ![0, 0, 0] · slices_S2x128x256_S1x128x256_0_0_0) : (⟨S2x128x256, .f32⟩ : BufTy).Contents (Elt F) → (⟨S1x128x256, .f32⟩ : BufTy).Contents (Elt F)),
    reshape main_v233 main_v234 rfl shapeCasts_S1x128x256_S128x256,
    binary main_v232 main_v234 main_v235 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    unary main_arg9 main_v236 ((extractStridedSlice S1x256 ![0, 0] · slices_S2x256_S1x256_0_0) : (⟨S2x256, .f32⟩ : BufTy).Contents (Elt F) → (⟨S1x256, .f32⟩ : BufTy).Contents (Elt F)),
    reshape main_v236 main_v237 rfl shapeCasts_S1x256_S256,
    unary main_v237 main_v238 (broadcastInDim S1x256 ![1] bcast_S256_S1x256_1 : (⟨S256, .f32⟩ : BufTy).Contents (Elt F) → (⟨S1x256, .f32⟩ : BufTy).Contents (Elt F)),
    unary main_v238 main_v239 (broadcastInDim S512x256 ![0, 1] bcast_S1x256_S512x256_0_1 : (⟨S1x256, .f32⟩ : BufTy).Contents (Elt F) → (⟨S512x256, .f32⟩ : BufTy).Contents (Elt F)),
    binary main_v235 main_v239 main_v240 (addf : (⟨S512x256, .f32⟩ : BufTy).Contents (Elt F) → (⟨S512x256, .f32⟩ : BufTy).Contents (Elt F) → (⟨S512x256, .f32⟩ : BufTy).Contents (Elt F)),
    unary main_arg10 main_v241 ((extractStridedSlice S1x256 ![0, 0] · slices_S2x256_S1x256_0_0) : (⟨S2x256, .f32⟩ : BufTy).Contents (Elt F) → (⟨S1x256, .f32⟩ : BufTy).Contents (Elt F)),
    reshape main_v241 main_v242 rfl shapeCasts_S1x256_S256,
    unary main_arg11 main_v243 ((extractStridedSlice S1x256 ![0, 0] · slices_S2x256_S1x256_0_0) : (⟨S2x256, .f32⟩ : BufTy).Contents (Elt F) → (⟨S1x256, .f32⟩ : BufTy).Contents (Elt F)),
    reshape main_v243 main_v244 rfl shapeCasts_S1x256_S256,
    nullary main_cst_37 (constant S_ .f32 0x00000000#32),
    binary main_v240 main_cst_37 main_v245 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    nullary main_cst_38 (constant S_ .f32 0x44000000#32),
    unary main_cst_38 main_v246 (broadcastInDim S256 ![] bcast_S_S256 : (⟨S_, .f32⟩ : BufTy).Contents (Elt F) → (⟨S256, .f32⟩ : BufTy).Contents (Elt F)),
    binary main_v245 main_v246 main_v247 (Host.divf : (⟨S256, .f32⟩ : BufTy).Contents (Elt F) → (⟨S256, .f32⟩ : BufTy).Contents (Elt F) → (⟨S256, .f32⟩ : BufTy).Contents (Elt F)),
    unary main_v247 main_v248 (broadcastInDim S1x256 ![1] bcast_S256_S1x256_1 : (⟨S256, .f32⟩ : BufTy).Contents (Elt F) → (⟨S1x256, .f32⟩ : BufTy).Contents (Elt F)),
    unary main_v248 main_v249 (broadcastInDim S512x256 ![0, 1] bcast_S1x256_S512x256_0_1 : (⟨S1x256, .f32⟩ : BufTy).Contents (Elt F) → (⟨S512x256, .f32⟩ : BufTy).Contents (Elt F)),
    binary main_v240 main_v249 main_v250 (subf : (⟨S512x256, .f32⟩ : BufTy).Contents (Elt F) → (⟨S512x256, .f32⟩ : BufTy).Contents (Elt F) → (⟨S512x256, .f32⟩ : BufTy).Contents (Elt F)),
    binary main_v250 main_v250 main_v251 (mulf : (⟨S512x256, .f32⟩ : BufTy).Contents (Elt F) → (⟨S512x256, .f32⟩ : BufTy).Contents (Elt F) → (⟨S512x256, .f32⟩ : BufTy).Contents (Elt F)),
    nullary main_cst_39 (constant S_ .f32 0x00000000#32),
    binary main_v251 main_cst_39 main_v252 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),
    nullary main_cst_40 (constant S_ .f32 0x44000000#32),
    unary main_cst_40 main_v253 (broadcastInDim S256 ![] bcast_S_S256 : (⟨S_, .f32⟩ : BufTy).Contents (Elt F) → (⟨S256, .f32⟩ : BufTy).Contents (Elt F)),
    binary main_v252 main_v253 main_v254 (Host.divf : (⟨S256, .f32⟩ : BufTy).Contents (Elt F) → (⟨S256, .f32⟩ : BufTy).Contents (Elt F) → (⟨S256, .f32⟩ : BufTy).Contents (Elt F)),
    unary main_v247 main_v255 (broadcastInDim S1x256 ![1] bcast_S256_S1x256_1 : (⟨S256, .f32⟩ : BufTy).Contents (Elt F) → (⟨S1x256, .f32⟩ : BufTy).Contents (Elt F)),
    unary main_v255 main_v256 (broadcastInDim S512x256 ![0, 1] bcast_S1x256_S512x256_0_1 : (⟨S1x256, .f32⟩ : BufTy).Contents (Elt F) → (⟨S512x256, .f32⟩ : BufTy).Contents (Elt F)) ]
theorem ops25_sub : (ops25 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub ..⟩
theorem ops25_fresh : (ops25 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 26: operations 309 … 371 (part 5 of the printed function); nothing later reads what it computes. -/
abbrev ops26 : List (HloOp τ sig (Elt F)) :=
  [ binary main_v240 main_v256 main_v257 (subf : (⟨S512x256, .f32⟩ : BufTy).Contents (Elt F) → (⟨S512x256, .f32⟩ : BufTy).Contents (Elt F) → (⟨S512x256, .f32⟩ : BufTy).Contents (Elt F)),
    unary main_v242 main_v258 (broadcastInDim S1x256 ![1] bcast_S256_S1x256_1 : (⟨S256, .f32⟩ : BufTy).Contents (Elt F) → (⟨S1x256, .f32⟩ : BufTy).Contents (Elt F)),
    unary main_v258 main_v259 (broadcastInDim S512x256 ![0, 1] bcast_S1x256_S512x256_0_1 : (⟨S1x256, .f32⟩ : BufTy).Contents (Elt F) → (⟨S512x256, .f32⟩ : BufTy).Contents (Elt F)),
    binary main_v259 main_v257 main_v260 (mulf : (⟨S512x256, .f32⟩ : BufTy).Contents (Elt F) → (⟨S512x256, .f32⟩ : BufTy).Contents (Elt F) → (⟨S512x256, .f32⟩ : BufTy).Contents (Elt F)),
    nullary main_cst_41 (constant S_ .f32 0x3727C5AC#32),
    unary main_cst_41 main_v261 (broadcastInDim S256 ![] bcast_S_S256 : (⟨S_, .f32⟩ : BufTy).Contents (Elt F) → (⟨S256, .f32⟩ : BufTy).Contents (Elt F)),
    binary main_v254 main_v261 main_v262 (addf : (⟨S256, .f32⟩ : BufTy).Contents (Elt F) → (⟨S256, .f32⟩ : BufTy).Contents (Elt F) → (⟨S256, .f32⟩ : BufTy).Contents (Elt F)),
    unary main_v262 main_v263 (Host.rsqrt : (⟨S256, .f32⟩ : BufTy).Contents (Elt F) → (⟨S256, .f32⟩ : BufTy).Contents (Elt F)),
    unary main_v263 main_v264 (broadcastInDim S1x256 ![1] bcast_S256_S1x256_1 : (⟨S256, .f32⟩ : BufTy).Contents (Elt F) → (⟨S1x256, .f32⟩ : BufTy).Contents (Elt F)),
    unary main_v264 main_v265 (broadcastInDim S512x256 ![0, 1] bcast_S1x256_S512x256_0_1 : (⟨S1x256, .f32⟩ : BufTy).Contents (Elt F) → (⟨S512x256, .f32⟩ : BufTy).Contents (Elt F)),
    binary main_v260 main_v265 main_v266 (mulf : (⟨S512x256, .f32⟩ : BufTy).Contents (Elt F) → (⟨S512x256, .f32⟩ : BufTy).Contents (Elt F) → (⟨S512x256, .f32⟩ : BufTy).Contents (Elt F)),
    unary main_v244 main_v267 (broadcastInDim S1x256 ![1] bcast_S256_S1x256_1 : (⟨S256, .f32⟩ : BufTy).Contents (Elt F) → (⟨S1x256, .f32⟩ : BufTy).Contents (Elt F)),
    unary main_v267 main_v268 (broadcastInDim S512x256 ![0, 1] bcast_S1x256_S512x256_0_1 : (⟨S1x256, .f32⟩ : BufTy).Contents (Elt F) → (⟨S512x256, .f32⟩ : BufTy).Contents (Elt F)),
    binary main_v266 main_v268 main_v269 (addf : (⟨S512x256, .f32⟩ : BufTy).Contents (Elt F) → (⟨S512x256, .f32⟩ : BufTy).Contents (Elt F) → (⟨S512x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x256, .f32⟩) main_call4_v0) (broadcastInDim S512x256 ![] bcast_S_S512x256),
    TRef.binary (TRef.of (T := ⟨S512x256, .f32⟩) main_v269) (TRef.of (T := ⟨S512x256, .f32⟩) main_call4_v0) (TRef.of (T := ⟨S512x256, .f32⟩) main_v270) maximumf,
    unary main_arg12 main_v271 ((extractStridedSlice S1x256x128 ![0, 0, 0] · slices_S2x256x128_S1x256x128_0_0_0) : (⟨S2x256x128, .f32⟩ : BufTy).Contents (Elt F) → (⟨S1x256x128, .f32⟩ : BufTy).Contents (Elt F)),
    reshape main_v271 main_v272 rfl shapeCasts_S1x256x128_S256x128,
    binary main_v270 main_v272 main_v273 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg13 main_v274 ((extractStridedSlice S1x128 ![0, 0] · slices_S2x128_S1x128_0_0) : (⟨S2x128, .f32⟩ : BufTy).Contents (Elt F) → (⟨S1x128, .f32⟩ : BufTy).Contents (Elt F)),
    reshape main_v274 main_v275 rfl shapeCasts_S1x128_S128,
    unary main_v275 main_v276 (broadcastInDim S1x128 ![1] bcast_S128_S1x128_1 : (⟨S128, .f32⟩ : BufTy).Contents (Elt F) → (⟨S1x128, .f32⟩ : BufTy).Contents (Elt F)),
    unary main_v276 main_v277 (broadcastInDim S512x128 ![0, 1] bcast_S1x128_S512x128_0_1 : (⟨S1x128, .f32⟩ : BufTy).Contents (Elt F) → (⟨S512x128, .f32⟩ : BufTy).Contents (Elt F)),
    binary main_v273 main_v277 main_v278 (addf : (⟨S512x128, .f32⟩ : BufTy).Contents (Elt F) → (⟨S512x128, .f32⟩ : BufTy).Contents (Elt F) → (⟨S512x128, .f32⟩ : BufTy).Contents (Elt F)),
    unary main_arg14 main_v279 ((extractStridedSlice S1x128 ![0, 0] · slices_S2x128_S1x128_0_0) : (⟨S2x128, .f32⟩ : BufTy).Contents (Elt F) → (⟨S1x128, .f32⟩ : BufTy).Contents (Elt F)),
    reshape main_v279 main_v280 rfl shapeCasts_S1x128_S128,
    unary main_arg15 main_v281 ((extractStridedSlice S1x128 ![0, 0] · slices_S2x128_S1x128_0_0) : (⟨S2x128, .f32⟩ : BufTy).Contents (Elt F) → (⟨S1x128, .f32⟩ : BufTy).Contents (Elt F)),
    reshape main_v281 main_v282 rfl shapeCasts_S1x128_S128,
    nullary main_cst_42 (constant S_ .f32 0x00000000#32),
    binary main_v278 main_cst_42 main_v283 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    nullary main_cst_43 (constant S_ .f32 0x44000000#32),
    unary main_cst_43 main_v284 (broadcastInDim S128 ![] bcast_S_S128 : (⟨S_, .f32⟩ : BufTy).Contents (Elt F) → (⟨S128, .f32⟩ : BufTy).Contents (Elt F)),
    binary main_v283 main_v284 main_v285 (Host.divf : (⟨S128, .f32⟩ : BufTy).Contents (Elt F) → (⟨S128, .f32⟩ : BufTy).Contents (Elt F) → (⟨S128, .f32⟩ : BufTy).Contents (Elt F)),
    unary main_v285 main_v286 (broadcastInDim S1x128 ![1] bcast_S128_S1x128_1 : (⟨S128, .f32⟩ : BufTy).Contents (Elt F) → (⟨S1x128, .f32⟩ : BufTy).Contents (Elt F)),
    unary main_v286 main_v287 (broadcastInDim S512x128 ![0, 1] bcast_S1x128_S512x128_0_1 : (⟨S1x128, .f32⟩ : BufTy).Contents (Elt F) → (⟨S512x128, .f32⟩ : BufTy).Contents (Elt F)),
    binary main_v278 main_v287 main_v288 (subf : (⟨S512x128, .f32⟩ : BufTy).Contents (Elt F) → (⟨S512x128, .f32⟩ : BufTy).Contents (Elt F) → (⟨S512x128, .f32⟩ : BufTy).Contents (Elt F)),
    binary main_v288 main_v288 main_v289 (mulf : (⟨S512x128, .f32⟩ : BufTy).Contents (Elt F) → (⟨S512x128, .f32⟩ : BufTy).Contents (Elt F) → (⟨S512x128, .f32⟩ : BufTy).Contents (Elt F)),
    nullary main_cst_44 (constant S_ .f32 0x00000000#32),
    binary main_v289 main_cst_44 main_v290 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    nullary main_cst_45 (constant S_ .f32 0x44000000#32),
    unary main_cst_45 main_v291 (broadcastInDim S128 ![] bcast_S_S128 : (⟨S_, .f32⟩ : BufTy).Contents (Elt F) → (⟨S128, .f32⟩ : BufTy).Contents (Elt F)),
    binary main_v290 main_v291 main_v292 (Host.divf : (⟨S128, .f32⟩ : BufTy).Contents (Elt F) → (⟨S128, .f32⟩ : BufTy).Contents (Elt F) → (⟨S128, .f32⟩ : BufTy).Contents (Elt F)),
    unary main_v285 main_v293 (broadcastInDim S1x128 ![1] bcast_S128_S1x128_1 : (⟨S128, .f32⟩ : BufTy).Contents (Elt F) → (⟨S1x128, .f32⟩ : BufTy).Contents (Elt F)),
    unary main_v293 main_v294 (broadcastInDim S512x128 ![0, 1] bcast_S1x128_S512x128_0_1 : (⟨S1x128, .f32⟩ : BufTy).Contents (Elt F) → (⟨S512x128, .f32⟩ : BufTy).Contents (Elt F)),
    binary main_v278 main_v294 main_v295 (subf : (⟨S512x128, .f32⟩ : BufTy).Contents (Elt F) → (⟨S512x128, .f32⟩ : BufTy).Contents (Elt F) → (⟨S512x128, .f32⟩ : BufTy).Contents (Elt F)),
    unary main_v280 main_v296 (broadcastInDim S1x128 ![1] bcast_S128_S1x128_1 : (⟨S128, .f32⟩ : BufTy).Contents (Elt F) → (⟨S1x128, .f32⟩ : BufTy).Contents (Elt F)),
    unary main_v296 main_v297 (broadcastInDim S512x128 ![0, 1] bcast_S1x128_S512x128_0_1 : (⟨S1x128, .f32⟩ : BufTy).Contents (Elt F) → (⟨S512x128, .f32⟩ : BufTy).Contents (Elt F)),
    binary main_v297 main_v295 main_v298 (mulf : (⟨S512x128, .f32⟩ : BufTy).Contents (Elt F) → (⟨S512x128, .f32⟩ : BufTy).Contents (Elt F) → (⟨S512x128, .f32⟩ : BufTy).Contents (Elt F)),
    nullary main_cst_46 (constant S_ .f32 0x3727C5AC#32),
    unary main_cst_46 main_v299 (broadcastInDim S128 ![] bcast_S_S128 : (⟨S_, .f32⟩ : BufTy).Contents (Elt F) → (⟨S128, .f32⟩ : BufTy).Contents (Elt F)),
    binary main_v292 main_v299 main_v300 (addf : (⟨S128, .f32⟩ : BufTy).Contents (Elt F) → (⟨S128, .f32⟩ : BufTy).Contents (Elt F) → (⟨S128, .f32⟩ : BufTy).Contents (Elt F)),
    unary main_v300 main_v301 (Host.rsqrt : (⟨S128, .f32⟩ : BufTy).Contents (Elt F) → (⟨S128, .f32⟩ : BufTy).Contents (Elt F)),
    unary main_v301 main_v302 (broadcastInDim S1x128 ![1] bcast_S128_S1x128_1 : (⟨S128, .f32⟩ : BufTy).Contents (Elt F) → (⟨S1x128, .f32⟩ : BufTy).Contents (Elt F)),
    unary main_v302 main_v303 (broadcastInDim S512x128 ![0, 1] bcast_S1x128_S512x128_0_1 : (⟨S1x128, .f32⟩ : BufTy).Contents (Elt F) → (⟨S512x128, .f32⟩ : BufTy).Contents (Elt F)),
    binary main_v298 main_v303 main_v304 (mulf : (⟨S512x128, .f32⟩ : BufTy).Contents (Elt F) → (⟨S512x128, .f32⟩ : BufTy).Contents (Elt F) → (⟨S512x128, .f32⟩ : BufTy).Contents (Elt F)),
    unary main_v282 main_v305 (broadcastInDim S1x128 ![1] bcast_S128_S1x128_1 : (⟨S128, .f32⟩ : BufTy).Contents (Elt F) → (⟨S1x128, .f32⟩ : BufTy).Contents (Elt F)),
    unary main_v305 main_v306 (broadcastInDim S512x128 ![0, 1] bcast_S1x128_S512x128_0_1 : (⟨S1x128, .f32⟩ : BufTy).Contents (Elt F) → (⟨S512x128, .f32⟩ : BufTy).Contents (Elt F)),
    binary main_v304 main_v306 main_v307 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x128, .f32⟩) main_call5_v0) (broadcastInDim S512x128 ![] bcast_S_S512x128),
    TRef.binary (TRef.of (T := ⟨S512x128, .f32⟩) main_v307) (TRef.of (T := ⟨S512x128, .f32⟩) main_call5_v0) (TRef.of (T := ⟨S512x128, .f32⟩) main_v308) maximumf,
    binary main_v169 main_v308 main_v309 (addf : (⟨S512x128, .f32⟩ : BufTy).Contents (Elt F) → (⟨S512x128, .f32⟩ : BufTy).Contents (Elt F) → (⟨S512x128, .f32⟩ : BufTy).Contents (Elt F)) ]
theorem ops26_sub : (ops26 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem ops26_fresh : (ops26 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 27: operations 372 … 372 (part 5 of the printed function). -/
abbrev ops27 : List (HloOp τ sig (Elt F)) :=
  [ unary main_v28 main_v310 (broadcastInDim S650000x1 ![0] bcast_S650000_S650000x1_0 : (⟨S650000, .f32⟩ : BufTy).Contents (Elt F) → (⟨S650000x1, .f32⟩ : BufTy).Contents (Elt F)) ]
theorem ops27_sub : (ops27 : List (HloOp τ sig (Elt F))).Forall fun op => op.bufs ⊆ tcRefs τ sig :=
  unary_bufs_sub ..
theorem ops27_fresh : (ops27 : List (HloOp τ sig (Elt F))).Forall fun op => op.fresh = ∅ :=
  rfl

/-- Stretch 28: operations 373 … 387 (part 6 of the printed function). -/
abbrev ops28 : List (HloOp τ sig (Elt F)) :=
  [ nullary main_c_47 (constantI S_ 32 0#32),
    unary main_c_47 main_v311 (broadcastInDim S650000 ![] bcast_S_S650000 : (⟨S_, .i32⟩ : BufTy).Contents (Elt F) → (⟨S650000, .i32⟩ : BufTy).Contents (Elt F)),
    binary main_v3 main_v311 main_v312 (cmpi .slt : (⟨S650000, .i32⟩ : BufTy).Contents (Elt F) → (⟨S650000, .i32⟩ : BufTy).Contents (Elt F) → (⟨S650000, .i1⟩ : BufTy).Contents (Elt F)),
    nullary main_c_48 (constantI S_ 32 50000#32),
    unary main_c_48 main_v313 (broadcastInDim S650000 ![] bcast_S_S650000 : (⟨S_, .i32⟩ : BufTy).Contents (Elt F) → (⟨S650000, .i32⟩ : BufTy).Contents (Elt F)),
    binary main_v3 main_v313 main_v314 (addi : (⟨S650000, .i32⟩ : BufTy).Contents (Elt F) → (⟨S650000, .i32⟩ : BufTy).Contents (Elt F) → (⟨S650000, .i32⟩ : BufTy).Contents (Elt F)),
    ternary main_v312 main_v314 main_v3 main_v315 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v315 main_v316 (broadcastInDim S650000x1 ![0] bcast_S650000_S650000x1_0 : (⟨S650000, .i32⟩ : BufTy).Contents (Elt F) → (⟨S650000x1, .i32⟩ : BufTy).Contents (Elt F)),
    binary main_v228 main_v316 main_v317 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v310 main_v318 (broadcastInDim S650000x128 ![0, 1] bcast_S650000x1_S650000x128_0_1 : (⟨S650000x1, .f32⟩ : BufTy).Contents (Elt F) → (⟨S650000x128, .f32⟩ : BufTy).Contents (Elt F)),
    binary main_v318 main_v317 main_v319 (mulf : (⟨S650000x128, .f32⟩ : BufTy).Contents (Elt F) → (⟨S650000x128, .f32⟩ : BufTy).Contents (Elt F) → (⟨S650000x128, .f32⟩ : BufTy).Contents (Elt F)),
    nullary main_cst_49 (constant S_ .f32 0x00000000#32),
    unary main_cst_49 main_v320 (broadcastInDim S50000x128 ![] bcast_S_S50000x128 : (⟨S_, .f32⟩ : BufTy).Contents (Elt F) → (⟨S50000x128, .f32⟩ : BufTy).Contents (Elt F)),
    unary main_v6 main_v321 (broadcastInDim S650000x1 ![0] bcast_S650000_S650000x1_0 : (⟨S650000, .i32⟩ : BufTy).Contents (Elt F) → (⟨S650000x1, .i32⟩ : BufTy).Contents (Elt F)),
    ternary main_v320 main_v321 main_v319 main_v322 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
theorem ops28_sub : (ops28 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem ops28_fresh : (ops28 : List (HloOp τ sig (Elt F))).Forall fun op => op.fresh = ∅ :=
  ⟨rfl, rfl, rfl, rfl, rfl, rfl, rfl, rfl, rfl, rfl, rfl, rfl, rfl, rfl, rfl⟩

/-- Stretch 29: operations 388 … 395 (part 6 of the printed function). -/
abbrev ops29 : List (HloOp τ sig (Elt F)) :=
  [ unary main_arg3 main_v323 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v323 main_v324 rfl shapeCasts_S1x128x128_S128x128,
    binary main_v322 main_v324 main_v325 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v326 ((extractStridedSlice S1x128 ![2, 0] · slices_S3x128_S1x128_2_0) : (⟨S3x128, .f32⟩ : BufTy).Contents (Elt F) → (⟨S1x128, .f32⟩ : BufTy).Contents (Elt F)),
    reshape main_v326 main_v327 rfl shapeCasts_S1x128_S128,
    unary main_v327 main_v328 (broadcastInDim S1x128 ![1] bcast_S128_S1x128_1 : (⟨S128, .f32⟩ : BufTy).Contents (Elt F) → (⟨S1x128, .f32⟩ : BufTy).Contents (Elt F)),
    unary main_v328 main_v329 (broadcastInDim S50000x128 ![0, 1] bcast_S1x128_S50000x128_0_1 : (⟨S1x128, .f32⟩ : BufTy).Contents (Elt F) → (⟨S50000x128, .f32⟩ : BufTy).Contents (Elt F)),
    binary main_v325 main_v329 main_v330 (addf : (⟨S50000x128, .f32⟩ : BufTy).Contents (Elt F) → (⟨S50000x128, .f32⟩ : BufTy).Contents (Elt F) → (⟨S50000x128, .f32⟩ : BufTy).Contents (Elt F)) ]
theorem ops29_sub : (ops29 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops29_fresh : (ops29 : List (HloOp τ sig (Elt F))).Forall fun op => op.fresh = ∅ :=
  ⟨rfl, rfl, rfl, rfl, rfl, rfl, rfl, rfl⟩

/-- Stretch 30: operations 396 … 429 (part 6 of the printed function). -/
abbrev ops30 : List (HloOp τ sig (Elt F)) :=
  [ unary main_arg5 main_v331 ((extractStridedSlice S1x128 ![2, 0] · slices_S3x128_S1x128_2_0) : (⟨S3x128, .f32⟩ : BufTy).Contents (Elt F) → (⟨S1x128, .f32⟩ : BufTy).Contents (Elt F)),
    reshape main_v331 main_v332 rfl shapeCasts_S1x128_S128,
    unary main_arg6 main_v333 ((extractStridedSlice S1x128 ![2, 0] · slices_S3x128_S1x128_2_0) : (⟨S3x128, .f32⟩ : BufTy).Contents (Elt F) → (⟨S1x128, .f32⟩ : BufTy).Contents (Elt F)),
    reshape main_v333 main_v334 rfl shapeCasts_S1x128_S128,
    nullary main_cst_50 (constant S_ .f32 0x00000000#32),
    binary main_v330 main_cst_50 main_v335 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_51 (constant S_ .f32 0x47435000#32),
    unary main_cst_51 main_v336 (broadcastInDim S128 ![] bcast_S_S128 : (⟨S_, .f32⟩ : BufTy).Contents (Elt F) → (⟨S128, .f32⟩ : BufTy).Contents (Elt F)),
    binary main_v335 main_v336 main_v337 (Host.divf : (⟨S128, .f32⟩ : BufTy).Contents (Elt F) → (⟨S128, .f32⟩ : BufTy).Contents (Elt F) → (⟨S128, .f32⟩ : BufTy).Contents (Elt F)),
    unary main_v337 main_v338 (broadcastInDim S1x128 ![1] bcast_S128_S1x128_1 : (⟨S128, .f32⟩ : BufTy).Contents (Elt F) → (⟨S1x128, .f32⟩ : BufTy).Contents (Elt F)),
    unary main_v338 main_v339 (broadcastInDim S50000x128 ![0, 1] bcast_S1x128_S50000x128_0_1 : (⟨S1x128, .f32⟩ : BufTy).Contents (Elt F) → (⟨S50000x128, .f32⟩ : BufTy).Contents (Elt F)),
    binary main_v330 main_v339 main_v340 (subf : (⟨S50000x128, .f32⟩ : BufTy).Contents (Elt F) → (⟨S50000x128, .f32⟩ : BufTy).Contents (Elt F) → (⟨S50000x128, .f32⟩ : BufTy).Contents (Elt F)),
    binary main_v340 main_v340 main_v341 (mulf : (⟨S50000x128, .f32⟩ : BufTy).Contents (Elt F) → (⟨S50000x128, .f32⟩ : BufTy).Contents (Elt F) → (⟨S50000x128, .f32⟩ : BufTy).Contents (Elt F)),
    nullary main_cst_52 (constant S_ .f32 0x00000000#32),
    binary main_v341 main_cst_52 main_v342 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_53 (constant S_ .f32 0x47435000#32),
    unary main_cst_53 main_v343 (broadcastInDim S128 ![] bcast_S_S128 : (⟨S_, .f32⟩ : BufTy).Contents (Elt F) → (⟨S128, .f32⟩ : BufTy).Contents (Elt F)),
    binary main_v342 main_v343 main_v344 (Host.divf : (⟨S128, .f32⟩ : BufTy).Contents (Elt F) → (⟨S128, .f32⟩ : BufTy).Contents (Elt F) → (⟨S128, .f32⟩ : BufTy).Contents (Elt F)),
    unary main_v337 main_v345 (broadcastInDim S1x128 ![1] bcast_S128_S1x128_1 : (⟨S128, .f32⟩ : BufTy).Contents (Elt F) → (⟨S1x128, .f32⟩ : BufTy).Contents (Elt F)),
    unary main_v345 main_v346 (broadcastInDim S50000x128 ![0, 1] bcast_S1x128_S50000x128_0_1 : (⟨S1x128, .f32⟩ : BufTy).Contents (Elt F) → (⟨S50000x128, .f32⟩ : BufTy).Contents (Elt F)),
    binary main_v330 main_v346 main_v347 (subf : (⟨S50000x128, .f32⟩ : BufTy).Contents (Elt F) → (⟨S50000x128, .f32⟩ : BufTy).Contents (Elt F) → (⟨S50000x128, .f32⟩ : BufTy).Contents (Elt F)),
    unary main_v332 main_v348 (broadcastInDim S1x128 ![1] bcast_S128_S1x128_1 : (⟨S128, .f32⟩ : BufTy).Contents (Elt F) → (⟨S1x128, .f32⟩ : BufTy).Contents (Elt F)),
    unary main_v348 main_v349 (broadcastInDim S50000x128 ![0, 1] bcast_S1x128_S50000x128_0_1 : (⟨S1x128, .f32⟩ : BufTy).Contents (Elt F) → (⟨S50000x128, .f32⟩ : BufTy).Contents (Elt F)),
    binary main_v349 main_v347 main_v350 (mulf : (⟨S50000x128, .f32⟩ : BufTy).Contents (Elt F) → (⟨S50000x128, .f32⟩ : BufTy).Contents (Elt F) → (⟨S50000x128, .f32⟩ : BufTy).Contents (Elt F)),
    nullary main_cst_54 (constant S_ .f32 0x3727C5AC#32),
    unary main_cst_54 main_v351 (broadcastInDim S128 ![] bcast_S_S128 : (⟨S_, .f32⟩ : BufTy).Contents (Elt F) → (⟨S128, .f32⟩ : BufTy).Contents (Elt F)),
    binary main_v344 main_v351 main_v352 (addf : (⟨S128, .f32⟩ : BufTy).Contents (Elt F) → (⟨S128, .f32⟩ : BufTy).Contents (Elt F) → (⟨S128, .f32⟩ : BufTy).Contents (Elt F)),
    unary main_v352 main_v353 (Host.rsqrt : (⟨S128, .f32⟩ : BufTy).Contents (Elt F) → (⟨S128, .f32⟩ : BufTy).Contents (Elt F)),
    unary main_v353 main_v354 (broadcastInDim S1x128 ![1] bcast_S128_S1x128_1 : (⟨S128, .f32⟩ : BufTy).Contents (Elt F) → (⟨S1x128, .f32⟩ : BufTy).Contents (Elt F)),
    unary main_v354 main_v355 (broadcastInDim S50000x128 ![0, 1] bcast_S1x128_S50000x128_0_1 : (⟨S1x128, .f32⟩ : BufTy).Contents (Elt F) → (⟨S50000x128, .f32⟩ : BufTy).Contents (Elt F)),
    binary main_v350 main_v355 main_v356 (mulf : (⟨S50000x128, .f32⟩ : BufTy).Contents (Elt F) → (⟨S50000x128, .f32⟩ : BufTy).Contents (Elt F) → (⟨S50000x128, .f32⟩ : BufTy).Contents (Elt F)),
    unary main_v334 main_v357 (broadcastInDim S1x128 ![1] bcast_S128_S1x128_1 : (⟨S128, .f32⟩ : BufTy).Contents (Elt F) → (⟨S1x128, .f32⟩ : BufTy).Contents (Elt F)),
    unary main_v357 main_v358 (broadcastInDim S50000x128 ![0, 1] bcast_S1x128_S50000x128_0_1 : (⟨S1x128, .f32⟩ : BufTy).Contents (Elt F) → (⟨S50000x128, .f32⟩ : BufTy).Contents (Elt F)),
    binary main_v356 main_v358 main_v359 (addf : (⟨S50000x128, .f32⟩ : BufTy).Contents (Elt F) → (⟨S50000x128, .f32⟩ : BufTy).Contents (Elt F) → (⟨S50000x128, .f32⟩ : BufTy).Contents (Elt F)) ]
theorem ops30_sub : (ops30 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem ops30_fresh : (ops30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 31: operations 430 … 432 (part 6 of the printed function). -/
abbrev ops31 : List (HloOp τ sig (Elt F)) :=
  [ unary main_v28 main_v360 (broadcastInDim S650000x1 ![0] bcast_S650000_S650000x1_0 : (⟨S650000, .f32⟩ : BufTy).Contents (Elt F) → (⟨S650000x1, .f32⟩ : BufTy).Contents (Elt F)),
    nullary main_c_55 (constantI S_ 32 0#32),
    unary main_c_55 main_v361 (broadcastInDim S650000 ![] bcast_S_S650000 : (⟨S_, .i32⟩ : BufTy).Contents (Elt F) → (⟨S650000, .i32⟩ : BufTy).Contents (Elt F)) ]
theorem ops31_sub : (ops31 : List (HloOp τ sig (Elt F))).Forall fun op => op.bufs ⊆ tcRefs τ sig :=
  ⟨unary_bufs_sub .., nullary_bufs_sub .., unary_bufs_sub ..⟩
theorem ops31_fresh : (ops31 : List (HloOp τ sig (Elt F))).Forall fun op => op.fresh = ∅ :=
  ⟨rfl, rfl, rfl⟩

/-- Stretch 32: operations 433 … 452 (part 7 of the printed function). -/
abbrev ops32 : List (HloOp τ sig (Elt F)) :=
  [ binary main_v3 main_v361 main_v362 (cmpi .slt : (⟨S650000, .i32⟩ : BufTy).Contents (Elt F) → (⟨S650000, .i32⟩ : BufTy).Contents (Elt F) → (⟨S650000, .i1⟩ : BufTy).Contents (Elt F)),
    nullary main_c_56 (constantI S_ 32 50000#32),
    unary main_c_56 main_v363 (broadcastInDim S650000 ![] bcast_S_S650000 : (⟨S_, .i32⟩ : BufTy).Contents (Elt F) → (⟨S650000, .i32⟩ : BufTy).Contents (Elt F)),
    binary main_v3 main_v363 main_v364 (addi : (⟨S650000, .i32⟩ : BufTy).Contents (Elt F) → (⟨S650000, .i32⟩ : BufTy).Contents (Elt F) → (⟨S650000, .i32⟩ : BufTy).Contents (Elt F)),
    ternary main_v362 main_v364 main_v3 main_v365 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v365 main_v366 (broadcastInDim S650000x1 ![0] bcast_S650000_S650000x1_0 : (⟨S650000, .i32⟩ : BufTy).Contents (Elt F) → (⟨S650000x1, .i32⟩ : BufTy).Contents (Elt F)),
    binary main_v359 main_v366 main_v367 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v360 main_v368 (broadcastInDim S650000x128 ![0, 1] bcast_S650000x1_S650000x128_0_1 : (⟨S650000x1, .f32⟩ : BufTy).Contents (Elt F) → (⟨S650000x128, .f32⟩ : BufTy).Contents (Elt F)),
    binary main_v368 main_v367 main_v369 (mulf : (⟨S650000x128, .f32⟩ : BufTy).Contents (Elt F) → (⟨S650000x128, .f32⟩ : BufTy).Contents (Elt F) → (⟨S650000x128, .f32⟩ : BufTy).Contents (Elt F)),
    nullary main_cst_57 (constant S_ .f32 0x00000000#32),
    unary main_cst_57 main_v370 (broadcastInDim S50000x128 ![] bcast_S_S50000x128 : (⟨S_, .f32⟩ : BufTy).Contents (Elt F) → (⟨S50000x128, .f32⟩ : BufTy).Contents (Elt F)),
    unary main_v6 main_v371 (broadcastInDim S650000x1 ![0] bcast_S650000_S650000x1_0 : (⟨S650000, .i32⟩ : BufTy).Contents (Elt F) → (⟨S650000x1, .i32⟩ : BufTy).Contents (Elt F)),
    ternary main_v370 main_v371 main_v369 main_v372 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_58 (constant S_ .f32 0x3E4CCCCD#32),
    unary main_cst_58 main_v373 (broadcastInDim S50000x128 ![] bcast_S_S50000x128 : (⟨S_, .f32⟩ : BufTy).Contents (Elt F) → (⟨S50000x128, .f32⟩ : BufTy).Contents (Elt F)),
    binary main_v373 main_v372 main_v374 (mulf : (⟨S50000x128, .f32⟩ : BufTy).Contents (Elt F) → (⟨S50000x128, .f32⟩ : BufTy).Contents (Elt F) → (⟨S50000x128, .f32⟩ : BufTy).Contents (Elt F)),
    nullary main_cst_59 (constant S_ .f32 0x3F4CCCCD#32),
    unary main_cst_59 main_v375 (broadcastInDim S50000x128 ![] bcast_S_S50000x128 : (⟨S_, .f32⟩ : BufTy).Contents (Elt F) → (⟨S50000x128, .f32⟩ : BufTy).Contents (Elt F)),
    binary main_v375 main_v359 main_v376 (mulf : (⟨S50000x128, .f32⟩ : BufTy).Contents (Elt F) → (⟨S50000x128, .f32⟩ : BufTy).Contents (Elt F) → (⟨S50000x128, .f32⟩ : BufTy).Contents (Elt F)),
    binary main_v374 main_v376 main_v377 (addf : (⟨S50000x128, .f32⟩ : BufTy).Contents (Elt F) → (⟨S50000x128, .f32⟩ : BufTy).Contents (Elt F) → (⟨S50000x128, .f32⟩ : BufTy).Contents (Elt F)) ]
theorem ops32_sub : (ops32 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops32_fresh : (ops32 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 33: operations 453 … 475 (part 7 of the printed function). -/
abbrev ops33 : List (HloOp τ sig (Elt F)) :=
  [ unary main_v28 main_v378 (broadcastInDim S650000x1 ![0] bcast_S650000_S650000x1_0 : (⟨S650000, .f32⟩ : BufTy).Contents (Elt F) → (⟨S650000x1, .f32⟩ : BufTy).Contents (Elt F)),
    nullary main_c_60 (constantI S_ 32 0#32),
    unary main_c_60 main_v379 (broadcastInDim S650000 ![] bcast_S_S650000 : (⟨S_, .i32⟩ : BufTy).Contents (Elt F) → (⟨S650000, .i32⟩ : BufTy).Contents (Elt F)),
    binary main_v3 main_v379 main_v380 (cmpi .slt : (⟨S650000, .i32⟩ : BufTy).Contents (Elt F) → (⟨S650000, .i32⟩ : BufTy).Contents (Elt F) → (⟨S650000, .i1⟩ : BufTy).Contents (Elt F)),
    nullary main_c_61 (constantI S_ 32 50000#32),
    unary main_c_61 main_v381 (broadcastInDim S650000 ![] bcast_S_S650000 : (⟨S_, .i32⟩ : BufTy).Contents (Elt F) → (⟨S650000, .i32⟩ : BufTy).Contents (Elt F)),
    binary main_v3 main_v381 main_v382 (addi : (⟨S650000, .i32⟩ : BufTy).Contents (Elt F) → (⟨S650000, .i32⟩ : BufTy).Contents (Elt F) → (⟨S650000, .i32⟩ : BufTy).Contents (Elt F)),
    ternary main_v380 main_v382 main_v3 main_v383 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v383 main_v384 (broadcastInDim S650000x1 ![0] bcast_S650000_S650000x1_0 : (⟨S650000, .i32⟩ : BufTy).Contents (Elt F) → (⟨S650000x1, .i32⟩ : BufTy).Contents (Elt F)),
    binary main_v377 main_v384 main_v385 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v378 main_v386 (broadcastInDim S650000x128 ![0, 1] bcast_S650000x1_S650000x128_0_1 : (⟨S650000x1, .f32⟩ : BufTy).Contents (Elt F) → (⟨S650000x128, .f32⟩ : BufTy).Contents (Elt F)),
    binary main_v386 main_v385 main_v387 (mulf : (⟨S650000x128, .f32⟩ : BufTy).Contents (Elt F) → (⟨S650000x128, .f32⟩ : BufTy).Contents (Elt F) → (⟨S650000x128, .f32⟩ : BufTy).Contents (Elt F)),
    nullary main_cst_62 (constant S_ .f32 0x00000000#32),
    unary main_cst_62 main_v388 (broadcastInDim S50000x128 ![] bcast_S_S50000x128 : (⟨S_, .f32⟩ : BufTy).Contents (Elt F) → (⟨S50000x128, .f32⟩ : BufTy).Contents (Elt F)),
    unary main_v6 main_v389 (broadcastInDim S650000x1 ![0] bcast_S650000_S650000x1_0 : (⟨S650000, .i32⟩ : BufTy).Contents (Elt F) → (⟨S650000x1, .i32⟩ : BufTy).Contents (Elt F)),
    ternary main_v388 main_v389 main_v387 main_v390 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_63 (constant S_ .f32 0x3E4CCCCD#32),
    unary main_cst_63 main_v391 (broadcastInDim S50000x128 ![] bcast_S_S50000x128 : (⟨S_, .f32⟩ : BufTy).Contents (Elt F) → (⟨S50000x128, .f32⟩ : BufTy).Contents (Elt F)),
    binary main_v391 main_v390 main_v392 (mulf : (⟨S50000x128, .f32⟩ : BufTy).Contents (Elt F) → (⟨S50000x128, .f32⟩ : BufTy).Contents (Elt F) → (⟨S50000x128, .f32⟩ : BufTy).Contents (Elt F)),
    nullary main_cst_64 (constant S_ .f32 0x3F4CCCCD#32),
    unary main_cst_64 main_v393 (broadcastInDim S50000x128 ![] bcast_S_S50000x128 : (⟨S_, .f32⟩ : BufTy).Contents (Elt F) → (⟨S50000x128, .f32⟩ : BufTy).Contents (Elt F)),
    binary main_v393 main_v359 main_v394 (mulf : (⟨S50000x128, .f32⟩ : BufTy).Contents (Elt F) → (⟨S50000x128, .f32⟩ : BufTy).Contents (Elt F) → (⟨S50000x128, .f32⟩ : BufTy).Contents (Elt F)),
    binary main_v392 main_v394 main_v395 (addf : (⟨S50000x128, .f32⟩ : BufTy).Contents (Elt F) → (⟨S50000x128, .f32⟩ : BufTy).Contents (Elt F) → (⟨S50000x128, .f32⟩ : BufTy).Contents (Elt F)) ]
theorem ops33_sub : (ops33 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops33_fresh : (ops33 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Stretch 34: operations 476 … 492 (part 7 of the printed function). -/
abbrev ops34 : List (HloOp τ sig (Elt F)) :=
  [ unary main_v28 main_v396 (broadcastInDim S650000x1 ![0] bcast_S650000_S650000x1_0 : (⟨S650000, .f32⟩ : BufTy).Contents (Elt F) → (⟨S650000x1, .f32⟩ : BufTy).Contents (Elt F)),
    nullary main_c_65 (constantI S_ 32 0#32),
    unary main_c_65 main_v397 (broadcastInDim S650000 ![] bcast_S_S650000 : (⟨S_, .i32⟩ : BufTy).Contents (Elt F) → (⟨S650000, .i32⟩ : BufTy).Contents (Elt F)),
    binary main_v3 main_v397 main_v398 (cmpi .slt : (⟨S650000, .i32⟩ : BufTy).Contents (Elt F) → (⟨S650000, .i32⟩ : BufTy).Contents (Elt F) → (⟨S650000, .i1⟩ : BufTy).Contents (Elt F)),
    nullary main_c_66 (constantI S_ 32 50000#32),
    unary main_c_66 main_v399 (broadcastInDim S650000 ![] bcast_S_S650000 : (⟨S_, .i32⟩ : BufTy).Contents (Elt F) → (⟨S650000, .i32⟩ : BufTy).Contents (Elt F)),
    binary main_v3 main_v399 main_v400 (addi : (⟨S650000, .i32⟩ : BufTy).Contents (Elt F) → (⟨S650000, .i32⟩ : BufTy).Contents (Elt F) → (⟨S650000, .i32⟩ : BufTy).Contents (Elt F)),
    ternary main_v398 main_v400 main_v3 main_v401 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v401 main_v402 (broadcastInDim S650000x1 ![0] bcast_S650000_S650000x1_0 : (⟨S650000, .i32⟩ : BufTy).Contents (Elt F) → (⟨S650000x1, .i32⟩ : BufTy).Contents (Elt F)),
    binary main_v395 main_v402 main_v403 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v396 main_v404 (broadcastInDim S650000x128 ![0, 1] bcast_S650000x1_S650000x128_0_1 : (⟨S650000x1, .f32⟩ : BufTy).Contents (Elt F) → (⟨S650000x128, .f32⟩ : BufTy).Contents (Elt F)),
    binary main_v404 main_v403 main_v405 (mulf : (⟨S650000x128, .f32⟩ : BufTy).Contents (Elt F) → (⟨S650000x128, .f32⟩ : BufTy).Contents (Elt F) → (⟨S650000x128, .f32⟩ : BufTy).Contents (Elt F)),
    nullary main_cst_67 (constant S_ .f32 0x00000000#32),
    unary main_cst_67 main_v406 (broadcastInDim S50000x128 ![] bcast_S_S50000x128 : (⟨S_, .f32⟩ : BufTy).Contents (Elt F) → (⟨S50000x128, .f32⟩ : BufTy).Contents (Elt F)),
    unary main_v6 main_v407 (broadcastInDim S650000x1 ![0] bcast_S650000_S650000x1_0 : (⟨S650000, .i32⟩ : BufTy).Contents (Elt F) → (⟨S650000x1, .i32⟩ : BufTy).Contents (Elt F)),
    ternary main_v406 main_v407 main_v405 main_v408 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_68 (constant S_ .f32 0x3E4CCCCD#32) ]
theorem ops34_sub : (ops34 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub ..⟩
theorem ops34_fresh : (ops34 : List (HloOp τ sig (Elt F))).Forall fun op => op.fresh = ∅ :=
  ⟨rfl, rfl, rfl, rfl, rfl, rfl, rfl, rfl, rfl, rfl, rfl, rfl, rfl, rfl, rfl, rfl, rfl⟩

/-- Stretch 35: operations 493 … 498 (part 8 of the printed function). -/
abbrev ops35 : List (HloOp τ sig (Elt F)) :=
  [ unary main_cst_68 main_v409 (broadcastInDim S50000x128 ![] bcast_S_S50000x128 : (⟨S_, .f32⟩ : BufTy).Contents (Elt F) → (⟨S50000x128, .f32⟩ : BufTy).Contents (Elt F)),
    binary main_v409 main_v408 main_v410 (mulf : (⟨S50000x128, .f32⟩ : BufTy).Contents (Elt F) → (⟨S50000x128, .f32⟩ : BufTy).Contents (Elt F) → (⟨S50000x128, .f32⟩ : BufTy).Contents (Elt F)),
    nullary main_cst_69 (constant S_ .f32 0x3F4CCCCD#32),
    unary main_cst_69 main_v411 (broadcastInDim S50000x128 ![] bcast_S_S50000x128 : (⟨S_, .f32⟩ : BufTy).Contents (Elt F) → (⟨S50000x128, .f32⟩ : BufTy).Contents (Elt F)),
    binary main_v411 main_v359 main_v412 (mulf : (⟨S50000x128, .f32⟩ : BufTy).Contents (Elt F) → (⟨S50000x128, .f32⟩ : BufTy).Contents (Elt F) → (⟨S50000x128, .f32⟩ : BufTy).Contents (Elt F)),
    binary main_v410 main_v412 main_v413 (addf : (⟨S50000x128, .f32⟩ : BufTy).Contents (Elt F) → (⟨S50000x128, .f32⟩ : BufTy).Contents (Elt F) → (⟨S50000x128, .f32⟩ : BufTy).Contents (Elt F)) ]
theorem ops35_sub : (ops35 : List (HloOp τ sig (Elt F))).Forall fun op => op.bufs ⊆ tcRefs τ sig :=
  ⟨unary_bufs_sub .., binary_bufs_sub .., nullary_bufs_sub .., unary_bufs_sub .., binary_bufs_sub .., binary_bufs_sub ..⟩
theorem ops35_fresh : (ops35 : List (HloOp τ sig (Elt F))).Forall fun op => op.fresh = ∅ :=
  ⟨rfl, rfl, rfl, rfl, rfl, rfl⟩

/-- Stretch 36: operations 499 … 521 (part 8 of the printed function). -/
abbrev ops36 : List (HloOp τ sig (Elt F)) :=
  [ unary main_v28 main_v414 (broadcastInDim S650000x1 ![0] bcast_S650000_S650000x1_0 : (⟨S650000, .f32⟩ : BufTy).Contents (Elt F) → (⟨S650000x1, .f32⟩ : BufTy).Contents (Elt F)),
    nullary main_c_70 (constantI S_ 32 0#32),
    unary main_c_70 main_v415 (broadcastInDim S650000 ![] bcast_S_S650000 : (⟨S_, .i32⟩ : BufTy).Contents (Elt F) → (⟨S650000, .i32⟩ : BufTy).Contents (Elt F)),
    binary main_v3 main_v415 main_v416 (cmpi .slt : (⟨S650000, .i32⟩ : BufTy).Contents (Elt F) → (⟨S650000, .i32⟩ : BufTy).Contents (Elt F) → (⟨S650000, .i1⟩ : BufTy).Contents (Elt F)),
    nullary main_c_71 (constantI S_ 32 50000#32),
    unary main_c_71 main_v417 (broadcastInDim S650000 ![] bcast_S_S650000 : (⟨S_, .i32⟩ : BufTy).Contents (Elt F) → (⟨S650000, .i32⟩ : BufTy).Contents (Elt F)),
    binary main_v3 main_v417 main_v418 (addi : (⟨S650000, .i32⟩ : BufTy).Contents (Elt F) → (⟨S650000, .i32⟩ : BufTy).Contents (Elt F) → (⟨S650000, .i32⟩ : BufTy).Contents (Elt F)),
    ternary main_v416 main_v418 main_v3 main_v419 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v419 main_v420 (broadcastInDim S650000x1 ![0] bcast_S650000_S650000x1_0 : (⟨S650000, .i32⟩ : BufTy).Contents (Elt F) → (⟨S650000x1, .i32⟩ : BufTy).Contents (Elt F)),
    binary main_v413 main_v420 main_v421 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v414 main_v422 (broadcastInDim S650000x128 ![0, 1] bcast_S650000x1_S650000x128_0_1 : (⟨S650000x1, .f32⟩ : BufTy).Contents (Elt F) → (⟨S650000x128, .f32⟩ : BufTy).Contents (Elt F)),
    binary main_v422 main_v421 main_v423 (mulf : (⟨S650000x128, .f32⟩ : BufTy).Contents (Elt F) → (⟨S650000x128, .f32⟩ : BufTy).Contents (Elt F) → (⟨S650000x128, .f32⟩ : BufTy).Contents (Elt F)),
    nullary main_cst_72 (constant S_ .f32 0x00000000#32),
    unary main_cst_72 main_v424 (broadcastInDim S50000x128 ![] bcast_S_S50000x128 : (⟨S_, .f32⟩ : BufTy).Contents (Elt F) → (⟨S50000x128, .f32⟩ : BufTy).Contents (Elt F)),
    unary main_v6 main_v425 (broadcastInDim S650000x1 ![0] bcast_S650000_S650000x1_0 : (⟨S650000, .i32⟩ : BufTy).Contents (Elt F) → (⟨S650000x1, .i32⟩ : BufTy).Contents (Elt F)),
    ternary main_v424 main_v425 main_v423 main_v426 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_73 (constant S_ .f32 0x3E4CCCCD#32),
    unary main_cst_73 main_v427 (broadcastInDim S50000x128 ![] bcast_S_S50000x128 : (⟨S_, .f32⟩ : BufTy).Contents (Elt F) → (⟨S50000x128, .f32⟩ : BufTy).Contents (Elt F)),
    binary main_v427 main_v426 main_v428 (mulf : (⟨S50000x128, .f32⟩ : BufTy).Contents (Elt F) → (⟨S50000x128, .f32⟩ : BufTy).Contents (Elt F) → (⟨S50000x128, .f32⟩ : BufTy).Contents (Elt F)),
    nullary main_cst_74 (constant S_ .f32 0x3F4CCCCD#32),
    unary main_cst_74 main_v429 (broadcastInDim S50000x128 ![] bcast_S_S50000x128 : (⟨S_, .f32⟩ : BufTy).Contents (Elt F) → (⟨S50000x128, .f32⟩ : BufTy).Contents (Elt F)),
    binary main_v429 main_v359 main_v430 (mulf : (⟨S50000x128, .f32⟩ : BufTy).Contents (Elt F) → (⟨S50000x128, .f32⟩ : BufTy).Contents (Elt F) → (⟨S50000x128, .f32⟩ : BufTy).Contents (Elt F)),
    binary main_v428 main_v430 main_v431 (addf : (⟨S50000x128, .f32⟩ : BufTy).Contents (Elt F) → (⟨S50000x128, .f32⟩ : BufTy).Contents (Elt F) → (⟨S50000x128, .f32⟩ : BufTy).Contents (Elt F)) ]
theorem ops36_sub : (ops36 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops36_fresh : (ops36 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Stretch 37: operations 522 … 544 (part 8 of the printed function). -/
abbrev ops37 : List (HloOp τ sig (Elt F)) :=
  [ unary main_v28 main_v432 (broadcastInDim S650000x1 ![0] bcast_S650000_S650000x1_0 : (⟨S650000, .f32⟩ : BufTy).Contents (Elt F) → (⟨S650000x1, .f32⟩ : BufTy).Contents (Elt F)),
    nullary main_c_75 (constantI S_ 32 0#32),
    unary main_c_75 main_v433 (broadcastInDim S650000 ![] bcast_S_S650000 : (⟨S_, .i32⟩ : BufTy).Contents (Elt F) → (⟨S650000, .i32⟩ : BufTy).Contents (Elt F)),
    binary main_v3 main_v433 main_v434 (cmpi .slt : (⟨S650000, .i32⟩ : BufTy).Contents (Elt F) → (⟨S650000, .i32⟩ : BufTy).Contents (Elt F) → (⟨S650000, .i1⟩ : BufTy).Contents (Elt F)),
    nullary main_c_76 (constantI S_ 32 50000#32),
    unary main_c_76 main_v435 (broadcastInDim S650000 ![] bcast_S_S650000 : (⟨S_, .i32⟩ : BufTy).Contents (Elt F) → (⟨S650000, .i32⟩ : BufTy).Contents (Elt F)),
    binary main_v3 main_v435 main_v436 (addi : (⟨S650000, .i32⟩ : BufTy).Contents (Elt F) → (⟨S650000, .i32⟩ : BufTy).Contents (Elt F) → (⟨S650000, .i32⟩ : BufTy).Contents (Elt F)),
    ternary main_v434 main_v436 main_v3 main_v437 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v437 main_v438 (broadcastInDim S650000x1 ![0] bcast_S650000_S650000x1_0 : (⟨S650000, .i32⟩ : BufTy).Contents (Elt F) → (⟨S650000x1, .i32⟩ : BufTy).Contents (Elt F)),
    binary main_v431 main_v438 main_v439 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v432 main_v440 (broadcastInDim S650000x128 ![0, 1] bcast_S650000x1_S650000x128_0_1 : (⟨S650000x1, .f32⟩ : BufTy).Contents (Elt F) → (⟨S650000x128, .f32⟩ : BufTy).Contents (Elt F)),
    binary main_v440 main_v439 main_v441 (mulf : (⟨S650000x128, .f32⟩ : BufTy).Contents (Elt F) → (⟨S650000x128, .f32⟩ : BufTy).Contents (Elt F) → (⟨S650000x128, .f32⟩ : BufTy).Contents (Elt F)),
    nullary main_cst_77 (constant S_ .f32 0x00000000#32),
    unary main_cst_77 main_v442 (broadcastInDim S50000x128 ![] bcast_S_S50000x128 : (⟨S_, .f32⟩ : BufTy).Contents (Elt F) → (⟨S50000x128, .f32⟩ : BufTy).Contents (Elt F)),
    unary main_v6 main_v443 (broadcastInDim S650000x1 ![0] bcast_S650000_S650000x1_0 : (⟨S650000, .i32⟩ : BufTy).Contents (Elt F) → (⟨S650000x1, .i32⟩ : BufTy).Contents (Elt F)),
    ternary main_v442 main_v443 main_v441 main_v444 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_78 (constant S_ .f32 0x3E4CCCCD#32),
    unary main_cst_78 main_v445 (broadcastInDim S50000x128 ![] bcast_S_S50000x128 : (⟨S_, .f32⟩ : BufTy).Contents (Elt F) → (⟨S50000x128, .f32⟩ : BufTy).Contents (Elt F)),
    binary main_v445 main_v444 main_v446 (mulf : (⟨S50000x128, .f32⟩ : BufTy).Contents (Elt F) → (⟨S50000x128, .f32⟩ : BufTy).Contents (Elt F) → (⟨S50000x128, .f32⟩ : BufTy).Contents (Elt F)),
    nullary main_cst_79 (constant S_ .f32 0x3F4CCCCD#32),
    unary main_cst_79 main_v447 (broadcastInDim S50000x128 ![] bcast_S_S50000x128 : (⟨S_, .f32⟩ : BufTy).Contents (Elt F) → (⟨S50000x128, .f32⟩ : BufTy).Contents (Elt F)),
    binary main_v447 main_v359 main_v448 (mulf : (⟨S50000x128, .f32⟩ : BufTy).Contents (Elt F) → (⟨S50000x128, .f32⟩ : BufTy).Contents (Elt F) → (⟨S50000x128, .f32⟩ : BufTy).Contents (Elt F)),
    binary main_v446 main_v448 main_v449 (addf : (⟨S50000x128, .f32⟩ : BufTy).Contents (Elt F) → (⟨S50000x128, .f32⟩ : BufTy).Contents (Elt F) → (⟨S50000x128, .f32⟩ : BufTy).Contents (Elt F)) ]
theorem ops37_sub : (ops37 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops37_fresh : (ops37 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Stretch 38: operations 545 … 550 (part 8 of the printed function). -/
abbrev ops38 : List (HloOp τ sig (Elt F)) :=
  [ nullary main_cst_80 (constant S_ .f32 0x3F800000#32),
    unary main_cst_80 main_v450 (broadcastInDim S50000 ![] bcast_S_S50000 : (⟨S_, .f32⟩ : BufTy).Contents (Elt F) → (⟨S50000, .f32⟩ : BufTy).Contents (Elt F)),
    nullary main_cst_81 (constant S_ .f32 0x00000000#32),
    unary main_cst_81 main_v451 (broadcastInDim S512 ![] bcast_S_S512 : (⟨S_, .f32⟩ : BufTy).Contents (Elt F) → (⟨S512, .f32⟩ : BufTy).Contents (Elt F)),
    unary main_arg2 main_v452 (broadcastInDim S50000x1 ![0] bcast_S50000_S50000x1_0 : (⟨S50000, .i32⟩ : BufTy).Contents (Elt F) → (⟨S50000x1, .i32⟩ : BufTy).Contents (Elt F)),
    ternary main_v451 main_v452 main_v450 main_v453 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)) ]
theorem ops38_sub : (ops38 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem ops38_fresh : (ops38 : List (HloOp τ sig (Elt F))).Forall fun op => op.fresh = ∅ :=
  ⟨rfl, rfl, rfl, rfl, rfl, rfl⟩

/-- Stretch 39: operations 551 … 552 (part 8 of the printed function). -/
abbrev ops39 : List (HloOp τ sig (Elt F)) :=
  [ nullary main_cst_82 (constant S_ .f32 0x00000000#32),
    unary main_cst_82 main_v454 (broadcastInDim S512x128 ![] bcast_S_S512x128 : (⟨S_, .f32⟩ : BufTy).Contents (Elt F) → (⟨S512x128, .f32⟩ : BufTy).Contents (Elt F)) ]
theorem ops39_sub : (ops39 : List (HloOp τ sig (Elt F))).Forall fun op => op.bufs ⊆ tcRefs τ sig :=
  ⟨nullary_bufs_sub .., unary_bufs_sub ..⟩
theorem ops39_fresh : (ops39 : List (HloOp τ sig (Elt F))).Forall fun op => op.fresh = ∅ :=
  ⟨rfl, rfl⟩

/-- Stretch 40: operations 553 … 554 (part 9 of the printed function). -/
abbrev ops40 : List (HloOp τ sig (Elt F)) :=
  [ unary main_arg2 main_v455 (broadcastInDim S50000x1 ![0] bcast_S50000_S50000x1_0 : (⟨S50000, .i32⟩ : BufTy).Contents (Elt F) → (⟨S50000x1, .i32⟩ : BufTy).Contents (Elt F)),
    ternary main_v454 main_v455 main_v449 main_v456 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)) ]
theorem ops40_sub : (ops40 : List (HloOp τ sig (Elt F))).Forall fun op => op.bufs ⊆ tcRefs τ sig :=
  ⟨unary_bufs_sub .., ternary_bufs_sub ..⟩
theorem ops40_fresh : (ops40 : List (HloOp τ sig (Elt F))).Forall fun op => op.fresh = ∅ :=
  ⟨rfl, rfl⟩

/-- Stretch 41: operations 555 … 560 (part 9 of the printed function). -/
abbrev ops41 : List (HloOp τ sig (Elt F)) :=
  [ nullary main_cst_83 (constant S_ .f32 0x3F800000#32),
    unary main_cst_83 main_v457 (broadcastInDim S512 ![] bcast_S_S512 : (⟨S_, .f32⟩ : BufTy).Contents (Elt F) → (⟨S512, .f32⟩ : BufTy).Contents (Elt F)),
    binary main_v453 main_v457 main_v458 (maximumf : (⟨S512, .f32⟩ : BufTy).Contents (Elt F) → (⟨S512, .f32⟩ : BufTy).Contents (Elt F) → (⟨S512, .f32⟩ : BufTy).Contents (Elt F)),
    unary main_v458 main_v459 (broadcastInDim S512x1 ![0] bcast_S512_S512x1_0 : (⟨S512, .f32⟩ : BufTy).Contents (Elt F) → (⟨S512x1, .f32⟩ : BufTy).Contents (Elt F)),
    unary main_v459 main_v460 (broadcastInDim S512x128 ![0, 1] bcast_S512x1_S512x128_0_1 : (⟨S512x1, .f32⟩ : BufTy).Contents (Elt F) → (⟨S512x128, .f32⟩ : BufTy).Contents (Elt F)),
    binary main_v456 main_v460 main_v461 (Host.divf : (⟨S512x128, .f32⟩ : BufTy).Contents (Elt F) → (⟨S512x128, .f32⟩ : BufTy).Contents (Elt F) → (⟨S512x128, .f32⟩ : BufTy).Contents (Elt F)) ]
theorem ops41_sub : (ops41 : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem ops41_fresh : (ops41 : List (HloOp τ sig (Elt F))).Forall fun op => op.fresh = ∅ :=
  ⟨rfl, rfl, rfl, rfl, rfl, rfl⟩

/-- Stretch 42: operations 561 … 564 (part 9 of the printed function). -/
abbrev ops42 : List (HloOp τ sig (Elt F)) :=
  [ binary main_v461 main_arg16 main_v462 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg17 main_v463 (broadcastInDim S1x128 ![1] bcast_S128_S1x128_1 : (⟨S128, .f32⟩ : BufTy).Contents (Elt F) → (⟨S1x128, .f32⟩ : BufTy).Contents (Elt F)),
    unary main_v463 main_v464 (broadcastInDim S512x128 ![0, 1] bcast_S1x128_S512x128_0_1 : (⟨S1x128, .f32⟩ : BufTy).Contents (Elt F) → (⟨S512x128, .f32⟩ : BufTy).Contents (Elt F)),
    binary main_v462 main_v464 main_v465 (addf : (⟨S512x128, .f32⟩ : BufTy).Contents (Elt F) → (⟨S512x128, .f32⟩ : BufTy).Contents (Elt F) → (⟨S512x128, .f32⟩ : BufTy).Contents (Elt F)) ]
theorem ops42_sub : (ops42 : List (HloOp τ sig (Elt F))).Forall fun op => op.bufs ⊆ tcRefs τ sig :=
  ⟨binary_bufs_sub .., unary_bufs_sub .., unary_bufs_sub .., binary_bufs_sub ..⟩
theorem ops42_fresh : (ops42 : List (HloOp τ sig (Elt F))).Forall fun op => op.fresh = ∅ :=
  ⟨rfl, rfl, rfl, rfl⟩

/-! ## The ten parts of the printed function, each the concatenation of its stretches -/

abbrev win0 : List (HloOp τ sig (Elt F)) := ops0 ++ (ops1 ++ (ops2 ++ (ops3 ++ (ops4))))
set_option maxRecDepth 8192 in
set_option maxHeartbeats 4000000 in
theorem main_part0_eq (c : Dev nD) : main_part0 (F := F) c = seq win0 := rfl
theorem win0_sub : (win0 : List (HloOp τ sig (Elt F))).Forall fun op => op.bufs ⊆ tcRefs τ sig :=
  forall_append' ops0_sub (forall_append' ops1_sub (forall_append' ops2_sub (forall_append' ops3_sub (ops4_sub))))
theorem win0_fresh : (win0 : List (HloOp τ sig (Elt F))).Forall fun op => op.fresh = ∅ :=
  forall_append' ops0_fresh (forall_append' ops1_fresh (forall_append' ops2_fresh (forall_append' ops3_fresh (ops4_fresh))))

abbrev win1 : List (HloOp τ sig (Elt F)) := ops5 ++ (ops6 ++ (ops7 ++ (ops8 ++ (ops9 ++ (ops10 ++ (ops11))))))
set_option maxRecDepth 8192 in
set_option maxHeartbeats 4000000 in
theorem main_part1_eq (c : Dev nD) : main_part1 (F := F) c = seq win1 := rfl
theorem win1_sub : (win1 : List (HloOp τ sig (Elt F))).Forall fun op => op.bufs ⊆ tcRefs τ sig :=
  forall_append' ops5_sub (forall_append' ops6_sub (forall_append' ops7_sub (forall_append' ops8_sub (forall_append' ops9_sub (forall_append' ops10_sub (ops11_sub))))))
theorem win1_fresh : (win1 : List (HloOp τ sig (Elt F))).Forall fun op => op.fresh = ∅ :=
  forall_append' ops5_fresh (forall_append' ops6_fresh (forall_append' ops7_fresh (forall_append' ops8_fresh (forall_append' ops9_fresh (forall_append' ops10_fresh (ops11_fresh))))))

abbrev win2 : List (HloOp τ sig (Elt F)) := ops12 ++ (ops13 ++ (ops14 ++ (ops15)))
set_option maxRecDepth 8192 in
set_option maxHeartbeats 4000000 in
theorem main_part2_eq (c : Dev nD) : main_part2 (F := F) c = seq win2 := rfl
theorem win2_sub : (win2 : List (HloOp τ sig (Elt F))).Forall fun op => op.bufs ⊆ tcRefs τ sig :=
  forall_append' ops12_sub (forall_append' ops13_sub (forall_append' ops14_sub (ops15_sub)))
theorem win2_fresh : (win2 : List (HloOp τ sig (Elt F))).Forall fun op => op.fresh = ∅ :=
  forall_append' ops12_fresh (forall_append' ops13_fresh (forall_append' ops14_fresh (ops15_fresh)))

abbrev win3 : List (HloOp τ sig (Elt F)) := ops16 ++ (ops17 ++ (ops18 ++ (ops19 ++ (ops20 ++ (ops21)))))
set_option maxRecDepth 8192 in
set_option maxHeartbeats 4000000 in
theorem main_part3_eq (c : Dev nD) : main_part3 (F := F) c = seq win3 := rfl
theorem win3_sub : (win3 : List (HloOp τ sig (Elt F))).Forall fun op => op.bufs ⊆ tcRefs τ sig :=
  forall_append' ops16_sub (forall_append' ops17_sub (forall_append' ops18_sub (forall_append' ops19_sub (forall_append' ops20_sub (ops21_sub)))))
theorem win3_fresh : (win3 : List (HloOp τ sig (Elt F))).Forall fun op => op.fresh = ∅ :=
  forall_append' ops16_fresh (forall_append' ops17_fresh (forall_append' ops18_fresh (forall_append' ops19_fresh (forall_append' ops20_fresh (ops21_fresh)))))

abbrev win4 : List (HloOp τ sig (Elt F)) := ops22 ++ (ops23 ++ (ops24 ++ (ops25)))
set_option maxRecDepth 8192 in
set_option maxHeartbeats 4000000 in
theorem main_part4_eq (c : Dev nD) : main_part4 (F := F) c = seq win4 := rfl
theorem win4_sub : (win4 : List (HloOp τ sig (Elt F))).Forall fun op => op.bufs ⊆ tcRefs τ sig :=
  forall_append' ops22_sub (forall_append' ops23_sub (forall_append' ops24_sub (ops25_sub)))
theorem win4_fresh : (win4 : List (HloOp τ sig (Elt F))).Forall fun op => op.fresh = ∅ :=
  forall_append' ops22_fresh (forall_append' ops23_fresh (forall_append' ops24_fresh (ops25_fresh)))

abbrev win5 : List (HloOp τ sig (Elt F)) := ops26 ++ (ops27)
set_option maxRecDepth 8192 in
set_option maxHeartbeats 4000000 in
theorem main_part5_eq (c : Dev nD) : main_part5 (F := F) c = seq win5 := rfl
theorem win5_sub : (win5 : List (HloOp τ sig (Elt F))).Forall fun op => op.bufs ⊆ tcRefs τ sig :=
  forall_append' ops26_sub (ops27_sub)
theorem win5_fresh : (win5 : List (HloOp τ sig (Elt F))).Forall fun op => op.fresh = ∅ :=
  forall_append' ops26_fresh (ops27_fresh)

abbrev win6 : List (HloOp τ sig (Elt F)) := ops28 ++ (ops29 ++ (ops30 ++ (ops31)))
set_option maxRecDepth 8192 in
set_option maxHeartbeats 4000000 in
theorem main_part6_eq (c : Dev nD) : main_part6 (F := F) c = seq win6 := rfl
theorem win6_sub : (win6 : List (HloOp τ sig (Elt F))).Forall fun op => op.bufs ⊆ tcRefs τ sig :=
  forall_append' ops28_sub (forall_append' ops29_sub (forall_append' ops30_sub (ops31_sub)))
theorem win6_fresh : (win6 : List (HloOp τ sig (Elt F))).Forall fun op => op.fresh = ∅ :=
  forall_append' ops28_fresh (forall_append' ops29_fresh (forall_append' ops30_fresh (ops31_fresh)))

abbrev win7 : List (HloOp τ sig (Elt F)) := ops32 ++ (ops33 ++ (ops34))
set_option maxRecDepth 8192 in
set_option maxHeartbeats 4000000 in
theorem main_part7_eq (c : Dev nD) : main_part7 (F := F) c = seq win7 := rfl
theorem win7_sub : (win7 : List (HloOp τ sig (Elt F))).Forall fun op => op.bufs ⊆ tcRefs τ sig :=
  forall_append' ops32_sub (forall_append' ops33_sub (ops34_sub))
theorem win7_fresh : (win7 : List (HloOp τ sig (Elt F))).Forall fun op => op.fresh = ∅ :=
  forall_append' ops32_fresh (forall_append' ops33_fresh (ops34_fresh))

abbrev win8 : List (HloOp τ sig (Elt F)) := ops35 ++ (ops36 ++ (ops37 ++ (ops38 ++ (ops39))))
set_option maxRecDepth 8192 in
set_option maxHeartbeats 4000000 in
theorem main_part8_eq (c : Dev nD) : main_part8 (F := F) c = seq win8 := rfl
theorem win8_sub : (win8 : List (HloOp τ sig (Elt F))).Forall fun op => op.bufs ⊆ tcRefs τ sig :=
  forall_append' ops35_sub (forall_append' ops36_sub (forall_append' ops37_sub (forall_append' ops38_sub (ops39_sub))))
theorem win8_fresh : (win8 : List (HloOp τ sig (Elt F))).Forall fun op => op.fresh = ∅ :=
  forall_append' ops35_fresh (forall_append' ops36_fresh (forall_append' ops37_fresh (forall_append' ops38_fresh (ops39_fresh))))

abbrev win9 : List (HloOp τ sig (Elt F)) := ops40 ++ (ops41 ++ (ops42))
set_option maxRecDepth 8192 in
set_option maxHeartbeats 4000000 in
theorem main_part9_eq (c : Dev nD) : main_part9 (F := F) c = seq win9 := rfl
theorem win9_sub : (win9 : List (HloOp τ sig (Elt F))).Forall fun op => op.bufs ⊆ tcRefs τ sig :=
  forall_append' ops40_sub (forall_append' ops41_sub (ops42_sub))
theorem win9_fresh : (win9 : List (HloOp τ sig (Elt F))).Forall fun op => op.fresh = ∅ :=
  forall_append' ops40_fresh (forall_append' ops41_fresh (ops42_fresh))

/-- The main function's 564 operations, in order. -/
abbrev ops : List (HloOp τ sig (Elt F)) := win0 ++ (win1 ++ (win2 ++ (win3 ++ (win4 ++ (win5 ++ (win6 ++ (win7 ++ (win8 ++ (win9)))))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append' win0_sub (forall_append' win1_sub (forall_append' win2_sub (forall_append' win3_sub (forall_append' win4_sub (forall_append' win5_sub (forall_append' win6_sub (forall_append' win7_sub (forall_append' win8_sub (win9_sub)))))))))
theorem ops_fresh : (ops : List (HloOp τ sig (Elt F))).Forall fun op => op.fresh = ∅ :=
  forall_append' win0_fresh (forall_append' win1_fresh (forall_append' win2_fresh (forall_append' win3_fresh (forall_append' win4_fresh (forall_append' win5_fresh (forall_append' win6_fresh (forall_append' win7_fresh (forall_append' win8_fresh (win9_fresh)))))))))

end Cert.ReferenceIdeal.RefRun

end
-- ==== Proof.Ref.Keep.lean ====
import proofs.«402460_j82824149336546_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # What each stretch writes, and that it leaves every other array as it was -/

/-- The arrays stretch 0 writes. -/
abbrev W0 : List (Ref sig .tc) := [main_v0, main_v1, main_v2]
set_option maxRecDepth 8192 in
theorem ops0_writes : (ops0 : List (HloOp τ sig (Elt F))).Forall fun op => op.writes ⊆ (W0.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 0 does not write keeps its contents through it. -/
theorem keep0 (V : Valuation τ sig (Elt F)) (r : Ref sig .tc) (h : r ∉ W0) :
    after ops0 V (Proc.devRef .tc r) = V (Proc.devRef .tc r) :=
  after_of_writes_sub ops0 V ops0_writes h

/-- The arrays stretch 1 writes. -/
abbrev W1 : List (Ref sig .tc) := [main_v3, main_v4, main_v5]
set_option maxRecDepth 8192 in
theorem ops1_writes : (ops1 : List (HloOp τ sig (Elt F))).Forall fun op => op.writes ⊆ (W1.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 1 does not write keeps its contents through it. -/
theorem keep1 (V : Valuation τ sig (Elt F)) (r : Ref sig .tc) (h : r ∉ W1) :
    after ops1 V (Proc.devRef .tc r) = V (Proc.devRef .tc r) :=
  after_of_writes_sub ops1 V ops1_writes h

/-- The arrays stretch 2 writes. -/
abbrev W2 : List (Ref sig .tc) := [main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
set_option maxRecDepth 8192 in
theorem ops2_writes : (ops2 : List (HloOp τ sig (Elt F))).Forall fun op => op.writes ⊆ (W2.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 2 does not write keeps its contents through it. -/
theorem keep2 (V : Valuation τ sig (Elt F)) (r : Ref sig .tc) (h : r ∉ W2) :
    after ops2 V (Proc.devRef .tc r) = V (Proc.devRef .tc r) :=
  after_of_writes_sub ops2 V ops2_writes h

/-- The arrays stretch 3 writes. -/
abbrev W3 : List (Ref sig .tc) := [main_v29, main_v30, main_c_5, main_v31, main_v32, main_c_6, main_v33, main_v34, main_v35, main_v36, main_v37, main_v38, main_v39, main_cst_7, main_v40, main_v41, main_v42]
set_option maxRecDepth 8192 in
theorem ops3_writes : (ops3 : List (HloOp τ sig (Elt F))).Forall fun op => op.writes ⊆ (W3.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 3 does not write keeps its contents through it. -/
theorem keep3 (V : Valuation τ sig (Elt F)) (r : Ref sig .tc) (h : r ∉ W3) :
    after ops3 V (Proc.devRef .tc r) = V (Proc.devRef .tc r) :=
  after_of_writes_sub ops3 V ops3_writes h

/-- The arrays stretch 4 writes. -/
abbrev W4 : List (Ref sig .tc) := [main_v43, main_v44, main_v45, main_v46, main_v47, main_v48, main_v49]
set_option maxRecDepth 8192 in
theorem ops4_writes : (ops4 : List (HloOp τ sig (Elt F))).Forall fun op => op.writes ⊆ (W4.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 4 does not write keeps its contents through it. -/
theorem keep4 (V : Valuation τ sig (Elt F)) (r : Ref sig .tc) (h : r ∉ W4) :
    after ops4 V (Proc.devRef .tc r) = V (Proc.devRef .tc r) :=
  after_of_writes_sub ops4 V ops4_writes h

/-- The arrays stretch 5 writes. -/
abbrev W5 : List (Ref sig .tc) := [main_v50]
set_option maxRecDepth 8192 in
theorem ops5_writes : (ops5 : List (HloOp τ sig (Elt F))).Forall fun op => op.writes ⊆ (W5.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 5 does not write keeps its contents through it. -/
theorem keep5 (V : Valuation τ sig (Elt F)) (r : Ref sig .tc) (h : r ∉ W5) :
    after ops5 V (Proc.devRef .tc r) = V (Proc.devRef .tc r) :=
  after_of_writes_sub ops5 V ops5_writes h

/-- The arrays stretch 6 writes. -/
abbrev W6 : List (Ref sig .tc) := [main_v51, main_v52, main_v53, main_v54, main_cst_8, main_v55, main_cst_9, main_v56, main_v57, main_v58, main_v59, main_v60, main_v61, main_cst_10, main_v62, main_cst_11, main_v63, main_v64, main_v65, main_v66, main_v67, main_v68, main_v69, main_v70, main_cst_12, main_v71, main_v72, main_v73, main_v74, main_v75, main_v76, main_v77, main_v78, main_v79]
set_option maxRecDepth 8192 in
theorem ops6_writes : (ops6 : List (HloOp τ sig (Elt F))).Forall fun op => op.writes ⊆ (W6.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 6 does not write keeps its contents through it. -/
theorem keep6 (V : Valuation τ sig (Elt F)) (r : Ref sig .tc) (h : r ∉ W6) :
    after ops6 V (Proc.devRef .tc r) = V (Proc.devRef .tc r) :=
  after_of_writes_sub ops6 V ops6_writes h

/-- The arrays stretch 7 writes. -/
abbrev W7 : List (Ref sig .tc) := [main_call0_cst, main_call0_v0, main_v80]
set_option maxRecDepth 8192 in
theorem ops7_writes : (ops7 : List (HloOp τ sig (Elt F))).Forall fun op => op.writes ⊆ (W7.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 7 does not write keeps its contents through it. -/
theorem keep7 (V : Valuation τ sig (Elt F)) (r : Ref sig .tc) (h : r ∉ W7) :
    after ops7 V (Proc.devRef .tc r) = V (Proc.devRef .tc r) :=
  after_of_writes_sub ops7 V ops7_writes h

/-- The arrays stretch 8 writes. -/
abbrev W8 : List (Ref sig .tc) := [main_c_13, main_v81, main_v82, main_c_14, main_v83, main_v84, main_v85, main_v86, main_v87, main_v88]
set_option maxRecDepth 8192 in
theorem ops8_writes : (ops8 : List (HloOp τ sig (Elt F))).Forall fun op => op.writes ⊆ (W8.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 8 does not write keeps its contents through it. -/
theorem keep8 (V : Valuation τ sig (Elt F)) (r : Ref sig .tc) (h : r ∉ W8) :
    after ops8 V (Proc.devRef .tc r) = V (Proc.devRef .tc r) :=
  after_of_writes_sub ops8 V ops8_writes h

/-- The arrays stretch 9 writes. -/
abbrev W9 : List (Ref sig .tc) := [main_cst_15, main_v89, main_v90, main_v91, main_v92]
set_option maxRecDepth 8192 in
theorem ops9_writes : (ops9 : List (HloOp τ sig (Elt F))).Forall fun op => op.writes ⊆ (W9.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 9 does not write keeps its contents through it. -/
theorem keep9 (V : Valuation τ sig (Elt F)) (r : Ref sig .tc) (h : r ∉ W9) :
    after ops9 V (Proc.devRef .tc r) = V (Proc.devRef .tc r) :=
  after_of_writes_sub ops9 V ops9_writes h

/-- The arrays stretch 10 writes. -/
abbrev W10 : List (Ref sig .tc) := [main_v93, main_v94, main_v95, main_v96, main_v97, main_v98, main_v99, main_v100]
set_option maxRecDepth 8192 in
theorem ops10_writes : (ops10 : List (HloOp τ sig (Elt F))).Forall fun op => op.writes ⊆ (W10.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 10 does not write keeps its contents through it. -/
theorem keep10 (V : Valuation τ sig (Elt F)) (r : Ref sig .tc) (h : r ∉ W10) :
    after ops10 V (Proc.devRef .tc r) = V (Proc.devRef .tc r) :=
  after_of_writes_sub ops10 V ops10_writes h

/-- The arrays stretch 11 writes. -/
abbrev W11 : List (Ref sig .tc) := [main_v101]
set_option maxRecDepth 8192 in
theorem ops11_writes : (ops11 : List (HloOp τ sig (Elt F))).Forall fun op => op.writes ⊆ (W11.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 11 does not write keeps its contents through it. -/
theorem keep11 (V : Valuation τ sig (Elt F)) (r : Ref sig .tc) (h : r ∉ W11) :
    after ops11 V (Proc.devRef .tc r) = V (Proc.devRef .tc r) :=
  after_of_writes_sub ops11 V ops11_writes h

/-- The arrays stretch 12 writes. -/
abbrev W12 : List (Ref sig .tc) := [main_v102, main_v103, main_v104, main_cst_16, main_v105, main_cst_17, main_v106, main_v107, main_v108, main_v109, main_v110, main_v111, main_cst_18, main_v112, main_cst_19, main_v113, main_v114, main_v115, main_v116, main_v117, main_v118, main_v119, main_v120, main_cst_20, main_v121, main_v122, main_v123, main_v124, main_v125, main_v126, main_v127, main_v128, main_v129]
set_option maxRecDepth 8192 in
theorem ops12_writes : (ops12 : List (HloOp τ sig (Elt F))).Forall fun op => op.writes ⊆ (W12.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 12 does not write keeps its contents through it. -/
theorem keep12 (V : Valuation τ sig (Elt F)) (r : Ref sig .tc) (h : r ∉ W12) :
    after ops12 V (Proc.devRef .tc r) = V (Proc.devRef .tc r) :=
  after_of_writes_sub ops12 V ops12_writes h

/-- The arrays stretch 13 writes. -/
abbrev W13 : List (Ref sig .tc) := [main_call1_cst, main_call1_v0, main_v130]
set_option maxRecDepth 8192 in
theorem ops13_writes : (ops13 : List (HloOp τ sig (Elt F))).Forall fun op => op.writes ⊆ (W13.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 13 does not write keeps its contents through it. -/
theorem keep13 (V : Valuation τ sig (Elt F)) (r : Ref sig .tc) (h : r ∉ W13) :
    after ops13 V (Proc.devRef .tc r) = V (Proc.devRef .tc r) :=
  after_of_writes_sub ops13 V ops13_writes h

/-- The arrays stretch 14 writes. -/
abbrev W14 : List (Ref sig .tc) := [main_v131, main_v132, main_v133, main_v134, main_v135, main_v136, main_v137, main_v138]
set_option maxRecDepth 8192 in
theorem ops14_writes : (ops14 : List (HloOp τ sig (Elt F))).Forall fun op => op.writes ⊆ (W14.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 14 does not write keeps its contents through it. -/
theorem keep14 (V : Valuation τ sig (Elt F)) (r : Ref sig .tc) (h : r ∉ W14) :
    after ops14 V (Proc.devRef .tc r) = V (Proc.devRef .tc r) :=
  after_of_writes_sub ops14 V ops14_writes h

/-- The arrays stretch 15 writes. -/
abbrev W15 : List (Ref sig .tc) := [main_v139, main_v140, main_v141, main_v142, main_cst_21, main_v143, main_cst_22, main_v144, main_v145, main_v146, main_v147, main_v148, main_v149, main_cst_23, main_v150, main_cst_24, main_v151, main_v152]
set_option maxRecDepth 8192 in
theorem ops15_writes : (ops15 : List (HloOp τ sig (Elt F))).Forall fun op => op.writes ⊆ (W15.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 15 does not write keeps its contents through it. -/
theorem keep15 (V : Valuation τ sig (Elt F)) (r : Ref sig .tc) (h : r ∉ W15) :
    after ops15 V (Proc.devRef .tc r) = V (Proc.devRef .tc r) :=
  after_of_writes_sub ops15 V ops15_writes h

/-- The arrays stretch 16 writes. -/
abbrev W16 : List (Ref sig .tc) := [main_v153, main_v154, main_v155, main_v156, main_v157, main_v158, main_cst_25, main_v159, main_v160, main_v161, main_v162, main_v163, main_v164, main_v165, main_v166, main_v167]
set_option maxRecDepth 8192 in
theorem ops16_writes : (ops16 : List (HloOp τ sig (Elt F))).Forall fun op => op.writes ⊆ (W16.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 16 does not write keeps its contents through it. -/
theorem keep16 (V : Valuation τ sig (Elt F)) (r : Ref sig .tc) (h : r ∉ W16) :
    after ops16 V (Proc.devRef .tc r) = V (Proc.devRef .tc r) :=
  after_of_writes_sub ops16 V ops16_writes h

/-- The arrays stretch 17 writes. -/
abbrev W17 : List (Ref sig .tc) := [main_call2_cst, main_call2_v0, main_v168]
set_option maxRecDepth 8192 in
theorem ops17_writes : (ops17 : List (HloOp τ sig (Elt F))).Forall fun op => op.writes ⊆ (W17.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 17 does not write keeps its contents through it. -/
theorem keep17 (V : Valuation τ sig (Elt F)) (r : Ref sig .tc) (h : r ∉ W17) :
    after ops17 V (Proc.devRef .tc r) = V (Proc.devRef .tc r) :=
  after_of_writes_sub ops17 V ops17_writes h

/-- The arrays stretch 18 writes. -/
abbrev W18 : List (Ref sig .tc) := [main_v169]
set_option maxRecDepth 8192 in
theorem ops18_writes : (ops18 : List (HloOp τ sig (Elt F))).Forall fun op => op.writes ⊆ (W18.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 18 does not write keeps its contents through it. -/
theorem keep18 (V : Valuation τ sig (Elt F)) (r : Ref sig .tc) (h : r ∉ W18) :
    after ops18 V (Proc.devRef .tc r) = V (Proc.devRef .tc r) :=
  after_of_writes_sub ops18 V ops18_writes h

/-- The arrays stretch 19 writes. -/
abbrev W19 : List (Ref sig .tc) := [main_v170, main_c_26, main_v171, main_v172, main_c_27, main_v173, main_v174, main_v175, main_v176, main_v177, main_v178, main_v179, main_cst_28, main_v180, main_v181, main_v182]
set_option maxRecDepth 8192 in
theorem ops19_writes : (ops19 : List (HloOp τ sig (Elt F))).Forall fun op => op.writes ⊆ (W19.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 19 does not write keeps its contents through it. -/
theorem keep19 (V : Valuation τ sig (Elt F)) (r : Ref sig .tc) (h : r ∉ W19) :
    after ops19 V (Proc.devRef .tc r) = V (Proc.devRef .tc r) :=
  after_of_writes_sub ops19 V ops19_writes h

/-- The arrays stretch 20 writes. -/
abbrev W20 : List (Ref sig .tc) := [main_v183, main_v184, main_v185, main_v186, main_v187, main_v188, main_v189, main_v190]
set_option maxRecDepth 8192 in
theorem ops20_writes : (ops20 : List (HloOp τ sig (Elt F))).Forall fun op => op.writes ⊆ (W20.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 20 does not write keeps its contents through it. -/
theorem keep20 (V : Valuation τ sig (Elt F)) (r : Ref sig .tc) (h : r ∉ W20) :
    after ops20 V (Proc.devRef .tc r) = V (Proc.devRef .tc r) :=
  after_of_writes_sub ops20 V ops20_writes h

/-- The arrays stretch 21 writes. -/
abbrev W21 : List (Ref sig .tc) := [main_v191, main_v192, main_v193, main_v194, main_cst_29, main_v195, main_cst_30, main_v196, main_v197, main_v198, main_v199, main_v200, main_v201, main_cst_31, main_v202, main_cst_32, main_v203, main_v204]
set_option maxRecDepth 8192 in
theorem ops21_writes : (ops21 : List (HloOp τ sig (Elt F))).Forall fun op => op.writes ⊆ (W21.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 21 does not write keeps its contents through it. -/
theorem keep21 (V : Valuation τ sig (Elt F)) (r : Ref sig .tc) (h : r ∉ W21) :
    after ops21 V (Proc.devRef .tc r) = V (Proc.devRef .tc r) :=
  after_of_writes_sub ops21 V ops21_writes h

/-- The arrays stretch 22 writes. -/
abbrev W22 : List (Ref sig .tc) := [main_v205, main_v206, main_v207, main_v208, main_v209, main_v210, main_cst_33, main_v211, main_v212, main_v213, main_v214, main_v215, main_v216, main_v217, main_v218, main_v219]
set_option maxRecDepth 8192 in
theorem ops22_writes : (ops22 : List (HloOp τ sig (Elt F))).Forall fun op => op.writes ⊆ (W22.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 22 does not write keeps its contents through it. -/
theorem keep22 (V : Valuation τ sig (Elt F)) (r : Ref sig .tc) (h : r ∉ W22) :
    after ops22 V (Proc.devRef .tc r) = V (Proc.devRef .tc r) :=
  after_of_writes_sub ops22 V ops22_writes h

/-- The arrays stretch 23 writes. -/
abbrev W23 : List (Ref sig .tc) := [main_call3_cst, main_call3_v0, main_v220]
set_option maxRecDepth 8192 in
theorem ops23_writes : (ops23 : List (HloOp τ sig (Elt F))).Forall fun op => op.writes ⊆ (W23.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 23 does not write keeps its contents through it. -/
theorem keep23 (V : Valuation τ sig (Elt F)) (r : Ref sig .tc) (h : r ∉ W23) :
    after ops23 V (Proc.devRef .tc r) = V (Proc.devRef .tc r) :=
  after_of_writes_sub ops23 V ops23_writes h

/-- The arrays stretch 24 writes. -/
abbrev W24 : List (Ref sig .tc) := [main_c_34, main_v221, main_v222, main_c_35, main_v223, main_v224, main_v225, main_v226, main_v227, main_v228]
set_option maxRecDepth 8192 in
theorem ops24_writes : (ops24 : List (HloOp τ sig (Elt F))).Forall fun op => op.writes ⊆ (W24.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 24 does not write keeps its contents through it. -/
theorem keep24 (V : Valuation τ sig (Elt F)) (r : Ref sig .tc) (h : r ∉ W24) :
    after ops24 V (Proc.devRef .tc r) = V (Proc.devRef .tc r) :=
  after_of_writes_sub ops24 V ops24_writes h

/-- The arrays stretch 25 writes. -/
abbrev W25 : List (Ref sig .tc) := [main_cst_36, main_v229, main_v230, main_v231, main_v232, main_v233, main_v234, main_v235, main_v236, main_v237, main_v238, main_v239, main_v240, main_v241, main_v242, main_v243, main_v244, main_cst_37, main_v245, main_cst_38, main_v246, main_v247, main_v248, main_v249, main_v250, main_v251, main_cst_39, main_v252, main_cst_40, main_v253, main_v254, main_v255, main_v256]
set_option maxRecDepth 8192 in
theorem ops25_writes : (ops25 : List (HloOp τ sig (Elt F))).Forall fun op => op.writes ⊆ (W25.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 25 does not write keeps its contents through it. -/
theorem keep25 (V : Valuation τ sig (Elt F)) (r : Ref sig .tc) (h : r ∉ W25) :
    after ops25 V (Proc.devRef .tc r) = V (Proc.devRef .tc r) :=
  after_of_writes_sub ops25 V ops25_writes h

/-- The arrays stretch 26 writes. -/
abbrev W26 : List (Ref sig .tc) := [main_v257, main_v258, main_v259, main_v260, main_cst_41, main_v261, main_v262, main_v263, main_v264, main_v265, main_v266, main_v267, main_v268, main_v269, main_call4_cst, main_call4_v0, main_v270, main_v271, main_v272, main_v273, main_v274, main_v275, main_v276, main_v277, main_v278, main_v279, main_v280, main_v281, main_v282, main_cst_42, main_v283, main_cst_43, main_v284, main_v285, main_v286, main_v287, main_v288, main_v289, main_cst_44, main_v290, main_cst_45, main_v291, main_v292, main_v293, main_v294, main_v295, main_v296, main_v297, main_v298, main_cst_46, main_v299, main_v300, main_v301, main_v302, main_v303, main_v304, main_v305, main_v306, main_v307, main_call5_cst, main_call5_v0, main_v308, main_v309]
set_option maxRecDepth 8192 in
theorem ops26_writes : (ops26 : List (HloOp τ sig (Elt F))).Forall fun op => op.writes ⊆ (W26.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 26 does not write keeps its contents through it. -/
theorem keep26 (V : Valuation τ sig (Elt F)) (r : Ref sig .tc) (h : r ∉ W26) :
    after ops26 V (Proc.devRef .tc r) = V (Proc.devRef .tc r) :=
  after_of_writes_sub ops26 V ops26_writes h

/-- The arrays stretch 27 writes. -/
abbrev W27 : List (Ref sig .tc) := [main_v310]
set_option maxRecDepth 8192 in
theorem ops27_writes : (ops27 : List (HloOp τ sig (Elt F))).Forall fun op => op.writes ⊆ (W27.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 27 does not write keeps its contents through it. -/
theorem keep27 (V : Valuation τ sig (Elt F)) (r : Ref sig .tc) (h : r ∉ W27) :
    after ops27 V (Proc.devRef .tc r) = V (Proc.devRef .tc r) :=
  after_of_writes_sub ops27 V ops27_writes h

/-- The arrays stretch 28 writes. -/
abbrev W28 : List (Ref sig .tc) := [main_c_47, main_v311, main_v312, main_c_48, main_v313, main_v314, main_v315, main_v316, main_v317, main_v318, main_v319, main_cst_49, main_v320, main_v321, main_v322]
set_option maxRecDepth 8192 in
theorem ops28_writes : (ops28 : List (HloOp τ sig (Elt F))).Forall fun op => op.writes ⊆ (W28.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 28 does not write keeps its contents through it. -/
theorem keep28 (V : Valuation τ sig (Elt F)) (r : Ref sig .tc) (h : r ∉ W28) :
    after ops28 V (Proc.devRef .tc r) = V (Proc.devRef .tc r) :=
  after_of_writes_sub ops28 V ops28_writes h

/-- The arrays stretch 29 writes. -/
abbrev W29 : List (Ref sig .tc) := [main_v323, main_v324, main_v325, main_v326, main_v327, main_v328, main_v329, main_v330]
set_option maxRecDepth 8192 in
theorem ops29_writes : (ops29 : List (HloOp τ sig (Elt F))).Forall fun op => op.writes ⊆ (W29.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 29 does not write keeps its contents through it. -/
theorem keep29 (V : Valuation τ sig (Elt F)) (r : Ref sig .tc) (h : r ∉ W29) :
    after ops29 V (Proc.devRef .tc r) = V (Proc.devRef .tc r) :=
  after_of_writes_sub ops29 V ops29_writes h

/-- The arrays stretch 30 writes. -/
abbrev W30 : List (Ref sig .tc) := [main_v331, main_v332, main_v333, main_v334, main_cst_50, main_v335, main_cst_51, main_v336, main_v337, main_v338, main_v339, main_v340, main_v341, main_cst_52, main_v342, main_cst_53, main_v343, main_v344, main_v345, main_v346, main_v347, main_v348, main_v349, main_v350, main_cst_54, main_v351, main_v352, main_v353, main_v354, main_v355, main_v356, main_v357, main_v358, main_v359]
set_option maxRecDepth 8192 in
theorem ops30_writes : (ops30 : List (HloOp τ sig (Elt F))).Forall fun op => op.writes ⊆ (W30.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 30 does not write keeps its contents through it. -/
theorem keep30 (V : Valuation τ sig (Elt F)) (r : Ref sig .tc) (h : r ∉ W30) :
    after ops30 V (Proc.devRef .tc r) = V (Proc.devRef .tc r) :=
  after_of_writes_sub ops30 V ops30_writes h

/-- The arrays stretch 31 writes. -/
abbrev W31 : List (Ref sig .tc) := [main_v360, main_c_55, main_v361]
set_option maxRecDepth 8192 in
theorem ops31_writes : (ops31 : List (HloOp τ sig (Elt F))).Forall fun op => op.writes ⊆ (W31.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 31 does not write keeps its contents through it. -/
theorem keep31 (V : Valuation τ sig (Elt F)) (r : Ref sig .tc) (h : r ∉ W31) :
    after ops31 V (Proc.devRef .tc r) = V (Proc.devRef .tc r) :=
  after_of_writes_sub ops31 V ops31_writes h

/-- The arrays stretch 32 writes. -/
abbrev W32 : List (Ref sig .tc) := [main_v362, main_c_56, main_v363, main_v364, main_v365, main_v366, main_v367, main_v368, main_v369, main_cst_57, main_v370, main_v371, main_v372, main_cst_58, main_v373, main_v374, main_cst_59, main_v375, main_v376, main_v377]
set_option maxRecDepth 8192 in
theorem ops32_writes : (ops32 : List (HloOp τ sig (Elt F))).Forall fun op => op.writes ⊆ (W32.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 32 does not write keeps its contents through it. -/
theorem keep32 (V : Valuation τ sig (Elt F)) (r : Ref sig .tc) (h : r ∉ W32) :
    after ops32 V (Proc.devRef .tc r) = V (Proc.devRef .tc r) :=
  after_of_writes_sub ops32 V ops32_writes h

/-- The arrays stretch 33 writes. -/
abbrev W33 : List (Ref sig .tc) := [main_v378, main_c_60, main_v379, main_v380, main_c_61, main_v381, main_v382, main_v383, main_v384, main_v385, main_v386, main_v387, main_cst_62, main_v388, main_v389, main_v390, main_cst_63, main_v391, main_v392, main_cst_64, main_v393, main_v394, main_v395]
set_option maxRecDepth 8192 in
theorem ops33_writes : (ops33 : List (HloOp τ sig (Elt F))).Forall fun op => op.writes ⊆ (W33.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 33 does not write keeps its contents through it. -/
theorem keep33 (V : Valuation τ sig (Elt F)) (r : Ref sig .tc) (h : r ∉ W33) :
    after ops33 V (Proc.devRef .tc r) = V (Proc.devRef .tc r) :=
  after_of_writes_sub ops33 V ops33_writes h

/-- The arrays stretch 34 writes. -/
abbrev W34 : List (Ref sig .tc) := [main_v396, main_c_65, main_v397, main_v398, main_c_66, main_v399, main_v400, main_v401, main_v402, main_v403, main_v404, main_v405, main_cst_67, main_v406, main_v407, main_v408, main_cst_68]
set_option maxRecDepth 8192 in
theorem ops34_writes : (ops34 : List (HloOp τ sig (Elt F))).Forall fun op => op.writes ⊆ (W34.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 34 does not write keeps its contents through it. -/
theorem keep34 (V : Valuation τ sig (Elt F)) (r : Ref sig .tc) (h : r ∉ W34) :
    after ops34 V (Proc.devRef .tc r) = V (Proc.devRef .tc r) :=
  after_of_writes_sub ops34 V ops34_writes h

/-- The arrays stretch 35 writes. -/
abbrev W35 : List (Ref sig .tc) := [main_v409, main_v410, main_cst_69, main_v411, main_v412, main_v413]
set_option maxRecDepth 8192 in
theorem ops35_writes : (ops35 : List (HloOp τ sig (Elt F))).Forall fun op => op.writes ⊆ (W35.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 35 does not write keeps its contents through it. -/
theorem keep35 (V : Valuation τ sig (Elt F)) (r : Ref sig .tc) (h : r ∉ W35) :
    after ops35 V (Proc.devRef .tc r) = V (Proc.devRef .tc r) :=
  after_of_writes_sub ops35 V ops35_writes h

/-- The arrays stretch 36 writes. -/
abbrev W36 : List (Ref sig .tc) := [main_v414, main_c_70, main_v415, main_v416, main_c_71, main_v417, main_v418, main_v419, main_v420, main_v421, main_v422, main_v423, main_cst_72, main_v424, main_v425, main_v426, main_cst_73, main_v427, main_v428, main_cst_74, main_v429, main_v430, main_v431]
set_option maxRecDepth 8192 in
theorem ops36_writes : (ops36 : List (HloOp τ sig (Elt F))).Forall fun op => op.writes ⊆ (W36.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 36 does not write keeps its contents through it. -/
theorem keep36 (V : Valuation τ sig (Elt F)) (r : Ref sig .tc) (h : r ∉ W36) :
    after ops36 V (Proc.devRef .tc r) = V (Proc.devRef .tc r) :=
  after_of_writes_sub ops36 V ops36_writes h

/-- The arrays stretch 37 writes. -/
abbrev W37 : List (Ref sig .tc) := [main_v432, main_c_75, main_v433, main_v434, main_c_76, main_v435, main_v436, main_v437, main_v438, main_v439, main_v440, main_v441, main_cst_77, main_v442, main_v443, main_v444, main_cst_78, main_v445, main_v446, main_cst_79, main_v447, main_v448, main_v449]
set_option maxRecDepth 8192 in
theorem ops37_writes : (ops37 : List (HloOp τ sig (Elt F))).Forall fun op => op.writes ⊆ (W37.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 37 does not write keeps its contents through it. -/
theorem keep37 (V : Valuation τ sig (Elt F)) (r : Ref sig .tc) (h : r ∉ W37) :
    after ops37 V (Proc.devRef .tc r) = V (Proc.devRef .tc r) :=
  after_of_writes_sub ops37 V ops37_writes h

/-- The arrays stretch 38 writes. -/
abbrev W38 : List (Ref sig .tc) := [main_cst_80, main_v450, main_cst_81, main_v451, main_v452, main_v453]
set_option maxRecDepth 8192 in
theorem ops38_writes : (ops38 : List (HloOp τ sig (Elt F))).Forall fun op => op.writes ⊆ (W38.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 38 does not write keeps its contents through it. -/
theorem keep38 (V : Valuation τ sig (Elt F)) (r : Ref sig .tc) (h : r ∉ W38) :
    after ops38 V (Proc.devRef .tc r) = V (Proc.devRef .tc r) :=
  after_of_writes_sub ops38 V ops38_writes h

/-- The arrays stretch 39 writes. -/
abbrev W39 : List (Ref sig .tc) := [main_cst_82, main_v454]
set_option maxRecDepth 8192 in
theorem ops39_writes : (ops39 : List (HloOp τ sig (Elt F))).Forall fun op => op.writes ⊆ (W39.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 39 does not write keeps its contents through it. -/
theorem keep39 (V : Valuation τ sig (Elt F)) (r : Ref sig .tc) (h : r ∉ W39) :
    after ops39 V (Proc.devRef .tc r) = V (Proc.devRef .tc r) :=
  after_of_writes_sub ops39 V ops39_writes h

/-- The arrays stretch 40 writes. -/
abbrev W40 : List (Ref sig .tc) := [main_v455, main_v456]
set_option maxRecDepth 8192 in
theorem ops40_writes : (ops40 : List (HloOp τ sig (Elt F))).Forall fun op => op.writes ⊆ (W40.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 40 does not write keeps its contents through it. -/
theorem keep40 (V : Valuation τ sig (Elt F)) (r : Ref sig .tc) (h : r ∉ W40) :
    after ops40 V (Proc.devRef .tc r) = V (Proc.devRef .tc r) :=
  after_of_writes_sub ops40 V ops40_writes h

/-- The arrays stretch 41 writes. -/
abbrev W41 : List (Ref sig .tc) := [main_cst_83, main_v457, main_v458, main_v459, main_v460, main_v461]
set_option maxRecDepth 8192 in
theorem ops41_writes : (ops41 : List (HloOp τ sig (Elt F))).Forall fun op => op.writes ⊆ (W41.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 41 does not write keeps its contents through it. -/
theorem keep41 (V : Valuation τ sig (Elt F)) (r : Ref sig .tc) (h : r ∉ W41) :
    after ops41 V (Proc.devRef .tc r) = V (Proc.devRef .tc r) :=
  after_of_writes_sub ops41 V ops41_writes h

/-- The arrays stretch 42 writes. -/
abbrev W42 : List (Ref sig .tc) := [main_v462, main_v463, main_v464, main_v465]
set_option maxRecDepth 8192 in
theorem ops42_writes : (ops42 : List (HloOp τ sig (Elt F))).Forall fun op => op.writes ⊆ (W42.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- An array stretch 42 does not write keeps its contents through it. -/
theorem keep42 (V : Valuation τ sig (Elt F)) (r : Ref sig .tc) (h : r ∉ W42) :
    after ops42 V (Proc.devRef .tc r) = V (Proc.devRef .tc r) :=
  after_of_writes_sub ops42 V ops42_writes h

end Cert.ReferenceIdeal.RefRun

end
-- ==== Proof.Ref.Stages.lean ====
import proofs.«402460_j82824149336546_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The stages of the reference, as pure functions

For each array that one stretch of the main function hands to a later one, the function that computes its
contents from the contents of the arrays the stretch reads: the stretch's operations composed in order. The
names carry the number of the array (`F_v42` computes `%42`); what each one is in the reference's own words is
said at the definition. -/

/-- `%0`: the node numbers 0 … 49999 (the self-loops) (stretch 0). -/
def F_v0 :
    (⟨S50000, .i32⟩ : BufTy).Contents (Elt F) :=
  iotaInDim S50000 32 0

/-- `%2`: the edges' source row (stretch 0). -/
def F_v2 (x_arg1 : (⟨S2x600000, .i32⟩ : BufTy).Contents (Elt F)) :
    (⟨S600000, .i32⟩ : BufTy).Contents (Elt F) :=
  shapeCast S600000 (extractStridedSlice S1x600000 ![0, 0] x_arg1 slices_S2x600000_S1x600000_0_0) shapeCasts_S1x600000_S600000

/-- `%3`: `src`: the edges' sources followed by the self-loops (stretch 1). -/
def F_v3 (x_v2 : (⟨S600000, .i32⟩ : BufTy).Contents (Elt F)) (x_v0 : (⟨S50000, .i32⟩ : BufTy).Contents (Elt F)) :
    (⟨S650000, .i32⟩ : BufTy).Contents (Elt F) :=
  concatenate S650000 0 [⟨S600000, x_v2⟩, ⟨S50000, x_v0⟩] concatenates_S600000_S50000_S650000_d0

/-- `%5`: the edges' destination row (stretch 1). -/
def F_v5 (x_arg1 : (⟨S2x600000, .i32⟩ : BufTy).Contents (Elt F)) :
    (⟨S600000, .i32⟩ : BufTy).Contents (Elt F) :=
  shapeCast S600000 (extractStridedSlice S1x600000 ![1, 0] x_arg1 slices_S2x600000_S1x600000_1_0) shapeCasts_S1x600000_S600000

/-- `%6`: `dst`: the edges' destinations followed by the self-loops (stretch 2). -/
def F_v6 (x_v5 : (⟨S600000, .i32⟩ : BufTy).Contents (Elt F)) (x_v0 : (⟨S50000, .i32⟩ : BufTy).Contents (Elt F)) :
    (⟨S650000, .i32⟩ : BufTy).Contents (Elt F) :=
  concatenate S650000 0 [⟨S600000, x_v5⟩, ⟨S50000, x_v0⟩] concatenates_S600000_S50000_S650000_d0

/-- `%28`: `norm`: the symmetric normalisation `dinv[src] * dinv[dst]`, `dinv` the inverse square root of the in-degree (at least 1) (stretch 2). -/
def F_v28 (x_v5 : (⟨S600000, .i32⟩ : BufTy).Contents (Elt F)) (x_v0 : (⟨S50000, .i32⟩ : BufTy).Contents (Elt F)) (x_v3 : (⟨S650000, .i32⟩ : BufTy).Contents (Elt F)) :
    (⟨S650000, .f32⟩ : BufTy).Contents (Elt F) :=
  mulf (Host.gather gather_S50000_S650000x1_S650000_n_0_n_n_0_1_1 (Host.rsqrt (maximumf (Host.scatterAdd scatter_S50000_S650000x1_S650000_n_0_0_1 (broadcastInDim S50000 ![] bcast_S_S50000 (constant S_ .f32 0x00000000#32)) (broadcastInDim S650000x1 ![0] bcast_S650000_S650000x1_0 (concatenate S650000 0 [⟨S600000, x_v5⟩, ⟨S50000, x_v0⟩] concatenates_S600000_S50000_S650000_d0)) (broadcastInDim S650000 ![] bcast_S_S650000 (constant S_ .f32 0x3F800000#32))) (broadcastInDim S50000 ![] bcast_S_S50000 (constant S_ .f32 0x3F800000#32)))) (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3))) (Host.gather gather_S50000_S650000x1_S650000_n_0_n_n_0_1_1 (Host.rsqrt (maximumf (Host.scatterAdd scatter_S50000_S650000x1_S650000_n_0_0_1 (broadcastInDim S50000 ![] bcast_S_S50000 (constant S_ .f32 0x00000000#32)) (broadcastInDim S650000x1 ![0] bcast_S650000_S650000x1_0 (concatenate S650000 0 [⟨S600000, x_v5⟩, ⟨S50000, x_v0⟩] concatenates_S600000_S50000_S650000_d0)) (broadcastInDim S650000 ![] bcast_S_S650000 (constant S_ .f32 0x3F800000#32))) (broadcastInDim S50000 ![] bcast_S_S50000 (constant S_ .f32 0x3F800000#32)))) (broadcastInDim S650000x1 ![0] bcast_S650000_S650000x1_0 (select (cmpi .slt (concatenate S650000 0 [⟨S600000, x_v5⟩, ⟨S50000, x_v0⟩] concatenates_S600000_S50000_S650000_d0) (broadcastInDim S650000 ![] bcast_S_S650000 (constantI S_ 32 0#32))) (addi (concatenate S650000 0 [⟨S600000, x_v5⟩, ⟨S50000, x_v0⟩] concatenates_S600000_S50000_S650000_d0) (broadcastInDim S650000 ![] bcast_S_S650000 (constantI S_ 32 50000#32))) (concatenate S650000 0 [⟨S600000, x_v5⟩, ⟨S50000, x_v0⟩] concatenates_S600000_S50000_S650000_d0))))

/-- `%29`: the virtual node's embedding broadcast to every graph (stretch 3). -/
def F_v29 (x_arg7 : (⟨S128, .f32⟩ : BufTy).Contents (Elt F)) :
    (⟨S512x128, .f32⟩ : BufTy).Contents (Elt F) :=
  broadcastInDim S512x128 ![1] bcast_S128_S512x128_1 x_arg7

/-- `%42`: `prop(x)`: gather at `src`, weight by `norm`, scatter-add at `dst` (stretch 3). -/
def F_v42 (x_v6 : (⟨S650000, .i32⟩ : BufTy).Contents (Elt F)) (x_v28 : (⟨S650000, .f32⟩ : BufTy).Contents (Elt F)) (x_arg0 : (⟨S50000x128, .f32⟩ : BufTy).Contents (Elt F)) (x_v3 : (⟨S650000, .i32⟩ : BufTy).Contents (Elt F)) :
    (⟨S50000x128, .f32⟩ : BufTy).Contents (Elt F) :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 (broadcastInDim S650000x1 ![0] bcast_S650000_S650000x1_0 x_v28)) (Host.gather gather_S50000x128_S650000x1_S650000x128_1_0_n_n_0_1_1128 x_arg0 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3))))

/-- `%45`: layer 0: the propagated features times `W[0]` (stretch 4). -/
def F_v45 (x_v42 : (⟨S50000x128, .f32⟩ : BufTy).Contents (Elt F)) (x_arg3 : (⟨S3x128x128, .f32⟩ : BufTy).Contents (Elt F)) :
    (⟨S50000x128, .f32⟩ : BufTy).Contents (Elt F) :=
  Host.dotGeneral dot_S50000x128_S128x128_S50000x128_1_0_0_1_n_n none x_v42 (shapeCast S128x128 (extractStridedSlice S1x128x128 ![0, 0, 0] x_arg3 slices_S3x128x128_S1x128x128_0_0_0) shapeCasts_S1x128x128_S128x128)

/-- `%49`: layer 0: the bias `b[0]` broadcast over the nodes (stretch 4). -/
def F_v49 (x_arg4 : (⟨S3x128, .f32⟩ : BufTy).Contents (Elt F)) :
    (⟨S50000x128, .f32⟩ : BufTy).Contents (Elt F) :=
  broadcastInDim S50000x128 ![0, 1] bcast_S1x128_S50000x128_0_1 (broadcastInDim S1x128 ![1] bcast_S128_S1x128_1 (shapeCast S128 (extractStridedSlice S1x128 ![0, 0] x_arg4 slices_S3x128_S1x128_0_0) shapeCasts_S1x128_S128))

/-- `%50`: layer 0: the linear map's result (stretch 5). -/
def F_v50 (x_v45 : (⟨S50000x128, .f32⟩ : BufTy).Contents (Elt F)) (x_v49 : (⟨S50000x128, .f32⟩ : BufTy).Contents (Elt F)) :
    (⟨S50000x128, .f32⟩ : BufTy).Contents (Elt F) :=
  addf x_v45 x_v49

/-- `%79`: layer 0: the batch normalisation (batch statistics) (stretch 6). -/
def F_v79 (x_arg5 : (⟨S3x128, .f32⟩ : BufTy).Contents (Elt F)) (x_v50 : (⟨S50000x128, .f32⟩ : BufTy).Contents (Elt F)) (x_arg6 : (⟨S3x128, .f32⟩ : BufTy).Contents (Elt F)) :
    (⟨S50000x128, .f32⟩ : BufTy).Contents (Elt F) :=
  addf (mulf (mulf (broadcastInDim S50000x128 ![0, 1] bcast_S1x128_S50000x128_0_1 (broadcastInDim S1x128 ![1] bcast_S128_S1x128_1 (shapeCast S128 (extractStridedSlice S1x128 ![0, 0] x_arg5 slices_S3x128_S1x128_0_0) shapeCasts_S1x128_S128))) (subf x_v50 (broadcastInDim S50000x128 ![0, 1] bcast_S1x128_S50000x128_0_1 (broadcastInDim S1x128 ![1] bcast_S128_S1x128_1 (Host.divf (Host.reduceAdd x_v50 (constant S_ .f32 0x00000000#32) reducesTo_S50000x128_S128_d0 h_S_) (broadcastInDim S128 ![] bcast_S_S128 (constant S_ .f32 0x47435000#32))))))) (broadcastInDim S50000x128 ![0, 1] bcast_S1x128_S50000x128_0_1 (broadcastInDim S1x128 ![1] bcast_S128_S1x128_1 (Host.rsqrt (addf (Host.divf (Host.reduceAdd (mulf (subf x_v50 (broadcastInDim S50000x128 ![0, 1] bcast_S1x128_S50000x128_0_1 (broadcastInDim S1x128 ![1] bcast_S128_S1x128_1 (Host.divf (Host.reduceAdd x_v50 (constant S_ .f32 0x00000000#32) reducesTo_S50000x128_S128_d0 h_S_) (broadcastInDim S128 ![] bcast_S_S128 (constant S_ .f32 0x47435000#32)))))) (subf x_v50 (broadcastInDim S50000x128 ![0, 1] bcast_S1x128_S50000x128_0_1 (broadcastInDim S1x128 ![1] bcast_S128_S1x128_1 (Host.divf (Host.reduceAdd x_v50 (constant S_ .f32 0x00000000#32) reducesTo_S50000x128_S128_d0 h_S_) (broadcastInDim S128 ![] bcast_S_S128 (constant S_ .f32 0x47435000#32))))))) (constant S_ .f32 0x00000000#32) reducesTo_S50000x128_S128_d0 h_S_) (broadcastInDim S128 ![] bcast_S_S128 (constant S_ .f32 0x47435000#32))) (broadcastInDim S128 ![] bcast_S_S128 (constant S_ .f32 0x3727C5AC#32))))))) (broadcastInDim S50000x128 ![0, 1] bcast_S1x128_S50000x128_0_1 (broadcastInDim S1x128 ![1] bcast_S128_S1x128_1 (shapeCast S128 (extractStridedSlice S1x128 ![0, 0] x_arg6 slices_S3x128_S1x128_0_0) shapeCasts_S1x128_S128)))

/-- `%80`: layer 0: the rectifier (stretch 7). -/
def F_v80 (x_v79 : (⟨S50000x128, .f32⟩ : BufTy).Contents (Elt F)) :
    (⟨S50000x128, .f32⟩ : BufTy).Contents (Elt F) :=
  maximumf x_v79 (broadcastInDim S50000x128 ![] bcast_S_S50000x128 (constant S_ .f32 0x00000000#32))

/-- `%88`: layer 0: the node features plus their graph's virtual node (stretch 8). -/
def F_v88 (x_v80 : (⟨S50000x128, .f32⟩ : BufTy).Contents (Elt F)) (x_v29 : (⟨S512x128, .f32⟩ : BufTy).Contents (Elt F)) (x_arg2 : (⟨S50000, .i32⟩ : BufTy).Contents (Elt F)) :
    (⟨S50000x128, .f32⟩ : BufTy).Contents (Elt F) :=
  addf x_v80 (Host.gather gather_S512x128_S50000x1_S50000x128_1_0_n_n_0_1_1128 x_v29 (broadcastInDim S50000x1 ![0] bcast_S50000_S50000x1_0 (select (cmpi .slt x_arg2 (broadcastInDim S50000 ![] bcast_S_S50000 (constantI S_ 32 0#32))) (addi x_arg2 (broadcastInDim S50000 ![] bcast_S_S50000 (constantI S_ 32 512#32))) x_arg2)))

/-- `%92`: layer 0: the per-graph sums plus the virtual node (stretch 9). -/
def F_v92 (x_arg2 : (⟨S50000, .i32⟩ : BufTy).Contents (Elt F)) (x_v88 : (⟨S50000x128, .f32⟩ : BufTy).Contents (Elt F)) (x_v29 : (⟨S512x128, .f32⟩ : BufTy).Contents (Elt F)) :
    (⟨S512x128, .f32⟩ : BufTy).Contents (Elt F) :=
  addf (Host.scatterAdd scatter_S512x128_S50000x1_S50000x128_1_0_0_1 (broadcastInDim S512x128 ![] bcast_S_S512x128 (constant S_ .f32 0x00000000#32)) (broadcastInDim S50000x1 ![0] bcast_S50000_S50000x1_0 x_arg2) x_v88) x_v29

/-- `%100`: virtual-node update 0, first half: the linear map (stretch 10). -/
def F_v100 (x_v92 : (⟨S512x128, .f32⟩ : BufTy).Contents (Elt F)) (x_arg8 : (⟨S2x128x256, .f32⟩ : BufTy).Contents (Elt F)) (x_arg9 : (⟨S2x256, .f32⟩ : BufTy).Contents (Elt F)) :
    (⟨S512x256, .f32⟩ : BufTy).Contents (Elt F) :=
  addf (Host.dotGeneral dot_S512x128_S128x256_S512x256_1_0_0_1_n_n none x_v92 (shapeCast S128x256 (extractStridedSlice S1x128x256 ![1, 0, 0] x_arg8 slices_S2x128x256_S1x128x256_1_0_0) shapeCasts_S1x128x256_S128x256)) (broadcastInDim S512x256 ![0, 1] bcast_S1x256_S512x256_0_1 (broadcastInDim S1x256 ![1] bcast_S256_S1x256_1 (shapeCast S256 (extractStridedSlice S1x256 ![1, 0] x_arg9 slices_S2x256_S1x256_1_0) shapeCasts_S1x256_S256)))

/-- `%101`: virtual-node update 0, first half: the scale row (stretch 11). -/
def F_v101 (x_arg10 : (⟨S2x256, .f32⟩ : BufTy).Contents (Elt F)) :
    (⟨S1x256, .f32⟩ : BufTy).Contents (Elt F) :=
  extractStridedSlice S1x256 ![1, 0] x_arg10 slices_S2x256_S1x256_1_0

/-- `%129`: virtual-node update 0, first half: the batch normalisation (stretch 12). -/
def F_v129 (x_v101 : (⟨S1x256, .f32⟩ : BufTy).Contents (Elt F)) (x_v100 : (⟨S512x256, .f32⟩ : BufTy).Contents (Elt F)) (x_arg11 : (⟨S2x256, .f32⟩ : BufTy).Contents (Elt F)) :
    (⟨S512x256, .f32⟩ : BufTy).Contents (Elt F) :=
  addf (mulf (mulf (broadcastInDim S512x256 ![0, 1] bcast_S1x256_S512x256_0_1 (broadcastInDim S1x256 ![1] bcast_S256_S1x256_1 (shapeCast S256 x_v101 shapeCasts_S1x256_S256))) (subf x_v100 (broadcastInDim S512x256 ![0, 1] bcast_S1x256_S512x256_0_1 (broadcastInDim S1x256 ![1] bcast_S256_S1x256_1 (Host.divf (Host.reduceAdd x_v100 (constant S_ .f32 0x00000000#32) reducesTo_S512x256_S256_d0 h_S_) (broadcastInDim S256 ![] bcast_S_S256 (constant S_ .f32 0x44000000#32))))))) (broadcastInDim S512x256 ![0, 1] bcast_S1x256_S512x256_0_1 (broadcastInDim S1x256 ![1] bcast_S256_S1x256_1 (Host.rsqrt (addf (Host.divf (Host.reduceAdd (mulf (subf x_v100 (broadcastInDim S512x256 ![0, 1] bcast_S1x256_S512x256_0_1 (broadcastInDim S1x256 ![1] bcast_S256_S1x256_1 (Host.divf (Host.reduceAdd x_v100 (constant S_ .f32 0x00000000#32) reducesTo_S512x256_S256_d0 h_S_) (broadcastInDim S256 ![] bcast_S_S256 (constant S_ .f32 0x44000000#32)))))) (subf x_v100 (broadcastInDim S512x256 ![0, 1] bcast_S1x256_S512x256_0_1 (broadcastInDim S1x256 ![1] bcast_S256_S1x256_1 (Host.divf (Host.reduceAdd x_v100 (constant S_ .f32 0x00000000#32) reducesTo_S512x256_S256_d0 h_S_) (broadcastInDim S256 ![] bcast_S_S256 (constant S_ .f32 0x44000000#32))))))) (constant S_ .f32 0x00000000#32) reducesTo_S512x256_S256_d0 h_S_) (broadcastInDim S256 ![] bcast_S_S256 (constant S_ .f32 0x44000000#32))) (broadcastInDim S256 ![] bcast_S_S256 (constant S_ .f32 0x3727C5AC#32))))))) (broadcastInDim S512x256 ![0, 1] bcast_S1x256_S512x256_0_1 (broadcastInDim S1x256 ![1] bcast_S256_S1x256_1 (shapeCast S256 (extractStridedSlice S1x256 ![1, 0] x_arg11 slices_S2x256_S1x256_1_0) shapeCasts_S1x256_S256)))

/-- `%130`: virtual-node update 0, first half: the rectifier (stretch 13). -/
def F_v130 (x_v129 : (⟨S512x256, .f32⟩ : BufTy).Contents (Elt F)) :
    (⟨S512x256, .f32⟩ : BufTy).Contents (Elt F) :=
  maximumf x_v129 (broadcastInDim S512x256 ![] bcast_S_S512x256 (constant S_ .f32 0x00000000#32))

/-- `%138`: virtual-node update 0, second half: the linear map (stretch 14). -/
def F_v138 (x_v130 : (⟨S512x256, .f32⟩ : BufTy).Contents (Elt F)) (x_arg12 : (⟨S2x256x128, .f32⟩ : BufTy).Contents (Elt F)) (x_arg13 : (⟨S2x128, .f32⟩ : BufTy).Contents (Elt F)) :
    (⟨S512x128, .f32⟩ : BufTy).Contents (Elt F) :=
  addf (Host.dotGeneral dot_S512x256_S256x128_S512x128_1_0_0_1_n_n none x_v130 (shapeCast S256x128 (extractStridedSlice S1x256x128 ![1, 0, 0] x_arg12 slices_S2x256x128_S1x256x128_1_0_0) shapeCasts_S1x256x128_S256x128)) (broadcastInDim S512x128 ![0, 1] bcast_S1x128_S512x128_0_1 (broadcastInDim S1x128 ![1] bcast_S128_S1x128_1 (shapeCast S128 (extractStridedSlice S1x128 ![1, 0] x_arg13 slices_S2x128_S1x128_1_0) shapeCasts_S1x128_S128)))

/-- `%140`: virtual-node update 0, second half: the scale row (stretch 15). -/
def F_v140 (x_arg14 : (⟨S2x128, .f32⟩ : BufTy).Contents (Elt F)) :
    (⟨S128, .f32⟩ : BufTy).Contents (Elt F) :=
  shapeCast S128 (extractStridedSlice S1x128 ![1, 0] x_arg14 slices_S2x128_S1x128_1_0) shapeCasts_S1x128_S128

/-- `%142`: virtual-node update 0, second half: the shift row (stretch 15). -/
def F_v142 (x_arg15 : (⟨S2x128, .f32⟩ : BufTy).Contents (Elt F)) :
    (⟨S128, .f32⟩ : BufTy).Contents (Elt F) :=
  shapeCast S128 (extractStridedSlice S1x128 ![1, 0] x_arg15 slices_S2x128_S1x128_1_0) shapeCasts_S1x128_S128

/-- `%145`: virtual-node update 0, second half: the column means (stretch 15). -/
def F_v145 (x_v138 : (⟨S512x128, .f32⟩ : BufTy).Contents (Elt F)) :
    (⟨S128, .f32⟩ : BufTy).Contents (Elt F) :=
  Host.divf (Host.reduceAdd x_v138 (constant S_ .f32 0x00000000#32) reducesTo_S512x128_S128_d0 h_S_) (broadcastInDim S128 ![] bcast_S_S128 (constant S_ .f32 0x44000000#32))

/-- `%152`: virtual-node update 0, second half: the column variances (stretch 15). -/
def F_v152 (x_v138 : (⟨S512x128, .f32⟩ : BufTy).Contents (Elt F)) :
    (⟨S128, .f32⟩ : BufTy).Contents (Elt F) :=
  Host.divf (Host.reduceAdd (mulf (subf x_v138 (broadcastInDim S512x128 ![0, 1] bcast_S1x128_S512x128_0_1 (broadcastInDim S1x128 ![1] bcast_S128_S1x128_1 (Host.divf (Host.reduceAdd x_v138 (constant S_ .f32 0x00000000#32) reducesTo_S512x128_S128_d0 h_S_) (broadcastInDim S128 ![] bcast_S_S128 (constant S_ .f32 0x44000000#32)))))) (subf x_v138 (broadcastInDim S512x128 ![0, 1] bcast_S1x128_S512x128_0_1 (broadcastInDim S1x128 ![1] bcast_S128_S1x128_1 (Host.divf (Host.reduceAdd x_v138 (constant S_ .f32 0x00000000#32) reducesTo_S512x128_S128_d0 h_S_) (broadcastInDim S128 ![] bcast_S_S128 (constant S_ .f32 0x44000000#32))))))) (constant S_ .f32 0x00000000#32) reducesTo_S512x128_S128_d0 h_S_) (broadcastInDim S128 ![] bcast_S_S128 (constant S_ .f32 0x44000000#32))

/-- `%167`: virtual-node update 0, second half: the batch normalisation (stretch 16). -/
def F_v167 (x_v140 : (⟨S128, .f32⟩ : BufTy).Contents (Elt F)) (x_v138 : (⟨S512x128, .f32⟩ : BufTy).Contents (Elt F)) (x_v145 : (⟨S128, .f32⟩ : BufTy).Contents (Elt F)) (x_v152 : (⟨S128, .f32⟩ : BufTy).Contents (Elt F)) (x_v142 : (⟨S128, .f32⟩ : BufTy).Contents (Elt F)) :
    (⟨S512x128, .f32⟩ : BufTy).Contents (Elt F) :=
  addf (mulf (mulf (broadcastInDim S512x128 ![0, 1] bcast_S1x128_S512x128_0_1 (broadcastInDim S1x128 ![1] bcast_S128_S1x128_1 x_v140)) (subf x_v138 (broadcastInDim S512x128 ![0, 1] bcast_S1x128_S512x128_0_1 (broadcastInDim S1x128 ![1] bcast_S128_S1x128_1 x_v145)))) (broadcastInDim S512x128 ![0, 1] bcast_S1x128_S512x128_0_1 (broadcastInDim S1x128 ![1] bcast_S128_S1x128_1 (Host.rsqrt (addf x_v152 (broadcastInDim S128 ![] bcast_S_S128 (constant S_ .f32 0x3727C5AC#32))))))) (broadcastInDim S512x128 ![0, 1] bcast_S1x128_S512x128_0_1 (broadcastInDim S1x128 ![1] bcast_S128_S1x128_1 x_v142))

/-- `%168`: virtual-node update 0, second half: the rectifier (stretch 17). -/
def F_v168 (x_v167 : (⟨S512x128, .f32⟩ : BufTy).Contents (Elt F)) :
    (⟨S512x128, .f32⟩ : BufTy).Contents (Elt F) :=
  maximumf x_v167 (broadcastInDim S512x128 ![] bcast_S_S512x128 (constant S_ .f32 0x00000000#32))

/-- `%169`: the virtual node after update 0 (stretch 18). -/
def F_v169 (x_v29 : (⟨S512x128, .f32⟩ : BufTy).Contents (Elt F)) (x_v168 : (⟨S512x128, .f32⟩ : BufTy).Contents (Elt F)) :
    (⟨S512x128, .f32⟩ : BufTy).Contents (Elt F) :=
  addf x_v29 x_v168

/-- `%182`: layer 1: the propagation (stretch 19). -/
def F_v182 (x_v6 : (⟨S650000, .i32⟩ : BufTy).Contents (Elt F)) (x_v28 : (⟨S650000, .f32⟩ : BufTy).Contents (Elt F)) (x_v88 : (⟨S50000x128, .f32⟩ : BufTy).Contents (Elt F)) (x_v3 : (⟨S650000, .i32⟩ : BufTy).Contents (Elt F)) :
    (⟨S50000x128, .f32⟩ : BufTy).Contents (Elt F) :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 (broadcastInDim S650000x1 ![0] bcast_S650000_S650000x1_0 x_v28)) (Host.gather gather_S50000x128_S650000x1_S650000x128_1_0_n_n_0_1_1128 x_v88 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3))))

/-- `%190`: layer 1: the linear map's result (stretch 20). -/
def F_v190 (x_v182 : (⟨S50000x128, .f32⟩ : BufTy).Contents (Elt F)) (x_arg3 : (⟨S3x128x128, .f32⟩ : BufTy).Contents (Elt F)) (x_arg4 : (⟨S3x128, .f32⟩ : BufTy).Contents (Elt F)) :
    (⟨S50000x128, .f32⟩ : BufTy).Contents (Elt F) :=
  addf (Host.dotGeneral dot_S50000x128_S128x128_S50000x128_1_0_0_1_n_n none x_v182 (shapeCast S128x128 (extractStridedSlice S1x128x128 ![1, 0, 0] x_arg3 slices_S3x128x128_S1x128x128_1_0_0) shapeCasts_S1x128x128_S128x128)) (broadcastInDim S50000x128 ![0, 1] bcast_S1x128_S50000x128_0_1 (broadcastInDim S1x128 ![1] bcast_S128_S1x128_1 (shapeCast S128 (extractStridedSlice S1x128 ![1, 0] x_arg4 slices_S3x128_S1x128_1_0) shapeCasts_S1x128_S128)))

/-- `%192`: layer 1: the scale row (stretch 21). -/
def F_v192 (x_arg5 : (⟨S3x128, .f32⟩ : BufTy).Contents (Elt F)) :
    (⟨S128, .f32⟩ : BufTy).Contents (Elt F) :=
  shapeCast S128 (extractStridedSlice S1x128 ![1, 0] x_arg5 slices_S3x128_S1x128_1_0) shapeCasts_S1x128_S128

/-- `%194`: layer 1: the shift row (stretch 21). -/
def F_v194 (x_arg6 : (⟨S3x128, .f32⟩ : BufTy).Contents (Elt F)) :
    (⟨S128, .f32⟩ : BufTy).Contents (Elt F) :=
  shapeCast S128 (extractStridedSlice S1x128 ![1, 0] x_arg6 slices_S3x128_S1x128_1_0) shapeCasts_S1x128_S128

/-- `%197`: layer 1: the column means (stretch 21). -/
def F_v197 (x_v190 : (⟨S50000x128, .f32⟩ : BufTy).Contents (Elt F)) :
    (⟨S128, .f32⟩ : BufTy).Contents (Elt F) :=
  Host.divf (Host.reduceAdd x_v190 (constant S_ .f32 0x00000000#32) reducesTo_S50000x128_S128_d0 h_S_) (broadcastInDim S128 ![] bcast_S_S128 (constant S_ .f32 0x47435000#32))

/-- `%204`: layer 1: the column variances (stretch 21). -/
def F_v204 (x_v190 : (⟨S50000x128, .f32⟩ : BufTy).Contents (Elt F)) :
    (⟨S128, .f32⟩ : BufTy).Contents (Elt F) :=
  Host.divf (Host.reduceAdd (mulf (subf x_v190 (broadcastInDim S50000x128 ![0, 1] bcast_S1x128_S50000x128_0_1 (broadcastInDim S1x128 ![1] bcast_S128_S1x128_1 (Host.divf (Host.reduceAdd x_v190 (constant S_ .f32 0x00000000#32) reducesTo_S50000x128_S128_d0 h_S_) (broadcastInDim S128 ![] bcast_S_S128 (constant S_ .f32 0x47435000#32)))))) (subf x_v190 (broadcastInDim S50000x128 ![0, 1] bcast_S1x128_S50000x128_0_1 (broadcastInDim S1x128 ![1] bcast_S128_S1x128_1 (Host.divf (Host.reduceAdd x_v190 (constant S_ .f32 0x00000000#32) reducesTo_S50000x128_S128_d0 h_S_) (broadcastInDim S128 ![] bcast_S_S128 (constant S_ .f32 0x47435000#32))))))) (constant S_ .f32 0x00000000#32) reducesTo_S50000x128_S128_d0 h_S_) (broadcastInDim S128 ![] bcast_S_S128 (constant S_ .f32 0x47435000#32))

/-- `%219`: layer 1: the batch normalisation (stretch 22). -/
def F_v219 (x_v192 : (⟨S128, .f32⟩ : BufTy).Contents (Elt F)) (x_v190 : (⟨S50000x128, .f32⟩ : BufTy).Contents (Elt F)) (x_v197 : (⟨S128, .f32⟩ : BufTy).Contents (Elt F)) (x_v204 : (⟨S128, .f32⟩ : BufTy).Contents (Elt F)) (x_v194 : (⟨S128, .f32⟩ : BufTy).Contents (Elt F)) :
    (⟨S50000x128, .f32⟩ : BufTy).Contents (Elt F) :=
  addf (mulf (mulf (broadcastInDim S50000x128 ![0, 1] bcast_S1x128_S50000x128_0_1 (broadcastInDim S1x128 ![1] bcast_S128_S1x128_1 x_v192)) (subf x_v190 (broadcastInDim S50000x128 ![0, 1] bcast_S1x128_S50000x128_0_1 (broadcastInDim S1x128 ![1] bcast_S128_S1x128_1 x_v197)))) (broadcastInDim S50000x128 ![0, 1] bcast_S1x128_S50000x128_0_1 (broadcastInDim S1x128 ![1] bcast_S128_S1x128_1 (Host.rsqrt (addf x_v204 (broadcastInDim S128 ![] bcast_S_S128 (constant S_ .f32 0x3727C5AC#32))))))) (broadcastInDim S50000x128 ![0, 1] bcast_S1x128_S50000x128_0_1 (broadcastInDim S1x128 ![1] bcast_S128_S1x128_1 x_v194))

/-- `%220`: layer 1: the rectifier (stretch 23). -/
def F_v220 (x_v219 : (⟨S50000x128, .f32⟩ : BufTy).Contents (Elt F)) :
    (⟨S50000x128, .f32⟩ : BufTy).Contents (Elt F) :=
  maximumf x_v219 (broadcastInDim S50000x128 ![] bcast_S_S50000x128 (constant S_ .f32 0x00000000#32))

/-- `%228`: layer 1: the node features plus their graph's virtual node (stretch 24). -/
def F_v228 (x_v220 : (⟨S50000x128, .f32⟩ : BufTy).Contents (Elt F)) (x_v169 : (⟨S512x128, .f32⟩ : BufTy).Contents (Elt F)) (x_arg2 : (⟨S50000, .i32⟩ : BufTy).Contents (Elt F)) :
    (⟨S50000x128, .f32⟩ : BufTy).Contents (Elt F) :=
  addf x_v220 (Host.gather gather_S512x128_S50000x1_S50000x128_1_0_n_n_0_1_1128 x_v169 (broadcastInDim S50000x1 ![0] bcast_S50000_S50000x1_0 (select (cmpi .slt x_arg2 (broadcastInDim S50000 ![] bcast_S_S50000 (constantI S_ 32 0#32))) (addi x_arg2 (broadcastInDim S50000 ![] bcast_S_S50000 (constantI S_ 32 512#32))) x_arg2)))

/-- `%310`: the normalisation as a column (last layer) (stretch 27). -/
def F_v310 (x_v28 : (⟨S650000, .f32⟩ : BufTy).Contents (Elt F)) :
    (⟨S650000x1, .f32⟩ : BufTy).Contents (Elt F) :=
  broadcastInDim S650000x1 ![0] bcast_S650000_S650000x1_0 x_v28

/-- `%322`: last layer: the propagation (stretch 28). -/
def F_v322 (x_v6 : (⟨S650000, .i32⟩ : BufTy).Contents (Elt F)) (x_v310 : (⟨S650000x1, .f32⟩ : BufTy).Contents (Elt F)) (x_v228 : (⟨S50000x128, .f32⟩ : BufTy).Contents (Elt F)) (x_v3 : (⟨S650000, .i32⟩ : BufTy).Contents (Elt F)) :
    (⟨S50000x128, .f32⟩ : BufTy).Contents (Elt F) :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 x_v310) (Host.gather gather_S50000x128_S650000x1_S650000x128_1_0_n_n_0_1_1128 x_v228 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3))))

/-- `%330`: last layer: the linear map's result (stretch 29). -/
def F_v330 (x_v322 : (⟨S50000x128, .f32⟩ : BufTy).Contents (Elt F)) (x_arg3 : (⟨S3x128x128, .f32⟩ : BufTy).Contents (Elt F)) (x_arg4 : (⟨S3x128, .f32⟩ : BufTy).Contents (Elt F)) :
    (⟨S50000x128, .f32⟩ : BufTy).Contents (Elt F) :=
  addf (Host.dotGeneral dot_S50000x128_S128x128_S50000x128_1_0_0_1_n_n none x_v322 (shapeCast S128x128 (extractStridedSlice S1x128x128 ![2, 0, 0] x_arg3 slices_S3x128x128_S1x128x128_2_0_0) shapeCasts_S1x128x128_S128x128)) (broadcastInDim S50000x128 ![0, 1] bcast_S1x128_S50000x128_0_1 (broadcastInDim S1x128 ![1] bcast_S128_S1x128_1 (shapeCast S128 (extractStridedSlice S1x128 ![2, 0] x_arg4 slices_S3x128_S1x128_2_0) shapeCasts_S1x128_S128)))

/-- `%359`: `h0`: the last layer's batch normalisation, no rectifier (stretch 30). -/
def F_v359 (x_arg5 : (⟨S3x128, .f32⟩ : BufTy).Contents (Elt F)) (x_v330 : (⟨S50000x128, .f32⟩ : BufTy).Contents (Elt F)) (x_arg6 : (⟨S3x128, .f32⟩ : BufTy).Contents (Elt F)) :
    (⟨S50000x128, .f32⟩ : BufTy).Contents (Elt F) :=
  addf (mulf (mulf (broadcastInDim S50000x128 ![0, 1] bcast_S1x128_S50000x128_0_1 (broadcastInDim S1x128 ![1] bcast_S128_S1x128_1 (shapeCast S128 (extractStridedSlice S1x128 ![2, 0] x_arg5 slices_S3x128_S1x128_2_0) shapeCasts_S1x128_S128))) (subf x_v330 (broadcastInDim S50000x128 ![0, 1] bcast_S1x128_S50000x128_0_1 (broadcastInDim S1x128 ![1] bcast_S128_S1x128_1 (Host.divf (Host.reduceAdd x_v330 (constant S_ .f32 0x00000000#32) reducesTo_S50000x128_S128_d0 h_S_) (broadcastInDim S128 ![] bcast_S_S128 (constant S_ .f32 0x47435000#32))))))) (broadcastInDim S50000x128 ![0, 1] bcast_S1x128_S50000x128_0_1 (broadcastInDim S1x128 ![1] bcast_S128_S1x128_1 (Host.rsqrt (addf (Host.divf (Host.reduceAdd (mulf (subf x_v330 (broadcastInDim S50000x128 ![0, 1] bcast_S1x128_S50000x128_0_1 (broadcastInDim S1x128 ![1] bcast_S128_S1x128_1 (Host.divf (Host.reduceAdd x_v330 (constant S_ .f32 0x00000000#32) reducesTo_S50000x128_S128_d0 h_S_) (broadcastInDim S128 ![] bcast_S_S128 (constant S_ .f32 0x47435000#32)))))) (subf x_v330 (broadcastInDim S50000x128 ![0, 1] bcast_S1x128_S50000x128_0_1 (broadcastInDim S1x128 ![1] bcast_S128_S1x128_1 (Host.divf (Host.reduceAdd x_v330 (constant S_ .f32 0x00000000#32) reducesTo_S50000x128_S128_d0 h_S_) (broadcastInDim S128 ![] bcast_S_S128 (constant S_ .f32 0x47435000#32))))))) (constant S_ .f32 0x00000000#32) reducesTo_S50000x128_S128_d0 h_S_) (broadcastInDim S128 ![] bcast_S_S128 (constant S_ .f32 0x47435000#32))) (broadcastInDim S128 ![] bcast_S_S128 (constant S_ .f32 0x3727C5AC#32))))))) (broadcastInDim S50000x128 ![0, 1] bcast_S1x128_S50000x128_0_1 (broadcastInDim S1x128 ![1] bcast_S128_S1x128_1 (shapeCast S128 (extractStridedSlice S1x128 ![2, 0] x_arg6 slices_S3x128_S1x128_2_0) shapeCasts_S1x128_S128)))

/-- `%360`: the normalisation as a column (step 1) (stretch 31). -/
def F_v360 (x_v28 : (⟨S650000, .f32⟩ : BufTy).Contents (Elt F)) :
    (⟨S650000x1, .f32⟩ : BufTy).Contents (Elt F) :=
  broadcastInDim S650000x1 ![0] bcast_S650000_S650000x1_0 x_v28

/-- `%361`: the zero index row (step 1) (stretch 31). -/
def F_v361 :
    (⟨S650000, .i32⟩ : BufTy).Contents (Elt F) :=
  broadcastInDim S650000 ![] bcast_S_S650000 (constantI S_ 32 0#32)

/-- `%377`: personalised propagation, step 1 (stretch 32). -/
def F_v377 (x_v6 : (⟨S650000, .i32⟩ : BufTy).Contents (Elt F)) (x_v360 : (⟨S650000x1, .f32⟩ : BufTy).Contents (Elt F)) (x_v359 : (⟨S50000x128, .f32⟩ : BufTy).Contents (Elt F)) (x_v3 : (⟨S650000, .i32⟩ : BufTy).Contents (Elt F)) (x_v361 : (⟨S650000, .i32⟩ : BufTy).Contents (Elt F)) :
    (⟨S50000x128, .f32⟩ : BufTy).Contents (Elt F) :=
  addf (mulf (broadcastInDim S50000x128 ![] bcast_S_S50000x128 (constant S_ .f32 0x3E4CCCCD#32)) (Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 x_v360) (Host.gather gather_S50000x128_S650000x1_S650000x128_1_0_n_n_0_1_1128 x_v359 (broadcastInDim S650000x1 ![0] bcast_S650000_S650000x1_0 (select (cmpi .slt x_v3 x_v361) (addi x_v3 (broadcastInDim S650000 ![] bcast_S_S650000 (constantI S_ 32 50000#32))) x_v3)))))) (mulf (broadcastInDim S50000x128 ![] bcast_S_S50000x128 (constant S_ .f32 0x3F4CCCCD#32)) x_v359)

/-- `%395`: personalised propagation, step 2 (stretch 33). -/
def F_v395 (x_v6 : (⟨S650000, .i32⟩ : BufTy).Contents (Elt F)) (x_v28 : (⟨S650000, .f32⟩ : BufTy).Contents (Elt F)) (x_v377 : (⟨S50000x128, .f32⟩ : BufTy).Contents (Elt F)) (x_v3 : (⟨S650000, .i32⟩ : BufTy).Contents (Elt F)) (x_v359 : (⟨S50000x128, .f32⟩ : BufTy).Contents (Elt F)) :
    (⟨S50000x128, .f32⟩ : BufTy).Contents (Elt F) :=
  addf (mulf (broadcastInDim S50000x128 ![] bcast_S_S50000x128 (constant S_ .f32 0x3E4CCCCD#32)) (Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 (broadcastInDim S650000x1 ![0] bcast_S650000_S650000x1_0 x_v28)) (Host.gather gather_S50000x128_S650000x1_S650000x128_1_0_n_n_0_1_1128 x_v377 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3)))))) (mulf (broadcastInDim S50000x128 ![] bcast_S_S50000x128 (constant S_ .f32 0x3F4CCCCD#32)) x_v359)

/-- `%408`: personalised propagation, step 3: the propagation (stretch 34). -/
def F_v408 (x_v6 : (⟨S650000, .i32⟩ : BufTy).Contents (Elt F)) (x_v28 : (⟨S650000, .f32⟩ : BufTy).Contents (Elt F)) (x_v395 : (⟨S50000x128, .f32⟩ : BufTy).Contents (Elt F)) (x_v3 : (⟨S650000, .i32⟩ : BufTy).Contents (Elt F)) :
    (⟨S50000x128, .f32⟩ : BufTy).Contents (Elt F) :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 (broadcastInDim S650000x1 ![0] bcast_S650000_S650000x1_0 x_v28)) (Host.gather gather_S50000x128_S650000x1_S650000x128_1_0_n_n_0_1_1128 x_v395 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3))))

/-- `%cst_68`: the constant 1/5 as printed (stretch 34). -/
def F_cst_68 :
    (⟨S_, .f32⟩ : BufTy).Contents (Elt F) :=
  constant S_ .f32 0x3E4CCCCD#32

/-- `%413`: personalised propagation, step 3 (stretch 35). -/
def F_v413 (x_cst_68 : (⟨S_, .f32⟩ : BufTy).Contents (Elt F)) (x_v408 : (⟨S50000x128, .f32⟩ : BufTy).Contents (Elt F)) (x_v359 : (⟨S50000x128, .f32⟩ : BufTy).Contents (Elt F)) :
    (⟨S50000x128, .f32⟩ : BufTy).Contents (Elt F) :=
  addf (mulf (broadcastInDim S50000x128 ![] bcast_S_S50000x128 x_cst_68) x_v408) (mulf (broadcastInDim S50000x128 ![] bcast_S_S50000x128 (constant S_ .f32 0x3F4CCCCD#32)) x_v359)

/-- `%431`: personalised propagation, step 4 (stretch 36). -/
def F_v431 (x_v6 : (⟨S650000, .i32⟩ : BufTy).Contents (Elt F)) (x_v28 : (⟨S650000, .f32⟩ : BufTy).Contents (Elt F)) (x_v413 : (⟨S50000x128, .f32⟩ : BufTy).Contents (Elt F)) (x_v3 : (⟨S650000, .i32⟩ : BufTy).Contents (Elt F)) (x_v359 : (⟨S50000x128, .f32⟩ : BufTy).Contents (Elt F)) :
    (⟨S50000x128, .f32⟩ : BufTy).Contents (Elt F) :=
  addf (mulf (broadcastInDim S50000x128 ![] bcast_S_S50000x128 (constant S_ .f32 0x3E4CCCCD#32)) (Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 (broadcastInDim S650000x1 ![0] bcast_S650000_S650000x1_0 x_v28)) (Host.gather gather_S50000x128_S650000x1_S650000x128_1_0_n_n_0_1_1128 x_v413 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3)))))) (mulf (broadcastInDim S50000x128 ![] bcast_S_S50000x128 (constant S_ .f32 0x3F4CCCCD#32)) x_v359)

/-- `%449`: personalised propagation, step 5 (stretch 37). -/
def F_v449 (x_v6 : (⟨S650000, .i32⟩ : BufTy).Contents (Elt F)) (x_v28 : (⟨S650000, .f32⟩ : BufTy).Contents (Elt F)) (x_v431 : (⟨S50000x128, .f32⟩ : BufTy).Contents (Elt F)) (x_v3 : (⟨S650000, .i32⟩ : BufTy).Contents (Elt F)) (x_v359 : (⟨S50000x128, .f32⟩ : BufTy).Contents (Elt F)) :
    (⟨S50000x128, .f32⟩ : BufTy).Contents (Elt F) :=
  addf (mulf (broadcastInDim S50000x128 ![] bcast_S_S50000x128 (constant S_ .f32 0x3E4CCCCD#32)) (Host.scatterAdd scatter_S50000x128_S650000x1_S650000x128_1_0_0_1 (broadcastInDim S50000x128 ![] bcast_S_S50000x128 (constant S_ .f32 0x00000000#32)) (broadcastInDim S650000x1 ![0] bcast_S650000_S650000x1_0 x_v6) (mulf (broadcastInDim S650000x128 ![0, 1] bcast_S650000x1_S650000x128_0_1 (broadcastInDim S650000x1 ![0] bcast_S650000_S650000x1_0 x_v28)) (Host.gather gather_S50000x128_S650000x1_S650000x128_1_0_n_n_0_1_1128 x_v431 (broadcastInDim S650000x1 ![0] bcast_S650000_S650000x1_0 (select (cmpi .slt x_v3 (broadcastInDim S650000 ![] bcast_S_S650000 (constantI S_ 32 0#32))) (addi x_v3 (broadcastInDim S650000 ![] bcast_S_S650000 (constantI S_ 32 50000#32))) x_v3)))))) (mulf (broadcastInDim S50000x128 ![] bcast_S_S50000x128 (constant S_ .f32 0x3F4CCCCD#32)) x_v359)

/-- `%453`: the number of nodes of each graph (stretch 38). -/
def F_v453 (x_arg2 : (⟨S50000, .i32⟩ : BufTy).Contents (Elt F)) :
    (⟨S512, .f32⟩ : BufTy).Contents (Elt F) :=
  Host.scatterAdd scatter_S512_S50000x1_S50000_n_0_0_1 (broadcastInDim S512 ![] bcast_S_S512 (constant S_ .f32 0x00000000#32)) (broadcastInDim S50000x1 ![0] bcast_S50000_S50000x1_0 x_arg2) (broadcastInDim S50000 ![] bcast_S_S50000 (constant S_ .f32 0x3F800000#32))

/-- `%454`: the zero array the pooled sum starts from (stretch 39). -/
def F_v454 :
    (⟨S512x128, .f32⟩ : BufTy).Contents (Elt F) :=
  broadcastInDim S512x128 ![] bcast_S_S512x128 (constant S_ .f32 0x00000000#32)

/-- `%456`: the per-graph sums of the node features (stretch 40). -/
def F_v456 (x_v454 : (⟨S512x128, .f32⟩ : BufTy).Contents (Elt F)) (x_arg2 : (⟨S50000, .i32⟩ : BufTy).Contents (Elt F)) (x_v449 : (⟨S50000x128, .f32⟩ : BufTy).Contents (Elt F)) :
    (⟨S512x128, .f32⟩ : BufTy).Contents (Elt F) :=
  Host.scatterAdd scatter_S512x128_S50000x1_S50000x128_1_0_0_1 x_v454 (broadcastInDim S50000x1 ![0] bcast_S50000_S50000x1_0 x_arg2) x_v449

/-- `%461`: the per-graph means (the count at least 1) (stretch 41). -/
def F_v461 (x_v456 : (⟨S512x128, .f32⟩ : BufTy).Contents (Elt F)) (x_v453 : (⟨S512, .f32⟩ : BufTy).Contents (Elt F)) :
    (⟨S512x128, .f32⟩ : BufTy).Contents (Elt F) :=
  Host.divf x_v456 (broadcastInDim S512x128 ![0, 1] bcast_S512x1_S512x128_0_1 (broadcastInDim S512x1 ![0] bcast_S512_S512x1_0 (maximumf x_v453 (broadcastInDim S512 ![] bcast_S_S512 (constant S_ .f32 0x3F800000#32)))))

/-- `%465`: the head: the pooled features times `Wout` plus `bout` (stretch 42). -/
def F_v465 (x_v461 : (⟨S512x128, .f32⟩ : BufTy).Contents (Elt F)) (x_arg16 : (⟨S128x128, .f32⟩ : BufTy).Contents (Elt F)) (x_arg17 : (⟨S128, .f32⟩ : BufTy).Contents (Elt F)) :
    (⟨S512x128, .f32⟩ : BufTy).Contents (Elt F) :=
  addf (Host.dotGeneral dot_S512x128_S128x128_S512x128_1_0_0_1_n_n none x_v461 x_arg16) (broadcastInDim S512x128 ![0, 1] bcast_S1x128_S512x128_0_1 (broadcastInDim S1x128 ![1] bcast_S128_S1x128_1 x_arg17))

end Cert.ReferenceIdeal.RefRun

end
-- ==== Proof.Ref.Res.lean ====
import proofs.«402460_j82824149336546_1_alg».proof.Proof.Ref.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's arrays as functions of the arguments

`res_vN V0` is what the array `%N` holds when the eighteen arguments hold `V0`'s contents: the stage function
of `%N` applied to the same for the arrays it reads. Only `V0` at the arguments is ever read. -/

def res_v0 (V0 : Valuation τ sig (Elt F)) : (⟨S50000, .i32⟩ : BufTy).Contents (Elt F) :=
  F_v0

def res_v2 (V0 : Valuation τ sig (Elt F)) : (⟨S600000, .i32⟩ : BufTy).Contents (Elt F) :=
  F_v2 (V0 (Proc.devRef .tc main_arg1))

def res_v3 (V0 : Valuation τ sig (Elt F)) : (⟨S650000, .i32⟩ : BufTy).Contents (Elt F) :=
  F_v3 (res_v2 V0) (res_v0 V0)

def res_v5 (V0 : Valuation τ sig (Elt F)) : (⟨S600000, .i32⟩ : BufTy).Contents (Elt F) :=
  F_v5 (V0 (Proc.devRef .tc main_arg1))

def res_v6 (V0 : Valuation τ sig (Elt F)) : (⟨S650000, .i32⟩ : BufTy).Contents (Elt F) :=
  F_v6 (res_v5 V0) (res_v0 V0)

def res_v28 (V0 : Valuation τ sig (Elt F)) : (⟨S650000, .f32⟩ : BufTy).Contents (Elt F) :=
  F_v28 (res_v5 V0) (res_v0 V0) (res_v3 V0)

def res_v29 (V0 : Valuation τ sig (Elt F)) : (⟨S512x128, .f32⟩ : BufTy).Contents (Elt F) :=
  F_v29 (V0 (Proc.devRef .tc main_arg7))

def res_v42 (V0 : Valuation τ sig (Elt F)) : (⟨S50000x128, .f32⟩ : BufTy).Contents (Elt F) :=
  F_v42 (res_v6 V0) (res_v28 V0) (V0 (Proc.devRef .tc main_arg0)) (res_v3 V0)

def res_v45 (V0 : Valuation τ sig (Elt F)) : (⟨S50000x128, .f32⟩ : BufTy).Contents (Elt F) :=
  F_v45 (res_v42 V0) (V0 (Proc.devRef .tc main_arg3))

def res_v49 (V0 : Valuation τ sig (Elt F)) : (⟨S50000x128, .f32⟩ : BufTy).Contents (Elt F) :=
  F_v49 (V0 (Proc.devRef .tc main_arg4))

def res_v50 (V0 : Valuation τ sig (Elt F)) : (⟨S50000x128, .f32⟩ : BufTy).Contents (Elt F) :=
  F_v50 (res_v45 V0) (res_v49 V0)

def res_v79 (V0 : Valuation τ sig (Elt F)) : (⟨S50000x128, .f32⟩ : BufTy).Contents (Elt F) :=
  F_v79 (V0 (Proc.devRef .tc main_arg5)) (res_v50 V0) (V0 (Proc.devRef .tc main_arg6))

def res_v80 (V0 : Valuation τ sig (Elt F)) : (⟨S50000x128, .f32⟩ : BufTy).Contents (Elt F) :=
  F_v80 (res_v79 V0)

def res_v88 (V0 : Valuation τ sig (Elt F)) : (⟨S50000x128, .f32⟩ : BufTy).Contents (Elt F) :=
  F_v88 (res_v80 V0) (res_v29 V0) (V0 (Proc.devRef .tc main_arg2))

def res_v92 (V0 : Valuation τ sig (Elt F)) : (⟨S512x128, .f32⟩ : BufTy).Contents (Elt F) :=
  F_v92 (V0 (Proc.devRef .tc main_arg2)) (res_v88 V0) (res_v29 V0)

def res_v100 (V0 : Valuation τ sig (Elt F)) : (⟨S512x256, .f32⟩ : BufTy).Contents (Elt F) :=
  F_v100 (res_v92 V0) (V0 (Proc.devRef .tc main_arg8)) (V0 (Proc.devRef .tc main_arg9))

def res_v101 (V0 : Valuation τ sig (Elt F)) : (⟨S1x256, .f32⟩ : BufTy).Contents (Elt F) :=
  F_v101 (V0 (Proc.devRef .tc main_arg10))

def res_v129 (V0 : Valuation τ sig (Elt F)) : (⟨S512x256, .f32⟩ : BufTy).Contents (Elt F) :=
  F_v129 (res_v101 V0) (res_v100 V0) (V0 (Proc.devRef .tc main_arg11))

def res_v130 (V0 : Valuation τ sig (Elt F)) : (⟨S512x256, .f32⟩ : BufTy).Contents (Elt F) :=
  F_v130 (res_v129 V0)

def res_v138 (V0 : Valuation τ sig (Elt F)) : (⟨S512x128, .f32⟩ : BufTy).Contents (Elt F) :=
  F_v138 (res_v130 V0) (V0 (Proc.devRef .tc main_arg12)) (V0 (Proc.devRef .tc main_arg13))

def res_v140 (V0 : Valuation τ sig (Elt F)) : (⟨S128, .f32⟩ : BufTy).Contents (Elt F) :=
  F_v140 (V0 (Proc.devRef .tc main_arg14))

def res_v142 (V0 : Valuation τ sig (Elt F)) : (⟨S128, .f32⟩ : BufTy).Contents (Elt F) :=
  F_v142 (V0 (Proc.devRef .tc main_arg15))

def res_v145 (V0 : Valuation τ sig (Elt F)) : (⟨S128, .f32⟩ : BufTy).Contents (Elt F) :=
  F_v145 (res_v138 V0)

def res_v152 (V0 : Valuation τ sig (Elt F)) : (⟨S128, .f32⟩ : BufTy).Contents (Elt F) :=
  F_v152 (res_v138 V0)

def res_v167 (V0 : Valuation τ sig (Elt F)) : (⟨S512x128, .f32⟩ : BufTy).Contents (Elt F) :=
  F_v167 (res_v140 V0) (res_v138 V0) (res_v145 V0) (res_v152 V0) (res_v142 V0)

def res_v168 (V0 : Valuation τ sig (Elt F)) : (⟨S512x128, .f32⟩ : BufTy).Contents (Elt F) :=
  F_v168 (res_v167 V0)

def res_v169 (V0 : Valuation τ sig (Elt F)) : (⟨S512x128, .f32⟩ : BufTy).Contents (Elt F) :=
  F_v169 (res_v29 V0) (res_v168 V0)

def res_v182 (V0 : Valuation τ sig (Elt F)) : (⟨S50000x128, .f32⟩ : BufTy).Contents (Elt F) :=
  F_v182 (res_v6 V0) (res_v28 V0) (res_v88 V0) (res_v3 V0)

def res_v190 (V0 : Valuation τ sig (Elt F)) : (⟨S50000x128, .f32⟩ : BufTy).Contents (Elt F) :=
  F_v190 (res_v182 V0) (V0 (Proc.devRef .tc main_arg3)) (V0 (Proc.devRef .tc main_arg4))

def res_v192 (V0 : Valuation τ sig (Elt F)) : (⟨S128, .f32⟩ : BufTy).Contents (Elt F) :=
  F_v192 (V0 (Proc.devRef .tc main_arg5))

def res_v194 (V0 : Valuation τ sig (Elt F)) : (⟨S128, .f32⟩ : BufTy).Contents (Elt F) :=
  F_v194 (V0 (Proc.devRef .tc main_arg6))

def res_v197 (V0 : Valuation τ sig (Elt F)) : (⟨S128, .f32⟩ : BufTy).Contents (Elt F) :=
  F_v197 (res_v190 V0)

def res_v204 (V0 : Valuation τ sig (Elt F)) : (⟨S128, .f32⟩ : BufTy).Contents (Elt F) :=
  F_v204 (res_v190 V0)

def res_v219 (V0 : Valuation τ sig (Elt F)) : (⟨S50000x128, .f32⟩ : BufTy).Contents (Elt F) :=
  F_v219 (res_v192 V0) (res_v190 V0) (res_v197 V0) (res_v204 V0) (res_v194 V0)

def res_v220 (V0 : Valuation τ sig (Elt F)) : (⟨S50000x128, .f32⟩ : BufTy).Contents (Elt F) :=
  F_v220 (res_v219 V0)

def res_v228 (V0 : Valuation τ sig (Elt F)) : (⟨S50000x128, .f32⟩ : BufTy).Contents (Elt F) :=
  F_v228 (res_v220 V0) (res_v169 V0) (V0 (Proc.devRef .tc main_arg2))

def res_v310 (V0 : Valuation τ sig (Elt F)) : (⟨S650000x1, .f32⟩ : BufTy).Contents (Elt F) :=
  F_v310 (res_v28 V0)

def res_v322 (V0 : Valuation τ sig (Elt F)) : (⟨S50000x128, .f32⟩ : BufTy).Contents (Elt F) :=
  F_v322 (res_v6 V0) (res_v310 V0) (res_v228 V0) (res_v3 V0)

def res_v330 (V0 : Valuation τ sig (Elt F)) : (⟨S50000x128, .f32⟩ : BufTy).Contents (Elt F) :=
  F_v330 (res_v322 V0) (V0 (Proc.devRef .tc main_arg3)) (V0 (Proc.devRef .tc main_arg4))

def res_v359 (V0 : Valuation τ sig (Elt F)) : (⟨S50000x128, .f32⟩ : BufTy).Contents (Elt F) :=
  F_v359 (V0 (Proc.devRef .tc main_arg5)) (res_v330 V0) (V0 (Proc.devRef .tc main_arg6))

def res_v360 (V0 : Valuation τ sig (Elt F)) : (⟨S650000x1, .f32⟩ : BufTy).Contents (Elt F) :=
  F_v360 (res_v28 V0)

def res_v361 (V0 : Valuation τ sig (Elt F)) : (⟨S650000, .i32⟩ : BufTy).Contents (Elt F) :=
  F_v361

def res_v377 (V0 : Valuation τ sig (Elt F)) : (⟨S50000x128, .f32⟩ : BufTy).Contents (Elt F) :=
  F_v377 (res_v6 V0) (res_v360 V0) (res_v359 V0) (res_v3 V0) (res_v361 V0)

def res_v395 (V0 : Valuation τ sig (Elt F)) : (⟨S50000x128, .f32⟩ : BufTy).Contents (Elt F) :=
  F_v395 (res_v6 V0) (res_v28 V0) (res_v377 V0) (res_v3 V0) (res_v359 V0)

def res_v408 (V0 : Valuation τ sig (Elt F)) : (⟨S50000x128, .f32⟩ : BufTy).Contents (Elt F) :=
  F_v408 (res_v6 V0) (res_v28 V0) (res_v395 V0) (res_v3 V0)

def res_cst_68 (V0 : Valuation τ sig (Elt F)) : (⟨S_, .f32⟩ : BufTy).Contents (Elt F) :=
  F_cst_68

def res_v413 (V0 : Valuation τ sig (Elt F)) : (⟨S50000x128, .f32⟩ : BufTy).Contents (Elt F) :=
  F_v413 (res_cst_68 V0) (res_v408 V0) (res_v359 V0)

def res_v431 (V0 : Valuation τ sig (Elt F)) : (⟨S50000x128, .f32⟩ : BufTy).Contents (Elt F) :=
  F_v431 (res_v6 V0) (res_v28 V0) (res_v413 V0) (res_v3 V0) (res_v359 V0)

def res_v449 (V0 : Valuation τ sig (Elt F)) : (⟨S50000x128, .f32⟩ : BufTy).Contents (Elt F) :=
  F_v449 (res_v6 V0) (res_v28 V0) (res_v431 V0) (res_v3 V0) (res_v359 V0)

def res_v453 (V0 : Valuation τ sig (Elt F)) : (⟨S512, .f32⟩ : BufTy).Contents (Elt F) :=
  F_v453 (V0 (Proc.devRef .tc main_arg2))

def res_v454 (V0 : Valuation τ sig (Elt F)) : (⟨S512x128, .f32⟩ : BufTy).Contents (Elt F) :=
  F_v454

def res_v456 (V0 : Valuation τ sig (Elt F)) : (⟨S512x128, .f32⟩ : BufTy).Contents (Elt F) :=
  F_v456 (res_v454 V0) (V0 (Proc.devRef .tc main_arg2)) (res_v449 V0)

def res_v461 (V0 : Valuation τ sig (Elt F)) : (⟨S512x128, .f32⟩ : BufTy).Contents (Elt F) :=
  F_v461 (res_v456 V0) (res_v453 V0)

def res_v465 (V0 : Valuation τ sig (Elt F)) : (⟨S512x128, .f32⟩ : BufTy).Contents (Elt F) :=
  F_v465 (res_v461 V0) (V0 (Proc.devRef .tc main_arg16)) (V0 (Proc.devRef .tc main_arg17))

/-! ## The stages by the reference's own names -/

/-- `src`: the edges' sources followed by the self-loops. -/
abbrev src (V0 : Valuation τ sig (Elt F)) : (⟨S650000, .i32⟩ : BufTy).Contents (Elt F) := res_v3 V0
/-- `dst`: the edges' destinations followed by the self-loops. -/
abbrev dst (V0 : Valuation τ sig (Elt F)) : (⟨S650000, .i32⟩ : BufTy).Contents (Elt F) := res_v6 V0
/-- `norm`: the symmetric normalisation `dinv[src] * dinv[dst]`, `dinv` the inverse square root of the in-degree (at least 1). -/
abbrev nrm (V0 : Valuation τ sig (Elt F)) : (⟨S650000, .f32⟩ : BufTy).Contents (Elt F) := res_v28 V0
/-- the virtual node's embedding broadcast to every graph. -/
abbrev vn0 (V0 : Valuation τ sig (Elt F)) : (⟨S512x128, .f32⟩ : BufTy).Contents (Elt F) := res_v29 V0
/-- `prop(x)`: gather at `src`, weight by `norm`, scatter-add at `dst`. -/
abbrev prop0 (V0 : Valuation τ sig (Elt F)) : (⟨S50000x128, .f32⟩ : BufTy).Contents (Elt F) := res_v42 V0
/-- layer 0: the linear map's result. -/
abbrev lin0 (V0 : Valuation τ sig (Elt F)) : (⟨S50000x128, .f32⟩ : BufTy).Contents (Elt F) := res_v50 V0
/-- layer 0: the batch normalisation (batch statistics). -/
abbrev bn0 (V0 : Valuation τ sig (Elt F)) : (⟨S50000x128, .f32⟩ : BufTy).Contents (Elt F) := res_v79 V0
/-- layer 0: the rectifier. -/
abbrev relu0 (V0 : Valuation τ sig (Elt F)) : (⟨S50000x128, .f32⟩ : BufTy).Contents (Elt F) := res_v80 V0
/-- layer 0: the node features plus their graph's virtual node. -/
abbrev h1 (V0 : Valuation τ sig (Elt F)) : (⟨S50000x128, .f32⟩ : BufTy).Contents (Elt F) := res_v88 V0
/-- layer 0: the per-graph sums plus the virtual node. -/
abbrev vt0 (V0 : Valuation τ sig (Elt F)) : (⟨S512x128, .f32⟩ : BufTy).Contents (Elt F) := res_v92 V0
/-- virtual-node update 0, first half: the linear map. -/
abbrev mlpA_lin (V0 : Valuation τ sig (Elt F)) : (⟨S512x256, .f32⟩ : BufTy).Contents (Elt F) := res_v100 V0
/-- virtual-node update 0, first half: the batch normalisation. -/
abbrev mlpA_bn (V0 : Valuation τ sig (Elt F)) : (⟨S512x256, .f32⟩ : BufTy).Contents (Elt F) := res_v129 V0
/-- virtual-node update 0, first half: the rectifier. -/
abbrev mlpA (V0 : Valuation τ sig (Elt F)) : (⟨S512x256, .f32⟩ : BufTy).Contents (Elt F) := res_v130 V0
/-- virtual-node update 0, second half: the linear map. -/
abbrev mlpB_lin (V0 : Valuation τ sig (Elt F)) : (⟨S512x128, .f32⟩ : BufTy).Contents (Elt F) := res_v138 V0
/-- virtual-node update 0, second half: the batch normalisation. -/
abbrev mlpB_bn (V0 : Valuation τ sig (Elt F)) : (⟨S512x128, .f32⟩ : BufTy).Contents (Elt F) := res_v167 V0
/-- virtual-node update 0, second half: the rectifier. -/
abbrev mlpB (V0 : Valuation τ sig (Elt F)) : (⟨S512x128, .f32⟩ : BufTy).Contents (Elt F) := res_v168 V0
/-- the virtual node after update 0. -/
abbrev vn1 (V0 : Valuation τ sig (Elt F)) : (⟨S512x128, .f32⟩ : BufTy).Contents (Elt F) := res_v169 V0
/-- layer 1: the propagation. -/
abbrev prop1 (V0 : Valuation τ sig (Elt F)) : (⟨S50000x128, .f32⟩ : BufTy).Contents (Elt F) := res_v182 V0
/-- layer 1: the linear map's result. -/
abbrev lin1 (V0 : Valuation τ sig (Elt F)) : (⟨S50000x128, .f32⟩ : BufTy).Contents (Elt F) := res_v190 V0
/-- layer 1: the batch normalisation. -/
abbrev bn1 (V0 : Valuation τ sig (Elt F)) : (⟨S50000x128, .f32⟩ : BufTy).Contents (Elt F) := res_v219 V0
/-- layer 1: the rectifier. -/
abbrev relu1 (V0 : Valuation τ sig (Elt F)) : (⟨S50000x128, .f32⟩ : BufTy).Contents (Elt F) := res_v220 V0
/-- layer 1: the node features plus their graph's virtual node. -/
abbrev h2 (V0 : Valuation τ sig (Elt F)) : (⟨S50000x128, .f32⟩ : BufTy).Contents (Elt F) := res_v228 V0
/-- last layer: the propagation. -/
abbrev prop2 (V0 : Valuation τ sig (Elt F)) : (⟨S50000x128, .f32⟩ : BufTy).Contents (Elt F) := res_v322 V0
/-- last layer: the linear map's result. -/
abbrev lin2 (V0 : Valuation τ sig (Elt F)) : (⟨S50000x128, .f32⟩ : BufTy).Contents (Elt F) := res_v330 V0
/-- `h0`: the last layer's batch normalisation, no rectifier. -/
abbrev h0 (V0 : Valuation τ sig (Elt F)) : (⟨S50000x128, .f32⟩ : BufTy).Contents (Elt F) := res_v359 V0
/-- personalised propagation, step 1. -/
abbrev appnp1 (V0 : Valuation τ sig (Elt F)) : (⟨S50000x128, .f32⟩ : BufTy).Contents (Elt F) := res_v377 V0
/-- personalised propagation, step 2. -/
abbrev appnp2 (V0 : Valuation τ sig (Elt F)) : (⟨S50000x128, .f32⟩ : BufTy).Contents (Elt F) := res_v395 V0
/-- personalised propagation, step 3. -/
abbrev appnp3 (V0 : Valuation τ sig (Elt F)) : (⟨S50000x128, .f32⟩ : BufTy).Contents (Elt F) := res_v413 V0
/-- personalised propagation, step 4. -/
abbrev appnp4 (V0 : Valuation τ sig (Elt F)) : (⟨S50000x128, .f32⟩ : BufTy).Contents (Elt F) := res_v431 V0
/-- personalised propagation, step 5. -/
abbrev appnp5 (V0 : Valuation τ sig (Elt F)) : (⟨S50000x128, .f32⟩ : BufTy).Contents (Elt F) := res_v449 V0
/-- the number of nodes of each graph. -/
abbrev cnt (V0 : Valuation τ sig (Elt F)) : (⟨S512, .f32⟩ : BufTy).Contents (Elt F) := res_v453 V0
/-- the per-graph sums of the node features. -/
abbrev poolSum (V0 : Valuation τ sig (Elt F)) : (⟨S512x128, .f32⟩ : BufTy).Contents (Elt F) := res_v456 V0
/-- the per-graph means (the count at least 1). -/
abbrev pooled (V0 : Valuation τ sig (Elt F)) : (⟨S512x128, .f32⟩ : BufTy).Contents (Elt F) := res_v461 V0
/-- the head: the pooled features times `Wout` plus `bout`. -/
abbrev head (V0 : Valuation τ sig (Elt F)) : (⟨S512x128, .f32⟩ : BufTy).Contents (Elt F) := res_v465 V0

/-- The reference's result on device `c` from the memory `m`: the head, of the arguments as `m` holds them there. -/
def refOut (m : (ℓ : Loc nD τ sig) → Buf (Elt F) ℓ) (c : Dev nD) : Buf (Elt F) ((c.tc : Thread nD τ).loc main_v465) :=
  res_v465 (launchContents m c)

end Cert.ReferenceIdeal.RefRun

end
-- ==== Proof.Ref.ValA.lean ====
import proofs.«402460_j82824149336546_1_alg».proof.Proof.Ref.Ops
import proofs.«402460_j82824149336546_1_alg».proof.Proof.Ref.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # Stretches 0 … 11: what each leaves in the arrays later stretches read

From ANY contents `V` of the device's arrays, after the stretch the array holds its stage function of what `V`
holds at the arrays the stretch reads: the fold through the stretch's operations, read at the array. -/

set_option maxRecDepth 8192 in
set_option maxHeartbeats 2000000 in
theorem c0_v0 (V : Valuation τ sig (Elt F)) :
    after ops0 V (Proc.devRef .tc main_v0) = F_v0 := by
  unfold F_v0
  simp only [ops0]
  after_results_simp
  <;> (try simp only [TRef.ofBuf, TRef.toBuf, cast_eq]) <;> rfl

set_option maxRecDepth 8192 in
set_option maxHeartbeats 2000000 in
theorem c0_v2 (V : Valuation τ sig (Elt F)) :
    after ops0 V (Proc.devRef .tc main_v2) = F_v2 (V (Proc.devRef .tc main_arg1)) := by
  unfold F_v2
  simp only [ops0]
  after_results_simp
  <;> (try simp only [TRef.ofBuf, TRef.toBuf, cast_eq]) <;> rfl

set_option maxRecDepth 8192 in
set_option maxHeartbeats 2000000 in
theorem c1_v3 (V : Valuation τ sig (Elt F)) :
    after ops1 V (Proc.devRef .tc main_v3) = F_v3 (V (Proc.devRef .tc main_v2)) (V (Proc.devRef .tc main_v0)) := by
  unfold F_v3
  simp only [ops1]
  after_results_simp
  <;> (try simp only [TRef.ofBuf, TRef.toBuf, cast_eq]) <;> rfl

set_option maxRecDepth 8192 in
set_option maxHeartbeats 2000000 in
theorem c1_v5 (V : Valuation τ sig (Elt F)) :
    after ops1 V (Proc.devRef .tc main_v5) = F_v5 (V (Proc.devRef .tc main_arg1)) := by
  unfold F_v5
  simp only [ops1]
  after_results_simp
  <;> (try simp only [TRef.ofBuf, TRef.toBuf, cast_eq]) <;> rfl

set_option maxRecDepth 8192 in
set_option maxHeartbeats 2000000 in
theorem c2_v6 (V : Valuation τ sig (Elt F)) :
    after ops2 V (Proc.devRef .tc main_v6) = F_v6 (V (Proc.devRef .tc main_v5)) (V (Proc.devRef .tc main_v0)) := by
  unfold F_v6
  simp only [ops2]
  after_results_simp
  <;> (try simp only [TRef.ofBuf, TRef.toBuf, cast_eq]) <;> rfl

set_option maxRecDepth 8192 in
set_option maxHeartbeats 2000000 in
theorem c2_v28 (V : Valuation τ sig (Elt F)) :
    after ops2 V (Proc.devRef .tc main_v28) = F_v28 (V (Proc.devRef .tc main_v5)) (V (Proc.devRef .tc main_v0)) (V (Proc.devRef .tc main_v3)) := by
  unfold F_v28
  simp only [ops2]
  after_results_simp
  <;> (try simp only [TRef.ofBuf, TRef.toBuf, cast_eq]) <;> rfl

set_option maxRecDepth 8192 in
set_option maxHeartbeats 2000000 in
theorem c3_v29 (V : Valuation τ sig (Elt F)) :
    after ops3 V (Proc.devRef .tc main_v29) = F_v29 (V (Proc.devRef .tc main_arg7)) := by
  unfold F_v29
  simp only [ops3]
  after_results_simp
  <;> (try simp only [TRef.ofBuf, TRef.toBuf, cast_eq]) <;> rfl

set_option maxRecDepth 8192 in
set_option maxHeartbeats 2000000 in
theorem c3_v42 (V : Valuation τ sig (Elt F)) :
    after ops3 V (Proc.devRef .tc main_v42) = F_v42 (V (Proc.devRef .tc main_v6)) (V (Proc.devRef .tc main_v28)) (V (Proc.devRef .tc main_arg0)) (V (Proc.devRef .tc main_v3)) := by
  unfold F_v42
  simp only [ops3]
  after_results_simp
  <;> (try simp only [TRef.ofBuf, TRef.toBuf, cast_eq]) <;> rfl

set_option maxRecDepth 8192 in
set_option maxHeartbeats 2000000 in
theorem c4_v45 (V : Valuation τ sig (Elt F)) :
    after ops4 V (Proc.devRef .tc main_v45) = F_v45 (V (Proc.devRef .tc main_v42)) (V (Proc.devRef .tc main_arg3)) := by
  unfold F_v45
  simp only [ops4]
  after_results_simp
  <;> (try simp only [TRef.ofBuf, TRef.toBuf, cast_eq]) <;> rfl

set_option maxRecDepth 8192 in
set_option maxHeartbeats 2000000 in
theorem c4_v49 (V : Valuation τ sig (Elt F)) :
    after ops4 V (Proc.devRef .tc main_v49) = F_v49 (V (Proc.devRef .tc main_arg4)) := by
  unfold F_v49
  simp only [ops4]
  after_results_simp
  <;> (try simp only [TRef.ofBuf, TRef.toBuf, cast_eq]) <;> rfl

set_option maxRecDepth 8192 in
set_option maxHeartbeats 2000000 in
theorem c5_v50 (V : Valuation τ sig (Elt F)) :
    after ops5 V (Proc.devRef .tc main_v50) = F_v50 (V (Proc.devRef .tc main_v45)) (V (Proc.devRef .tc main_v49)) := by
  unfold F_v50
  simp only [ops5]
  after_results_simp
  <;> (try simp only [TRef.ofBuf, TRef.toBuf, cast_eq]) <;> rfl

set_option maxRecDepth 8192 in
set_option maxHeartbeats 2000000 in
theorem c6_v79 (V : Valuation τ sig (Elt F)) :
    after ops6 V (Proc.devRef .tc main_v79) = F_v79 (V (Proc.devRef .tc main_arg5)) (V (Proc.devRef .tc main_v50)) (V (Proc.devRef .tc main_arg6)) := by
  unfold F_v79
  simp only [ops6]
  after_results_simp
  <;> (try simp only [TRef.ofBuf, TRef.toBuf, cast_eq]) <;> rfl

set_option maxRecDepth 8192 in
set_option maxHeartbeats 2000000 in
theorem c7_v80 (V : Valuation τ sig (Elt F)) :
    after ops7 V (Proc.devRef .tc main_v80) = F_v80 (V (Proc.devRef .tc main_v79)) := by
  unfold F_v80
  simp only [ops7]
  after_results_simp
  <;> (try simp only [TRef.ofBuf, TRef.toBuf, cast_eq]) <;> rfl

set_option maxRecDepth 8192 in
set_option maxHeartbeats 2000000 in
theorem c8_v88 (V : Valuation τ sig (Elt F)) :
    after ops8 V (Proc.devRef .tc main_v88) = F_v88 (V (Proc.devRef .tc main_v80)) (V (Proc.devRef .tc main_v29)) (V (Proc.devRef .tc main_arg2)) := by
  unfold F_v88
  simp only [ops8]
  after_results_simp
  <;> (try simp only [TRef.ofBuf, TRef.toBuf, cast_eq]) <;> rfl

set_option maxRecDepth 8192 in
set_option maxHeartbeats 2000000 in
theorem c9_v92 (V : Valuation τ sig (Elt F)) :
    after ops9 V (Proc.devRef .tc main_v92) = F_v92 (V (Proc.devRef .tc main_arg2)) (V (Proc.devRef .tc main_v88)) (V (Proc.devRef .tc main_v29)) := by
  unfold F_v92
  simp only [ops9]
  after_results_simp
  <;> (try simp only [TRef.ofBuf, TRef.toBuf, cast_eq]) <;> rfl

set_option maxRecDepth 8192 in
set_option maxHeartbeats 2000000 in
theorem c10_v100 (V : Valuation τ sig (Elt F)) :
    after ops10 V (Proc.devRef .tc main_v100) = F_v100 (V (Proc.devRef .tc main_v92)) (V (Proc.devRef .tc main_arg8)) (V (Proc.devRef .tc main_arg9)) := by
  unfold F_v100
  simp only [ops10]
  after_results_simp
  <;> (try simp only [TRef.ofBuf, TRef.toBuf, cast_eq]) <;> rfl

set_option maxRecDepth 8192 in
set_option maxHeartbeats 2000000 in
theorem c11_v101 (V : Valuation τ sig (Elt F)) :
    after ops11 V (Proc.devRef .tc main_v101) = F_v101 (V (Proc.devRef .tc main_arg10)) := by
  unfold F_v101
  simp only [ops11]
  after_results_simp
  <;> (try simp only [TRef.ofBuf, TRef.toBuf, cast_eq]) <;> rfl

end Cert.ReferenceIdeal.RefRun

end
-- ==== Proof.Ref.ValB.lean ====
import proofs.«402460_j82824149336546_1_alg».proof.Proof.Ref.Ops
import proofs.«402460_j82824149336546_1_alg».proof.Proof.Ref.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # Stretches 12 … 24: what each leaves in the arrays later stretches read

From ANY contents `V` of the device's arrays, after the stretch the array holds its stage function of what `V`
holds at the arrays the stretch reads: the fold through the stretch's operations, read at the array. -/

set_option maxRecDepth 8192 in
set_option maxHeartbeats 2000000 in
theorem c12_v129 (V : Valuation τ sig (Elt F)) :
    after ops12 V (Proc.devRef .tc main_v129) = F_v129 (V (Proc.devRef .tc main_v101)) (V (Proc.devRef .tc main_v100)) (V (Proc.devRef .tc main_arg11)) := by
  unfold F_v129
  simp only [ops12]
  after_results_simp
  <;> (try simp only [TRef.ofBuf, TRef.toBuf, cast_eq]) <;> rfl

set_option maxRecDepth 8192 in
set_option maxHeartbeats 2000000 in
theorem c13_v130 (V : Valuation τ sig (Elt F)) :
    after ops13 V (Proc.devRef .tc main_v130) = F_v130 (V (Proc.devRef .tc main_v129)) := by
  unfold F_v130
  simp only [ops13]
  after_results_simp
  <;> (try simp only [TRef.ofBuf, TRef.toBuf, cast_eq]) <;> rfl

set_option maxRecDepth 8192 in
set_option maxHeartbeats 2000000 in
theorem c14_v138 (V : Valuation τ sig (Elt F)) :
    after ops14 V (Proc.devRef .tc main_v138) = F_v138 (V (Proc.devRef .tc main_v130)) (V (Proc.devRef .tc main_arg12)) (V (Proc.devRef .tc main_arg13)) := by
  unfold F_v138
  simp only [ops14]
  after_results_simp
  <;> (try simp only [TRef.ofBuf, TRef.toBuf, cast_eq]) <;> rfl

set_option maxRecDepth 8192 in
set_option maxHeartbeats 2000000 in
theorem c15_v140 (V : Valuation τ sig (Elt F)) :
    after ops15 V (Proc.devRef .tc main_v140) = F_v140 (V (Proc.devRef .tc main_arg14)) := by
  unfold F_v140
  simp only [ops15]
  after_results_simp
  <;> (try simp only [TRef.ofBuf, TRef.toBuf, cast_eq]) <;> rfl

set_option maxRecDepth 8192 in
set_option maxHeartbeats 2000000 in
theorem c15_v142 (V : Valuation τ sig (Elt F)) :
    after ops15 V (Proc.devRef .tc main_v142) = F_v142 (V (Proc.devRef .tc main_arg15)) := by
  unfold F_v142
  simp only [ops15]
  after_results_simp
  <;> (try simp only [TRef.ofBuf, TRef.toBuf, cast_eq]) <;> rfl

set_option maxRecDepth 8192 in
set_option maxHeartbeats 2000000 in
theorem c15_v145 (V : Valuation τ sig (Elt F)) :
    after ops15 V (Proc.devRef .tc main_v145) = F_v145 (V (Proc.devRef .tc main_v138)) := by
  unfold F_v145
  simp only [ops15]
  after_results_simp
  <;> (try simp only [TRef.ofBuf, TRef.toBuf, cast_eq]) <;> rfl

set_option maxRecDepth 8192 in
set_option maxHeartbeats 2000000 in
theorem c15_v152 (V : Valuation τ sig (Elt F)) :
    after ops15 V (Proc.devRef .tc main_v152) = F_v152 (V (Proc.devRef .tc main_v138)) := by
  unfold F_v152
  simp only [ops15]
  after_results_simp
  <;> (try simp only [TRef.ofBuf, TRef.toBuf, cast_eq]) <;> rfl

set_option maxRecDepth 8192 in
set_option maxHeartbeats 2000000 in
theorem c16_v167 (V : Valuation τ sig (Elt F)) :
    after ops16 V (Proc.devRef .tc main_v167) = F_v167 (V (Proc.devRef .tc main_v140)) (V (Proc.devRef .tc main_v138)) (V (Proc.devRef .tc main_v145)) (V (Proc.devRef .tc main_v152)) (V (Proc.devRef .tc main_v142)) := by
  unfold F_v167
  simp only [ops16]
  after_results_simp
  <;> (try simp only [TRef.ofBuf, TRef.toBuf, cast_eq]) <;> rfl

set_option maxRecDepth 8192 in
set_option maxHeartbeats 2000000 in
theorem c17_v168 (V : Valuation τ sig (Elt F)) :
    after ops17 V (Proc.devRef .tc main_v168) = F_v168 (V (Proc.devRef .tc main_v167)) := by
  unfold F_v168
  simp only [ops17]
  after_results_simp
  <;> (try simp only [TRef.ofBuf, TRef.toBuf, cast_eq]) <;> rfl

set_option maxRecDepth 8192 in
set_option maxHeartbeats 2000000 in
theorem c18_v169 (V : Valuation τ sig (Elt F)) :
    after ops18 V (Proc.devRef .tc main_v169) = F_v169 (V (Proc.devRef .tc main_v29)) (V (Proc.devRef .tc main_v168)) := by
  unfold F_v169
  simp only [ops18]
  after_results_simp
  <;> (try simp only [TRef.ofBuf, TRef.toBuf, cast_eq]) <;> rfl

set_option maxRecDepth 8192 in
set_option maxHeartbeats 2000000 in
theorem c19_v182 (V : Valuation τ sig (Elt F)) :
    after ops19 V (Proc.devRef .tc main_v182) = F_v182 (V (Proc.devRef .tc main_v6)) (V (Proc.devRef .tc main_v28)) (V (Proc.devRef .tc main_v88)) (V (Proc.devRef .tc main_v3)) := by
  unfold F_v182
  simp only [ops19]
  after_results_simp
  <;> (try simp only [TRef.ofBuf, TRef.toBuf, cast_eq]) <;> rfl

set_option maxRecDepth 8192 in
set_option maxHeartbeats 2000000 in
theorem c20_v190 (V : Valuation τ sig (Elt F)) :
    after ops20 V (Proc.devRef .tc main_v190) = F_v190 (V (Proc.devRef .tc main_v182)) (V (Proc.devRef .tc main_arg3)) (V (Proc.devRef .tc main_arg4)) := by
  unfold F_v190
  simp only [ops20]
  after_results_simp
  <;> (try simp only [TRef.ofBuf, TRef.toBuf, cast_eq]) <;> rfl

set_option maxRecDepth 8192 in
set_option maxHeartbeats 2000000 in
theorem c21_v192 (V : Valuation τ sig (Elt F)) :
    after ops21 V (Proc.devRef .tc main_v192) = F_v192 (V (Proc.devRef .tc main_arg5)) := by
  unfold F_v192
  simp only [ops21]
  after_results_simp
  <;> (try simp only [TRef.ofBuf, TRef.toBuf, cast_eq]) <;> rfl

set_option maxRecDepth 8192 in
set_option maxHeartbeats 2000000 in
theorem c21_v194 (V : Valuation τ sig (Elt F)) :
    after ops21 V (Proc.devRef .tc main_v194) = F_v194 (V (Proc.devRef .tc main_arg6)) := by
  unfold F_v194
  simp only [ops21]
  after_results_simp
  <;> (try simp only [TRef.ofBuf, TRef.toBuf, cast_eq]) <;> rfl

set_option maxRecDepth 8192 in
set_option maxHeartbeats 2000000 in
theorem c21_v197 (V : Valuation τ sig (Elt F)) :
    after ops21 V (Proc.devRef .tc main_v197) = F_v197 (V (Proc.devRef .tc main_v190)) := by
  unfold F_v197
  simp only [ops21]
  after_results_simp
  <;> (try simp only [TRef.ofBuf, TRef.toBuf, cast_eq]) <;> rfl

set_option maxRecDepth 8192 in
set_option maxHeartbeats 2000000 in
theorem c21_v204 (V : Valuation τ sig (Elt F)) :
    after ops21 V (Proc.devRef .tc main_v204) = F_v204 (V (Proc.devRef .tc main_v190)) := by
  unfold F_v204
  simp only [ops21]
  after_results_simp
  <;> (try simp only [TRef.ofBuf, TRef.toBuf, cast_eq]) <;> rfl

set_option maxRecDepth 8192 in
set_option maxHeartbeats 2000000 in
theorem c22_v219 (V : Valuation τ sig (Elt F)) :
    after ops22 V (Proc.devRef .tc main_v219) = F_v219 (V (Proc.devRef .tc main_v192)) (V (Proc.devRef .tc main_v190)) (V (Proc.devRef .tc main_v197)) (V (Proc.devRef .tc main_v204)) (V (Proc.devRef .tc main_v194)) := by
  unfold F_v219
  simp only [ops22]
  after_results_simp
  <;> (try simp only [TRef.ofBuf, TRef.toBuf, cast_eq]) <;> rfl

set_option maxRecDepth 8192 in
set_option maxHeartbeats 2000000 in
theorem c23_v220 (V : Valuation τ sig (Elt F)) :
    after ops23 V (Proc.devRef .tc main_v220) = F_v220 (V (Proc.devRef .tc main_v219)) := by
  unfold F_v220
  simp only [ops23]
  after_results_simp
  <;> (try simp only [TRef.ofBuf, TRef.toBuf, cast_eq]) <;> rfl

set_option maxRecDepth 8192 in
set_option maxHeartbeats 2000000 in
theorem c24_v228 (V : Valuation τ sig (Elt F)) :
    after ops24 V (Proc.devRef .tc main_v228) = F_v228 (V (Proc.devRef .tc main_v220)) (V (Proc.devRef .tc main_v169)) (V (Proc.devRef .tc main_arg2)) := by
  unfold F_v228
  simp only [ops24]
  after_results_simp
  <;> (try simp only [TRef.ofBuf, TRef.toBuf, cast_eq]) <;> rfl

end Cert.ReferenceIdeal.RefRun

end
-- ==== Proof.Ref.ValC.lean ====
import proofs.«402460_j82824149336546_1_alg».proof.Proof.Ref.Ops
import proofs.«402460_j82824149336546_1_alg».proof.Proof.Ref.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # Stretches 27 … 33: what each leaves in the arrays later stretches read

From ANY contents `V` of the device's arrays, after the stretch the array holds its stage function of what `V`
holds at the arrays the stretch reads: the fold through the stretch's operations, read at the array. -/

set_option maxRecDepth 8192 in
set_option maxHeartbeats 2000000 in
theorem c27_v310 (V : Valuation τ sig (Elt F)) :
    after ops27 V (Proc.devRef .tc main_v310) = F_v310 (V (Proc.devRef .tc main_v28)) := by
  unfold F_v310
  simp only [ops27]
  after_results_simp
  <;> (try simp only [TRef.ofBuf, TRef.toBuf, cast_eq]) <;> rfl

set_option maxRecDepth 8192 in
set_option maxHeartbeats 2000000 in
theorem c28_v322 (V : Valuation τ sig (Elt F)) :
    after ops28 V (Proc.devRef .tc main_v322) = F_v322 (V (Proc.devRef .tc main_v6)) (V (Proc.devRef .tc main_v310)) (V (Proc.devRef .tc main_v228)) (V (Proc.devRef .tc main_v3)) := by
  unfold F_v322
  simp only [ops28]
  after_results_simp
  <;> (try simp only [TRef.ofBuf, TRef.toBuf, cast_eq]) <;> rfl

set_option maxRecDepth 8192 in
set_option maxHeartbeats 2000000 in
theorem c29_v330 (V : Valuation τ sig (Elt F)) :
    after ops29 V (Proc.devRef .tc main_v330) = F_v330 (V (Proc.devRef .tc main_v322)) (V (Proc.devRef .tc main_arg3)) (V (Proc.devRef .tc main_arg4)) := by
  unfold F_v330
  simp only [ops29]
  after_results_simp
  <;> (try simp only [TRef.ofBuf, TRef.toBuf, cast_eq]) <;> rfl

set_option maxRecDepth 8192 in
set_option maxHeartbeats 2000000 in
theorem c30_v359 (V : Valuation τ sig (Elt F)) :
    after ops30 V (Proc.devRef .tc main_v359) = F_v359 (V (Proc.devRef .tc main_arg5)) (V (Proc.devRef .tc main_v330)) (V (Proc.devRef .tc main_arg6)) := by
  unfold F_v359
  simp only [ops30]
  after_results_simp
  <;> (try simp only [TRef.ofBuf, TRef.toBuf, cast_eq]) <;> rfl

set_option maxRecDepth 8192 in
set_option maxHeartbeats 2000000 in
theorem c31_v360 (V : Valuation τ sig (Elt F)) :
    after ops31 V (Proc.devRef .tc main_v360) = F_v360 (V (Proc.devRef .tc main_v28)) := by
  unfold F_v360
  simp only [ops31]
  after_results_simp
  <;> (try simp only [TRef.ofBuf, TRef.toBuf, cast_eq]) <;> rfl

set_option maxRecDepth 8192 in
set_option maxHeartbeats 2000000 in
theorem c31_v361 (V : Valuation τ sig (Elt F)) :
    after ops31 V (Proc.devRef .tc main_v361) = F_v361 := by
  unfold F_v361
  simp only [ops31]
  after_results_simp
  <;> (try simp only [TRef.ofBuf, TRef.toBuf, cast_eq]) <;> rfl

set_option maxRecDepth 8192 in
set_option maxHeartbeats 2000000 in
theorem c32_v377 (V : Valuation τ sig (Elt F)) :
    after ops32 V (Proc.devRef .tc main_v377) = F_v377 (V (Proc.devRef .tc main_v6)) (V (Proc.devRef .tc main_v360)) (V (Proc.devRef .tc main_v359)) (V (Proc.devRef .tc main_v3)) (V (Proc.devRef .tc main_v361)) := by
  unfold F_v377
  simp only [ops32]
  after_results_simp
  <;> (try simp only [TRef.ofBuf, TRef.toBuf, cast_eq]) <;> rfl

set_option maxRecDepth 8192 in
set_option maxHeartbeats 2000000 in
theorem c33_v395 (V : Valuation τ sig (Elt F)) :
    after ops33 V (Proc.devRef .tc main_v395) = F_v395 (V (Proc.devRef .tc main_v6)) (V (Proc.devRef .tc main_v28)) (V (Proc.devRef .tc main_v377)) (V (Proc.devRef .tc main_v3)) (V (Proc.devRef .tc main_v359)) := by
  unfold F_v395
  simp only [ops33]
  after_results_simp
  <;> (try simp only [TRef.ofBuf, TRef.toBuf, cast_eq]) <;> rfl

end Cert.ReferenceIdeal.RefRun

end
-- ==== Proof.Ref.ValD.lean ====
import proofs.«402460_j82824149336546_1_alg».proof.Proof.Ref.Ops
import proofs.«402460_j82824149336546_1_alg».proof.Proof.Ref.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # Stretches 34 … 42: what each leaves in the arrays later stretches read

From ANY contents `V` of the device's arrays, after the stretch the array holds its stage function of what `V`
holds at the arrays the stretch reads: the fold through the stretch's operations, read at the array. -/

set_option maxRecDepth 8192 in
set_option maxHeartbeats 2000000 in
theorem c34_v408 (V : Valuation τ sig (Elt F)) :
    after ops34 V (Proc.devRef .tc main_v408) = F_v408 (V (Proc.devRef .tc main_v6)) (V (Proc.devRef .tc main_v28)) (V (Proc.devRef .tc main_v395)) (V (Proc.devRef .tc main_v3)) := by
  unfold F_v408
  simp only [ops34]
  after_results_simp
  <;> (try simp only [TRef.ofBuf, TRef.toBuf, cast_eq]) <;> rfl

set_option maxRecDepth 8192 in
set_option maxHeartbeats 2000000 in
theorem c34_cst_68 (V : Valuation τ sig (Elt F)) :
    after ops34 V (Proc.devRef .tc main_cst_68) = F_cst_68 := by
  unfold F_cst_68
  simp only [ops34]
  after_results_simp
  <;> (try simp only [TRef.ofBuf, TRef.toBuf, cast_eq]) <;> rfl

set_option maxRecDepth 8192 in
set_option maxHeartbeats 2000000 in
theorem c35_v413 (V : Valuation τ sig (Elt F)) :
    after ops35 V (Proc.devRef .tc main_v413) = F_v413 (V (Proc.devRef .tc main_cst_68)) (V (Proc.devRef .tc main_v408)) (V (Proc.devRef .tc main_v359)) := by
  unfold F_v413
  simp only [ops35]
  after_results_simp
  <;> (try simp only [TRef.ofBuf, TRef.toBuf, cast_eq]) <;> rfl

set_option maxRecDepth 8192 in
set_option maxHeartbeats 2000000 in
theorem c36_v431 (V : Valuation τ sig (Elt F)) :
    after ops36 V (Proc.devRef .tc main_v431) = F_v431 (V (Proc.devRef .tc main_v6)) (V (Proc.devRef .tc main_v28)) (V (Proc.devRef .tc main_v413)) (V (Proc.devRef .tc main_v3)) (V (Proc.devRef .tc main_v359)) := by
  unfold F_v431
  simp only [ops36]
  after_results_simp
  <;> (try simp only [TRef.ofBuf, TRef.toBuf, cast_eq]) <;> rfl

set_option maxRecDepth 8192 in
set_option maxHeartbeats 2000000 in
theorem c37_v449 (V : Valuation τ sig (Elt F)) :
    after ops37 V (Proc.devRef .tc main_v449) = F_v449 (V (Proc.devRef .tc main_v6)) (V (Proc.devRef .tc main_v28)) (V (Proc.devRef .tc main_v431)) (V (Proc.devRef .tc main_v3)) (V (Proc.devRef .tc main_v359)) := by
  unfold F_v449
  simp only [ops37]
  after_results_simp
  <;> (try simp only [TRef.ofBuf, TRef.toBuf, cast_eq]) <;> rfl

set_option maxRecDepth 8192 in
set_option maxHeartbeats 2000000 in
theorem c38_v453 (V : Valuation τ sig (Elt F)) :
    after ops38 V (Proc.devRef .tc main_v453) = F_v453 (V (Proc.devRef .tc main_arg2)) := by
  unfold F_v453
  simp only [ops38]
  after_results_simp
  <;> (try simp only [TRef.ofBuf, TRef.toBuf, cast_eq]) <;> rfl

set_option maxRecDepth 8192 in
set_option maxHeartbeats 2000000 in
theorem c39_v454 (V : Valuation τ sig (Elt F)) :
    after ops39 V (Proc.devRef .tc main_v454) = F_v454 := by
  unfold F_v454
  simp only [ops39]
  after_results_simp
  <;> (try simp only [TRef.ofBuf, TRef.toBuf, cast_eq]) <;> rfl

set_option maxRecDepth 8192 in
set_option maxHeartbeats 2000000 in
theorem c40_v456 (V : Valuation τ sig (Elt F)) :
    after ops40 V (Proc.devRef .tc main_v456) = F_v456 (V (Proc.devRef .tc main_v454)) (V (Proc.devRef .tc main_arg2)) (V (Proc.devRef .tc main_v449)) := by
  unfold F_v456
  simp only [ops40]
  after_results_simp
  <;> (try simp only [TRef.ofBuf, TRef.toBuf, cast_eq]) <;> rfl

set_option maxRecDepth 8192 in
set_option maxHeartbeats 2000000 in
theorem c41_v461 (V : Valuation τ sig (Elt F)) :
    after ops41 V (Proc.devRef .tc main_v461) = F_v461 (V (Proc.devRef .tc main_v456)) (V (Proc.devRef .tc main_v453)) := by
  unfold F_v461
  simp only [ops41]
  after_results_simp
  <;> (try simp only [TRef.ofBuf, TRef.toBuf, cast_eq]) <;> rfl

set_option maxRecDepth 8192 in
set_option maxHeartbeats 2000000 in
theorem c42_v465 (V : Valuation τ sig (Elt F)) :
    after ops42 V (Proc.devRef .tc main_v465) = F_v465 (V (Proc.devRef .tc main_v461)) (V (Proc.devRef .tc main_arg16)) (V (Proc.devRef .tc main_arg17)) := by
  unfold F_v465
  simp only [ops42]
  after_results_simp
  <;> (try simp only [TRef.ofBuf, TRef.toBuf, cast_eq]) <;> rfl

end Cert.ReferenceIdeal.RefRun

end
-- ==== Proof.Ref.Run.lean ====
import proofs.«402460_j82824149336546_1_alg».proof.Proof.Ref.Keep
import proofs.«402460_j82824149336546_1_alg».proof.Proof.Ref.Res
import proofs.«402460_j82824149336546_1_alg».proof.Proof.Ref.ValA
import proofs.«402460_j82824149336546_1_alg».proof.Proof.Ref.ValB
import proofs.«402460_j82824149336546_1_alg».proof.Proof.Ref.ValC
import proofs.«402460_j82824149336546_1_alg».proof.Proof.Ref.ValD

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's run

The contents of the device's arrays after the first `k` stretches, `val k`; at each cut, every array a later
stretch still reads (and each of the eighteen arguments) holds its function of the arguments; the whole line's
fold is the last of these; and the run of the main function ends with the result array at `refOut` and the
arguments as they were. -/

def val0 (V0 : Valuation τ sig (Elt F)) : Valuation τ sig (Elt F) := V0
theorem val0_arg0 (V0 : Valuation τ sig (Elt F)) : val0 V0 (Proc.devRef .tc main_arg0) = V0 (Proc.devRef .tc main_arg0) := rfl
theorem val0_arg1 (V0 : Valuation τ sig (Elt F)) : val0 V0 (Proc.devRef .tc main_arg1) = V0 (Proc.devRef .tc main_arg1) := rfl
theorem val0_arg2 (V0 : Valuation τ sig (Elt F)) : val0 V0 (Proc.devRef .tc main_arg2) = V0 (Proc.devRef .tc main_arg2) := rfl
theorem val0_arg3 (V0 : Valuation τ sig (Elt F)) : val0 V0 (Proc.devRef .tc main_arg3) = V0 (Proc.devRef .tc main_arg3) := rfl
theorem val0_arg4 (V0 : Valuation τ sig (Elt F)) : val0 V0 (Proc.devRef .tc main_arg4) = V0 (Proc.devRef .tc main_arg4) := rfl
theorem val0_arg5 (V0 : Valuation τ sig (Elt F)) : val0 V0 (Proc.devRef .tc main_arg5) = V0 (Proc.devRef .tc main_arg5) := rfl
theorem val0_arg6 (V0 : Valuation τ sig (Elt F)) : val0 V0 (Proc.devRef .tc main_arg6) = V0 (Proc.devRef .tc main_arg6) := rfl
theorem val0_arg7 (V0 : Valuation τ sig (Elt F)) : val0 V0 (Proc.devRef .tc main_arg7) = V0 (Proc.devRef .tc main_arg7) := rfl
theorem val0_arg8 (V0 : Valuation τ sig (Elt F)) : val0 V0 (Proc.devRef .tc main_arg8) = V0 (Proc.devRef .tc main_arg8) := rfl
theorem val0_arg9 (V0 : Valuation τ sig (Elt F)) : val0 V0 (Proc.devRef .tc main_arg9) = V0 (Proc.devRef .tc main_arg9) := rfl
theorem val0_arg10 (V0 : Valuation τ sig (Elt F)) : val0 V0 (Proc.devRef .tc main_arg10) = V0 (Proc.devRef .tc main_arg10) := rfl
theorem val0_arg11 (V0 : Valuation τ sig (Elt F)) : val0 V0 (Proc.devRef .tc main_arg11) = V0 (Proc.devRef .tc main_arg11) := rfl
theorem val0_arg12 (V0 : Valuation τ sig (Elt F)) : val0 V0 (Proc.devRef .tc main_arg12) = V0 (Proc.devRef .tc main_arg12) := rfl
theorem val0_arg13 (V0 : Valuation τ sig (Elt F)) : val0 V0 (Proc.devRef .tc main_arg13) = V0 (Proc.devRef .tc main_arg13) := rfl
theorem val0_arg14 (V0 : Valuation τ sig (Elt F)) : val0 V0 (Proc.devRef .tc main_arg14) = V0 (Proc.devRef .tc main_arg14) := rfl
theorem val0_arg15 (V0 : Valuation τ sig (Elt F)) : val0 V0 (Proc.devRef .tc main_arg15) = V0 (Proc.devRef .tc main_arg15) := rfl
theorem val0_arg16 (V0 : Valuation τ sig (Elt F)) : val0 V0 (Proc.devRef .tc main_arg16) = V0 (Proc.devRef .tc main_arg16) := rfl
theorem val0_arg17 (V0 : Valuation τ sig (Elt F)) : val0 V0 (Proc.devRef .tc main_arg17) = V0 (Proc.devRef .tc main_arg17) := rfl

/-- The arrays after stretches 0 … 0. -/
def val1 (V0 : Valuation τ sig (Elt F)) : Valuation τ sig (Elt F) := after ops0 (val0 V0)
theorem val1_arg0 (V0 : Valuation τ sig (Elt F)) : val1 V0 (Proc.devRef .tc main_arg0) = V0 (Proc.devRef .tc main_arg0) :=
  (keep0 (val0 V0) main_arg0 (by decide)).trans (val0_arg0 V0)
theorem val1_arg1 (V0 : Valuation τ sig (Elt F)) : val1 V0 (Proc.devRef .tc main_arg1) = V0 (Proc.devRef .tc main_arg1) :=
  (keep0 (val0 V0) main_arg1 (by decide)).trans (val0_arg1 V0)
theorem val1_arg2 (V0 : Valuation τ sig (Elt F)) : val1 V0 (Proc.devRef .tc main_arg2) = V0 (Proc.devRef .tc main_arg2) :=
  (keep0 (val0 V0) main_arg2 (by decide)).trans (val0_arg2 V0)
theorem val1_arg3 (V0 : Valuation τ sig (Elt F)) : val1 V0 (Proc.devRef .tc main_arg3) = V0 (Proc.devRef .tc main_arg3) :=
  (keep0 (val0 V0) main_arg3 (by decide)).trans (val0_arg3 V0)
theorem val1_arg4 (V0 : Valuation τ sig (Elt F)) : val1 V0 (Proc.devRef .tc main_arg4) = V0 (Proc.devRef .tc main_arg4) :=
  (keep0 (val0 V0) main_arg4 (by decide)).trans (val0_arg4 V0)
theorem val1_arg5 (V0 : Valuation τ sig (Elt F)) : val1 V0 (Proc.devRef .tc main_arg5) = V0 (Proc.devRef .tc main_arg5) :=
  (keep0 (val0 V0) main_arg5 (by decide)).trans (val0_arg5 V0)
theorem val1_arg6 (V0 : Valuation τ sig (Elt F)) : val1 V0 (Proc.devRef .tc main_arg6) = V0 (Proc.devRef .tc main_arg6) :=
  (keep0 (val0 V0) main_arg6 (by decide)).trans (val0_arg6 V0)
theorem val1_arg7 (V0 : Valuation τ sig (Elt F)) : val1 V0 (Proc.devRef .tc main_arg7) = V0 (Proc.devRef .tc main_arg7) :=
  (keep0 (val0 V0) main_arg7 (by decide)).trans (val0_arg7 V0)
theorem val1_arg8 (V0 : Valuation τ sig (Elt F)) : val1 V0 (Proc.devRef .tc main_arg8) = V0 (Proc.devRef .tc main_arg8) :=
  (keep0 (val0 V0) main_arg8 (by decide)).trans (val0_arg8 V0)
theorem val1_arg9 (V0 : Valuation τ sig (Elt F)) : val1 V0 (Proc.devRef .tc main_arg9) = V0 (Proc.devRef .tc main_arg9) :=
  (keep0 (val0 V0) main_arg9 (by decide)).trans (val0_arg9 V0)
theorem val1_arg10 (V0 : Valuation τ sig (Elt F)) : val1 V0 (Proc.devRef .tc main_arg10) = V0 (Proc.devRef .tc main_arg10) :=
  (keep0 (val0 V0) main_arg10 (by decide)).trans (val0_arg10 V0)
theorem val1_arg11 (V0 : Valuation τ sig (Elt F)) : val1 V0 (Proc.devRef .tc main_arg11) = V0 (Proc.devRef .tc main_arg11) :=
  (keep0 (val0 V0) main_arg11 (by decide)).trans (val0_arg11 V0)
theorem val1_arg12 (V0 : Valuation τ sig (Elt F)) : val1 V0 (Proc.devRef .tc main_arg12) = V0 (Proc.devRef .tc main_arg12) :=
  (keep0 (val0 V0) main_arg12 (by decide)).trans (val0_arg12 V0)
theorem val1_arg13 (V0 : Valuation τ sig (Elt F)) : val1 V0 (Proc.devRef .tc main_arg13) = V0 (Proc.devRef .tc main_arg13) :=
  (keep0 (val0 V0) main_arg13 (by decide)).trans (val0_arg13 V0)
theorem val1_arg14 (V0 : Valuation τ sig (Elt F)) : val1 V0 (Proc.devRef .tc main_arg14) = V0 (Proc.devRef .tc main_arg14) :=
  (keep0 (val0 V0) main_arg14 (by decide)).trans (val0_arg14 V0)
theorem val1_arg15 (V0 : Valuation τ sig (Elt F)) : val1 V0 (Proc.devRef .tc main_arg15) = V0 (Proc.devRef .tc main_arg15) :=
  (keep0 (val0 V0) main_arg15 (by decide)).trans (val0_arg15 V0)
theorem val1_arg16 (V0 : Valuation τ sig (Elt F)) : val1 V0 (Proc.devRef .tc main_arg16) = V0 (Proc.devRef .tc main_arg16) :=
  (keep0 (val0 V0) main_arg16 (by decide)).trans (val0_arg16 V0)
theorem val1_arg17 (V0 : Valuation τ sig (Elt F)) : val1 V0 (Proc.devRef .tc main_arg17) = V0 (Proc.devRef .tc main_arg17) :=
  (keep0 (val0 V0) main_arg17 (by decide)).trans (val0_arg17 V0)
theorem val1_v0 (V0 : Valuation τ sig (Elt F)) : val1 V0 (Proc.devRef .tc main_v0) = res_v0 V0 :=
  (c0_v0 (val0 V0)).trans (by rw [res_v0])
theorem val1_v2 (V0 : Valuation τ sig (Elt F)) : val1 V0 (Proc.devRef .tc main_v2) = res_v2 V0 :=
  (c0_v2 (val0 V0)).trans (by rw [val0_arg1, res_v2])

/-- The arrays after stretches 0 … 1. -/
def val2 (V0 : Valuation τ sig (Elt F)) : Valuation τ sig (Elt F) := after ops1 (val1 V0)
theorem val2_arg0 (V0 : Valuation τ sig (Elt F)) : val2 V0 (Proc.devRef .tc main_arg0) = V0 (Proc.devRef .tc main_arg0) :=
  (keep1 (val1 V0) main_arg0 (by decide)).trans (val1_arg0 V0)
theorem val2_arg1 (V0 : Valuation τ sig (Elt F)) : val2 V0 (Proc.devRef .tc main_arg1) = V0 (Proc.devRef .tc main_arg1) :=
  (keep1 (val1 V0) main_arg1 (by decide)).trans (val1_arg1 V0)
theorem val2_arg2 (V0 : Valuation τ sig (Elt F)) : val2 V0 (Proc.devRef .tc main_arg2) = V0 (Proc.devRef .tc main_arg2) :=
  (keep1 (val1 V0) main_arg2 (by decide)).trans (val1_arg2 V0)
theorem val2_arg3 (V0 : Valuation τ sig (Elt F)) : val2 V0 (Proc.devRef .tc main_arg3) = V0 (Proc.devRef .tc main_arg3) :=
  (keep1 (val1 V0) main_arg3 (by decide)).trans (val1_arg3 V0)
theorem val2_arg4 (V0 : Valuation τ sig (Elt F)) : val2 V0 (Proc.devRef .tc main_arg4) = V0 (Proc.devRef .tc main_arg4) :=
  (keep1 (val1 V0) main_arg4 (by decide)).trans (val1_arg4 V0)
theorem val2_arg5 (V0 : Valuation τ sig (Elt F)) : val2 V0 (Proc.devRef .tc main_arg5) = V0 (Proc.devRef .tc main_arg5) :=
  (keep1 (val1 V0) main_arg5 (by decide)).trans (val1_arg5 V0)
theorem val2_arg6 (V0 : Valuation τ sig (Elt F)) : val2 V0 (Proc.devRef .tc main_arg6) = V0 (Proc.devRef .tc main_arg6) :=
  (keep1 (val1 V0) main_arg6 (by decide)).trans (val1_arg6 V0)
theorem val2_arg7 (V0 : Valuation τ sig (Elt F)) : val2 V0 (Proc.devRef .tc main_arg7) = V0 (Proc.devRef .tc main_arg7) :=
  (keep1 (val1 V0) main_arg7 (by decide)).trans (val1_arg7 V0)
theorem val2_arg8 (V0 : Valuation τ sig (Elt F)) : val2 V0 (Proc.devRef .tc main_arg8) = V0 (Proc.devRef .tc main_arg8) :=
  (keep1 (val1 V0) main_arg8 (by decide)).trans (val1_arg8 V0)
theorem val2_arg9 (V0 : Valuation τ sig (Elt F)) : val2 V0 (Proc.devRef .tc main_arg9) = V0 (Proc.devRef .tc main_arg9) :=
  (keep1 (val1 V0) main_arg9 (by decide)).trans (val1_arg9 V0)
theorem val2_arg10 (V0 : Valuation τ sig (Elt F)) : val2 V0 (Proc.devRef .tc main_arg10) = V0 (Proc.devRef .tc main_arg10) :=
  (keep1 (val1 V0) main_arg10 (by decide)).trans (val1_arg10 V0)
theorem val2_arg11 (V0 : Valuation τ sig (Elt F)) : val2 V0 (Proc.devRef .tc main_arg11) = V0 (Proc.devRef .tc main_arg11) :=
  (keep1 (val1 V0) main_arg11 (by decide)).trans (val1_arg11 V0)
theorem val2_arg12 (V0 : Valuation τ sig (Elt F)) : val2 V0 (Proc.devRef .tc main_arg12) = V0 (Proc.devRef .tc main_arg12) :=
  (keep1 (val1 V0) main_arg12 (by decide)).trans (val1_arg12 V0)
theorem val2_arg13 (V0 : Valuation τ sig (Elt F)) : val2 V0 (Proc.devRef .tc main_arg13) = V0 (Proc.devRef .tc main_arg13) :=
  (keep1 (val1 V0) main_arg13 (by decide)).trans (val1_arg13 V0)
theorem val2_arg14 (V0 : Valuation τ sig (Elt F)) : val2 V0 (Proc.devRef .tc main_arg14) = V0 (Proc.devRef .tc main_arg14) :=
  (keep1 (val1 V0) main_arg14 (by decide)).trans (val1_arg14 V0)
theorem val2_arg15 (V0 : Valuation τ sig (Elt F)) : val2 V0 (Proc.devRef .tc main_arg15) = V0 (Proc.devRef .tc main_arg15) :=
  (keep1 (val1 V0) main_arg15 (by decide)).trans (val1_arg15 V0)
theorem val2_arg16 (V0 : Valuation τ sig (Elt F)) : val2 V0 (Proc.devRef .tc main_arg16) = V0 (Proc.devRef .tc main_arg16) :=
  (keep1 (val1 V0) main_arg16 (by decide)).trans (val1_arg16 V0)
theorem val2_arg17 (V0 : Valuation τ sig (Elt F)) : val2 V0 (Proc.devRef .tc main_arg17) = V0 (Proc.devRef .tc main_arg17) :=
  (keep1 (val1 V0) main_arg17 (by decide)).trans (val1_arg17 V0)
theorem val2_v0 (V0 : Valuation τ sig (Elt F)) : val2 V0 (Proc.devRef .tc main_v0) = res_v0 V0 :=
  (keep1 (val1 V0) main_v0 (by decide)).trans (val1_v0 V0)
theorem val2_v3 (V0 : Valuation τ sig (Elt F)) : val2 V0 (Proc.devRef .tc main_v3) = res_v3 V0 :=
  (c1_v3 (val1 V0)).trans (by rw [val1_v2, val1_v0, res_v3])
theorem val2_v5 (V0 : Valuation τ sig (Elt F)) : val2 V0 (Proc.devRef .tc main_v5) = res_v5 V0 :=
  (c1_v5 (val1 V0)).trans (by rw [val1_arg1, res_v5])

/-- The arrays after stretches 0 … 2. -/
def val3 (V0 : Valuation τ sig (Elt F)) : Valuation τ sig (Elt F) := after ops2 (val2 V0)
theorem val3_arg0 (V0 : Valuation τ sig (Elt F)) : val3 V0 (Proc.devRef .tc main_arg0) = V0 (Proc.devRef .tc main_arg0) :=
  (keep2 (val2 V0) main_arg0 (by decide)).trans (val2_arg0 V0)
theorem val3_arg1 (V0 : Valuation τ sig (Elt F)) : val3 V0 (Proc.devRef .tc main_arg1) = V0 (Proc.devRef .tc main_arg1) :=
  (keep2 (val2 V0) main_arg1 (by decide)).trans (val2_arg1 V0)
theorem val3_arg2 (V0 : Valuation τ sig (Elt F)) : val3 V0 (Proc.devRef .tc main_arg2) = V0 (Proc.devRef .tc main_arg2) :=
  (keep2 (val2 V0) main_arg2 (by decide)).trans (val2_arg2 V0)
theorem val3_arg3 (V0 : Valuation τ sig (Elt F)) : val3 V0 (Proc.devRef .tc main_arg3) = V0 (Proc.devRef .tc main_arg3) :=
  (keep2 (val2 V0) main_arg3 (by decide)).trans (val2_arg3 V0)
theorem val3_arg4 (V0 : Valuation τ sig (Elt F)) : val3 V0 (Proc.devRef .tc main_arg4) = V0 (Proc.devRef .tc main_arg4) :=
  (keep2 (val2 V0) main_arg4 (by decide)).trans (val2_arg4 V0)
theorem val3_arg5 (V0 : Valuation τ sig (Elt F)) : val3 V0 (Proc.devRef .tc main_arg5) = V0 (Proc.devRef .tc main_arg5) :=
  (keep2 (val2 V0) main_arg5 (by decide)).trans (val2_arg5 V0)
theorem val3_arg6 (V0 : Valuation τ sig (Elt F)) : val3 V0 (Proc.devRef .tc main_arg6) = V0 (Proc.devRef .tc main_arg6) :=
  (keep2 (val2 V0) main_arg6 (by decide)).trans (val2_arg6 V0)
theorem val3_arg7 (V0 : Valuation τ sig (Elt F)) : val3 V0 (Proc.devRef .tc main_arg7) = V0 (Proc.devRef .tc main_arg7) :=
  (keep2 (val2 V0) main_arg7 (by decide)).trans (val2_arg7 V0)
theorem val3_arg8 (V0 : Valuation τ sig (Elt F)) : val3 V0 (Proc.devRef .tc main_arg8) = V0 (Proc.devRef .tc main_arg8) :=
  (keep2 (val2 V0) main_arg8 (by decide)).trans (val2_arg8 V0)
theorem val3_arg9 (V0 : Valuation τ sig (Elt F)) : val3 V0 (Proc.devRef .tc main_arg9) = V0 (Proc.devRef .tc main_arg9) :=
  (keep2 (val2 V0) main_arg9 (by decide)).trans (val2_arg9 V0)
theorem val3_arg10 (V0 : Valuation τ sig (Elt F)) : val3 V0 (Proc.devRef .tc main_arg10) = V0 (Proc.devRef .tc main_arg10) :=
  (keep2 (val2 V0) main_arg10 (by decide)).trans (val2_arg10 V0)
theorem val3_arg11 (V0 : Valuation τ sig (Elt F)) : val3 V0 (Proc.devRef .tc main_arg11) = V0 (Proc.devRef .tc main_arg11) :=
  (keep2 (val2 V0) main_arg11 (by decide)).trans (val2_arg11 V0)
theorem val3_arg12 (V0 : Valuation τ sig (Elt F)) : val3 V0 (Proc.devRef .tc main_arg12) = V0 (Proc.devRef .tc main_arg12) :=
  (keep2 (val2 V0) main_arg12 (by decide)).trans (val2_arg12 V0)
theorem val3_arg13 (V0 : Valuation τ sig (Elt F)) : val3 V0 (Proc.devRef .tc main_arg13) = V0 (Proc.devRef .tc main_arg13) :=
  (keep2 (val2 V0) main_arg13 (by decide)).trans (val2_arg13 V0)
theorem val3_arg14 (V0 : Valuation τ sig (Elt F)) : val3 V0 (Proc.devRef .tc main_arg14) = V0 (Proc.devRef .tc main_arg14) :=
  (keep2 (val2 V0) main_arg14 (by decide)).trans (val2_arg14 V0)
theorem val3_arg15 (V0 : Valuation τ sig (Elt F)) : val3 V0 (Proc.devRef .tc main_arg15) = V0 (Proc.devRef .tc main_arg15) :=
  (keep2 (val2 V0) main_arg15 (by decide)).trans (val2_arg15 V0)
theorem val3_arg16 (V0 : Valuation τ sig (Elt F)) : val3 V0 (Proc.devRef .tc main_arg16) = V0 (Proc.devRef .tc main_arg16) :=
  (keep2 (val2 V0) main_arg16 (by decide)).trans (val2_arg16 V0)
theorem val3_arg17 (V0 : Valuation τ sig (Elt F)) : val3 V0 (Proc.devRef .tc main_arg17) = V0 (Proc.devRef .tc main_arg17) :=
  (keep2 (val2 V0) main_arg17 (by decide)).trans (val2_arg17 V0)
theorem val3_v3 (V0 : Valuation τ sig (Elt F)) : val3 V0 (Proc.devRef .tc main_v3) = res_v3 V0 :=
  (keep2 (val2 V0) main_v3 (by decide)).trans (val2_v3 V0)
theorem val3_v6 (V0 : Valuation τ sig (Elt F)) : val3 V0 (Proc.devRef .tc main_v6) = res_v6 V0 :=
  (c2_v6 (val2 V0)).trans (by rw [val2_v5, val2_v0, res_v6])
theorem val3_v28 (V0 : Valuation τ sig (Elt F)) : val3 V0 (Proc.devRef .tc main_v28) = res_v28 V0 :=
  (c2_v28 (val2 V0)).trans (by rw [val2_v5, val2_v0, val2_v3, res_v28])

/-- The arrays after stretches 0 … 3. -/
def val4 (V0 : Valuation τ sig (Elt F)) : Valuation τ sig (Elt F) := after ops3 (val3 V0)
theorem val4_arg0 (V0 : Valuation τ sig (Elt F)) : val4 V0 (Proc.devRef .tc main_arg0) = V0 (Proc.devRef .tc main_arg0) :=
  (keep3 (val3 V0) main_arg0 (by decide)).trans (val3_arg0 V0)
theorem val4_arg1 (V0 : Valuation τ sig (Elt F)) : val4 V0 (Proc.devRef .tc main_arg1) = V0 (Proc.devRef .tc main_arg1) :=
  (keep3 (val3 V0) main_arg1 (by decide)).trans (val3_arg1 V0)
theorem val4_arg2 (V0 : Valuation τ sig (Elt F)) : val4 V0 (Proc.devRef .tc main_arg2) = V0 (Proc.devRef .tc main_arg2) :=
  (keep3 (val3 V0) main_arg2 (by decide)).trans (val3_arg2 V0)
theorem val4_arg3 (V0 : Valuation τ sig (Elt F)) : val4 V0 (Proc.devRef .tc main_arg3) = V0 (Proc.devRef .tc main_arg3) :=
  (keep3 (val3 V0) main_arg3 (by decide)).trans (val3_arg3 V0)
theorem val4_arg4 (V0 : Valuation τ sig (Elt F)) : val4 V0 (Proc.devRef .tc main_arg4) = V0 (Proc.devRef .tc main_arg4) :=
  (keep3 (val3 V0) main_arg4 (by decide)).trans (val3_arg4 V0)
theorem val4_arg5 (V0 : Valuation τ sig (Elt F)) : val4 V0 (Proc.devRef .tc main_arg5) = V0 (Proc.devRef .tc main_arg5) :=
  (keep3 (val3 V0) main_arg5 (by decide)).trans (val3_arg5 V0)
theorem val4_arg6 (V0 : Valuation τ sig (Elt F)) : val4 V0 (Proc.devRef .tc main_arg6) = V0 (Proc.devRef .tc main_arg6) :=
  (keep3 (val3 V0) main_arg6 (by decide)).trans (val3_arg6 V0)
theorem val4_arg7 (V0 : Valuation τ sig (Elt F)) : val4 V0 (Proc.devRef .tc main_arg7) = V0 (Proc.devRef .tc main_arg7) :=
  (keep3 (val3 V0) main_arg7 (by decide)).trans (val3_arg7 V0)
theorem val4_arg8 (V0 : Valuation τ sig (Elt F)) : val4 V0 (Proc.devRef .tc main_arg8) = V0 (Proc.devRef .tc main_arg8) :=
  (keep3 (val3 V0) main_arg8 (by decide)).trans (val3_arg8 V0)
theorem val4_arg9 (V0 : Valuation τ sig (Elt F)) : val4 V0 (Proc.devRef .tc main_arg9) = V0 (Proc.devRef .tc main_arg9) :=
  (keep3 (val3 V0) main_arg9 (by decide)).trans (val3_arg9 V0)
theorem val4_arg10 (V0 : Valuation τ sig (Elt F)) : val4 V0 (Proc.devRef .tc main_arg10) = V0 (Proc.devRef .tc main_arg10) :=
  (keep3 (val3 V0) main_arg10 (by decide)).trans (val3_arg10 V0)
theorem val4_arg11 (V0 : Valuation τ sig (Elt F)) : val4 V0 (Proc.devRef .tc main_arg11) = V0 (Proc.devRef .tc main_arg11) :=
  (keep3 (val3 V0) main_arg11 (by decide)).trans (val3_arg11 V0)
theorem val4_arg12 (V0 : Valuation τ sig (Elt F)) : val4 V0 (Proc.devRef .tc main_arg12) = V0 (Proc.devRef .tc main_arg12) :=
  (keep3 (val3 V0) main_arg12 (by decide)).trans (val3_arg12 V0)
theorem val4_arg13 (V0 : Valuation τ sig (Elt F)) : val4 V0 (Proc.devRef .tc main_arg13) = V0 (Proc.devRef .tc main_arg13) :=
  (keep3 (val3 V0) main_arg13 (by decide)).trans (val3_arg13 V0)
theorem val4_arg14 (V0 : Valuation τ sig (Elt F)) : val4 V0 (Proc.devRef .tc main_arg14) = V0 (Proc.devRef .tc main_arg14) :=
  (keep3 (val3 V0) main_arg14 (by decide)).trans (val3_arg14 V0)
theorem val4_arg15 (V0 : Valuation τ sig (Elt F)) : val4 V0 (Proc.devRef .tc main_arg15) = V0 (Proc.devRef .tc main_arg15) :=
  (keep3 (val3 V0) main_arg15 (by decide)).trans (val3_arg15 V0)
theorem val4_arg16 (V0 : Valuation τ sig (Elt F)) : val4 V0 (Proc.devRef .tc main_arg16) = V0 (Proc.devRef .tc main_arg16) :=
  (keep3 (val3 V0) main_arg16 (by decide)).trans (val3_arg16 V0)
theorem val4_arg17 (V0 : Valuation τ sig (Elt F)) : val4 V0 (Proc.devRef .tc main_arg17) = V0 (Proc.devRef .tc main_arg17) :=
  (keep3 (val3 V0) main_arg17 (by decide)).trans (val3_arg17 V0)
theorem val4_v3 (V0 : Valuation τ sig (Elt F)) : val4 V0 (Proc.devRef .tc main_v3) = res_v3 V0 :=
  (keep3 (val3 V0) main_v3 (by decide)).trans (val3_v3 V0)
theorem val4_v6 (V0 : Valuation τ sig (Elt F)) : val4 V0 (Proc.devRef .tc main_v6) = res_v6 V0 :=
  (keep3 (val3 V0) main_v6 (by decide)).trans (val3_v6 V0)
theorem val4_v28 (V0 : Valuation τ sig (Elt F)) : val4 V0 (Proc.devRef .tc main_v28) = res_v28 V0 :=
  (keep3 (val3 V0) main_v28 (by decide)).trans (val3_v28 V0)
theorem val4_v29 (V0 : Valuation τ sig (Elt F)) : val4 V0 (Proc.devRef .tc main_v29) = res_v29 V0 :=
  (c3_v29 (val3 V0)).trans (by rw [val3_arg7, res_v29])
theorem val4_v42 (V0 : Valuation τ sig (Elt F)) : val4 V0 (Proc.devRef .tc main_v42) = res_v42 V0 :=
  (c3_v42 (val3 V0)).trans (by rw [val3_v6, val3_v28, val3_arg0, val3_v3, res_v42])

/-- The arrays after stretches 0 … 4. -/
def val5 (V0 : Valuation τ sig (Elt F)) : Valuation τ sig (Elt F) := after ops4 (val4 V0)
theorem val5_arg0 (V0 : Valuation τ sig (Elt F)) : val5 V0 (Proc.devRef .tc main_arg0) = V0 (Proc.devRef .tc main_arg0) :=
  (keep4 (val4 V0) main_arg0 (by decide)).trans (val4_arg0 V0)
theorem val5_arg1 (V0 : Valuation τ sig (Elt F)) : val5 V0 (Proc.devRef .tc main_arg1) = V0 (Proc.devRef .tc main_arg1) :=
  (keep4 (val4 V0) main_arg1 (by decide)).trans (val4_arg1 V0)
theorem val5_arg2 (V0 : Valuation τ sig (Elt F)) : val5 V0 (Proc.devRef .tc main_arg2) = V0 (Proc.devRef .tc main_arg2) :=
  (keep4 (val4 V0) main_arg2 (by decide)).trans (val4_arg2 V0)
theorem val5_arg3 (V0 : Valuation τ sig (Elt F)) : val5 V0 (Proc.devRef .tc main_arg3) = V0 (Proc.devRef .tc main_arg3) :=
  (keep4 (val4 V0) main_arg3 (by decide)).trans (val4_arg3 V0)
theorem val5_arg4 (V0 : Valuation τ sig (Elt F)) : val5 V0 (Proc.devRef .tc main_arg4) = V0 (Proc.devRef .tc main_arg4) :=
  (keep4 (val4 V0) main_arg4 (by decide)).trans (val4_arg4 V0)
theorem val5_arg5 (V0 : Valuation τ sig (Elt F)) : val5 V0 (Proc.devRef .tc main_arg5) = V0 (Proc.devRef .tc main_arg5) :=
  (keep4 (val4 V0) main_arg5 (by decide)).trans (val4_arg5 V0)
theorem val5_arg6 (V0 : Valuation τ sig (Elt F)) : val5 V0 (Proc.devRef .tc main_arg6) = V0 (Proc.devRef .tc main_arg6) :=
  (keep4 (val4 V0) main_arg6 (by decide)).trans (val4_arg6 V0)
theorem val5_arg7 (V0 : Valuation τ sig (Elt F)) : val5 V0 (Proc.devRef .tc main_arg7) = V0 (Proc.devRef .tc main_arg7) :=
  (keep4 (val4 V0) main_arg7 (by decide)).trans (val4_arg7 V0)
theorem val5_arg8 (V0 : Valuation τ sig (Elt F)) : val5 V0 (Proc.devRef .tc main_arg8) = V0 (Proc.devRef .tc main_arg8) :=
  (keep4 (val4 V0) main_arg8 (by decide)).trans (val4_arg8 V0)
theorem val5_arg9 (V0 : Valuation τ sig (Elt F)) : val5 V0 (Proc.devRef .tc main_arg9) = V0 (Proc.devRef .tc main_arg9) :=
  (keep4 (val4 V0) main_arg9 (by decide)).trans (val4_arg9 V0)
theorem val5_arg10 (V0 : Valuation τ sig (Elt F)) : val5 V0 (Proc.devRef .tc main_arg10) = V0 (Proc.devRef .tc main_arg10) :=
  (keep4 (val4 V0) main_arg10 (by decide)).trans (val4_arg10 V0)
theorem val5_arg11 (V0 : Valuation τ sig (Elt F)) : val5 V0 (Proc.devRef .tc main_arg11) = V0 (Proc.devRef .tc main_arg11) :=
  (keep4 (val4 V0) main_arg11 (by decide)).trans (val4_arg11 V0)
theorem val5_arg12 (V0 : Valuation τ sig (Elt F)) : val5 V0 (Proc.devRef .tc main_arg12) = V0 (Proc.devRef .tc main_arg12) :=
  (keep4 (val4 V0) main_arg12 (by decide)).trans (val4_arg12 V0)
theorem val5_arg13 (V0 : Valuation τ sig (Elt F)) : val5 V0 (Proc.devRef .tc main_arg13) = V0 (Proc.devRef .tc main_arg13) :=
  (keep4 (val4 V0) main_arg13 (by decide)).trans (val4_arg13 V0)
theorem val5_arg14 (V0 : Valuation τ sig (Elt F)) : val5 V0 (Proc.devRef .tc main_arg14) = V0 (Proc.devRef .tc main_arg14) :=
  (keep4 (val4 V0) main_arg14 (by decide)).trans (val4_arg14 V0)
theorem val5_arg15 (V0 : Valuation τ sig (Elt F)) : val5 V0 (Proc.devRef .tc main_arg15) = V0 (Proc.devRef .tc main_arg15) :=
  (keep4 (val4 V0) main_arg15 (by decide)).trans (val4_arg15 V0)
theorem val5_arg16 (V0 : Valuation τ sig (Elt F)) : val5 V0 (Proc.devRef .tc main_arg16) = V0 (Proc.devRef .tc main_arg16) :=
  (keep4 (val4 V0) main_arg16 (by decide)).trans (val4_arg16 V0)
theorem val5_arg17 (V0 : Valuation τ sig (Elt F)) : val5 V0 (Proc.devRef .tc main_arg17) = V0 (Proc.devRef .tc main_arg17) :=
  (keep4 (val4 V0) main_arg17 (by decide)).trans (val4_arg17 V0)
theorem val5_v3 (V0 : Valuation τ sig (Elt F)) : val5 V0 (Proc.devRef .tc main_v3) = res_v3 V0 :=
  (keep4 (val4 V0) main_v3 (by decide)).trans (val4_v3 V0)
theorem val5_v6 (V0 : Valuation τ sig (Elt F)) : val5 V0 (Proc.devRef .tc main_v6) = res_v6 V0 :=
  (keep4 (val4 V0) main_v6 (by decide)).trans (val4_v6 V0)
theorem val5_v28 (V0 : Valuation τ sig (Elt F)) : val5 V0 (Proc.devRef .tc main_v28) = res_v28 V0 :=
  (keep4 (val4 V0) main_v28 (by decide)).trans (val4_v28 V0)
theorem val5_v29 (V0 : Valuation τ sig (Elt F)) : val5 V0 (Proc.devRef .tc main_v29) = res_v29 V0 :=
  (keep4 (val4 V0) main_v29 (by decide)).trans (val4_v29 V0)
theorem val5_v45 (V0 : Valuation τ sig (Elt F)) : val5 V0 (Proc.devRef .tc main_v45) = res_v45 V0 :=
  (c4_v45 (val4 V0)).trans (by rw [val4_v42, val4_arg3, res_v45])
theorem val5_v49 (V0 : Valuation τ sig (Elt F)) : val5 V0 (Proc.devRef .tc main_v49) = res_v49 V0 :=
  (c4_v49 (val4 V0)).trans (by rw [val4_arg4, res_v49])

/-- The arrays after stretches 0 … 5. -/
def val6 (V0 : Valuation τ sig (Elt F)) : Valuation τ sig (Elt F) := after ops5 (val5 V0)
theorem val6_arg0 (V0 : Valuation τ sig (Elt F)) : val6 V0 (Proc.devRef .tc main_arg0) = V0 (Proc.devRef .tc main_arg0) :=
  (keep5 (val5 V0) main_arg0 (by decide)).trans (val5_arg0 V0)
theorem val6_arg1 (V0 : Valuation τ sig (Elt F)) : val6 V0 (Proc.devRef .tc main_arg1) = V0 (Proc.devRef .tc main_arg1) :=
  (keep5 (val5 V0) main_arg1 (by decide)).trans (val5_arg1 V0)
theorem val6_arg2 (V0 : Valuation τ sig (Elt F)) : val6 V0 (Proc.devRef .tc main_arg2) = V0 (Proc.devRef .tc main_arg2) :=
  (keep5 (val5 V0) main_arg2 (by decide)).trans (val5_arg2 V0)
theorem val6_arg3 (V0 : Valuation τ sig (Elt F)) : val6 V0 (Proc.devRef .tc main_arg3) = V0 (Proc.devRef .tc main_arg3) :=
  (keep5 (val5 V0) main_arg3 (by decide)).trans (val5_arg3 V0)
theorem val6_arg4 (V0 : Valuation τ sig (Elt F)) : val6 V0 (Proc.devRef .tc main_arg4) = V0 (Proc.devRef .tc main_arg4) :=
  (keep5 (val5 V0) main_arg4 (by decide)).trans (val5_arg4 V0)
theorem val6_arg5 (V0 : Valuation τ sig (Elt F)) : val6 V0 (Proc.devRef .tc main_arg5) = V0 (Proc.devRef .tc main_arg5) :=
  (keep5 (val5 V0) main_arg5 (by decide)).trans (val5_arg5 V0)
theorem val6_arg6 (V0 : Valuation τ sig (Elt F)) : val6 V0 (Proc.devRef .tc main_arg6) = V0 (Proc.devRef .tc main_arg6) :=
  (keep5 (val5 V0) main_arg6 (by decide)).trans (val5_arg6 V0)
theorem val6_arg7 (V0 : Valuation τ sig (Elt F)) : val6 V0 (Proc.devRef .tc main_arg7) = V0 (Proc.devRef .tc main_arg7) :=
  (keep5 (val5 V0) main_arg7 (by decide)).trans (val5_arg7 V0)
theorem val6_arg8 (V0 : Valuation τ sig (Elt F)) : val6 V0 (Proc.devRef .tc main_arg8) = V0 (Proc.devRef .tc main_arg8) :=
  (keep5 (val5 V0) main_arg8 (by decide)).trans (val5_arg8 V0)
theorem val6_arg9 (V0 : Valuation τ sig (Elt F)) : val6 V0 (Proc.devRef .tc main_arg9) = V0 (Proc.devRef .tc main_arg9) :=
  (keep5 (val5 V0) main_arg9 (by decide)).trans (val5_arg9 V0)
theorem val6_arg10 (V0 : Valuation τ sig (Elt F)) : val6 V0 (Proc.devRef .tc main_arg10) = V0 (Proc.devRef .tc main_arg10) :=
  (keep5 (val5 V0) main_arg10 (by decide)).trans (val5_arg10 V0)
theorem val6_arg11 (V0 : Valuation τ sig (Elt F)) : val6 V0 (Proc.devRef .tc main_arg11) = V0 (Proc.devRef .tc main_arg11) :=
  (keep5 (val5 V0) main_arg11 (by decide)).trans (val5_arg11 V0)
theorem val6_arg12 (V0 : Valuation τ sig (Elt F)) : val6 V0 (Proc.devRef .tc main_arg12) = V0 (Proc.devRef .tc main_arg12) :=
  (keep5 (val5 V0) main_arg12 (by decide)).trans (val5_arg12 V0)
theorem val6_arg13 (V0 : Valuation τ sig (Elt F)) : val6 V0 (Proc.devRef .tc main_arg13) = V0 (Proc.devRef .tc main_arg13) :=
  (keep5 (val5 V0) main_arg13 (by decide)).trans (val5_arg13 V0)
theorem val6_arg14 (V0 : Valuation τ sig (Elt F)) : val6 V0 (Proc.devRef .tc main_arg14) = V0 (Proc.devRef .tc main_arg14) :=
  (keep5 (val5 V0) main_arg14 (by decide)).trans (val5_arg14 V0)
theorem val6_arg15 (V0 : Valuation τ sig (Elt F)) : val6 V0 (Proc.devRef .tc main_arg15) = V0 (Proc.devRef .tc main_arg15) :=
  (keep5 (val5 V0) main_arg15 (by decide)).trans (val5_arg15 V0)
theorem val6_arg16 (V0 : Valuation τ sig (Elt F)) : val6 V0 (Proc.devRef .tc main_arg16) = V0 (Proc.devRef .tc main_arg16) :=
  (keep5 (val5 V0) main_arg16 (by decide)).trans (val5_arg16 V0)
theorem val6_arg17 (V0 : Valuation τ sig (Elt F)) : val6 V0 (Proc.devRef .tc main_arg17) = V0 (Proc.devRef .tc main_arg17) :=
  (keep5 (val5 V0) main_arg17 (by decide)).trans (val5_arg17 V0)
theorem val6_v3 (V0 : Valuation τ sig (Elt F)) : val6 V0 (Proc.devRef .tc main_v3) = res_v3 V0 :=
  (keep5 (val5 V0) main_v3 (by decide)).trans (val5_v3 V0)
theorem val6_v6 (V0 : Valuation τ sig (Elt F)) : val6 V0 (Proc.devRef .tc main_v6) = res_v6 V0 :=
  (keep5 (val5 V0) main_v6 (by decide)).trans (val5_v6 V0)
theorem val6_v28 (V0 : Valuation τ sig (Elt F)) : val6 V0 (Proc.devRef .tc main_v28) = res_v28 V0 :=
  (keep5 (val5 V0) main_v28 (by decide)).trans (val5_v28 V0)
theorem val6_v29 (V0 : Valuation τ sig (Elt F)) : val6 V0 (Proc.devRef .tc main_v29) = res_v29 V0 :=
  (keep5 (val5 V0) main_v29 (by decide)).trans (val5_v29 V0)
theorem val6_v50 (V0 : Valuation τ sig (Elt F)) : val6 V0 (Proc.devRef .tc main_v50) = res_v50 V0 :=
  (c5_v50 (val5 V0)).trans (by rw [val5_v45, val5_v49, res_v50])

/-- The arrays after stretches 0 … 6. -/
def val7 (V0 : Valuation τ sig (Elt F)) : Valuation τ sig (Elt F) := after ops6 (val6 V0)
theorem val7_arg0 (V0 : Valuation τ sig (Elt F)) : val7 V0 (Proc.devRef .tc main_arg0) = V0 (Proc.devRef .tc main_arg0) :=
  (keep6 (val6 V0) main_arg0 (by decide)).trans (val6_arg0 V0)
theorem val7_arg1 (V0 : Valuation τ sig (Elt F)) : val7 V0 (Proc.devRef .tc main_arg1) = V0 (Proc.devRef .tc main_arg1) :=
  (keep6 (val6 V0) main_arg1 (by decide)).trans (val6_arg1 V0)
theorem val7_arg2 (V0 : Valuation τ sig (Elt F)) : val7 V0 (Proc.devRef .tc main_arg2) = V0 (Proc.devRef .tc main_arg2) :=
  (keep6 (val6 V0) main_arg2 (by decide)).trans (val6_arg2 V0)
theorem val7_arg3 (V0 : Valuation τ sig (Elt F)) : val7 V0 (Proc.devRef .tc main_arg3) = V0 (Proc.devRef .tc main_arg3) :=
  (keep6 (val6 V0) main_arg3 (by decide)).trans (val6_arg3 V0)
theorem val7_arg4 (V0 : Valuation τ sig (Elt F)) : val7 V0 (Proc.devRef .tc main_arg4) = V0 (Proc.devRef .tc main_arg4) :=
  (keep6 (val6 V0) main_arg4 (by decide)).trans (val6_arg4 V0)
theorem val7_arg5 (V0 : Valuation τ sig (Elt F)) : val7 V0 (Proc.devRef .tc main_arg5) = V0 (Proc.devRef .tc main_arg5) :=
  (keep6 (val6 V0) main_arg5 (by decide)).trans (val6_arg5 V0)
theorem val7_arg6 (V0 : Valuation τ sig (Elt F)) : val7 V0 (Proc.devRef .tc main_arg6) = V0 (Proc.devRef .tc main_arg6) :=
  (keep6 (val6 V0) main_arg6 (by decide)).trans (val6_arg6 V0)
theorem val7_arg7 (V0 : Valuation τ sig (Elt F)) : val7 V0 (Proc.devRef .tc main_arg7) = V0 (Proc.devRef .tc main_arg7) :=
  (keep6 (val6 V0) main_arg7 (by decide)).trans (val6_arg7 V0)
theorem val7_arg8 (V0 : Valuation τ sig (Elt F)) : val7 V0 (Proc.devRef .tc main_arg8) = V0 (Proc.devRef .tc main_arg8) :=
  (keep6 (val6 V0) main_arg8 (by decide)).trans (val6_arg8 V0)
theorem val7_arg9 (V0 : Valuation τ sig (Elt F)) : val7 V0 (Proc.devRef .tc main_arg9) = V0 (Proc.devRef .tc main_arg9) :=
  (keep6 (val6 V0) main_arg9 (by decide)).trans (val6_arg9 V0)
theorem val7_arg10 (V0 : Valuation τ sig (Elt F)) : val7 V0 (Proc.devRef .tc main_arg10) = V0 (Proc.devRef .tc main_arg10) :=
  (keep6 (val6 V0) main_arg10 (by decide)).trans (val6_arg10 V0)
theorem val7_arg11 (V0 : Valuation τ sig (Elt F)) : val7 V0 (Proc.devRef .tc main_arg11) = V0 (Proc.devRef .tc main_arg11) :=
  (keep6 (val6 V0) main_arg11 (by decide)).trans (val6_arg11 V0)
theorem val7_arg12 (V0 : Valuation τ sig (Elt F)) : val7 V0 (Proc.devRef .tc main_arg12) = V0 (Proc.devRef .tc main_arg12) :=
  (keep6 (val6 V0) main_arg12 (by decide)).trans (val6_arg12 V0)
theorem val7_arg13 (V0 : Valuation τ sig (Elt F)) : val7 V0 (Proc.devRef .tc main_arg13) = V0 (Proc.devRef .tc main_arg13) :=
  (keep6 (val6 V0) main_arg13 (by decide)).trans (val6_arg13 V0)
theorem val7_arg14 (V0 : Valuation τ sig (Elt F)) : val7 V0 (Proc.devRef .tc main_arg14) = V0 (Proc.devRef .tc main_arg14) :=
  (keep6 (val6 V0) main_arg14 (by decide)).trans (val6_arg14 V0)
theorem val7_arg15 (V0 : Valuation τ sig (Elt F)) : val7 V0 (Proc.devRef .tc main_arg15) = V0 (Proc.devRef .tc main_arg15) :=
  (keep6 (val6 V0) main_arg15 (by decide)).trans (val6_arg15 V0)
theorem val7_arg16 (V0 : Valuation τ sig (Elt F)) : val7 V0 (Proc.devRef .tc main_arg16) = V0 (Proc.devRef .tc main_arg16) :=
  (keep6 (val6 V0) main_arg16 (by decide)).trans (val6_arg16 V0)
theorem val7_arg17 (V0 : Valuation τ sig (Elt F)) : val7 V0 (Proc.devRef .tc main_arg17) = V0 (Proc.devRef .tc main_arg17) :=
  (keep6 (val6 V0) main_arg17 (by decide)).trans (val6_arg17 V0)
theorem val7_v3 (V0 : Valuation τ sig (Elt F)) : val7 V0 (Proc.devRef .tc main_v3) = res_v3 V0 :=
  (keep6 (val6 V0) main_v3 (by decide)).trans (val6_v3 V0)
theorem val7_v6 (V0 : Valuation τ sig (Elt F)) : val7 V0 (Proc.devRef .tc main_v6) = res_v6 V0 :=
  (keep6 (val6 V0) main_v6 (by decide)).trans (val6_v6 V0)
theorem val7_v28 (V0 : Valuation τ sig (Elt F)) : val7 V0 (Proc.devRef .tc main_v28) = res_v28 V0 :=
  (keep6 (val6 V0) main_v28 (by decide)).trans (val6_v28 V0)
theorem val7_v29 (V0 : Valuation τ sig (Elt F)) : val7 V0 (Proc.devRef .tc main_v29) = res_v29 V0 :=
  (keep6 (val6 V0) main_v29 (by decide)).trans (val6_v29 V0)
theorem val7_v79 (V0 : Valuation τ sig (Elt F)) : val7 V0 (Proc.devRef .tc main_v79) = res_v79 V0 :=
  (c6_v79 (val6 V0)).trans (by rw [val6_arg5, val6_v50, val6_arg6, res_v79])

/-- The arrays after stretches 0 … 7. -/
def val8 (V0 : Valuation τ sig (Elt F)) : Valuation τ sig (Elt F) := after ops7 (val7 V0)
theorem val8_arg0 (V0 : Valuation τ sig (Elt F)) : val8 V0 (Proc.devRef .tc main_arg0) = V0 (Proc.devRef .tc main_arg0) :=
  (keep7 (val7 V0) main_arg0 (by decide)).trans (val7_arg0 V0)
theorem val8_arg1 (V0 : Valuation τ sig (Elt F)) : val8 V0 (Proc.devRef .tc main_arg1) = V0 (Proc.devRef .tc main_arg1) :=
  (keep7 (val7 V0) main_arg1 (by decide)).trans (val7_arg1 V0)
theorem val8_arg2 (V0 : Valuation τ sig (Elt F)) : val8 V0 (Proc.devRef .tc main_arg2) = V0 (Proc.devRef .tc main_arg2) :=
  (keep7 (val7 V0) main_arg2 (by decide)).trans (val7_arg2 V0)
theorem val8_arg3 (V0 : Valuation τ sig (Elt F)) : val8 V0 (Proc.devRef .tc main_arg3) = V0 (Proc.devRef .tc main_arg3) :=
  (keep7 (val7 V0) main_arg3 (by decide)).trans (val7_arg3 V0)
theorem val8_arg4 (V0 : Valuation τ sig (Elt F)) : val8 V0 (Proc.devRef .tc main_arg4) = V0 (Proc.devRef .tc main_arg4) :=
  (keep7 (val7 V0) main_arg4 (by decide)).trans (val7_arg4 V0)
theorem val8_arg5 (V0 : Valuation τ sig (Elt F)) : val8 V0 (Proc.devRef .tc main_arg5) = V0 (Proc.devRef .tc main_arg5) :=
  (keep7 (val7 V0) main_arg5 (by decide)).trans (val7_arg5 V0)
theorem val8_arg6 (V0 : Valuation τ sig (Elt F)) : val8 V0 (Proc.devRef .tc main_arg6) = V0 (Proc.devRef .tc main_arg6) :=
  (keep7 (val7 V0) main_arg6 (by decide)).trans (val7_arg6 V0)
theorem val8_arg7 (V0 : Valuation τ sig (Elt F)) : val8 V0 (Proc.devRef .tc main_arg7) = V0 (Proc.devRef .tc main_arg7) :=
  (keep7 (val7 V0) main_arg7 (by decide)).trans (val7_arg7 V0)
theorem val8_arg8 (V0 : Valuation τ sig (Elt F)) : val8 V0 (Proc.devRef .tc main_arg8) = V0 (Proc.devRef .tc main_arg8) :=
  (keep7 (val7 V0) main_arg8 (by decide)).trans (val7_arg8 V0)
theorem val8_arg9 (V0 : Valuation τ sig (Elt F)) : val8 V0 (Proc.devRef .tc main_arg9) = V0 (Proc.devRef .tc main_arg9) :=
  (keep7 (val7 V0) main_arg9 (by decide)).trans (val7_arg9 V0)
theorem val8_arg10 (V0 : Valuation τ sig (Elt F)) : val8 V0 (Proc.devRef .tc main_arg10) = V0 (Proc.devRef .tc main_arg10) :=
  (keep7 (val7 V0) main_arg10 (by decide)).trans (val7_arg10 V0)
theorem val8_arg11 (V0 : Valuation τ sig (Elt F)) : val8 V0 (Proc.devRef .tc main_arg11) = V0 (Proc.devRef .tc main_arg11) :=
  (keep7 (val7 V0) main_arg11 (by decide)).trans (val7_arg11 V0)
theorem val8_arg12 (V0 : Valuation τ sig (Elt F)) : val8 V0 (Proc.devRef .tc main_arg12) = V0 (Proc.devRef .tc main_arg12) :=
  (keep7 (val7 V0) main_arg12 (by decide)).trans (val7_arg12 V0)
theorem val8_arg13 (V0 : Valuation τ sig (Elt F)) : val8 V0 (Proc.devRef .tc main_arg13) = V0 (Proc.devRef .tc main_arg13) :=
  (keep7 (val7 V0) main_arg13 (by decide)).trans (val7_arg13 V0)
theorem val8_arg14 (V0 : Valuation τ sig (Elt F)) : val8 V0 (Proc.devRef .tc main_arg14) = V0 (Proc.devRef .tc main_arg14) :=
  (keep7 (val7 V0) main_arg14 (by decide)).trans (val7_arg14 V0)
theorem val8_arg15 (V0 : Valuation τ sig (Elt F)) : val8 V0 (Proc.devRef .tc main_arg15) = V0 (Proc.devRef .tc main_arg15) :=
  (keep7 (val7 V0) main_arg15 (by decide)).trans (val7_arg15 V0)
theorem val8_arg16 (V0 : Valuation τ sig (Elt F)) : val8 V0 (Proc.devRef .tc main_arg16) = V0 (Proc.devRef .tc main_arg16) :=
  (keep7 (val7 V0) main_arg16 (by decide)).trans (val7_arg16 V0)
theorem val8_arg17 (V0 : Valuation τ sig (Elt F)) : val8 V0 (Proc.devRef .tc main_arg17) = V0 (Proc.devRef .tc main_arg17) :=
  (keep7 (val7 V0) main_arg17 (by decide)).trans (val7_arg17 V0)
theorem val8_v3 (V0 : Valuation τ sig (Elt F)) : val8 V0 (Proc.devRef .tc main_v3) = res_v3 V0 :=
  (keep7 (val7 V0) main_v3 (by decide)).trans (val7_v3 V0)
theorem val8_v6 (V0 : Valuation τ sig (Elt F)) : val8 V0 (Proc.devRef .tc main_v6) = res_v6 V0 :=
  (keep7 (val7 V0) main_v6 (by decide)).trans (val7_v6 V0)
theorem val8_v28 (V0 : Valuation τ sig (Elt F)) : val8 V0 (Proc.devRef .tc main_v28) = res_v28 V0 :=
  (keep7 (val7 V0) main_v28 (by decide)).trans (val7_v28 V0)
theorem val8_v29 (V0 : Valuation τ sig (Elt F)) : val8 V0 (Proc.devRef .tc main_v29) = res_v29 V0 :=
  (keep7 (val7 V0) main_v29 (by decide)).trans (val7_v29 V0)
theorem val8_v80 (V0 : Valuation τ sig (Elt F)) : val8 V0 (Proc.devRef .tc main_v80) = res_v80 V0 :=
  (c7_v80 (val7 V0)).trans (by rw [val7_v79, res_v80])

/-- The arrays after stretches 0 … 8. -/
def val9 (V0 : Valuation τ sig (Elt F)) : Valuation τ sig (Elt F) := after ops8 (val8 V0)
theorem val9_arg0 (V0 : Valuation τ sig (Elt F)) : val9 V0 (Proc.devRef .tc main_arg0) = V0 (Proc.devRef .tc main_arg0) :=
  (keep8 (val8 V0) main_arg0 (by decide)).trans (val8_arg0 V0)
theorem val9_arg1 (V0 : Valuation τ sig (Elt F)) : val9 V0 (Proc.devRef .tc main_arg1) = V0 (Proc.devRef .tc main_arg1) :=
  (keep8 (val8 V0) main_arg1 (by decide)).trans (val8_arg1 V0)
theorem val9_arg2 (V0 : Valuation τ sig (Elt F)) : val9 V0 (Proc.devRef .tc main_arg2) = V0 (Proc.devRef .tc main_arg2) :=
  (keep8 (val8 V0) main_arg2 (by decide)).trans (val8_arg2 V0)
theorem val9_arg3 (V0 : Valuation τ sig (Elt F)) : val9 V0 (Proc.devRef .tc main_arg3) = V0 (Proc.devRef .tc main_arg3) :=
  (keep8 (val8 V0) main_arg3 (by decide)).trans (val8_arg3 V0)
theorem val9_arg4 (V0 : Valuation τ sig (Elt F)) : val9 V0 (Proc.devRef .tc main_arg4) = V0 (Proc.devRef .tc main_arg4) :=
  (keep8 (val8 V0) main_arg4 (by decide)).trans (val8_arg4 V0)
theorem val9_arg5 (V0 : Valuation τ sig (Elt F)) : val9 V0 (Proc.devRef .tc main_arg5) = V0 (Proc.devRef .tc main_arg5) :=
  (keep8 (val8 V0) main_arg5 (by decide)).trans (val8_arg5 V0)
theorem val9_arg6 (V0 : Valuation τ sig (Elt F)) : val9 V0 (Proc.devRef .tc main_arg6) = V0 (Proc.devRef .tc main_arg6) :=
  (keep8 (val8 V0) main_arg6 (by decide)).trans (val8_arg6 V0)
theorem val9_arg7 (V0 : Valuation τ sig (Elt F)) : val9 V0 (Proc.devRef .tc main_arg7) = V0 (Proc.devRef .tc main_arg7) :=
  (keep8 (val8 V0) main_arg7 (by decide)).trans (val8_arg7 V0)
theorem val9_arg8 (V0 : Valuation τ sig (Elt F)) : val9 V0 (Proc.devRef .tc main_arg8) = V0 (Proc.devRef .tc main_arg8) :=
  (keep8 (val8 V0) main_arg8 (by decide)).trans (val8_arg8 V0)
theorem val9_arg9 (V0 : Valuation τ sig (Elt F)) : val9 V0 (Proc.devRef .tc main_arg9) = V0 (Proc.devRef .tc main_arg9) :=
  (keep8 (val8 V0) main_arg9 (by decide)).trans (val8_arg9 V0)
theorem val9_arg10 (V0 : Valuation τ sig (Elt F)) : val9 V0 (Proc.devRef .tc main_arg10) = V0 (Proc.devRef .tc main_arg10) :=
  (keep8 (val8 V0) main_arg10 (by decide)).trans (val8_arg10 V0)
theorem val9_arg11 (V0 : Valuation τ sig (Elt F)) : val9 V0 (Proc.devRef .tc main_arg11) = V0 (Proc.devRef .tc main_arg11) :=
  (keep8 (val8 V0) main_arg11 (by decide)).trans (val8_arg11 V0)
theorem val9_arg12 (V0 : Valuation τ sig (Elt F)) : val9 V0 (Proc.devRef .tc main_arg12) = V0 (Proc.devRef .tc main_arg12) :=
  (keep8 (val8 V0) main_arg12 (by decide)).trans (val8_arg12 V0)
theorem val9_arg13 (V0 : Valuation τ sig (Elt F)) : val9 V0 (Proc.devRef .tc main_arg13) = V0 (Proc.devRef .tc main_arg13) :=
  (keep8 (val8 V0) main_arg13 (by decide)).trans (val8_arg13 V0)
theorem val9_arg14 (V0 : Valuation τ sig (Elt F)) : val9 V0 (Proc.devRef .tc main_arg14) = V0 (Proc.devRef .tc main_arg14) :=
  (keep8 (val8 V0) main_arg14 (by decide)).trans (val8_arg14 V0)
theorem val9_arg15 (V0 : Valuation τ sig (Elt F)) : val9 V0 (Proc.devRef .tc main_arg15) = V0 (Proc.devRef .tc main_arg15) :=
  (keep8 (val8 V0) main_arg15 (by decide)).trans (val8_arg15 V0)
theorem val9_arg16 (V0 : Valuation τ sig (Elt F)) : val9 V0 (Proc.devRef .tc main_arg16) = V0 (Proc.devRef .tc main_arg16) :=
  (keep8 (val8 V0) main_arg16 (by decide)).trans (val8_arg16 V0)
theorem val9_arg17 (V0 : Valuation τ sig (Elt F)) : val9 V0 (Proc.devRef .tc main_arg17) = V0 (Proc.devRef .tc main_arg17) :=
  (keep8 (val8 V0) main_arg17 (by decide)).trans (val8_arg17 V0)
theorem val9_v3 (V0 : Valuation τ sig (Elt F)) : val9 V0 (Proc.devRef .tc main_v3) = res_v3 V0 :=
  (keep8 (val8 V0) main_v3 (by decide)).trans (val8_v3 V0)
theorem val9_v6 (V0 : Valuation τ sig (Elt F)) : val9 V0 (Proc.devRef .tc main_v6) = res_v6 V0 :=
  (keep8 (val8 V0) main_v6 (by decide)).trans (val8_v6 V0)
theorem val9_v28 (V0 : Valuation τ sig (Elt F)) : val9 V0 (Proc.devRef .tc main_v28) = res_v28 V0 :=
  (keep8 (val8 V0) main_v28 (by decide)).trans (val8_v28 V0)
theorem val9_v29 (V0 : Valuation τ sig (Elt F)) : val9 V0 (Proc.devRef .tc main_v29) = res_v29 V0 :=
  (keep8 (val8 V0) main_v29 (by decide)).trans (val8_v29 V0)
theorem val9_v88 (V0 : Valuation τ sig (Elt F)) : val9 V0 (Proc.devRef .tc main_v88) = res_v88 V0 :=
  (c8_v88 (val8 V0)).trans (by rw [val8_v80, val8_v29, val8_arg2, res_v88])

/-- The arrays after stretches 0 … 9. -/
def val10 (V0 : Valuation τ sig (Elt F)) : Valuation τ sig (Elt F) := after ops9 (val9 V0)
theorem val10_arg0 (V0 : Valuation τ sig (Elt F)) : val10 V0 (Proc.devRef .tc main_arg0) = V0 (Proc.devRef .tc main_arg0) :=
  (keep9 (val9 V0) main_arg0 (by decide)).trans (val9_arg0 V0)
theorem val10_arg1 (V0 : Valuation τ sig (Elt F)) : val10 V0 (Proc.devRef .tc main_arg1) = V0 (Proc.devRef .tc main_arg1) :=
  (keep9 (val9 V0) main_arg1 (by decide)).trans (val9_arg1 V0)
theorem val10_arg2 (V0 : Valuation τ sig (Elt F)) : val10 V0 (Proc.devRef .tc main_arg2) = V0 (Proc.devRef .tc main_arg2) :=
  (keep9 (val9 V0) main_arg2 (by decide)).trans (val9_arg2 V0)
theorem val10_arg3 (V0 : Valuation τ sig (Elt F)) : val10 V0 (Proc.devRef .tc main_arg3) = V0 (Proc.devRef .tc main_arg3) :=
  (keep9 (val9 V0) main_arg3 (by decide)).trans (val9_arg3 V0)
theorem val10_arg4 (V0 : Valuation τ sig (Elt F)) : val10 V0 (Proc.devRef .tc main_arg4) = V0 (Proc.devRef .tc main_arg4) :=
  (keep9 (val9 V0) main_arg4 (by decide)).trans (val9_arg4 V0)
theorem val10_arg5 (V0 : Valuation τ sig (Elt F)) : val10 V0 (Proc.devRef .tc main_arg5) = V0 (Proc.devRef .tc main_arg5) :=
  (keep9 (val9 V0) main_arg5 (by decide)).trans (val9_arg5 V0)
theorem val10_arg6 (V0 : Valuation τ sig (Elt F)) : val10 V0 (Proc.devRef .tc main_arg6) = V0 (Proc.devRef .tc main_arg6) :=
  (keep9 (val9 V0) main_arg6 (by decide)).trans (val9_arg6 V0)
theorem val10_arg7 (V0 : Valuation τ sig (Elt F)) : val10 V0 (Proc.devRef .tc main_arg7) = V0 (Proc.devRef .tc main_arg7) :=
  (keep9 (val9 V0) main_arg7 (by decide)).trans (val9_arg7 V0)
theorem val10_arg8 (V0 : Valuation τ sig (Elt F)) : val10 V0 (Proc.devRef .tc main_arg8) = V0 (Proc.devRef .tc main_arg8) :=
  (keep9 (val9 V0) main_arg8 (by decide)).trans (val9_arg8 V0)
theorem val10_arg9 (V0 : Valuation τ sig (Elt F)) : val10 V0 (Proc.devRef .tc main_arg9) = V0 (Proc.devRef .tc main_arg9) :=
  (keep9 (val9 V0) main_arg9 (by decide)).trans (val9_arg9 V0)
theorem val10_arg10 (V0 : Valuation τ sig (Elt F)) : val10 V0 (Proc.devRef .tc main_arg10) = V0 (Proc.devRef .tc main_arg10) :=
  (keep9 (val9 V0) main_arg10 (by decide)).trans (val9_arg10 V0)
theorem val10_arg11 (V0 : Valuation τ sig (Elt F)) : val10 V0 (Proc.devRef .tc main_arg11) = V0 (Proc.devRef .tc main_arg11) :=
  (keep9 (val9 V0) main_arg11 (by decide)).trans (val9_arg11 V0)
theorem val10_arg12 (V0 : Valuation τ sig (Elt F)) : val10 V0 (Proc.devRef .tc main_arg12) = V0 (Proc.devRef .tc main_arg12) :=
  (keep9 (val9 V0) main_arg12 (by decide)).trans (val9_arg12 V0)
theorem val10_arg13 (V0 : Valuation τ sig (Elt F)) : val10 V0 (Proc.devRef .tc main_arg13) = V0 (Proc.devRef .tc main_arg13) :=
  (keep9 (val9 V0) main_arg13 (by decide)).trans (val9_arg13 V0)
theorem val10_arg14 (V0 : Valuation τ sig (Elt F)) : val10 V0 (Proc.devRef .tc main_arg14) = V0 (Proc.devRef .tc main_arg14) :=
  (keep9 (val9 V0) main_arg14 (by decide)).trans (val9_arg14 V0)
theorem val10_arg15 (V0 : Valuation τ sig (Elt F)) : val10 V0 (Proc.devRef .tc main_arg15) = V0 (Proc.devRef .tc main_arg15) :=
  (keep9 (val9 V0) main_arg15 (by decide)).trans (val9_arg15 V0)
theorem val10_arg16 (V0 : Valuation τ sig (Elt F)) : val10 V0 (Proc.devRef .tc main_arg16) = V0 (Proc.devRef .tc main_arg16) :=
  (keep9 (val9 V0) main_arg16 (by decide)).trans (val9_arg16 V0)
theorem val10_arg17 (V0 : Valuation τ sig (Elt F)) : val10 V0 (Proc.devRef .tc main_arg17) = V0 (Proc.devRef .tc main_arg17) :=
  (keep9 (val9 V0) main_arg17 (by decide)).trans (val9_arg17 V0)
theorem val10_v3 (V0 : Valuation τ sig (Elt F)) : val10 V0 (Proc.devRef .tc main_v3) = res_v3 V0 :=
  (keep9 (val9 V0) main_v3 (by decide)).trans (val9_v3 V0)
theorem val10_v6 (V0 : Valuation τ sig (Elt F)) : val10 V0 (Proc.devRef .tc main_v6) = res_v6 V0 :=
  (keep9 (val9 V0) main_v6 (by decide)).trans (val9_v6 V0)
theorem val10_v28 (V0 : Valuation τ sig (Elt F)) : val10 V0 (Proc.devRef .tc main_v28) = res_v28 V0 :=
  (keep9 (val9 V0) main_v28 (by decide)).trans (val9_v28 V0)
theorem val10_v29 (V0 : Valuation τ sig (Elt F)) : val10 V0 (Proc.devRef .tc main_v29) = res_v29 V0 :=
  (keep9 (val9 V0) main_v29 (by decide)).trans (val9_v29 V0)
theorem val10_v88 (V0 : Valuation τ sig (Elt F)) : val10 V0 (Proc.devRef .tc main_v88) = res_v88 V0 :=
  (keep9 (val9 V0) main_v88 (by decide)).trans (val9_v88 V0)
theorem val10_v92 (V0 : Valuation τ sig (Elt F)) : val10 V0 (Proc.devRef .tc main_v92) = res_v92 V0 :=
  (c9_v92 (val9 V0)).trans (by rw [val9_arg2, val9_v88, val9_v29, res_v92])

/-- The arrays after stretches 0 … 10. -/
def val11 (V0 : Valuation τ sig (Elt F)) : Valuation τ sig (Elt F) := after ops10 (val10 V0)
theorem val11_arg0 (V0 : Valuation τ sig (Elt F)) : val11 V0 (Proc.devRef .tc main_arg0) = V0 (Proc.devRef .tc main_arg0) :=
  (keep10 (val10 V0) main_arg0 (by decide)).trans (val10_arg0 V0)
theorem val11_arg1 (V0 : Valuation τ sig (Elt F)) : val11 V0 (Proc.devRef .tc main_arg1) = V0 (Proc.devRef .tc main_arg1) :=
  (keep10 (val10 V0) main_arg1 (by decide)).trans (val10_arg1 V0)
theorem val11_arg2 (V0 : Valuation τ sig (Elt F)) : val11 V0 (Proc.devRef .tc main_arg2) = V0 (Proc.devRef .tc main_arg2) :=
  (keep10 (val10 V0) main_arg2 (by decide)).trans (val10_arg2 V0)
theorem val11_arg3 (V0 : Valuation τ sig (Elt F)) : val11 V0 (Proc.devRef .tc main_arg3) = V0 (Proc.devRef .tc main_arg3) :=
  (keep10 (val10 V0) main_arg3 (by decide)).trans (val10_arg3 V0)
theorem val11_arg4 (V0 : Valuation τ sig (Elt F)) : val11 V0 (Proc.devRef .tc main_arg4) = V0 (Proc.devRef .tc main_arg4) :=
  (keep10 (val10 V0) main_arg4 (by decide)).trans (val10_arg4 V0)
theorem val11_arg5 (V0 : Valuation τ sig (Elt F)) : val11 V0 (Proc.devRef .tc main_arg5) = V0 (Proc.devRef .tc main_arg5) :=
  (keep10 (val10 V0) main_arg5 (by decide)).trans (val10_arg5 V0)
theorem val11_arg6 (V0 : Valuation τ sig (Elt F)) : val11 V0 (Proc.devRef .tc main_arg6) = V0 (Proc.devRef .tc main_arg6) :=
  (keep10 (val10 V0) main_arg6 (by decide)).trans (val10_arg6 V0)
theorem val11_arg7 (V0 : Valuation τ sig (Elt F)) : val11 V0 (Proc.devRef .tc main_arg7) = V0 (Proc.devRef .tc main_arg7) :=
  (keep10 (val10 V0) main_arg7 (by decide)).trans (val10_arg7 V0)
theorem val11_arg8 (V0 : Valuation τ sig (Elt F)) : val11 V0 (Proc.devRef .tc main_arg8) = V0 (Proc.devRef .tc main_arg8) :=
  (keep10 (val10 V0) main_arg8 (by decide)).trans (val10_arg8 V0)
theorem val11_arg9 (V0 : Valuation τ sig (Elt F)) : val11 V0 (Proc.devRef .tc main_arg9) = V0 (Proc.devRef .tc main_arg9) :=
  (keep10 (val10 V0) main_arg9 (by decide)).trans (val10_arg9 V0)
theorem val11_arg10 (V0 : Valuation τ sig (Elt F)) : val11 V0 (Proc.devRef .tc main_arg10) = V0 (Proc.devRef .tc main_arg10) :=
  (keep10 (val10 V0) main_arg10 (by decide)).trans (val10_arg10 V0)
theorem val11_arg11 (V0 : Valuation τ sig (Elt F)) : val11 V0 (Proc.devRef .tc main_arg11) = V0 (Proc.devRef .tc main_arg11) :=
  (keep10 (val10 V0) main_arg11 (by decide)).trans (val10_arg11 V0)
theorem val11_arg12 (V0 : Valuation τ sig (Elt F)) : val11 V0 (Proc.devRef .tc main_arg12) = V0 (Proc.devRef .tc main_arg12) :=
  (keep10 (val10 V0) main_arg12 (by decide)).trans (val10_arg12 V0)
theorem val11_arg13 (V0 : Valuation τ sig (Elt F)) : val11 V0 (Proc.devRef .tc main_arg13) = V0 (Proc.devRef .tc main_arg13) :=
  (keep10 (val10 V0) main_arg13 (by decide)).trans (val10_arg13 V0)
theorem val11_arg14 (V0 : Valuation τ sig (Elt F)) : val11 V0 (Proc.devRef .tc main_arg14) = V0 (Proc.devRef .tc main_arg14) :=
  (keep10 (val10 V0) main_arg14 (by decide)).trans (val10_arg14 V0)
theorem val11_arg15 (V0 : Valuation τ sig (Elt F)) : val11 V0 (Proc.devRef .tc main_arg15) = V0 (Proc.devRef .tc main_arg15) :=
  (keep10 (val10 V0) main_arg15 (by decide)).trans (val10_arg15 V0)
theorem val11_arg16 (V0 : Valuation τ sig (Elt F)) : val11 V0 (Proc.devRef .tc main_arg16) = V0 (Proc.devRef .tc main_arg16) :=
  (keep10 (val10 V0) main_arg16 (by decide)).trans (val10_arg16 V0)
theorem val11_arg17 (V0 : Valuation τ sig (Elt F)) : val11 V0 (Proc.devRef .tc main_arg17) = V0 (Proc.devRef .tc main_arg17) :=
  (keep10 (val10 V0) main_arg17 (by decide)).trans (val10_arg17 V0)
theorem val11_v3 (V0 : Valuation τ sig (Elt F)) : val11 V0 (Proc.devRef .tc main_v3) = res_v3 V0 :=
  (keep10 (val10 V0) main_v3 (by decide)).trans (val10_v3 V0)
theorem val11_v6 (V0 : Valuation τ sig (Elt F)) : val11 V0 (Proc.devRef .tc main_v6) = res_v6 V0 :=
  (keep10 (val10 V0) main_v6 (by decide)).trans (val10_v6 V0)
theorem val11_v28 (V0 : Valuation τ sig (Elt F)) : val11 V0 (Proc.devRef .tc main_v28) = res_v28 V0 :=
  (keep10 (val10 V0) main_v28 (by decide)).trans (val10_v28 V0)
theorem val11_v29 (V0 : Valuation τ sig (Elt F)) : val11 V0 (Proc.devRef .tc main_v29) = res_v29 V0 :=
  (keep10 (val10 V0) main_v29 (by decide)).trans (val10_v29 V0)
theorem val11_v88 (V0 : Valuation τ sig (Elt F)) : val11 V0 (Proc.devRef .tc main_v88) = res_v88 V0 :=
  (keep10 (val10 V0) main_v88 (by decide)).trans (val10_v88 V0)
theorem val11_v100 (V0 : Valuation τ sig (Elt F)) : val11 V0 (Proc.devRef .tc main_v100) = res_v100 V0 :=
  (c10_v100 (val10 V0)).trans (by rw [val10_v92, val10_arg8, val10_arg9, res_v100])

/-- The arrays after stretches 0 … 11. -/
def val12 (V0 : Valuation τ sig (Elt F)) : Valuation τ sig (Elt F) := after ops11 (val11 V0)
theorem val12_arg0 (V0 : Valuation τ sig (Elt F)) : val12 V0 (Proc.devRef .tc main_arg0) = V0 (Proc.devRef .tc main_arg0) :=
  (keep11 (val11 V0) main_arg0 (by decide)).trans (val11_arg0 V0)
theorem val12_arg1 (V0 : Valuation τ sig (Elt F)) : val12 V0 (Proc.devRef .tc main_arg1) = V0 (Proc.devRef .tc main_arg1) :=
  (keep11 (val11 V0) main_arg1 (by decide)).trans (val11_arg1 V0)
theorem val12_arg2 (V0 : Valuation τ sig (Elt F)) : val12 V0 (Proc.devRef .tc main_arg2) = V0 (Proc.devRef .tc main_arg2) :=
  (keep11 (val11 V0) main_arg2 (by decide)).trans (val11_arg2 V0)
theorem val12_arg3 (V0 : Valuation τ sig (Elt F)) : val12 V0 (Proc.devRef .tc main_arg3) = V0 (Proc.devRef .tc main_arg3) :=
  (keep11 (val11 V0) main_arg3 (by decide)).trans (val11_arg3 V0)
theorem val12_arg4 (V0 : Valuation τ sig (Elt F)) : val12 V0 (Proc.devRef .tc main_arg4) = V0 (Proc.devRef .tc main_arg4) :=
  (keep11 (val11 V0) main_arg4 (by decide)).trans (val11_arg4 V0)
theorem val12_arg5 (V0 : Valuation τ sig (Elt F)) : val12 V0 (Proc.devRef .tc main_arg5) = V0 (Proc.devRef .tc main_arg5) :=
  (keep11 (val11 V0) main_arg5 (by decide)).trans (val11_arg5 V0)
theorem val12_arg6 (V0 : Valuation τ sig (Elt F)) : val12 V0 (Proc.devRef .tc main_arg6) = V0 (Proc.devRef .tc main_arg6) :=
  (keep11 (val11 V0) main_arg6 (by decide)).trans (val11_arg6 V0)
theorem val12_arg7 (V0 : Valuation τ sig (Elt F)) : val12 V0 (Proc.devRef .tc main_arg7) = V0 (Proc.devRef .tc main_arg7) :=
  (keep11 (val11 V0) main_arg7 (by decide)).trans (val11_arg7 V0)
theorem val12_arg8 (V0 : Valuation τ sig (Elt F)) : val12 V0 (Proc.devRef .tc main_arg8) = V0 (Proc.devRef .tc main_arg8) :=
  (keep11 (val11 V0) main_arg8 (by decide)).trans (val11_arg8 V0)
theorem val12_arg9 (V0 : Valuation τ sig (Elt F)) : val12 V0 (Proc.devRef .tc main_arg9) = V0 (Proc.devRef .tc main_arg9) :=
  (keep11 (val11 V0) main_arg9 (by decide)).trans (val11_arg9 V0)
theorem val12_arg10 (V0 : Valuation τ sig (Elt F)) : val12 V0 (Proc.devRef .tc main_arg10) = V0 (Proc.devRef .tc main_arg10) :=
  (keep11 (val11 V0) main_arg10 (by decide)).trans (val11_arg10 V0)
theorem val12_arg11 (V0 : Valuation τ sig (Elt F)) : val12 V0 (Proc.devRef .tc main_arg11) = V0 (Proc.devRef .tc main_arg11) :=
  (keep11 (val11 V0) main_arg11 (by decide)).trans (val11_arg11 V0)
theorem val12_arg12 (V0 : Valuation τ sig (Elt F)) : val12 V0 (Proc.devRef .tc main_arg12) = V0 (Proc.devRef .tc main_arg12) :=
  (keep11 (val11 V0) main_arg12 (by decide)).trans (val11_arg12 V0)
theorem val12_arg13 (V0 : Valuation τ sig (Elt F)) : val12 V0 (Proc.devRef .tc main_arg13) = V0 (Proc.devRef .tc main_arg13) :=
  (keep11 (val11 V0) main_arg13 (by decide)).trans (val11_arg13 V0)
theorem val12_arg14 (V0 : Valuation τ sig (Elt F)) : val12 V0 (Proc.devRef .tc main_arg14) = V0 (Proc.devRef .tc main_arg14) :=
  (keep11 (val11 V0) main_arg14 (by decide)).trans (val11_arg14 V0)
theorem val12_arg15 (V0 : Valuation τ sig (Elt F)) : val12 V0 (Proc.devRef .tc main_arg15) = V0 (Proc.devRef .tc main_arg15) :=
  (keep11 (val11 V0) main_arg15 (by decide)).trans (val11_arg15 V0)
theorem val12_arg16 (V0 : Valuation τ sig (Elt F)) : val12 V0 (Proc.devRef .tc main_arg16) = V0 (Proc.devRef .tc main_arg16) :=
  (keep11 (val11 V0) main_arg16 (by decide)).trans (val11_arg16 V0)
theorem val12_arg17 (V0 : Valuation τ sig (Elt F)) : val12 V0 (Proc.devRef .tc main_arg17) = V0 (Proc.devRef .tc main_arg17) :=
  (keep11 (val11 V0) main_arg17 (by decide)).trans (val11_arg17 V0)
theorem val12_v3 (V0 : Valuation τ sig (Elt F)) : val12 V0 (Proc.devRef .tc main_v3) = res_v3 V0 :=
  (keep11 (val11 V0) main_v3 (by decide)).trans (val11_v3 V0)
theorem val12_v6 (V0 : Valuation τ sig (Elt F)) : val12 V0 (Proc.devRef .tc main_v6) = res_v6 V0 :=
  (keep11 (val11 V0) main_v6 (by decide)).trans (val11_v6 V0)
theorem val12_v28 (V0 : Valuation τ sig (Elt F)) : val12 V0 (Proc.devRef .tc main_v28) = res_v28 V0 :=
  (keep11 (val11 V0) main_v28 (by decide)).trans (val11_v28 V0)
theorem val12_v29 (V0 : Valuation τ sig (Elt F)) : val12 V0 (Proc.devRef .tc main_v29) = res_v29 V0 :=
  (keep11 (val11 V0) main_v29 (by decide)).trans (val11_v29 V0)
theorem val12_v88 (V0 : Valuation τ sig (Elt F)) : val12 V0 (Proc.devRef .tc main_v88) = res_v88 V0 :=
  (keep11 (val11 V0) main_v88 (by decide)).trans (val11_v88 V0)
theorem val12_v100 (V0 : Valuation τ sig (Elt F)) : val12 V0 (Proc.devRef .tc main_v100) = res_v100 V0 :=
  (keep11 (val11 V0) main_v100 (by decide)).trans (val11_v100 V0)
theorem val12_v101 (V0 : Valuation τ sig (Elt F)) : val12 V0 (Proc.devRef .tc main_v101) = res_v101 V0 :=
  (c11_v101 (val11 V0)).trans (by rw [val11_arg10, res_v101])

/-- The arrays after stretches 0 … 12. -/
def val13 (V0 : Valuation τ sig (Elt F)) : Valuation τ sig (Elt F) := after ops12 (val12 V0)
theorem val13_arg0 (V0 : Valuation τ sig (Elt F)) : val13 V0 (Proc.devRef .tc main_arg0) = V0 (Proc.devRef .tc main_arg0) :=
  (keep12 (val12 V0) main_arg0 (by decide)).trans (val12_arg0 V0)
theorem val13_arg1 (V0 : Valuation τ sig (Elt F)) : val13 V0 (Proc.devRef .tc main_arg1) = V0 (Proc.devRef .tc main_arg1) :=
  (keep12 (val12 V0) main_arg1 (by decide)).trans (val12_arg1 V0)
theorem val13_arg2 (V0 : Valuation τ sig (Elt F)) : val13 V0 (Proc.devRef .tc main_arg2) = V0 (Proc.devRef .tc main_arg2) :=
  (keep12 (val12 V0) main_arg2 (by decide)).trans (val12_arg2 V0)
theorem val13_arg3 (V0 : Valuation τ sig (Elt F)) : val13 V0 (Proc.devRef .tc main_arg3) = V0 (Proc.devRef .tc main_arg3) :=
  (keep12 (val12 V0) main_arg3 (by decide)).trans (val12_arg3 V0)
theorem val13_arg4 (V0 : Valuation τ sig (Elt F)) : val13 V0 (Proc.devRef .tc main_arg4) = V0 (Proc.devRef .tc main_arg4) :=
  (keep12 (val12 V0) main_arg4 (by decide)).trans (val12_arg4 V0)
theorem val13_arg5 (V0 : Valuation τ sig (Elt F)) : val13 V0 (Proc.devRef .tc main_arg5) = V0 (Proc.devRef .tc main_arg5) :=
  (keep12 (val12 V0) main_arg5 (by decide)).trans (val12_arg5 V0)
theorem val13_arg6 (V0 : Valuation τ sig (Elt F)) : val13 V0 (Proc.devRef .tc main_arg6) = V0 (Proc.devRef .tc main_arg6) :=
  (keep12 (val12 V0) main_arg6 (by decide)).trans (val12_arg6 V0)
theorem val13_arg7 (V0 : Valuation τ sig (Elt F)) : val13 V0 (Proc.devRef .tc main_arg7) = V0 (Proc.devRef .tc main_arg7) :=
  (keep12 (val12 V0) main_arg7 (by decide)).trans (val12_arg7 V0)
theorem val13_arg8 (V0 : Valuation τ sig (Elt F)) : val13 V0 (Proc.devRef .tc main_arg8) = V0 (Proc.devRef .tc main_arg8) :=
  (keep12 (val12 V0) main_arg8 (by decide)).trans (val12_arg8 V0)
theorem val13_arg9 (V0 : Valuation τ sig (Elt F)) : val13 V0 (Proc.devRef .tc main_arg9) = V0 (Proc.devRef .tc main_arg9) :=
  (keep12 (val12 V0) main_arg9 (by decide)).trans (val12_arg9 V0)
theorem val13_arg10 (V0 : Valuation τ sig (Elt F)) : val13 V0 (Proc.devRef .tc main_arg10) = V0 (Proc.devRef .tc main_arg10) :=
  (keep12 (val12 V0) main_arg10 (by decide)).trans (val12_arg10 V0)
theorem val13_arg11 (V0 : Valuation τ sig (Elt F)) : val13 V0 (Proc.devRef .tc main_arg11) = V0 (Proc.devRef .tc main_arg11) :=
  (keep12 (val12 V0) main_arg11 (by decide)).trans (val12_arg11 V0)
theorem val13_arg12 (V0 : Valuation τ sig (Elt F)) : val13 V0 (Proc.devRef .tc main_arg12) = V0 (Proc.devRef .tc main_arg12) :=
  (keep12 (val12 V0) main_arg12 (by decide)).trans (val12_arg12 V0)
theorem val13_arg13 (V0 : Valuation τ sig (Elt F)) : val13 V0 (Proc.devRef .tc main_arg13) = V0 (Proc.devRef .tc main_arg13) :=
  (keep12 (val12 V0) main_arg13 (by decide)).trans (val12_arg13 V0)
theorem val13_arg14 (V0 : Valuation τ sig (Elt F)) : val13 V0 (Proc.devRef .tc main_arg14) = V0 (Proc.devRef .tc main_arg14) :=
  (keep12 (val12 V0) main_arg14 (by decide)).trans (val12_arg14 V0)
theorem val13_arg15 (V0 : Valuation τ sig (Elt F)) : val13 V0 (Proc.devRef .tc main_arg15) = V0 (Proc.devRef .tc main_arg15) :=
  (keep12 (val12 V0) main_arg15 (by decide)).trans (val12_arg15 V0)
theorem val13_arg16 (V0 : Valuation τ sig (Elt F)) : val13 V0 (Proc.devRef .tc main_arg16) = V0 (Proc.devRef .tc main_arg16) :=
  (keep12 (val12 V0) main_arg16 (by decide)).trans (val12_arg16 V0)
theorem val13_arg17 (V0 : Valuation τ sig (Elt F)) : val13 V0 (Proc.devRef .tc main_arg17) = V0 (Proc.devRef .tc main_arg17) :=
  (keep12 (val12 V0) main_arg17 (by decide)).trans (val12_arg17 V0)
theorem val13_v3 (V0 : Valuation τ sig (Elt F)) : val13 V0 (Proc.devRef .tc main_v3) = res_v3 V0 :=
  (keep12 (val12 V0) main_v3 (by decide)).trans (val12_v3 V0)
theorem val13_v6 (V0 : Valuation τ sig (Elt F)) : val13 V0 (Proc.devRef .tc main_v6) = res_v6 V0 :=
  (keep12 (val12 V0) main_v6 (by decide)).trans (val12_v6 V0)
theorem val13_v28 (V0 : Valuation τ sig (Elt F)) : val13 V0 (Proc.devRef .tc main_v28) = res_v28 V0 :=
  (keep12 (val12 V0) main_v28 (by decide)).trans (val12_v28 V0)
theorem val13_v29 (V0 : Valuation τ sig (Elt F)) : val13 V0 (Proc.devRef .tc main_v29) = res_v29 V0 :=
  (keep12 (val12 V0) main_v29 (by decide)).trans (val12_v29 V0)
theorem val13_v88 (V0 : Valuation τ sig (Elt F)) : val13 V0 (Proc.devRef .tc main_v88) = res_v88 V0 :=
  (keep12 (val12 V0) main_v88 (by decide)).trans (val12_v88 V0)
theorem val13_v129 (V0 : Valuation τ sig (Elt F)) : val13 V0 (Proc.devRef .tc main_v129) = res_v129 V0 :=
  (c12_v129 (val12 V0)).trans (by rw [val12_v101, val12_v100, val12_arg11, res_v129])

/-- The arrays after stretches 0 … 13. -/
def val14 (V0 : Valuation τ sig (Elt F)) : Valuation τ sig (Elt F) := after ops13 (val13 V0)
theorem val14_arg0 (V0 : Valuation τ sig (Elt F)) : val14 V0 (Proc.devRef .tc main_arg0) = V0 (Proc.devRef .tc main_arg0) :=
  (keep13 (val13 V0) main_arg0 (by decide)).trans (val13_arg0 V0)
theorem val14_arg1 (V0 : Valuation τ sig (Elt F)) : val14 V0 (Proc.devRef .tc main_arg1) = V0 (Proc.devRef .tc main_arg1) :=
  (keep13 (val13 V0) main_arg1 (by decide)).trans (val13_arg1 V0)
theorem val14_arg2 (V0 : Valuation τ sig (Elt F)) : val14 V0 (Proc.devRef .tc main_arg2) = V0 (Proc.devRef .tc main_arg2) :=
  (keep13 (val13 V0) main_arg2 (by decide)).trans (val13_arg2 V0)
theorem val14_arg3 (V0 : Valuation τ sig (Elt F)) : val14 V0 (Proc.devRef .tc main_arg3) = V0 (Proc.devRef .tc main_arg3) :=
  (keep13 (val13 V0) main_arg3 (by decide)).trans (val13_arg3 V0)
theorem val14_arg4 (V0 : Valuation τ sig (Elt F)) : val14 V0 (Proc.devRef .tc main_arg4) = V0 (Proc.devRef .tc main_arg4) :=
  (keep13 (val13 V0) main_arg4 (by decide)).trans (val13_arg4 V0)
theorem val14_arg5 (V0 : Valuation τ sig (Elt F)) : val14 V0 (Proc.devRef .tc main_arg5) = V0 (Proc.devRef .tc main_arg5) :=
  (keep13 (val13 V0) main_arg5 (by decide)).trans (val13_arg5 V0)
theorem val14_arg6 (V0 : Valuation τ sig (Elt F)) : val14 V0 (Proc.devRef .tc main_arg6) = V0 (Proc.devRef .tc main_arg6) :=
  (keep13 (val13 V0) main_arg6 (by decide)).trans (val13_arg6 V0)
theorem val14_arg7 (V0 : Valuation τ sig (Elt F)) : val14 V0 (Proc.devRef .tc main_arg7) = V0 (Proc.devRef .tc main_arg7) :=
  (keep13 (val13 V0) main_arg7 (by decide)).trans (val13_arg7 V0)
theorem val14_arg8 (V0 : Valuation τ sig (Elt F)) : val14 V0 (Proc.devRef .tc main_arg8) = V0 (Proc.devRef .tc main_arg8) :=
  (keep13 (val13 V0) main_arg8 (by decide)).trans (val13_arg8 V0)
theorem val14_arg9 (V0 : Valuation τ sig (Elt F)) : val14 V0 (Proc.devRef .tc main_arg9) = V0 (Proc.devRef .tc main_arg9) :=
  (keep13 (val13 V0) main_arg9 (by decide)).trans (val13_arg9 V0)
theorem val14_arg10 (V0 : Valuation τ sig (Elt F)) : val14 V0 (Proc.devRef .tc main_arg10) = V0 (Proc.devRef .tc main_arg10) :=
  (keep13 (val13 V0) main_arg10 (by decide)).trans (val13_arg10 V0)
theorem val14_arg11 (V0 : Valuation τ sig (Elt F)) : val14 V0 (Proc.devRef .tc main_arg11) = V0 (Proc.devRef .tc main_arg11) :=
  (keep13 (val13 V0) main_arg11 (by decide)).trans (val13_arg11 V0)
theorem val14_arg12 (V0 : Valuation τ sig (Elt F)) : val14 V0 (Proc.devRef .tc main_arg12) = V0 (Proc.devRef .tc main_arg12) :=
  (keep13 (val13 V0) main_arg12 (by decide)).trans (val13_arg12 V0)
theorem val14_arg13 (V0 : Valuation τ sig (Elt F)) : val14 V0 (Proc.devRef .tc main_arg13) = V0 (Proc.devRef .tc main_arg13) :=
  (keep13 (val13 V0) main_arg13 (by decide)).trans (val13_arg13 V0)
theorem val14_arg14 (V0 : Valuation τ sig (Elt F)) : val14 V0 (Proc.devRef .tc main_arg14) = V0 (Proc.devRef .tc main_arg14) :=
  (keep13 (val13 V0) main_arg14 (by decide)).trans (val13_arg14 V0)
theorem val14_arg15 (V0 : Valuation τ sig (Elt F)) : val14 V0 (Proc.devRef .tc main_arg15) = V0 (Proc.devRef .tc main_arg15) :=
  (keep13 (val13 V0) main_arg15 (by decide)).trans (val13_arg15 V0)
theorem val14_arg16 (V0 : Valuation τ sig (Elt F)) : val14 V0 (Proc.devRef .tc main_arg16) = V0 (Proc.devRef .tc main_arg16) :=
  (keep13 (val13 V0) main_arg16 (by decide)).trans (val13_arg16 V0)
theorem val14_arg17 (V0 : Valuation τ sig (Elt F)) : val14 V0 (Proc.devRef .tc main_arg17) = V0 (Proc.devRef .tc main_arg17) :=
  (keep13 (val13 V0) main_arg17 (by decide)).trans (val13_arg17 V0)
theorem val14_v3 (V0 : Valuation τ sig (Elt F)) : val14 V0 (Proc.devRef .tc main_v3) = res_v3 V0 :=
  (keep13 (val13 V0) main_v3 (by decide)).trans (val13_v3 V0)
theorem val14_v6 (V0 : Valuation τ sig (Elt F)) : val14 V0 (Proc.devRef .tc main_v6) = res_v6 V0 :=
  (keep13 (val13 V0) main_v6 (by decide)).trans (val13_v6 V0)
theorem val14_v28 (V0 : Valuation τ sig (Elt F)) : val14 V0 (Proc.devRef .tc main_v28) = res_v28 V0 :=
  (keep13 (val13 V0) main_v28 (by decide)).trans (val13_v28 V0)
theorem val14_v29 (V0 : Valuation τ sig (Elt F)) : val14 V0 (Proc.devRef .tc main_v29) = res_v29 V0 :=
  (keep13 (val13 V0) main_v29 (by decide)).trans (val13_v29 V0)
theorem val14_v88 (V0 : Valuation τ sig (Elt F)) : val14 V0 (Proc.devRef .tc main_v88) = res_v88 V0 :=
  (keep13 (val13 V0) main_v88 (by decide)).trans (val13_v88 V0)
theorem val14_v130 (V0 : Valuation τ sig (Elt F)) : val14 V0 (Proc.devRef .tc main_v130) = res_v130 V0 :=
  (c13_v130 (val13 V0)).trans (by rw [val13_v129, res_v130])

/-- The arrays after stretches 0 … 14. -/
def val15 (V0 : Valuation τ sig (Elt F)) : Valuation τ sig (Elt F) := after ops14 (val14 V0)
theorem val15_arg0 (V0 : Valuation τ sig (Elt F)) : val15 V0 (Proc.devRef .tc main_arg0) = V0 (Proc.devRef .tc main_arg0) :=
  (keep14 (val14 V0) main_arg0 (by decide)).trans (val14_arg0 V0)
theorem val15_arg1 (V0 : Valuation τ sig (Elt F)) : val15 V0 (Proc.devRef .tc main_arg1) = V0 (Proc.devRef .tc main_arg1) :=
  (keep14 (val14 V0) main_arg1 (by decide)).trans (val14_arg1 V0)
theorem val15_arg2 (V0 : Valuation τ sig (Elt F)) : val15 V0 (Proc.devRef .tc main_arg2) = V0 (Proc.devRef .tc main_arg2) :=
  (keep14 (val14 V0) main_arg2 (by decide)).trans (val14_arg2 V0)
theorem val15_arg3 (V0 : Valuation τ sig (Elt F)) : val15 V0 (Proc.devRef .tc main_arg3) = V0 (Proc.devRef .tc main_arg3) :=
  (keep14 (val14 V0) main_arg3 (by decide)).trans (val14_arg3 V0)
theorem val15_arg4 (V0 : Valuation τ sig (Elt F)) : val15 V0 (Proc.devRef .tc main_arg4) = V0 (Proc.devRef .tc main_arg4) :=
  (keep14 (val14 V0) main_arg4 (by decide)).trans (val14_arg4 V0)
theorem val15_arg5 (V0 : Valuation τ sig (Elt F)) : val15 V0 (Proc.devRef .tc main_arg5) = V0 (Proc.devRef .tc main_arg5) :=
  (keep14 (val14 V0) main_arg5 (by decide)).trans (val14_arg5 V0)
theorem val15_arg6 (V0 : Valuation τ sig (Elt F)) : val15 V0 (Proc.devRef .tc main_arg6) = V0 (Proc.devRef .tc main_arg6) :=
  (keep14 (val14 V0) main_arg6 (by decide)).trans (val14_arg6 V0)
theorem val15_arg7 (V0 : Valuation τ sig (Elt F)) : val15 V0 (Proc.devRef .tc main_arg7) = V0 (Proc.devRef .tc main_arg7) :=
  (keep14 (val14 V0) main_arg7 (by decide)).trans (val14_arg7 V0)
theorem val15_arg8 (V0 : Valuation τ sig (Elt F)) : val15 V0 (Proc.devRef .tc main_arg8) = V0 (Proc.devRef .tc main_arg8) :=
  (keep14 (val14 V0) main_arg8 (by decide)).trans (val14_arg8 V0)
theorem val15_arg9 (V0 : Valuation τ sig (Elt F)) : val15 V0 (Proc.devRef .tc main_arg9) = V0 (Proc.devRef .tc main_arg9) :=
  (keep14 (val14 V0) main_arg9 (by decide)).trans (val14_arg9 V0)
theorem val15_arg10 (V0 : Valuation τ sig (Elt F)) : val15 V0 (Proc.devRef .tc main_arg10) = V0 (Proc.devRef .tc main_arg10) :=
  (keep14 (val14 V0) main_arg10 (by decide)).trans (val14_arg10 V0)
theorem val15_arg11 (V0 : Valuation τ sig (Elt F)) : val15 V0 (Proc.devRef .tc main_arg11) = V0 (Proc.devRef .tc main_arg11) :=
  (keep14 (val14 V0) main_arg11 (by decide)).trans (val14_arg11 V0)
theorem val15_arg12 (V0 : Valuation τ sig (Elt F)) : val15 V0 (Proc.devRef .tc main_arg12) = V0 (Proc.devRef .tc main_arg12) :=
  (keep14 (val14 V0) main_arg12 (by decide)).trans (val14_arg12 V0)
theorem val15_arg13 (V0 : Valuation τ sig (Elt F)) : val15 V0 (Proc.devRef .tc main_arg13) = V0 (Proc.devRef .tc main_arg13) :=
  (keep14 (val14 V0) main_arg13 (by decide)).trans (val14_arg13 V0)
theorem val15_arg14 (V0 : Valuation τ sig (Elt F)) : val15 V0 (Proc.devRef .tc main_arg14) = V0 (Proc.devRef .tc main_arg14) :=
  (keep14 (val14 V0) main_arg14 (by decide)).trans (val14_arg14 V0)
theorem val15_arg15 (V0 : Valuation τ sig (Elt F)) : val15 V0 (Proc.devRef .tc main_arg15) = V0 (Proc.devRef .tc main_arg15) :=
  (keep14 (val14 V0) main_arg15 (by decide)).trans (val14_arg15 V0)
theorem val15_arg16 (V0 : Valuation τ sig (Elt F)) : val15 V0 (Proc.devRef .tc main_arg16) = V0 (Proc.devRef .tc main_arg16) :=
  (keep14 (val14 V0) main_arg16 (by decide)).trans (val14_arg16 V0)
theorem val15_arg17 (V0 : Valuation τ sig (Elt F)) : val15 V0 (Proc.devRef .tc main_arg17) = V0 (Proc.devRef .tc main_arg17) :=
  (keep14 (val14 V0) main_arg17 (by decide)).trans (val14_arg17 V0)
theorem val15_v3 (V0 : Valuation τ sig (Elt F)) : val15 V0 (Proc.devRef .tc main_v3) = res_v3 V0 :=
  (keep14 (val14 V0) main_v3 (by decide)).trans (val14_v3 V0)
theorem val15_v6 (V0 : Valuation τ sig (Elt F)) : val15 V0 (Proc.devRef .tc main_v6) = res_v6 V0 :=
  (keep14 (val14 V0) main_v6 (by decide)).trans (val14_v6 V0)
theorem val15_v28 (V0 : Valuation τ sig (Elt F)) : val15 V0 (Proc.devRef .tc main_v28) = res_v28 V0 :=
  (keep14 (val14 V0) main_v28 (by decide)).trans (val14_v28 V0)
theorem val15_v29 (V0 : Valuation τ sig (Elt F)) : val15 V0 (Proc.devRef .tc main_v29) = res_v29 V0 :=
  (keep14 (val14 V0) main_v29 (by decide)).trans (val14_v29 V0)
theorem val15_v88 (V0 : Valuation τ sig (Elt F)) : val15 V0 (Proc.devRef .tc main_v88) = res_v88 V0 :=
  (keep14 (val14 V0) main_v88 (by decide)).trans (val14_v88 V0)
theorem val15_v138 (V0 : Valuation τ sig (Elt F)) : val15 V0 (Proc.devRef .tc main_v138) = res_v138 V0 :=
  (c14_v138 (val14 V0)).trans (by rw [val14_v130, val14_arg12, val14_arg13, res_v138])

/-- The arrays after stretches 0 … 15. -/
def val16 (V0 : Valuation τ sig (Elt F)) : Valuation τ sig (Elt F) := after ops15 (val15 V0)
theorem val16_arg0 (V0 : Valuation τ sig (Elt F)) : val16 V0 (Proc.devRef .tc main_arg0) = V0 (Proc.devRef .tc main_arg0) :=
  (keep15 (val15 V0) main_arg0 (by decide)).trans (val15_arg0 V0)
theorem val16_arg1 (V0 : Valuation τ sig (Elt F)) : val16 V0 (Proc.devRef .tc main_arg1) = V0 (Proc.devRef .tc main_arg1) :=
  (keep15 (val15 V0) main_arg1 (by decide)).trans (val15_arg1 V0)
theorem val16_arg2 (V0 : Valuation τ sig (Elt F)) : val16 V0 (Proc.devRef .tc main_arg2) = V0 (Proc.devRef .tc main_arg2) :=
  (keep15 (val15 V0) main_arg2 (by decide)).trans (val15_arg2 V0)
theorem val16_arg3 (V0 : Valuation τ sig (Elt F)) : val16 V0 (Proc.devRef .tc main_arg3) = V0 (Proc.devRef .tc main_arg3) :=
  (keep15 (val15 V0) main_arg3 (by decide)).trans (val15_arg3 V0)
theorem val16_arg4 (V0 : Valuation τ sig (Elt F)) : val16 V0 (Proc.devRef .tc main_arg4) = V0 (Proc.devRef .tc main_arg4) :=
  (keep15 (val15 V0) main_arg4 (by decide)).trans (val15_arg4 V0)
theorem val16_arg5 (V0 : Valuation τ sig (Elt F)) : val16 V0 (Proc.devRef .tc main_arg5) = V0 (Proc.devRef .tc main_arg5) :=
  (keep15 (val15 V0) main_arg5 (by decide)).trans (val15_arg5 V0)
theorem val16_arg6 (V0 : Valuation τ sig (Elt F)) : val16 V0 (Proc.devRef .tc main_arg6) = V0 (Proc.devRef .tc main_arg6) :=
  (keep15 (val15 V0) main_arg6 (by decide)).trans (val15_arg6 V0)
theorem val16_arg7 (V0 : Valuation τ sig (Elt F)) : val16 V0 (Proc.devRef .tc main_arg7) = V0 (Proc.devRef .tc main_arg7) :=
  (keep15 (val15 V0) main_arg7 (by decide)).trans (val15_arg7 V0)
theorem val16_arg8 (V0 : Valuation τ sig (Elt F)) : val16 V0 (Proc.devRef .tc main_arg8) = V0 (Proc.devRef .tc main_arg8) :=
  (keep15 (val15 V0) main_arg8 (by decide)).trans (val15_arg8 V0)
theorem val16_arg9 (V0 : Valuation τ sig (Elt F)) : val16 V0 (Proc.devRef .tc main_arg9) = V0 (Proc.devRef .tc main_arg9) :=
  (keep15 (val15 V0) main_arg9 (by decide)).trans (val15_arg9 V0)
theorem val16_arg10 (V0 : Valuation τ sig (Elt F)) : val16 V0 (Proc.devRef .tc main_arg10) = V0 (Proc.devRef .tc main_arg10) :=
  (keep15 (val15 V0) main_arg10 (by decide)).trans (val15_arg10 V0)
theorem val16_arg11 (V0 : Valuation τ sig (Elt F)) : val16 V0 (Proc.devRef .tc main_arg11) = V0 (Proc.devRef .tc main_arg11) :=
  (keep15 (val15 V0) main_arg11 (by decide)).trans (val15_arg11 V0)
theorem val16_arg12 (V0 : Valuation τ sig (Elt F)) : val16 V0 (Proc.devRef .tc main_arg12) = V0 (Proc.devRef .tc main_arg12) :=
  (keep15 (val15 V0) main_arg12 (by decide)).trans (val15_arg12 V0)
theorem val16_arg13 (V0 : Valuation τ sig (Elt F)) : val16 V0 (Proc.devRef .tc main_arg13) = V0 (Proc.devRef .tc main_arg13) :=
  (keep15 (val15 V0) main_arg13 (by decide)).trans (val15_arg13 V0)
theorem val16_arg14 (V0 : Valuation τ sig (Elt F)) : val16 V0 (Proc.devRef .tc main_arg14) = V0 (Proc.devRef .tc main_arg14) :=
  (keep15 (val15 V0) main_arg14 (by decide)).trans (val15_arg14 V0)
theorem val16_arg15 (V0 : Valuation τ sig (Elt F)) : val16 V0 (Proc.devRef .tc main_arg15) = V0 (Proc.devRef .tc main_arg15) :=
  (keep15 (val15 V0) main_arg15 (by decide)).trans (val15_arg15 V0)
theorem val16_arg16 (V0 : Valuation τ sig (Elt F)) : val16 V0 (Proc.devRef .tc main_arg16) = V0 (Proc.devRef .tc main_arg16) :=
  (keep15 (val15 V0) main_arg16 (by decide)).trans (val15_arg16 V0)
theorem val16_arg17 (V0 : Valuation τ sig (Elt F)) : val16 V0 (Proc.devRef .tc main_arg17) = V0 (Proc.devRef .tc main_arg17) :=
  (keep15 (val15 V0) main_arg17 (by decide)).trans (val15_arg17 V0)
theorem val16_v3 (V0 : Valuation τ sig (Elt F)) : val16 V0 (Proc.devRef .tc main_v3) = res_v3 V0 :=
  (keep15 (val15 V0) main_v3 (by decide)).trans (val15_v3 V0)
theorem val16_v6 (V0 : Valuation τ sig (Elt F)) : val16 V0 (Proc.devRef .tc main_v6) = res_v6 V0 :=
  (keep15 (val15 V0) main_v6 (by decide)).trans (val15_v6 V0)
theorem val16_v28 (V0 : Valuation τ sig (Elt F)) : val16 V0 (Proc.devRef .tc main_v28) = res_v28 V0 :=
  (keep15 (val15 V0) main_v28 (by decide)).trans (val15_v28 V0)
theorem val16_v29 (V0 : Valuation τ sig (Elt F)) : val16 V0 (Proc.devRef .tc main_v29) = res_v29 V0 :=
  (keep15 (val15 V0) main_v29 (by decide)).trans (val15_v29 V0)
theorem val16_v88 (V0 : Valuation τ sig (Elt F)) : val16 V0 (Proc.devRef .tc main_v88) = res_v88 V0 :=
  (keep15 (val15 V0) main_v88 (by decide)).trans (val15_v88 V0)
theorem val16_v138 (V0 : Valuation τ sig (Elt F)) : val16 V0 (Proc.devRef .tc main_v138) = res_v138 V0 :=
  (keep15 (val15 V0) main_v138 (by decide)).trans (val15_v138 V0)
theorem val16_v140 (V0 : Valuation τ sig (Elt F)) : val16 V0 (Proc.devRef .tc main_v140) = res_v140 V0 :=
  (c15_v140 (val15 V0)).trans (by rw [val15_arg14, res_v140])
theorem val16_v142 (V0 : Valuation τ sig (Elt F)) : val16 V0 (Proc.devRef .tc main_v142) = res_v142 V0 :=
  (c15_v142 (val15 V0)).trans (by rw [val15_arg15, res_v142])
theorem val16_v145 (V0 : Valuation τ sig (Elt F)) : val16 V0 (Proc.devRef .tc main_v145) = res_v145 V0 :=
  (c15_v145 (val15 V0)).trans (by rw [val15_v138, res_v145])
theorem val16_v152 (V0 : Valuation τ sig (Elt F)) : val16 V0 (Proc.devRef .tc main_v152) = res_v152 V0 :=
  (c15_v152 (val15 V0)).trans (by rw [val15_v138, res_v152])

/-- The arrays after stretches 0 … 16. -/
def val17 (V0 : Valuation τ sig (Elt F)) : Valuation τ sig (Elt F) := after ops16 (val16 V0)
theorem val17_arg0 (V0 : Valuation τ sig (Elt F)) : val17 V0 (Proc.devRef .tc main_arg0) = V0 (Proc.devRef .tc main_arg0) :=
  (keep16 (val16 V0) main_arg0 (by decide)).trans (val16_arg0 V0)
theorem val17_arg1 (V0 : Valuation τ sig (Elt F)) : val17 V0 (Proc.devRef .tc main_arg1) = V0 (Proc.devRef .tc main_arg1) :=
  (keep16 (val16 V0) main_arg1 (by decide)).trans (val16_arg1 V0)
theorem val17_arg2 (V0 : Valuation τ sig (Elt F)) : val17 V0 (Proc.devRef .tc main_arg2) = V0 (Proc.devRef .tc main_arg2) :=
  (keep16 (val16 V0) main_arg2 (by decide)).trans (val16_arg2 V0)
theorem val17_arg3 (V0 : Valuation τ sig (Elt F)) : val17 V0 (Proc.devRef .tc main_arg3) = V0 (Proc.devRef .tc main_arg3) :=
  (keep16 (val16 V0) main_arg3 (by decide)).trans (val16_arg3 V0)
theorem val17_arg4 (V0 : Valuation τ sig (Elt F)) : val17 V0 (Proc.devRef .tc main_arg4) = V0 (Proc.devRef .tc main_arg4) :=
  (keep16 (val16 V0) main_arg4 (by decide)).trans (val16_arg4 V0)
theorem val17_arg5 (V0 : Valuation τ sig (Elt F)) : val17 V0 (Proc.devRef .tc main_arg5) = V0 (Proc.devRef .tc main_arg5) :=
  (keep16 (val16 V0) main_arg5 (by decide)).trans (val16_arg5 V0)
theorem val17_arg6 (V0 : Valuation τ sig (Elt F)) : val17 V0 (Proc.devRef .tc main_arg6) = V0 (Proc.devRef .tc main_arg6) :=
  (keep16 (val16 V0) main_arg6 (by decide)).trans (val16_arg6 V0)
theorem val17_arg7 (V0 : Valuation τ sig (Elt F)) : val17 V0 (Proc.devRef .tc main_arg7) = V0 (Proc.devRef .tc main_arg7) :=
  (keep16 (val16 V0) main_arg7 (by decide)).trans (val16_arg7 V0)
theorem val17_arg8 (V0 : Valuation τ sig (Elt F)) : val17 V0 (Proc.devRef .tc main_arg8) = V0 (Proc.devRef .tc main_arg8) :=
  (keep16 (val16 V0) main_arg8 (by decide)).trans (val16_arg8 V0)
theorem val17_arg9 (V0 : Valuation τ sig (Elt F)) : val17 V0 (Proc.devRef .tc main_arg9) = V0 (Proc.devRef .tc main_arg9) :=
  (keep16 (val16 V0) main_arg9 (by decide)).trans (val16_arg9 V0)
theorem val17_arg10 (V0 : Valuation τ sig (Elt F)) : val17 V0 (Proc.devRef .tc main_arg10) = V0 (Proc.devRef .tc main_arg10) :=
  (keep16 (val16 V0) main_arg10 (by decide)).trans (val16_arg10 V0)
theorem val17_arg11 (V0 : Valuation τ sig (Elt F)) : val17 V0 (Proc.devRef .tc main_arg11) = V0 (Proc.devRef .tc main_arg11) :=
  (keep16 (val16 V0) main_arg11 (by decide)).trans (val16_arg11 V0)
theorem val17_arg12 (V0 : Valuation τ sig (Elt F)) : val17 V0 (Proc.devRef .tc main_arg12) = V0 (Proc.devRef .tc main_arg12) :=
  (keep16 (val16 V0) main_arg12 (by decide)).trans (val16_arg12 V0)
theorem val17_arg13 (V0 : Valuation τ sig (Elt F)) : val17 V0 (Proc.devRef .tc main_arg13) = V0 (Proc.devRef .tc main_arg13) :=
  (keep16 (val16 V0) main_arg13 (by decide)).trans (val16_arg13 V0)
theorem val17_arg14 (V0 : Valuation τ sig (Elt F)) : val17 V0 (Proc.devRef .tc main_arg14) = V0 (Proc.devRef .tc main_arg14) :=
  (keep16 (val16 V0) main_arg14 (by decide)).trans (val16_arg14 V0)
theorem val17_arg15 (V0 : Valuation τ sig (Elt F)) : val17 V0 (Proc.devRef .tc main_arg15) = V0 (Proc.devRef .tc main_arg15) :=
  (keep16 (val16 V0) main_arg15 (by decide)).trans (val16_arg15 V0)
theorem val17_arg16 (V0 : Valuation τ sig (Elt F)) : val17 V0 (Proc.devRef .tc main_arg16) = V0 (Proc.devRef .tc main_arg16) :=
  (keep16 (val16 V0) main_arg16 (by decide)).trans (val16_arg16 V0)
theorem val17_arg17 (V0 : Valuation τ sig (Elt F)) : val17 V0 (Proc.devRef .tc main_arg17) = V0 (Proc.devRef .tc main_arg17) :=
  (keep16 (val16 V0) main_arg17 (by decide)).trans (val16_arg17 V0)
theorem val17_v3 (V0 : Valuation τ sig (Elt F)) : val17 V0 (Proc.devRef .tc main_v3) = res_v3 V0 :=
  (keep16 (val16 V0) main_v3 (by decide)).trans (val16_v3 V0)
theorem val17_v6 (V0 : Valuation τ sig (Elt F)) : val17 V0 (Proc.devRef .tc main_v6) = res_v6 V0 :=
  (keep16 (val16 V0) main_v6 (by decide)).trans (val16_v6 V0)
theorem val17_v28 (V0 : Valuation τ sig (Elt F)) : val17 V0 (Proc.devRef .tc main_v28) = res_v28 V0 :=
  (keep16 (val16 V0) main_v28 (by decide)).trans (val16_v28 V0)
theorem val17_v29 (V0 : Valuation τ sig (Elt F)) : val17 V0 (Proc.devRef .tc main_v29) = res_v29 V0 :=
  (keep16 (val16 V0) main_v29 (by decide)).trans (val16_v29 V0)
theorem val17_v88 (V0 : Valuation τ sig (Elt F)) : val17 V0 (Proc.devRef .tc main_v88) = res_v88 V0 :=
  (keep16 (val16 V0) main_v88 (by decide)).trans (val16_v88 V0)
theorem val17_v167 (V0 : Valuation τ sig (Elt F)) : val17 V0 (Proc.devRef .tc main_v167) = res_v167 V0 :=
  (c16_v167 (val16 V0)).trans (by rw [val16_v140, val16_v138, val16_v145, val16_v152, val16_v142, res_v167])

/-- The arrays after stretches 0 … 17. -/
def val18 (V0 : Valuation τ sig (Elt F)) : Valuation τ sig (Elt F) := after ops17 (val17 V0)
theorem val18_arg0 (V0 : Valuation τ sig (Elt F)) : val18 V0 (Proc.devRef .tc main_arg0) = V0 (Proc.devRef .tc main_arg0) :=
  (keep17 (val17 V0) main_arg0 (by decide)).trans (val17_arg0 V0)
theorem val18_arg1 (V0 : Valuation τ sig (Elt F)) : val18 V0 (Proc.devRef .tc main_arg1) = V0 (Proc.devRef .tc main_arg1) :=
  (keep17 (val17 V0) main_arg1 (by decide)).trans (val17_arg1 V0)
theorem val18_arg2 (V0 : Valuation τ sig (Elt F)) : val18 V0 (Proc.devRef .tc main_arg2) = V0 (Proc.devRef .tc main_arg2) :=
  (keep17 (val17 V0) main_arg2 (by decide)).trans (val17_arg2 V0)
theorem val18_arg3 (V0 : Valuation τ sig (Elt F)) : val18 V0 (Proc.devRef .tc main_arg3) = V0 (Proc.devRef .tc main_arg3) :=
  (keep17 (val17 V0) main_arg3 (by decide)).trans (val17_arg3 V0)
theorem val18_arg4 (V0 : Valuation τ sig (Elt F)) : val18 V0 (Proc.devRef .tc main_arg4) = V0 (Proc.devRef .tc main_arg4) :=
  (keep17 (val17 V0) main_arg4 (by decide)).trans (val17_arg4 V0)
theorem val18_arg5 (V0 : Valuation τ sig (Elt F)) : val18 V0 (Proc.devRef .tc main_arg5) = V0 (Proc.devRef .tc main_arg5) :=
  (keep17 (val17 V0) main_arg5 (by decide)).trans (val17_arg5 V0)
theorem val18_arg6 (V0 : Valuation τ sig (Elt F)) : val18 V0 (Proc.devRef .tc main_arg6) = V0 (Proc.devRef .tc main_arg6) :=
  (keep17 (val17 V0) main_arg6 (by decide)).trans (val17_arg6 V0)
theorem val18_arg7 (V0 : Valuation τ sig (Elt F)) : val18 V0 (Proc.devRef .tc main_arg7) = V0 (Proc.devRef .tc main_arg7) :=
  (keep17 (val17 V0) main_arg7 (by decide)).trans (val17_arg7 V0)
theorem val18_arg8 (V0 : Valuation τ sig (Elt F)) : val18 V0 (Proc.devRef .tc main_arg8) = V0 (Proc.devRef .tc main_arg8) :=
  (keep17 (val17 V0) main_arg8 (by decide)).trans (val17_arg8 V0)
theorem val18_arg9 (V0 : Valuation τ sig (Elt F)) : val18 V0 (Proc.devRef .tc main_arg9) = V0 (Proc.devRef .tc main_arg9) :=
  (keep17 (val17 V0) main_arg9 (by decide)).trans (val17_arg9 V0)
theorem val18_arg10 (V0 : Valuation τ sig (Elt F)) : val18 V0 (Proc.devRef .tc main_arg10) = V0 (Proc.devRef .tc main_arg10) :=
  (keep17 (val17 V0) main_arg10 (by decide)).trans (val17_arg10 V0)
theorem val18_arg11 (V0 : Valuation τ sig (Elt F)) : val18 V0 (Proc.devRef .tc main_arg11) = V0 (Proc.devRef .tc main_arg11) :=
  (keep17 (val17 V0) main_arg11 (by decide)).trans (val17_arg11 V0)
theorem val18_arg12 (V0 : Valuation τ sig (Elt F)) : val18 V0 (Proc.devRef .tc main_arg12) = V0 (Proc.devRef .tc main_arg12) :=
  (keep17 (val17 V0) main_arg12 (by decide)).trans (val17_arg12 V0)
theorem val18_arg13 (V0 : Valuation τ sig (Elt F)) : val18 V0 (Proc.devRef .tc main_arg13) = V0 (Proc.devRef .tc main_arg13) :=
  (keep17 (val17 V0) main_arg13 (by decide)).trans (val17_arg13 V0)
theorem val18_arg14 (V0 : Valuation τ sig (Elt F)) : val18 V0 (Proc.devRef .tc main_arg14) = V0 (Proc.devRef .tc main_arg14) :=
  (keep17 (val17 V0) main_arg14 (by decide)).trans (val17_arg14 V0)
theorem val18_arg15 (V0 : Valuation τ sig (Elt F)) : val18 V0 (Proc.devRef .tc main_arg15) = V0 (Proc.devRef .tc main_arg15) :=
  (keep17 (val17 V0) main_arg15 (by decide)).trans (val17_arg15 V0)
theorem val18_arg16 (V0 : Valuation τ sig (Elt F)) : val18 V0 (Proc.devRef .tc main_arg16) = V0 (Proc.devRef .tc main_arg16) :=
  (keep17 (val17 V0) main_arg16 (by decide)).trans (val17_arg16 V0)
theorem val18_arg17 (V0 : Valuation τ sig (Elt F)) : val18 V0 (Proc.devRef .tc main_arg17) = V0 (Proc.devRef .tc main_arg17) :=
  (keep17 (val17 V0) main_arg17 (by decide)).trans (val17_arg17 V0)
theorem val18_v3 (V0 : Valuation τ sig (Elt F)) : val18 V0 (Proc.devRef .tc main_v3) = res_v3 V0 :=
  (keep17 (val17 V0) main_v3 (by decide)).trans (val17_v3 V0)
theorem val18_v6 (V0 : Valuation τ sig (Elt F)) : val18 V0 (Proc.devRef .tc main_v6) = res_v6 V0 :=
  (keep17 (val17 V0) main_v6 (by decide)).trans (val17_v6 V0)
theorem val18_v28 (V0 : Valuation τ sig (Elt F)) : val18 V0 (Proc.devRef .tc main_v28) = res_v28 V0 :=
  (keep17 (val17 V0) main_v28 (by decide)).trans (val17_v28 V0)
theorem val18_v29 (V0 : Valuation τ sig (Elt F)) : val18 V0 (Proc.devRef .tc main_v29) = res_v29 V0 :=
  (keep17 (val17 V0) main_v29 (by decide)).trans (val17_v29 V0)
theorem val18_v88 (V0 : Valuation τ sig (Elt F)) : val18 V0 (Proc.devRef .tc main_v88) = res_v88 V0 :=
  (keep17 (val17 V0) main_v88 (by decide)).trans (val17_v88 V0)
theorem val18_v168 (V0 : Valuation τ sig (Elt F)) : val18 V0 (Proc.devRef .tc main_v168) = res_v168 V0 :=
  (c17_v168 (val17 V0)).trans (by rw [val17_v167, res_v168])

/-- The arrays after stretches 0 … 18. -/
def val19 (V0 : Valuation τ sig (Elt F)) : Valuation τ sig (Elt F) := after ops18 (val18 V0)
theorem val19_arg0 (V0 : Valuation τ sig (Elt F)) : val19 V0 (Proc.devRef .tc main_arg0) = V0 (Proc.devRef .tc main_arg0) :=
  (keep18 (val18 V0) main_arg0 (by decide)).trans (val18_arg0 V0)
theorem val19_arg1 (V0 : Valuation τ sig (Elt F)) : val19 V0 (Proc.devRef .tc main_arg1) = V0 (Proc.devRef .tc main_arg1) :=
  (keep18 (val18 V0) main_arg1 (by decide)).trans (val18_arg1 V0)
theorem val19_arg2 (V0 : Valuation τ sig (Elt F)) : val19 V0 (Proc.devRef .tc main_arg2) = V0 (Proc.devRef .tc main_arg2) :=
  (keep18 (val18 V0) main_arg2 (by decide)).trans (val18_arg2 V0)
theorem val19_arg3 (V0 : Valuation τ sig (Elt F)) : val19 V0 (Proc.devRef .tc main_arg3) = V0 (Proc.devRef .tc main_arg3) :=
  (keep18 (val18 V0) main_arg3 (by decide)).trans (val18_arg3 V0)
theorem val19_arg4 (V0 : Valuation τ sig (Elt F)) : val19 V0 (Proc.devRef .tc main_arg4) = V0 (Proc.devRef .tc main_arg4) :=
  (keep18 (val18 V0) main_arg4 (by decide)).trans (val18_arg4 V0)
theorem val19_arg5 (V0 : Valuation τ sig (Elt F)) : val19 V0 (Proc.devRef .tc main_arg5) = V0 (Proc.devRef .tc main_arg5) :=
  (keep18 (val18 V0) main_arg5 (by decide)).trans (val18_arg5 V0)
theorem val19_arg6 (V0 : Valuation τ sig (Elt F)) : val19 V0 (Proc.devRef .tc main_arg6) = V0 (Proc.devRef .tc main_arg6) :=
  (keep18 (val18 V0) main_arg6 (by decide)).trans (val18_arg6 V0)
theorem val19_arg7 (V0 : Valuation τ sig (Elt F)) : val19 V0 (Proc.devRef .tc main_arg7) = V0 (Proc.devRef .tc main_arg7) :=
  (keep18 (val18 V0) main_arg7 (by decide)).trans (val18_arg7 V0)
theorem val19_arg8 (V0 : Valuation τ sig (Elt F)) : val19 V0 (Proc.devRef .tc main_arg8) = V0 (Proc.devRef .tc main_arg8) :=
  (keep18 (val18 V0) main_arg8 (by decide)).trans (val18_arg8 V0)
theorem val19_arg9 (V0 : Valuation τ sig (Elt F)) : val19 V0 (Proc.devRef .tc main_arg9) = V0 (Proc.devRef .tc main_arg9) :=
  (keep18 (val18 V0) main_arg9 (by decide)).trans (val18_arg9 V0)
theorem val19_arg10 (V0 : Valuation τ sig (Elt F)) : val19 V0 (Proc.devRef .tc main_arg10) = V0 (Proc.devRef .tc main_arg10) :=
  (keep18 (val18 V0) main_arg10 (by decide)).trans (val18_arg10 V0)
theorem val19_arg11 (V0 : Valuation τ sig (Elt F)) : val19 V0 (Proc.devRef .tc main_arg11) = V0 (Proc.devRef .tc main_arg11) :=
  (keep18 (val18 V0) main_arg11 (by decide)).trans (val18_arg11 V0)
theorem val19_arg12 (V0 : Valuation τ sig (Elt F)) : val19 V0 (Proc.devRef .tc main_arg12) = V0 (Proc.devRef .tc main_arg12) :=
  (keep18 (val18 V0) main_arg12 (by decide)).trans (val18_arg12 V0)
theorem val19_arg13 (V0 : Valuation τ sig (Elt F)) : val19 V0 (Proc.devRef .tc main_arg13) = V0 (Proc.devRef .tc main_arg13) :=
  (keep18 (val18 V0) main_arg13 (by decide)).trans (val18_arg13 V0)
theorem val19_arg14 (V0 : Valuation τ sig (Elt F)) : val19 V0 (Proc.devRef .tc main_arg14) = V0 (Proc.devRef .tc main_arg14) :=
  (keep18 (val18 V0) main_arg14 (by decide)).trans (val18_arg14 V0)
theorem val19_arg15 (V0 : Valuation τ sig (Elt F)) : val19 V0 (Proc.devRef .tc main_arg15) = V0 (Proc.devRef .tc main_arg15) :=
  (keep18 (val18 V0) main_arg15 (by decide)).trans (val18_arg15 V0)
theorem val19_arg16 (V0 : Valuation τ sig (Elt F)) : val19 V0 (Proc.devRef .tc main_arg16) = V0 (Proc.devRef .tc main_arg16) :=
  (keep18 (val18 V0) main_arg16 (by decide)).trans (val18_arg16 V0)
theorem val19_arg17 (V0 : Valuation τ sig (Elt F)) : val19 V0 (Proc.devRef .tc main_arg17) = V0 (Proc.devRef .tc main_arg17) :=
  (keep18 (val18 V0) main_arg17 (by decide)).trans (val18_arg17 V0)
theorem val19_v3 (V0 : Valuation τ sig (Elt F)) : val19 V0 (Proc.devRef .tc main_v3) = res_v3 V0 :=
  (keep18 (val18 V0) main_v3 (by decide)).trans (val18_v3 V0)
theorem val19_v6 (V0 : Valuation τ sig (Elt F)) : val19 V0 (Proc.devRef .tc main_v6) = res_v6 V0 :=
  (keep18 (val18 V0) main_v6 (by decide)).trans (val18_v6 V0)
theorem val19_v28 (V0 : Valuation τ sig (Elt F)) : val19 V0 (Proc.devRef .tc main_v28) = res_v28 V0 :=
  (keep18 (val18 V0) main_v28 (by decide)).trans (val18_v28 V0)
theorem val19_v88 (V0 : Valuation τ sig (Elt F)) : val19 V0 (Proc.devRef .tc main_v88) = res_v88 V0 :=
  (keep18 (val18 V0) main_v88 (by decide)).trans (val18_v88 V0)
theorem val19_v169 (V0 : Valuation τ sig (Elt F)) : val19 V0 (Proc.devRef .tc main_v169) = res_v169 V0 :=
  (c18_v169 (val18 V0)).trans (by rw [val18_v29, val18_v168, res_v169])

/-- The arrays after stretches 0 … 19. -/
def val20 (V0 : Valuation τ sig (Elt F)) : Valuation τ sig (Elt F) := after ops19 (val19 V0)
theorem val20_arg0 (V0 : Valuation τ sig (Elt F)) : val20 V0 (Proc.devRef .tc main_arg0) = V0 (Proc.devRef .tc main_arg0) :=
  (keep19 (val19 V0) main_arg0 (by decide)).trans (val19_arg0 V0)
theorem val20_arg1 (V0 : Valuation τ sig (Elt F)) : val20 V0 (Proc.devRef .tc main_arg1) = V0 (Proc.devRef .tc main_arg1) :=
  (keep19 (val19 V0) main_arg1 (by decide)).trans (val19_arg1 V0)
theorem val20_arg2 (V0 : Valuation τ sig (Elt F)) : val20 V0 (Proc.devRef .tc main_arg2) = V0 (Proc.devRef .tc main_arg2) :=
  (keep19 (val19 V0) main_arg2 (by decide)).trans (val19_arg2 V0)
theorem val20_arg3 (V0 : Valuation τ sig (Elt F)) : val20 V0 (Proc.devRef .tc main_arg3) = V0 (Proc.devRef .tc main_arg3) :=
  (keep19 (val19 V0) main_arg3 (by decide)).trans (val19_arg3 V0)
theorem val20_arg4 (V0 : Valuation τ sig (Elt F)) : val20 V0 (Proc.devRef .tc main_arg4) = V0 (Proc.devRef .tc main_arg4) :=
  (keep19 (val19 V0) main_arg4 (by decide)).trans (val19_arg4 V0)
theorem val20_arg5 (V0 : Valuation τ sig (Elt F)) : val20 V0 (Proc.devRef .tc main_arg5) = V0 (Proc.devRef .tc main_arg5) :=
  (keep19 (val19 V0) main_arg5 (by decide)).trans (val19_arg5 V0)
theorem val20_arg6 (V0 : Valuation τ sig (Elt F)) : val20 V0 (Proc.devRef .tc main_arg6) = V0 (Proc.devRef .tc main_arg6) :=
  (keep19 (val19 V0) main_arg6 (by decide)).trans (val19_arg6 V0)
theorem val20_arg7 (V0 : Valuation τ sig (Elt F)) : val20 V0 (Proc.devRef .tc main_arg7) = V0 (Proc.devRef .tc main_arg7) :=
  (keep19 (val19 V0) main_arg7 (by decide)).trans (val19_arg7 V0)
theorem val20_arg8 (V0 : Valuation τ sig (Elt F)) : val20 V0 (Proc.devRef .tc main_arg8) = V0 (Proc.devRef .tc main_arg8) :=
  (keep19 (val19 V0) main_arg8 (by decide)).trans (val19_arg8 V0)
theorem val20_arg9 (V0 : Valuation τ sig (Elt F)) : val20 V0 (Proc.devRef .tc main_arg9) = V0 (Proc.devRef .tc main_arg9) :=
  (keep19 (val19 V0) main_arg9 (by decide)).trans (val19_arg9 V0)
theorem val20_arg10 (V0 : Valuation τ sig (Elt F)) : val20 V0 (Proc.devRef .tc main_arg10) = V0 (Proc.devRef .tc main_arg10) :=
  (keep19 (val19 V0) main_arg10 (by decide)).trans (val19_arg10 V0)
theorem val20_arg11 (V0 : Valuation τ sig (Elt F)) : val20 V0 (Proc.devRef .tc main_arg11) = V0 (Proc.devRef .tc main_arg11) :=
  (keep19 (val19 V0) main_arg11 (by decide)).trans (val19_arg11 V0)
theorem val20_arg12 (V0 : Valuation τ sig (Elt F)) : val20 V0 (Proc.devRef .tc main_arg12) = V0 (Proc.devRef .tc main_arg12) :=
  (keep19 (val19 V0) main_arg12 (by decide)).trans (val19_arg12 V0)
theorem val20_arg13 (V0 : Valuation τ sig (Elt F)) : val20 V0 (Proc.devRef .tc main_arg13) = V0 (Proc.devRef .tc main_arg13) :=
  (keep19 (val19 V0) main_arg13 (by decide)).trans (val19_arg13 V0)
theorem val20_arg14 (V0 : Valuation τ sig (Elt F)) : val20 V0 (Proc.devRef .tc main_arg14) = V0 (Proc.devRef .tc main_arg14) :=
  (keep19 (val19 V0) main_arg14 (by decide)).trans (val19_arg14 V0)
theorem val20_arg15 (V0 : Valuation τ sig (Elt F)) : val20 V0 (Proc.devRef .tc main_arg15) = V0 (Proc.devRef .tc main_arg15) :=
  (keep19 (val19 V0) main_arg15 (by decide)).trans (val19_arg15 V0)
theorem val20_arg16 (V0 : Valuation τ sig (Elt F)) : val20 V0 (Proc.devRef .tc main_arg16) = V0 (Proc.devRef .tc main_arg16) :=
  (keep19 (val19 V0) main_arg16 (by decide)).trans (val19_arg16 V0)
theorem val20_arg17 (V0 : Valuation τ sig (Elt F)) : val20 V0 (Proc.devRef .tc main_arg17) = V0 (Proc.devRef .tc main_arg17) :=
  (keep19 (val19 V0) main_arg17 (by decide)).trans (val19_arg17 V0)
theorem val20_v3 (V0 : Valuation τ sig (Elt F)) : val20 V0 (Proc.devRef .tc main_v3) = res_v3 V0 :=
  (keep19 (val19 V0) main_v3 (by decide)).trans (val19_v3 V0)
theorem val20_v6 (V0 : Valuation τ sig (Elt F)) : val20 V0 (Proc.devRef .tc main_v6) = res_v6 V0 :=
  (keep19 (val19 V0) main_v6 (by decide)).trans (val19_v6 V0)
theorem val20_v28 (V0 : Valuation τ sig (Elt F)) : val20 V0 (Proc.devRef .tc main_v28) = res_v28 V0 :=
  (keep19 (val19 V0) main_v28 (by decide)).trans (val19_v28 V0)
theorem val20_v169 (V0 : Valuation τ sig (Elt F)) : val20 V0 (Proc.devRef .tc main_v169) = res_v169 V0 :=
  (keep19 (val19 V0) main_v169 (by decide)).trans (val19_v169 V0)
theorem val20_v182 (V0 : Valuation τ sig (Elt F)) : val20 V0 (Proc.devRef .tc main_v182) = res_v182 V0 :=
  (c19_v182 (val19 V0)).trans (by rw [val19_v6, val19_v28, val19_v88, val19_v3, res_v182])

/-- The arrays after stretches 0 … 20. -/
def val21 (V0 : Valuation τ sig (Elt F)) : Valuation τ sig (Elt F) := after ops20 (val20 V0)
theorem val21_arg0 (V0 : Valuation τ sig (Elt F)) : val21 V0 (Proc.devRef .tc main_arg0) = V0 (Proc.devRef .tc main_arg0) :=
  (keep20 (val20 V0) main_arg0 (by decide)).trans (val20_arg0 V0)
theorem val21_arg1 (V0 : Valuation τ sig (Elt F)) : val21 V0 (Proc.devRef .tc main_arg1) = V0 (Proc.devRef .tc main_arg1) :=
  (keep20 (val20 V0) main_arg1 (by decide)).trans (val20_arg1 V0)
theorem val21_arg2 (V0 : Valuation τ sig (Elt F)) : val21 V0 (Proc.devRef .tc main_arg2) = V0 (Proc.devRef .tc main_arg2) :=
  (keep20 (val20 V0) main_arg2 (by decide)).trans (val20_arg2 V0)
theorem val21_arg3 (V0 : Valuation τ sig (Elt F)) : val21 V0 (Proc.devRef .tc main_arg3) = V0 (Proc.devRef .tc main_arg3) :=
  (keep20 (val20 V0) main_arg3 (by decide)).trans (val20_arg3 V0)
theorem val21_arg4 (V0 : Valuation τ sig (Elt F)) : val21 V0 (Proc.devRef .tc main_arg4) = V0 (Proc.devRef .tc main_arg4) :=
  (keep20 (val20 V0) main_arg4 (by decide)).trans (val20_arg4 V0)
theorem val21_arg5 (V0 : Valuation τ sig (Elt F)) : val21 V0 (Proc.devRef .tc main_arg5) = V0 (Proc.devRef .tc main_arg5) :=
  (keep20 (val20 V0) main_arg5 (by decide)).trans (val20_arg5 V0)
theorem val21_arg6 (V0 : Valuation τ sig (Elt F)) : val21 V0 (Proc.devRef .tc main_arg6) = V0 (Proc.devRef .tc main_arg6) :=
  (keep20 (val20 V0) main_arg6 (by decide)).trans (val20_arg6 V0)
theorem val21_arg7 (V0 : Valuation τ sig (Elt F)) : val21 V0 (Proc.devRef .tc main_arg7) = V0 (Proc.devRef .tc main_arg7) :=
  (keep20 (val20 V0) main_arg7 (by decide)).trans (val20_arg7 V0)
theorem val21_arg8 (V0 : Valuation τ sig (Elt F)) : val21 V0 (Proc.devRef .tc main_arg8) = V0 (Proc.devRef .tc main_arg8) :=
  (keep20 (val20 V0) main_arg8 (by decide)).trans (val20_arg8 V0)
theorem val21_arg9 (V0 : Valuation τ sig (Elt F)) : val21 V0 (Proc.devRef .tc main_arg9) = V0 (Proc.devRef .tc main_arg9) :=
  (keep20 (val20 V0) main_arg9 (by decide)).trans (val20_arg9 V0)
theorem val21_arg10 (V0 : Valuation τ sig (Elt F)) : val21 V0 (Proc.devRef .tc main_arg10) = V0 (Proc.devRef .tc main_arg10) :=
  (keep20 (val20 V0) main_arg10 (by decide)).trans (val20_arg10 V0)
theorem val21_arg11 (V0 : Valuation τ sig (Elt F)) : val21 V0 (Proc.devRef .tc main_arg11) = V0 (Proc.devRef .tc main_arg11) :=
  (keep20 (val20 V0) main_arg11 (by decide)).trans (val20_arg11 V0)
theorem val21_arg12 (V0 : Valuation τ sig (Elt F)) : val21 V0 (Proc.devRef .tc main_arg12) = V0 (Proc.devRef .tc main_arg12) :=
  (keep20 (val20 V0) main_arg12 (by decide)).trans (val20_arg12 V0)
theorem val21_arg13 (V0 : Valuation τ sig (Elt F)) : val21 V0 (Proc.devRef .tc main_arg13) = V0 (Proc.devRef .tc main_arg13) :=
  (keep20 (val20 V0) main_arg13 (by decide)).trans (val20_arg13 V0)
theorem val21_arg14 (V0 : Valuation τ sig (Elt F)) : val21 V0 (Proc.devRef .tc main_arg14) = V0 (Proc.devRef .tc main_arg14) :=
  (keep20 (val20 V0) main_arg14 (by decide)).trans (val20_arg14 V0)
theorem val21_arg15 (V0 : Valuation τ sig (Elt F)) : val21 V0 (Proc.devRef .tc main_arg15) = V0 (Proc.devRef .tc main_arg15) :=
  (keep20 (val20 V0) main_arg15 (by decide)).trans (val20_arg15 V0)
theorem val21_arg16 (V0 : Valuation τ sig (Elt F)) : val21 V0 (Proc.devRef .tc main_arg16) = V0 (Proc.devRef .tc main_arg16) :=
  (keep20 (val20 V0) main_arg16 (by decide)).trans (val20_arg16 V0)
theorem val21_arg17 (V0 : Valuation τ sig (Elt F)) : val21 V0 (Proc.devRef .tc main_arg17) = V0 (Proc.devRef .tc main_arg17) :=
  (keep20 (val20 V0) main_arg17 (by decide)).trans (val20_arg17 V0)
theorem val21_v3 (V0 : Valuation τ sig (Elt F)) : val21 V0 (Proc.devRef .tc main_v3) = res_v3 V0 :=
  (keep20 (val20 V0) main_v3 (by decide)).trans (val20_v3 V0)
theorem val21_v6 (V0 : Valuation τ sig (Elt F)) : val21 V0 (Proc.devRef .tc main_v6) = res_v6 V0 :=
  (keep20 (val20 V0) main_v6 (by decide)).trans (val20_v6 V0)
theorem val21_v28 (V0 : Valuation τ sig (Elt F)) : val21 V0 (Proc.devRef .tc main_v28) = res_v28 V0 :=
  (keep20 (val20 V0) main_v28 (by decide)).trans (val20_v28 V0)
theorem val21_v169 (V0 : Valuation τ sig (Elt F)) : val21 V0 (Proc.devRef .tc main_v169) = res_v169 V0 :=
  (keep20 (val20 V0) main_v169 (by decide)).trans (val20_v169 V0)
theorem val21_v190 (V0 : Valuation τ sig (Elt F)) : val21 V0 (Proc.devRef .tc main_v190) = res_v190 V0 :=
  (c20_v190 (val20 V0)).trans (by rw [val20_v182, val20_arg3, val20_arg4, res_v190])

/-- The arrays after stretches 0 … 21. -/
def val22 (V0 : Valuation τ sig (Elt F)) : Valuation τ sig (Elt F) := after ops21 (val21 V0)
theorem val22_arg0 (V0 : Valuation τ sig (Elt F)) : val22 V0 (Proc.devRef .tc main_arg0) = V0 (Proc.devRef .tc main_arg0) :=
  (keep21 (val21 V0) main_arg0 (by decide)).trans (val21_arg0 V0)
theorem val22_arg1 (V0 : Valuation τ sig (Elt F)) : val22 V0 (Proc.devRef .tc main_arg1) = V0 (Proc.devRef .tc main_arg1) :=
  (keep21 (val21 V0) main_arg1 (by decide)).trans (val21_arg1 V0)
theorem val22_arg2 (V0 : Valuation τ sig (Elt F)) : val22 V0 (Proc.devRef .tc main_arg2) = V0 (Proc.devRef .tc main_arg2) :=
  (keep21 (val21 V0) main_arg2 (by decide)).trans (val21_arg2 V0)
theorem val22_arg3 (V0 : Valuation τ sig (Elt F)) : val22 V0 (Proc.devRef .tc main_arg3) = V0 (Proc.devRef .tc main_arg3) :=
  (keep21 (val21 V0) main_arg3 (by decide)).trans (val21_arg3 V0)
theorem val22_arg4 (V0 : Valuation τ sig (Elt F)) : val22 V0 (Proc.devRef .tc main_arg4) = V0 (Proc.devRef .tc main_arg4) :=
  (keep21 (val21 V0) main_arg4 (by decide)).trans (val21_arg4 V0)
theorem val22_arg5 (V0 : Valuation τ sig (Elt F)) : val22 V0 (Proc.devRef .tc main_arg5) = V0 (Proc.devRef .tc main_arg5) :=
  (keep21 (val21 V0) main_arg5 (by decide)).trans (val21_arg5 V0)
theorem val22_arg6 (V0 : Valuation τ sig (Elt F)) : val22 V0 (Proc.devRef .tc main_arg6) = V0 (Proc.devRef .tc main_arg6) :=
  (keep21 (val21 V0) main_arg6 (by decide)).trans (val21_arg6 V0)
theorem val22_arg7 (V0 : Valuation τ sig (Elt F)) : val22 V0 (Proc.devRef .tc main_arg7) = V0 (Proc.devRef .tc main_arg7) :=
  (keep21 (val21 V0) main_arg7 (by decide)).trans (val21_arg7 V0)
theorem val22_arg8 (V0 : Valuation τ sig (Elt F)) : val22 V0 (Proc.devRef .tc main_arg8) = V0 (Proc.devRef .tc main_arg8) :=
  (keep21 (val21 V0) main_arg8 (by decide)).trans (val21_arg8 V0)
theorem val22_arg9 (V0 : Valuation τ sig (Elt F)) : val22 V0 (Proc.devRef .tc main_arg9) = V0 (Proc.devRef .tc main_arg9) :=
  (keep21 (val21 V0) main_arg9 (by decide)).trans (val21_arg9 V0)
theorem val22_arg10 (V0 : Valuation τ sig (Elt F)) : val22 V0 (Proc.devRef .tc main_arg10) = V0 (Proc.devRef .tc main_arg10) :=
  (keep21 (val21 V0) main_arg10 (by decide)).trans (val21_arg10 V0)
theorem val22_arg11 (V0 : Valuation τ sig (Elt F)) : val22 V0 (Proc.devRef .tc main_arg11) = V0 (Proc.devRef .tc main_arg11) :=
  (keep21 (val21 V0) main_arg11 (by decide)).trans (val21_arg11 V0)
theorem val22_arg12 (V0 : Valuation τ sig (Elt F)) : val22 V0 (Proc.devRef .tc main_arg12) = V0 (Proc.devRef .tc main_arg12) :=
  (keep21 (val21 V0) main_arg12 (by decide)).trans (val21_arg12 V0)
theorem val22_arg13 (V0 : Valuation τ sig (Elt F)) : val22 V0 (Proc.devRef .tc main_arg13) = V0 (Proc.devRef .tc main_arg13) :=
  (keep21 (val21 V0) main_arg13 (by decide)).trans (val21_arg13 V0)
theorem val22_arg14 (V0 : Valuation τ sig (Elt F)) : val22 V0 (Proc.devRef .tc main_arg14) = V0 (Proc.devRef .tc main_arg14) :=
  (keep21 (val21 V0) main_arg14 (by decide)).trans (val21_arg14 V0)
theorem val22_arg15 (V0 : Valuation τ sig (Elt F)) : val22 V0 (Proc.devRef .tc main_arg15) = V0 (Proc.devRef .tc main_arg15) :=
  (keep21 (val21 V0) main_arg15 (by decide)).trans (val21_arg15 V0)
theorem val22_arg16 (V0 : Valuation τ sig (Elt F)) : val22 V0 (Proc.devRef .tc main_arg16) = V0 (Proc.devRef .tc main_arg16) :=
  (keep21 (val21 V0) main_arg16 (by decide)).trans (val21_arg16 V0)
theorem val22_arg17 (V0 : Valuation τ sig (Elt F)) : val22 V0 (Proc.devRef .tc main_arg17) = V0 (Proc.devRef .tc main_arg17) :=
  (keep21 (val21 V0) main_arg17 (by decide)).trans (val21_arg17 V0)
theorem val22_v3 (V0 : Valuation τ sig (Elt F)) : val22 V0 (Proc.devRef .tc main_v3) = res_v3 V0 :=
  (keep21 (val21 V0) main_v3 (by decide)).trans (val21_v3 V0)
theorem val22_v6 (V0 : Valuation τ sig (Elt F)) : val22 V0 (Proc.devRef .tc main_v6) = res_v6 V0 :=
  (keep21 (val21 V0) main_v6 (by decide)).trans (val21_v6 V0)
theorem val22_v28 (V0 : Valuation τ sig (Elt F)) : val22 V0 (Proc.devRef .tc main_v28) = res_v28 V0 :=
  (keep21 (val21 V0) main_v28 (by decide)).trans (val21_v28 V0)
theorem val22_v169 (V0 : Valuation τ sig (Elt F)) : val22 V0 (Proc.devRef .tc main_v169) = res_v169 V0 :=
  (keep21 (val21 V0) main_v169 (by decide)).trans (val21_v169 V0)
theorem val22_v190 (V0 : Valuation τ sig (Elt F)) : val22 V0 (Proc.devRef .tc main_v190) = res_v190 V0 :=
  (keep21 (val21 V0) main_v190 (by decide)).trans (val21_v190 V0)
theorem val22_v192 (V0 : Valuation τ sig (Elt F)) : val22 V0 (Proc.devRef .tc main_v192) = res_v192 V0 :=
  (c21_v192 (val21 V0)).trans (by rw [val21_arg5, res_v192])
theorem val22_v194 (V0 : Valuation τ sig (Elt F)) : val22 V0 (Proc.devRef .tc main_v194) = res_v194 V0 :=
  (c21_v194 (val21 V0)).trans (by rw [val21_arg6, res_v194])
theorem val22_v197 (V0 : Valuation τ sig (Elt F)) : val22 V0 (Proc.devRef .tc main_v197) = res_v197 V0 :=
  (c21_v197 (val21 V0)).trans (by rw [val21_v190, res_v197])
theorem val22_v204 (V0 : Valuation τ sig (Elt F)) : val22 V0 (Proc.devRef .tc main_v204) = res_v204 V0 :=
  (c21_v204 (val21 V0)).trans (by rw [val21_v190, res_v204])

/-- The arrays after stretches 0 … 22. -/
def val23 (V0 : Valuation τ sig (Elt F)) : Valuation τ sig (Elt F) := after ops22 (val22 V0)
theorem val23_arg0 (V0 : Valuation τ sig (Elt F)) : val23 V0 (Proc.devRef .tc main_arg0) = V0 (Proc.devRef .tc main_arg0) :=
  (keep22 (val22 V0) main_arg0 (by decide)).trans (val22_arg0 V0)
theorem val23_arg1 (V0 : Valuation τ sig (Elt F)) : val23 V0 (Proc.devRef .tc main_arg1) = V0 (Proc.devRef .tc main_arg1) :=
  (keep22 (val22 V0) main_arg1 (by decide)).trans (val22_arg1 V0)
theorem val23_arg2 (V0 : Valuation τ sig (Elt F)) : val23 V0 (Proc.devRef .tc main_arg2) = V0 (Proc.devRef .tc main_arg2) :=
  (keep22 (val22 V0) main_arg2 (by decide)).trans (val22_arg2 V0)
theorem val23_arg3 (V0 : Valuation τ sig (Elt F)) : val23 V0 (Proc.devRef .tc main_arg3) = V0 (Proc.devRef .tc main_arg3) :=
  (keep22 (val22 V0) main_arg3 (by decide)).trans (val22_arg3 V0)
theorem val23_arg4 (V0 : Valuation τ sig (Elt F)) : val23 V0 (Proc.devRef .tc main_arg4) = V0 (Proc.devRef .tc main_arg4) :=
  (keep22 (val22 V0) main_arg4 (by decide)).trans (val22_arg4 V0)
theorem val23_arg5 (V0 : Valuation τ sig (Elt F)) : val23 V0 (Proc.devRef .tc main_arg5) = V0 (Proc.devRef .tc main_arg5) :=
  (keep22 (val22 V0) main_arg5 (by decide)).trans (val22_arg5 V0)
theorem val23_arg6 (V0 : Valuation τ sig (Elt F)) : val23 V0 (Proc.devRef .tc main_arg6) = V0 (Proc.devRef .tc main_arg6) :=
  (keep22 (val22 V0) main_arg6 (by decide)).trans (val22_arg6 V0)
theorem val23_arg7 (V0 : Valuation τ sig (Elt F)) : val23 V0 (Proc.devRef .tc main_arg7) = V0 (Proc.devRef .tc main_arg7) :=
  (keep22 (val22 V0) main_arg7 (by decide)).trans (val22_arg7 V0)
theorem val23_arg8 (V0 : Valuation τ sig (Elt F)) : val23 V0 (Proc.devRef .tc main_arg8) = V0 (Proc.devRef .tc main_arg8) :=
  (keep22 (val22 V0) main_arg8 (by decide)).trans (val22_arg8 V0)
theorem val23_arg9 (V0 : Valuation τ sig (Elt F)) : val23 V0 (Proc.devRef .tc main_arg9) = V0 (Proc.devRef .tc main_arg9) :=
  (keep22 (val22 V0) main_arg9 (by decide)).trans (val22_arg9 V0)
theorem val23_arg10 (V0 : Valuation τ sig (Elt F)) : val23 V0 (Proc.devRef .tc main_arg10) = V0 (Proc.devRef .tc main_arg10) :=
  (keep22 (val22 V0) main_arg10 (by decide)).trans (val22_arg10 V0)
theorem val23_arg11 (V0 : Valuation τ sig (Elt F)) : val23 V0 (Proc.devRef .tc main_arg11) = V0 (Proc.devRef .tc main_arg11) :=
  (keep22 (val22 V0) main_arg11 (by decide)).trans (val22_arg11 V0)
theorem val23_arg12 (V0 : Valuation τ sig (Elt F)) : val23 V0 (Proc.devRef .tc main_arg12) = V0 (Proc.devRef .tc main_arg12) :=
  (keep22 (val22 V0) main_arg12 (by decide)).trans (val22_arg12 V0)
theorem val23_arg13 (V0 : Valuation τ sig (Elt F)) : val23 V0 (Proc.devRef .tc main_arg13) = V0 (Proc.devRef .tc main_arg13) :=
  (keep22 (val22 V0) main_arg13 (by decide)).trans (val22_arg13 V0)
theorem val23_arg14 (V0 : Valuation τ sig (Elt F)) : val23 V0 (Proc.devRef .tc main_arg14) = V0 (Proc.devRef .tc main_arg14) :=
  (keep22 (val22 V0) main_arg14 (by decide)).trans (val22_arg14 V0)
theorem val23_arg15 (V0 : Valuation τ sig (Elt F)) : val23 V0 (Proc.devRef .tc main_arg15) = V0 (Proc.devRef .tc main_arg15) :=
  (keep22 (val22 V0) main_arg15 (by decide)).trans (val22_arg15 V0)
theorem val23_arg16 (V0 : Valuation τ sig (Elt F)) : val23 V0 (Proc.devRef .tc main_arg16) = V0 (Proc.devRef .tc main_arg16) :=
  (keep22 (val22 V0) main_arg16 (by decide)).trans (val22_arg16 V0)
theorem val23_arg17 (V0 : Valuation τ sig (Elt F)) : val23 V0 (Proc.devRef .tc main_arg17) = V0 (Proc.devRef .tc main_arg17) :=
  (keep22 (val22 V0) main_arg17 (by decide)).trans (val22_arg17 V0)
theorem val23_v3 (V0 : Valuation τ sig (Elt F)) : val23 V0 (Proc.devRef .tc main_v3) = res_v3 V0 :=
  (keep22 (val22 V0) main_v3 (by decide)).trans (val22_v3 V0)
theorem val23_v6 (V0 : Valuation τ sig (Elt F)) : val23 V0 (Proc.devRef .tc main_v6) = res_v6 V0 :=
  (keep22 (val22 V0) main_v6 (by decide)).trans (val22_v6 V0)
theorem val23_v28 (V0 : Valuation τ sig (Elt F)) : val23 V0 (Proc.devRef .tc main_v28) = res_v28 V0 :=
  (keep22 (val22 V0) main_v28 (by decide)).trans (val22_v28 V0)
theorem val23_v169 (V0 : Valuation τ sig (Elt F)) : val23 V0 (Proc.devRef .tc main_v169) = res_v169 V0 :=
  (keep22 (val22 V0) main_v169 (by decide)).trans (val22_v169 V0)
theorem val23_v219 (V0 : Valuation τ sig (Elt F)) : val23 V0 (Proc.devRef .tc main_v219) = res_v219 V0 :=
  (c22_v219 (val22 V0)).trans (by rw [val22_v192, val22_v190, val22_v197, val22_v204, val22_v194, res_v219])

/-- The arrays after stretches 0 … 23. -/
def val24 (V0 : Valuation τ sig (Elt F)) : Valuation τ sig (Elt F) := after ops23 (val23 V0)
theorem val24_arg0 (V0 : Valuation τ sig (Elt F)) : val24 V0 (Proc.devRef .tc main_arg0) = V0 (Proc.devRef .tc main_arg0) :=
  (keep23 (val23 V0) main_arg0 (by decide)).trans (val23_arg0 V0)
theorem val24_arg1 (V0 : Valuation τ sig (Elt F)) : val24 V0 (Proc.devRef .tc main_arg1) = V0 (Proc.devRef .tc main_arg1) :=
  (keep23 (val23 V0) main_arg1 (by decide)).trans (val23_arg1 V0)
theorem val24_arg2 (V0 : Valuation τ sig (Elt F)) : val24 V0 (Proc.devRef .tc main_arg2) = V0 (Proc.devRef .tc main_arg2) :=
  (keep23 (val23 V0) main_arg2 (by decide)).trans (val23_arg2 V0)
theorem val24_arg3 (V0 : Valuation τ sig (Elt F)) : val24 V0 (Proc.devRef .tc main_arg3) = V0 (Proc.devRef .tc main_arg3) :=
  (keep23 (val23 V0) main_arg3 (by decide)).trans (val23_arg3 V0)
theorem val24_arg4 (V0 : Valuation τ sig (Elt F)) : val24 V0 (Proc.devRef .tc main_arg4) = V0 (Proc.devRef .tc main_arg4) :=
  (keep23 (val23 V0) main_arg4 (by decide)).trans (val23_arg4 V0)
theorem val24_arg5 (V0 : Valuation τ sig (Elt F)) : val24 V0 (Proc.devRef .tc main_arg5) = V0 (Proc.devRef .tc main_arg5) :=
  (keep23 (val23 V0) main_arg5 (by decide)).trans (val23_arg5 V0)
theorem val24_arg6 (V0 : Valuation τ sig (Elt F)) : val24 V0 (Proc.devRef .tc main_arg6) = V0 (Proc.devRef .tc main_arg6) :=
  (keep23 (val23 V0) main_arg6 (by decide)).trans (val23_arg6 V0)
theorem val24_arg7 (V0 : Valuation τ sig (Elt F)) : val24 V0 (Proc.devRef .tc main_arg7) = V0 (Proc.devRef .tc main_arg7) :=
  (keep23 (val23 V0) main_arg7 (by decide)).trans (val23_arg7 V0)
theorem val24_arg8 (V0 : Valuation τ sig (Elt F)) : val24 V0 (Proc.devRef .tc main_arg8) = V0 (Proc.devRef .tc main_arg8) :=
  (keep23 (val23 V0) main_arg8 (by decide)).trans (val23_arg8 V0)
theorem val24_arg9 (V0 : Valuation τ sig (Elt F)) : val24 V0 (Proc.devRef .tc main_arg9) = V0 (Proc.devRef .tc main_arg9) :=
  (keep23 (val23 V0) main_arg9 (by decide)).trans (val23_arg9 V0)
theorem val24_arg10 (V0 : Valuation τ sig (Elt F)) : val24 V0 (Proc.devRef .tc main_arg10) = V0 (Proc.devRef .tc main_arg10) :=
  (keep23 (val23 V0) main_arg10 (by decide)).trans (val23_arg10 V0)
theorem val24_arg11 (V0 : Valuation τ sig (Elt F)) : val24 V0 (Proc.devRef .tc main_arg11) = V0 (Proc.devRef .tc main_arg11) :=
  (keep23 (val23 V0) main_arg11 (by decide)).trans (val23_arg11 V0)
theorem val24_arg12 (V0 : Valuation τ sig (Elt F)) : val24 V0 (Proc.devRef .tc main_arg12) = V0 (Proc.devRef .tc main_arg12) :=
  (keep23 (val23 V0) main_arg12 (by decide)).trans (val23_arg12 V0)
theorem val24_arg13 (V0 : Valuation τ sig (Elt F)) : val24 V0 (Proc.devRef .tc main_arg13) = V0 (Proc.devRef .tc main_arg13) :=
  (keep23 (val23 V0) main_arg13 (by decide)).trans (val23_arg13 V0)
theorem val24_arg14 (V0 : Valuation τ sig (Elt F)) : val24 V0 (Proc.devRef .tc main_arg14) = V0 (Proc.devRef .tc main_arg14) :=
  (keep23 (val23 V0) main_arg14 (by decide)).trans (val23_arg14 V0)
theorem val24_arg15 (V0 : Valuation τ sig (Elt F)) : val24 V0 (Proc.devRef .tc main_arg15) = V0 (Proc.devRef .tc main_arg15) :=
  (keep23 (val23 V0) main_arg15 (by decide)).trans (val23_arg15 V0)
theorem val24_arg16 (V0 : Valuation τ sig (Elt F)) : val24 V0 (Proc.devRef .tc main_arg16) = V0 (Proc.devRef .tc main_arg16) :=
  (keep23 (val23 V0) main_arg16 (by decide)).trans (val23_arg16 V0)
theorem val24_arg17 (V0 : Valuation τ sig (Elt F)) : val24 V0 (Proc.devRef .tc main_arg17) = V0 (Proc.devRef .tc main_arg17) :=
  (keep23 (val23 V0) main_arg17 (by decide)).trans (val23_arg17 V0)
theorem val24_v3 (V0 : Valuation τ sig (Elt F)) : val24 V0 (Proc.devRef .tc main_v3) = res_v3 V0 :=
  (keep23 (val23 V0) main_v3 (by decide)).trans (val23_v3 V0)
theorem val24_v6 (V0 : Valuation τ sig (Elt F)) : val24 V0 (Proc.devRef .tc main_v6) = res_v6 V0 :=
  (keep23 (val23 V0) main_v6 (by decide)).trans (val23_v6 V0)
theorem val24_v28 (V0 : Valuation τ sig (Elt F)) : val24 V0 (Proc.devRef .tc main_v28) = res_v28 V0 :=
  (keep23 (val23 V0) main_v28 (by decide)).trans (val23_v28 V0)
theorem val24_v169 (V0 : Valuation τ sig (Elt F)) : val24 V0 (Proc.devRef .tc main_v169) = res_v169 V0 :=
  (keep23 (val23 V0) main_v169 (by decide)).trans (val23_v169 V0)
theorem val24_v220 (V0 : Valuation τ sig (Elt F)) : val24 V0 (Proc.devRef .tc main_v220) = res_v220 V0 :=
  (c23_v220 (val23 V0)).trans (by rw [val23_v219, res_v220])

/-- The arrays after stretches 0 … 24. -/
def val25 (V0 : Valuation τ sig (Elt F)) : Valuation τ sig (Elt F) := after ops24 (val24 V0)
theorem val25_arg0 (V0 : Valuation τ sig (Elt F)) : val25 V0 (Proc.devRef .tc main_arg0) = V0 (Proc.devRef .tc main_arg0) :=
  (keep24 (val24 V0) main_arg0 (by decide)).trans (val24_arg0 V0)
theorem val25_arg1 (V0 : Valuation τ sig (Elt F)) : val25 V0 (Proc.devRef .tc main_arg1) = V0 (Proc.devRef .tc main_arg1) :=
  (keep24 (val24 V0) main_arg1 (by decide)).trans (val24_arg1 V0)
theorem val25_arg2 (V0 : Valuation τ sig (Elt F)) : val25 V0 (Proc.devRef .tc main_arg2) = V0 (Proc.devRef .tc main_arg2) :=
  (keep24 (val24 V0) main_arg2 (by decide)).trans (val24_arg2 V0)
theorem val25_arg3 (V0 : Valuation τ sig (Elt F)) : val25 V0 (Proc.devRef .tc main_arg3) = V0 (Proc.devRef .tc main_arg3) :=
  (keep24 (val24 V0) main_arg3 (by decide)).trans (val24_arg3 V0)
theorem val25_arg4 (V0 : Valuation τ sig (Elt F)) : val25 V0 (Proc.devRef .tc main_arg4) = V0 (Proc.devRef .tc main_arg4) :=
  (keep24 (val24 V0) main_arg4 (by decide)).trans (val24_arg4 V0)
theorem val25_arg5 (V0 : Valuation τ sig (Elt F)) : val25 V0 (Proc.devRef .tc main_arg5) = V0 (Proc.devRef .tc main_arg5) :=
  (keep24 (val24 V0) main_arg5 (by decide)).trans (val24_arg5 V0)
theorem val25_arg6 (V0 : Valuation τ sig (Elt F)) : val25 V0 (Proc.devRef .tc main_arg6) = V0 (Proc.devRef .tc main_arg6) :=
  (keep24 (val24 V0) main_arg6 (by decide)).trans (val24_arg6 V0)
theorem val25_arg7 (V0 : Valuation τ sig (Elt F)) : val25 V0 (Proc.devRef .tc main_arg7) = V0 (Proc.devRef .tc main_arg7) :=
  (keep24 (val24 V0) main_arg7 (by decide)).trans (val24_arg7 V0)
theorem val25_arg8 (V0 : Valuation τ sig (Elt F)) : val25 V0 (Proc.devRef .tc main_arg8) = V0 (Proc.devRef .tc main_arg8) :=
  (keep24 (val24 V0) main_arg8 (by decide)).trans (val24_arg8 V0)
theorem val25_arg9 (V0 : Valuation τ sig (Elt F)) : val25 V0 (Proc.devRef .tc main_arg9) = V0 (Proc.devRef .tc main_arg9) :=
  (keep24 (val24 V0) main_arg9 (by decide)).trans (val24_arg9 V0)
theorem val25_arg10 (V0 : Valuation τ sig (Elt F)) : val25 V0 (Proc.devRef .tc main_arg10) = V0 (Proc.devRef .tc main_arg10) :=
  (keep24 (val24 V0) main_arg10 (by decide)).trans (val24_arg10 V0)
theorem val25_arg11 (V0 : Valuation τ sig (Elt F)) : val25 V0 (Proc.devRef .tc main_arg11) = V0 (Proc.devRef .tc main_arg11) :=
  (keep24 (val24 V0) main_arg11 (by decide)).trans (val24_arg11 V0)
theorem val25_arg12 (V0 : Valuation τ sig (Elt F)) : val25 V0 (Proc.devRef .tc main_arg12) = V0 (Proc.devRef .tc main_arg12) :=
  (keep24 (val24 V0) main_arg12 (by decide)).trans (val24_arg12 V0)
theorem val25_arg13 (V0 : Valuation τ sig (Elt F)) : val25 V0 (Proc.devRef .tc main_arg13) = V0 (Proc.devRef .tc main_arg13) :=
  (keep24 (val24 V0) main_arg13 (by decide)).trans (val24_arg13 V0)
theorem val25_arg14 (V0 : Valuation τ sig (Elt F)) : val25 V0 (Proc.devRef .tc main_arg14) = V0 (Proc.devRef .tc main_arg14) :=
  (keep24 (val24 V0) main_arg14 (by decide)).trans (val24_arg14 V0)
theorem val25_arg15 (V0 : Valuation τ sig (Elt F)) : val25 V0 (Proc.devRef .tc main_arg15) = V0 (Proc.devRef .tc main_arg15) :=
  (keep24 (val24 V0) main_arg15 (by decide)).trans (val24_arg15 V0)
theorem val25_arg16 (V0 : Valuation τ sig (Elt F)) : val25 V0 (Proc.devRef .tc main_arg16) = V0 (Proc.devRef .tc main_arg16) :=
  (keep24 (val24 V0) main_arg16 (by decide)).trans (val24_arg16 V0)
theorem val25_arg17 (V0 : Valuation τ sig (Elt F)) : val25 V0 (Proc.devRef .tc main_arg17) = V0 (Proc.devRef .tc main_arg17) :=
  (keep24 (val24 V0) main_arg17 (by decide)).trans (val24_arg17 V0)
theorem val25_v3 (V0 : Valuation τ sig (Elt F)) : val25 V0 (Proc.devRef .tc main_v3) = res_v3 V0 :=
  (keep24 (val24 V0) main_v3 (by decide)).trans (val24_v3 V0)
theorem val25_v6 (V0 : Valuation τ sig (Elt F)) : val25 V0 (Proc.devRef .tc main_v6) = res_v6 V0 :=
  (keep24 (val24 V0) main_v6 (by decide)).trans (val24_v6 V0)
theorem val25_v28 (V0 : Valuation τ sig (Elt F)) : val25 V0 (Proc.devRef .tc main_v28) = res_v28 V0 :=
  (keep24 (val24 V0) main_v28 (by decide)).trans (val24_v28 V0)
theorem val25_v228 (V0 : Valuation τ sig (Elt F)) : val25 V0 (Proc.devRef .tc main_v228) = res_v228 V0 :=
  (c24_v228 (val24 V0)).trans (by rw [val24_v220, val24_v169, val24_arg2, res_v228])

/-- The arrays after stretches 0 … 25. -/
def val26 (V0 : Valuation τ sig (Elt F)) : Valuation τ sig (Elt F) := after ops25 (val25 V0)
theorem val26_arg0 (V0 : Valuation τ sig (Elt F)) : val26 V0 (Proc.devRef .tc main_arg0) = V0 (Proc.devRef .tc main_arg0) :=
  (keep25 (val25 V0) main_arg0 (by decide)).trans (val25_arg0 V0)
theorem val26_arg1 (V0 : Valuation τ sig (Elt F)) : val26 V0 (Proc.devRef .tc main_arg1) = V0 (Proc.devRef .tc main_arg1) :=
  (keep25 (val25 V0) main_arg1 (by decide)).trans (val25_arg1 V0)
theorem val26_arg2 (V0 : Valuation τ sig (Elt F)) : val26 V0 (Proc.devRef .tc main_arg2) = V0 (Proc.devRef .tc main_arg2) :=
  (keep25 (val25 V0) main_arg2 (by decide)).trans (val25_arg2 V0)
theorem val26_arg3 (V0 : Valuation τ sig (Elt F)) : val26 V0 (Proc.devRef .tc main_arg3) = V0 (Proc.devRef .tc main_arg3) :=
  (keep25 (val25 V0) main_arg3 (by decide)).trans (val25_arg3 V0)
theorem val26_arg4 (V0 : Valuation τ sig (Elt F)) : val26 V0 (Proc.devRef .tc main_arg4) = V0 (Proc.devRef .tc main_arg4) :=
  (keep25 (val25 V0) main_arg4 (by decide)).trans (val25_arg4 V0)
theorem val26_arg5 (V0 : Valuation τ sig (Elt F)) : val26 V0 (Proc.devRef .tc main_arg5) = V0 (Proc.devRef .tc main_arg5) :=
  (keep25 (val25 V0) main_arg5 (by decide)).trans (val25_arg5 V0)
theorem val26_arg6 (V0 : Valuation τ sig (Elt F)) : val26 V0 (Proc.devRef .tc main_arg6) = V0 (Proc.devRef .tc main_arg6) :=
  (keep25 (val25 V0) main_arg6 (by decide)).trans (val25_arg6 V0)
theorem val26_arg7 (V0 : Valuation τ sig (Elt F)) : val26 V0 (Proc.devRef .tc main_arg7) = V0 (Proc.devRef .tc main_arg7) :=
  (keep25 (val25 V0) main_arg7 (by decide)).trans (val25_arg7 V0)
theorem val26_arg8 (V0 : Valuation τ sig (Elt F)) : val26 V0 (Proc.devRef .tc main_arg8) = V0 (Proc.devRef .tc main_arg8) :=
  (keep25 (val25 V0) main_arg8 (by decide)).trans (val25_arg8 V0)
theorem val26_arg9 (V0 : Valuation τ sig (Elt F)) : val26 V0 (Proc.devRef .tc main_arg9) = V0 (Proc.devRef .tc main_arg9) :=
  (keep25 (val25 V0) main_arg9 (by decide)).trans (val25_arg9 V0)
theorem val26_arg10 (V0 : Valuation τ sig (Elt F)) : val26 V0 (Proc.devRef .tc main_arg10) = V0 (Proc.devRef .tc main_arg10) :=
  (keep25 (val25 V0) main_arg10 (by decide)).trans (val25_arg10 V0)
theorem val26_arg11 (V0 : Valuation τ sig (Elt F)) : val26 V0 (Proc.devRef .tc main_arg11) = V0 (Proc.devRef .tc main_arg11) :=
  (keep25 (val25 V0) main_arg11 (by decide)).trans (val25_arg11 V0)
theorem val26_arg12 (V0 : Valuation τ sig (Elt F)) : val26 V0 (Proc.devRef .tc main_arg12) = V0 (Proc.devRef .tc main_arg12) :=
  (keep25 (val25 V0) main_arg12 (by decide)).trans (val25_arg12 V0)
theorem val26_arg13 (V0 : Valuation τ sig (Elt F)) : val26 V0 (Proc.devRef .tc main_arg13) = V0 (Proc.devRef .tc main_arg13) :=
  (keep25 (val25 V0) main_arg13 (by decide)).trans (val25_arg13 V0)
theorem val26_arg14 (V0 : Valuation τ sig (Elt F)) : val26 V0 (Proc.devRef .tc main_arg14) = V0 (Proc.devRef .tc main_arg14) :=
  (keep25 (val25 V0) main_arg14 (by decide)).trans (val25_arg14 V0)
theorem val26_arg15 (V0 : Valuation τ sig (Elt F)) : val26 V0 (Proc.devRef .tc main_arg15) = V0 (Proc.devRef .tc main_arg15) :=
  (keep25 (val25 V0) main_arg15 (by decide)).trans (val25_arg15 V0)
theorem val26_arg16 (V0 : Valuation τ sig (Elt F)) : val26 V0 (Proc.devRef .tc main_arg16) = V0 (Proc.devRef .tc main_arg16) :=
  (keep25 (val25 V0) main_arg16 (by decide)).trans (val25_arg16 V0)
theorem val26_arg17 (V0 : Valuation τ sig (Elt F)) : val26 V0 (Proc.devRef .tc main_arg17) = V0 (Proc.devRef .tc main_arg17) :=
  (keep25 (val25 V0) main_arg17 (by decide)).trans (val25_arg17 V0)
theorem val26_v3 (V0 : Valuation τ sig (Elt F)) : val26 V0 (Proc.devRef .tc main_v3) = res_v3 V0 :=
  (keep25 (val25 V0) main_v3 (by decide)).trans (val25_v3 V0)
theorem val26_v6 (V0 : Valuation τ sig (Elt F)) : val26 V0 (Proc.devRef .tc main_v6) = res_v6 V0 :=
  (keep25 (val25 V0) main_v6 (by decide)).trans (val25_v6 V0)
theorem val26_v28 (V0 : Valuation τ sig (Elt F)) : val26 V0 (Proc.devRef .tc main_v28) = res_v28 V0 :=
  (keep25 (val25 V0) main_v28 (by decide)).trans (val25_v28 V0)
theorem val26_v228 (V0 : Valuation τ sig (Elt F)) : val26 V0 (Proc.devRef .tc main_v228) = res_v228 V0 :=
  (keep25 (val25 V0) main_v228 (by decide)).trans (val25_v228 V0)

/-- The arrays after stretches 0 … 26. -/
def val27 (V0 : Valuation τ sig (Elt F)) : Valuation τ sig (Elt F) := after ops26 (val26 V0)
theorem val27_arg0 (V0 : Valuation τ sig (Elt F)) : val27 V0 (Proc.devRef .tc main_arg0) = V0 (Proc.devRef .tc main_arg0) :=
  (keep26 (val26 V0) main_arg0 (by decide)).trans (val26_arg0 V0)
theorem val27_arg1 (V0 : Valuation τ sig (Elt F)) : val27 V0 (Proc.devRef .tc main_arg1) = V0 (Proc.devRef .tc main_arg1) :=
  (keep26 (val26 V0) main_arg1 (by decide)).trans (val26_arg1 V0)
theorem val27_arg2 (V0 : Valuation τ sig (Elt F)) : val27 V0 (Proc.devRef .tc main_arg2) = V0 (Proc.devRef .tc main_arg2) :=
  (keep26 (val26 V0) main_arg2 (by decide)).trans (val26_arg2 V0)
theorem val27_arg3 (V0 : Valuation τ sig (Elt F)) : val27 V0 (Proc.devRef .tc main_arg3) = V0 (Proc.devRef .tc main_arg3) :=
  (keep26 (val26 V0) main_arg3 (by decide)).trans (val26_arg3 V0)
theorem val27_arg4 (V0 : Valuation τ sig (Elt F)) : val27 V0 (Proc.devRef .tc main_arg4) = V0 (Proc.devRef .tc main_arg4) :=
  (keep26 (val26 V0) main_arg4 (by decide)).trans (val26_arg4 V0)
theorem val27_arg5 (V0 : Valuation τ sig (Elt F)) : val27 V0 (Proc.devRef .tc main_arg5) = V0 (Proc.devRef .tc main_arg5) :=
  (keep26 (val26 V0) main_arg5 (by decide)).trans (val26_arg5 V0)
theorem val27_arg6 (V0 : Valuation τ sig (Elt F)) : val27 V0 (Proc.devRef .tc main_arg6) = V0 (Proc.devRef .tc main_arg6) :=
  (keep26 (val26 V0) main_arg6 (by decide)).trans (val26_arg6 V0)
theorem val27_arg7 (V0 : Valuation τ sig (Elt F)) : val27 V0 (Proc.devRef .tc main_arg7) = V0 (Proc.devRef .tc main_arg7) :=
  (keep26 (val26 V0) main_arg7 (by decide)).trans (val26_arg7 V0)
theorem val27_arg8 (V0 : Valuation τ sig (Elt F)) : val27 V0 (Proc.devRef .tc main_arg8) = V0 (Proc.devRef .tc main_arg8) :=
  (keep26 (val26 V0) main_arg8 (by decide)).trans (val26_arg8 V0)
theorem val27_arg9 (V0 : Valuation τ sig (Elt F)) : val27 V0 (Proc.devRef .tc main_arg9) = V0 (Proc.devRef .tc main_arg9) :=
  (keep26 (val26 V0) main_arg9 (by decide)).trans (val26_arg9 V0)
theorem val27_arg10 (V0 : Valuation τ sig (Elt F)) : val27 V0 (Proc.devRef .tc main_arg10) = V0 (Proc.devRef .tc main_arg10) :=
  (keep26 (val26 V0) main_arg10 (by decide)).trans (val26_arg10 V0)
theorem val27_arg11 (V0 : Valuation τ sig (Elt F)) : val27 V0 (Proc.devRef .tc main_arg11) = V0 (Proc.devRef .tc main_arg11) :=
  (keep26 (val26 V0) main_arg11 (by decide)).trans (val26_arg11 V0)
theorem val27_arg12 (V0 : Valuation τ sig (Elt F)) : val27 V0 (Proc.devRef .tc main_arg12) = V0 (Proc.devRef .tc main_arg12) :=
  (keep26 (val26 V0) main_arg12 (by decide)).trans (val26_arg12 V0)
theorem val27_arg13 (V0 : Valuation τ sig (Elt F)) : val27 V0 (Proc.devRef .tc main_arg13) = V0 (Proc.devRef .tc main_arg13) :=
  (keep26 (val26 V0) main_arg13 (by decide)).trans (val26_arg13 V0)
theorem val27_arg14 (V0 : Valuation τ sig (Elt F)) : val27 V0 (Proc.devRef .tc main_arg14) = V0 (Proc.devRef .tc main_arg14) :=
  (keep26 (val26 V0) main_arg14 (by decide)).trans (val26_arg14 V0)
theorem val27_arg15 (V0 : Valuation τ sig (Elt F)) : val27 V0 (Proc.devRef .tc main_arg15) = V0 (Proc.devRef .tc main_arg15) :=
  (keep26 (val26 V0) main_arg15 (by decide)).trans (val26_arg15 V0)
theorem val27_arg16 (V0 : Valuation τ sig (Elt F)) : val27 V0 (Proc.devRef .tc main_arg16) = V0 (Proc.devRef .tc main_arg16) :=
  (keep26 (val26 V0) main_arg16 (by decide)).trans (val26_arg16 V0)
theorem val27_arg17 (V0 : Valuation τ sig (Elt F)) : val27 V0 (Proc.devRef .tc main_arg17) = V0 (Proc.devRef .tc main_arg17) :=
  (keep26 (val26 V0) main_arg17 (by decide)).trans (val26_arg17 V0)
theorem val27_v3 (V0 : Valuation τ sig (Elt F)) : val27 V0 (Proc.devRef .tc main_v3) = res_v3 V0 :=
  (keep26 (val26 V0) main_v3 (by decide)).trans (val26_v3 V0)
theorem val27_v6 (V0 : Valuation τ sig (Elt F)) : val27 V0 (Proc.devRef .tc main_v6) = res_v6 V0 :=
  (keep26 (val26 V0) main_v6 (by decide)).trans (val26_v6 V0)
theorem val27_v28 (V0 : Valuation τ sig (Elt F)) : val27 V0 (Proc.devRef .tc main_v28) = res_v28 V0 :=
  (keep26 (val26 V0) main_v28 (by decide)).trans (val26_v28 V0)
theorem val27_v228 (V0 : Valuation τ sig (Elt F)) : val27 V0 (Proc.devRef .tc main_v228) = res_v228 V0 :=
  (keep26 (val26 V0) main_v228 (by decide)).trans (val26_v228 V0)

/-- The arrays after stretches 0 … 27. -/
def val28 (V0 : Valuation τ sig (Elt F)) : Valuation τ sig (Elt F) := after ops27 (val27 V0)
theorem val28_arg0 (V0 : Valuation τ sig (Elt F)) : val28 V0 (Proc.devRef .tc main_arg0) = V0 (Proc.devRef .tc main_arg0) :=
  (keep27 (val27 V0) main_arg0 (by decide)).trans (val27_arg0 V0)
theorem val28_arg1 (V0 : Valuation τ sig (Elt F)) : val28 V0 (Proc.devRef .tc main_arg1) = V0 (Proc.devRef .tc main_arg1) :=
  (keep27 (val27 V0) main_arg1 (by decide)).trans (val27_arg1 V0)
theorem val28_arg2 (V0 : Valuation τ sig (Elt F)) : val28 V0 (Proc.devRef .tc main_arg2) = V0 (Proc.devRef .tc main_arg2) :=
  (keep27 (val27 V0) main_arg2 (by decide)).trans (val27_arg2 V0)
theorem val28_arg3 (V0 : Valuation τ sig (Elt F)) : val28 V0 (Proc.devRef .tc main_arg3) = V0 (Proc.devRef .tc main_arg3) :=
  (keep27 (val27 V0) main_arg3 (by decide)).trans (val27_arg3 V0)
theorem val28_arg4 (V0 : Valuation τ sig (Elt F)) : val28 V0 (Proc.devRef .tc main_arg4) = V0 (Proc.devRef .tc main_arg4) :=
  (keep27 (val27 V0) main_arg4 (by decide)).trans (val27_arg4 V0)
theorem val28_arg5 (V0 : Valuation τ sig (Elt F)) : val28 V0 (Proc.devRef .tc main_arg5) = V0 (Proc.devRef .tc main_arg5) :=
  (keep27 (val27 V0) main_arg5 (by decide)).trans (val27_arg5 V0)
theorem val28_arg6 (V0 : Valuation τ sig (Elt F)) : val28 V0 (Proc.devRef .tc main_arg6) = V0 (Proc.devRef .tc main_arg6) :=
  (keep27 (val27 V0) main_arg6 (by decide)).trans (val27_arg6 V0)
theorem val28_arg7 (V0 : Valuation τ sig (Elt F)) : val28 V0 (Proc.devRef .tc main_arg7) = V0 (Proc.devRef .tc main_arg7) :=
  (keep27 (val27 V0) main_arg7 (by decide)).trans (val27_arg7 V0)
theorem val28_arg8 (V0 : Valuation τ sig (Elt F)) : val28 V0 (Proc.devRef .tc main_arg8) = V0 (Proc.devRef .tc main_arg8) :=
  (keep27 (val27 V0) main_arg8 (by decide)).trans (val27_arg8 V0)
theorem val28_arg9 (V0 : Valuation τ sig (Elt F)) : val28 V0 (Proc.devRef .tc main_arg9) = V0 (Proc.devRef .tc main_arg9) :=
  (keep27 (val27 V0) main_arg9 (by decide)).trans (val27_arg9 V0)
theorem val28_arg10 (V0 : Valuation τ sig (Elt F)) : val28 V0 (Proc.devRef .tc main_arg10) = V0 (Proc.devRef .tc main_arg10) :=
  (keep27 (val27 V0) main_arg10 (by decide)).trans (val27_arg10 V0)
theorem val28_arg11 (V0 : Valuation τ sig (Elt F)) : val28 V0 (Proc.devRef .tc main_arg11) = V0 (Proc.devRef .tc main_arg11) :=
  (keep27 (val27 V0) main_arg11 (by decide)).trans (val27_arg11 V0)
theorem val28_arg12 (V0 : Valuation τ sig (Elt F)) : val28 V0 (Proc.devRef .tc main_arg12) = V0 (Proc.devRef .tc main_arg12) :=
  (keep27 (val27 V0) main_arg12 (by decide)).trans (val27_arg12 V0)
theorem val28_arg13 (V0 : Valuation τ sig (Elt F)) : val28 V0 (Proc.devRef .tc main_arg13) = V0 (Proc.devRef .tc main_arg13) :=
  (keep27 (val27 V0) main_arg13 (by decide)).trans (val27_arg13 V0)
theorem val28_arg14 (V0 : Valuation τ sig (Elt F)) : val28 V0 (Proc.devRef .tc main_arg14) = V0 (Proc.devRef .tc main_arg14) :=
  (keep27 (val27 V0) main_arg14 (by decide)).trans (val27_arg14 V0)
theorem val28_arg15 (V0 : Valuation τ sig (Elt F)) : val28 V0 (Proc.devRef .tc main_arg15) = V0 (Proc.devRef .tc main_arg15) :=
  (keep27 (val27 V0) main_arg15 (by decide)).trans (val27_arg15 V0)
theorem val28_arg16 (V0 : Valuation τ sig (Elt F)) : val28 V0 (Proc.devRef .tc main_arg16) = V0 (Proc.devRef .tc main_arg16) :=
  (keep27 (val27 V0) main_arg16 (by decide)).trans (val27_arg16 V0)
theorem val28_arg17 (V0 : Valuation τ sig (Elt F)) : val28 V0 (Proc.devRef .tc main_arg17) = V0 (Proc.devRef .tc main_arg17) :=
  (keep27 (val27 V0) main_arg17 (by decide)).trans (val27_arg17 V0)
theorem val28_v3 (V0 : Valuation τ sig (Elt F)) : val28 V0 (Proc.devRef .tc main_v3) = res_v3 V0 :=
  (keep27 (val27 V0) main_v3 (by decide)).trans (val27_v3 V0)
theorem val28_v6 (V0 : Valuation τ sig (Elt F)) : val28 V0 (Proc.devRef .tc main_v6) = res_v6 V0 :=
  (keep27 (val27 V0) main_v6 (by decide)).trans (val27_v6 V0)
theorem val28_v28 (V0 : Valuation τ sig (Elt F)) : val28 V0 (Proc.devRef .tc main_v28) = res_v28 V0 :=
  (keep27 (val27 V0) main_v28 (by decide)).trans (val27_v28 V0)
theorem val28_v228 (V0 : Valuation τ sig (Elt F)) : val28 V0 (Proc.devRef .tc main_v228) = res_v228 V0 :=
  (keep27 (val27 V0) main_v228 (by decide)).trans (val27_v228 V0)
theorem val28_v310 (V0 : Valuation τ sig (Elt F)) : val28 V0 (Proc.devRef .tc main_v310) = res_v310 V0 :=
  (c27_v310 (val27 V0)).trans (by rw [val27_v28, res_v310])

/-- The arrays after stretches 0 … 28. -/
def val29 (V0 : Valuation τ sig (Elt F)) : Valuation τ sig (Elt F) := after ops28 (val28 V0)
theorem val29_arg0 (V0 : Valuation τ sig (Elt F)) : val29 V0 (Proc.devRef .tc main_arg0) = V0 (Proc.devRef .tc main_arg0) :=
  (keep28 (val28 V0) main_arg0 (by decide)).trans (val28_arg0 V0)
theorem val29_arg1 (V0 : Valuation τ sig (Elt F)) : val29 V0 (Proc.devRef .tc main_arg1) = V0 (Proc.devRef .tc main_arg1) :=
  (keep28 (val28 V0) main_arg1 (by decide)).trans (val28_arg1 V0)
theorem val29_arg2 (V0 : Valuation τ sig (Elt F)) : val29 V0 (Proc.devRef .tc main_arg2) = V0 (Proc.devRef .tc main_arg2) :=
  (keep28 (val28 V0) main_arg2 (by decide)).trans (val28_arg2 V0)
theorem val29_arg3 (V0 : Valuation τ sig (Elt F)) : val29 V0 (Proc.devRef .tc main_arg3) = V0 (Proc.devRef .tc main_arg3) :=
  (keep28 (val28 V0) main_arg3 (by decide)).trans (val28_arg3 V0)
theorem val29_arg4 (V0 : Valuation τ sig (Elt F)) : val29 V0 (Proc.devRef .tc main_arg4) = V0 (Proc.devRef .tc main_arg4) :=
  (keep28 (val28 V0) main_arg4 (by decide)).trans (val28_arg4 V0)
theorem val29_arg5 (V0 : Valuation τ sig (Elt F)) : val29 V0 (Proc.devRef .tc main_arg5) = V0 (Proc.devRef .tc main_arg5) :=
  (keep28 (val28 V0) main_arg5 (by decide)).trans (val28_arg5 V0)
theorem val29_arg6 (V0 : Valuation τ sig (Elt F)) : val29 V0 (Proc.devRef .tc main_arg6) = V0 (Proc.devRef .tc main_arg6) :=
  (keep28 (val28 V0) main_arg6 (by decide)).trans (val28_arg6 V0)
theorem val29_arg7 (V0 : Valuation τ sig (Elt F)) : val29 V0 (Proc.devRef .tc main_arg7) = V0 (Proc.devRef .tc main_arg7) :=
  (keep28 (val28 V0) main_arg7 (by decide)).trans (val28_arg7 V0)
theorem val29_arg8 (V0 : Valuation τ sig (Elt F)) : val29 V0 (Proc.devRef .tc main_arg8) = V0 (Proc.devRef .tc main_arg8) :=
  (keep28 (val28 V0) main_arg8 (by decide)).trans (val28_arg8 V0)
theorem val29_arg9 (V0 : Valuation τ sig (Elt F)) : val29 V0 (Proc.devRef .tc main_arg9) = V0 (Proc.devRef .tc main_arg9) :=
  (keep28 (val28 V0) main_arg9 (by decide)).trans (val28_arg9 V0)
theorem val29_arg10 (V0 : Valuation τ sig (Elt F)) : val29 V0 (Proc.devRef .tc main_arg10) = V0 (Proc.devRef .tc main_arg10) :=
  (keep28 (val28 V0) main_arg10 (by decide)).trans (val28_arg10 V0)
theorem val29_arg11 (V0 : Valuation τ sig (Elt F)) : val29 V0 (Proc.devRef .tc main_arg11) = V0 (Proc.devRef .tc main_arg11) :=
  (keep28 (val28 V0) main_arg11 (by decide)).trans (val28_arg11 V0)
theorem val29_arg12 (V0 : Valuation τ sig (Elt F)) : val29 V0 (Proc.devRef .tc main_arg12) = V0 (Proc.devRef .tc main_arg12) :=
  (keep28 (val28 V0) main_arg12 (by decide)).trans (val28_arg12 V0)
theorem val29_arg13 (V0 : Valuation τ sig (Elt F)) : val29 V0 (Proc.devRef .tc main_arg13) = V0 (Proc.devRef .tc main_arg13) :=
  (keep28 (val28 V0) main_arg13 (by decide)).trans (val28_arg13 V0)
theorem val29_arg14 (V0 : Valuation τ sig (Elt F)) : val29 V0 (Proc.devRef .tc main_arg14) = V0 (Proc.devRef .tc main_arg14) :=
  (keep28 (val28 V0) main_arg14 (by decide)).trans (val28_arg14 V0)
theorem val29_arg15 (V0 : Valuation τ sig (Elt F)) : val29 V0 (Proc.devRef .tc main_arg15) = V0 (Proc.devRef .tc main_arg15) :=
  (keep28 (val28 V0) main_arg15 (by decide)).trans (val28_arg15 V0)
theorem val29_arg16 (V0 : Valuation τ sig (Elt F)) : val29 V0 (Proc.devRef .tc main_arg16) = V0 (Proc.devRef .tc main_arg16) :=
  (keep28 (val28 V0) main_arg16 (by decide)).trans (val28_arg16 V0)
theorem val29_arg17 (V0 : Valuation τ sig (Elt F)) : val29 V0 (Proc.devRef .tc main_arg17) = V0 (Proc.devRef .tc main_arg17) :=
  (keep28 (val28 V0) main_arg17 (by decide)).trans (val28_arg17 V0)
theorem val29_v3 (V0 : Valuation τ sig (Elt F)) : val29 V0 (Proc.devRef .tc main_v3) = res_v3 V0 :=
  (keep28 (val28 V0) main_v3 (by decide)).trans (val28_v3 V0)
theorem val29_v6 (V0 : Valuation τ sig (Elt F)) : val29 V0 (Proc.devRef .tc main_v6) = res_v6 V0 :=
  (keep28 (val28 V0) main_v6 (by decide)).trans (val28_v6 V0)
theorem val29_v28 (V0 : Valuation τ sig (Elt F)) : val29 V0 (Proc.devRef .tc main_v28) = res_v28 V0 :=
  (keep28 (val28 V0) main_v28 (by decide)).trans (val28_v28 V0)
theorem val29_v322 (V0 : Valuation τ sig (Elt F)) : val29 V0 (Proc.devRef .tc main_v322) = res_v322 V0 :=
  (c28_v322 (val28 V0)).trans (by rw [val28_v6, val28_v310, val28_v228, val28_v3, res_v322])

/-- The arrays after stretches 0 … 29. -/
def val30 (V0 : Valuation τ sig (Elt F)) : Valuation τ sig (Elt F) := after ops29 (val29 V0)
theorem val30_arg0 (V0 : Valuation τ sig (Elt F)) : val30 V0 (Proc.devRef .tc main_arg0) = V0 (Proc.devRef .tc main_arg0) :=
  (keep29 (val29 V0) main_arg0 (by decide)).trans (val29_arg0 V0)
theorem val30_arg1 (V0 : Valuation τ sig (Elt F)) : val30 V0 (Proc.devRef .tc main_arg1) = V0 (Proc.devRef .tc main_arg1) :=
  (keep29 (val29 V0) main_arg1 (by decide)).trans (val29_arg1 V0)
theorem val30_arg2 (V0 : Valuation τ sig (Elt F)) : val30 V0 (Proc.devRef .tc main_arg2) = V0 (Proc.devRef .tc main_arg2) :=
  (keep29 (val29 V0) main_arg2 (by decide)).trans (val29_arg2 V0)
theorem val30_arg3 (V0 : Valuation τ sig (Elt F)) : val30 V0 (Proc.devRef .tc main_arg3) = V0 (Proc.devRef .tc main_arg3) :=
  (keep29 (val29 V0) main_arg3 (by decide)).trans (val29_arg3 V0)
theorem val30_arg4 (V0 : Valuation τ sig (Elt F)) : val30 V0 (Proc.devRef .tc main_arg4) = V0 (Proc.devRef .tc main_arg4) :=
  (keep29 (val29 V0) main_arg4 (by decide)).trans (val29_arg4 V0)
theorem val30_arg5 (V0 : Valuation τ sig (Elt F)) : val30 V0 (Proc.devRef .tc main_arg5) = V0 (Proc.devRef .tc main_arg5) :=
  (keep29 (val29 V0) main_arg5 (by decide)).trans (val29_arg5 V0)
theorem val30_arg6 (V0 : Valuation τ sig (Elt F)) : val30 V0 (Proc.devRef .tc main_arg6) = V0 (Proc.devRef .tc main_arg6) :=
  (keep29 (val29 V0) main_arg6 (by decide)).trans (val29_arg6 V0)
theorem val30_arg7 (V0 : Valuation τ sig (Elt F)) : val30 V0 (Proc.devRef .tc main_arg7) = V0 (Proc.devRef .tc main_arg7) :=
  (keep29 (val29 V0) main_arg7 (by decide)).trans (val29_arg7 V0)
theorem val30_arg8 (V0 : Valuation τ sig (Elt F)) : val30 V0 (Proc.devRef .tc main_arg8) = V0 (Proc.devRef .tc main_arg8) :=
  (keep29 (val29 V0) main_arg8 (by decide)).trans (val29_arg8 V0)
theorem val30_arg9 (V0 : Valuation τ sig (Elt F)) : val30 V0 (Proc.devRef .tc main_arg9) = V0 (Proc.devRef .tc main_arg9) :=
  (keep29 (val29 V0) main_arg9 (by decide)).trans (val29_arg9 V0)
theorem val30_arg10 (V0 : Valuation τ sig (Elt F)) : val30 V0 (Proc.devRef .tc main_arg10) = V0 (Proc.devRef .tc main_arg10) :=
  (keep29 (val29 V0) main_arg10 (by decide)).trans (val29_arg10 V0)
theorem val30_arg11 (V0 : Valuation τ sig (Elt F)) : val30 V0 (Proc.devRef .tc main_arg11) = V0 (Proc.devRef .tc main_arg11) :=
  (keep29 (val29 V0) main_arg11 (by decide)).trans (val29_arg11 V0)
theorem val30_arg12 (V0 : Valuation τ sig (Elt F)) : val30 V0 (Proc.devRef .tc main_arg12) = V0 (Proc.devRef .tc main_arg12) :=
  (keep29 (val29 V0) main_arg12 (by decide)).trans (val29_arg12 V0)
theorem val30_arg13 (V0 : Valuation τ sig (Elt F)) : val30 V0 (Proc.devRef .tc main_arg13) = V0 (Proc.devRef .tc main_arg13) :=
  (keep29 (val29 V0) main_arg13 (by decide)).trans (val29_arg13 V0)
theorem val30_arg14 (V0 : Valuation τ sig (Elt F)) : val30 V0 (Proc.devRef .tc main_arg14) = V0 (Proc.devRef .tc main_arg14) :=
  (keep29 (val29 V0) main_arg14 (by decide)).trans (val29_arg14 V0)
theorem val30_arg15 (V0 : Valuation τ sig (Elt F)) : val30 V0 (Proc.devRef .tc main_arg15) = V0 (Proc.devRef .tc main_arg15) :=
  (keep29 (val29 V0) main_arg15 (by decide)).trans (val29_arg15 V0)
theorem val30_arg16 (V0 : Valuation τ sig (Elt F)) : val30 V0 (Proc.devRef .tc main_arg16) = V0 (Proc.devRef .tc main_arg16) :=
  (keep29 (val29 V0) main_arg16 (by decide)).trans (val29_arg16 V0)
theorem val30_arg17 (V0 : Valuation τ sig (Elt F)) : val30 V0 (Proc.devRef .tc main_arg17) = V0 (Proc.devRef .tc main_arg17) :=
  (keep29 (val29 V0) main_arg17 (by decide)).trans (val29_arg17 V0)
theorem val30_v3 (V0 : Valuation τ sig (Elt F)) : val30 V0 (Proc.devRef .tc main_v3) = res_v3 V0 :=
  (keep29 (val29 V0) main_v3 (by decide)).trans (val29_v3 V0)
theorem val30_v6 (V0 : Valuation τ sig (Elt F)) : val30 V0 (Proc.devRef .tc main_v6) = res_v6 V0 :=
  (keep29 (val29 V0) main_v6 (by decide)).trans (val29_v6 V0)
theorem val30_v28 (V0 : Valuation τ sig (Elt F)) : val30 V0 (Proc.devRef .tc main_v28) = res_v28 V0 :=
  (keep29 (val29 V0) main_v28 (by decide)).trans (val29_v28 V0)
theorem val30_v330 (V0 : Valuation τ sig (Elt F)) : val30 V0 (Proc.devRef .tc main_v330) = res_v330 V0 :=
  (c29_v330 (val29 V0)).trans (by rw [val29_v322, val29_arg3, val29_arg4, res_v330])

/-- The arrays after stretches 0 … 30. -/
def val31 (V0 : Valuation τ sig (Elt F)) : Valuation τ sig (Elt F) := after ops30 (val30 V0)
theorem val31_arg0 (V0 : Valuation τ sig (Elt F)) : val31 V0 (Proc.devRef .tc main_arg0) = V0 (Proc.devRef .tc main_arg0) :=
  (keep30 (val30 V0) main_arg0 (by decide)).trans (val30_arg0 V0)
theorem val31_arg1 (V0 : Valuation τ sig (Elt F)) : val31 V0 (Proc.devRef .tc main_arg1) = V0 (Proc.devRef .tc main_arg1) :=
  (keep30 (val30 V0) main_arg1 (by decide)).trans (val30_arg1 V0)
theorem val31_arg2 (V0 : Valuation τ sig (Elt F)) : val31 V0 (Proc.devRef .tc main_arg2) = V0 (Proc.devRef .tc main_arg2) :=
  (keep30 (val30 V0) main_arg2 (by decide)).trans (val30_arg2 V0)
theorem val31_arg3 (V0 : Valuation τ sig (Elt F)) : val31 V0 (Proc.devRef .tc main_arg3) = V0 (Proc.devRef .tc main_arg3) :=
  (keep30 (val30 V0) main_arg3 (by decide)).trans (val30_arg3 V0)
theorem val31_arg4 (V0 : Valuation τ sig (Elt F)) : val31 V0 (Proc.devRef .tc main_arg4) = V0 (Proc.devRef .tc main_arg4) :=
  (keep30 (val30 V0) main_arg4 (by decide)).trans (val30_arg4 V0)
theorem val31_arg5 (V0 : Valuation τ sig (Elt F)) : val31 V0 (Proc.devRef .tc main_arg5) = V0 (Proc.devRef .tc main_arg5) :=
  (keep30 (val30 V0) main_arg5 (by decide)).trans (val30_arg5 V0)
theorem val31_arg6 (V0 : Valuation τ sig (Elt F)) : val31 V0 (Proc.devRef .tc main_arg6) = V0 (Proc.devRef .tc main_arg6) :=
  (keep30 (val30 V0) main_arg6 (by decide)).trans (val30_arg6 V0)
theorem val31_arg7 (V0 : Valuation τ sig (Elt F)) : val31 V0 (Proc.devRef .tc main_arg7) = V0 (Proc.devRef .tc main_arg7) :=
  (keep30 (val30 V0) main_arg7 (by decide)).trans (val30_arg7 V0)
theorem val31_arg8 (V0 : Valuation τ sig (Elt F)) : val31 V0 (Proc.devRef .tc main_arg8) = V0 (Proc.devRef .tc main_arg8) :=
  (keep30 (val30 V0) main_arg8 (by decide)).trans (val30_arg8 V0)
theorem val31_arg9 (V0 : Valuation τ sig (Elt F)) : val31 V0 (Proc.devRef .tc main_arg9) = V0 (Proc.devRef .tc main_arg9) :=
  (keep30 (val30 V0) main_arg9 (by decide)).trans (val30_arg9 V0)
theorem val31_arg10 (V0 : Valuation τ sig (Elt F)) : val31 V0 (Proc.devRef .tc main_arg10) = V0 (Proc.devRef .tc main_arg10) :=
  (keep30 (val30 V0) main_arg10 (by decide)).trans (val30_arg10 V0)
theorem val31_arg11 (V0 : Valuation τ sig (Elt F)) : val31 V0 (Proc.devRef .tc main_arg11) = V0 (Proc.devRef .tc main_arg11) :=
  (keep30 (val30 V0) main_arg11 (by decide)).trans (val30_arg11 V0)
theorem val31_arg12 (V0 : Valuation τ sig (Elt F)) : val31 V0 (Proc.devRef .tc main_arg12) = V0 (Proc.devRef .tc main_arg12) :=
  (keep30 (val30 V0) main_arg12 (by decide)).trans (val30_arg12 V0)
theorem val31_arg13 (V0 : Valuation τ sig (Elt F)) : val31 V0 (Proc.devRef .tc main_arg13) = V0 (Proc.devRef .tc main_arg13) :=
  (keep30 (val30 V0) main_arg13 (by decide)).trans (val30_arg13 V0)
theorem val31_arg14 (V0 : Valuation τ sig (Elt F)) : val31 V0 (Proc.devRef .tc main_arg14) = V0 (Proc.devRef .tc main_arg14) :=
  (keep30 (val30 V0) main_arg14 (by decide)).trans (val30_arg14 V0)
theorem val31_arg15 (V0 : Valuation τ sig (Elt F)) : val31 V0 (Proc.devRef .tc main_arg15) = V0 (Proc.devRef .tc main_arg15) :=
  (keep30 (val30 V0) main_arg15 (by decide)).trans (val30_arg15 V0)
theorem val31_arg16 (V0 : Valuation τ sig (Elt F)) : val31 V0 (Proc.devRef .tc main_arg16) = V0 (Proc.devRef .tc main_arg16) :=
  (keep30 (val30 V0) main_arg16 (by decide)).trans (val30_arg16 V0)
theorem val31_arg17 (V0 : Valuation τ sig (Elt F)) : val31 V0 (Proc.devRef .tc main_arg17) = V0 (Proc.devRef .tc main_arg17) :=
  (keep30 (val30 V0) main_arg17 (by decide)).trans (val30_arg17 V0)
theorem val31_v3 (V0 : Valuation τ sig (Elt F)) : val31 V0 (Proc.devRef .tc main_v3) = res_v3 V0 :=
  (keep30 (val30 V0) main_v3 (by decide)).trans (val30_v3 V0)
theorem val31_v6 (V0 : Valuation τ sig (Elt F)) : val31 V0 (Proc.devRef .tc main_v6) = res_v6 V0 :=
  (keep30 (val30 V0) main_v6 (by decide)).trans (val30_v6 V0)
theorem val31_v28 (V0 : Valuation τ sig (Elt F)) : val31 V0 (Proc.devRef .tc main_v28) = res_v28 V0 :=
  (keep30 (val30 V0) main_v28 (by decide)).trans (val30_v28 V0)
theorem val31_v359 (V0 : Valuation τ sig (Elt F)) : val31 V0 (Proc.devRef .tc main_v359) = res_v359 V0 :=
  (c30_v359 (val30 V0)).trans (by rw [val30_arg5, val30_v330, val30_arg6, res_v359])

/-- The arrays after stretches 0 … 31. -/
def val32 (V0 : Valuation τ sig (Elt F)) : Valuation τ sig (Elt F) := after ops31 (val31 V0)
theorem val32_arg0 (V0 : Valuation τ sig (Elt F)) : val32 V0 (Proc.devRef .tc main_arg0) = V0 (Proc.devRef .tc main_arg0) :=
  (keep31 (val31 V0) main_arg0 (by decide)).trans (val31_arg0 V0)
theorem val32_arg1 (V0 : Valuation τ sig (Elt F)) : val32 V0 (Proc.devRef .tc main_arg1) = V0 (Proc.devRef .tc main_arg1) :=
  (keep31 (val31 V0) main_arg1 (by decide)).trans (val31_arg1 V0)
theorem val32_arg2 (V0 : Valuation τ sig (Elt F)) : val32 V0 (Proc.devRef .tc main_arg2) = V0 (Proc.devRef .tc main_arg2) :=
  (keep31 (val31 V0) main_arg2 (by decide)).trans (val31_arg2 V0)
theorem val32_arg3 (V0 : Valuation τ sig (Elt F)) : val32 V0 (Proc.devRef .tc main_arg3) = V0 (Proc.devRef .tc main_arg3) :=
  (keep31 (val31 V0) main_arg3 (by decide)).trans (val31_arg3 V0)
theorem val32_arg4 (V0 : Valuation τ sig (Elt F)) : val32 V0 (Proc.devRef .tc main_arg4) = V0 (Proc.devRef .tc main_arg4) :=
  (keep31 (val31 V0) main_arg4 (by decide)).trans (val31_arg4 V0)
theorem val32_arg5 (V0 : Valuation τ sig (Elt F)) : val32 V0 (Proc.devRef .tc main_arg5) = V0 (Proc.devRef .tc main_arg5) :=
  (keep31 (val31 V0) main_arg5 (by decide)).trans (val31_arg5 V0)
theorem val32_arg6 (V0 : Valuation τ sig (Elt F)) : val32 V0 (Proc.devRef .tc main_arg6) = V0 (Proc.devRef .tc main_arg6) :=
  (keep31 (val31 V0) main_arg6 (by decide)).trans (val31_arg6 V0)
theorem val32_arg7 (V0 : Valuation τ sig (Elt F)) : val32 V0 (Proc.devRef .tc main_arg7) = V0 (Proc.devRef .tc main_arg7) :=
  (keep31 (val31 V0) main_arg7 (by decide)).trans (val31_arg7 V0)
theorem val32_arg8 (V0 : Valuation τ sig (Elt F)) : val32 V0 (Proc.devRef .tc main_arg8) = V0 (Proc.devRef .tc main_arg8) :=
  (keep31 (val31 V0) main_arg8 (by decide)).trans (val31_arg8 V0)
theorem val32_arg9 (V0 : Valuation τ sig (Elt F)) : val32 V0 (Proc.devRef .tc main_arg9) = V0 (Proc.devRef .tc main_arg9) :=
  (keep31 (val31 V0) main_arg9 (by decide)).trans (val31_arg9 V0)
theorem val32_arg10 (V0 : Valuation τ sig (Elt F)) : val32 V0 (Proc.devRef .tc main_arg10) = V0 (Proc.devRef .tc main_arg10) :=
  (keep31 (val31 V0) main_arg10 (by decide)).trans (val31_arg10 V0)
theorem val32_arg11 (V0 : Valuation τ sig (Elt F)) : val32 V0 (Proc.devRef .tc main_arg11) = V0 (Proc.devRef .tc main_arg11) :=
  (keep31 (val31 V0) main_arg11 (by decide)).trans (val31_arg11 V0)
theorem val32_arg12 (V0 : Valuation τ sig (Elt F)) : val32 V0 (Proc.devRef .tc main_arg12) = V0 (Proc.devRef .tc main_arg12) :=
  (keep31 (val31 V0) main_arg12 (by decide)).trans (val31_arg12 V0)
theorem val32_arg13 (V0 : Valuation τ sig (Elt F)) : val32 V0 (Proc.devRef .tc main_arg13) = V0 (Proc.devRef .tc main_arg13) :=
  (keep31 (val31 V0) main_arg13 (by decide)).trans (val31_arg13 V0)
theorem val32_arg14 (V0 : Valuation τ sig (Elt F)) : val32 V0 (Proc.devRef .tc main_arg14) = V0 (Proc.devRef .tc main_arg14) :=
  (keep31 (val31 V0) main_arg14 (by decide)).trans (val31_arg14 V0)
theorem val32_arg15 (V0 : Valuation τ sig (Elt F)) : val32 V0 (Proc.devRef .tc main_arg15) = V0 (Proc.devRef .tc main_arg15) :=
  (keep31 (val31 V0) main_arg15 (by decide)).trans (val31_arg15 V0)
theorem val32_arg16 (V0 : Valuation τ sig (Elt F)) : val32 V0 (Proc.devRef .tc main_arg16) = V0 (Proc.devRef .tc main_arg16) :=
  (keep31 (val31 V0) main_arg16 (by decide)).trans (val31_arg16 V0)
theorem val32_arg17 (V0 : Valuation τ sig (Elt F)) : val32 V0 (Proc.devRef .tc main_arg17) = V0 (Proc.devRef .tc main_arg17) :=
  (keep31 (val31 V0) main_arg17 (by decide)).trans (val31_arg17 V0)
theorem val32_v3 (V0 : Valuation τ sig (Elt F)) : val32 V0 (Proc.devRef .tc main_v3) = res_v3 V0 :=
  (keep31 (val31 V0) main_v3 (by decide)).trans (val31_v3 V0)
theorem val32_v6 (V0 : Valuation τ sig (Elt F)) : val32 V0 (Proc.devRef .tc main_v6) = res_v6 V0 :=
  (keep31 (val31 V0) main_v6 (by decide)).trans (val31_v6 V0)
theorem val32_v28 (V0 : Valuation τ sig (Elt F)) : val32 V0 (Proc.devRef .tc main_v28) = res_v28 V0 :=
  (keep31 (val31 V0) main_v28 (by decide)).trans (val31_v28 V0)
theorem val32_v359 (V0 : Valuation τ sig (Elt F)) : val32 V0 (Proc.devRef .tc main_v359) = res_v359 V0 :=
  (keep31 (val31 V0) main_v359 (by decide)).trans (val31_v359 V0)
theorem val32_v360 (V0 : Valuation τ sig (Elt F)) : val32 V0 (Proc.devRef .tc main_v360) = res_v360 V0 :=
  (c31_v360 (val31 V0)).trans (by rw [val31_v28, res_v360])
theorem val32_v361 (V0 : Valuation τ sig (Elt F)) : val32 V0 (Proc.devRef .tc main_v361) = res_v361 V0 :=
  (c31_v361 (val31 V0)).trans (by rw [res_v361])

/-- The arrays after stretches 0 … 32. -/
def val33 (V0 : Valuation τ sig (Elt F)) : Valuation τ sig (Elt F) := after ops32 (val32 V0)
theorem val33_arg0 (V0 : Valuation τ sig (Elt F)) : val33 V0 (Proc.devRef .tc main_arg0) = V0 (Proc.devRef .tc main_arg0) :=
  (keep32 (val32 V0) main_arg0 (by decide)).trans (val32_arg0 V0)
theorem val33_arg1 (V0 : Valuation τ sig (Elt F)) : val33 V0 (Proc.devRef .tc main_arg1) = V0 (Proc.devRef .tc main_arg1) :=
  (keep32 (val32 V0) main_arg1 (by decide)).trans (val32_arg1 V0)
theorem val33_arg2 (V0 : Valuation τ sig (Elt F)) : val33 V0 (Proc.devRef .tc main_arg2) = V0 (Proc.devRef .tc main_arg2) :=
  (keep32 (val32 V0) main_arg2 (by decide)).trans (val32_arg2 V0)
theorem val33_arg3 (V0 : Valuation τ sig (Elt F)) : val33 V0 (Proc.devRef .tc main_arg3) = V0 (Proc.devRef .tc main_arg3) :=
  (keep32 (val32 V0) main_arg3 (by decide)).trans (val32_arg3 V0)
theorem val33_arg4 (V0 : Valuation τ sig (Elt F)) : val33 V0 (Proc.devRef .tc main_arg4) = V0 (Proc.devRef .tc main_arg4) :=
  (keep32 (val32 V0) main_arg4 (by decide)).trans (val32_arg4 V0)
theorem val33_arg5 (V0 : Valuation τ sig (Elt F)) : val33 V0 (Proc.devRef .tc main_arg5) = V0 (Proc.devRef .tc main_arg5) :=
  (keep32 (val32 V0) main_arg5 (by decide)).trans (val32_arg5 V0)
theorem val33_arg6 (V0 : Valuation τ sig (Elt F)) : val33 V0 (Proc.devRef .tc main_arg6) = V0 (Proc.devRef .tc main_arg6) :=
  (keep32 (val32 V0) main_arg6 (by decide)).trans (val32_arg6 V0)
theorem val33_arg7 (V0 : Valuation τ sig (Elt F)) : val33 V0 (Proc.devRef .tc main_arg7) = V0 (Proc.devRef .tc main_arg7) :=
  (keep32 (val32 V0) main_arg7 (by decide)).trans (val32_arg7 V0)
theorem val33_arg8 (V0 : Valuation τ sig (Elt F)) : val33 V0 (Proc.devRef .tc main_arg8) = V0 (Proc.devRef .tc main_arg8) :=
  (keep32 (val32 V0) main_arg8 (by decide)).trans (val32_arg8 V0)
theorem val33_arg9 (V0 : Valuation τ sig (Elt F)) : val33 V0 (Proc.devRef .tc main_arg9) = V0 (Proc.devRef .tc main_arg9) :=
  (keep32 (val32 V0) main_arg9 (by decide)).trans (val32_arg9 V0)
theorem val33_arg10 (V0 : Valuation τ sig (Elt F)) : val33 V0 (Proc.devRef .tc main_arg10) = V0 (Proc.devRef .tc main_arg10) :=
  (keep32 (val32 V0) main_arg10 (by decide)).trans (val32_arg10 V0)
theorem val33_arg11 (V0 : Valuation τ sig (Elt F)) : val33 V0 (Proc.devRef .tc main_arg11) = V0 (Proc.devRef .tc main_arg11) :=
  (keep32 (val32 V0) main_arg11 (by decide)).trans (val32_arg11 V0)
theorem val33_arg12 (V0 : Valuation τ sig (Elt F)) : val33 V0 (Proc.devRef .tc main_arg12) = V0 (Proc.devRef .tc main_arg12) :=
  (keep32 (val32 V0) main_arg12 (by decide)).trans (val32_arg12 V0)
theorem val33_arg13 (V0 : Valuation τ sig (Elt F)) : val33 V0 (Proc.devRef .tc main_arg13) = V0 (Proc.devRef .tc main_arg13) :=
  (keep32 (val32 V0) main_arg13 (by decide)).trans (val32_arg13 V0)
theorem val33_arg14 (V0 : Valuation τ sig (Elt F)) : val33 V0 (Proc.devRef .tc main_arg14) = V0 (Proc.devRef .tc main_arg14) :=
  (keep32 (val32 V0) main_arg14 (by decide)).trans (val32_arg14 V0)
theorem val33_arg15 (V0 : Valuation τ sig (Elt F)) : val33 V0 (Proc.devRef .tc main_arg15) = V0 (Proc.devRef .tc main_arg15) :=
  (keep32 (val32 V0) main_arg15 (by decide)).trans (val32_arg15 V0)
theorem val33_arg16 (V0 : Valuation τ sig (Elt F)) : val33 V0 (Proc.devRef .tc main_arg16) = V0 (Proc.devRef .tc main_arg16) :=
  (keep32 (val32 V0) main_arg16 (by decide)).trans (val32_arg16 V0)
theorem val33_arg17 (V0 : Valuation τ sig (Elt F)) : val33 V0 (Proc.devRef .tc main_arg17) = V0 (Proc.devRef .tc main_arg17) :=
  (keep32 (val32 V0) main_arg17 (by decide)).trans (val32_arg17 V0)
theorem val33_v3 (V0 : Valuation τ sig (Elt F)) : val33 V0 (Proc.devRef .tc main_v3) = res_v3 V0 :=
  (keep32 (val32 V0) main_v3 (by decide)).trans (val32_v3 V0)
theorem val33_v6 (V0 : Valuation τ sig (Elt F)) : val33 V0 (Proc.devRef .tc main_v6) = res_v6 V0 :=
  (keep32 (val32 V0) main_v6 (by decide)).trans (val32_v6 V0)
theorem val33_v28 (V0 : Valuation τ sig (Elt F)) : val33 V0 (Proc.devRef .tc main_v28) = res_v28 V0 :=
  (keep32 (val32 V0) main_v28 (by decide)).trans (val32_v28 V0)
theorem val33_v359 (V0 : Valuation τ sig (Elt F)) : val33 V0 (Proc.devRef .tc main_v359) = res_v359 V0 :=
  (keep32 (val32 V0) main_v359 (by decide)).trans (val32_v359 V0)
theorem val33_v377 (V0 : Valuation τ sig (Elt F)) : val33 V0 (Proc.devRef .tc main_v377) = res_v377 V0 :=
  (c32_v377 (val32 V0)).trans (by rw [val32_v6, val32_v360, val32_v359, val32_v3, val32_v361, res_v377])

/-- The arrays after stretches 0 … 33. -/
def val34 (V0 : Valuation τ sig (Elt F)) : Valuation τ sig (Elt F) := after ops33 (val33 V0)
theorem val34_arg0 (V0 : Valuation τ sig (Elt F)) : val34 V0 (Proc.devRef .tc main_arg0) = V0 (Proc.devRef .tc main_arg0) :=
  (keep33 (val33 V0) main_arg0 (by decide)).trans (val33_arg0 V0)
theorem val34_arg1 (V0 : Valuation τ sig (Elt F)) : val34 V0 (Proc.devRef .tc main_arg1) = V0 (Proc.devRef .tc main_arg1) :=
  (keep33 (val33 V0) main_arg1 (by decide)).trans (val33_arg1 V0)
theorem val34_arg2 (V0 : Valuation τ sig (Elt F)) : val34 V0 (Proc.devRef .tc main_arg2) = V0 (Proc.devRef .tc main_arg2) :=
  (keep33 (val33 V0) main_arg2 (by decide)).trans (val33_arg2 V0)
theorem val34_arg3 (V0 : Valuation τ sig (Elt F)) : val34 V0 (Proc.devRef .tc main_arg3) = V0 (Proc.devRef .tc main_arg3) :=
  (keep33 (val33 V0) main_arg3 (by decide)).trans (val33_arg3 V0)
theorem val34_arg4 (V0 : Valuation τ sig (Elt F)) : val34 V0 (Proc.devRef .tc main_arg4) = V0 (Proc.devRef .tc main_arg4) :=
  (keep33 (val33 V0) main_arg4 (by decide)).trans (val33_arg4 V0)
theorem val34_arg5 (V0 : Valuation τ sig (Elt F)) : val34 V0 (Proc.devRef .tc main_arg5) = V0 (Proc.devRef .tc main_arg5) :=
  (keep33 (val33 V0) main_arg5 (by decide)).trans (val33_arg5 V0)
theorem val34_arg6 (V0 : Valuation τ sig (Elt F)) : val34 V0 (Proc.devRef .tc main_arg6) = V0 (Proc.devRef .tc main_arg6) :=
  (keep33 (val33 V0) main_arg6 (by decide)).trans (val33_arg6 V0)
theorem val34_arg7 (V0 : Valuation τ sig (Elt F)) : val34 V0 (Proc.devRef .tc main_arg7) = V0 (Proc.devRef .tc main_arg7) :=
  (keep33 (val33 V0) main_arg7 (by decide)).trans (val33_arg7 V0)
theorem val34_arg8 (V0 : Valuation τ sig (Elt F)) : val34 V0 (Proc.devRef .tc main_arg8) = V0 (Proc.devRef .tc main_arg8) :=
  (keep33 (val33 V0) main_arg8 (by decide)).trans (val33_arg8 V0)
theorem val34_arg9 (V0 : Valuation τ sig (Elt F)) : val34 V0 (Proc.devRef .tc main_arg9) = V0 (Proc.devRef .tc main_arg9) :=
  (keep33 (val33 V0) main_arg9 (by decide)).trans (val33_arg9 V0)
theorem val34_arg10 (V0 : Valuation τ sig (Elt F)) : val34 V0 (Proc.devRef .tc main_arg10) = V0 (Proc.devRef .tc main_arg10) :=
  (keep33 (val33 V0) main_arg10 (by decide)).trans (val33_arg10 V0)
theorem val34_arg11 (V0 : Valuation τ sig (Elt F)) : val34 V0 (Proc.devRef .tc main_arg11) = V0 (Proc.devRef .tc main_arg11) :=
  (keep33 (val33 V0) main_arg11 (by decide)).trans (val33_arg11 V0)
theorem val34_arg12 (V0 : Valuation τ sig (Elt F)) : val34 V0 (Proc.devRef .tc main_arg12) = V0 (Proc.devRef .tc main_arg12) :=
  (keep33 (val33 V0) main_arg12 (by decide)).trans (val33_arg12 V0)
theorem val34_arg13 (V0 : Valuation τ sig (Elt F)) : val34 V0 (Proc.devRef .tc main_arg13) = V0 (Proc.devRef .tc main_arg13) :=
  (keep33 (val33 V0) main_arg13 (by decide)).trans (val33_arg13 V0)
theorem val34_arg14 (V0 : Valuation τ sig (Elt F)) : val34 V0 (Proc.devRef .tc main_arg14) = V0 (Proc.devRef .tc main_arg14) :=
  (keep33 (val33 V0) main_arg14 (by decide)).trans (val33_arg14 V0)
theorem val34_arg15 (V0 : Valuation τ sig (Elt F)) : val34 V0 (Proc.devRef .tc main_arg15) = V0 (Proc.devRef .tc main_arg15) :=
  (keep33 (val33 V0) main_arg15 (by decide)).trans (val33_arg15 V0)
theorem val34_arg16 (V0 : Valuation τ sig (Elt F)) : val34 V0 (Proc.devRef .tc main_arg16) = V0 (Proc.devRef .tc main_arg16) :=
  (keep33 (val33 V0) main_arg16 (by decide)).trans (val33_arg16 V0)
theorem val34_arg17 (V0 : Valuation τ sig (Elt F)) : val34 V0 (Proc.devRef .tc main_arg17) = V0 (Proc.devRef .tc main_arg17) :=
  (keep33 (val33 V0) main_arg17 (by decide)).trans (val33_arg17 V0)
theorem val34_v3 (V0 : Valuation τ sig (Elt F)) : val34 V0 (Proc.devRef .tc main_v3) = res_v3 V0 :=
  (keep33 (val33 V0) main_v3 (by decide)).trans (val33_v3 V0)
theorem val34_v6 (V0 : Valuation τ sig (Elt F)) : val34 V0 (Proc.devRef .tc main_v6) = res_v6 V0 :=
  (keep33 (val33 V0) main_v6 (by decide)).trans (val33_v6 V0)
theorem val34_v28 (V0 : Valuation τ sig (Elt F)) : val34 V0 (Proc.devRef .tc main_v28) = res_v28 V0 :=
  (keep33 (val33 V0) main_v28 (by decide)).trans (val33_v28 V0)
theorem val34_v359 (V0 : Valuation τ sig (Elt F)) : val34 V0 (Proc.devRef .tc main_v359) = res_v359 V0 :=
  (keep33 (val33 V0) main_v359 (by decide)).trans (val33_v359 V0)
theorem val34_v395 (V0 : Valuation τ sig (Elt F)) : val34 V0 (Proc.devRef .tc main_v395) = res_v395 V0 :=
  (c33_v395 (val33 V0)).trans (by rw [val33_v6, val33_v28, val33_v377, val33_v3, val33_v359, res_v395])

/-- The arrays after stretches 0 … 34. -/
def val35 (V0 : Valuation τ sig (Elt F)) : Valuation τ sig (Elt F) := after ops34 (val34 V0)
theorem val35_arg0 (V0 : Valuation τ sig (Elt F)) : val35 V0 (Proc.devRef .tc main_arg0) = V0 (Proc.devRef .tc main_arg0) :=
  (keep34 (val34 V0) main_arg0 (by decide)).trans (val34_arg0 V0)
theorem val35_arg1 (V0 : Valuation τ sig (Elt F)) : val35 V0 (Proc.devRef .tc main_arg1) = V0 (Proc.devRef .tc main_arg1) :=
  (keep34 (val34 V0) main_arg1 (by decide)).trans (val34_arg1 V0)
theorem val35_arg2 (V0 : Valuation τ sig (Elt F)) : val35 V0 (Proc.devRef .tc main_arg2) = V0 (Proc.devRef .tc main_arg2) :=
  (keep34 (val34 V0) main_arg2 (by decide)).trans (val34_arg2 V0)
theorem val35_arg3 (V0 : Valuation τ sig (Elt F)) : val35 V0 (Proc.devRef .tc main_arg3) = V0 (Proc.devRef .tc main_arg3) :=
  (keep34 (val34 V0) main_arg3 (by decide)).trans (val34_arg3 V0)
theorem val35_arg4 (V0 : Valuation τ sig (Elt F)) : val35 V0 (Proc.devRef .tc main_arg4) = V0 (Proc.devRef .tc main_arg4) :=
  (keep34 (val34 V0) main_arg4 (by decide)).trans (val34_arg4 V0)
theorem val35_arg5 (V0 : Valuation τ sig (Elt F)) : val35 V0 (Proc.devRef .tc main_arg5) = V0 (Proc.devRef .tc main_arg5) :=
  (keep34 (val34 V0) main_arg5 (by decide)).trans (val34_arg5 V0)
theorem val35_arg6 (V0 : Valuation τ sig (Elt F)) : val35 V0 (Proc.devRef .tc main_arg6) = V0 (Proc.devRef .tc main_arg6) :=
  (keep34 (val34 V0) main_arg6 (by decide)).trans (val34_arg6 V0)
theorem val35_arg7 (V0 : Valuation τ sig (Elt F)) : val35 V0 (Proc.devRef .tc main_arg7) = V0 (Proc.devRef .tc main_arg7) :=
  (keep34 (val34 V0) main_arg7 (by decide)).trans (val34_arg7 V0)
theorem val35_arg8 (V0 : Valuation τ sig (Elt F)) : val35 V0 (Proc.devRef .tc main_arg8) = V0 (Proc.devRef .tc main_arg8) :=
  (keep34 (val34 V0) main_arg8 (by decide)).trans (val34_arg8 V0)
theorem val35_arg9 (V0 : Valuation τ sig (Elt F)) : val35 V0 (Proc.devRef .tc main_arg9) = V0 (Proc.devRef .tc main_arg9) :=
  (keep34 (val34 V0) main_arg9 (by decide)).trans (val34_arg9 V0)
theorem val35_arg10 (V0 : Valuation τ sig (Elt F)) : val35 V0 (Proc.devRef .tc main_arg10) = V0 (Proc.devRef .tc main_arg10) :=
  (keep34 (val34 V0) main_arg10 (by decide)).trans (val34_arg10 V0)
theorem val35_arg11 (V0 : Valuation τ sig (Elt F)) : val35 V0 (Proc.devRef .tc main_arg11) = V0 (Proc.devRef .tc main_arg11) :=
  (keep34 (val34 V0) main_arg11 (by decide)).trans (val34_arg11 V0)
theorem val35_arg12 (V0 : Valuation τ sig (Elt F)) : val35 V0 (Proc.devRef .tc main_arg12) = V0 (Proc.devRef .tc main_arg12) :=
  (keep34 (val34 V0) main_arg12 (by decide)).trans (val34_arg12 V0)
theorem val35_arg13 (V0 : Valuation τ sig (Elt F)) : val35 V0 (Proc.devRef .tc main_arg13) = V0 (Proc.devRef .tc main_arg13) :=
  (keep34 (val34 V0) main_arg13 (by decide)).trans (val34_arg13 V0)
theorem val35_arg14 (V0 : Valuation τ sig (Elt F)) : val35 V0 (Proc.devRef .tc main_arg14) = V0 (Proc.devRef .tc main_arg14) :=
  (keep34 (val34 V0) main_arg14 (by decide)).trans (val34_arg14 V0)
theorem val35_arg15 (V0 : Valuation τ sig (Elt F)) : val35 V0 (Proc.devRef .tc main_arg15) = V0 (Proc.devRef .tc main_arg15) :=
  (keep34 (val34 V0) main_arg15 (by decide)).trans (val34_arg15 V0)
theorem val35_arg16 (V0 : Valuation τ sig (Elt F)) : val35 V0 (Proc.devRef .tc main_arg16) = V0 (Proc.devRef .tc main_arg16) :=
  (keep34 (val34 V0) main_arg16 (by decide)).trans (val34_arg16 V0)
theorem val35_arg17 (V0 : Valuation τ sig (Elt F)) : val35 V0 (Proc.devRef .tc main_arg17) = V0 (Proc.devRef .tc main_arg17) :=
  (keep34 (val34 V0) main_arg17 (by decide)).trans (val34_arg17 V0)
theorem val35_v3 (V0 : Valuation τ sig (Elt F)) : val35 V0 (Proc.devRef .tc main_v3) = res_v3 V0 :=
  (keep34 (val34 V0) main_v3 (by decide)).trans (val34_v3 V0)
theorem val35_v6 (V0 : Valuation τ sig (Elt F)) : val35 V0 (Proc.devRef .tc main_v6) = res_v6 V0 :=
  (keep34 (val34 V0) main_v6 (by decide)).trans (val34_v6 V0)
theorem val35_v28 (V0 : Valuation τ sig (Elt F)) : val35 V0 (Proc.devRef .tc main_v28) = res_v28 V0 :=
  (keep34 (val34 V0) main_v28 (by decide)).trans (val34_v28 V0)
theorem val35_v359 (V0 : Valuation τ sig (Elt F)) : val35 V0 (Proc.devRef .tc main_v359) = res_v359 V0 :=
  (keep34 (val34 V0) main_v359 (by decide)).trans (val34_v359 V0)
theorem val35_v408 (V0 : Valuation τ sig (Elt F)) : val35 V0 (Proc.devRef .tc main_v408) = res_v408 V0 :=
  (c34_v408 (val34 V0)).trans (by rw [val34_v6, val34_v28, val34_v395, val34_v3, res_v408])
theorem val35_cst_68 (V0 : Valuation τ sig (Elt F)) : val35 V0 (Proc.devRef .tc main_cst_68) = res_cst_68 V0 :=
  (c34_cst_68 (val34 V0)).trans (by rw [res_cst_68])

/-- The arrays after stretches 0 … 35. -/
def val36 (V0 : Valuation τ sig (Elt F)) : Valuation τ sig (Elt F) := after ops35 (val35 V0)
theorem val36_arg0 (V0 : Valuation τ sig (Elt F)) : val36 V0 (Proc.devRef .tc main_arg0) = V0 (Proc.devRef .tc main_arg0) :=
  (keep35 (val35 V0) main_arg0 (by decide)).trans (val35_arg0 V0)
theorem val36_arg1 (V0 : Valuation τ sig (Elt F)) : val36 V0 (Proc.devRef .tc main_arg1) = V0 (Proc.devRef .tc main_arg1) :=
  (keep35 (val35 V0) main_arg1 (by decide)).trans (val35_arg1 V0)
theorem val36_arg2 (V0 : Valuation τ sig (Elt F)) : val36 V0 (Proc.devRef .tc main_arg2) = V0 (Proc.devRef .tc main_arg2) :=
  (keep35 (val35 V0) main_arg2 (by decide)).trans (val35_arg2 V0)
theorem val36_arg3 (V0 : Valuation τ sig (Elt F)) : val36 V0 (Proc.devRef .tc main_arg3) = V0 (Proc.devRef .tc main_arg3) :=
  (keep35 (val35 V0) main_arg3 (by decide)).trans (val35_arg3 V0)
theorem val36_arg4 (V0 : Valuation τ sig (Elt F)) : val36 V0 (Proc.devRef .tc main_arg4) = V0 (Proc.devRef .tc main_arg4) :=
  (keep35 (val35 V0) main_arg4 (by decide)).trans (val35_arg4 V0)
theorem val36_arg5 (V0 : Valuation τ sig (Elt F)) : val36 V0 (Proc.devRef .tc main_arg5) = V0 (Proc.devRef .tc main_arg5) :=
  (keep35 (val35 V0) main_arg5 (by decide)).trans (val35_arg5 V0)
theorem val36_arg6 (V0 : Valuation τ sig (Elt F)) : val36 V0 (Proc.devRef .tc main_arg6) = V0 (Proc.devRef .tc main_arg6) :=
  (keep35 (val35 V0) main_arg6 (by decide)).trans (val35_arg6 V0)
theorem val36_arg7 (V0 : Valuation τ sig (Elt F)) : val36 V0 (Proc.devRef .tc main_arg7) = V0 (Proc.devRef .tc main_arg7) :=
  (keep35 (val35 V0) main_arg7 (by decide)).trans (val35_arg7 V0)
theorem val36_arg8 (V0 : Valuation τ sig (Elt F)) : val36 V0 (Proc.devRef .tc main_arg8) = V0 (Proc.devRef .tc main_arg8) :=
  (keep35 (val35 V0) main_arg8 (by decide)).trans (val35_arg8 V0)
theorem val36_arg9 (V0 : Valuation τ sig (Elt F)) : val36 V0 (Proc.devRef .tc main_arg9) = V0 (Proc.devRef .tc main_arg9) :=
  (keep35 (val35 V0) main_arg9 (by decide)).trans (val35_arg9 V0)
theorem val36_arg10 (V0 : Valuation τ sig (Elt F)) : val36 V0 (Proc.devRef .tc main_arg10) = V0 (Proc.devRef .tc main_arg10) :=
  (keep35 (val35 V0) main_arg10 (by decide)).trans (val35_arg10 V0)
theorem val36_arg11 (V0 : Valuation τ sig (Elt F)) : val36 V0 (Proc.devRef .tc main_arg11) = V0 (Proc.devRef .tc main_arg11) :=
  (keep35 (val35 V0) main_arg11 (by decide)).trans (val35_arg11 V0)
theorem val36_arg12 (V0 : Valuation τ sig (Elt F)) : val36 V0 (Proc.devRef .tc main_arg12) = V0 (Proc.devRef .tc main_arg12) :=
  (keep35 (val35 V0) main_arg12 (by decide)).trans (val35_arg12 V0)
theorem val36_arg13 (V0 : Valuation τ sig (Elt F)) : val36 V0 (Proc.devRef .tc main_arg13) = V0 (Proc.devRef .tc main_arg13) :=
  (keep35 (val35 V0) main_arg13 (by decide)).trans (val35_arg13 V0)
theorem val36_arg14 (V0 : Valuation τ sig (Elt F)) : val36 V0 (Proc.devRef .tc main_arg14) = V0 (Proc.devRef .tc main_arg14) :=
  (keep35 (val35 V0) main_arg14 (by decide)).trans (val35_arg14 V0)
theorem val36_arg15 (V0 : Valuation τ sig (Elt F)) : val36 V0 (Proc.devRef .tc main_arg15) = V0 (Proc.devRef .tc main_arg15) :=
  (keep35 (val35 V0) main_arg15 (by decide)).trans (val35_arg15 V0)
theorem val36_arg16 (V0 : Valuation τ sig (Elt F)) : val36 V0 (Proc.devRef .tc main_arg16) = V0 (Proc.devRef .tc main_arg16) :=
  (keep35 (val35 V0) main_arg16 (by decide)).trans (val35_arg16 V0)
theorem val36_arg17 (V0 : Valuation τ sig (Elt F)) : val36 V0 (Proc.devRef .tc main_arg17) = V0 (Proc.devRef .tc main_arg17) :=
  (keep35 (val35 V0) main_arg17 (by decide)).trans (val35_arg17 V0)
theorem val36_v3 (V0 : Valuation τ sig (Elt F)) : val36 V0 (Proc.devRef .tc main_v3) = res_v3 V0 :=
  (keep35 (val35 V0) main_v3 (by decide)).trans (val35_v3 V0)
theorem val36_v6 (V0 : Valuation τ sig (Elt F)) : val36 V0 (Proc.devRef .tc main_v6) = res_v6 V0 :=
  (keep35 (val35 V0) main_v6 (by decide)).trans (val35_v6 V0)
theorem val36_v28 (V0 : Valuation τ sig (Elt F)) : val36 V0 (Proc.devRef .tc main_v28) = res_v28 V0 :=
  (keep35 (val35 V0) main_v28 (by decide)).trans (val35_v28 V0)
theorem val36_v359 (V0 : Valuation τ sig (Elt F)) : val36 V0 (Proc.devRef .tc main_v359) = res_v359 V0 :=
  (keep35 (val35 V0) main_v359 (by decide)).trans (val35_v359 V0)
theorem val36_v413 (V0 : Valuation τ sig (Elt F)) : val36 V0 (Proc.devRef .tc main_v413) = res_v413 V0 :=
  (c35_v413 (val35 V0)).trans (by rw [val35_cst_68, val35_v408, val35_v359, res_v413])

/-- The arrays after stretches 0 … 36. -/
def val37 (V0 : Valuation τ sig (Elt F)) : Valuation τ sig (Elt F) := after ops36 (val36 V0)
theorem val37_arg0 (V0 : Valuation τ sig (Elt F)) : val37 V0 (Proc.devRef .tc main_arg0) = V0 (Proc.devRef .tc main_arg0) :=
  (keep36 (val36 V0) main_arg0 (by decide)).trans (val36_arg0 V0)
theorem val37_arg1 (V0 : Valuation τ sig (Elt F)) : val37 V0 (Proc.devRef .tc main_arg1) = V0 (Proc.devRef .tc main_arg1) :=
  (keep36 (val36 V0) main_arg1 (by decide)).trans (val36_arg1 V0)
theorem val37_arg2 (V0 : Valuation τ sig (Elt F)) : val37 V0 (Proc.devRef .tc main_arg2) = V0 (Proc.devRef .tc main_arg2) :=
  (keep36 (val36 V0) main_arg2 (by decide)).trans (val36_arg2 V0)
theorem val37_arg3 (V0 : Valuation τ sig (Elt F)) : val37 V0 (Proc.devRef .tc main_arg3) = V0 (Proc.devRef .tc main_arg3) :=
  (keep36 (val36 V0) main_arg3 (by decide)).trans (val36_arg3 V0)
theorem val37_arg4 (V0 : Valuation τ sig (Elt F)) : val37 V0 (Proc.devRef .tc main_arg4) = V0 (Proc.devRef .tc main_arg4) :=
  (keep36 (val36 V0) main_arg4 (by decide)).trans (val36_arg4 V0)
theorem val37_arg5 (V0 : Valuation τ sig (Elt F)) : val37 V0 (Proc.devRef .tc main_arg5) = V0 (Proc.devRef .tc main_arg5) :=
  (keep36 (val36 V0) main_arg5 (by decide)).trans (val36_arg5 V0)
theorem val37_arg6 (V0 : Valuation τ sig (Elt F)) : val37 V0 (Proc.devRef .tc main_arg6) = V0 (Proc.devRef .tc main_arg6) :=
  (keep36 (val36 V0) main_arg6 (by decide)).trans (val36_arg6 V0)
theorem val37_arg7 (V0 : Valuation τ sig (Elt F)) : val37 V0 (Proc.devRef .tc main_arg7) = V0 (Proc.devRef .tc main_arg7) :=
  (keep36 (val36 V0) main_arg7 (by decide)).trans (val36_arg7 V0)
theorem val37_arg8 (V0 : Valuation τ sig (Elt F)) : val37 V0 (Proc.devRef .tc main_arg8) = V0 (Proc.devRef .tc main_arg8) :=
  (keep36 (val36 V0) main_arg8 (by decide)).trans (val36_arg8 V0)
theorem val37_arg9 (V0 : Valuation τ sig (Elt F)) : val37 V0 (Proc.devRef .tc main_arg9) = V0 (Proc.devRef .tc main_arg9) :=
  (keep36 (val36 V0) main_arg9 (by decide)).trans (val36_arg9 V0)
theorem val37_arg10 (V0 : Valuation τ sig (Elt F)) : val37 V0 (Proc.devRef .tc main_arg10) = V0 (Proc.devRef .tc main_arg10) :=
  (keep36 (val36 V0) main_arg10 (by decide)).trans (val36_arg10 V0)
theorem val37_arg11 (V0 : Valuation τ sig (Elt F)) : val37 V0 (Proc.devRef .tc main_arg11) = V0 (Proc.devRef .tc main_arg11) :=
  (keep36 (val36 V0) main_arg11 (by decide)).trans (val36_arg11 V0)
theorem val37_arg12 (V0 : Valuation τ sig (Elt F)) : val37 V0 (Proc.devRef .tc main_arg12) = V0 (Proc.devRef .tc main_arg12) :=
  (keep36 (val36 V0) main_arg12 (by decide)).trans (val36_arg12 V0)
theorem val37_arg13 (V0 : Valuation τ sig (Elt F)) : val37 V0 (Proc.devRef .tc main_arg13) = V0 (Proc.devRef .tc main_arg13) :=
  (keep36 (val36 V0) main_arg13 (by decide)).trans (val36_arg13 V0)
theorem val37_arg14 (V0 : Valuation τ sig (Elt F)) : val37 V0 (Proc.devRef .tc main_arg14) = V0 (Proc.devRef .tc main_arg14) :=
  (keep36 (val36 V0) main_arg14 (by decide)).trans (val36_arg14 V0)
theorem val37_arg15 (V0 : Valuation τ sig (Elt F)) : val37 V0 (Proc.devRef .tc main_arg15) = V0 (Proc.devRef .tc main_arg15) :=
  (keep36 (val36 V0) main_arg15 (by decide)).trans (val36_arg15 V0)
theorem val37_arg16 (V0 : Valuation τ sig (Elt F)) : val37 V0 (Proc.devRef .tc main_arg16) = V0 (Proc.devRef .tc main_arg16) :=
  (keep36 (val36 V0) main_arg16 (by decide)).trans (val36_arg16 V0)
theorem val37_arg17 (V0 : Valuation τ sig (Elt F)) : val37 V0 (Proc.devRef .tc main_arg17) = V0 (Proc.devRef .tc main_arg17) :=
  (keep36 (val36 V0) main_arg17 (by decide)).trans (val36_arg17 V0)
theorem val37_v3 (V0 : Valuation τ sig (Elt F)) : val37 V0 (Proc.devRef .tc main_v3) = res_v3 V0 :=
  (keep36 (val36 V0) main_v3 (by decide)).trans (val36_v3 V0)
theorem val37_v6 (V0 : Valuation τ sig (Elt F)) : val37 V0 (Proc.devRef .tc main_v6) = res_v6 V0 :=
  (keep36 (val36 V0) main_v6 (by decide)).trans (val36_v6 V0)
theorem val37_v28 (V0 : Valuation τ sig (Elt F)) : val37 V0 (Proc.devRef .tc main_v28) = res_v28 V0 :=
  (keep36 (val36 V0) main_v28 (by decide)).trans (val36_v28 V0)
theorem val37_v359 (V0 : Valuation τ sig (Elt F)) : val37 V0 (Proc.devRef .tc main_v359) = res_v359 V0 :=
  (keep36 (val36 V0) main_v359 (by decide)).trans (val36_v359 V0)
theorem val37_v431 (V0 : Valuation τ sig (Elt F)) : val37 V0 (Proc.devRef .tc main_v431) = res_v431 V0 :=
  (c36_v431 (val36 V0)).trans (by rw [val36_v6, val36_v28, val36_v413, val36_v3, val36_v359, res_v431])

/-- The arrays after stretches 0 … 37. -/
def val38 (V0 : Valuation τ sig (Elt F)) : Valuation τ sig (Elt F) := after ops37 (val37 V0)
theorem val38_arg0 (V0 : Valuation τ sig (Elt F)) : val38 V0 (Proc.devRef .tc main_arg0) = V0 (Proc.devRef .tc main_arg0) :=
  (keep37 (val37 V0) main_arg0 (by decide)).trans (val37_arg0 V0)
theorem val38_arg1 (V0 : Valuation τ sig (Elt F)) : val38 V0 (Proc.devRef .tc main_arg1) = V0 (Proc.devRef .tc main_arg1) :=
  (keep37 (val37 V0) main_arg1 (by decide)).trans (val37_arg1 V0)
theorem val38_arg2 (V0 : Valuation τ sig (Elt F)) : val38 V0 (Proc.devRef .tc main_arg2) = V0 (Proc.devRef .tc main_arg2) :=
  (keep37 (val37 V0) main_arg2 (by decide)).trans (val37_arg2 V0)
theorem val38_arg3 (V0 : Valuation τ sig (Elt F)) : val38 V0 (Proc.devRef .tc main_arg3) = V0 (Proc.devRef .tc main_arg3) :=
  (keep37 (val37 V0) main_arg3 (by decide)).trans (val37_arg3 V0)
theorem val38_arg4 (V0 : Valuation τ sig (Elt F)) : val38 V0 (Proc.devRef .tc main_arg4) = V0 (Proc.devRef .tc main_arg4) :=
  (keep37 (val37 V0) main_arg4 (by decide)).trans (val37_arg4 V0)
theorem val38_arg5 (V0 : Valuation τ sig (Elt F)) : val38 V0 (Proc.devRef .tc main_arg5) = V0 (Proc.devRef .tc main_arg5) :=
  (keep37 (val37 V0) main_arg5 (by decide)).trans (val37_arg5 V0)
theorem val38_arg6 (V0 : Valuation τ sig (Elt F)) : val38 V0 (Proc.devRef .tc main_arg6) = V0 (Proc.devRef .tc main_arg6) :=
  (keep37 (val37 V0) main_arg6 (by decide)).trans (val37_arg6 V0)
theorem val38_arg7 (V0 : Valuation τ sig (Elt F)) : val38 V0 (Proc.devRef .tc main_arg7) = V0 (Proc.devRef .tc main_arg7) :=
  (keep37 (val37 V0) main_arg7 (by decide)).trans (val37_arg7 V0)
theorem val38_arg8 (V0 : Valuation τ sig (Elt F)) : val38 V0 (Proc.devRef .tc main_arg8) = V0 (Proc.devRef .tc main_arg8) :=
  (keep37 (val37 V0) main_arg8 (by decide)).trans (val37_arg8 V0)
theorem val38_arg9 (V0 : Valuation τ sig (Elt F)) : val38 V0 (Proc.devRef .tc main_arg9) = V0 (Proc.devRef .tc main_arg9) :=
  (keep37 (val37 V0) main_arg9 (by decide)).trans (val37_arg9 V0)
theorem val38_arg10 (V0 : Valuation τ sig (Elt F)) : val38 V0 (Proc.devRef .tc main_arg10) = V0 (Proc.devRef .tc main_arg10) :=
  (keep37 (val37 V0) main_arg10 (by decide)).trans (val37_arg10 V0)
theorem val38_arg11 (V0 : Valuation τ sig (Elt F)) : val38 V0 (Proc.devRef .tc main_arg11) = V0 (Proc.devRef .tc main_arg11) :=
  (keep37 (val37 V0) main_arg11 (by decide)).trans (val37_arg11 V0)
theorem val38_arg12 (V0 : Valuation τ sig (Elt F)) : val38 V0 (Proc.devRef .tc main_arg12) = V0 (Proc.devRef .tc main_arg12) :=
  (keep37 (val37 V0) main_arg12 (by decide)).trans (val37_arg12 V0)
theorem val38_arg13 (V0 : Valuation τ sig (Elt F)) : val38 V0 (Proc.devRef .tc main_arg13) = V0 (Proc.devRef .tc main_arg13) :=
  (keep37 (val37 V0) main_arg13 (by decide)).trans (val37_arg13 V0)
theorem val38_arg14 (V0 : Valuation τ sig (Elt F)) : val38 V0 (Proc.devRef .tc main_arg14) = V0 (Proc.devRef .tc main_arg14) :=
  (keep37 (val37 V0) main_arg14 (by decide)).trans (val37_arg14 V0)
theorem val38_arg15 (V0 : Valuation τ sig (Elt F)) : val38 V0 (Proc.devRef .tc main_arg15) = V0 (Proc.devRef .tc main_arg15) :=
  (keep37 (val37 V0) main_arg15 (by decide)).trans (val37_arg15 V0)
theorem val38_arg16 (V0 : Valuation τ sig (Elt F)) : val38 V0 (Proc.devRef .tc main_arg16) = V0 (Proc.devRef .tc main_arg16) :=
  (keep37 (val37 V0) main_arg16 (by decide)).trans (val37_arg16 V0)
theorem val38_arg17 (V0 : Valuation τ sig (Elt F)) : val38 V0 (Proc.devRef .tc main_arg17) = V0 (Proc.devRef .tc main_arg17) :=
  (keep37 (val37 V0) main_arg17 (by decide)).trans (val37_arg17 V0)
theorem val38_v449 (V0 : Valuation τ sig (Elt F)) : val38 V0 (Proc.devRef .tc main_v449) = res_v449 V0 :=
  (c37_v449 (val37 V0)).trans (by rw [val37_v6, val37_v28, val37_v431, val37_v3, val37_v359, res_v449])

/-- The arrays after stretches 0 … 38. -/
def val39 (V0 : Valuation τ sig (Elt F)) : Valuation τ sig (Elt F) := after ops38 (val38 V0)
theorem val39_arg0 (V0 : Valuation τ sig (Elt F)) : val39 V0 (Proc.devRef .tc main_arg0) = V0 (Proc.devRef .tc main_arg0) :=
  (keep38 (val38 V0) main_arg0 (by decide)).trans (val38_arg0 V0)
theorem val39_arg1 (V0 : Valuation τ sig (Elt F)) : val39 V0 (Proc.devRef .tc main_arg1) = V0 (Proc.devRef .tc main_arg1) :=
  (keep38 (val38 V0) main_arg1 (by decide)).trans (val38_arg1 V0)
theorem val39_arg2 (V0 : Valuation τ sig (Elt F)) : val39 V0 (Proc.devRef .tc main_arg2) = V0 (Proc.devRef .tc main_arg2) :=
  (keep38 (val38 V0) main_arg2 (by decide)).trans (val38_arg2 V0)
theorem val39_arg3 (V0 : Valuation τ sig (Elt F)) : val39 V0 (Proc.devRef .tc main_arg3) = V0 (Proc.devRef .tc main_arg3) :=
  (keep38 (val38 V0) main_arg3 (by decide)).trans (val38_arg3 V0)
theorem val39_arg4 (V0 : Valuation τ sig (Elt F)) : val39 V0 (Proc.devRef .tc main_arg4) = V0 (Proc.devRef .tc main_arg4) :=
  (keep38 (val38 V0) main_arg4 (by decide)).trans (val38_arg4 V0)
theorem val39_arg5 (V0 : Valuation τ sig (Elt F)) : val39 V0 (Proc.devRef .tc main_arg5) = V0 (Proc.devRef .tc main_arg5) :=
  (keep38 (val38 V0) main_arg5 (by decide)).trans (val38_arg5 V0)
theorem val39_arg6 (V0 : Valuation τ sig (Elt F)) : val39 V0 (Proc.devRef .tc main_arg6) = V0 (Proc.devRef .tc main_arg6) :=
  (keep38 (val38 V0) main_arg6 (by decide)).trans (val38_arg6 V0)
theorem val39_arg7 (V0 : Valuation τ sig (Elt F)) : val39 V0 (Proc.devRef .tc main_arg7) = V0 (Proc.devRef .tc main_arg7) :=
  (keep38 (val38 V0) main_arg7 (by decide)).trans (val38_arg7 V0)
theorem val39_arg8 (V0 : Valuation τ sig (Elt F)) : val39 V0 (Proc.devRef .tc main_arg8) = V0 (Proc.devRef .tc main_arg8) :=
  (keep38 (val38 V0) main_arg8 (by decide)).trans (val38_arg8 V0)
theorem val39_arg9 (V0 : Valuation τ sig (Elt F)) : val39 V0 (Proc.devRef .tc main_arg9) = V0 (Proc.devRef .tc main_arg9) :=
  (keep38 (val38 V0) main_arg9 (by decide)).trans (val38_arg9 V0)
theorem val39_arg10 (V0 : Valuation τ sig (Elt F)) : val39 V0 (Proc.devRef .tc main_arg10) = V0 (Proc.devRef .tc main_arg10) :=
  (keep38 (val38 V0) main_arg10 (by decide)).trans (val38_arg10 V0)
theorem val39_arg11 (V0 : Valuation τ sig (Elt F)) : val39 V0 (Proc.devRef .tc main_arg11) = V0 (Proc.devRef .tc main_arg11) :=
  (keep38 (val38 V0) main_arg11 (by decide)).trans (val38_arg11 V0)
theorem val39_arg12 (V0 : Valuation τ sig (Elt F)) : val39 V0 (Proc.devRef .tc main_arg12) = V0 (Proc.devRef .tc main_arg12) :=
  (keep38 (val38 V0) main_arg12 (by decide)).trans (val38_arg12 V0)
theorem val39_arg13 (V0 : Valuation τ sig (Elt F)) : val39 V0 (Proc.devRef .tc main_arg13) = V0 (Proc.devRef .tc main_arg13) :=
  (keep38 (val38 V0) main_arg13 (by decide)).trans (val38_arg13 V0)
theorem val39_arg14 (V0 : Valuation τ sig (Elt F)) : val39 V0 (Proc.devRef .tc main_arg14) = V0 (Proc.devRef .tc main_arg14) :=
  (keep38 (val38 V0) main_arg14 (by decide)).trans (val38_arg14 V0)
theorem val39_arg15 (V0 : Valuation τ sig (Elt F)) : val39 V0 (Proc.devRef .tc main_arg15) = V0 (Proc.devRef .tc main_arg15) :=
  (keep38 (val38 V0) main_arg15 (by decide)).trans (val38_arg15 V0)
theorem val39_arg16 (V0 : Valuation τ sig (Elt F)) : val39 V0 (Proc.devRef .tc main_arg16) = V0 (Proc.devRef .tc main_arg16) :=
  (keep38 (val38 V0) main_arg16 (by decide)).trans (val38_arg16 V0)
theorem val39_arg17 (V0 : Valuation τ sig (Elt F)) : val39 V0 (Proc.devRef .tc main_arg17) = V0 (Proc.devRef .tc main_arg17) :=
  (keep38 (val38 V0) main_arg17 (by decide)).trans (val38_arg17 V0)
theorem val39_v449 (V0 : Valuation τ sig (Elt F)) : val39 V0 (Proc.devRef .tc main_v449) = res_v449 V0 :=
  (keep38 (val38 V0) main_v449 (by decide)).trans (val38_v449 V0)
theorem val39_v453 (V0 : Valuation τ sig (Elt F)) : val39 V0 (Proc.devRef .tc main_v453) = res_v453 V0 :=
  (c38_v453 (val38 V0)).trans (by rw [val38_arg2, res_v453])

/-- The arrays after stretches 0 … 39. -/
def val40 (V0 : Valuation τ sig (Elt F)) : Valuation τ sig (Elt F) := after ops39 (val39 V0)
theorem val40_arg0 (V0 : Valuation τ sig (Elt F)) : val40 V0 (Proc.devRef .tc main_arg0) = V0 (Proc.devRef .tc main_arg0) :=
  (keep39 (val39 V0) main_arg0 (by decide)).trans (val39_arg0 V0)
theorem val40_arg1 (V0 : Valuation τ sig (Elt F)) : val40 V0 (Proc.devRef .tc main_arg1) = V0 (Proc.devRef .tc main_arg1) :=
  (keep39 (val39 V0) main_arg1 (by decide)).trans (val39_arg1 V0)
theorem val40_arg2 (V0 : Valuation τ sig (Elt F)) : val40 V0 (Proc.devRef .tc main_arg2) = V0 (Proc.devRef .tc main_arg2) :=
  (keep39 (val39 V0) main_arg2 (by decide)).trans (val39_arg2 V0)
theorem val40_arg3 (V0 : Valuation τ sig (Elt F)) : val40 V0 (Proc.devRef .tc main_arg3) = V0 (Proc.devRef .tc main_arg3) :=
  (keep39 (val39 V0) main_arg3 (by decide)).trans (val39_arg3 V0)
theorem val40_arg4 (V0 : Valuation τ sig (Elt F)) : val40 V0 (Proc.devRef .tc main_arg4) = V0 (Proc.devRef .tc main_arg4) :=
  (keep39 (val39 V0) main_arg4 (by decide)).trans (val39_arg4 V0)
theorem val40_arg5 (V0 : Valuation τ sig (Elt F)) : val40 V0 (Proc.devRef .tc main_arg5) = V0 (Proc.devRef .tc main_arg5) :=
  (keep39 (val39 V0) main_arg5 (by decide)).trans (val39_arg5 V0)
theorem val40_arg6 (V0 : Valuation τ sig (Elt F)) : val40 V0 (Proc.devRef .tc main_arg6) = V0 (Proc.devRef .tc main_arg6) :=
  (keep39 (val39 V0) main_arg6 (by decide)).trans (val39_arg6 V0)
theorem val40_arg7 (V0 : Valuation τ sig (Elt F)) : val40 V0 (Proc.devRef .tc main_arg7) = V0 (Proc.devRef .tc main_arg7) :=
  (keep39 (val39 V0) main_arg7 (by decide)).trans (val39_arg7 V0)
theorem val40_arg8 (V0 : Valuation τ sig (Elt F)) : val40 V0 (Proc.devRef .tc main_arg8) = V0 (Proc.devRef .tc main_arg8) :=
  (keep39 (val39 V0) main_arg8 (by decide)).trans (val39_arg8 V0)
theorem val40_arg9 (V0 : Valuation τ sig (Elt F)) : val40 V0 (Proc.devRef .tc main_arg9) = V0 (Proc.devRef .tc main_arg9) :=
  (keep39 (val39 V0) main_arg9 (by decide)).trans (val39_arg9 V0)
theorem val40_arg10 (V0 : Valuation τ sig (Elt F)) : val40 V0 (Proc.devRef .tc main_arg10) = V0 (Proc.devRef .tc main_arg10) :=
  (keep39 (val39 V0) main_arg10 (by decide)).trans (val39_arg10 V0)
theorem val40_arg11 (V0 : Valuation τ sig (Elt F)) : val40 V0 (Proc.devRef .tc main_arg11) = V0 (Proc.devRef .tc main_arg11) :=
  (keep39 (val39 V0) main_arg11 (by decide)).trans (val39_arg11 V0)
theorem val40_arg12 (V0 : Valuation τ sig (Elt F)) : val40 V0 (Proc.devRef .tc main_arg12) = V0 (Proc.devRef .tc main_arg12) :=
  (keep39 (val39 V0) main_arg12 (by decide)).trans (val39_arg12 V0)
theorem val40_arg13 (V0 : Valuation τ sig (Elt F)) : val40 V0 (Proc.devRef .tc main_arg13) = V0 (Proc.devRef .tc main_arg13) :=
  (keep39 (val39 V0) main_arg13 (by decide)).trans (val39_arg13 V0)
theorem val40_arg14 (V0 : Valuation τ sig (Elt F)) : val40 V0 (Proc.devRef .tc main_arg14) = V0 (Proc.devRef .tc main_arg14) :=
  (keep39 (val39 V0) main_arg14 (by decide)).trans (val39_arg14 V0)
theorem val40_arg15 (V0 : Valuation τ sig (Elt F)) : val40 V0 (Proc.devRef .tc main_arg15) = V0 (Proc.devRef .tc main_arg15) :=
  (keep39 (val39 V0) main_arg15 (by decide)).trans (val39_arg15 V0)
theorem val40_arg16 (V0 : Valuation τ sig (Elt F)) : val40 V0 (Proc.devRef .tc main_arg16) = V0 (Proc.devRef .tc main_arg16) :=
  (keep39 (val39 V0) main_arg16 (by decide)).trans (val39_arg16 V0)
theorem val40_arg17 (V0 : Valuation τ sig (Elt F)) : val40 V0 (Proc.devRef .tc main_arg17) = V0 (Proc.devRef .tc main_arg17) :=
  (keep39 (val39 V0) main_arg17 (by decide)).trans (val39_arg17 V0)
theorem val40_v449 (V0 : Valuation τ sig (Elt F)) : val40 V0 (Proc.devRef .tc main_v449) = res_v449 V0 :=
  (keep39 (val39 V0) main_v449 (by decide)).trans (val39_v449 V0)
theorem val40_v453 (V0 : Valuation τ sig (Elt F)) : val40 V0 (Proc.devRef .tc main_v453) = res_v453 V0 :=
  (keep39 (val39 V0) main_v453 (by decide)).trans (val39_v453 V0)
theorem val40_v454 (V0 : Valuation τ sig (Elt F)) : val40 V0 (Proc.devRef .tc main_v454) = res_v454 V0 :=
  (c39_v454 (val39 V0)).trans (by rw [res_v454])

/-- The arrays after stretches 0 … 40. -/
def val41 (V0 : Valuation τ sig (Elt F)) : Valuation τ sig (Elt F) := after ops40 (val40 V0)
theorem val41_arg0 (V0 : Valuation τ sig (Elt F)) : val41 V0 (Proc.devRef .tc main_arg0) = V0 (Proc.devRef .tc main_arg0) :=
  (keep40 (val40 V0) main_arg0 (by decide)).trans (val40_arg0 V0)
theorem val41_arg1 (V0 : Valuation τ sig (Elt F)) : val41 V0 (Proc.devRef .tc main_arg1) = V0 (Proc.devRef .tc main_arg1) :=
  (keep40 (val40 V0) main_arg1 (by decide)).trans (val40_arg1 V0)
theorem val41_arg2 (V0 : Valuation τ sig (Elt F)) : val41 V0 (Proc.devRef .tc main_arg2) = V0 (Proc.devRef .tc main_arg2) :=
  (keep40 (val40 V0) main_arg2 (by decide)).trans (val40_arg2 V0)
theorem val41_arg3 (V0 : Valuation τ sig (Elt F)) : val41 V0 (Proc.devRef .tc main_arg3) = V0 (Proc.devRef .tc main_arg3) :=
  (keep40 (val40 V0) main_arg3 (by decide)).trans (val40_arg3 V0)
theorem val41_arg4 (V0 : Valuation τ sig (Elt F)) : val41 V0 (Proc.devRef .tc main_arg4) = V0 (Proc.devRef .tc main_arg4) :=
  (keep40 (val40 V0) main_arg4 (by decide)).trans (val40_arg4 V0)
theorem val41_arg5 (V0 : Valuation τ sig (Elt F)) : val41 V0 (Proc.devRef .tc main_arg5) = V0 (Proc.devRef .tc main_arg5) :=
  (keep40 (val40 V0) main_arg5 (by decide)).trans (val40_arg5 V0)
theorem val41_arg6 (V0 : Valuation τ sig (Elt F)) : val41 V0 (Proc.devRef .tc main_arg6) = V0 (Proc.devRef .tc main_arg6) :=
  (keep40 (val40 V0) main_arg6 (by decide)).trans (val40_arg6 V0)
theorem val41_arg7 (V0 : Valuation τ sig (Elt F)) : val41 V0 (Proc.devRef .tc main_arg7) = V0 (Proc.devRef .tc main_arg7) :=
  (keep40 (val40 V0) main_arg7 (by decide)).trans (val40_arg7 V0)
theorem val41_arg8 (V0 : Valuation τ sig (Elt F)) : val41 V0 (Proc.devRef .tc main_arg8) = V0 (Proc.devRef .tc main_arg8) :=
  (keep40 (val40 V0) main_arg8 (by decide)).trans (val40_arg8 V0)
theorem val41_arg9 (V0 : Valuation τ sig (Elt F)) : val41 V0 (Proc.devRef .tc main_arg9) = V0 (Proc.devRef .tc main_arg9) :=
  (keep40 (val40 V0) main_arg9 (by decide)).trans (val40_arg9 V0)
theorem val41_arg10 (V0 : Valuation τ sig (Elt F)) : val41 V0 (Proc.devRef .tc main_arg10) = V0 (Proc.devRef .tc main_arg10) :=
  (keep40 (val40 V0) main_arg10 (by decide)).trans (val40_arg10 V0)
theorem val41_arg11 (V0 : Valuation τ sig (Elt F)) : val41 V0 (Proc.devRef .tc main_arg11) = V0 (Proc.devRef .tc main_arg11) :=
  (keep40 (val40 V0) main_arg11 (by decide)).trans (val40_arg11 V0)
theorem val41_arg12 (V0 : Valuation τ sig (Elt F)) : val41 V0 (Proc.devRef .tc main_arg12) = V0 (Proc.devRef .tc main_arg12) :=
  (keep40 (val40 V0) main_arg12 (by decide)).trans (val40_arg12 V0)
theorem val41_arg13 (V0 : Valuation τ sig (Elt F)) : val41 V0 (Proc.devRef .tc main_arg13) = V0 (Proc.devRef .tc main_arg13) :=
  (keep40 (val40 V0) main_arg13 (by decide)).trans (val40_arg13 V0)
theorem val41_arg14 (V0 : Valuation τ sig (Elt F)) : val41 V0 (Proc.devRef .tc main_arg14) = V0 (Proc.devRef .tc main_arg14) :=
  (keep40 (val40 V0) main_arg14 (by decide)).trans (val40_arg14 V0)
theorem val41_arg15 (V0 : Valuation τ sig (Elt F)) : val41 V0 (Proc.devRef .tc main_arg15) = V0 (Proc.devRef .tc main_arg15) :=
  (keep40 (val40 V0) main_arg15 (by decide)).trans (val40_arg15 V0)
theorem val41_arg16 (V0 : Valuation τ sig (Elt F)) : val41 V0 (Proc.devRef .tc main_arg16) = V0 (Proc.devRef .tc main_arg16) :=
  (keep40 (val40 V0) main_arg16 (by decide)).trans (val40_arg16 V0)
theorem val41_arg17 (V0 : Valuation τ sig (Elt F)) : val41 V0 (Proc.devRef .tc main_arg17) = V0 (Proc.devRef .tc main_arg17) :=
  (keep40 (val40 V0) main_arg17 (by decide)).trans (val40_arg17 V0)
theorem val41_v453 (V0 : Valuation τ sig (Elt F)) : val41 V0 (Proc.devRef .tc main_v453) = res_v453 V0 :=
  (keep40 (val40 V0) main_v453 (by decide)).trans (val40_v453 V0)
theorem val41_v456 (V0 : Valuation τ sig (Elt F)) : val41 V0 (Proc.devRef .tc main_v456) = res_v456 V0 :=
  (c40_v456 (val40 V0)).trans (by rw [val40_v454, val40_arg2, val40_v449, res_v456])

/-- The arrays after stretches 0 … 41. -/
def val42 (V0 : Valuation τ sig (Elt F)) : Valuation τ sig (Elt F) := after ops41 (val41 V0)
theorem val42_arg0 (V0 : Valuation τ sig (Elt F)) : val42 V0 (Proc.devRef .tc main_arg0) = V0 (Proc.devRef .tc main_arg0) :=
  (keep41 (val41 V0) main_arg0 (by decide)).trans (val41_arg0 V0)
theorem val42_arg1 (V0 : Valuation τ sig (Elt F)) : val42 V0 (Proc.devRef .tc main_arg1) = V0 (Proc.devRef .tc main_arg1) :=
  (keep41 (val41 V0) main_arg1 (by decide)).trans (val41_arg1 V0)
theorem val42_arg2 (V0 : Valuation τ sig (Elt F)) : val42 V0 (Proc.devRef .tc main_arg2) = V0 (Proc.devRef .tc main_arg2) :=
  (keep41 (val41 V0) main_arg2 (by decide)).trans (val41_arg2 V0)
theorem val42_arg3 (V0 : Valuation τ sig (Elt F)) : val42 V0 (Proc.devRef .tc main_arg3) = V0 (Proc.devRef .tc main_arg3) :=
  (keep41 (val41 V0) main_arg3 (by decide)).trans (val41_arg3 V0)
theorem val42_arg4 (V0 : Valuation τ sig (Elt F)) : val42 V0 (Proc.devRef .tc main_arg4) = V0 (Proc.devRef .tc main_arg4) :=
  (keep41 (val41 V0) main_arg4 (by decide)).trans (val41_arg4 V0)
theorem val42_arg5 (V0 : Valuation τ sig (Elt F)) : val42 V0 (Proc.devRef .tc main_arg5) = V0 (Proc.devRef .tc main_arg5) :=
  (keep41 (val41 V0) main_arg5 (by decide)).trans (val41_arg5 V0)
theorem val42_arg6 (V0 : Valuation τ sig (Elt F)) : val42 V0 (Proc.devRef .tc main_arg6) = V0 (Proc.devRef .tc main_arg6) :=
  (keep41 (val41 V0) main_arg6 (by decide)).trans (val41_arg6 V0)
theorem val42_arg7 (V0 : Valuation τ sig (Elt F)) : val42 V0 (Proc.devRef .tc main_arg7) = V0 (Proc.devRef .tc main_arg7) :=
  (keep41 (val41 V0) main_arg7 (by decide)).trans (val41_arg7 V0)
theorem val42_arg8 (V0 : Valuation τ sig (Elt F)) : val42 V0 (Proc.devRef .tc main_arg8) = V0 (Proc.devRef .tc main_arg8) :=
  (keep41 (val41 V0) main_arg8 (by decide)).trans (val41_arg8 V0)
theorem val42_arg9 (V0 : Valuation τ sig (Elt F)) : val42 V0 (Proc.devRef .tc main_arg9) = V0 (Proc.devRef .tc main_arg9) :=
  (keep41 (val41 V0) main_arg9 (by decide)).trans (val41_arg9 V0)
theorem val42_arg10 (V0 : Valuation τ sig (Elt F)) : val42 V0 (Proc.devRef .tc main_arg10) = V0 (Proc.devRef .tc main_arg10) :=
  (keep41 (val41 V0) main_arg10 (by decide)).trans (val41_arg10 V0)
theorem val42_arg11 (V0 : Valuation τ sig (Elt F)) : val42 V0 (Proc.devRef .tc main_arg11) = V0 (Proc.devRef .tc main_arg11) :=
  (keep41 (val41 V0) main_arg11 (by decide)).trans (val41_arg11 V0)
theorem val42_arg12 (V0 : Valuation τ sig (Elt F)) : val42 V0 (Proc.devRef .tc main_arg12) = V0 (Proc.devRef .tc main_arg12) :=
  (keep41 (val41 V0) main_arg12 (by decide)).trans (val41_arg12 V0)
theorem val42_arg13 (V0 : Valuation τ sig (Elt F)) : val42 V0 (Proc.devRef .tc main_arg13) = V0 (Proc.devRef .tc main_arg13) :=
  (keep41 (val41 V0) main_arg13 (by decide)).trans (val41_arg13 V0)
theorem val42_arg14 (V0 : Valuation τ sig (Elt F)) : val42 V0 (Proc.devRef .tc main_arg14) = V0 (Proc.devRef .tc main_arg14) :=
  (keep41 (val41 V0) main_arg14 (by decide)).trans (val41_arg14 V0)
theorem val42_arg15 (V0 : Valuation τ sig (Elt F)) : val42 V0 (Proc.devRef .tc main_arg15) = V0 (Proc.devRef .tc main_arg15) :=
  (keep41 (val41 V0) main_arg15 (by decide)).trans (val41_arg15 V0)
theorem val42_arg16 (V0 : Valuation τ sig (Elt F)) : val42 V0 (Proc.devRef .tc main_arg16) = V0 (Proc.devRef .tc main_arg16) :=
  (keep41 (val41 V0) main_arg16 (by decide)).trans (val41_arg16 V0)
theorem val42_arg17 (V0 : Valuation τ sig (Elt F)) : val42 V0 (Proc.devRef .tc main_arg17) = V0 (Proc.devRef .tc main_arg17) :=
  (keep41 (val41 V0) main_arg17 (by decide)).trans (val41_arg17 V0)
theorem val42_v461 (V0 : Valuation τ sig (Elt F)) : val42 V0 (Proc.devRef .tc main_v461) = res_v461 V0 :=
  (c41_v461 (val41 V0)).trans (by rw [val41_v456, val41_v453, res_v461])

/-- The arrays after stretches 0 … 42. -/
def val43 (V0 : Valuation τ sig (Elt F)) : Valuation τ sig (Elt F) := after ops42 (val42 V0)
theorem val43_arg0 (V0 : Valuation τ sig (Elt F)) : val43 V0 (Proc.devRef .tc main_arg0) = V0 (Proc.devRef .tc main_arg0) :=
  (keep42 (val42 V0) main_arg0 (by decide)).trans (val42_arg0 V0)
theorem val43_arg1 (V0 : Valuation τ sig (Elt F)) : val43 V0 (Proc.devRef .tc main_arg1) = V0 (Proc.devRef .tc main_arg1) :=
  (keep42 (val42 V0) main_arg1 (by decide)).trans (val42_arg1 V0)
theorem val43_arg2 (V0 : Valuation τ sig (Elt F)) : val43 V0 (Proc.devRef .tc main_arg2) = V0 (Proc.devRef .tc main_arg2) :=
  (keep42 (val42 V0) main_arg2 (by decide)).trans (val42_arg2 V0)
theorem val43_arg3 (V0 : Valuation τ sig (Elt F)) : val43 V0 (Proc.devRef .tc main_arg3) = V0 (Proc.devRef .tc main_arg3) :=
  (keep42 (val42 V0) main_arg3 (by decide)).trans (val42_arg3 V0)
theorem val43_arg4 (V0 : Valuation τ sig (Elt F)) : val43 V0 (Proc.devRef .tc main_arg4) = V0 (Proc.devRef .tc main_arg4) :=
  (keep42 (val42 V0) main_arg4 (by decide)).trans (val42_arg4 V0)
theorem val43_arg5 (V0 : Valuation τ sig (Elt F)) : val43 V0 (Proc.devRef .tc main_arg5) = V0 (Proc.devRef .tc main_arg5) :=
  (keep42 (val42 V0) main_arg5 (by decide)).trans (val42_arg5 V0)
theorem val43_arg6 (V0 : Valuation τ sig (Elt F)) : val43 V0 (Proc.devRef .tc main_arg6) = V0 (Proc.devRef .tc main_arg6) :=
  (keep42 (val42 V0) main_arg6 (by decide)).trans (val42_arg6 V0)
theorem val43_arg7 (V0 : Valuation τ sig (Elt F)) : val43 V0 (Proc.devRef .tc main_arg7) = V0 (Proc.devRef .tc main_arg7) :=
  (keep42 (val42 V0) main_arg7 (by decide)).trans (val42_arg7 V0)
theorem val43_arg8 (V0 : Valuation τ sig (Elt F)) : val43 V0 (Proc.devRef .tc main_arg8) = V0 (Proc.devRef .tc main_arg8) :=
  (keep42 (val42 V0) main_arg8 (by decide)).trans (val42_arg8 V0)
theorem val43_arg9 (V0 : Valuation τ sig (Elt F)) : val43 V0 (Proc.devRef .tc main_arg9) = V0 (Proc.devRef .tc main_arg9) :=
  (keep42 (val42 V0) main_arg9 (by decide)).trans (val42_arg9 V0)
theorem val43_arg10 (V0 : Valuation τ sig (Elt F)) : val43 V0 (Proc.devRef .tc main_arg10) = V0 (Proc.devRef .tc main_arg10) :=
  (keep42 (val42 V0) main_arg10 (by decide)).trans (val42_arg10 V0)
theorem val43_arg11 (V0 : Valuation τ sig (Elt F)) : val43 V0 (Proc.devRef .tc main_arg11) = V0 (Proc.devRef .tc main_arg11) :=
  (keep42 (val42 V0) main_arg11 (by decide)).trans (val42_arg11 V0)
theorem val43_arg12 (V0 : Valuation τ sig (Elt F)) : val43 V0 (Proc.devRef .tc main_arg12) = V0 (Proc.devRef .tc main_arg12) :=
  (keep42 (val42 V0) main_arg12 (by decide)).trans (val42_arg12 V0)
theorem val43_arg13 (V0 : Valuation τ sig (Elt F)) : val43 V0 (Proc.devRef .tc main_arg13) = V0 (Proc.devRef .tc main_arg13) :=
  (keep42 (val42 V0) main_arg13 (by decide)).trans (val42_arg13 V0)
theorem val43_arg14 (V0 : Valuation τ sig (Elt F)) : val43 V0 (Proc.devRef .tc main_arg14) = V0 (Proc.devRef .tc main_arg14) :=
  (keep42 (val42 V0) main_arg14 (by decide)).trans (val42_arg14 V0)
theorem val43_arg15 (V0 : Valuation τ sig (Elt F)) : val43 V0 (Proc.devRef .tc main_arg15) = V0 (Proc.devRef .tc main_arg15) :=
  (keep42 (val42 V0) main_arg15 (by decide)).trans (val42_arg15 V0)
theorem val43_arg16 (V0 : Valuation τ sig (Elt F)) : val43 V0 (Proc.devRef .tc main_arg16) = V0 (Proc.devRef .tc main_arg16) :=
  (keep42 (val42 V0) main_arg16 (by decide)).trans (val42_arg16 V0)
theorem val43_arg17 (V0 : Valuation τ sig (Elt F)) : val43 V0 (Proc.devRef .tc main_arg17) = V0 (Proc.devRef .tc main_arg17) :=
  (keep42 (val42 V0) main_arg17 (by decide)).trans (val42_arg17 V0)
theorem val43_v465 (V0 : Valuation τ sig (Elt F)) : val43 V0 (Proc.devRef .tc main_v465) = res_v465 V0 :=
  (c42_v465 (val42 V0)).trans (by rw [val42_v461, val42_arg16, val42_arg17, res_v465])

set_option maxRecDepth 8192 in
/-- The fold through the whole line is the last cut's contents. -/
theorem after_ops (V0 : Valuation τ sig (Elt F)) : after ops V0 = val43 V0 := by
  simp only [ops, win0, win1, win2, win3, win4, win5, win6, win7, win8, win9, after_append]
  rfl

/-- On every device, for any float values, from any memory with zero counters: every weakly fair execution of the
    main function terminates with the result array at `refOut` — the stage functions composed, of the arguments as
    the memory holds them — and the eighteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v465) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v465).trans (by rw [after_ops]; exact val43_v465 (launchContents m c)),
      (h c main_arg0).trans (by rw [after_ops]; exact val43_arg0 (launchContents m c)),
      (h c main_arg1).trans (by rw [after_ops]; exact val43_arg1 (launchContents m c)),
      (h c main_arg2).trans (by rw [after_ops]; exact val43_arg2 (launchContents m c)),
      (h c main_arg3).trans (by rw [after_ops]; exact val43_arg3 (launchContents m c)),
      (h c main_arg4).trans (by rw [after_ops]; exact val43_arg4 (launchContents m c)),
      (h c main_arg5).trans (by rw [after_ops]; exact val43_arg5 (launchContents m c)),
      (h c main_arg6).trans (by rw [after_ops]; exact val43_arg6 (launchContents m c)),
      (h c main_arg7).trans (by rw [after_ops]; exact val43_arg7 (launchContents m c)),
      (h c main_arg8).trans (by rw [after_ops]; exact val43_arg8 (launchContents m c)),
      (h c main_arg9).trans (by rw [after_ops]; exact val43_arg9 (launchContents m c)),
      (h c main_arg10).trans (by rw [after_ops]; exact val43_arg10 (launchContents m c)),
      (h c main_arg11).trans (by rw [after_ops]; exact val43_arg11 (launchContents m c)),
      (h c main_arg12).trans (by rw [after_ops]; exact val43_arg12 (launchContents m c)),
      (h c main_arg13).trans (by rw [after_ops]; exact val43_arg13 (launchContents m c)),
      (h c main_arg14).trans (by rw [after_ops]; exact val43_arg14 (launchContents m c)),
      (h c main_arg15).trans (by rw [after_ops]; exact val43_arg15 (launchContents m c)),
      (h c main_arg16).trans (by rw [after_ops]; exact val43_arg16 (launchContents m c)),
      (h c main_arg17).trans (by rw [after_ops]; exact val43_arg17 (launchContents m c))⟩)
    (run_seq scopedRefs_eq scopedSems_eq defs main (fun _ => ops) main_eq (fun _ => ops_sub) m ρ
      (fun _ => List.forall_iff_forall_mem.mp ops_fresh))

/-- The run keeps the eighteen arguments: `run` without its first conjunct. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => (h c).2) (run m ρ)

end Cert.ReferenceIdeal.RefRun

end
-- ==== Proof.Val.RefMatch.lean ====
import proofs.«402460_j82824149336546_1_alg».proof.Proof.Val.RStages
import proofs.«402460_j82824149336546_1_alg».proof.Proof.Ref.Stages

/-!
# The reference's boundary functions are the stages

Each function `F_vN` computes the contents of one array of the reference from the arrays an earlier
stretch left; each stage of `Stage` names what one step of the reference computes. Both are the
reference's own operation functions composed in the statements' order, so each equation below is
closed by unfolding: the two sides are the same term. The equations are at the ideal instance.
-/

set_option maxRecDepth 16384

noncomputable section

namespace Cert.ReferenceIdeal.RefRun

open Idealize.ShloMosaic Idealize.SL.Sem
open Cert.ReferenceIdeal Cert.ReferenceIdeal.Gen Cert.ReferenceIdeal.Stage

/-! ## Edge lists, normalisation, the virtual node's start -/

theorem F_v3_eq (ei : T S2x600000 .i32) : F_v3 (F := Ideal) (F_v2 ei) F_v0 = src ei := rfl

theorem F_v6_eq (ei : T S2x600000 .i32) : F_v6 (F := Ideal) (F_v5 ei) F_v0 = dst ei := rfl

/-- The stretch that ends at the normalisation also forms the destination list: it reads the
    destination row and the self-loops, and the source list. -/
theorem F_v28_eq (ei : T S2x600000 .i32) (s : T S650000 .i32) :
    F_v28 (F := Ideal) (F_v5 ei) F_v0 s = nrmOf s (dst ei) := rfl

theorem F_v29_eq (vnEmb : T S128 .f32) : F_v29 (F := Ideal) vnEmb = vn0 vnEmb := rfl

/-! ## Propagation (three layers; the steps of the personalised propagation are below) -/

theorem F_v42_eq (s d : T S650000 .i32) (w : T S650000 .f32) (h : T S50000x128 .f32) :
    F_v42 (F := Ideal) d w h s = propOf s d w h := rfl

theorem F_v182_eq (s d : T S650000 .i32) (w : T S650000 .f32) (h : T S50000x128 .f32) :
    F_v182 (F := Ideal) d w h s = propOf s d w h := rfl

/-- In the last layer the weights' column form is made in the stretch before. -/
theorem F_v322_eq (s d : T S650000 .i32) (w : T S650000 .f32) (h : T S50000x128 .f32) :
    F_v322 (F := Ideal) d (F_v310 w) h s = propOf s d w h := rfl

/-! ## Layer 0 -/

theorem F_v50_eq (hp : T S50000x128 .f32) (W : T S3x128x128 .f32) (b : T S3x128 .f32) :
    F_v50 (F := Ideal) (F_v45 hp W) (F_v49 b) = lin50k hp (wAt0 W) (rowAt0 b) := rfl

theorem F_v79_eq (h : T S50000x128 .f32) (gamma beta : T S3x128 .f32) :
    F_v79 (F := Ideal) gamma h beta = bn50k h (rowAt0 gamma) (rowAt0 beta) := rfl

theorem F_v80_eq (h : T S50000x128 .f32) : F_v80 (F := Ideal) h = relu50k h := rfl

theorem F_v88_eq (hb : T S50000x128 .f32) (vn : T S512x128 .f32) (batch : T S50000 .i32) :
    F_v88 (F := Ideal) hb vn batch = addVn hb vn batch := rfl

/-! ## The virtual node's first update (row 1 of its parameters) -/

theorem F_v92_eq (h' : T S50000x128 .f32) (vn : T S512x128 .f32) (batch : T S50000 .i32) :
    F_v92 (F := Ideal) batch h' vn = vtOf h' vn batch := rfl

theorem F_v100_eq (vt : T S512x128 .f32) (W1 : T S2x128x256 .f32) (b1 : T S2x256 .f32) :
    F_v100 (F := Ideal) vt W1 b1 = linA vt (w1At1 W1) (row256At1 b1) := rfl

theorem F_v129_eq (t : T S512x256 .f32) (g1 bt1 : T S2x256 .f32) :
    F_v129 (F := Ideal) (F_v101 g1) t bt1 = bnA t (row256At1 g1) (row256At1 bt1) := rfl

theorem F_v130_eq (t : T S512x256 .f32) : F_v130 (F := Ideal) t = reluA t := rfl

theorem F_v138_eq (t : T S512x256 .f32) (W2 : T S2x256x128 .f32) (b2 : T S2x128 .f32) :
    F_v138 (F := Ideal) t W2 b2 = linB t (w2At1 W2) (row128At1 b2) := rfl

/-- The batch normalisation's column means and variances are made in the stretch before. -/
theorem F_v167_eq (t : T S512x128 .f32) (g2 bt2 : T S2x128 .f32) :
    F_v167 (F := Ideal) (F_v140 g2) t (F_v145 t) (F_v152 t) (F_v142 bt2) = bnB t (row128At1 g2) (row128At1 bt2) := rfl

theorem F_v168_eq (t : T S512x128 .f32) : F_v168 (F := Ideal) t = reluB t := rfl

theorem F_v169_eq (vn t : T S512x128 .f32) : F_v169 (F := Ideal) vn t = vnNext vn t := rfl

/-! ## Layer 1 -/

theorem F_v190_eq (hp : T S50000x128 .f32) (W : T S3x128x128 .f32) (b : T S3x128 .f32) :
    F_v190 (F := Ideal) hp W b = lin50k hp (wAt1 W) (rowAt1 b) := rfl

theorem F_v219_eq (h : T S50000x128 .f32) (gamma beta : T S3x128 .f32) :
    F_v219 (F := Ideal) (F_v192 gamma) h (F_v197 h) (F_v204 h) (F_v194 beta) = bn50k h (rowAt1 gamma) (rowAt1 beta) := rfl

theorem F_v220_eq (h : T S50000x128 .f32) : F_v220 (F := Ideal) h = relu50k h := rfl

theorem F_v228_eq (hb : T S50000x128 .f32) (vn : T S512x128 .f32) (batch : T S50000 .i32) :
    F_v228 (F := Ideal) hb vn batch = addVn hb vn batch := rfl

/-! ## The last layer -/

theorem F_v330_eq (hp : T S50000x128 .f32) (W : T S3x128x128 .f32) (b : T S3x128 .f32) :
    F_v330 (F := Ideal) hp W b = lin50k hp (wAt2 W) (rowAt2 b) := rfl

theorem F_v359_eq (h : T S50000x128 .f32) (gamma beta : T S3x128 .f32) :
    F_v359 (F := Ideal) gamma h beta = bn50k h (rowAt2 gamma) (rowAt2 beta) := rfl

/-! ## The five steps of the personalised propagation -/

/-- Step 1: the weights' column form and the zero index row are made in the stretch before. -/
theorem F_v377_eq (s d : T S650000 .i32) (w : T S650000 .f32) (h0 : T S50000x128 .f32) :
    F_v377 (F := Ideal) d (F_v360 w) h0 s F_v361 = mix (propOf s d w h0) h0 := rfl

theorem F_v395_eq (s d : T S650000 .i32) (w : T S650000 .f32) (h h0 : T S50000x128 .f32) :
    F_v395 (F := Ideal) d w h s h0 = mix (propOf s d w h) h0 := rfl

theorem F_v408_eq (s d : T S650000 .i32) (w : T S650000 .f32) (h : T S50000x128 .f32) :
    F_v408 (F := Ideal) d w h s = propOf s d w h := rfl

/-- Step 3 is cut after its propagation and after the constant 0.2, which the stretch before makes. -/
theorem F_v413_eq (p h0 : T S50000x128 .f32) :
    F_v413 (F := Ideal) (constant (F := Ideal) S_ .f32 0x3E4CCCCD#32) p h0 = mix p h0 := rfl

theorem F_v431_eq (s d : T S650000 .i32) (w : T S650000 .f32) (h h0 : T S50000x128 .f32) :
    F_v431 (F := Ideal) d w h s h0 = mix (propOf s d w h) h0 := rfl

theorem F_v449_eq (s d : T S650000 .i32) (w : T S650000 .f32) (h h0 : T S50000x128 .f32) :
    F_v449 (F := Ideal) d w h s h0 = mix (propOf s d w h) h0 := rfl

/-! ## Pooling and the head -/

theorem F_v461_eq (h : T S50000x128 .f32) (batch : T S50000 .i32) :
    F_v461 (F := Ideal) (F_v456 F_v454 batch h) (F_v453 batch) = pool h batch := rfl

theorem F_v465_eq (pooled : T S512x128 .f32) (Wout : T S128x128 .f32) (bout : T S128 .f32) :
    F_v465 (F := Ideal) pooled Wout bout = head pooled Wout bout := rfl

end Cert.ReferenceIdeal.RefRun

end
-- ==== Proof.Val.RefOutEq.lean ====
import proofs.«402460_j82824149336546_1_alg».proof.Proof.Val.RefMatch
import proofs.«402460_j82824149336546_1_alg».proof.Proof.Ref.Res

/-!
# The reference's result is the composition of its stages

`res_vN V0` is the contents of the array `%N` when the arguments hold `V0`'s contents, each the boundary
function of the arrays before it. Going through the arrays in the program's order, each is rewritten
to the stage of the values before it (the boundary equations), until the result `%465` is the whole
composition `Stage.refOutS` of the eighteen arguments. The equations are at the ideal instance.
-/

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Gen
open Cert.ReferenceIdeal.Stage (T)

variable (V0 : Valuation τ sig (Elt Ideal))

set_option quotPrecheck false in
/-- What `V0` holds at a buffer of the device. -/
local notation:max "⟪" r "⟫" => V0 (Proc.devRef .tc r)

/-! ## The named values of the reference, as stages of the arguments -/

/-- `h` after layer 0 (`%88`). -/
def sH1 : T S50000x128 .f32 :=
  Stage.addVn (Stage.convH0 (Stage.prop ⟪main_arg1⟫ ⟪main_arg0⟫) ⟪main_arg3⟫ ⟪main_arg4⟫ ⟪main_arg5⟫ ⟪main_arg6⟫)
    (Stage.vn0 ⟪main_arg7⟫) ⟪main_arg2⟫

/-- The virtual node after its first update (`%169`). -/
def sVnB : T S512x128 .f32 :=
  Stage.vnNext (Stage.vn0 ⟪main_arg7⟫)
    (Stage.mlp1 (Stage.vtOf (sH1 V0) (Stage.vn0 ⟪main_arg7⟫) ⟪main_arg2⟫)
      ⟪main_arg8⟫ ⟪main_arg9⟫ ⟪main_arg10⟫ ⟪main_arg11⟫ ⟪main_arg12⟫ ⟪main_arg13⟫ ⟪main_arg14⟫ ⟪main_arg15⟫)

/-- `h` after layer 1 (`%228`). -/
def sH2 : T S50000x128 .f32 :=
  Stage.addVn (Stage.convH1 (Stage.prop ⟪main_arg1⟫ (sH1 V0)) ⟪main_arg3⟫ ⟪main_arg4⟫ ⟪main_arg5⟫ ⟪main_arg6⟫)
    (sVnB V0) ⟪main_arg2⟫

/-- The last layer's result, from which the propagation steps start (`%359`). -/
def sH3 : T S50000x128 .f32 :=
  Stage.convF (Stage.prop ⟪main_arg1⟫ (sH2 V0)) ⟪main_arg3⟫ ⟪main_arg4⟫ ⟪main_arg5⟫ ⟪main_arg6⟫

/-- The propagation steps (`%377`, `%395`, `%413`, `%431`, `%449`). -/
def sA1 : T S50000x128 .f32 := Stage.appnp ⟪main_arg1⟫ (sH3 V0) (sH3 V0)
@[inherit_doc sA1] def sA2 : T S50000x128 .f32 := Stage.appnp ⟪main_arg1⟫ (sA1 V0) (sH3 V0)
@[inherit_doc sA1] def sA3 : T S50000x128 .f32 := Stage.appnp ⟪main_arg1⟫ (sA2 V0) (sH3 V0)
@[inherit_doc sA1] def sA4 : T S50000x128 .f32 := Stage.appnp ⟪main_arg1⟫ (sA3 V0) (sH3 V0)
@[inherit_doc sA1] def sA5 : T S50000x128 .f32 := Stage.appnp ⟪main_arg1⟫ (sA4 V0) (sH3 V0)

/-- The composition of the stages is the head of the pooled last step: the named values are its own. -/
theorem refOutS_eq :
    Stage.refOutS ⟪main_arg0⟫ ⟪main_arg1⟫ ⟪main_arg2⟫ ⟪main_arg3⟫ ⟪main_arg4⟫ ⟪main_arg5⟫ ⟪main_arg6⟫ ⟪main_arg7⟫ ⟪main_arg8⟫
        ⟪main_arg9⟫ ⟪main_arg10⟫ ⟪main_arg11⟫ ⟪main_arg12⟫ ⟪main_arg13⟫ ⟪main_arg14⟫ ⟪main_arg15⟫ ⟪main_arg16⟫ ⟪main_arg17⟫
      = Stage.head (Stage.pool (sA5 V0) ⟪main_arg2⟫) ⟪main_arg16⟫ ⟪main_arg17⟫ := rfl

/-! ## The arrays, in the program's order: edge lists, normalisation, layer 0 -/

theorem res_v3_eq : res_v3 V0 = Stage.src ⟪main_arg1⟫ := F_v3_eq _

theorem res_v6_eq : res_v6 V0 = Stage.dst ⟪main_arg1⟫ := F_v6_eq _

theorem res_v28_eq : res_v28 V0 = Stage.nrm ⟪main_arg1⟫ := by
  rw [res_v28, res_v3_eq]; exact F_v28_eq _ _

theorem res_v29_eq : res_v29 V0 = Stage.vn0 ⟪main_arg7⟫ := F_v29_eq _

theorem res_v42_eq : res_v42 V0 = Stage.prop ⟪main_arg1⟫ ⟪main_arg0⟫ := by
  rw [res_v42, res_v6_eq, res_v28_eq, res_v3_eq]; exact F_v42_eq _ _ _ _

theorem res_v50_eq : res_v50 V0
    = Stage.lin50k (Stage.prop ⟪main_arg1⟫ ⟪main_arg0⟫) (Stage.wAt0 ⟪main_arg3⟫) (Stage.rowAt0 ⟪main_arg4⟫) := by
  rw [res_v50, res_v45, res_v42_eq]; exact F_v50_eq _ _ _

theorem res_v80_eq : res_v80 V0
    = Stage.convH0 (Stage.prop ⟪main_arg1⟫ ⟪main_arg0⟫) ⟪main_arg3⟫ ⟪main_arg4⟫ ⟪main_arg5⟫ ⟪main_arg6⟫ := by
  rw [res_v80, res_v79, res_v50_eq, F_v79_eq, F_v80_eq]; rfl

theorem res_v88_eq : res_v88 V0 = sH1 V0 := by
  rw [res_v88, res_v80_eq, res_v29_eq, F_v88_eq]; rfl

/-! ## The virtual node's first update -/

theorem res_v92_eq : res_v92 V0 = Stage.vtOf (sH1 V0) (Stage.vn0 ⟪main_arg7⟫) ⟪main_arg2⟫ := by
  rw [res_v92, res_v88_eq, res_v29_eq, F_v92_eq]

theorem res_v130_eq : res_v130 V0
    = Stage.reluA (Stage.bnA (Stage.linA (Stage.vtOf (sH1 V0) (Stage.vn0 ⟪main_arg7⟫) ⟪main_arg2⟫)
        (Stage.w1At1 ⟪main_arg8⟫) (Stage.row256At1 ⟪main_arg9⟫)) (Stage.row256At1 ⟪main_arg10⟫) (Stage.row256At1 ⟪main_arg11⟫)) := by
  rw [res_v130, res_v129, res_v101, res_v100, res_v92_eq, F_v100_eq, F_v129_eq, F_v130_eq]

theorem res_v168_eq : res_v168 V0
    = Stage.mlp1 (Stage.vtOf (sH1 V0) (Stage.vn0 ⟪main_arg7⟫) ⟪main_arg2⟫)
        ⟪main_arg8⟫ ⟪main_arg9⟫ ⟪main_arg10⟫ ⟪main_arg11⟫ ⟪main_arg12⟫ ⟪main_arg13⟫ ⟪main_arg14⟫ ⟪main_arg15⟫ := by
  rw [res_v168, res_v167, res_v140, res_v142, res_v145, res_v152, res_v138, res_v130_eq, F_v138_eq, F_v167_eq, F_v168_eq]; rfl

theorem res_v169_eq : res_v169 V0 = sVnB V0 := by
  rw [res_v169, res_v29_eq, res_v168_eq, F_v169_eq]; rfl

/-! ## Layer 1 -/

theorem res_v182_eq : res_v182 V0 = Stage.prop ⟪main_arg1⟫ (sH1 V0) := by
  rw [res_v182, res_v6_eq, res_v28_eq, res_v88_eq, res_v3_eq]; exact F_v182_eq _ _ _ _

theorem res_v220_eq : res_v220 V0
    = Stage.convH1 (Stage.prop ⟪main_arg1⟫ (sH1 V0)) ⟪main_arg3⟫ ⟪main_arg4⟫ ⟪main_arg5⟫ ⟪main_arg6⟫ := by
  rw [res_v220, res_v219, res_v192, res_v194, res_v197, res_v204, res_v190, res_v182_eq, F_v190_eq, F_v219_eq, F_v220_eq]; rfl

theorem res_v228_eq : res_v228 V0 = sH2 V0 := by
  rw [res_v228, res_v220_eq, res_v169_eq, F_v228_eq]; rfl

/-! ## The last layer -/

theorem res_v322_eq : res_v322 V0 = Stage.prop ⟪main_arg1⟫ (sH2 V0) := by
  rw [res_v322, res_v310, res_v6_eq, res_v28_eq, res_v228_eq, res_v3_eq]; exact F_v322_eq _ _ _ _

theorem res_v359_eq : res_v359 V0 = sH3 V0 := by
  rw [res_v359, res_v330, res_v322_eq, F_v330_eq, F_v359_eq]; rfl

/-! ## The five propagation steps -/

theorem res_v377_eq : res_v377 V0 = sA1 V0 := by
  rw [res_v377, res_v360, res_v361, res_v6_eq, res_v28_eq, res_v359_eq, res_v3_eq]; exact F_v377_eq _ _ _ _

theorem res_v395_eq : res_v395 V0 = sA2 V0 := by
  rw [res_v395, res_v6_eq, res_v28_eq, res_v377_eq, res_v3_eq, res_v359_eq]; exact F_v395_eq _ _ _ _ _

theorem res_v413_eq : res_v413 V0 = sA3 V0 := by
  rw [res_v413, res_v408, res_v6_eq, res_v28_eq, res_v395_eq, res_v3_eq, res_v359_eq, F_v408_eq]; exact F_v413_eq _ _

theorem res_v431_eq : res_v431 V0 = sA4 V0 := by
  rw [res_v431, res_v6_eq, res_v28_eq, res_v413_eq, res_v3_eq, res_v359_eq]; exact F_v431_eq _ _ _ _ _

theorem res_v449_eq : res_v449 V0 = sA5 V0 := by
  rw [res_v449, res_v6_eq, res_v28_eq, res_v431_eq, res_v3_eq, res_v359_eq]; exact F_v449_eq _ _ _ _ _

/-! ## Pooling, the head, the result -/

theorem res_v461_eq : res_v461 V0 = Stage.pool (sA5 V0) ⟪main_arg2⟫ := by
  rw [res_v461, res_v456, res_v454, res_v453, res_v449_eq]; exact F_v461_eq _ _

/-- The array `%465` is the composition of the stages, of the eighteen arguments. -/
theorem res_v465_eq : res_v465 V0
    = Stage.refOutS ⟪main_arg0⟫ ⟪main_arg1⟫ ⟪main_arg2⟫ ⟪main_arg3⟫ ⟪main_arg4⟫ ⟪main_arg5⟫ ⟪main_arg6⟫ ⟪main_arg7⟫ ⟪main_arg8⟫
        ⟪main_arg9⟫ ⟪main_arg10⟫ ⟪main_arg11⟫ ⟪main_arg12⟫ ⟪main_arg13⟫ ⟪main_arg14⟫ ⟪main_arg15⟫ ⟪main_arg16⟫ ⟪main_arg17⟫ := by
  rw [refOutS_eq, res_v465, res_v461_eq, F_v465_eq]

end Cert.ReferenceIdeal.RefRun

namespace Cert.ReferenceIdeal.RefRun

open Idealize.ShloMosaic Idealize.ShloMosaic.TcCoe Idealize.SL.Sem Idealize.ShloMosaic.StableHlo
open Cert.ReferenceIdeal Cert.ReferenceIdeal.Gen

/-- The reference's result on device `c` from the memory `m` is the composition of the stages, of the
    eighteen arguments as `m` holds them on `c`. -/
theorem refOut_eq (m : (ℓ : Loc nD τ sig) → Buf (Elt Ideal) ℓ) (c : Dev nD) :
    refOut (F := Ideal) m c
      = Stage.refOutS (launchContents m c (Proc.devRef .tc main_arg0)) (launchContents m c (Proc.devRef .tc main_arg1))
          (launchContents m c (Proc.devRef .tc main_arg2)) (launchContents m c (Proc.devRef .tc main_arg3))
          (launchContents m c (Proc.devRef .tc main_arg4)) (launchContents m c (Proc.devRef .tc main_arg5))
          (launchContents m c (Proc.devRef .tc main_arg6)) (launchContents m c (Proc.devRef .tc main_arg7))
          (launchContents m c (Proc.devRef .tc main_arg8)) (launchContents m c (Proc.devRef .tc main_arg9))
          (launchContents m c (Proc.devRef .tc main_arg10)) (launchContents m c (Proc.devRef .tc main_arg11))
          (launchContents m c (Proc.devRef .tc main_arg12)) (launchContents m c (Proc.devRef .tc main_arg13))
          (launchContents m c (Proc.devRef .tc main_arg14)) (launchContents m c (Proc.devRef .tc main_arg15))
          (launchContents m c (Proc.devRef .tc main_arg16)) (launchContents m c (Proc.devRef .tc main_arg17)) :=
  res_v465_eq (launchContents m c)

/-- The same with each argument read from the memory at the thread's own location of it. -/
theorem refOut_eq_mem (m : (ℓ : Loc nD τ sig) → Buf (Elt Ideal) ℓ) (c : Dev nD) :
    refOut (F := Ideal) m c
      = Stage.refOutS (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17)) :=
  refOut_eq m c

end Cert.ReferenceIdeal.RefRun

end
-- ==== Proof.Assemble.lean ====
import proofs.«402460_j82824149336546_1_alg».proof.Defs
import proofs.«402460_j82824149336546_1_alg».proof.Proof.Gen.Kernel
import proofs.«402460_j82824149336546_1_alg».proof.Proof.Gen.KernelIdeal
import proofs.«402460_j82824149336546_1_alg».proof.Proof.Gen.ReferenceIdeal
import proofs.«402460_j82824149336546_1_alg».proof.Proof.Gen.Pre_finite_inputs
import proofs.«402460_j82824149336546_1_alg».proof.Proof.PreRange
import proofs.«402460_j82824149336546_1_alg».proof.Proof.K.Run
import proofs.«402460_j82824149336546_1_alg».proof.Proof.KI.Run
import proofs.«402460_j82824149336546_1_alg».proof.Proof.Val.KFoldA
import proofs.«402460_j82824149336546_1_alg».proof.Proof.Val.Bridge
import proofs.«402460_j82824149336546_1_alg».proof.Proof.Ref.Run
import proofs.«402460_j82824149336546_1_alg».proof.Proof.Val.RefOutEq
import Idealize.ShloMosaic.Adequacy
import Idealize.ShloMosaic.Init

/-!
# The five claims, from the runs and the value equation

* The three frame claims are the three runs' last conjuncts: each program terminates with its eighteen
  argument arrays as launched.
* The idealization rewrote no operation, so there is nothing to preserve.
* The algebraic claim. The kernel's run ends with every unscoped buffer at the last boundary's contents;
  at the result buffer those are the kernel's result function of the eighteen arguments, at an argument
  buffer the argument itself. The reference's run ends with its result array at the composition of the
  reference's stages, of its own arguments. The two memories agree on the arguments, and the precondition
  puts every graph index in 0 … 511, where the kernel's result function is the reference's composition
  (the indicator-matrix products are the row gather and the sum by graph). The common value is the witness.
-/

set_option maxRecDepth 16384

noncomputable section

namespace Cert.Proof

open Idealize.ShloMosaic Idealize.SL.Sem
open Cert.KernelIdeal (S50000x128 S2x600000 S50000 S3x128x128 S3x128 S128 S2x128x256 S2x256 S2x256x128 S2x128 S128x128 S512x128)

/-! ## The frames -/

/-- The kernel as printed runs and keeps its arguments. -/
theorem frame_k : Cert.frame_Kernel := fun m ρ _ => Cert.Kernel.Hand.frame (F := Bits) m ρ

/-- The kernel read at the ideal instance runs and keeps its arguments. -/
theorem frame_ki : Cert.frame_KernelIdeal := fun m ρ _ => Cert.KernelIdeal.Hand.frame (F := Ideal) m ρ

/-- The reference runs and keeps its arguments: its run without the result's conjunct. -/
theorem frame_ri : Cert.frame_ReferenceIdeal := fun m ρ _ =>
  (θ_run (Cert.ReferenceIdeal.defs (F := Ideal)) (onTc (τ := Cert.ReferenceIdeal.τ) (Cert.ReferenceIdeal.main (F := Ideal))) ⟨m, fun _ => 0, ρ⟩).mono (fun _ h c => (h c).2) (Cert.ReferenceIdeal.RefRun.run (F := Ideal) m ρ)

/-! ## The value claim -/

/-- From memories agreeing on the arguments both programs run, keep their arguments, and end with the same
    result: the kernel's result function of the arguments. -/
theorem algebraic : Cert.algebraic_KernelIdeal_ReferenceIdeal := by
  intro m ρ m' ρ' hpre hagree
  refine ⟨fun c => Cert.KernelIdeal.Stage.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · -- the kernel: every unscoped buffer ends at the last boundary's contents
    exact (θ_run (Cert.KernelIdeal.defs (F := Ideal)) (onTc (τ := Cert.KernelIdeal.τ) (Cert.KernelIdeal.main (F := Ideal))) ⟨m, fun _ => 0, ρ⟩).mono (fun r h c =>
      ⟨(h c _ (Cert.KernelIdeal.Hand.mem_uc Cert.KernelIdeal.main_v306 (by decide))).trans (Cert.KernelIdeal.Hand.kernel_value m ρ c),
       (h c _ (Cert.KernelIdeal.Hand.mem_uc Cert.KernelIdeal.main_arg0 (by decide))).trans (Cert.KernelIdeal.Hand.W23_main_arg0 m ρ c),
       (h c _ (Cert.KernelIdeal.Hand.mem_uc Cert.KernelIdeal.main_arg1 (by decide))).trans (Cert.KernelIdeal.Hand.W23_main_arg1 m ρ c),
       (h c _ (Cert.KernelIdeal.Hand.mem_uc Cert.KernelIdeal.main_arg2 (by decide))).trans (Cert.KernelIdeal.Hand.W23_main_arg2 m ρ c),
       (h c _ (Cert.KernelIdeal.Hand.mem_uc Cert.KernelIdeal.main_arg3 (by decide))).trans (Cert.KernelIdeal.Hand.W23_main_arg3 m ρ c),
       (h c _ (Cert.KernelIdeal.Hand.mem_uc Cert.KernelIdeal.main_arg4 (by decide))).trans (Cert.KernelIdeal.Hand.W23_main_arg4 m ρ c),
       (h c _ (Cert.KernelIdeal.Hand.mem_uc Cert.KernelIdeal.main_arg5 (by decide))).trans (Cert.KernelIdeal.Hand.W23_main_arg5 m ρ c),
       (h c _ (Cert.KernelIdeal.Hand.mem_uc Cert.KernelIdeal.main_arg6 (by decide))).trans (Cert.KernelIdeal.Hand.W23_main_arg6 m ρ c),
       (h c _ (Cert.KernelIdeal.Hand.mem_uc Cert.KernelIdeal.main_arg7 (by decide))).trans (Cert.KernelIdeal.Hand.W23_main_arg7 m ρ c),
       (h c _ (Cert.KernelIdeal.Hand.mem_uc Cert.KernelIdeal.main_arg8 (by decide))).trans (Cert.KernelIdeal.Hand.W23_main_arg8 m ρ c),
       (h c _ (Cert.KernelIdeal.Hand.mem_uc Cert.KernelIdeal.main_arg9 (by decide))).trans (Cert.KernelIdeal.Hand.W23_main_arg9 m ρ c),
       (h c _ (Cert.KernelIdeal.Hand.mem_uc Cert.KernelIdeal.main_arg10 (by decide))).trans (Cert.KernelIdeal.Hand.W23_main_arg10 m ρ c),
       (h c _ (Cert.KernelIdeal.Hand.mem_uc Cert.KernelIdeal.main_arg11 (by decide))).trans (Cert.KernelIdeal.Hand.W23_main_arg11 m ρ c),
       (h c _ (Cert.KernelIdeal.Hand.mem_uc Cert.KernelIdeal.main_arg12 (by decide))).trans (Cert.KernelIdeal.Hand.W23_main_arg12 m ρ c),
       (h c _ (Cert.KernelIdeal.Hand.mem_uc Cert.KernelIdeal.main_arg13 (by decide))).trans (Cert.KernelIdeal.Hand.W23_main_arg13 m ρ c),
       (h c _ (Cert.KernelIdeal.Hand.mem_uc Cert.KernelIdeal.main_arg14 (by decide))).trans (Cert.KernelIdeal.Hand.W23_main_arg14 m ρ c),
       (h c _ (Cert.KernelIdeal.Hand.mem_uc Cert.KernelIdeal.main_arg15 (by decide))).trans (Cert.KernelIdeal.Hand.W23_main_arg15 m ρ c),
       (h c _ (Cert.KernelIdeal.Hand.mem_uc Cert.KernelIdeal.main_arg16 (by decide))).trans (Cert.KernelIdeal.Hand.W23_main_arg16 m ρ c),
       (h c _ (Cert.KernelIdeal.Hand.mem_uc Cert.KernelIdeal.main_arg17 (by decide))).trans (Cert.KernelIdeal.Hand.W23_main_arg17 m ρ c)⟩) (Cert.KernelIdeal.Hand.run_all (F := Ideal) m ρ)
  · -- the reference: its result is the composition of its stages, which the kernel's result function equals
    refine (θ_run (Cert.ReferenceIdeal.defs (F := Ideal)) (onTc (τ := Cert.ReferenceIdeal.τ) (Cert.ReferenceIdeal.main (F := Ideal))) ⟨m', fun _ => 0, ρ'⟩).mono (fun r h c => ⟨(h c).1.trans ?_, (h c).2⟩) (Cert.ReferenceIdeal.RefRun.run (F := Ideal) m' ρ')
    have hr : Cert.Bridge.InRange (m ((c.tc : Thread Cert.KernelIdeal.nD Cert.KernelIdeal.τ).loc Cert.KernelIdeal.main_arg2)) := fun n =>
      Cert.PreRange.batch_range (F := Ideal) _ _ _ _ _ _ _ _ _ _ _ _ _ _ _ _ _ _ (hpre c) n
    exact (Cert.ReferenceIdeal.RefRun.refOut_eq_mem m' c).trans (Cert.Bridge.kernelOut_eq_refOutS_mem m m' c (hagree c) hr).symm

end Cert.Proof

end
-- ==== Proof.lean ====
/-
  What this certificate proves, and why it holds.

  THE TWO PROGRAMS. Both compute, for 512 graphs on 50000 nodes joined by 600000 edges and one self-loop per node,
  a graph network with a virtual node per graph. With A the edge list's symmetric normalisation (the in-degrees,
  bounded below by one, by a scatter of ones; their inverse square roots gathered at both ends of each edge and
  multiplied) a propagation is prop(h) = the rows of h gathered at the edges' sources, weighted by A, and summed at
  their destinations. Two hidden layers take h to relu(bn(prop(h) · W_i + b_i)) + vn[batch], bn the batch
  normalisation with the batch's own column means and variances; after each, the rows of h summed by graph, plus vn,
  pass through two dense maps, each followed by a batch normalisation and a rectifier, and the result is added to vn.
  A last layer is bn(prop(h) · W_2 + b_2) =: h0, followed by five steps h := 0.2 · prop(h) + 0.8 · h0. The rows of h are
  then averaged by graph (the sums by graph over the graphs' node counts bounded below by one) and a dense head
  pooled · Wout + bout gives the 512 × 128 result.

  WHERE THEY DIFFER. The reference reads vn[batch] by a gather and sums rows by graph by a scatter-add. The kernel
  forms the 50000 × 512 indicator matrix E, E[n, g] = 1 if batch[n] = g and 0 otherwise, and takes the gather as the
  product E · vn and the sum by graph as the product Eᵀ · h. It walks the nodes in 25 tiles of 2000 rows: a tile of
  the node rows is stored whole at its own step, and Eᵀ · h is accumulated tile by tile in a scratch array that is
  stored at the last step. Its matrix products take their operands through a 16-bit format and accumulate in 32 bits.
  The column means and variances of the two hidden layers and of the last one are computed outside the tiled regions,
  from the same affine map that the regions compute again tile by tile.

  WHY THEY AGREE, at the ideal instance (a float an extended real, every operation the exact one, a change of format
  the identity) and with every graph index in 0 … 511:
  * row n of E then has exactly one 1, in column batch[n], so (E · vn)[n] = vn[batch[n]] and
    (Eᵀ · h)[g] = Σ over the nodes n with batch[n] = g of h[n], the scatter-add's value. (Outside that range the row
    of E is zero, while the reference wraps a negative index once: this is what the precondition is for.)
  * a sum over the 50000 nodes is the sum over the 25 tiles of the sums over a tile's 2000 rows;
  * a change of format being the identity, each matrix product is the exact product, and the affine map the regions
    compute again is the one the statistics were taken from;
  * all the rest — the normalisation A, the propagations, the batch normalisations, the rectifiers, the blend
    0.2 · prop(h) + 0.8 · h0, the division by the node counts, the head — is the same operations on both sides.
  So the kernel's result, as a function of its eighteen arguments, is the composition of the reference's stages.

  THE CLAIMS. Each of the three programs (the kernel as printed, the kernel read at the ideal instance, the reference)
  terminates from any memory with zero counters with its eighteen argument arrays as launched: the kernel's twelve
  regions and eleven host stretches are run one after another, each region from the contents the stretch before it
  left; the reference is one line of array operations. The idealization rewrote no operation: nothing to preserve.
  From memories that agree on the arguments and satisfy the precondition, both ideal programs end with the same
  result array and unchanged arguments.
-/
import proofs.«402460_j82824149336546_1_alg».proof.Defs
import proofs.«402460_j82824149336546_1_alg».proof.Proof.Assemble

noncomputable section

namespace Cert.Proof

open Idealize.ShloMosaic Idealize.SL.Sem

/-- Everything the certificate claims: the programs' stated facts, the three frames, the idealization (which
    rewrote nothing), and the equality of the two ideal programs' results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
